-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S8192x1024 : Shape := ⟨2, ![8192, 1024]⟩
abbrev S12 : Shape := ⟨1, ![12]⟩
abbrev S8 : Shape := ⟨1, ![8]⟩
abbrev S_ : Shape := ⟨0, ![]⟩
abbrev S1 : Shape := ⟨1, ![1]⟩
abbrev S112x1024 : Shape := ⟨2, ![112, 1024]⟩
abbrev S224x1024 : Shape := ⟨2, ![224, 1024]⟩
abbrev S168x1024 : Shape := ⟨2, ![168, 1024]⟩
abbrev S176x1024 : Shape := ⟨2, ![176, 1024]⟩
abbrev S672x1024 : Shape := ⟨2, ![672, 1024]⟩
abbrev S704x1024 : Shape := ⟨2, ![704, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S8192x1024, .bf16⟩
  | .local _ .vmem, ⟨0, _⟩ => ⟨S4096x1024, .f32⟩
  | .local _ .vmem, ⟨1, _⟩ => ⟨S4096x1024, .bf16⟩
  | .local _ .vmem, ⟨2, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c0_i32_30 : BitVec 32 := 0#32
  ![v28.toNat, 0]
def k0_off2 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let c0_i32_33 : BitVec 32 := 0#32
  ![v47.toNat, 0]
def k0_off3 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let c224_i32 : BitVec 32 := 224#32
  let v48 : BitVec 32 := Scalar.addi v47 c224_i32
  let c0_i32_36 : BitVec 32 := 0#32
  ![v48.toNat, 0]
def k0_off4 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let c224_i32 : BitVec 32 := 224#32
  let v48 : BitVec 32 := Scalar.addi v47 c224_i32
  let c168_i32 : BitVec 32 := 168#32
  let v49 : BitVec 32 := Scalar.addi v48 c168_i32
  let c0_i32_38 : BitVec 32 := 0#32
  ![v49.toNat, 0]
def k0_off5 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c0_i32_41 : BitVec 32 := 0#32
  ![v43.toNat, 0]
def k0_off6 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let c0_i32_43 : BitVec 32 := 0#32
  ![v50.toNat, 0]
def k0_off7 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let c176_i32_27 : BitVec 32 := 176#32
  let v51 : BitVec 32 := Scalar.addi v50 c176_i32_27
  let c0_i32_45 : BitVec 32 := 0#32
  ![v51.toNat, 0]
def k0_off8 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let c176_i32_27 : BitVec 32 := 176#32
  let v51 : BitVec 32 := Scalar.addi v50 c176_i32_27
  let c176_i32_28 : BitVec 32 := 176#32
  let v52 : BitVec 32 := Scalar.addi v51 c176_i32_28
  let c0_i32_47 : BitVec 32 := 0#32
  ![v52.toNat, 0]
def k0_off9 (d0 : Dev nD) : Fin 2 → Nat :=
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c0_i32_49 : BitVec 32 := 0#32
  ![v32.toNat, 0]
def k0_off10 (d0 : Dev nD) : Fin 2 → Nat :=
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c0_i32_51 : BitVec 32 := 0#32
  ![v36.toNat, 0]
def k0_off11 (d0 : Dev nD) : Fin 2 → Nat :=
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c0_i32_53 : BitVec 32 := 0#32
  ![v41.toNat, 0]
def k0_off12 (d0 : Dev nD) : Fin 2 → Nat :=
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let c0_i32_55 : BitVec 32 := 0#32
  ![v46.toNat, 0]
def k0_dev1 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v102 : BitVec 32 := Scalar.muli v2 c4_i32_58
  let v103 : BitVec 32 := Scalar.addi c0_i32_59 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v104 : BitVec 32 := Scalar.muli v5 c2_i32_60
  let v105 : BitVec 32 := Scalar.addi v103 v104
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_61 : BitVec 32 := 1#32
  let v106 : BitVec 32 := Scalar.muli v9 c1_i32_61
  let v107 : BitVec 32 := Scalar.addi v105 v106
  v107.toNat
def k0_dev2 (d0 : Dev nD) : Nat :=
  let c0_i32_64 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_63 : BitVec 32 := 4#32
  let v108 : BitVec 32 := Scalar.muli v10 c4_i32_63
  let v109 : BitVec 32 := Scalar.addi c0_i32_64 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v110 : BitVec 32 := Scalar.muli v5 c2_i32_65
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v112 : BitVec 32 := Scalar.muli v8 c1_i32_66
  let v113 : BitVec 32 := Scalar.addi v111 v112
  v113.toNat
def k0_dev3 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v114 : BitVec 32 := Scalar.muli v2 c4_i32_68
  let v115 : BitVec 32 := Scalar.addi c0_i32_69 v114
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_70 : BitVec 32 := 2#32
  let v116 : BitVec 32 := Scalar.muli v11 c2_i32_70
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v118 : BitVec 32 := Scalar.muli v8 c1_i32_71
  let v119 : BitVec 32 := Scalar.addi v117 v118
  v119.toNat
def k0_off13 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let v136 : Index := Scalar.indexCast v28
  let c0 : Index := 0#32
  ![v136.toNat, 0]
def k0_dev4 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v143 : BitVec 32 := Scalar.muli v2 c4_i32_89
  let v144 : BitVec 32 := Scalar.addi c0_i32_90 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v145 : BitVec 32 := Scalar.muli v5 c2_i32_91
  let v146 : BitVec 32 := Scalar.addi v144 v145
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v147 : BitVec 32 := Scalar.muli v9 c1_i32_92
  let v148 : BitVec 32 := Scalar.addi v146 v147
  v148.toNat
def k0_off14 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let v159 : Index := Scalar.indexCast v47
  let c0_98 : Index := 0#32
  ![v159.toNat, 0]
def k0_dev5 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v166 : BitVec 32 := Scalar.muli v2 c4_i32_102
  let v167 : BitVec 32 := Scalar.addi c0_i32_103 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v168 : BitVec 32 := Scalar.muli v5 c2_i32_104
  let v169 : BitVec 32 := Scalar.addi v167 v168
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_105 : BitVec 32 := 1#32
  let v170 : BitVec 32 := Scalar.muli v9 c1_i32_105
  let v171 : BitVec 32 := Scalar.addi v169 v170
  v171.toNat
def k0_off15 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let c224_i32 : BitVec 32 := 224#32
  let v48 : BitVec 32 := Scalar.addi v47 c224_i32
  let v182 : Index := Scalar.indexCast v48
  let c0_111 : Index := 0#32
  ![v182.toNat, 0]
def k0_dev6 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v189 : BitVec 32 := Scalar.muli v2 c4_i32_115
  let v190 : BitVec 32 := Scalar.addi c0_i32_116 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v191 : BitVec 32 := Scalar.muli v5 c2_i32_117
  let v192 : BitVec 32 := Scalar.addi v190 v191
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_118 : BitVec 32 := 1#32
  let v193 : BitVec 32 := Scalar.muli v9 c1_i32_118
  let v194 : BitVec 32 := Scalar.addi v192 v193
  v194.toNat
def k0_off16 (d0 : Dev nD) : Fin 2 → Nat :=
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let c224_i32 : BitVec 32 := 224#32
  let v48 : BitVec 32 := Scalar.addi v47 c224_i32
  let c168_i32 : BitVec 32 := 168#32
  let v49 : BitVec 32 := Scalar.addi v48 c168_i32
  let v205 : Index := Scalar.indexCast v49
  let c0_124 : Index := 0#32
  ![v205.toNat, 0]
def k0_dev7 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v212 : BitVec 32 := Scalar.muli v2 c4_i32_128
  let v213 : BitVec 32 := Scalar.addi c0_i32_129 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v214 : BitVec 32 := Scalar.muli v5 c2_i32_130
  let v215 : BitVec 32 := Scalar.addi v213 v214
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_131 : BitVec 32 := 1#32
  let v216 : BitVec 32 := Scalar.muli v9 c1_i32_131
  let v217 : BitVec 32 := Scalar.addi v215 v216
  v217.toNat
def k0_off17 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let v228 : Index := Scalar.indexCast v43
  let c0_137 : Index := 0#32
  ![v228.toNat, 0]
def k0_dev8 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_141 : BitVec 32 := 4#32
  let v235 : BitVec 32 := Scalar.muli v2 c4_i32_141
  let v236 : BitVec 32 := Scalar.addi c0_i32_142 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v237 : BitVec 32 := Scalar.muli v5 c2_i32_143
  let v238 : BitVec 32 := Scalar.addi v236 v237
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_144 : BitVec 32 := 1#32
  let v239 : BitVec 32 := Scalar.muli v9 c1_i32_144
  let v240 : BitVec 32 := Scalar.addi v238 v239
  v240.toNat
def k0_off18 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let v251 : Index := Scalar.indexCast v50
  let c0_150 : Index := 0#32
  ![v251.toNat, 0]
def k0_dev9 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v258 : BitVec 32 := Scalar.muli v2 c4_i32_154
  let v259 : BitVec 32 := Scalar.addi c0_i32_155 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v260 : BitVec 32 := Scalar.muli v5 c2_i32_156
  let v261 : BitVec 32 := Scalar.addi v259 v260
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_157 : BitVec 32 := 1#32
  let v262 : BitVec 32 := Scalar.muli v9 c1_i32_157
  let v263 : BitVec 32 := Scalar.addi v261 v262
  v263.toNat
def k0_off19 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let c176_i32_27 : BitVec 32 := 176#32
  let v51 : BitVec 32 := Scalar.addi v50 c176_i32_27
  let v274 : Index := Scalar.indexCast v51
  let c0_163 : Index := 0#32
  ![v274.toNat, 0]
def k0_dev10 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v281 : BitVec 32 := Scalar.muli v2 c4_i32_167
  let v282 : BitVec 32 := Scalar.addi c0_i32_168 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v283 : BitVec 32 := Scalar.muli v5 c2_i32_169
  let v284 : BitVec 32 := Scalar.addi v282 v283
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v285 : BitVec 32 := Scalar.muli v9 c1_i32_170
  let v286 : BitVec 32 := Scalar.addi v284 v285
  v286.toNat
def k0_off20 (d0 : Dev nD) : Fin 2 → Nat :=
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let c176_i32_27 : BitVec 32 := 176#32
  let v51 : BitVec 32 := Scalar.addi v50 c176_i32_27
  let c176_i32_28 : BitVec 32 := 176#32
  let v52 : BitVec 32 := Scalar.addi v51 c176_i32_28
  let v297 : Index := Scalar.indexCast v52
  let c0_176 : Index := 0#32
  ![v297.toNat, 0]
def k0_dev11 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v304 : BitVec 32 := Scalar.muli v2 c4_i32_180
  let v305 : BitVec 32 := Scalar.addi c0_i32_181 v304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v306 : BitVec 32 := Scalar.muli v5 c2_i32_182
  let v307 : BitVec 32 := Scalar.addi v305 v306
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_183 : BitVec 32 := 1#32
  let v308 : BitVec 32 := Scalar.muli v9 c1_i32_183
  let v309 : BitVec 32 := Scalar.addi v307 v308
  v309.toNat
def k0_dev12 (d0 : Dev nD) : Nat :=
  let c0_i32_197 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_196 : BitVec 32 := 4#32
  let v326 : BitVec 32 := Scalar.muli v10 c4_i32_196
  let v327 : BitVec 32 := Scalar.addi c0_i32_197 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v328 : BitVec 32 := Scalar.muli v5 c2_i32_198
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v330 : BitVec 32 := Scalar.muli v8 c1_i32_199
  let v331 : BitVec 32 := Scalar.addi v329 v330
  v331.toNat
def k0_dev13 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v338 : BitVec 32 := Scalar.muli v2 c4_i32_204
  let v339 : BitVec 32 := Scalar.addi c0_i32_205 v338
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_206 : BitVec 32 := 2#32
  let v340 : BitVec 32 := Scalar.muli v11 c2_i32_206
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v342 : BitVec 32 := Scalar.muli v8 c1_i32_207
  let v343 : BitVec 32 := Scalar.addi v341 v342
  v343.toNat
def k0_off21 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let v350 : BitVec 32 := Scalar.addi v25 v28
  let c0_i32_211 : BitVec 32 := 0#32
  ![v350.toNat, 0]
def k0_dev14 (d0 : Dev nD) : Nat :=
  let c0_i32_224 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_223 : BitVec 32 := 4#32
  let v365 : BitVec 32 := Scalar.muli v10 c4_i32_223
  let v366 : BitVec 32 := Scalar.addi c0_i32_224 v365
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v367 : BitVec 32 := Scalar.muli v5 c2_i32_225
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v369 : BitVec 32 := Scalar.muli v8 c1_i32_226
  let v370 : BitVec 32 := Scalar.addi v368 v369
  v370.toNat
def k0_dev15 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v377 : BitVec 32 := Scalar.muli v2 c4_i32_231
  let v378 : BitVec 32 := Scalar.addi c0_i32_232 v377
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_233 : BitVec 32 := 2#32
  let v379 : BitVec 32 := Scalar.muli v11 c2_i32_233
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_234 : BitVec 32 := 1#32
  let v381 : BitVec 32 := Scalar.muli v8 c1_i32_234
  let v382 : BitVec 32 := Scalar.addi v380 v381
  v382.toNat
def k0_off22 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let v389 : BitVec 32 := Scalar.addi v25 v47
  let c0_i32_238 : BitVec 32 := 0#32
  ![v389.toNat, 0]
def k0_off23 (d0 : Dev nD) : Fin 2 → Nat :=
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c0_i32_246 : BitVec 32 := 0#32
  ![v36.toNat, 0]
def k0_off24 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let v404 : BitVec 32 := Scalar.addi v25 v36
  let c0_i32_249 : BitVec 32 := 0#32
  ![v404.toNat, 0]
def k0_dev16 (d0 : Dev nD) : Nat :=
  let c0_i32_254 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_253 : BitVec 32 := 4#32
  let v409 : BitVec 32 := Scalar.muli v10 c4_i32_253
  let v410 : BitVec 32 := Scalar.addi c0_i32_254 v409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v411 : BitVec 32 := Scalar.muli v5 c2_i32_255
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v413 : BitVec 32 := Scalar.muli v8 c1_i32_256
  let v414 : BitVec 32 := Scalar.addi v412 v413
  v414.toNat
def k0_dev17 (d0 : Dev nD) : Nat :=
  let c0_i32_270 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_269 : BitVec 32 := 4#32
  let v431 : BitVec 32 := Scalar.muli v10 c4_i32_269
  let v432 : BitVec 32 := Scalar.addi c0_i32_270 v431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v433 : BitVec 32 := Scalar.muli v5 c2_i32_271
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v435 : BitVec 32 := Scalar.muli v8 c1_i32_272
  let v436 : BitVec 32 := Scalar.addi v434 v435
  v436.toNat
def k0_dev18 (d0 : Dev nD) : Nat :=
  let c0_i32_278 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_277 : BitVec 32 := 4#32
  let v443 : BitVec 32 := Scalar.muli v2 c4_i32_277
  let v444 : BitVec 32 := Scalar.addi c0_i32_278 v443
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_279 : BitVec 32 := 2#32
  let v445 : BitVec 32 := Scalar.muli v11 c2_i32_279
  let v446 : BitVec 32 := Scalar.addi v444 v445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v447 : BitVec 32 := Scalar.muli v8 c1_i32_280
  let v448 : BitVec 32 := Scalar.addi v446 v447
  v448.toNat
def k0_off25 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let c224_i32 : BitVec 32 := 224#32
  let v48 : BitVec 32 := Scalar.addi v47 c224_i32
  let v455 : BitVec 32 := Scalar.addi v25 v48
  let c0_i32_284 : BitVec 32 := 0#32
  ![v455.toNat, 0]
def k0_dev19 (d0 : Dev nD) : Nat :=
  let c0_i32_297 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_296 : BitVec 32 := 4#32
  let v470 : BitVec 32 := Scalar.muli v10 c4_i32_296
  let v471 : BitVec 32 := Scalar.addi c0_i32_297 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v472 : BitVec 32 := Scalar.muli v5 c2_i32_298
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_299 : BitVec 32 := 1#32
  let v474 : BitVec 32 := Scalar.muli v8 c1_i32_299
  let v475 : BitVec 32 := Scalar.addi v473 v474
  v475.toNat
def k0_dev20 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v482 : BitVec 32 := Scalar.muli v2 c4_i32_304
  let v483 : BitVec 32 := Scalar.addi c0_i32_305 v482
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_306 : BitVec 32 := 2#32
  let v484 : BitVec 32 := Scalar.muli v11 c2_i32_306
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v486 : BitVec 32 := Scalar.muli v8 c1_i32_307
  let v487 : BitVec 32 := Scalar.addi v485 v486
  v487.toNat
def k0_off26 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_13 v5
  let v27 : BitVec 32 := Scalar.addi v2 v26
  let v28 : BitVec 32 := Scalar.muli c672_i32 v27
  let c112_i32 : BitVec 32 := 112#32
  let v47 : BitVec 32 := Scalar.addi v28 c112_i32
  let c224_i32 : BitVec 32 := 224#32
  let v48 : BitVec 32 := Scalar.addi v47 c224_i32
  let c168_i32 : BitVec 32 := 168#32
  let v49 : BitVec 32 := Scalar.addi v48 c168_i32
  let v494 : BitVec 32 := Scalar.addi v25 v49
  let c0_i32_311 : BitVec 32 := 0#32
  ![v494.toNat, 0]
def k0_off27 (d0 : Dev nD) : Fin 2 → Nat :=
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c112_i32_78 : BitVec 32 := 112#32
  let v125 : BitVec 32 := Scalar.addi v36 c112_i32_78
  let c0_i32_319 : BitVec 32 := 0#32
  ![v125.toNat, 0]
def k0_off28 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c112_i32_78 : BitVec 32 := 112#32
  let v125 : BitVec 32 := Scalar.addi v36 c112_i32_78
  let v509 : BitVec 32 := Scalar.addi v25 v125
  let c0_i32_322 : BitVec 32 := 0#32
  ![v509.toNat, 0]
def k0_dev21 (d0 : Dev nD) : Nat :=
  let c0_i32_328 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_327 : BitVec 32 := 4#32
  let v515 : BitVec 32 := Scalar.muli v10 c4_i32_327
  let v516 : BitVec 32 := Scalar.addi c0_i32_328 v515
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v517 : BitVec 32 := Scalar.muli v5 c2_i32_329
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v519 : BitVec 32 := Scalar.muli v8 c1_i32_330
  let v520 : BitVec 32 := Scalar.addi v518 v519
  v520.toNat
def k0_off29 (d0 : Dev nD) (c112_i32_73 : BitVec 32) (c224_i32_74 : BitVec 32) : Fin 2 → Nat :=
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let v120 : BitVec 32 := Scalar.addi v32 c112_i32_73
  let v121 : BitVec 32 := Scalar.addi v120 c224_i32_74
  let c0_i32_339 : BitVec 32 := 0#32
  ![v121.toNat, 0]
def k0_off29_at (r : Fin 2) : BitVec 32 × BitVec 32 :=
  if r.val < 1 then
    (112#32, 224#32)
  else
    (336#32, 168#32)
def k0_off30 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c112_i32_73 : BitVec 32 := 112#32
  let v120 : BitVec 32 := Scalar.addi v32 c112_i32_73
  let c224_i32_74 : BitVec 32 := 224#32
  let v121 : BitVec 32 := Scalar.addi v120 c224_i32_74
  let v537 : BitVec 32 := Scalar.addi v25 v121
  let c0_i32_342 : BitVec 32 := 0#32
  ![v537.toNat, 0]
def k0_off31 (d0 : Dev nD) : Fin 2 → Nat :=
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c336_i32_344 : BitVec 32 := 336#32
  let v542 : BitVec 32 := Scalar.addi v32 c336_i32_344
  let c0_i32_351 : BitVec 32 := 0#32
  ![v542.toNat, 0]
def k0_dev22 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v543 : BitVec 32 := Scalar.muli v2 c4_i32_347
  let v544 : BitVec 32 := Scalar.addi c0_i32_348 v543
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_349 : BitVec 32 := 2#32
  let v545 : BitVec 32 := Scalar.muli v11 c2_i32_349
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v547 : BitVec 32 := Scalar.muli v8 c1_i32_350
  let v548 : BitVec 32 := Scalar.addi v546 v547
  v548.toNat
def k0_off32 (d0 : Dev nD) : Fin 2 → Nat :=
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c112_i32_73 : BitVec 32 := 112#32
  let v120 : BitVec 32 := Scalar.addi v32 c112_i32_73
  let c224_i32_74 : BitVec 32 := 224#32
  let v121 : BitVec 32 := Scalar.addi v120 c224_i32_74
  let c168_i32_75 : BitVec 32 := 168#32
  let v122 : BitVec 32 := Scalar.addi v121 c168_i32_75
  let c0_i32_359 : BitVec 32 := 0#32
  ![v122.toNat, 0]
def k0_off33 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c112_i32_73 : BitVec 32 := 112#32
  let v120 : BitVec 32 := Scalar.addi v32 c112_i32_73
  let c224_i32_74 : BitVec 32 := 224#32
  let v121 : BitVec 32 := Scalar.addi v120 c224_i32_74
  let c168_i32_75 : BitVec 32 := 168#32
  let v122 : BitVec 32 := Scalar.addi v121 c168_i32_75
  let v565 : BitVec 32 := Scalar.addi v25 v122
  let c0_i32_362 : BitVec 32 := 0#32
  ![v565.toNat, 0]
def k0_dev23 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v572 : BitVec 32 := Scalar.muli v2 c4_i32_368
  let v573 : BitVec 32 := Scalar.addi c0_i32_369 v572
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_370 : BitVec 32 := 2#32
  let v574 : BitVec 32 := Scalar.muli v11 c2_i32_370
  let v575 : BitVec 32 := Scalar.addi v573 v574
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v576 : BitVec 32 := Scalar.muli v8 c1_i32_371
  let v577 : BitVec 32 := Scalar.addi v575 v576
  v577.toNat
def k0_dev24 (d0 : Dev nD) : Nat :=
  let c0_i32_385 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_384 : BitVec 32 := 4#32
  let v594 : BitVec 32 := Scalar.muli v10 c4_i32_384
  let v595 : BitVec 32 := Scalar.addi c0_i32_385 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v596 : BitVec 32 := Scalar.muli v5 c2_i32_386
  let v597 : BitVec 32 := Scalar.addi v595 v596
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v598 : BitVec 32 := Scalar.muli v8 c1_i32_387
  let v599 : BitVec 32 := Scalar.addi v597 v598
  v599.toNat
def k0_off34 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let v606 : BitVec 32 := Scalar.addi v25 v43
  let c0_i32_391 : BitVec 32 := 0#32
  ![v606.toNat, 0]
def k0_dev25 (d0 : Dev nD) : Nat :=
  let c0_i32_404 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_403 : BitVec 32 := 4#32
  let v621 : BitVec 32 := Scalar.muli v10 c4_i32_403
  let v622 : BitVec 32 := Scalar.addi c0_i32_404 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v623 : BitVec 32 := Scalar.muli v5 c2_i32_405
  let v624 : BitVec 32 := Scalar.addi v622 v623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v625 : BitVec 32 := Scalar.muli v8 c1_i32_406
  let v626 : BitVec 32 := Scalar.addi v624 v625
  v626.toNat
def k0_off35 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let v633 : BitVec 32 := Scalar.addi v25 v50
  let c0_i32_410 : BitVec 32 := 0#32
  ![v633.toNat, 0]
def k0_dev26 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v648 : BitVec 32 := Scalar.muli v2 c4_i32_422
  let v649 : BitVec 32 := Scalar.addi c0_i32_423 v648
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_424 : BitVec 32 := 2#32
  let v650 : BitVec 32 := Scalar.muli v11 c2_i32_424
  let v651 : BitVec 32 := Scalar.addi v649 v650
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_425 : BitVec 32 := 1#32
  let v652 : BitVec 32 := Scalar.muli v8 c1_i32_425
  let v653 : BitVec 32 := Scalar.addi v651 v652
  v653.toNat
def k0_off36 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let c176_i32_27 : BitVec 32 := 176#32
  let v51 : BitVec 32 := Scalar.addi v50 c176_i32_27
  let v660 : BitVec 32 := Scalar.addi v25 v51
  let c0_i32_429 : BitVec 32 := 0#32
  ![v660.toNat, 0]
def k0_dev27 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_441 : BitVec 32 := 4#32
  let v675 : BitVec 32 := Scalar.muli v2 c4_i32_441
  let v676 : BitVec 32 := Scalar.addi c0_i32_442 v675
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_443 : BitVec 32 := 2#32
  let v677 : BitVec 32 := Scalar.muli v11 c2_i32_443
  let v678 : BitVec 32 := Scalar.addi v676 v677
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_444 : BitVec 32 := 1#32
  let v679 : BitVec 32 := Scalar.muli v8 c1_i32_444
  let v680 : BitVec 32 := Scalar.addi v678 v679
  v680.toNat
def k0_off37 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c2688_i32 : BitVec 32 := 2688#32
  let c704_i32 : BitVec 32 := 704#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v42 : BitVec 32 := Scalar.muli c704_i32 v22
  let v43 : BitVec 32 := Scalar.addi c2688_i32 v42
  let c176_i32 : BitVec 32 := 176#32
  let v50 : BitVec 32 := Scalar.addi v43 c176_i32
  let c176_i32_27 : BitVec 32 := 176#32
  let v51 : BitVec 32 := Scalar.addi v50 c176_i32_27
  let c176_i32_28 : BitVec 32 := 176#32
  let v52 : BitVec 32 := Scalar.addi v51 c176_i32_28
  let v687 : BitVec 32 := Scalar.addi v25 v52
  let c0_i32_448 : BitVec 32 := 0#32
  ![v687.toNat, 0]
def k0_off38 (d0 : Dev nD) : Fin 2 → Nat :=
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let v696 : Index := Scalar.indexCast v32
  let c0_453 : Index := 0#32
  ![v696.toNat, 0]
def k0_off39 (d0 : Dev nD) : Fin 2 → Nat :=
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let v707 : Index := Scalar.indexCast v36
  let c0_458 : Index := 0#32
  ![v707.toNat, 0]
def k0_off40 (d0 : Dev nD) : Fin 2 → Nat :=
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let v718 : Index := Scalar.indexCast v41
  let c0_463 : Index := 0#32
  ![v718.toNat, 0]
def k0_off41 (d0 : Dev nD) : Fin 2 → Nat :=
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let v729 : Index := Scalar.indexCast v46
  let c0_468 : Index := 0#32
  ![v729.toNat, 0]
def k0_off42 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v23 : BitVec 32 := Scalar.muli v8 c4096_i32
  let c0_i32_470 : BitVec 32 := 0#32
  ![v23.toNat, 0]
def k0_off43 (d0 : Dev nD) : Fin 2 → Nat :=
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c0_i32_477 : BitVec 32 := 0#32
  ![v32.toNat, 0]
def k0_off44 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let v747 : BitVec 32 := Scalar.addi v25 v32
  let c0_i32_480 : BitVec 32 := 0#32
  ![v747.toNat, 0]
def k0_off45 (d0 : Dev nD) : Fin 2 → Nat :=
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c112_i32_73 : BitVec 32 := 112#32
  let v120 : BitVec 32 := Scalar.addi v32 c112_i32_73
  let c0_i32_488 : BitVec 32 := 0#32
  ![v120.toNat, 0]
def k0_off46 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_16 : BitVec 32 := 672#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c2_i32_15 v5
  let v31 : BitVec 32 := Scalar.addi v29 v30
  let v32 : BitVec 32 := Scalar.muli c672_i32_16 v31
  let c112_i32_73 : BitVec 32 := 112#32
  let v120 : BitVec 32 := Scalar.addi v32 c112_i32_73
  let v762 : BitVec 32 := Scalar.addi v25 v120
  let c0_i32_491 : BitVec 32 := 0#32
  ![v762.toNat, 0]
def k0_off47 (d0 : Dev nD) : Fin 2 → Nat :=
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let c0_i32_499 : BitVec 32 := 0#32
  ![v46.toNat, 0]
def k0_off48 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let v777 : BitVec 32 := Scalar.addi v25 v46
  let c0_i32_502 : BitVec 32 := 0#32
  ![v777.toNat, 0]
def k0_off49 (d0 : Dev nD) (c176_i32_76 : BitVec 32) : Fin 2 → Nat :=
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let v123 : BitVec 32 := Scalar.addi v46 c176_i32_76
  let c0_i32_510 : BitVec 32 := 0#32
  ![v123.toNat, 0]
def k0_off50 (d0 : Dev nD) (c176_i32_76 : BitVec 32) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let v123 : BitVec 32 := Scalar.addi v46 c176_i32_76
  let v792 : BitVec 32 := Scalar.addi v25 v123
  let c0_i32_513 : BitVec 32 := 0#32
  ![v792.toNat, 0]
def k0_off51 (d0 : Dev nD) : Fin 2 → Nat :=
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c0_i32_521 : BitVec 32 := 0#32
  ![v41.toNat, 0]
def k0_off52 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let v807 : BitVec 32 := Scalar.addi v25 v41
  let c0_i32_524 : BitVec 32 := 0#32
  ![v807.toNat, 0]
def k0_off53 (d0 : Dev nD) : Fin 2 → Nat :=
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c112_i32_77 : BitVec 32 := 112#32
  let v124 : BitVec 32 := Scalar.addi v41 c112_i32_77
  let c0_i32_532 : BitVec 32 := 0#32
  ![v124.toNat, 0]
def k0_off54 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c112_i32_77 : BitVec 32 := 112#32
  let v124 : BitVec 32 := Scalar.addi v41 c112_i32_77
  let v822 : BitVec 32 := Scalar.addi v25 v124
  let c0_i32_535 : BitVec 32 := 0#32
  ![v822.toNat, 0]
def k0_off55 (d0 : Dev nD) : Fin 2 → Nat :=
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c112_i32_78 : BitVec 32 := 112#32
  let v125 : BitVec 32 := Scalar.addi v36 c112_i32_78
  let c224_i32_79 : BitVec 32 := 224#32
  let v126 : BitVec 32 := Scalar.addi v125 c224_i32_79
  let c0_i32_543 : BitVec 32 := 0#32
  ![v126.toNat, 0]
def k0_off56 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c112_i32_78 : BitVec 32 := 112#32
  let v125 : BitVec 32 := Scalar.addi v36 c112_i32_78
  let c224_i32_79 : BitVec 32 := 224#32
  let v126 : BitVec 32 := Scalar.addi v125 c224_i32_79
  let v837 : BitVec 32 := Scalar.addi v25 v126
  let c0_i32_546 : BitVec 32 := 0#32
  ![v837.toNat, 0]
def k0_off57 (d0 : Dev nD) : Fin 2 → Nat :=
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c112_i32_78 : BitVec 32 := 112#32
  let v125 : BitVec 32 := Scalar.addi v36 c112_i32_78
  let c224_i32_79 : BitVec 32 := 224#32
  let v126 : BitVec 32 := Scalar.addi v125 c224_i32_79
  let c168_i32_80 : BitVec 32 := 168#32
  let v127 : BitVec 32 := Scalar.addi v126 c168_i32_80
  let c0_i32_554 : BitVec 32 := 0#32
  ![v127.toNat, 0]
def k0_off58 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_19 : BitVec 32 := 672#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_18 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_17 v5
  let v34 : BitVec 32 := Scalar.muli c2_i32_18 v33
  let v35 : BitVec 32 := Scalar.addi v2 v34
  let v36 : BitVec 32 := Scalar.muli c672_i32_19 v35
  let c112_i32_78 : BitVec 32 := 112#32
  let v125 : BitVec 32 := Scalar.addi v36 c112_i32_78
  let c224_i32_79 : BitVec 32 := 224#32
  let v126 : BitVec 32 := Scalar.addi v125 c224_i32_79
  let c168_i32_80 : BitVec 32 := 168#32
  let v127 : BitVec 32 := Scalar.addi v126 c168_i32_80
  let v852 : BitVec 32 := Scalar.addi v25 v127
  let c0_i32_557 : BitVec 32 := 0#32
  ![v852.toNat, 0]
def k0_off59 (d0 : Dev nD) : Fin 2 → Nat :=
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let c352_i32 : BitVec 32 := 352#32
  let v128 : BitVec 32 := Scalar.addi v46 c352_i32
  let c176_i32_81 : BitVec 32 := 176#32
  let v129 : BitVec 32 := Scalar.addi v128 c176_i32_81
  let c0_i32_576 : BitVec 32 := 0#32
  ![v129.toNat, 0]
def k0_off60 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c2688_i32_26 : BitVec 32 := 2688#32
  let c704_i32_25 : BitVec 32 := 704#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v2 v5
  let c2_i32_6 : BitVec 32 := 2#32
  let c0_i32 : BitVec 32 := 0#32
  let v13 : BitVec 1 := Scalar.cmpi .eq c2_i32_6 c0_i32
  let c1_i32_7 : BitVec 32 := 1#32
  let v14 : BitVec 32 := Scalar.select v13 c1_i32_7 c2_i32_6
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v44 : BitVec 32 := Scalar.subi c1_i32_24 v22
  let v45 : BitVec 32 := Scalar.muli c704_i32_25 v44
  let v46 : BitVec 32 := Scalar.addi c2688_i32_26 v45
  let c352_i32 : BitVec 32 := 352#32
  let v128 : BitVec 32 := Scalar.addi v46 c352_i32
  let c176_i32_81 : BitVec 32 := 176#32
  let v129 : BitVec 32 := Scalar.addi v128 c176_i32_81
  let v882 : BitVec 32 := Scalar.addi v25 v129
  let c0_i32_579 : BitVec 32 := 0#32
  ![v882.toNat, 0]
def k0_off61 (d0 : Dev nD) : Fin 2 → Nat :=
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c336_i32 : BitVec 32 := 336#32
  let v130 : BitVec 32 := Scalar.addi v41 c336_i32
  let c0_i32_587 : BitVec 32 := 0#32
  ![v130.toNat, 0]
def k0_off62 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c336_i32 : BitVec 32 := 336#32
  let v130 : BitVec 32 := Scalar.addi v41 c336_i32
  let v897 : BitVec 32 := Scalar.addi v25 v130
  let c0_i32_590 : BitVec 32 := 0#32
  ![v897.toNat, 0]
def k0_off63 (d0 : Dev nD) : Fin 2 → Nat :=
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c336_i32 : BitVec 32 := 336#32
  let v130 : BitVec 32 := Scalar.addi v41 c336_i32
  let c168_i32_82 : BitVec 32 := 168#32
  let v131 : BitVec 32 := Scalar.addi v130 c168_i32_82
  let c0_i32_598 : BitVec 32 := 0#32
  ![v131.toNat, 0]
def k0_off64 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_11 v8
  let c4096_i32_12 : BitVec 32 := 4096#32
  let v25 : BitVec 32 := Scalar.muli v24 c4096_i32_12
  let c672_i32_23 : BitVec 32 := 672#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v39 : BitVec 32 := Scalar.muli c2_i32_22 v38
  let v40 : BitVec 32 := Scalar.addi v37 v39
  let v41 : BitVec 32 := Scalar.muli c672_i32_23 v40
  let c336_i32 : BitVec 32 := 336#32
  let v130 : BitVec 32 := Scalar.addi v41 c336_i32
  let c168_i32_82 : BitVec 32 := 168#32
  let v131 : BitVec 32 := Scalar.addi v130 c168_i32_82
  let v912 : BitVec 32 := Scalar.addi v25 v131
  let c0_i32_601 : BitVec 32 := 0#32
  ![v912.toNat, 0]

class Facts₀ : Prop where
  inb_S12_S1_0 : ∀ a, (![0] : Fin 1 → Nat) a + S1.size a ≤ S12.size a
  squeezes_S1_S_ : S1.Squeezes S_
  inb_S12_S1_1 : ∀ a, (![1] : Fin 1 → Nat) a + S1.size a ≤ S12.size a
  inb_S12_S1_2 : ∀ a, (![2] : Fin 1 → Nat) a + S1.size a ≤ S12.size a
  inb_S12_S1_3 : ∀ a, (![3] : Fin 1 → Nat) a + S1.size a ≤ S12.size a
  inb_S12_S1_4 : ∀ a, (![4] : Fin 1 → Nat) a + S1.size a ≤ S12.size a
  inb_S12_S1_5 : ∀ a, (![5] : Fin 1 → Nat) a + S1.size a ≤ S12.size a
  inb_S12_S1_6 : ∀ a, (![6] : Fin 1 → Nat) a + S1.size a ≤ S12.size a
  inb_S12_S1_7 : ∀ a, (![7] : Fin 1 → Nat) a + S1.size a ≤ S12.size a
  inb_S12_S1_8 : ∀ a, (![8] : Fin 1 → Nat) a + S1.size a ≤ S12.size a
  inb_S12_S1_9 : ∀ a, (![9] : Fin 1 → Nat) a + S1.size a ≤ S12.size a
  inb_S12_S1_10 : ∀ a, (![10] : Fin 1 → Nat) a + S1.size a ≤ S12.size a
  inb_S12_S1_11 : ∀ a, (![11] : Fin 1 → Nat) a + S1.size a ≤ S12.size a
  hamt_1 : (1#32 : BitVec 32).msb = false
  hamt_3 : (3#32 : BitVec 32).msb = false
  h_S112x1024 : 0 < S112x1024.numel
  bitsLt_bf16_f32 : FTy.bits .bf16 < FTy.bits .f32
  shapeCasts_S112x1024_S112x1024 : S112x1024.ShapeCasts S112x1024
  inb_S8_S1_0 : ∀ a, (![0] : Fin 1 → Nat) a + S1.size a ≤ S8.size a
  h_S224x1024 : 0 < S224x1024.numel
  shapeCasts_S224x1024_S224x1024 : S224x1024.ShapeCasts S224x1024
  inb_S8_S1_1 : ∀ a, (![1] : Fin 1 → Nat) a + S1.size a ≤ S8.size a
  h_S168x1024 : 0 < S168x1024.numel
  shapeCasts_S168x1024_S168x1024 : S168x1024.ShapeCasts S168x1024
  inb_S8_S1_2 : ∀ a, (![2] : Fin 1 → Nat) a + S1.size a ≤ S8.size a
  inb_S8_S1_3 : ∀ a, (![3] : Fin 1 → Nat) a + S1.size a ≤ S8.size a
  h_S176x1024 : 0 < S176x1024.numel
  shapeCasts_S176x1024_S176x1024 : S176x1024.ShapeCasts S176x1024
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  h_S672x1024 : 0 < S672x1024.numel
  shapeCasts_S672x1024_S672x1024 : S672x1024.ShapeCasts S672x1024
  h_S704x1024 : 0 < S704x1024.numel
  shapeCasts_S704x1024_S704x1024 : S704x1024.ShapeCasts S704x1024
  hcc0_scratch3 : 0 + S12.numel ≤ 85
  hcc0_scratch4 : 12 + S8.numel ≤ 85
  hcc0_scratch5 : 20 + S8.numel ≤ 85
  hcc0_scratch6 : 28 + S8.numel ≤ 85
  hcc0_scratch7 : 36 + S8.numel ≤ 85
  hcc0_scratch8 : 44 + S8.numel ≤ 85
  hcc0_scratch9 : 52 + S8.numel ≤ 85
  hcc0_scratch10 : 60 + S8.numel ≤ 85
  hcc0_scratch11 : 68 + S8.numel ≤ 85
  hcc0_scratch12 : 76 + S8.numel ≤ 85
  hcc0_scratch13 : 84 + S_.numel ≤ 85
  k0_off1_inb : ∀ d0 : Dev nD, ∀ a, (k0_off1 d0) a + S112x1024.size a ≤ S4096x1024.size a
  k0_off2_inb : ∀ d0 : Dev nD, ∀ a, (k0_off2 d0) a + S224x1024.size a ≤ S4096x1024.size a
  k0_off3_inb : ∀ d0 : Dev nD, ∀ a, (k0_off3 d0) a + S168x1024.size a ≤ S4096x1024.size a
  k0_off4_inb : ∀ d0 : Dev nD, ∀ a, (k0_off4 d0) a + S168x1024.size a ≤ S4096x1024.size a
  k0_off5_inb : ∀ d0 : Dev nD, ∀ a, (k0_off5 d0) a + S176x1024.size a ≤ S4096x1024.size a
  k0_off6_inb : ∀ d0 : Dev nD, ∀ a, (k0_off6 d0) a + S176x1024.size a ≤ S4096x1024.size a
  k0_off7_inb : ∀ d0 : Dev nD, ∀ a, (k0_off7 d0) a + S176x1024.size a ≤ S4096x1024.size a
  k0_off8_inb : ∀ d0 : Dev nD, ∀ a, (k0_off8 d0) a + S176x1024.size a ≤ S4096x1024.size a
  k0_off9_inb : ∀ d0 : Dev nD, ∀ a, (k0_off9 d0) a + S672x1024.size a ≤ S4096x1024.size a
  k0_off10_inb : ∀ d0 : Dev nD, ∀ a, (k0_off10 d0) a + S672x1024.size a ≤ S4096x1024.size a
  k0_off11_inb : ∀ d0 : Dev nD, ∀ a, (k0_off11 d0) a + S672x1024.size a ≤ S4096x1024.size a
  k0_off12_inb : ∀ d0 : Dev nD, ∀ a, (k0_off12 d0) a + S704x1024.size a ≤ S4096x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off13_inb : ∀ d0 : Dev nD, ∀ a, (k0_off13 d0) a + S112x1024.size a ≤ S4096x1024.size a
  k0_off13_packedbf16 : ∀ d0 : Dev nD, (Rect.unit (s := S4096x1024) (k0_off13 d0) S112x1024.size (k0_off13_inb d0)).PackedRows (EltTy.packing .bf16)
  k0_off1_wordsbf16 : ∀ d0 : Dev nD, (Rect.unit (s := S4096x1024) (k0_off1 d0) S112x1024.size (k0_off1_inb d0)).WholeWords (EltTy.packing .bf16)
  k0_dev4_lt : ∀ d0 : Dev nD, (k0_dev4 d0) < nD
  k0_off14_inb : ∀ d0 : Dev nD, ∀ a, (k0_off14 d0) a + S224x1024.size a ≤ S4096x1024.size a
  k0_off14_packedbf16 : ∀ d0 : Dev nD, (Rect.unit (s := S4096x1024) (k0_off14 d0) S224x1024.size (k0_off14_inb d0)).PackedRows (EltTy.packing .bf16)
  k0_off2_wordsbf16 : ∀ d0 : Dev nD, (Rect.unit (s := S4096x1024) (k0_off2 d0) S224x1024.size (k0_off2_inb d0)).WholeWords (EltTy.packing .bf16)
  k0_dev5_lt : ∀ d0 : Dev nD, (k0_dev5 d0) < nD
  k0_off15_inb : ∀ d0 : Dev nD, ∀ a, (k0_off15 d0) a + S168x1024.size a ≤ S4096x1024.size a
  k0_off15_packedbf16 : ∀ d0 : Dev nD, (Rect.unit (s := S4096x1024) (k0_off15 d0) S168x1024.size (k0_off15_inb d0)).PackedRows (EltTy.packing .bf16)
  k0_off3_wordsbf16 : ∀ d0 : Dev nD, (Rect.unit (s := S4096x1024) (k0_off3 d0) S168x1024.size (k0_off3_inb d0)).WholeWords (EltTy.packing .bf16)
  k0_dev6_lt : ∀ d0 : Dev nD, (k0_dev6 d0) < nD
  k0_off16_inb : ∀ d0 : Dev nD, ∀ a, (k0_off16 d0) a + S168x1024.size a ≤ S4096x1024.size a
  k0_off16_packedbf16 : ∀ d0 : Dev nD, (Rect.unit (s := S4096x1024) (k0_off16 d0) S168x1024.size (k0_off16_inb d0)).PackedRows (EltTy.packing .bf16)
  k0_off4_wordsbf16 : ∀ d0 : Dev nD, (Rect.unit (s := S4096x1024) (k0_off4 d0) S168x1024.size (k0_off4_inb d0)).WholeWords (EltTy.packing .bf16)
  k0_dev7_lt : ∀ d0 : Dev nD, (k0_dev7 d0) < nD
  k0_off17_inb : ∀ d0 : Dev nD, ∀ a, (k0_off17 d0) a + S176x1024.size a ≤ S4096x1024.size a
  k0_off17_packedbf16 : ∀ d0 : Dev nD, (Rect.unit (s := S4096x1024) (k0_off17 d0) S176x1024.size (k0_off17_inb d0)).PackedRows (EltTy.packing .bf16)
  k0_off5_wordsbf16 : ∀ d0 : Dev nD, (Rect.unit (s := S4096x1024) (k0_off5 d0) S176x1024.size (k0_off5_inb d0)).WholeWords (EltTy.packing .bf16)
  k0_dev8_lt : ∀ d0 : Dev nD, (k0_dev8 d0) < nD
  k0_off18_inb : ∀ d0 : Dev nD, ∀ a, (k0_off18 d0) a + S176x1024.size a ≤ S4096x1024.size a
  k0_off18_packedbf16 : ∀ d0 : Dev nD, (Rect.unit (s := S4096x1024) (k0_off18 d0) S176x1024.size (k0_off18_inb d0)).PackedRows (EltTy.packing .bf16)
  k0_off6_wordsbf16 : ∀ d0 : Dev nD, (Rect.unit (s := S4096x1024) (k0_off6 d0) S176x1024.size (k0_off6_inb d0)).WholeWords (EltTy.packing .bf16)
  k0_dev9_lt : ∀ d0 : Dev nD, (k0_dev9 d0) < nD
  k0_off19_inb : ∀ d0 : Dev nD, ∀ a, (k0_off19 d0) a + S176x1024.size a ≤ S4096x1024.size a
  k0_off19_packedbf16 : ∀ d0 : Dev nD, (Rect.unit (s := S4096x1024) (k0_off19 d0) S176x1024.size (k0_off19_inb d0)).PackedRows (EltTy.packing .bf16)
  k0_off7_wordsbf16 : ∀ d0 : Dev nD, (Rect.unit (s := S4096x1024) (k0_off7 d0) S176x1024.size (k0_off7_inb d0)).WholeWords (EltTy.packing .bf16)
  k0_dev10_lt : ∀ d0 : Dev nD, (k0_dev10 d0) < nD
  k0_off20_inb : ∀ d0 : Dev nD, ∀ a, (k0_off20 d0) a + S176x1024.size a ≤ S4096x1024.size a
  k0_off20_packedbf16 : ∀ d0 : Dev nD, (Rect.unit (s := S4096x1024) (k0_off20 d0) S176x1024.size (k0_off20_inb d0)).PackedRows (EltTy.packing .bf16)
  k0_off8_wordsbf16 : ∀ d0 : Dev nD, (Rect.unit (s := S4096x1024) (k0_off8 d0) S176x1024.size (k0_off8_inb d0)).WholeWords (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_off21_inb : ∀ d0 : Dev nD, ∀ a, (k0_off21 d0) a + S112x1024.size a ≤ S8192x1024.size a
  k0_off21_wordsbf16 : ∀ d0 : Dev nD, (Rect.unit (s := S8192x1024) (k0_off21 d0) S112x1024.size (k0_off21_inb d0)).WholeWords (EltTy.packing .bf16)
  k0_dev14_lt : ∀ d0 : Dev nD, (k0_dev14 d0) < nD
  k0_dev15_lt : ∀ d0 : Dev nD, (k0_dev15 d0) < nD
  k0_off22_inb : ∀ d0 : Dev nD, ∀ a, (k0_off22 d0) a + S224x1024.size a ≤ S8192x1024.size a
  k0_off22_wordsbf16 : ∀ d0 : Dev nD, (Rect.unit (s := S8192x1024) (k0_off22 d0) S224x1024.size (k0_off22_inb d0)).WholeWords (EltTy.packing .bf16)
  k0_off23_inb : ∀ d0 : Dev nD, ∀ a, (k0_off23 d0) a + S112x1024.size a ≤ S4096x1024.size a
  k0_off23_wordsbf16 : ∀ d0 : Dev nD, (Rect.unit (s := S4096x1024) (k0_off23 d0) S112x1024.size (k0_off23_inb d0)).WholeWords (EltTy.packing .bf16)
  k0_off24_inb : ∀ d0 : Dev nD, ∀ a, (k0_off24 d0) a + S112x1024.size a ≤ S8192x1024.size a
  k0_off24_wordsbf16 : ∀ d0 : Dev nD, (Rect.unit (s := S8192x1024) (k0_off24 d0) S112x1024.size (k0_off24_inb d0)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off25_inb : ∀ d0 : Dev nD, ∀ a, (k0_off25 d0) a + S168x1024.size a ≤ S8192x1024.size a
  k0_off25_wordsbf16 : ∀ d0 : Dev nD, (Rect.unit (s := S8192x1024) (k0_off25 d0) S168x1024.size (k0_off25_inb d0)).WholeWords (EltTy.packing .bf16)
  k0_dev19_lt : ∀ d0 : Dev nD, (k0_dev19 d0) < nD
  k0_dev20_lt : ∀ d0 : Dev nD, (k0_dev20 d0) < nD
  k0_off26_inb : ∀ d0 : Dev nD, ∀ a, (k0_off26 d0) a + S168x1024.size a ≤ S8192x1024.size a
  k0_off26_wordsbf16 : ∀ d0 : Dev nD, (Rect.unit (s := S8192x1024) (k0_off26 d0) S168x1024.size (k0_off26_inb d0)).WholeWords (EltTy.packing .bf16)
  k0_off27_inb : ∀ d0 : Dev nD, ∀ a, (k0_off27 d0) a + S224x1024.size a ≤ S4096x1024.size a
  k0_off27_wordsbf16 : ∀ d0 : Dev nD, (Rect.unit (s := S4096x1024) (k0_off27 d0) S224x1024.size (k0_off27_inb d0)).WholeWords (EltTy.packing .bf16)
  k0_off28_inb : ∀ d0 : Dev nD, ∀ a, (k0_off28 d0) a + S224x1024.size a ≤ S8192x1024.size a
  k0_off28_wordsbf16 : ∀ d0 : Dev nD, (Rect.unit (s := S8192x1024) (k0_off28 d0) S224x1024.size (k0_off28_inb d0)).WholeWords (EltTy.packing .bf16)
  k0_dev21_lt : ∀ d0 : Dev nD, (k0_dev21 d0) < nD
  k0_off29_inb : ∀ d0 : Dev nD, ∀ (r : Fin 2), ∀ a, (k0_off29 d0 (k0_off29_at r).1 (k0_off29_at r).2) a + S168x1024.size a ≤ S4096x1024.size a
  k0_off29_wordsbf16 : ∀ d0 : Dev nD, ∀ (r : Fin 2), (Rect.unit (s := S4096x1024) (k0_off29 d0 (k0_off29_at r).1 (k0_off29_at r).2) S168x1024.size (k0_off29_inb d0 r)).WholeWords (EltTy.packing .bf16)
  k0_off30_inb : ∀ d0 : Dev nD, ∀ a, (k0_off30 d0) a + S168x1024.size a ≤ S8192x1024.size a
  k0_off30_wordsbf16 : ∀ d0 : Dev nD, (Rect.unit (s := S8192x1024) (k0_off30 d0) S168x1024.size (k0_off30_inb d0)).WholeWords (EltTy.packing .bf16)
  k0_off31_inb : ∀ d0 : Dev nD, ∀ a, (k0_off31 d0) a + S168x1024.size a ≤ S4096x1024.size a
  k0_off31_wordsbf16 : ∀ d0 : Dev nD, (Rect.unit (s := S4096x1024) (k0_off31 d0) S168x1024.size (k0_off31_inb d0)).WholeWords (EltTy.packing .bf16)
  k0_dev22_lt : ∀ d0 : Dev nD, (k0_dev22 d0) < nD
  k0_off32_inb : ∀ d0 : Dev nD, ∀ a, (k0_off32 d0) a + S168x1024.size a ≤ S4096x1024.size a
  k0_off32_wordsbf16 : ∀ d0 : Dev nD, (Rect.unit (s := S4096x1024) (k0_off32 d0) S168x1024.size (k0_off32_inb d0)).WholeWords (EltTy.packing .bf16)
  k0_off33_inb : ∀ d0 : Dev nD, ∀ a, (k0_off33 d0) a + S168x1024.size a ≤ S8192x1024.size a
  k0_off33_wordsbf16 : ∀ d0 : Dev nD, (Rect.unit (s := S8192x1024) (k0_off33 d0) S168x1024.size (k0_off33_inb d0)).WholeWords (EltTy.packing .bf16)
  k0_dev23_lt : ∀ d0 : Dev nD, (k0_dev23 d0) < nD
  k0_dev24_lt : ∀ d0 : Dev nD, (k0_dev24 d0) < nD
  k0_off34_inb : ∀ d0 : Dev nD, ∀ a, (k0_off34 d0) a + S176x1024.size a ≤ S8192x1024.size a
  k0_off34_wordsbf16 : ∀ d0 : Dev nD, (Rect.unit (s := S8192x1024) (k0_off34 d0) S176x1024.size (k0_off34_inb d0)).WholeWords (EltTy.packing .bf16)
  k0_dev25_lt : ∀ d0 : Dev nD, (k0_dev25 d0) < nD
  k0_off35_inb : ∀ d0 : Dev nD, ∀ a, (k0_off35 d0) a + S176x1024.size a ≤ S8192x1024.size a
  k0_off35_wordsbf16 : ∀ d0 : Dev nD, (Rect.unit (s := S8192x1024) (k0_off35 d0) S176x1024.size (k0_off35_inb d0)).WholeWords (EltTy.packing .bf16)
  k0_dev26_lt : ∀ d0 : Dev nD, (k0_dev26 d0) < nD
  k0_off36_inb : ∀ d0 : Dev nD, ∀ a, (k0_off36 d0) a + S176x1024.size a ≤ S8192x1024.size a
  k0_off36_wordsbf16 : ∀ d0 : Dev nD, (Rect.unit (s := S8192x1024) (k0_off36 d0) S176x1024.size (k0_off36_inb d0)).WholeWords (EltTy.packing .bf16)
  k0_dev27_lt : ∀ d0 : Dev nD, (k0_dev27 d0) < nD
  k0_off37_inb : ∀ d0 : Dev nD, ∀ a, (k0_off37 d0) a + S176x1024.size a ≤ S8192x1024.size a
  k0_off37_wordsbf16 : ∀ d0 : Dev nD, (Rect.unit (s := S8192x1024) (k0_off37 d0) S176x1024.size (k0_off37_inb d0)).WholeWords (EltTy.packing .bf16)
  k0_off38_inb : ∀ d0 : Dev nD, ∀ a, (k0_off38 d0) a + S672x1024.size a ≤ S4096x1024.size a
  k0_off38_packedbf16 : ∀ d0 : Dev nD, (Rect.unit (s := S4096x1024) (k0_off38 d0) S672x1024.size (k0_off38_inb d0)).PackedRows (EltTy.packing .bf16)
  k0_off39_inb : ∀ d0 : Dev nD, ∀ a, (k0_off39 d0) a + S672x1024.size a ≤ S4096x1024.size a
  k0_off39_packedbf16 : ∀ d0 : Dev nD, (Rect.unit (s := S4096x1024) (k0_off39 d0) S672x1024.size (k0_off39_inb d0)).PackedRows (EltTy.packing .bf16)
  k0_off40_inb : ∀ d0 : Dev nD, ∀ a, (k0_off40 d0) a + S672x1024.size a ≤ S4096x1024.size a
  k0_off40_packedbf16 : ∀ d0 : Dev nD, (Rect.unit (s := S4096x1024) (k0_off40 d0) S672x1024.size (k0_off40_inb d0)).PackedRows (EltTy.packing .bf16)
  k0_off41_inb : ∀ d0 : Dev nD, ∀ a, (k0_off41 d0) a + S704x1024.size a ≤ S4096x1024.size a
  k0_off41_packedbf16 : ∀ d0 : Dev nD, (Rect.unit (s := S4096x1024) (k0_off41 d0) S704x1024.size (k0_off41_inb d0)).PackedRows (EltTy.packing .bf16)
  k0_off42_inb : ∀ d0 : Dev nD, ∀ a, (k0_off42 d0) a + S4096x1024.size a ≤ S8192x1024.size a
  k0_off42_wordsbf16 : ∀ d0 : Dev nD, (Rect.unit (s := S8192x1024) (k0_off42 d0) S4096x1024.size (k0_off42_inb d0)).WholeWords (EltTy.packing .bf16)
  k0_off43_inb : ∀ d0 : Dev nD, ∀ a, (k0_off43 d0) a + S112x1024.size a ≤ S4096x1024.size a
  k0_off43_wordsbf16 : ∀ d0 : Dev nD, (Rect.unit (s := S4096x1024) (k0_off43 d0) S112x1024.size (k0_off43_inb d0)).WholeWords (EltTy.packing .bf16)
  k0_off44_inb : ∀ d0 : Dev nD, ∀ a, (k0_off44 d0) a + S112x1024.size a ≤ S8192x1024.size a
  k0_off44_wordsbf16 : ∀ d0 : Dev nD, (Rect.unit (s := S8192x1024) (k0_off44 d0) S112x1024.size (k0_off44_inb d0)).WholeWords (EltTy.packing .bf16)
  k0_off45_inb : ∀ d0 : Dev nD, ∀ a, (k0_off45 d0) a + S224x1024.size a ≤ S4096x1024.size a
  k0_off45_wordsbf16 : ∀ d0 : Dev nD, (Rect.unit (s := S4096x1024) (k0_off45 d0) S224x1024.size (k0_off45_inb d0)).WholeWords (EltTy.packing .bf16)
  k0_off46_inb : ∀ d0 : Dev nD, ∀ a, (k0_off46 d0) a + S224x1024.size a ≤ S8192x1024.size a
  k0_off46_wordsbf16 : ∀ d0 : Dev nD, (Rect.unit (s := S8192x1024) (k0_off46 d0) S224x1024.size (k0_off46_inb d0)).WholeWords (EltTy.packing .bf16)
  k0_off47_inb : ∀ d0 : Dev nD, ∀ a, (k0_off47 d0) a + S176x1024.size a ≤ S4096x1024.size a
  k0_off47_wordsbf16 : ∀ d0 : Dev nD, (Rect.unit (s := S4096x1024) (k0_off47 d0) S176x1024.size (k0_off47_inb d0)).WholeWords (EltTy.packing .bf16)
  k0_off48_inb : ∀ d0 : Dev nD, ∀ a, (k0_off48 d0) a + S176x1024.size a ≤ S8192x1024.size a
  k0_off48_wordsbf16 : ∀ d0 : Dev nD, (Rect.unit (s := S8192x1024) (k0_off48 d0) S176x1024.size (k0_off48_inb d0)).WholeWords (EltTy.packing .bf16)
  k0_off49_inb : ∀ d0 : Dev nD, ∀ (r : Fin 2), ∀ a, (k0_off49 d0 (BitVec.ofNat 32 (176 + 176 * r.val))) a + S176x1024.size a ≤ S4096x1024.size a
  k0_off49_wordsbf16 : ∀ d0 : Dev nD, ∀ (r : Fin 2), (Rect.unit (s := S4096x1024) (k0_off49 d0 (BitVec.ofNat 32 (176 + 176 * r.val))) S176x1024.size (k0_off49_inb d0 r)).WholeWords (EltTy.packing .bf16)
  k0_off50_inb : ∀ d0 : Dev nD, ∀ (r : Fin 2), ∀ a, (k0_off50 d0 (BitVec.ofNat 32 (176 + 176 * r.val))) a + S176x1024.size a ≤ S8192x1024.size a
  k0_off50_wordsbf16 : ∀ d0 : Dev nD, ∀ (r : Fin 2), (Rect.unit (s := S8192x1024) (k0_off50 d0 (BitVec.ofNat 32 (176 + 176 * r.val))) S176x1024.size (k0_off50_inb d0 r)).WholeWords (EltTy.packing .bf16)
  k0_off51_inb : ∀ d0 : Dev nD, ∀ a, (k0_off51 d0) a + S112x1024.size a ≤ S4096x1024.size a
  k0_off51_wordsbf16 : ∀ d0 : Dev nD, (Rect.unit (s := S4096x1024) (k0_off51 d0) S112x1024.size (k0_off51_inb d0)).WholeWords (EltTy.packing .bf16)
  k0_off52_inb : ∀ d0 : Dev nD, ∀ a, (k0_off52 d0) a + S112x1024.size a ≤ S8192x1024.size a
  k0_off52_wordsbf16 : ∀ d0 : Dev nD, (Rect.unit (s := S8192x1024) (k0_off52 d0) S112x1024.size (k0_off52_inb d0)).WholeWords (EltTy.packing .bf16)
  k0_off53_inb : ∀ d0 : Dev nD, ∀ a, (k0_off53 d0) a + S224x1024.size a ≤ S4096x1024.size a
  k0_off53_wordsbf16 : ∀ d0 : Dev nD, (Rect.unit (s := S4096x1024) (k0_off53 d0) S224x1024.size (k0_off53_inb d0)).WholeWords (EltTy.packing .bf16)
  k0_off54_inb : ∀ d0 : Dev nD, ∀ a, (k0_off54 d0) a + S224x1024.size a ≤ S8192x1024.size a
  k0_off54_wordsbf16 : ∀ d0 : Dev nD, (Rect.unit (s := S8192x1024) (k0_off54 d0) S224x1024.size (k0_off54_inb d0)).WholeWords (EltTy.packing .bf16)
  k0_off55_inb : ∀ d0 : Dev nD, ∀ a, (k0_off55 d0) a + S168x1024.size a ≤ S4096x1024.size a
  k0_off55_wordsbf16 : ∀ d0 : Dev nD, (Rect.unit (s := S4096x1024) (k0_off55 d0) S168x1024.size (k0_off55_inb d0)).WholeWords (EltTy.packing .bf16)
  k0_off56_inb : ∀ d0 : Dev nD, ∀ a, (k0_off56 d0) a + S168x1024.size a ≤ S8192x1024.size a
  k0_off56_wordsbf16 : ∀ d0 : Dev nD, (Rect.unit (s := S8192x1024) (k0_off56 d0) S168x1024.size (k0_off56_inb d0)).WholeWords (EltTy.packing .bf16)
  k0_off57_inb : ∀ d0 : Dev nD, ∀ a, (k0_off57 d0) a + S168x1024.size a ≤ S4096x1024.size a
  k0_off57_wordsbf16 : ∀ d0 : Dev nD, (Rect.unit (s := S4096x1024) (k0_off57 d0) S168x1024.size (k0_off57_inb d0)).WholeWords (EltTy.packing .bf16)
  k0_off58_inb : ∀ d0 : Dev nD, ∀ a, (k0_off58 d0) a + S168x1024.size a ≤ S8192x1024.size a
  k0_off58_wordsbf16 : ∀ d0 : Dev nD, (Rect.unit (s := S8192x1024) (k0_off58 d0) S168x1024.size (k0_off58_inb d0)).WholeWords (EltTy.packing .bf16)
  k0_off59_inb : ∀ d0 : Dev nD, ∀ a, (k0_off59 d0) a + S176x1024.size a ≤ S4096x1024.size a
  k0_off59_wordsbf16 : ∀ d0 : Dev nD, (Rect.unit (s := S4096x1024) (k0_off59 d0) S176x1024.size (k0_off59_inb d0)).WholeWords (EltTy.packing .bf16)
  k0_off60_inb : ∀ d0 : Dev nD, ∀ a, (k0_off60 d0) a + S176x1024.size a ≤ S8192x1024.size a
  k0_off60_wordsbf16 : ∀ d0 : Dev nD, (Rect.unit (s := S8192x1024) (k0_off60 d0) S176x1024.size (k0_off60_inb d0)).WholeWords (EltTy.packing .bf16)
  k0_off61_inb : ∀ d0 : Dev nD, ∀ a, (k0_off61 d0) a + S168x1024.size a ≤ S4096x1024.size a
  k0_off61_wordsbf16 : ∀ d0 : Dev nD, (Rect.unit (s := S4096x1024) (k0_off61 d0) S168x1024.size (k0_off61_inb d0)).WholeWords (EltTy.packing .bf16)
  k0_off62_inb : ∀ d0 : Dev nD, ∀ a, (k0_off62 d0) a + S168x1024.size a ≤ S8192x1024.size a
  k0_off62_wordsbf16 : ∀ d0 : Dev nD, (Rect.unit (s := S8192x1024) (k0_off62 d0) S168x1024.size (k0_off62_inb d0)).WholeWords (EltTy.packing .bf16)
  k0_off63_inb : ∀ d0 : Dev nD, ∀ a, (k0_off63 d0) a + S168x1024.size a ≤ S4096x1024.size a
  k0_off63_wordsbf16 : ∀ d0 : Dev nD, (Rect.unit (s := S4096x1024) (k0_off63 d0) S168x1024.size (k0_off63_inb d0)).WholeWords (EltTy.packing .bf16)
  k0_off64_inb : ∀ d0 : Dev nD, ∀ a, (k0_off64 d0) a + S168x1024.size a ≤ S8192x1024.size a
  k0_off64_wordsbf16 : ∀ d0 : Dev nD, (Rect.unit (s := S8192x1024) (k0_off64 d0) S168x1024.size (k0_off64_inb d0)).WholeWords (EltTy.packing .bf16)

variable [Facts₀]

abbrev cc0_scratch3 : DmaSems sig S12 := SemArray.consecutive 0 S12 hcc0_scratch3
abbrev cc0_scratch4 : DmaSems sig S8 := SemArray.consecutive 12 S8 hcc0_scratch4
abbrev cc0_scratch5 : DmaSems sig S8 := SemArray.consecutive 20 S8 hcc0_scratch5
abbrev cc0_scratch6 : DmaSems sig S8 := SemArray.consecutive 28 S8 hcc0_scratch6
abbrev cc0_scratch7 : DmaSems sig S8 := SemArray.consecutive 36 S8 hcc0_scratch7
abbrev cc0_scratch8 : DmaSems sig S8 := SemArray.consecutive 44 S8 hcc0_scratch8
abbrev cc0_scratch9 : DmaSems sig S8 := SemArray.consecutive 52 S8 hcc0_scratch9
abbrev cc0_scratch10 : DmaSems sig S8 := SemArray.consecutive 60 S8 hcc0_scratch10
abbrev cc0_scratch11 : DmaSems sig S8 := SemArray.consecutive 68 S8 hcc0_scratch11
abbrev cc0_scratch12 : DmaSems sig S8 := SemArray.consecutive 76 S8 hcc0_scratch12
abbrev cc0_scratch13 : DmaSems sig S_ := SemArray.consecutive 84 S_ hcc0_scratch13

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.AGContents.lean ====
/-
  What each buffer holds when a device has finished, as ONE whole-buffer function per buffer.
  The mesh is 2 x 2 x 2; device c sits at (x, y, z) = (c / 4, c / 2 % 2, c % 2) and holds the z-th half of the rows of the array.
  Each device has three neighbours, one per axis, obtained by flipping that coordinate.
  The 4096 rows of a device's half are cut into four regions of 672 rows (one per (x, y) position in the plane) followed by two
  regions of 704 rows (one per parity of x + y).  A device converts the whole half to bf16; of the OTHER half it receives, into its
  communication buffer, every row from the device that converted it: a row of a 672-region q from the device at
  (q % 2, q / 2) of the other plane, whatever road it took; a row of a 704-region of the device's own parity from its z-neighbour,
  of the other parity from the z-neighbour of its x-neighbour (first 352 rows) or of its y-neighbour (last 352 rows).
  The result holds the device's own half at its own rows and the communication buffer at the other half's rows.
-/
import proofs.«900673_g7700000000000674_dist_ag_v7x_xyz2x2x2_z_m4096_n1024_bf16_1_alg».proof.KernelIdeal
import Idealize.ShloMosaic.Lib.ValueIdx

noncomputable section

namespace Cert.KernelIdeal.AG

open Idealize.ShloMosaic Idealize.ShloMosaic.TcCoe Idealize.SL.Sem
open Cert.KernelIdeal

variable {F : FTy → Type} [FloatOps F]

/-- The neighbour along z: the last coordinate flipped. -/
def zn (c : Dev nD) : Dev nD := ⟨(4 * (c.val / 4) + 2 * ((c.val / 2) % 2) + 1) - (c.val % 2), by have h : c.val < 8 := c.isLt; show _ < 8; omega⟩
/-- The neighbour along x: the first coordinate flipped. -/
def xn (c : Dev nD) : Dev nD := ⟨(2 * ((c.val / 2) % 2) + (c.val % 2) + 4) - 4 * (c.val / 4), by have h : c.val < 8 := c.isLt; show _ < 8; omega⟩
/-- The neighbour along y: the middle coordinate flipped. -/
def yn (c : Dev nD) : Dev nD := ⟨(4 * (c.val / 4) + (c.val % 2) + 2) - 2 * ((c.val / 2) % 2), by have h : c.val < 8 := c.isLt; show _ < 8; omega⟩

theorem zn_zn (c : Dev nD) : zn (zn c) = c := by revert c; decide
theorem xn_xn (c : Dev nD) : xn (xn c) = c := by revert c; decide
theorem yn_yn (c : Dev nD) : yn (yn c) = c := by revert c; decide
theorem xn_yn (c : Dev nD) : xn (yn c) = yn (xn c) := by revert c; decide
theorem zn_xn (c : Dev nD) : zn (xn c) = xn (zn c) := by revert c; decide
theorem zn_yn (c : Dev nD) : zn (yn c) = yn (zn c) := by revert c; decide
theorem zn_ne (c : Dev nD) : zn c ≠ c := by revert c; decide
theorem xn_ne (c : Dev nD) : xn c ≠ c := by revert c; decide
theorem yn_ne (c : Dev nD) : yn c ≠ c := by revert c; decide
theorem zn_ne_xn (c : Dev nD) : zn c ≠ xn c := by revert c; decide
theorem zn_ne_yn (c : Dev nD) : zn c ≠ yn c := by revert c; decide
theorem xn_ne_yn (c : Dev nD) : xn c ≠ yn c := by revert c; decide

/-- Where row r of device c's communication buffer was converted. -/
def origin (c : Dev nD) (r : ℕ) : Dev nD :=
  if r < 2688 then ⟨4 * ((r / 672) % 2) + 2 * ((r / 672) / 2 % 2) + (1 - c.val % 2), by show _ < 8; omega⟩
  else if ((r - 2688) / 704) % 2 = (c.val / 4 + (c.val / 2) % 2) % 2 then zn c
  else if (r - 2688) % 704 < 352 then zn (xn c) else zn (yn c)

/-- Every origin lies in the other plane. -/
theorem origin_z (c : Dev nD) (r : ℕ) : (origin c r).val % 2 = 1 - c.val % 2 := by
  unfold origin
  split
  · show (4 * ((r / 672) % 2) + 2 * ((r / 672) / 2 % 2) + (1 - c.val % 2)) % 2 = _; omega
  · split
    · exact (by decide : ∀ c : Dev nD, (zn c).val % 2 = 1 - c.val % 2) c
    · split
      · exact (by decide : ∀ c : Dev nD, (zn (xn c)).val % 2 = 1 - c.val % 2) c
      · exact (by decide : ∀ c : Dev nD, (zn (yn c)).val % 2 = 1 - c.val % 2) c

variable (m : (ℓ : Loc nD τ sig) → Buf (Elt F) ℓ)

/-- Device c's half of the array, as launched. -/
def X (c : Dev nD) : Vec F S4096x1024 .f32 := m ((c : Thread nD τ).loc main_arg0)

/-- Device c's half converted to bf16: what its conversion buffer ends holding. -/
def mineV (c : Dev nD) : Vec F S4096x1024 .bf16 := truncf .bf16 (X m c) (by decide)

/-- What device c's communication buffer ends holding: each row from the device that converted it. -/
def commV (c : Dev nD) : Vec F S4096x1024 .bf16 := fun i => mineV m (origin c (i 0).val) i

/-- What device c's result ends holding: its own half at its own rows, the communication buffer at the other half's rows. -/
def outV (c : Dev nD) : Vec F S8192x1024 .bf16 := fun i =>
  if (i 0).val / 4096 = c.val % 2 then mineV m c (ValueIdx.ix2 ⟨(i 0).val % 4096, Nat.mod_lt _ (by decide)⟩ (i 1))
  else commV m c (ValueIdx.ix2 ⟨(i 0).val % 4096, Nat.mod_lt _ (by decide)⟩ (i 1))

end Cert.KernelIdeal.AG

end
-- ==== Proof.AGValue.lean ====
/-
  The value of the all-gather at the ideal instance.
  Device c = (x, y, z) launches holding rows [4096 * z, 4096 * z + 4096) of the whole array A (z = c % 2).
  Its result at row R is, when R / 4096 = z, its own half at row R % 4096, which is A at row 4096 * z + R % 4096 = R;
  otherwise it is the half of a device of the other plane (z' = 1 - z = R / 4096) at row R % 4096, which is
  A at row 4096 * z' + R % 4096 = R again.  The format change is the identity on extended reals, so every device
  ends holding the whole array, and that is the reference's result.
-/
import proofs.«900673_g7700000000000674_dist_ag_v7x_xyz2x2x2_z_m4096_n1024_bf16_1_alg».proof.Defs
import proofs.«900673_g7700000000000674_dist_ag_v7x_xyz2x2x2_z_m4096_n1024_bf16_1_alg».proof.Proof.AGContents
import proofs.«900673_g7700000000000674_dist_ag_v7x_xyz2x2x2_z_m4096_n1024_bf16_1_alg».proof.Proof.Gen.ReferenceIdeal
import proofs.«900673_g7700000000000674_dist_ag_v7x_xyz2x2x2_z_m4096_n1024_bf16_1_alg».proof.Proof.Gen.ReferenceIdeal.Run
import proofs.«900673_g7700000000000674_dist_ag_v7x_xyz2x2x2_z_m4096_n1024_bf16_1_alg».proof.Proof.Gen.ReferenceIdeal.Read
import Idealize.ShloMosaic.Lib.Layout
import Idealize.ShloMosaic.Lib.ValueIdx

noncomputable section

namespace Cert.AGValue

open Idealize.ShloMosaic Idealize.SL.Sem

/-- On the 2 x 2 x 2 mesh the block coordinate along the axis cut by z is the device's last coordinate. -/
theorem meshLin_z : ∀ c : Fin 8, Layout.meshLin [2, 2, 2] c.val [2] = c.val % 2 := by decide

/-- A row of the whole array read through the half of any device of the plane that holds it. -/
theorem block_row {α : Type} (A : (⟨2, ![8192, 1024]⟩ : Shape).Idx → α) (d : Fin 8)
    (i : (⟨2, ![8192, 1024]⟩ : Shape).Idx) (hz : d.val % 2 = (i 0).val / 4096) :
    (Layout.blockN ⟨2, ![4096, 1024]⟩ ⟨2, ![8192, 1024]⟩ (Layout.meshBlock [2, 2, 2] ![[2], []] d) A)
        (ValueIdx.ix2 ⟨(i 0).val % 4096, Nat.mod_lt _ (by decide)⟩ (i 1)) = A i := by
  rw [Layout.blockN_apply]
  congr 1
  funext b
  apply Fin.ext
  rw [Layout.TilesN.idx_val, Layout.meshBlock_val]
  match b with
  | ⟨0, _⟩ =>
    show Layout.meshLin [2, 2, 2] d.val [2] * 4096 + (i 0).val % 4096 = (i 0).val
    rw [meshLin_z d, hz]
    omega
  | ⟨1, _⟩ =>
    show 0 * 1024 + (i 1).val = (i 1).val
    omega

/-- Every device's result is the whole array, which is the reference's result. -/
theorem outV_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : ∀ c : Dev Cert.KernelIdeal.nD,
      m ((c.tc : Thread Cert.KernelIdeal.nD Cert.KernelIdeal.τ).loc Cert.KernelIdeal.main_arg0)
        = Layout.blockN ⟨2, ![4096, 1024]⟩ ⟨2, ![8192, 1024]⟩ (Layout.meshBlock [2, 2, 2] ![[2], []] c)
            (m' (((0 : Dev Cert.ReferenceIdeal.nD).tc : Thread Cert.ReferenceIdeal.nD Cert.ReferenceIdeal.τ).loc Cert.ReferenceIdeal.main_arg0)))
    (c : Dev Cert.KernelIdeal.nD) :
    @Eq ((⟨2, ![8192, 1024]⟩ : Shape).Idx → EReal)
      (Cert.KernelIdeal.AG.outV (F := Ideal) m c)
      (truncf (F := Ideal) (s := ⟨2, ![8192, 1024]⟩) (φ := .f32) .bf16
        (m' (((0 : Dev Cert.ReferenceIdeal.nD).tc : Thread Cert.ReferenceIdeal.nD Cert.ReferenceIdeal.τ).loc Cert.ReferenceIdeal.main_arg0))
        Cert.ReferenceIdeal.Gen.bitsLt_bf16_f32) := by
  funext i
  have hR : (i 0).val < 8192 := (i 0).isLt
  -- a converted half at a row is the launched half at that row, which is the whole array's row
  have mine : ∀ (d : Dev Cert.KernelIdeal.nD), d.val % 2 = (i 0).val / 4096 →
      Cert.KernelIdeal.AG.mineV (F := Ideal) m d (ValueIdx.ix2 ⟨(i 0).val % 4096, Nat.mod_lt _ (by decide)⟩ (i 1))
        = m' (((0 : Dev Cert.ReferenceIdeal.nD).tc : Thread Cert.ReferenceIdeal.nD Cert.ReferenceIdeal.τ).loc Cert.ReferenceIdeal.main_arg0) i := by
    intro d hd
    show m ((d.tc : Thread Cert.KernelIdeal.nD Cert.KernelIdeal.τ).loc Cert.KernelIdeal.main_arg0) _ = _
    rw [hm d]
    exact block_row _ d i hd
  show (if (i 0).val / 4096 = c.val % 2 then _ else _) = _
  rw [ValueIdx.truncf_apply]
  split
  · next h => exact mine c h.symm
  · next h =>
    show Cert.KernelIdeal.AG.mineV (F := Ideal) m (Cert.KernelIdeal.AG.origin c ((i 0).val % 4096)) _ = _
    apply mine
    rw [Cert.KernelIdeal.AG.origin_z]
    have hc : c.val % 2 < 2 := Nat.mod_lt _ (by decide)
    omega

/-- info: 'Cert.AGValue.outV_eq' depends on axioms: [propext, Classical.choice, Quot.sound] -/
#guard_msgs in #print axioms outV_eq

end Cert.AGValue

end
-- ==== Proof.AGClaims.lean ====
/-
  The five conjuncts of the claim from the two kernel runs.
  Given that the word-level kernel runs to the end with its argument unchanged, and that the idealized kernel runs to the end with
  every device's result the gathered array and its argument unchanged, the three frames are those runs (the idealized one with the
  value dropped) and the reference's own run; the idealization rewrote nothing; and the gathered array is the whole array, which is
  the reference's result.
-/
import proofs.«900673_g7700000000000674_dist_ag_v7x_xyz2x2x2_z_m4096_n1024_bf16_1_alg».proof.Defs
import proofs.«900673_g7700000000000674_dist_ag_v7x_xyz2x2x2_z_m4096_n1024_bf16_1_alg».proof.Proof.Gen.Kernel
import proofs.«900673_g7700000000000674_dist_ag_v7x_xyz2x2x2_z_m4096_n1024_bf16_1_alg».proof.Proof.Gen.KernelIdeal
import proofs.«900673_g7700000000000674_dist_ag_v7x_xyz2x2x2_z_m4096_n1024_bf16_1_alg».proof.Proof.Gen.ReferenceIdeal
import proofs.«900673_g7700000000000674_dist_ag_v7x_xyz2x2x2_z_m4096_n1024_bf16_1_alg».proof.Proof.Gen.Pre_finite_inputs_Kernel
import proofs.«900673_g7700000000000674_dist_ag_v7x_xyz2x2x2_z_m4096_n1024_bf16_1_alg».proof.Proof.Gen.Pre_finite_inputs_ReferenceIdeal
import proofs.«900673_g7700000000000674_dist_ag_v7x_xyz2x2x2_z_m4096_n1024_bf16_1_alg».proof.Proof.Gen.ReferenceIdeal.Run
import proofs.«900673_g7700000000000674_dist_ag_v7x_xyz2x2x2_z_m4096_n1024_bf16_1_alg».proof.Proof.AGContents
import proofs.«900673_g7700000000000674_dist_ag_v7x_xyz2x2x2_z_m4096_n1024_bf16_1_alg».proof.Proof.AGValue

noncomputable section

namespace Cert.AGClaims

open Idealize.ShloMosaic Idealize.SL.Sem

/-- The claim, from the word-level kernel's run and the idealized kernel's run with its result named. -/
theorem claim_of
    (hK : ∀ (m : (ℓ : Loc Cert.Kernel.nD Cert.Kernel.τ Cert.Kernel.sig) → Buf (Elt Bits) ℓ) (g : Dev Cert.Kernel.nD → PrngReg),
      θ_run (Cert.Kernel.defs (F := Bits)) (onTc (τ := Cert.Kernel.τ) (Cert.Kernel.main (F := Bits))) ⟨m, fun _ => 0, g⟩
        (fun r => ∀ c : Dev Cert.Kernel.nD,
          r.2.mem ((c.tc : Thread Cert.Kernel.nD Cert.Kernel.τ).loc Cert.Kernel.main_arg0)
            = m ((c.tc : Thread Cert.Kernel.nD Cert.Kernel.τ).loc Cert.Kernel.main_arg0)))
    (hKI : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v1)
            = Cert.KernelIdeal.AG.outV (F := Ideal) m c
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    -- the word-level kernel's frame is its run
    fun m g _ => hK m g,
    -- the idealized kernel's frame is its run with the value dropped
    fun m g _ => (θ_run _ _ _).mono (fun _ h c => (h c).2) (hKI m g),
    -- the reference's frame is its run with the value dropped
    fun m ρ _ => (θ_run Cert.ReferenceIdeal.defs _ _).mono (fun _ h c => (h c).2) (Cert.ReferenceIdeal.Value.run (F := Ideal) m ρ),
    -- the idealization rewrote nothing
    trivial,
    -- both end holding the whole array
    fun m g m' g' _ hm =>
      Exists.intro
        (truncf (F := Ideal) (s := ⟨2, ![8192, 1024]⟩) (φ := .f32) .bf16
          (m' (((0 : Dev Cert.ReferenceIdeal.nD).tc : Thread Cert.ReferenceIdeal.nD Cert.ReferenceIdeal.τ).loc Cert.ReferenceIdeal.main_arg0))
          Cert.ReferenceIdeal.Gen.bitsLt_bf16_f32)
        ⟨(θ_run _ _ _).mono (fun _ h c => ⟨(h c).1.trans (Cert.AGValue.outV_eq m m' hm c), (h c).2⟩) (hKI m g),
          (θ_run Cert.ReferenceIdeal.defs _ _).mono (fun _ h => h 0) (Cert.ReferenceIdeal.Value.run (F := Ideal) m' g')⟩⟩

/-- info: 'Cert.AGClaims.claim_of' depends on axioms: [propext, Classical.choice, Quot.sound] -/
#guard_msgs in #print axioms claim_of

end Cert.AGClaims

end
-- ==== Proof.AGSl.lean ====
/-
  Row slices of a buffer of 1024 columns: rows [o, o + r) of every column, as the memref a copy or a transfer goes through.
-/
import proofs.«900673_g7700000000000674_dist_ag_v7x_xyz2x2x2_z_m4096_n1024_bf16_1_alg».proof.KernelIdeal

noncomputable section

namespace Cert.KernelIdeal.AG

open Idealize.ShloMosaic Idealize.ShloMosaic.TcCoe Idealize.SL.Sem
open Cert.KernelIdeal

/-- r rows of 1024 columns. -/
abbrev Sr (r : ℕ) : Shape := ⟨2, ![r, 1024]⟩

theorem sl_inb {R o r : ℕ} (h : o + r ≤ R) : ∀ a, (![o, 0] : Fin 2 → Nat) a + (Sr r).size a ≤ (Sr R).size a := by
  intro a; fin_cases a
  · exact h
  · exact Nat.le_refl _

/-- Rows [o, o + r) of a memref of R rows. -/
abbrev sl {sp : Space} {e : EltTy} {R : ℕ} (M : Memref sig .tc sp (Sr R) e) (o r : ℕ) (h : o + r ≤ R) : Memref sig .tc sp (Sr r) e :=
  M.slice (Rect.unit (s := Sr R) ![o, 0] (Sr r).size (sl_inb h)) (fun _ => rfl)

end Cert.KernelIdeal.AG

end
-- ==== Proof.AGSlices.lean ====
/-
  Row slices of buffers of 1024 columns, as sets of elements and as points-to assertions.
  A buffer of R rows is held as separate assertions over row ranges [o, o + r); this module says which elements a
  row range has, that adjacent ranges are disjoint and together make the longer range, how an assertion over a
  range is cut and rejoined along rows and along the share, and what a copy of r rows from one buffer into another
  leaves at each element of the destination.  Every statement is over an arbitrary memref M of R rows and speaks of
  an element of its buffer as the place M.view.emb x of an index x of the R x 1024 shape, and of the buffer's
  contents through M.view.read; for a whole buffer both are the identity, by definition.
-/
import proofs.«900673_g7700000000000674_dist_ag_v7x_xyz2x2x2_z_m4096_n1024_bf16_1_alg».proof.Proof.AGSl
import Idealize.ShloMosaic.Lib.Pipeline.Value
import Idealize.ShloMosaic.Lib.ValueIdx
import Idealize.ShloMosaic.Rules.PointsTo

noncomputable section

namespace Cert.KernelIdeal.AG

open Idealize.ShloMosaic Idealize.ShloMosaic.TcCoe Idealize.SL.Sem
open Cert.KernelIdeal
open Idealize.SL
open Idealize.SL.RA Idealize.SL.ProofMode
open Idealize.SL.BI (sProp)
open scoped Idealize.SL.BI
open Idealize.SL.BI.BIBase Idealize.SL.BI.Laws
open PCS URA Auth

/-! ## Row ranges as sets of indices of the shape -/

/-- The indices of the R x 1024 shape in rows [o, o + r). -/
def rows (R o r : ℕ) (h : o + r ≤ R) : Finset (Sr R).Idx :=
  (Rect.unit (s := Sr R) ![o, 0] (Sr r).size (sl_inb h)).set

theorem mem_rows {R o r : ℕ} {h : o + r ≤ R} {x : (Sr R).Idx} :
    x ∈ rows R o r h ↔ o ≤ (x 0).val ∧ (x 0).val < o + r := by
  unfold rows
  rw [Rect.mem_set_unit]
  constructor
  · intro H; exact H 0
  · intro H a
    match a with
    | ⟨0, _⟩ => exact H
    | ⟨1, _⟩ => exact ⟨Nat.zero_le _, by have h1 : (x 1).val < 1024 := (x 1).isLt; show (x 1).val < 0 + 1024; omega⟩

/-- Ranges that do not meet have no index in common. -/
theorem rows_disjoint {R o1 r1 o2 r2 : ℕ} {h1 : o1 + r1 ≤ R} {h2 : o2 + r2 ≤ R} (h12 : o1 + r1 ≤ o2) :
    Disjoint (rows R o1 r1 h1) (rows R o2 r2 h2) := by
  rw [Finset.disjoint_left]
  intro x hx1 hx2
  have a := mem_rows.mp hx1
  have b := mem_rows.mp hx2
  omega

/-- Two adjacent ranges make the range of their lengths together. -/
theorem rows_union {R o r1 r2 : ℕ} {h1 : o + r1 ≤ R} {h2 : o + r1 + r2 ≤ R} {h : o + (r1 + r2) ≤ R} :
    rows R o r1 h1 ∪ rows R (o + r1) r2 h2 = rows R o (r1 + r2) h := by
  ext x
  rw [Finset.mem_union, mem_rows, mem_rows, mem_rows]
  omega

/-- All R rows are every index. -/
theorem rows_whole {R : ℕ} {h : 0 + R ≤ R} : rows R 0 R h = Finset.univ := by
  ext x
  rw [mem_rows]
  have h0 : (x 0).val < R := (x 0).isLt
  simp only [Finset.mem_univ, iff_true]
  exact ⟨Nat.zero_le _, by omega⟩

/-! ## The elements of a row slice of a memref -/

section Sets

variable {sp : Space} {e : EltTy} {R : ℕ} (M : Memref sig .tc sp (Sr R) e)

/-- A row slice lives in its memref's buffer. -/
theorem sl_loc (c : Dev nD) (o r : ℕ) (h : o + r ≤ R) :
    (sl M o r h).view.loc (c.tc : Thread nD τ) = M.view.loc (c.tc : Thread nD τ) := rfl

/-- The elements of a row slice are the places of the range's indices. -/
theorem sl_set (o r : ℕ) (h : o + r ≤ R) : (sl M o r h).view.set = (rows R o r h).map M.view.emb :=
  View.set_slice M.view _

/-- The place of an index is in the slice exactly when its row is in the range. -/
theorem sl_mem {o r : ℕ} {h : o + r ≤ R} {x : (Sr R).Idx} :
    M.view.emb x ∈ (sl M o r h).view.set ↔ o ≤ (x 0).val ∧ (x 0).val < o + r := by
  rw [sl_set, Finset.mem_map' M.view.emb, mem_rows]

/-- Every element of the slice is the place of an index whose row is in the range. -/
theorem sl_mem_iff_exists {o r : ℕ} {h : o + r ≤ R} {i : M.view.ty.Idx} :
    i ∈ (sl M o r h).view.set ↔ ∃ x : (Sr R).Idx, M.view.emb x = i ∧ o ≤ (x 0).val ∧ (x 0).val < o + r := by
  rw [sl_set, Finset.mem_map]
  constructor
  · rintro ⟨x, hx, rfl⟩; exact ⟨x, rfl, mem_rows.mp hx⟩
  · rintro ⟨x, rfl, hx⟩; exact ⟨x, mem_rows.mpr hx, rfl⟩

/-- Slices over ranges that do not meet share no element. -/
theorem sl_disjoint {o1 r1 o2 r2 : ℕ} {h1 : o1 + r1 ≤ R} {h2 : o2 + r2 ≤ R} (h12 : o1 + r1 ≤ o2) :
    Disjoint (sl M o1 r1 h1).view.set (sl M o2 r2 h2).view.set := by
  rw [sl_set, sl_set, Finset.disjoint_map]
  exact rows_disjoint h12

/-- Slices over adjacent ranges make the slice over both. -/
theorem sl_union {o r1 r2 : ℕ} {h1 : o + r1 ≤ R} {h2 : o + r1 + r2 ≤ R} {h : o + (r1 + r2) ≤ R} :
    (sl M o r1 h1).view.set ∪ (sl M (o + r1) r2 h2).view.set = (sl M o (r1 + r2) h).view.set := by
  rw [sl_set, sl_set, sl_set, ← Finset.map_union, rows_union]

/-- The slice of all R rows has the memref's own elements, -/
theorem sl_whole_set {h : 0 + R ≤ R} : (sl M 0 R h).view.set = M.view.set := by
  rw [sl_set, rows_whole]; rfl

/-- which for a whole buffer are all of them. -/
theorem sl_whole {h : 0 + R ≤ R} (hM : M.view.set = Finset.univ) : (sl M 0 R h).view.set = Finset.univ := by
  rw [sl_whole_set, hM]

/-- A slice's elements are among those of a slice over a range that contains its range. -/
theorem sl_subset {o r o' r' : ℕ} {h : o + r ≤ R} {h' : o' + r' ≤ R} (hlo : o' ≤ o) (hhi : o + r ≤ o' + r') :
    (sl M o r h).view.set ⊆ (sl M o' r' h').view.set := by
  rw [sl_set, sl_set]
  refine Finset.map_subset_map.mpr fun x hx => ?_
  have a := mem_rows.mp hx
  exact mem_rows.mpr ⟨by omega, by omega⟩

end Sets

/-! ## Points-to assertions over row slices -/

section PointsTo

variable {Ix : Type} [DecidableEq Ix] {Val : EltTy → Type} {Name : Type} [DecidableEq Name] {U : Type} [URA U] {Lvl : Type}

local notation "𝕄" => MT nD τ sig Ix Val Name U Lvl

/-- An assertion over a range of rows is the assertions over its first r1 rows and over the r2 rows after them. -/
theorem pointsTo_rows_split {sp : Space} {e : EltTy} {R : ℕ} (M : Memref sig .tc sp (Sr R) e) (c : Dev nD)
    {o r1 r2 : ℕ} {h1 : o + r1 ≤ R} {h2 : o + r1 + r2 ≤ R} {h : o + (r1 + r2) ≤ R}
    (q : PosShare TreeShare) (f : Buf Val (M.view.loc (c.tc : Thread nD τ))) :
    (M.view.loc (c.tc : Thread nD τ) ↦[(sl M o (r1 + r2) h).view.set]{q} f : sProp 𝕄)
      ⊣⊢ iprop((M.view.loc (c.tc : Thread nD τ) ↦[(sl M o r1 h1).view.set]{q} f)
            ∗ (M.view.loc (c.tc : Thread nD τ) ↦[(sl M (o + r1) r2 h2).view.set]{q} f)) := by
  rw [← sl_union M (h1 := h1) (h2 := h2) (h := h)]
  exact pointsTo_union (sl_disjoint M (Nat.le_refl _))

/-- An assertion at a share is the assertions at the share's two halves. -/
theorem pointsTo_share_split {ℓ : Loc nD τ sig} (S : Finset (Idx ℓ)) (q : PosShare TreeShare) (f : Buf Val ℓ) :
    (ℓ ↦[S]{q} f : sProp 𝕄) ⊣⊢ iprop((ℓ ↦[S]{q.left} f) ∗ (ℓ ↦[S]{q.right} f)) :=
  pointsTo_share (PosShare.mem_left_op_right q)

/-- Contents that agree on the elements held are the same assertion. -/
theorem pointsTo_congr_on {ℓ : Loc nD τ sig} {S : Finset (Idx ℓ)} {q : PosShare TreeShare} {f g : Buf Val ℓ}
    (hfg : ∀ i ∈ S, f i = g i) : (ℓ ↦[S]{q} f : sProp 𝕄) ⊣⊢ (ℓ ↦[S]{q} g) :=
  BiEntails.of_eq (pointsTo_congr hfg)

end PointsTo

/-! ## Reading and writing through a row slice, element by element -/

section Values

open Idealize.ShloMosaic.ValueIdx

variable {Val : EltTy → Type}

/-- The index of the R x 1024 shape that row y of a slice at row o stands for. -/
def up {R r : ℕ} (o : ℕ) (h : o + r ≤ R) (y : (Sr r).Idx) : (Sr R).Idx :=
  ix2 (⟨o + (y 0).val, by have h0 : (y 0).val < r := (y 0).isLt; omega⟩ : Fin R) (y 1 : Fin 1024)

/-- The index of the r x 1024 shape that an index of the R x 1024 shape whose row is in [o, o + r) is, seen from row o. -/
def down {R r : ℕ} (o : ℕ) (x : (Sr R).Idx) (hx : o ≤ (x 0).val ∧ (x 0).val < o + r) : (Sr r).Idx :=
  ix2 (⟨(x 0).val - o, by omega⟩ : Fin r) (x 1 : Fin 1024)

theorem up_down {R r : ℕ} (o : ℕ) (h : o + r ≤ R) (x : (Sr R).Idx) (hx : o ≤ (x 0).val ∧ (x 0).val < o + r) :
    up o h (down o x hx) = x := by
  funext a
  apply Fin.ext
  match a with
  | ⟨0, _⟩ => show o + ((x 0).val - o) = (x 0).val; omega
  | ⟨1, _⟩ => rfl

section One

variable {sp : Space} {e : EltTy} {R : ℕ} (M : Memref sig .tc sp (Sr R) e)

/-- Where a slice puts its index y: the place of the index it stands for. -/
theorem sl_emb {o r : ℕ} (h : o + r ≤ R) (y : (Sr r).Idx) :
    (sl M o r h).view.emb y = M.view.emb (up o h y) := by
  show M.view.emb ((Rect.unit (s := Sr R) ![o, 0] (Sr r).size (sl_inb h)).emb y) = M.view.emb (up o h y)
  congr 1
  funext a
  apply Fin.ext
  match a with
  | ⟨0, _⟩ => show o + 1 * (y 0).val = o + (y 0).val; omega
  | ⟨1, _⟩ => show 0 + 1 * (y 1).val = (y 1).val; omega

/-- A slice reads, at its row y, what the memref reads at row o + y. -/
theorem sl_read {o r : ℕ} (h : o + r ≤ R) (f : M.view.ty.Contents Val) (y : (Sr r).Idx) :
    (sl M o r h).view.read Val f y = M.view.read Val f (up o h y) := by
  rw [View.read_apply, View.read_apply, sl_emb]

/-- After a write of w on every index of a slice, the memref reads w at the rows of the slice, -/
theorem read_sl_write_of_mem {o r : ℕ} (h : o + r ≤ R) (f : M.view.ty.Contents Val) (w : (Sr r).Idx → Val e)
    (x : (Sr R).Idx) (hx : o ≤ (x 0).val ∧ (x 0).val < o + r) :
    M.view.read Val ((sl M o r h).view.write Val f w Finset.univ) x = w (down o x hx) := by
  have hw := View.read_write_of_mem (v := (sl M o r h).view) (Val := Val) f w (M := Finset.univ) (x := down o x hx)
    (Finset.mem_univ _)
  rw [sl_read, up_down] at hw
  exact hw

/-- and what it read before at every other row. -/
theorem read_sl_write_of_not_mem {o r : ℕ} (h : o + r ≤ R) (f : M.view.ty.Contents Val) (w : (Sr r).Idx → Val e)
    (x : (Sr R).Idx) (hx : ¬ (o ≤ (x 0).val ∧ (x 0).val < o + r)) :
    M.view.read Val ((sl M o r h).view.write Val f w Finset.univ) x = M.view.read Val f x := by
  refine View.read_congr_at x (View.write_of_not_mem _ _ _ fun hm => hx ?_)
  rw [View.setOn_univ] at hm
  exact (sl_mem M).mp hm

/-- Contents are equal at the place of an index when the memref reads them the same there. -/
theorem eq_at_emb_of_read_eq {f g : M.view.ty.Contents Val} {x : (Sr R).Idx}
    (hfg : M.view.read Val f x = M.view.read Val g x) : f (M.view.emb x) = g (M.view.emb x) := by
  rw [View.read_apply, View.read_apply] at hfg
  exact (cast_inj _).mp hfg

/-- A load of r rows at row o reads, at its row j, the memref's row o + j. -/
theorem readAt_rows {o r : ℕ} (h : o + r ≤ R) (f : M.view.ty.Contents Val) :
    M.view.readAt Val (Rect.unit (s := Sr R) ![o, 0] (Sr r).size (sl_inb h)).toLoadRect f
      = fun j : (Sr r).Idx => M.view.read Val f (up o h j) :=
  funext fun j => sl_read M h f j

/-- A store of v on every index of r rows at row o leaves v at the rows stored, -/
theorem read_store_rows_of_mem {o r : ℕ} (h : o + r ≤ R) (f : M.view.ty.Contents Val) (v : (Sr r).Idx → Val e)
    (x : (Sr R).Idx) (hx : o ≤ (x 0).val ∧ (x 0).val < o + r) :
    M.view.read Val ((M.access (Rect.unit (s := Sr R) ![o, 0] (Sr r).size (sl_inb h))).write Val f v Finset.univ) x
      = v (down o x hx) :=
  read_sl_write_of_mem M h f v x hx

/-- and the old contents at every other row. -/
theorem read_store_rows_of_not_mem {o r : ℕ} (h : o + r ≤ R) (f : M.view.ty.Contents Val) (v : (Sr r).Idx → Val e)
    (x : (Sr R).Idx) (hx : ¬ (o ≤ (x 0).val ∧ (x 0).val < o + r)) :
    M.view.read Val ((M.access (Rect.unit (s := Sr R) ![o, 0] (Sr r).size (sl_inb h))).write Val f v Finset.univ) x
      = M.view.read Val f x :=
  read_sl_write_of_not_mem M h f v x hx

end One

/-! ## A copy of r rows from one buffer into another -/

section Copy

variable {sp1 sp2 : Space} {e : EltTy} {R1 R2 : ℕ}
variable (M1 : Memref sig .tc sp1 (Sr R1) e) (M2 : Memref sig .tc sp2 (Sr R2) e)

/-- The source index that lands at index x of the destination: the same column, row o1 + (row of x - o2). -/
def shift {r : ℕ} (o1 o2 : ℕ) (h1 : o1 + r ≤ R1) (x : (Sr R2).Idx) (hx : o2 ≤ (x 0).val ∧ (x 0).val < o2 + r) :
    (Sr R1).Idx :=
  ix2 (⟨(x 0).val - o2 + o1, by omega⟩ : Fin R1) (x 1 : Fin 1024)

theorem up_down_eq_shift {r : ℕ} (o1 o2 : ℕ) (h1 : o1 + r ≤ R1) (x : (Sr R2).Idx)
    (hx : o2 ≤ (x 0).val ∧ (x 0).val < o2 + r) : up o1 h1 (down o2 x hx) = shift o1 o2 h1 x hx := by
  funext a
  apply Fin.ext
  match a with
  | ⟨0, _⟩ => show o1 + ((x 0).val - o2) = (x 0).val - o2 + o1; omega
  | ⟨1, _⟩ => rfl

/-- THE COPY, element by element: after rows [o1, o1 + r) of the source, which holds fs, are written over rows
    [o2, o2 + r) of the destination, the destination reads at an index of those rows what the source read at the
    shifted index, -/
theorem read_copy_of_mem {o1 o2 r : ℕ} (h1 : o1 + r ≤ R1) (h2 : o2 + r ≤ R2)
    (fs : M1.view.ty.Contents Val) (fd : M2.view.ty.Contents Val)
    (x : (Sr R2).Idx) (hx : o2 ≤ (x 0).val ∧ (x 0).val < o2 + r) :
    M2.view.read Val ((sl M2 o2 r h2).view.write Val fd ((sl M1 o1 r h1).view.read Val fs) Finset.univ) x
      = M1.view.read Val fs (shift o1 o2 h1 x hx) := by
  rw [read_sl_write_of_mem M2 h2 fd _ x hx, sl_read, up_down_eq_shift]

/-- and what it read before at every other index. -/
theorem read_copy_of_not_mem {o1 o2 r : ℕ} (h1 : o1 + r ≤ R1) (h2 : o2 + r ≤ R2)
    (fs : M1.view.ty.Contents Val) (fd : M2.view.ty.Contents Val)
    (x : (Sr R2).Idx) (hx : ¬ (o2 ≤ (x 0).val ∧ (x 0).val < o2 + r)) :
    M2.view.read Val ((sl M2 o2 r h2).view.write Val fd ((sl M1 o1 r h1).view.read Val fs) Finset.univ) x
      = M2.view.read Val fd x :=
  read_sl_write_of_not_mem M2 h2 fd _ x hx

/-- Contents G that read, at every index of the destination rows, what the source read at the shifted index
    agree with the copy's result on the destination slice. -/
theorem copy_eq_on {o1 o2 r : ℕ} (h1 : o1 + r ≤ R1) (h2 : o2 + r ≤ R2)
    (fs : M1.view.ty.Contents Val) (fd G : M2.view.ty.Contents Val)
    (hG : ∀ (x : (Sr R2).Idx) (hx : o2 ≤ (x 0).val ∧ (x 0).val < o2 + r),
      M2.view.read Val G x = M1.view.read Val fs (shift o1 o2 h1 x hx)) :
    ∀ i ∈ (sl M2 o2 r h2).view.set,
      (sl M2 o2 r h2).view.write Val fd ((sl M1 o1 r h1).view.read Val fs) Finset.univ i = G i := by
  intro i hi
  obtain ⟨x, rfl, hx⟩ := (sl_mem_iff_exists M2).mp hi
  exact eq_at_emb_of_read_eq M2 ((read_copy_of_mem M1 M2 h1 h2 fs fd x hx).trans (hG x hx).symm)

end Copy

end Values

section CopyPointsTo

open Idealize.ShloMosaic.ValueIdx

variable {Ix : Type} [DecidableEq Ix] {Val : EltTy → Type} {Name : Type} [DecidableEq Name] {U : Type} [URA U] {Lvl : Type}

local notation "𝕄" => MT nD τ sig Ix Val Name U Lvl

variable {sp1 sp2 : Space} {e : EltTy} {R1 R2 : ℕ}

/-- THE COPY, as an assertion: the destination rows holding the copy's result hold any contents G that read, at
    every index of those rows, what the source read at the shifted index. The devices of source and destination
    do not enter. -/
theorem pointsTo_copy_eq (M1 : Memref sig .tc sp1 (Sr R1) e) (M2 : Memref sig .tc sp2 (Sr R2) e) (c1 c2 : Dev nD)
    {o1 o2 r : ℕ} (h1 : o1 + r ≤ R1) (h2 : o2 + r ≤ R2) (q : PosShare TreeShare)
    (fs : Buf Val ((sl M1 o1 r h1).view.loc (c1.tc : Thread nD τ)))
    (fd G : Buf Val ((sl M2 o2 r h2).view.loc (c2.tc : Thread nD τ)))
    (hG : ∀ (x : (Sr R2).Idx) (hx : o2 ≤ (x 0).val ∧ (x 0).val < o2 + r),
      M2.view.read Val G x = M1.view.read Val fs (shift o1 o2 h1 x hx)) :
    ((sl M2 o2 r h2).view.loc (c2.tc : Thread nD τ) ↦[(sl M2 o2 r h2).view.set]{q}
        ((sl M2 o2 r h2).view.write Val fd ((sl M1 o1 r h1).view.read Val fs) Finset.univ) : sProp 𝕄)
      = ((sl M2 o2 r h2).view.loc (c2.tc : Thread nD τ) ↦[(sl M2 o2 r h2).view.set]{q} G) :=
  pointsTo_congr (copy_eq_on M1 M2 h1 h2 fs fd G hG)

/-- The same as an entailment at the full share, the form a transfer's landing hands over. -/
theorem pointsTo_copy_entails (M1 : Memref sig .tc sp1 (Sr R1) e) (M2 : Memref sig .tc sp2 (Sr R2) e) (c1 c2 : Dev nD)
    {o1 o2 r : ℕ} (h1 : o1 + r ≤ R1) (h2 : o2 + r ≤ R2)
    (fs : Buf Val ((sl M1 o1 r h1).view.loc (c1.tc : Thread nD τ)))
    (fd G : Buf Val ((sl M2 o2 r h2).view.loc (c2.tc : Thread nD τ)))
    (hG : ∀ (x : (Sr R2).Idx) (hx : o2 ≤ (x 0).val ∧ (x 0).val < o2 + r),
      M2.view.read Val G x = M1.view.read Val fs (shift o1 o2 h1 x hx)) :
    ((sl M2 o2 r h2).view.loc (c2.tc : Thread nD τ) ↦[(sl M2 o2 r h2).view.set]{fullShare}
        ((sl M2 o2 r h2).view.write Val fd ((sl M1 o1 r h1).view.read Val fs) Finset.univ) : sProp 𝕄)
      ⊢ ((sl M2 o2 r h2).view.loc (c2.tc : Thread nD τ) ↦[(sl M2 o2 r h2).view.set]{fullShare} G) :=
  Entails.of_eq (pointsTo_copy_eq M1 M2 c1 c2 h1 h2 fullShare fs fd G hG)

end CopyPointsTo

/-! ## Cutting a whole buffer into row ranges, and joining ranges held at different contents -/

section Join

variable {Ix : Type} [DecidableEq Ix] {Val : EltTy → Type} {Name : Type} [DecidableEq Name] {U : Type} [URA U] {Lvl : Type}

local notation "𝕄" => MT nD τ sig Ix Val Name U Lvl

variable {sp : Space} {e : EltTy} {R : ℕ} (M : Memref sig .tc sp (Sr R) e)

/-- Contents that the memref reads the same at every index of a range agree on the slice over the range. -/
theorem eq_on_sl_of_read_eq {o r : ℕ} {h : o + r ≤ R} {f g : M.view.ty.Contents Val}
    (hfg : ∀ x : (Sr R).Idx, o ≤ (x 0).val ∧ (x 0).val < o + r → M.view.read Val f x = M.view.read Val g x) :
    ∀ i ∈ (sl M o r h).view.set, f i = g i := by
  intro i hi
  obtain ⟨x, rfl, hx⟩ := (sl_mem_iff_exists M).mp hi
  exact eq_at_emb_of_read_eq M (hfg x hx)

/-- So they make the same assertion over the slice. -/
theorem pointsTo_sl_congr (c : Dev nD) {o r : ℕ} {h : o + r ≤ R} (q : PosShare TreeShare)
    {f g : Buf Val (M.view.loc (c.tc : Thread nD τ))}
    (hfg : ∀ x : (Sr R).Idx, o ≤ (x 0).val ∧ (x 0).val < o + r → M.view.read Val f x = M.view.read Val g x) :
    (M.view.loc (c.tc : Thread nD τ) ↦[(sl M o r h).view.set]{q} f : sProp 𝕄)
      = (M.view.loc (c.tc : Thread nD τ) ↦[(sl M o r h).view.set]{q} g) :=
  pointsTo_congr (eq_on_sl_of_read_eq M (h := h) (f := f) (g := g) hfg)

/-- Two adjacent ranges held at contents f and g are the range of both held at any contents G that reads as f on
    the first and as g on the second. -/
theorem pointsTo_rows_join (c : Dev nD) {o r1 r2 : ℕ} {h1 : o + r1 ≤ R} {h2 : o + r1 + r2 ≤ R} {h : o + (r1 + r2) ≤ R}
    (q : PosShare TreeShare) {f g G : Buf Val (M.view.loc (c.tc : Thread nD τ))}
    (hf : ∀ x : (Sr R).Idx, o ≤ (x 0).val ∧ (x 0).val < o + r1 → M.view.read Val f x = M.view.read Val G x)
    (hg : ∀ x : (Sr R).Idx, o + r1 ≤ (x 0).val ∧ (x 0).val < o + r1 + r2 → M.view.read Val g x = M.view.read Val G x) :
    iprop((M.view.loc (c.tc : Thread nD τ) ↦[(sl M o r1 h1).view.set]{q} f)
        ∗ (M.view.loc (c.tc : Thread nD τ) ↦[(sl M (o + r1) r2 h2).view.set]{q} g))
      ⊢ (M.view.loc (c.tc : Thread nD τ) ↦[(sl M o (r1 + r2) h).view.set]{q} G : sProp 𝕄) := by
  rw [pointsTo_sl_congr M c q hf, pointsTo_sl_congr M c q hg]
  exact (pointsTo_rows_split M c (h1 := h1) (h2 := h2) (h := h) q G).2

/-- A buffer held whole is held as its slice of all R rows. -/
theorem pointsTo_univ_eq_rows (c : Dev nD) {h : 0 + R ≤ R} (hM : M.view.set = Finset.univ) (q : PosShare TreeShare)
    (f : Buf Val (M.view.loc (c.tc : Thread nD τ))) :
    (M.view.loc (c.tc : Thread nD τ) ↦[Finset.univ]{q} f : sProp 𝕄)
      = (M.view.loc (c.tc : Thread nD τ) ↦[(sl M 0 R h).view.set]{q} f) := by
  rw [sl_whole M hM]

end Join

end Cert.KernelIdeal.AG

end

/-- info: 'Cert.KernelIdeal.AG.pointsTo_rows_split' depends on axioms: [propext, Classical.choice, Quot.sound] -/
#guard_msgs in #print axioms Cert.KernelIdeal.AG.pointsTo_rows_split

/-- info: 'Cert.KernelIdeal.AG.pointsTo_share_split' depends on axioms: [propext, Classical.choice, Quot.sound] -/
#guard_msgs in #print axioms Cert.KernelIdeal.AG.pointsTo_share_split

/-- info: 'Cert.KernelIdeal.AG.pointsTo_congr_on' depends on axioms: [propext, Classical.choice, Quot.sound] -/
#guard_msgs in #print axioms Cert.KernelIdeal.AG.pointsTo_congr_on

/-- info: 'Cert.KernelIdeal.AG.pointsTo_copy_entails' depends on axioms: [propext, Classical.choice, Quot.sound] -/
#guard_msgs in #print axioms Cert.KernelIdeal.AG.pointsTo_copy_entails

/-- info: 'Cert.KernelIdeal.AG.readAt_rows' depends on axioms: [propext, Classical.choice, Quot.sound] -/
#guard_msgs in #print axioms Cert.KernelIdeal.AG.readAt_rows

/-- info: 'Cert.KernelIdeal.AG.read_store_rows_of_mem' depends on axioms: [propext, Classical.choice, Quot.sound] -/
#guard_msgs in #print axioms Cert.KernelIdeal.AG.read_store_rows_of_mem

/-- info: 'Cert.KernelIdeal.AG.read_store_rows_of_not_mem' depends on axioms: [propext, Classical.choice, Quot.sound] -/
#guard_msgs in #print axioms Cert.KernelIdeal.AG.read_store_rows_of_not_mem

/-- info: 'Cert.KernelIdeal.AG.sl_whole' depends on axioms: [propext, Classical.choice, Quot.sound] -/
#guard_msgs in #print axioms Cert.KernelIdeal.AG.sl_whole

/-- info: 'Cert.KernelIdeal.AG.pointsTo_rows_join' depends on axioms: [propext, Classical.choice, Quot.sound] -/
#guard_msgs in #print axioms Cert.KernelIdeal.AG.pointsTo_rows_join

/-- info: 'Cert.KernelIdeal.AG.pointsTo_univ_eq_rows' depends on axioms: [propext, Classical.choice, Quot.sound] -/
#guard_msgs in #print axioms Cert.KernelIdeal.AG.pointsTo_univ_eq_rows
-- ==== Proof.AGRegions.lean ====
/-
  The rows of the regions, by device.  Device c sits at (x, y, z) = (c / 4, c / 2 % 2, c % 2).  Its half of the array has four
  regions of 672 rows, region q = x' + 2 y' belonging to the position (x', y') of the plane, and two of 704 rows, one per parity
  of x' + y'.  For device c: its OWN 672-region starts at pown c and its own 704-region at rown c; the x-neighbour's at pxn c,
  the y-neighbour's at pyn c, the diagonal's at pdg c; the 704-region of the other parity at roth c.  In the result the device's
  own half starts at row myb c and the other half at row othb c.
  A 672-region is cut into chunks of 112, 224, 168, 168 rows (starting at 0, 112, 336, 504 inside it), a 704-region into four of 176.
-/
import proofs.«900673_g7700000000000674_dist_ag_v7x_xyz2x2x2_z_m4096_n1024_bf16_1_alg».proof.KernelIdeal

namespace Cert.KernelIdeal.AG

open Idealize.ShloMosaic
open Cert.KernelIdeal

def pown (c : Dev nD) : ℕ := (![0, 0, 1344, 1344, 672, 672, 2016, 2016] : Fin 8 → ℕ) c
def pxn (c : Dev nD) : ℕ := (![672, 672, 2016, 2016, 0, 0, 1344, 1344] : Fin 8 → ℕ) c
def pyn (c : Dev nD) : ℕ := (![1344, 1344, 0, 0, 2016, 2016, 672, 672] : Fin 8 → ℕ) c
def pdg (c : Dev nD) : ℕ := (![2016, 2016, 672, 672, 1344, 1344, 0, 0] : Fin 8 → ℕ) c
def rown (c : Dev nD) : ℕ := (![2688, 2688, 3392, 3392, 3392, 3392, 2688, 2688] : Fin 8 → ℕ) c
def roth (c : Dev nD) : ℕ := (![3392, 3392, 2688, 2688, 2688, 2688, 3392, 3392] : Fin 8 → ℕ) c
def myb (c : Dev nD) : ℕ := (![0, 4096, 0, 4096, 0, 4096, 0, 4096] : Fin 8 → ℕ) c
def othb (c : Dev nD) : ℕ := (![4096, 0, 4096, 0, 4096, 0, 4096, 0] : Fin 8 → ℕ) c

/-- Every 672-region lies in the first 2688 rows, every 704-region in the last 1408; the halves of the result are the two halves. -/
theorem pown_le (c : Dev nD) : pown c + 672 ≤ 2688 := by revert c; decide
theorem pxn_le (c : Dev nD) : pxn c + 672 ≤ 2688 := by revert c; decide
theorem pyn_le (c : Dev nD) : pyn c + 672 ≤ 2688 := by revert c; decide
theorem pdg_le (c : Dev nD) : pdg c + 672 ≤ 2688 := by revert c; decide
theorem rown_le (c : Dev nD) : 2688 ≤ rown c ∧ rown c + 704 ≤ 4096 := by revert c; decide
theorem roth_le (c : Dev nD) : 2688 ≤ roth c ∧ roth c + 704 ≤ 4096 := by revert c; decide
theorem myb_le (c : Dev nD) : myb c + 4096 ≤ 8192 := by revert c; decide
theorem othb_le (c : Dev nD) : othb c + 4096 ≤ 8192 := by revert c; decide
theorem myb_othb (c : Dev nD) : myb c + othb c = 4096 := by revert c; decide
theorem myb_eq (c : Dev nD) : myb c = 4096 * (c.val % 2) := by revert c; decide

/-- The four 672-regions of a device are the four regions, each once; likewise the two 704-regions. -/
theorem p_distinct (c : Dev nD) : pown c ≠ pxn c ∧ pown c ≠ pyn c ∧ pown c ≠ pdg c ∧ pxn c ≠ pyn c ∧ pxn c ≠ pdg c ∧ pyn c ≠ pdg c := by
  revert c; decide
theorem p_mod (c : Dev nD) : pown c % 672 = 0 ∧ pxn c % 672 = 0 ∧ pyn c % 672 = 0 ∧ pdg c % 672 = 0 := by revert c; decide
theorem r_distinct (c : Dev nD) : rown c ≠ roth c := by revert c; decide

end Cert.KernelIdeal.AG
-- ==== Proof.AGSched.lean ====
/-
  The protocol, cell by cell.  Every semaphore of a device is used for exactly one round.
  The barrier cell of device c has three duties of one unit, paid by its z-, x- and y-neighbour (duties 0, 1, 2): each neighbour
  hands over the eight row ranges of ITS communication buffer that c will write, and that round 0 of the eight receive cells
  those writes credit is reached.
  A DMA cell has one duty (duty 0) of the credit of the copy's destination.  What its landing hands the cell's owner:
   * an input cell: the staging rows holding the device's half, and the rows of the argument read back;
   * a send cell: the source rows back at the share the transfer read them with;
   * a receive cell: the rows of the communication buffer holding what the origin converted;
   * an output cell: the rows of the result written, and the source rows back.
  Shares: rows of the conversion buffer that the z-transfer reads are read at the left half (the whole-buffer copy to the result
  reads the right half); an own 672-chunk of the communication buffer is read by the x-forward (left), the y-forward (left of
  right) and the copy to the result (right of right); an own 704-chunk by its one forward (left) and the copy (right); the
  y-neighbour's first two and the x-neighbour's last two 672-chunks by the forward on (left) and the copy (right).
-/
import proofs.«900673_g7700000000000674_dist_ag_v7x_xyz2x2x2_z_m4096_n1024_bf16_1_alg».proof.Proof.Gen.KernelIdeal.Launch
import proofs.«900673_g7700000000000674_dist_ag_v7x_xyz2x2x2_z_m4096_n1024_bf16_1_alg».proof.Proof.AGContents
import proofs.«900673_g7700000000000674_dist_ag_v7x_xyz2x2x2_z_m4096_n1024_bf16_1_alg».proof.Proof.AGSl
import proofs.«900673_g7700000000000674_dist_ag_v7x_xyz2x2x2_z_m4096_n1024_bf16_1_alg».proof.Proof.AGRegions
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds library's with duties Fin 3 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers -/

abbrev XA : Memref sig .tc .hbm (Sr 4096) .f32 := Memref.whole main_arg0
abbrev OU : Memref sig .tc .hbm (Sr 8192) .bf16 := Memref.whole main_v1
abbrev ST : Memref sig .tc .vmem (Sr 4096) .f32 := Memref.whole cc0_scratch0
abbrev MI : Memref sig .tc .vmem (Sr 4096) .bf16 := Memref.whole cc0_scratch1
abbrev CM : Memref sig .tc .vmem (Sr 4096) .bf16 := Memref.whole cc0_scratch2

/-- Rows [o, o + r) of a buffer of device c, held at share q with contents f. -/
def pts {sp : Space} {e : EltTy} {R : ℕ} (c : Dev nD) (M : Memref sig .tc sp (Sr R) e) (o r : ℕ) (h : o + r ≤ R) (q : PosShare TreeShare)
    (f : Buf (Elt F) ((sl M o r h).view.loc (c : Thread nD τ))) : sProp 𝕄 :=
  (sl M o r h).view.loc (c : Thread nD τ) ↦[(sl M o r h).view.set]{q} f

/-! ## Chunks -/

/-- Where a chunk of a 672-region starts inside it, and how many rows it has. -/
def pco : Fin 4 → ℕ := ![0, 112, 336, 504]
def pcl : Fin 4 → ℕ := ![112, 224, 168, 168]

/-- Chunk j of the device's own regions: four of its 672-region, then four of its 704-region. -/
def ownOff (c : Dev nD) (j : Fin 8) : ℕ := if h : j.val < 4 then pown c + pco ⟨j.val, h⟩ else rown c + 176 * (j.val - 4)
def ownLen (j : Fin 8) : ℕ := if h : j.val < 4 then pcl ⟨j.val, h⟩ else 176
/-- What arrives from the x-neighbour: its own 672-region, the first half of its 704-region, the first two chunks of the diagonal's. -/
def xinOff (c : Dev nD) (k : Fin 8) : ℕ :=
  if h : k.val < 4 then pxn c + pco ⟨k.val, h⟩ else if k.val < 6 then roth c + 176 * (k.val - 4) else pdg c + pco ⟨k.val - 6, by omega⟩
def xinLen (k : Fin 8) : ℕ := if h : k.val < 4 then pcl ⟨k.val, h⟩ else if k.val < 6 then 176 else pcl ⟨k.val - 6, by omega⟩
/-- What arrives from the y-neighbour: its own 672-region, the second half of its 704-region, the last two chunks of the diagonal's. -/
def yinOff (c : Dev nD) (k : Fin 8) : ℕ :=
  if h : k.val < 4 then pyn c + pco ⟨k.val, h⟩ else if k.val < 6 then roth c + 352 + 176 * (k.val - 4) else pdg c + pco ⟨k.val - 4, by omega⟩
def yinLen (k : Fin 8) : ℕ := if h : k.val < 4 then pcl ⟨k.val, h⟩ else if k.val < 6 then 176 else 168
/-- The twelve input copies: the eight own chunks, then the three other 672-regions and the other 704-region whole. -/
def inOff (c : Dev nD) (i : Fin 12) : ℕ :=
  if h : i.val < 8 then ownOff c ⟨i.val, h⟩ else if i.val = 8 then pxn c else if i.val = 9 then pyn c else if i.val = 10 then pdg c else roth c
def inLen (i : Fin 12) : ℕ := if h : i.val < 8 then ownLen ⟨i.val, h⟩ else if i.val = 11 then 704 else 672

theorem own_inb : ∀ (c : Dev nD) (j : Fin 8), ownOff c j + ownLen j ≤ 4096 := by decide
theorem xin_inb : ∀ (c : Dev nD) (k : Fin 8), xinOff c k + xinLen k ≤ 4096 := by decide
theorem yin_inb : ∀ (c : Dev nD) (k : Fin 8), yinOff c k + yinLen k ≤ 4096 := by decide
theorem in_inb : ∀ (c : Dev nD) (i : Fin 12), inOff c i + inLen i ≤ 4096 := by decide
theorem oown_inb : ∀ (c : Dev nD) (j : Fin 8), othb c + ownOff c j + ownLen j ≤ 8192 := by decide
theorem oxin_inb : ∀ (c : Dev nD) (k : Fin 8), othb c + xinOff c k + xinLen k ≤ 8192 := by decide
theorem oyin_inb : ∀ (c : Dev nD) (k : Fin 8), othb c + yinOff c k + yinLen k ≤ 8192 := by decide
theorem omy_inb (c : Dev nD) : myb c + 4096 ≤ 8192 := myb_le c

/-- A neighbour's chunks are this device's at the same rows: what the x-neighbour calls its own chunk the device receives as the
    x-neighbour's, and so on around. -/
theorem xin_xn : ∀ (c : Dev nD) (k : Fin 4), xinOff c ⟨k.val, by omega⟩ = ownOff (xn c) ⟨k.val, by omega⟩ := by decide
theorem yin_yn : ∀ (c : Dev nD) (k : Fin 4), yinOff c ⟨k.val, by omega⟩ = ownOff (yn c) ⟨k.val, by omega⟩ := by decide
theorem own_zn : ∀ (c : Dev nD) (j : Fin 8), ownOff (zn c) j = ownOff c j := by decide

/-! ## Shares -/

abbrev sL : PosShare TreeShare := fullShare.left
abbrev sR : PosShare TreeShare := fullShare.right
abbrev sRL : PosShare TreeShare := fullShare.right.left
abbrev sRR : PosShare TreeShare := fullShare.right.right

/-- The share the copy of own chunk j to the result reads the communication buffer with. -/
def qlz (j : Fin 8) : PosShare TreeShare := if j.val < 4 then sRR else sR
/-- The share the x-forward k reads with (always the left half); the y-forward's: left of right for an own 672-chunk, else left. -/
def qys (k : Fin 8) : PosShare TreeShare := if k.val < 4 then sRL else sL
/-- The share the copy of the x-arrival k to the result reads with: the right half where the y-forward on reads the left. -/
def qlx (k : Fin 8) : PosShare TreeShare := if k.val = 2 ∨ k.val = 3 then sR else fullShare
def qly (k : Fin 8) : PosShare TreeShare := if k.val = 0 ∨ k.val = 1 then sR else fullShare

/-! ## The cells -/

abbrev barS : Sem sig := (SemArray.scalar (sig.barrier 0 rfl) : Sems sig S_).sem
abbrev barCell (c : Dev nD) : GSem nD τ sig := ((c : Thread nD τ), .reg barS)
/-- DMA semaphore n of device c: 0–11 the inputs; then eight each of: z-send, z-receive, x-send, x-receive, y-send, y-receive,
    result copies of the own, the x- and the y-arrivals; 84 the copy of the conversion buffer. -/
abbrev dcell (c : Dev nD) (n : ℕ) (h : n < 85) : GSem nD τ sig := ((c : Thread nD τ), .dma ⟨n, h⟩)

/-! ## Payloads -/

/-- An input cell: the staging rows holding the device's half there, and the rows of the argument back. -/
def payIn (c : Dev nD) (i : Fin 12) : sProp 𝕄 :=
  iprop(pts c ST (inOff c i) (inLen i) (in_inb c i) fullShare (X m c) ∗ pts c XA (inOff c i) (inLen i) (in_inb c i) fullShare (X m c))
/-- A z-send cell: the rows of the conversion buffer back at the left half. -/
def payZs (c : Dev nD) (j : Fin 8) : sProp 𝕄 := pts c MI (ownOff c j) (ownLen j) (own_inb c j) sL (mineV m c)
/-- A z-receive cell: the own chunk of the communication buffer, holding what the origins converted. -/
def payZr (c : Dev nD) (j : Fin 8) : sProp 𝕄 := pts c CM (ownOff c j) (ownLen j) (own_inb c j) fullShare (commV m c)
/-- An x-send cell: the source rows (the x-neighbour's arrival k, at the same rows here) back at the left half. -/
def payXs (c : Dev nD) (k : Fin 8) : sProp 𝕄 := pts c CM (xinOff (xn c) k) (xinLen k) (xin_inb (xn c) k) sL (commV m c)
def payXr (c : Dev nD) (k : Fin 8) : sProp 𝕄 := pts c CM (xinOff c k) (xinLen k) (xin_inb c k) fullShare (commV m c)
def payYs (c : Dev nD) (k : Fin 8) : sProp 𝕄 := pts c CM (yinOff (yn c) k) (yinLen k) (yin_inb (yn c) k) (qys k) (commV m c)
def payYr (c : Dev nD) (k : Fin 8) : sProp 𝕄 := pts c CM (yinOff c k) (yinLen k) (yin_inb c k) fullShare (commV m c)
/-- An output cell: the rows of the result written, and the source rows of the communication buffer back. -/
def payLz (c : Dev nD) (j : Fin 8) : sProp 𝕄 :=
  iprop(pts c OU (othb c + ownOff c j) (ownLen j) (oown_inb c j) fullShare (outV m c) ∗ pts c CM (ownOff c j) (ownLen j) (own_inb c j) (qlz j) (commV m c))
def payLx (c : Dev nD) (k : Fin 8) : sProp 𝕄 :=
  iprop(pts c OU (othb c + xinOff c k) (xinLen k) (oxin_inb c k) fullShare (outV m c) ∗ pts c CM (xinOff c k) (xinLen k) (xin_inb c k) (qlx k) (commV m c))
def payLy (c : Dev nD) (k : Fin 8) : sProp 𝕄 :=
  iprop(pts c OU (othb c + yinOff c k) (yinLen k) (oyin_inb c k) fullShare (outV m c) ∗ pts c CM (yinOff c k) (yinLen k) (yin_inb c k) (qly k) (commV m c))
/-- The copy of the whole conversion buffer: the device's own half of the result, and the buffer back at the right half. -/
def payLm (c : Dev nD) : sProp 𝕄 :=
  iprop(pts c OU (myb c) 4096 (omy_inb c) fullShare (outV m c) ∗ pts c MI 0 4096 (Nat.le_refl _) sR (mineV m c))

/-- The index within its family of eight of DMA semaphore n, the family starting at b. -/
def fj (n b : ℕ) : Fin 8 := ⟨(n - b) % 8, Nat.mod_lt _ (by decide)⟩

/-- What the landing on DMA cell n hands device c. -/
def dpay (c : Dev nD) (n : ℕ) : sProp 𝕄 :=
  if h : n < 12 then payIn m c ⟨n, h⟩
  else if n < 20 then payZs m c (fj n 12)
  else if n < 28 then payZr m c (fj n 20)
  else if n < 36 then payXs m c (fj n 28)
  else if n < 44 then payXr m c (fj n 36)
  else if n < 52 then payYs m c (fj n 44)
  else if n < 60 then payYr m c (fj n 52)
  else if n < 68 then payLz m c (fj n 60)
  else if n < 76 then payLx m c (fj n 68)
  else if n < 84 then payLy m c (fj n 76)
  else payLm m c

/-- What neighbour d's signal (0: z, 1: x, 2: y) hands device c: the eight row ranges of the neighbour's communication buffer that
    c writes, and that the eight receive cells there are at round 0. -/
def bpay (c : Dev nD) (d : Fin 3) : sProp 𝕄 :=
  if d.val = 0 then
    bigSep Finset.univ fun j : Fin 8 => iprop((∃ f, pts (zn c) CM (ownOff (zn c) j) (ownLen j) (own_inb (zn c) j) fullShare f)
      ∗ reached ER (dcell (zn c) (20 + j.val) (by omega)) 0)
  else if d.val = 1 then
    bigSep Finset.univ fun k : Fin 8 => iprop((∃ f, pts (xn c) CM (xinOff (xn c) k) (xinLen k) (xin_inb (xn c) k) fullShare f)
      ∗ reached ER (dcell (xn c) (36 + k.val) (by omega)) 0)
  else
    bigSep Finset.univ fun k : Fin 8 => iprop((∃ f, pts (yn c) CM (yinOff (yn c) k) (yinLen k) (yin_inb (yn c) k) fullShare f)
      ∗ reached ER (dcell (yn c) (52 + k.val) (by omega)) 0)

/-! ## Amounts: the credit of the copy's destination rows (it does not depend on where the rows start) -/

theorem Sr_numel_pos {r : ℕ} (h : 0 < r) : 0 < (Sr r).numel :=
  Shape.numel_pos fun a => by fin_cases a; exact h; exact (by decide : 0 < 1024)

theorem inLen_pos : ∀ i : Fin 12, 0 < inLen i ∧ inLen i ≤ 4096 := by decide
theorem ownLen_pos : ∀ j : Fin 8, 0 < ownLen j ∧ ownLen j ≤ 4096 := by decide
theorem xinLen_pos : ∀ k : Fin 8, 0 < xinLen k ∧ xinLen k ≤ 4096 := by decide
theorem yinLen_pos : ∀ k : Fin 8, 0 < yinLen k ∧ yinLen k ≤ 4096 := by decide

def amtST (r : ℕ) (h : r ≤ 4096) : ℕ := (sl ST 0 r (by omega)).view.dmaCredit
def amtCM (r : ℕ) (h : r ≤ 4096) : ℕ := (sl CM 0 r (by omega)).view.dmaCredit
def amtOU (r : ℕ) (h : r ≤ 8192) : ℕ := (sl OU 0 r (by omega)).view.dmaCredit

theorem amtST_pos {r : ℕ} (h : r ≤ 4096) (hr : 0 < r) : 0 < amtST r h := View.dmaCredit_pos _ (Sr_numel_pos hr)
theorem amtCM_pos {r : ℕ} (h : r ≤ 4096) (hr : 0 < r) : 0 < amtCM r h := View.dmaCredit_pos _ (Sr_numel_pos hr)
theorem amtOU_pos {r : ℕ} (h : r ≤ 8192) (hr : 0 < r) : 0 < amtOU r h := View.dmaCredit_pos _ (Sr_numel_pos hr)

/-- The units one round of DMA cell n carries. -/
def damt (n : ℕ) : ℕ :=
  if h : n < 12 then amtST (inLen ⟨n, h⟩) (inLen_pos _).2
  else if n < 28 then amtCM (ownLen (fj n 12)) (ownLen_pos _).2
  else if n < 44 then amtCM (xinLen (fj n 28)) (xinLen_pos _).2
  else if n < 60 then amtCM (yinLen (fj n 44)) (yinLen_pos _).2
  else if n < 68 then amtOU (ownLen (fj n 60)) (Nat.le_trans (ownLen_pos _).2 (by decide))
  else if n < 76 then amtOU (xinLen (fj n 68)) (Nat.le_trans (xinLen_pos _).2 (by decide))
  else if n < 84 then amtOU (yinLen (fj n 76)) (Nat.le_trans (yinLen_pos _).2 (by decide))
  else amtOU 4096 (by decide)

theorem damt_pos (n : ℕ) : 0 < damt n := by
  unfold damt
  split
  · exact amtST_pos _ (inLen_pos _).1
  split
  · exact amtCM_pos _ (ownLen_pos _).1
  split
  · exact amtCM_pos _ (xinLen_pos _).1
  split
  · exact amtCM_pos _ (yinLen_pos _).1
  split
  · exact amtOU_pos _ (ownLen_pos _).1
  split
  · exact amtOU_pos _ (xinLen_pos _).1
  split
  · exact amtOU_pos _ (yinLen_pos _).1
  · exact amtOU_pos _ (by decide)

/-! ## The schedule -/

/-- One round, round 0, on every TensorCore cell: the barrier cell's three unit duties, a DMA cell's one. -/
def agRd : Rounds.Schedule (GSem nD τ sig) (Fin 3) 𝕄 where
  duties g r := if r = 0 ∧ g.1.2 = .tc then (match g.2 with | .reg s => if s = barS then Finset.univ else ∅ | .dma _ => {0}) else ∅
  unitless _ := False
  amount g _ _ := match g.2 with | .reg _ => 1 | .dma q => damt q.val
  payload g _ d := match g.2 with | .reg _ => bpay g.1.1 d | .dma q => dpay m g.1.1 q.val
  amount_pos g r d h := by
    obtain ⟨t, s⟩ := g
    cases s with
    | reg s => exact Nat.one_pos
    | dma q => exact damt_pos q.val

instance pts_storable {sp : Space} {e : EltTy} {R : ℕ} (c : Dev nD) (M : Memref sig .tc sp (Sr R) e) (o r : ℕ) (h : o + r ≤ R) (q : PosShare TreeShare)
    (f : Buf (Elt F) ((sl M o r h).view.loc (c : Thread nD τ))) : BI.Storable (upEmb : UEmb _ 𝕄) (pts (F := F) c M o r h q f) := by
  unfold pts; infer_instance

instance dpay_storable (c : Dev nD) (n : ℕ) : BI.Storable (upEmb : UEmb _ 𝕄) (dpay (F := F) m c n) := by
  unfold dpay payIn payZs payZr payXs payXr payYs payYr payLz payLx payLy payLm
  (repeat' split) <;> infer_instance

instance bpay_storable (c : Dev nD) (d : Fin 3) : BI.Storable (upEmb : UEmb _ 𝕄) (bpay (F := F) c d) := by
  unfold bpay
  (repeat' split) <;> infer_instance

instance agRd_payload_storable (g : GSem nD τ sig) (r : ℕ) (d : Fin 3) : BI.Storable (upEmb : UEmb _ 𝕄) ((agRd (F := F) m).payload g r d) := by
  obtain ⟨t, s⟩ := g
  cases s with
  | reg s => exact bpay_storable t.1 d
  | dma q => exact dpay_storable m t.1 q.val

end Cert.KernelIdeal.AG

end
-- ==== Proof.AGState.lean ====
/-
  The schedule's tables read cell by cell, what each device owes when the kernel is launched, and the levels.
  A device owes: one unit to each neighbour's barrier cell, and to each neighbour the credit of the eight transfers it sends it
  (the z-neighbour's eight z-receive cells, the x-neighbour's eight x-receive cells, the y-neighbour's eight y-receive cells).
  Levels: a send cell or a local copy's cell is at 0 (its owner pays it itself); the barrier cell at 1; a receive cell at 2 + its
  place in the order in which every device waits for its receive cells:
  z0 z1 y0 z2 z3 y1 x2 x3 z4 z5 z6 z7 x0 x1 x4 x5 x6 x7 y2 y3 y4 y5 y6 y7.
  Every transfer a device fires after one of these waits credits a cell that comes later in that order, so a device waits only
  on cells below everything it still owes.
-/
import proofs.«900673_g7700000000000674_dist_ag_v7x_xyz2x2x2_z_m4096_n1024_bf16_1_alg».proof.Proof.AGSched

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables -/

section Tables
variable (c : Dev nD) (n : ℕ) (h : n < 85)

theorem duties_bar : (agRd (F := F) m).duties (barCell c) 0 = Finset.univ := by
  dsimp only [agRd]; rw [if_pos ⟨rfl, rfl⟩, if_pos rfl]
theorem duties_dma : (agRd (F := F) m).duties (dcell c n h) 0 = {0} := by
  dsimp only [agRd]; rw [if_pos ⟨rfl, rfl⟩]
theorem duties_later (g : GSem nD τ sig) : ∀ r, 1 ≤ r → (agRd (F := F) m).duties g r = ∅ :=
  fun r hr => by dsimp only [agRd]; rw [if_neg fun h => by omega]
theorem amount_bar (d : Fin 3) : (agRd (F := F) m).amount (barCell c) 0 d = 1 := rfl
theorem amount_dma (d : Fin 3) : (agRd (F := F) m).amount (dcell c n h) 0 d = damt n := rfl
theorem payload_bar (d : Fin 3) : (agRd (F := F) m).payload (barCell c) 0 d = bpay c d := rfl
theorem payload_dma (d : Fin 3) : (agRd (F := F) m).payload (dcell c n h) 0 d = dpay m c n := rfl

theorem expect_bar : (agRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma : (agRd (F := F) m).expect (dcell c n h) 0 = damt n := by
  unfold Schedule.expect Schedule.amountOf; rw [duties_dma, Finset.sum_singleton, amount_dma]

/-- The rest of a DMA cell's round, nothing taken: its one payload. -/
theorem rest_dma : bigSep ((agRd (F := F) m).duties (dcell c n h) 0 \ ∅) (fun d => (agRd (F := F) m).payload (dcell c n h) 0 d) = dpay m c n := by
  rw [Finset.sdiff_empty, duties_dma, bigSep_singleton, payload_dma]

/-- The rest of the barrier cell's round, nothing taken: the three neighbours' payloads. -/
theorem rest_bar : bigSep ((agRd (F := F) m).duties (barCell c) 0 \ ∅) (fun d => (agRd (F := F) m).payload (barCell c) 0 d)
    = iprop(bpay c 0 ∗ bpay c 1 ∗ bpay c 2) := by
  rw [Finset.sdiff_empty, duties_bar, bigSep_univ_eq_bigSepL [0, 1, 2] (by decide) (by decide)]
  rfl

end Tables

/-! ## Every cell of a device, by one index: 0–84 its DMA cells, 85 its barrier cell -/

abbrev ksem (k : Fin 86) : SemLoc sig := if h : k.val < 85 then .dma ⟨k.val, h⟩ else .reg barS
abbrev kcell (ck : Dev nD × Fin 86) : GSem nD τ sig := ((ck.1 : Thread nD τ), ksem ck.2)

/-! ## What a device owes at launch, in the order in which it pays -/

/-- The cells device c pays another device's owner on, with the units, in the order the body pays them: the three barrier
    signals (z, x, y); the eight z-transfers; then the forwards x0 y0 x1 y1 x6 x2 y2 x3 y3 x7 y6 y7 x4 x5 y4 y5. -/
def fires (c : Dev nD) : List (GSem nD τ sig × ℕ) :=
  [ (barCell (zn c), 1), (barCell (xn c), 1), (barCell (yn c), 1),
    (dcell (zn c) 20 (by decide), damt 20), (dcell (zn c) 21 (by decide), damt 21), (dcell (zn c) 22 (by decide), damt 22), (dcell (zn c) 23 (by decide), damt 23),
    (dcell (zn c) 24 (by decide), damt 24), (dcell (zn c) 25 (by decide), damt 25), (dcell (zn c) 26 (by decide), damt 26), (dcell (zn c) 27 (by decide), damt 27),
    (dcell (xn c) 36 (by decide), damt 36), (dcell (yn c) 52 (by decide), damt 52),
    (dcell (xn c) 37 (by decide), damt 37), (dcell (yn c) 53 (by decide), damt 53),
    (dcell (xn c) 42 (by decide), damt 42),
    (dcell (xn c) 38 (by decide), damt 38), (dcell (yn c) 54 (by decide), damt 54),
    (dcell (xn c) 39 (by decide), damt 39), (dcell (yn c) 55 (by decide), damt 55),
    (dcell (xn c) 43 (by decide), damt 43),
    (dcell (yn c) 58 (by decide), damt 58), (dcell (yn c) 59 (by decide), damt 59),
    (dcell (xn c) 40 (by decide), damt 40), (dcell (xn c) 41 (by decide), damt 41),
    (dcell (yn c) 56 (by decide), damt 56), (dcell (yn c) 57 (by decide), damt 57) ]

/-- What is still owed once the first k payments are made: the later ones, the next payment the LAST summand. -/
def owedAfter (c : Dev nD) (k : ℕ) : CellTallies nD τ sig Unit :=
  ((fires c).drop k).foldr (fun t acc => acc + tallyAt t.1 () t.2) 0

theorem owedAfter_all (c : Dev nD) : owedAfter c 27 = 0 := rfl

/-! ## Levels -/

def L (g : GSem nD τ sig) : Finset Unit := if g.1.2 = .tc then {()} else ∅

/-- The place of a receive cell in the order every device waits for them, plus 2; every other DMA cell 0. -/
def lvDma (n : ℕ) : ℕ :=
  if n = 20 then 2 else if n = 21 then 3 else if n = 52 then 4 else if n = 22 then 5 else if n = 23 then 6 else if n = 53 then 7
  else if n = 38 then 8 else if n = 39 then 9 else if n = 24 then 10 else if n = 25 then 11 else if n = 26 then 12 else if n = 27 then 13
  else if n = 36 then 14 else if n = 37 then 15 else if n = 40 then 16 else if n = 41 then 17 else if n = 42 then 18 else if n = 43 then 19
  else if n = 54 then 20 else if n = 55 then 21 else if n = 56 then 22 else if n = 57 then 23 else if n = 58 then 24 else if n = 59 then 25
  else 0

def lv (g : GSem nD τ sig) (_ : Unit) : ℕ := match g.2 with | .reg _ => 1 | .dma q => lvDma q.val

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- Every cell's invariant, under the names the launch allocated them at, and that round 0 of every cell is reached. -/
def records (K : Dev nD × Fin 86 → ℕ) : sProp 𝕄 :=
  iprop((bigSep Finset.univ fun ck : Dev nD × Fin 86 => cellInv ER (agRd m) (K ck) (kcell ck))
    ∗ bigSep Finset.univ fun ck : Dev nD × Fin 86 => reached ER (kcell ck) 0)

instance records_persistent (K : Dev nD × Fin 86 → ℕ) : BI.Persistent (records m K) := by unfold records; infer_instance

/-- The device's positions: at round 0 of each of its cells, nothing taken. -/
def positions (c : Dev nD) : sProp 𝕄 := bigSep Finset.univ fun k : Fin 86 => atPos ER (kcell (c, k)) 0 ∅ 0

/-- The DMA cells of its own that a device pays itself: inputs, sends, result copies. -/
def ownPaid : Finset (Fin 85) := Finset.univ.filter fun n => n.val < 20 ∨ (28 ≤ n.val ∧ n.val < 36) ∨ (44 ≤ n.val ∧ n.val < 52) ∨ 60 ≤ n.val
/-- Its receive cells. -/
def ownRecv : Finset (Fin 85) := Finset.univ.filter fun n => (20 ≤ n.val ∧ n.val < 28) ∨ (36 ≤ n.val ∧ n.val < 44) ∨ (52 ≤ n.val ∧ n.val < 60)

/-- The tokens of the duties the device pays: its signal duty on each neighbour's barrier cell, the receive duty of each
    neighbour's eight receive cells it transfers into, and the duty of each of its own cells it pays itself. -/
def payToks (c : Dev nD) : sProp 𝕄 :=
  iprop(dutyTok ER (barCell (zn c)) 0 0 ∗ dutyTok ER (barCell (xn c)) 0 1 ∗ dutyTok ER (barCell (yn c)) 0 2
    ∗ (bigSep Finset.univ fun j : Fin 8 => dutyTok ER (dcell (zn c) (20 + j.val) (by omega)) 0 0)
    ∗ (bigSep Finset.univ fun k : Fin 8 => dutyTok ER (dcell (xn c) (36 + k.val) (by omega)) 0 0)
    ∗ (bigSep Finset.univ fun k : Fin 8 => dutyTok ER (dcell (yn c) (52 + k.val) (by omega)) 0 0)
    ∗ (bigSep ownPaid fun n => dutyTok ER (dcell c n.val n.isLt) 0 0))

/-- The credit dealt at launch: the three units of its barrier cell and the amount of each of its receive cells. -/
def creds (c : Dev nD) : sProp 𝕄 :=
  iprop(cred (tallyAt (barCell c) () 3) ∗ bigSep ownRecv fun n => cred (tallyAt (dcell c n.val n.isLt) () (damt n.val)))

/-- What the body of device c starts from, besides its buffers. -/
def start (c : Dev nD) : sProp 𝕄 :=
  iprop((∃ K, records m K ∗ positions c ∗ payToks c) ∗ creds c ∗ levAts L lv)

/-- A whole buffer of device c at some contents; at given contents. -/
def someBuf (c : Dev nD) (b : Ref sig .tc) : sProp 𝕄 := iprop(∃ f : Buf (Elt F) ((c : Thread nD τ).loc b), ((c : Thread nD τ).loc b) ↦{fullShare} f)

/-- Before the body: the ghost state, the three scratch buffers at some contents, the argument as launched, the result at some contents. -/
def Φ₀ (c : Dev nD) : sProp 𝕄 :=
  iprop(start m c ∗ (someBuf c cc0_scratch0 ∗ someBuf c cc0_scratch1 ∗ someBuf c cc0_scratch2)
    ∗ (((c : Thread nD τ).loc main_arg0) ↦{fullShare} X m c) ∗ someBuf c main_v1)

/-- After the body: the scratch buffers at some contents, the argument unchanged, the result holding the whole array converted,
    and every one of the device's DMA cells closed with its counter at zero. -/
def Φ₁ (c : Dev nD) : sProp 𝕄 :=
  iprop((someBuf c cc0_scratch0 ∗ someBuf c cc0_scratch1 ∗ someBuf c cc0_scratch2)
    ∗ (((c : Thread nD τ).loc main_arg0) ↦{fullShare} X m c) ∗ (((c : Thread nD τ).loc main_v1) ↦{fullShare} outV m c)
    ∗ bigSep Finset.univ fun n : Fin 85 => semVal (dcell c n.val n.isLt) 0)

/-- The pipeline's proof data: no window; the invariant before and after the one point; what is owed before and after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owedAfter c 0
    | ⟨_ + 1, _⟩ => 0

abbrev 𝒱₀ : Variants := Variants.none

end Cert.KernelIdeal.AG

end
-- ==== Proof.AGCuts.lean ====
/-
  Cutting a whole buffer of a device into the row ranges it is held by, and joining the ranges back.
  A buffer of 4096 rows is four regions of 672 rows (at rows 0, 672, 1344, 2016) and two of 704 rows (at rows 2688, 3392); a
  672-region is chunks of 112, 224, 168, 168 rows, a 704-region four chunks of 176 rows.  For device c the regions at pown c, pxn c,
  pyn c, pdg c are those four 672-regions in an order that depends on c, and the regions at rown c, roth c the two 704-regions.
  Adjacent row ranges held at one share and one contents are the range of both, so the 4096 rows are the twenty-four chunks; and
  since the separating conjunction is commutative and associative, the chunks can be listed family by family: the eight own chunks,
  the eight ranges that arrive from the x-neighbour and the eight that arrive from the y-neighbour; or the eight own chunks and the
  three other 672-regions and the other 704-region whole.  The result has 8192 rows: the device's own half, and in the other half
  the same families counted from that half's first row.
  Every statement is an equality of assertions (two assertions that entail each other are equal), given as an equivalence.
-/
import proofs.«900673_g7700000000000674_dist_ag_v7x_xyz2x2x2_z_m4096_n1024_bf16_1_alg».proof.Proof.AGSlices
import proofs.«900673_g7700000000000674_dist_ag_v7x_xyz2x2x2_z_m4096_n1024_bf16_1_alg».proof.Proof.AGState

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Separating conjunction is commutative and associative as an equality of assertions -/

local instance sepComm {M : Type _} [RA M] : Std.Commutative (α := sProp M) BIBase.sep :=
  ⟨fun _ _ => BI.Entails.antisymm BI.sep_comm BI.sep_comm⟩
local instance sepAssoc {M : Type _} [RA M] : Std.Associative (α := sProp M) BIBase.sep :=
  ⟨fun _ _ _ => BI.Entails.antisymm BI.sep_assoc BI.sep_assoc'⟩

/-! ## Families of eight and of twelve, written out -/

omit [FloatOps F] in
theorem cuts_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem cuts_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The regions of a device are the regions, in another order -/

omit [FloatOps F] in
/-- The four 672-regions of a device are the regions at 0, 672, 1344, 2016 in some order. -/
theorem perm_p (A : ℕ → sProp 𝕄) (c : Dev nD) :
    iprop(A 0 ∗ A 672 ∗ A 1344 ∗ A 2016) = iprop(A (pown c) ∗ A (pxn c) ∗ A (pyn c) ∗ A (pdg c)) := by
  have h : (pown c = 0 ∧ pxn c = 672 ∧ pyn c = 1344 ∧ pdg c = 2016) ∨ (pown c = 672 ∧ pxn c = 0 ∧ pyn c = 2016 ∧ pdg c = 1344)
      ∨ (pown c = 1344 ∧ pxn c = 2016 ∧ pyn c = 0 ∧ pdg c = 672) ∨ (pown c = 2016 ∧ pxn c = 1344 ∧ pyn c = 672 ∧ pdg c = 0) := by
    revert c; decide
  rcases h with ⟨h1, h2, h3, h4⟩ | ⟨h1, h2, h3, h4⟩ | ⟨h1, h2, h3, h4⟩ | ⟨h1, h2, h3, h4⟩ <;> rw [h1, h2, h3, h4] <;> ac_rfl

omit [FloatOps F] in
/-- The two 704-regions of a device are the regions at 2688 and 3392 in some order. -/
theorem perm_r (A : ℕ → sProp 𝕄) (c : Dev nD) : iprop(A 2688 ∗ A 3392) = iprop(A (rown c) ∗ A (roth c)) := by
  have h : (rown c = 2688 ∧ roth c = 3392) ∨ (rown c = 3392 ∧ roth c = 2688) := by revert c; decide
  rcases h with ⟨h1, h2⟩ | ⟨h1, h2⟩ <;> rw [h1, h2] <;> ac_rfl

omit [FloatOps F] in
/-- The two halves of the result of a device are the halves at 0 and 4096 in some order. -/
theorem perm_b (A : ℕ → sProp 𝕄) (c : Dev nD) : iprop(A 0 ∗ A 4096) = iprop(A (myb c) ∗ A (othb c)) := by
  have h : (myb c = 0 ∧ othb c = 4096) ∨ (myb c = 4096 ∧ othb c = 0) := by revert c; decide
  rcases h with ⟨h1, h2⟩ | ⟨h1, h2⟩ <;> rw [h1, h2] <;> ac_rfl

/-! ## Row ranges counted from a base row -/

section Pieces

variable {sp : Space} {e : EltTy} {R : ℕ} (c : Dev nD) (B : Memref sig .tc sp (Sr R) e) (β : ℕ) (q : PosShare TreeShare)
  (f : Buf (Elt F) (B.view.loc (c : Thread nD τ)))

omit [FloatOps F] in
/-- The same rows under another spelling of their first row and their number. -/
theorem pts_eq {o o' r r' : ℕ} (ho : o = o') (hr : r = r') (h : o + r ≤ R) (h' : o' + r' ≤ R) :
    pts (F := F) c B o r h q f = pts c B o' r' h' q f := by
  subst ho hr; rfl

/-- Rows [β + o, β + o + r) of the buffer, where they lie inside it. -/
def pc (o r : ℕ) : sProp 𝕄 := if h : β + o + r ≤ R then pts c B (β + o) r h q f else iprop(emp)

omit [FloatOps F] in
theorem pc_pts {o r : ℕ} (h : β + o + r ≤ R) : pc c B β q f o r = pts c B (β + o) r h q f := dif_pos h

omit [FloatOps F] in
/-- Counted from row 0 the rows are the buffer's own. -/
theorem pc_zero {o r : ℕ} (h : o + r ≤ R) : pc c B 0 q f o r = pts c B o r h q f :=
  (pc_pts c B 0 q f (by omega)).trans (pts_eq c B q f (Nat.zero_add o) rfl _ h)

omit [FloatOps F] in
/-- A range is its first r1 rows and the r2 rows after them. -/
theorem pc_cut {o r : ℕ} (r1 : ℕ) {o2 r2 : ℕ} (h : β + o + r ≤ R) (ho : o2 = o + r1) (hr : r = r1 + r2) :
    pc c B β q f o r = iprop(pc c B β q f o r1 ∗ pc c B β q f o2 r2) := by
  subst ho hr
  have h1 : β + o + r1 ≤ R := by omega
  have h2 : β + o + r1 + r2 ≤ R := by omega
  have h2' : β + (o + r1) + r2 ≤ R := by omega
  have h0 : β + o + (r1 + r2) ≤ R := h
  rw [pc_pts c B β q f h0, pc_pts c B β q f h1, pc_pts c B β q f h2',
    pts_eq c B q f (show β + (o + r1) = β + o + r1 by omega) rfl h2' h2]
  have hs := pointsTo_rows_split (Ix := Unit) (Val := Elt F) (Name := ℕ) (U := UU) (Lvl := ℕ) B c
    (o := β + o) (r1 := r1) (r2 := r2) (h1 := h1) (h2 := h2) (h := h0) q f
  unfold pts
  exact BI.equiv_iff.mp ⟨hs.1, hs.2⟩

omit [FloatOps F] in
/-- A range is four ranges one after another. -/
theorem pc_cut4 {o r : ℕ} (l0 l1 l2 l3 : ℕ) {a1 a2 a3 : ℕ} (h : β + o + r ≤ R)
    (e1 : a1 = o + l0) (e2 : a2 = o + l0 + l1) (e3 : a3 = o + l0 + l1 + l2) (hr : r = l0 + l1 + l2 + l3) :
    pc c B β q f o r = iprop(pc c B β q f o l0 ∗ pc c B β q f a1 l1 ∗ pc c B β q f a2 l2 ∗ pc c B β q f a3 l3) := by
  rw [pc_cut c B β q f l0 (o := o) (r := r) (o2 := a1) (r2 := l1 + l2 + l3) h e1 (by omega),
    pc_cut c B β q f l1 (o := a1) (r := l1 + l2 + l3) (o2 := a2) (r2 := l2 + l3) (by omega) (by omega) (by omega),
    pc_cut c B β q f l2 (o := a2) (r := l2 + l3) (o2 := a3) (r2 := l3) (by omega) (by omega) rfl]

omit [FloatOps F] in
/-- The 4096 rows from the base are the four regions of 672 rows and the two of 704, -/
theorem pc_regions (hβ : β + 4096 ≤ R) :
    pc c B β q f 0 4096 = iprop((pc c B β q f 0 672 ∗ pc c B β q f 672 672 ∗ pc c B β q f 1344 672 ∗ pc c B β q f 2016 672)
      ∗ (pc c B β q f 2688 704 ∗ pc c B β q f 3392 704)) := by
  rw [pc_cut c B β q f 2688 (o := 0) (r := 4096) (o2 := 2688) (r2 := 1408) (by omega) rfl rfl,
    pc_cut4 c B β q f 672 672 672 672 (o := 0) (r := 2688) (a1 := 672) (a2 := 1344) (a3 := 2016) (by omega) rfl rfl rfl rfl,
    pc_cut c B β q f 704 (o := 2688) (r := 1408) (o2 := 3392) (r2 := 704) (by omega) rfl rfl]

omit [FloatOps F] in
/-- that is the device's own, x-, y- and diagonal 672-region and its own and other 704-region. -/
theorem pc_regions_dev (hβ : β + 4096 ≤ R) :
    pc c B β q f 0 4096 = iprop((pc c B β q f (pown c) 672 ∗ pc c B β q f (pxn c) 672 ∗ pc c B β q f (pyn c) 672 ∗ pc c B β q f (pdg c) 672)
      ∗ (pc c B β q f (rown c) 704 ∗ pc c B β q f (roth c) 704)) := by
  have hp := perm_p (fun o => pc c B β q f o 672) c
  have hr := perm_r (fun o => pc c B β q f o 704) c
  beta_reduce at hp hr
  rw [pc_regions c B β q f hβ, hp, hr]

omit [FloatOps F] in
/-- A 672-region is its chunks of 112, 224, 168, 168 rows. -/
theorem pc_chunks_p {p : ℕ} (hp : p + 672 ≤ 4096) (hβ : β + 4096 ≤ R) :
    pc c B β q f p 672 = iprop(pc c B β q f p 112 ∗ pc c B β q f (p + 112) 224 ∗ pc c B β q f (p + 336) 168 ∗ pc c B β q f (p + 504) 168) :=
  pc_cut4 c B β q f 112 224 168 168 (by omega) rfl (by omega) (by omega) rfl

omit [FloatOps F] in
/-- A 704-region is its four chunks of 176 rows. -/
theorem pc_chunks_r {p : ℕ} (hp : p + 704 ≤ 4096) (hβ : β + 4096 ≤ R) :
    pc c B β q f p 704 = iprop(pc c B β q f p 176 ∗ pc c B β q f (p + 176) 176 ∗ pc c B β q f (p + 352) 176 ∗ pc c B β q f (p + 352 + 176) 176) :=
  pc_cut4 c B β q f 176 176 176 176 (by omega) rfl (by omega) (by omega) rfl

omit [FloatOps F] in
/-- The 4096 rows as the own chunks, the x-arrivals and the y-arrivals, chunk by chunk. -/
theorem pc_fam3_rows (hβ : β + 4096 ≤ R) :
    pc c B β q f 0 4096 = iprop(
      (pc c B β q f (pown c) 112 ∗ pc c B β q f (pown c + 112) 224 ∗ pc c B β q f (pown c + 336) 168 ∗ pc c B β q f (pown c + 504) 168
        ∗ pc c B β q f (rown c) 176 ∗ pc c B β q f (rown c + 176) 176 ∗ pc c B β q f (rown c + 352) 176 ∗ pc c B β q f (rown c + 352 + 176) 176)
      ∗ (pc c B β q f (pxn c) 112 ∗ pc c B β q f (pxn c + 112) 224 ∗ pc c B β q f (pxn c + 336) 168 ∗ pc c B β q f (pxn c + 504) 168
        ∗ pc c B β q f (roth c) 176 ∗ pc c B β q f (roth c + 176) 176 ∗ pc c B β q f (pdg c) 112 ∗ pc c B β q f (pdg c + 112) 224)
      ∗ (pc c B β q f (pyn c) 112 ∗ pc c B β q f (pyn c + 112) 224 ∗ pc c B β q f (pyn c + 336) 168 ∗ pc c B β q f (pyn c + 504) 168
        ∗ pc c B β q f (roth c + 352) 176 ∗ pc c B β q f (roth c + 352 + 176) 176 ∗ pc c B β q f (pdg c + 336) 168 ∗ pc c B β q f (pdg c + 504) 168)) := by
  rw [pc_regions_dev c B β q f hβ,
    pc_chunks_p c B β q f (pown_le c |> fun h => by omega) hβ, pc_chunks_p c B β q f (pxn_le c |> fun h => by omega) hβ,
    pc_chunks_p c B β q f (pyn_le c |> fun h => by omega) hβ, pc_chunks_p c B β q f (pdg_le c |> fun h => by omega) hβ,
    pc_chunks_r c B β q f (rown_le c).2 hβ, pc_chunks_r c B β q f (roth_le c).2 hβ]
  ac_rfl

omit [FloatOps F] in
/-- The 4096 rows as the twelve input ranges: the own chunks, then the x-, y- and diagonal 672-region and the other 704-region whole. -/
theorem pc_fam12_rows (hβ : β + 4096 ≤ R) :
    pc c B β q f 0 4096 = iprop(
      pc c B β q f (pown c) 112 ∗ pc c B β q f (pown c + 112) 224 ∗ pc c B β q f (pown c + 336) 168 ∗ pc c B β q f (pown c + 504) 168
        ∗ pc c B β q f (rown c) 176 ∗ pc c B β q f (rown c + 176) 176 ∗ pc c B β q f (rown c + 352) 176 ∗ pc c B β q f (rown c + 352 + 176) 176
        ∗ pc c B β q f (pxn c) 672 ∗ pc c B β q f (pyn c) 672 ∗ pc c B β q f (pdg c) 672 ∗ pc c B β q f (roth c) 704) := by
  rw [pc_regions_dev c B β q f hβ, pc_chunks_p c B β q f (pown_le c |> fun h => by omega) hβ, pc_chunks_r c B β q f (rown_le c).2 hβ]
  ac_rfl

/-! ## The same in the families' spelling -/

omit [FloatOps F] in
theorem pc_fam3 (hβ : β + 4096 ≤ R) :
    pc c B β q f 0 4096 = iprop(
      (bigSep Finset.univ fun j : Fin 8 => pc c B β q f (ownOff c j) (ownLen j))
      ∗ (bigSep Finset.univ fun k : Fin 8 => pc c B β q f (xinOff c k) (xinLen k))
      ∗ (bigSep Finset.univ fun k : Fin 8 => pc c B β q f (yinOff c k) (yinLen k))) := by
  rw [cuts_fin8, cuts_fin8, cuts_fin8]
  exact pc_fam3_rows c B β q f hβ

omit [FloatOps F] in
theorem pc_fam12 (hβ : β + 4096 ≤ R) :
    pc c B β q f 0 4096 = bigSep Finset.univ fun i : Fin 12 => pc c B β q f (inOff c i) (inLen i) := by
  rw [cuts_fin12]
  exact pc_fam12_rows c B β q f hβ

omit [FloatOps F] in
/-- Rows [β, β + 4096) of a buffer are the own chunks, the x-arrivals and the y-arrivals counted from row β. -/
theorem pts_fam3 (hβ : β + 4096 ≤ R) (ho : ∀ j : Fin 8, β + ownOff c j + ownLen j ≤ R)
    (hx : ∀ k : Fin 8, β + xinOff c k + xinLen k ≤ R) (hy : ∀ k : Fin 8, β + yinOff c k + yinLen k ≤ R) :
    pts (F := F) c B β 4096 hβ q f = iprop(
      (bigSep Finset.univ fun j : Fin 8 => pts c B (β + ownOff c j) (ownLen j) (ho j) q f)
      ∗ (bigSep Finset.univ fun k : Fin 8 => pts c B (β + xinOff c k) (xinLen k) (hx k) q f)
      ∗ (bigSep Finset.univ fun k : Fin 8 => pts c B (β + yinOff c k) (yinLen k) (hy k) q f)) := by
  rw [bigSep_congr fun j _ => (pc_pts c B β q f (ho j)).symm, bigSep_congr fun k _ => (pc_pts c B β q f (hx k)).symm,
    bigSep_congr fun k _ => (pc_pts c B β q f (hy k)).symm, ← pc_fam3 c B β q f hβ, pc_pts c B β q f (o := 0) (r := 4096) (by omega)]
  exact pts_eq c B q f rfl rfl _ _

omit [FloatOps F] in
/-- Rows [β, β + 4096) of a buffer are the twelve input ranges counted from row β. -/
theorem pts_fam12 (hβ : β + 4096 ≤ R) (hi : ∀ i : Fin 12, β + inOff c i + inLen i ≤ R) :
    pts (F := F) c B β 4096 hβ q f = bigSep Finset.univ fun i : Fin 12 => pts c B (β + inOff c i) (inLen i) (hi i) q f := by
  rw [bigSep_congr fun i _ => (pc_pts c B β q f (hi i)).symm, ← pc_fam12 c B β q f hβ, pc_pts c B β q f (o := 0) (r := 4096) (by omega)]
  exact pts_eq c B q f rfl rfl _ _

end Pieces

/-! ## The whole buffers of a device -/

section Whole

variable {sp : Space} {e : EltTy} (c : Dev nD)

omit [FloatOps F] in
/-- A buffer held whole is its rows [0, R). -/
theorem whole_rows {R : ℕ} (B : Memref sig .tc sp (Sr R) e) (hB : B.view.set = Finset.univ) (q : PosShare TreeShare)
    (f : Buf (Elt F) (B.view.loc (c : Thread nD τ))) :
    (B.view.loc (c : Thread nD τ) ↦{q} f : sProp 𝕄) = pts c B 0 R (Nat.le_of_eq (Nat.zero_add R)) q f := by
  unfold pts
  exact pointsTo_univ_eq_rows (Ix := Unit) (Val := Elt F) (Name := ℕ) (U := UU) (Lvl := ℕ) B c hB q f

omit [FloatOps F] in
/-- The 4096 rows of a buffer are the twelve input ranges. -/
theorem rows_in (B : Memref sig .tc sp (Sr 4096) e) (q : PosShare TreeShare) (f : Buf (Elt F) (B.view.loc (c : Thread nD τ))) :
    pts (F := F) c B 0 4096 (Nat.le_refl _) q f = bigSep Finset.univ fun i : Fin 12 => pts c B (inOff c i) (inLen i) (in_inb c i) q f := by
  rw [pts_fam12 c B 0 q f (Nat.le_refl _) (fun i => by have := in_inb c i; omega)]
  exact bigSep_congr fun i _ => pts_eq c B q f (Nat.zero_add _) rfl _ _

omit [FloatOps F] in
/-- The 4096 rows of a buffer are the own chunks, the x-arrivals and the y-arrivals. -/
theorem rows_fam (B : Memref sig .tc sp (Sr 4096) e) (q : PosShare TreeShare) (f : Buf (Elt F) (B.view.loc (c : Thread nD τ))) :
    pts (F := F) c B 0 4096 (Nat.le_refl _) q f = iprop(
      (bigSep Finset.univ fun j : Fin 8 => pts c B (ownOff c j) (ownLen j) (own_inb c j) q f)
      ∗ (bigSep Finset.univ fun k : Fin 8 => pts c B (xinOff c k) (xinLen k) (xin_inb c k) q f)
      ∗ (bigSep Finset.univ fun k : Fin 8 => pts c B (yinOff c k) (yinLen k) (yin_inb c k) q f)) := by
  rw [pts_fam3 c B 0 q f (Nat.le_refl _) (fun j => by have := own_inb c j; omega) (fun k => by have := xin_inb c k; omega)
    (fun k => by have := yin_inb c k; omega)]
  exact congrArg₂ _ (bigSep_congr fun j _ => pts_eq c B q f (Nat.zero_add _) rfl _ _)
    (congrArg₂ _ (bigSep_congr fun k _ => pts_eq c B q f (Nat.zero_add _) rfl _ _)
      (bigSep_congr fun k _ => pts_eq c B q f (Nat.zero_add _) rfl _ _))

omit [FloatOps F] in
/-- (1) A whole buffer of 4096 rows is the twelve input ranges. -/
theorem cut_in (B : Memref sig .tc sp (Sr 4096) e) (hB : B.view.set = Finset.univ) (q : PosShare TreeShare)
    (f : Buf (Elt F) (B.view.loc (c : Thread nD τ))) :
    (B.view.loc (c : Thread nD τ) ↦{q} f : sProp 𝕄)
      ⊣⊢ bigSep Finset.univ fun i : Fin 12 => pts c B (inOff c i) (inLen i) (in_inb c i) q f :=
  BiEntails.of_eq ((whole_rows c B hB q f).trans (rows_in c B q f))

omit [FloatOps F] in
theorem cut_in_XA (q : PosShare TreeShare) (f : Buf (Elt F) ((c : Thread nD τ).loc main_arg0)) :
    ((((c : Thread nD τ).loc main_arg0) ↦{q} f : sProp 𝕄))
      ⊣⊢ bigSep Finset.univ fun i : Fin 12 => pts c XA (inOff c i) (inLen i) (in_inb c i) q f :=
  cut_in c XA (View.set_whole _) q f

omit [FloatOps F] in
theorem cut_in_ST (q : PosShare TreeShare) (f : Buf (Elt F) ((c : Thread nD τ).loc cc0_scratch0)) :
    ((((c : Thread nD τ).loc cc0_scratch0) ↦{q} f : sProp 𝕄))
      ⊣⊢ bigSep Finset.univ fun i : Fin 12 => pts c ST (inOff c i) (inLen i) (in_inb c i) q f :=
  cut_in c ST (View.set_whole _) q f

omit [FloatOps F] in
theorem cut_in_MI (q : PosShare TreeShare) (f : Buf (Elt F) ((c : Thread nD τ).loc cc0_scratch1)) :
    ((((c : Thread nD τ).loc cc0_scratch1) ↦{q} f : sProp 𝕄))
      ⊣⊢ bigSep Finset.univ fun i : Fin 12 => pts c MI (inOff c i) (inLen i) (in_inb c i) q f :=
  cut_in c MI (View.set_whole _) q f

omit [FloatOps F] in
/-- (2) The whole communication buffer is the own chunks, the x-arrivals and the y-arrivals. -/
theorem cut_cm (q : PosShare TreeShare) (f : Buf (Elt F) ((c : Thread nD τ).loc cc0_scratch2)) :
    ((((c : Thread nD τ).loc cc0_scratch2) ↦{q} f : sProp 𝕄)) ⊣⊢ iprop(
      (bigSep Finset.univ fun j : Fin 8 => pts c CM (ownOff c j) (ownLen j) (own_inb c j) q f)
      ∗ (bigSep Finset.univ fun k : Fin 8 => pts c CM (xinOff c k) (xinLen k) (xin_inb c k) q f)
      ∗ (bigSep Finset.univ fun k : Fin 8 => pts c CM (yinOff c k) (yinLen k) (yin_inb c k) q f)) :=
  BiEntails.of_eq ((whole_rows c CM (View.set_whole _) q f).trans (rows_fam c CM q f))

omit [FloatOps F] in
/-- (3) The whole result is the device's own half and, in the other half, the own chunks, the x-arrivals and the y-arrivals. -/
theorem cut_ou_at (q : PosShare TreeShare) (f : Buf (Elt F) ((c : Thread nD τ).loc main_v1)) :
    ((((c : Thread nD τ).loc main_v1) ↦{q} f : sProp 𝕄)) ⊣⊢ iprop(pts c OU (myb c) 4096 (omy_inb c) q f
      ∗ (bigSep Finset.univ fun j : Fin 8 => pts c OU (othb c + ownOff c j) (ownLen j) (oown_inb c j) q f)
      ∗ (bigSep Finset.univ fun k : Fin 8 => pts c OU (othb c + xinOff c k) (xinLen k) (oxin_inb c k) q f)
      ∗ (bigSep Finset.univ fun k : Fin 8 => pts c OU (othb c + yinOff c k) (yinLen k) (oyin_inb c k) q f)) := by
  refine BiEntails.of_eq ((whole_rows c OU (View.set_whole _) q f).trans ?_)
  have e1 := pc_zero c OU q f (o := 0) (r := 8192) (Nat.le_refl _)
  have e2 := pc_cut c OU 0 q f 4096 (o := 0) (r := 8192) (o2 := 4096) (r2 := 4096) (Nat.le_refl _) rfl rfl
  have hb := perm_b (fun o => pc c OU 0 q f o 4096) c
  beta_reduce at hb
  have e3 := pc_zero c OU q f (omy_inb c)
  have e4 := pc_zero c OU q f (othb_le c)
  have e5 := pts_fam3 c OU (othb c) q f (othb_le c) (oown_inb c) (oxin_inb c) (oyin_inb c)
  rw [← e1, e2, hb, e3, e4, e5]

omit [FloatOps F] in
theorem cut_ou (f : Buf (Elt F) ((c : Thread nD τ).loc main_v1)) :
    ((((c : Thread nD τ).loc main_v1) ↦{fullShare} f : sProp 𝕄)) ⊣⊢ iprop(pts c OU (myb c) 4096 (omy_inb c) fullShare f
      ∗ (bigSep Finset.univ fun j : Fin 8 => pts c OU (othb c + ownOff c j) (ownLen j) (oown_inb c j) fullShare f)
      ∗ (bigSep Finset.univ fun k : Fin 8 => pts c OU (othb c + xinOff c k) (xinLen k) (oxin_inb c k) fullShare f)
      ∗ (bigSep Finset.univ fun k : Fin 8 => pts c OU (othb c + yinOff c k) (yinLen k) (oyin_inb c k) fullShare f)) :=
  cut_ou_at c fullShare f

omit [FloatOps F] in
/-- (4) The twelve input ranges of the conversion buffer at the right half make its 4096 rows at the right half. -/
theorem join_mi_sR (f : Buf (Elt F) ((c : Thread nD τ).loc cc0_scratch1)) :
    (bigSep Finset.univ fun i : Fin 12 => pts c MI (inOff c i) (inLen i) (in_inb c i) sR f)
      ⊣⊢ pts c MI 0 4096 (Nat.le_refl _) sR f :=
  BiEntails.of_eq (rows_in c MI sR f).symm

end Whole

end Cert.KernelIdeal.AG

end

/-- info: 'Cert.KernelIdeal.AG.cut_in' depends on axioms: [propext, Classical.choice, Quot.sound] -/
#guard_msgs in #print axioms Cert.KernelIdeal.AG.cut_in

/-- info: 'Cert.KernelIdeal.AG.cut_in_XA' depends on axioms: [propext, Classical.choice, Quot.sound] -/
#guard_msgs in #print axioms Cert.KernelIdeal.AG.cut_in_XA

/-- info: 'Cert.KernelIdeal.AG.cut_in_ST' depends on axioms: [propext, Classical.choice, Quot.sound] -/
#guard_msgs in #print axioms Cert.KernelIdeal.AG.cut_in_ST

/-- info: 'Cert.KernelIdeal.AG.cut_in_MI' depends on axioms: [propext, Classical.choice, Quot.sound] -/
#guard_msgs in #print axioms Cert.KernelIdeal.AG.cut_in_MI

/-- info: 'Cert.KernelIdeal.AG.cut_cm' depends on axioms: [propext, Classical.choice, Quot.sound] -/
#guard_msgs in #print axioms Cert.KernelIdeal.AG.cut_cm

/-- info: 'Cert.KernelIdeal.AG.cut_ou' depends on axioms: [propext, Classical.choice, Quot.sound] -/
#guard_msgs in #print axioms Cert.KernelIdeal.AG.cut_ou

/-- info: 'Cert.KernelIdeal.AG.join_mi_sR' depends on axioms: [propext, Classical.choice, Quot.sound] -/
#guard_msgs in #print axioms Cert.KernelIdeal.AG.join_mi_sR
-- ==== Proof.AGSteps.lean ====
/-
  The body's steps, once each.  A local copy pays the one duty of the device's own cell; an addressed transfer pays the one duty of
  the device's send cell and the one duty of the neighbour's receive cell, off what the device owes; a wait for the whole amount of
  a DMA cell takes the cell's one payload.  What each landing hands over is the schedule's payload: the hypotheses hpay say that the
  rows as written ARE that payload.  A wait is allowed because the waited cell lies below every cell still owed.
-/
import proofs.«900673_g7700000000000674_dist_ag_v7x_xyz2x2x2_z_m4096_n1024_bf16_1_alg».proof.Proof.AGState

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A local copy -/

/-- Rows [o, o+r) of M copied to rows [o', o'+r) of M' on DMA cell n of the device itself. -/
theorem step_copy {sp sp' : Space} {e : EltTy} {R R' : ℕ} (c : Dev nD) (M : Memref sig .tc sp (Sr R) e) (M' : Memref sig .tc sp' (Sr R') e)
    (o o' r : ℕ) (h : o + r ≤ R) (h' : o' + r ≤ R') (n : ℕ) (hn : n < 85) (q : PosShare TreeShare)
    (fs : Buf (Elt F) ((sl M o r h).view.loc (c : Thread nD τ))) (fd : Buf (Elt F) ((sl M' o' r h').view.loc (c : Thread nD τ)))
    {hsrc : (sl M o r h).view.WordExact} {hdst : (sl M' o' r h').view.WordExact}
    {hsem : DmaTarget.Typed (nD := nD) (τ := τ) (p := .tc) sp (SemLoc.dma (⟨n, hn⟩ : DmaSem sig)) (DmaTarget.here (sl M' o' r h'))}
    {α : Type} {Q : α → sProp 𝕄} {k : PUnit → Prog (TpuEff nD τ sig (Elt F) Λ₀ .tc) α} {κ : ℕ}
    (hk : (sl M' o' r h').view.dmaCredit = damt n)
    (hpay : iprop(((sl M' o' r h').view.loc (c : Thread nD τ) ↦[(sl M' o' r h').view.set]{fullShare}
                ((sl M' o' r h').view.write (Elt F) fd ((sl M o r h).view.read (Elt F) fs) Finset.univ))
              ∗ ((sl M o r h).view.loc (c : Thread nD τ) ↦[(sl M o r h).view.set]{q} fs)) ⊢ dpay m c n) :
    iprop(cellInv ER (agRd m) κ (dcell c n hn) ∗ pts c M o r h q fs ∗ pts c M' o' r h' fullShare fd
        ∗ dutyTok ER (dcell c n hn) 0 0 ∗ reached ER (dcell c n hn) 0)
      ⊢ iprop((cred (tallyAt (dcell c n hn) () (damt n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl M o r h) (.here (sl M' o' r h')) (.dma ⟨n, hn⟩) hsrc hdst hsem) k) Q) := by
  unfold pts
  exact Rounds.wp_copy_pointsTo 𝒱₀ ER (agRd m) (c : Thread nD τ) none (r := 0) (d := 0)
    (by rw [duties_dma]; exact Finset.mem_singleton_self _) () (damt n) ((View.amount_dma _ _).trans hk) (amount_dma m c n hn 0)
    (by rw [payload_dma]; exact hpay)

/-! ## An addressed transfer -/

/-- Rows [o, o+r) of M on device c sent to the same rows of M' on device d: the send cell ns of c, the receive cell nr of d. -/
theorem step_send {sp sp' : Space} {e : EltTy} {R R' : ℕ} (c d : Dev nD) (M : Memref sig .tc sp (Sr R) e) (M' : Memref sig .tc sp' (Sr R') e)
    (o o' r : ℕ) (h : o + r ≤ R) (h' : o' + r ≤ R') (ns nr : ℕ) (hns : ns < 85) (hnr : nr < 85) (q : PosShare TreeShare)
    (fs : Buf (Elt F) ((sl M o r h).view.loc (c : Thread nD τ))) (fd : Buf (Elt F) ((sl M' o' r h').view.loc (d : Thread nD τ)))
    {hsc : (sl M' o' r h' : Memref sig (Dev.tc d : Thread nD τ).2.kind sp' (Sr r) e).view.ref.isScScratch = false}
    {hsrc : (sl M o r h).view.WordExact} {hdst : (sl M' o' r h').view.WordExact}
    {hsem : DmaTarget.Typed sp (.dma ⟨nr, hnr⟩) (.remote (Dev.tc d : Thread nD τ) (sl M' o' r h') (.dma ⟨ns, hns⟩) hsc)}
    {α : Type} {Q : α → sProp 𝕄} {k : PUnit → Prog (TpuEff nD τ sig (Elt F) Λ₀ .tc) α} {κ₁ κ₂ : ℕ}
    (O₀ O : CellTallies nD τ sig Unit) (W : Waits sig Unit)
    (hO : O₀ = O + tallyAt (dcell d nr hnr) () (damt nr))
    (hk : (sl M' o' r h').view.dmaCredit = damt nr) (hks : damt ns = damt nr)
    (hpay₁ : ((sl M o r h).view.loc (c : Thread nD τ) ↦[(sl M o r h).view.set]{q} fs) ⊢ dpay m c ns)
    (hpay₂ : ((sl M' o' r h').view.loc (d : Thread nD τ) ↦[(sl M' o' r h').view.set]{fullShare}
                ((sl M' o' r h').view.write (Elt F) fd ((sl M o r h).view.read (Elt F) fs) Finset.univ)) ⊢ dpay m d nr) :
    iprop(cellInv ER (agRd m) κ₁ (dcell c ns hns) ∗ cellInv ER (agRd m) κ₂ (dcell d nr hnr)
        ∗ pts c M o r h q fs ∗ pts d M' o' r h' fullShare fd
        ∗ owes (c : Thread nD τ) O₀ W
        ∗ dutyTok ER (dcell c ns hns) 0 0 ∗ reached ER (dcell c ns hns) 0
        ∗ dutyTok ER (dcell d nr hnr) 0 0 ∗ reached ER (dcell d nr hnr) 0)
      ⊢ iprop(((cred (tallyAt (dcell c ns hns) () (damt nr)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl M o r h) (.remote (Dev.tc d : Thread nD τ) (sl M' o' r h') (.dma ⟨ns, hns⟩) hsc) (.dma ⟨nr, hnr⟩) hsrc hdst hsem) k) Q) := by
  unfold pts
  exact Rounds.wp_send_pointsTo 𝒱₀ ER (agRd m) (c : Thread nD τ) none (κ₁ := κ₁) (κ₂ := κ₂) (r₁ := 0) (r₂ := 0) (d₁ := 0) (d₂ := 0) (fd := fd)
    (by rw [duties_dma]; exact Finset.mem_singleton_self _) (by rw [duties_dma]; exact Finset.mem_singleton_self _)
    () () (damt nr) ((View.amount_dma _ _).trans hk) ((amount_dma m c ns hns 0).trans hks) (amount_dma m d nr hnr 0) O hO (W := W)
    (by rw [payload_dma]; exact hpay₁) (by rw [payload_dma]; exact hpay₂)

/-! ## A wait for the whole amount of a DMA cell -/

theorem step_wait {sp sp' : Space} {s s' : Shape} {e e' : EltTy} (c : Dev nD) (n : ℕ) (hn : n < 85)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α} {κ : ℕ}
    (O : CellTallies nD τ sig Unit) (W : Waits sig Unit) (hk : dst.view.dmaCredit = damt n) :
    iprop(cellInv ER (agRd m) κ (dcell c n hn) ∗ cred (tallyAt (dcell c n hn) () (damt n)) ∗ owes (c : Thread nD τ) O W
        ∗ MayWait (c : Thread nD τ) (.dma ⟨n, hn⟩) () O ∗ atPos ER (dcell c n hn) 0 ∅ 0)
      ⊢ iprop(((owes (c : Thread nD τ) O (insert (SemLoc.dma ⟨n, hn⟩, ()) W) ∗ atPos ER (dcell c n hn) 1 ∅ 0 ∗ reached ER (dcell c n hn) 1 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ⟨n, hn⟩ src dst hsrc hdst) k) Q) := by
  have hr := Rounds.wp_wait_rest_token (defs := defs₀ (F := F)) 𝒱₀ ER (agRd m) (c : Thread nD τ) none (κ := κ) (Q := Q) (k := k)
      (w := .waitDma2 ⟨n, hn⟩ src dst hsrc hdst) (sm := .dma ⟨n, hn⟩) (k' := damt n)
      (fun K => (wpE_waitDma2_eq (defs := defs₀ (F := F)) 𝒱₀ (c : Thread nD τ) none Set.univ K).trans (by rw [hk])) (Set.mem_univ _) () (O := O) (W := W) (R := 0) (m := 0) (T := ∅)
      (by rw [Nat.zero_add, expect_dma])
  rw [rest_dma] at hr
  exact hr

/-! ## The barrier -/

/-- The signal to a neighbour's barrier cell paying duty dn of it: the device hands over the payload and pays one unit off what it owes. -/
theorem step_signal (c d : Dev nD) (dn : Fin 3)
    {α : Type} {Q : α → sProp 𝕄} {k : PUnit → Prog (TpuEff nD τ sig (Elt F) Λ₀ .tc) α} {κ : ℕ}
    (O₀ O : CellTallies nD τ sig Unit) (W : Waits sig Unit) (hO : O₀ = O + tallyAt (barCell d) () 1)
    (hr : τ.routes (c : Thread nD τ) (d : Thread nD τ) = true) :
    iprop(cellInv ER (agRd m) κ (barCell d) ∗ owes (c : Thread nD τ) O₀ W ∗ dutyTok ER (barCell d) 0 dn ∗ bpay (F := F) d dn ∗ reached ER (barCell d) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) := by
  have hs := Rounds.wp_signal (defs := defs₀ (F := F)) (Γ := PendingWaitsCtx.empty) 𝒱₀ ER (agRd m) (c : Thread nD τ) none (dst := (d : Thread nD τ)) (sem := barS) (r := 0) (d := dn) (k' := 1)
    (κ := κ) (Q := Q) (k := k) (by rw [duties_bar]; exact Finset.mem_univ _) (amount_bar m d dn) () O hO (W := W) (Es := Set.univ) hr
  rw [payload_bar] at hs
  exact hs

/-- The wait for the three units of the device's own barrier cell: the three neighbours' payloads. -/
theorem step_barwait (c : Dev nD)
    {α : Type} {Q : α → sProp 𝕄} {k : PUnit → Prog (TpuEff nD τ sig (Elt F) Λ₀ .tc) α} {κ : ℕ}
    (O : CellTallies nD τ sig Unit) (W : Waits sig Unit) :
    iprop(cellInv ER (agRd m) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ (bpay (F := F) c 0 ∗ bpay (F := F) c 1 ∗ bpay (F := F) c 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  have hr := Rounds.wp_wait_rest_token (defs := defs₀ (F := F)) 𝒱₀ ER (agRd m) (c : Thread nD τ) none (κ := κ) (Q := Q) (k := k)
      (w := .semWait barS 3) (sm := .reg barS) (k' := 3)
      (wpE_semWait_eq (defs := defs₀ (F := F)) 𝒱₀ (c : Thread nD τ) none Set.univ) (Set.mem_univ _) () (O := O) (W := W) (R := 0) (m := 0) (T := ∅)
      (by rw [expect_bar])
  rw [rest_bar] at hr
  exact hr

/-! ## A wait is below everything still owed -/

/-- What a list of payments still owes is positive only at one of its cells. -/
theorem owed_pos (l : List (GSem nD τ sig × ℕ)) {g : GSem nD τ sig} {u : Unit}
    (h : 0 < (l.foldr (fun t acc => acc + tallyAt t.1 () t.2) (0 : CellTallies nD τ sig Unit)) g u) : ∃ t ∈ l, g = t.1 := by
  induction l with
  | nil => exact absurd h (Nat.lt_irrefl 0)
  | cons t l ih =>
    rw [List.foldr_cons] at h
    rcases Pipeline.add_pos_cases h with h | h
    · obtain ⟨t', ht', rfl⟩ := ih h
      exact ⟨t', List.mem_cons_of_mem _ ht', rfl⟩
    · rw [tallyAt_apply] at h
      by_cases hg : g = t.1 ∧ u = ()
      · exact ⟨t, List.mem_cons_self .., hg.1⟩
      · rw [if_neg hg] at h; exact absurd h (Nat.lt_irrefl 0)

/-- A wait on one of the device's cells, after k payments: allowed when the cell's level is below the level of every later payment's cell. -/
theorem mayWait_after (c : Dev nD) (sm : SemLoc sig) (k : ℕ)
    (hlv : ∀ t ∈ (fires c).drop k, lv ((c : Thread nD τ), sm) () < lv t.1 () ∧ t.1.1.2 = .tc) :
    (levAts L lv : sProp 𝕄) ⊢ MayWait (c : Thread nD τ) sm () (owedAfter c k) :=
  Pipeline.mayWait_of_levAts (by rw [L_tc]; exact Finset.mem_singleton_self _) fun g u hg => by
    obtain ⟨t, ht, rfl⟩ := owed_pos _ hg
    refine ⟨?_, (hlv t ht).1⟩
    cases u
    unfold L; rw [if_pos (hlv t ht).2]; exact Finset.mem_singleton_self _

/-! ## The same steps against the printed spelling

  The printed program names a row range by the chain that computes its first row, a semaphore by its place in its array and a
  neighbour by the chain that computes its id; each equals the region's row, the cell's number, the neighbour. -/

theorem step_copy' {sp sp' : Space} {e : EltTy} {R R' : ℕ} (c : Dev nD) (M : Memref sig .tc sp (Sr R) e) (M' : Memref sig .tc sp' (Sr R') e)
    (o o' r : ℕ) (h : o + r ≤ R) (h' : o' + r ≤ R') (n : ℕ) (hn : n < 85) (q : PosShare TreeShare)
    (fs : Buf (Elt F) ((sl M o r h).view.loc (c : Thread nD τ))) (fd : Buf (Elt F) ((sl M' o' r h').view.loc (c : Thread nD τ)))
    (off off' : Fin 2 → ℕ) (hoff : off = ![o, 0]) (hoff' : off' = ![o', 0]) (qs : DmaSem sig) (hqs : qs = ⟨n, hn⟩)
    {inb : ∀ a, off a + (Sr r).size a ≤ (Sr R).size a} {inb' : ∀ a, off' a + (Sr r).size a ≤ (Sr R').size a}
    {hst : ∀ a, (Rect.unit (s := Sr R) off (Sr r).size inb).stride a = 1} {hst' : ∀ a, (Rect.unit (s := Sr R') off' (Sr r).size inb').stride a = 1}
    {hsrc : (M.slice (Rect.unit (s := Sr R) off (Sr r).size inb) hst).view.WordExact} {hdst : (M'.slice (Rect.unit (s := Sr R') off' (Sr r).size inb') hst').view.WordExact}
    {hsem : DmaTarget.Typed (nD := nD) (τ := τ) (p := .tc) sp (SemLoc.dma qs) (DmaTarget.here (M'.slice (Rect.unit (s := Sr R') off' (Sr r).size inb') hst'))}
    {α : Type} {Q : α → sProp 𝕄} {k : PUnit → Prog (TpuEff nD τ sig (Elt F) Λ₀ .tc) α} {κ : ℕ}
    (hk : (sl M' o' r h').view.dmaCredit = damt n)
    (hpay : iprop(((sl M' o' r h').view.loc (c : Thread nD τ) ↦[(sl M' o' r h').view.set]{fullShare}
                ((sl M' o' r h').view.write (Elt F) fd ((sl M o r h).view.read (Elt F) fs) Finset.univ))
              ∗ ((sl M o r h).view.loc (c : Thread nD τ) ↦[(sl M o r h).view.set]{q} fs)) ⊢ dpay m c n) :
    iprop(cellInv ER (agRd m) κ (dcell c n hn) ∗ pts c M o r h q fs ∗ pts c M' o' r h' fullShare fd
        ∗ dutyTok ER (dcell c n hn) 0 0 ∗ reached ER (dcell c n hn) 0)
      ⊢ iprop((cred (tallyAt (dcell c n hn) () (damt n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M.slice (Rect.unit (s := Sr R) off (Sr r).size inb) hst) (.here (M'.slice (Rect.unit (s := Sr R') off' (Sr r).size inb') hst')) (.dma qs) hsrc hdst hsem) k) Q) := by
  subst hoff hoff' hqs
  exact step_copy m c M M' o o' r h h' n hn q fs fd hk hpay

theorem step_send' {sp sp' : Space} {e : EltTy} {R R' : ℕ} (c d : Dev nD) (M : Memref sig .tc sp (Sr R) e) (M' : Memref sig .tc sp' (Sr R') e)
    (o o' r : ℕ) (h : o + r ≤ R) (h' : o' + r ≤ R') (ns nr : ℕ) (hns : ns < 85) (hnr : nr < 85) (q : PosShare TreeShare)
    (fs : Buf (Elt F) ((sl M o r h).view.loc (c : Thread nD τ))) (fd : Buf (Elt F) ((sl M' o' r h').view.loc (d : Thread nD τ)))
    (off off' : Fin 2 → ℕ) (hoff : off = ![o, 0]) (hoff' : off' = ![o', 0]) (qs qr : DmaSem sig) (hqs : qs = ⟨ns, hns⟩) (hqr : qr = ⟨nr, hnr⟩)
    (dv : Dev nD) (hdv : dv = d)
    {inb : ∀ a, off a + (Sr r).size a ≤ (Sr R).size a} {inb' : ∀ a, off' a + (Sr r).size a ≤ (Sr R').size a}
    {hst : ∀ a, (Rect.unit (s := Sr R) off (Sr r).size inb).stride a = 1} {hst' : ∀ a, (Rect.unit (s := Sr R') off' (Sr r).size inb').stride a = 1}
    {hsc : (M'.slice (Rect.unit (s := Sr R') off' (Sr r).size inb') hst' : Memref sig (Dev.tc dv : Thread nD τ).2.kind sp' (Sr r) e).view.ref.isScScratch = false}
    {hsrc : (M.slice (Rect.unit (s := Sr R) off (Sr r).size inb) hst).view.WordExact} {hdst : (M'.slice (Rect.unit (s := Sr R') off' (Sr r).size inb') hst').view.WordExact}
    {hsem : DmaTarget.Typed sp (.dma qr) (.remote (Dev.tc dv : Thread nD τ) (M'.slice (Rect.unit (s := Sr R') off' (Sr r).size inb') hst') (.dma qs) hsc)}
    {α : Type} {Q : α → sProp 𝕄} {k : PUnit → Prog (TpuEff nD τ sig (Elt F) Λ₀ .tc) α} {κ₁ κ₂ : ℕ}
    (O₀ O : CellTallies nD τ sig Unit) (W : Waits sig Unit)
    (hO : O₀ = O + tallyAt (dcell d nr hnr) () (damt nr))
    (hk : (sl M' o' r h').view.dmaCredit = damt nr) (hks : damt ns = damt nr)
    (hpay₁ : ((sl M o r h).view.loc (c : Thread nD τ) ↦[(sl M o r h).view.set]{q} fs) ⊢ dpay m c ns)
    (hpay₂ : ((sl M' o' r h').view.loc (d : Thread nD τ) ↦[(sl M' o' r h').view.set]{fullShare}
                ((sl M' o' r h').view.write (Elt F) fd ((sl M o r h).view.read (Elt F) fs) Finset.univ)) ⊢ dpay m d nr) :
    iprop(cellInv ER (agRd m) κ₁ (dcell c ns hns) ∗ cellInv ER (agRd m) κ₂ (dcell d nr hnr)
        ∗ pts c M o r h q fs ∗ pts d M' o' r h' fullShare fd
        ∗ owes (c : Thread nD τ) O₀ W
        ∗ dutyTok ER (dcell c ns hns) 0 0 ∗ reached ER (dcell c ns hns) 0
        ∗ dutyTok ER (dcell d nr hnr) 0 0 ∗ reached ER (dcell d nr hnr) 0)
      ⊢ iprop(((cred (tallyAt (dcell c ns hns) () (damt nr)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M.slice (Rect.unit (s := Sr R) off (Sr r).size inb) hst)
                (.remote (Dev.tc dv : Thread nD τ) (M'.slice (Rect.unit (s := Sr R') off' (Sr r).size inb') hst') (.dma qs) hsc) (.dma qr) hsrc hdst hsem) k) Q) := by
  subst hoff hoff' hqs hqr hdv
  exact step_send m c dv M M' o o' r h h' ns nr hns hnr q fs fd O₀ O W hO hk hks hpay₁ hpay₂

theorem step_wait' {sp sp' : Space} {s s' : Shape} {e e' : EltTy} (c : Dev nD) (n : ℕ) (hn : n < 85) (qs : DmaSem sig) (hqs : qs = ⟨n, hn⟩)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α} {κ : ℕ}
    (O : CellTallies nD τ sig Unit) (W : Waits sig Unit) (hk : dst.view.dmaCredit = damt n) :
    iprop(cellInv ER (agRd m) κ (dcell c n hn) ∗ cred (tallyAt (dcell c n hn) () (damt n)) ∗ owes (c : Thread nD τ) O W
        ∗ MayWait (c : Thread nD τ) (.dma ⟨n, hn⟩) () O ∗ atPos ER (dcell c n hn) 0 ∅ 0)
      ⊢ iprop(((owes (c : Thread nD τ) O (insert (SemLoc.dma ⟨n, hn⟩, ()) W) ∗ atPos ER (dcell c n hn) 1 ∅ 0 ∗ reached ER (dcell c n hn) 1 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hqs
  exact step_wait m c n hn O W hk

end Cert.KernelIdeal.AG

end
-- ==== Proof.AGPays.lean ====
/-
  What each copy and each transfer lands is what the schedule's payload for its cell says.
  The rows a transfer moves keep their row number from buffer to buffer and from device to device; only the copies into the
  result shift them, by the row at which the half they belong to starts there.  So each landing is the destination rows holding
  the source's contents at the same (or the shifted) rows, and the payload names those contents by the whole-buffer functions:
  a row of the communication buffer holds what its origin converted, and the origin of a row that arrives from a neighbour is
  the origin the neighbour knew for it.
-/
import proofs.«900673_g7700000000000674_dist_ag_v7x_xyz2x2x2_z_m4096_n1024_bf16_1_alg».proof.Proof.AGSlices
import proofs.«900673_g7700000000000674_dist_ag_v7x_xyz2x2x2_z_m4096_n1024_bf16_1_alg».proof.Proof.AGState

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The payload of each family of cells -/

/-- The place in its family of the cell j places after the family's first. -/
theorem fj_add (b : ℕ) (j : Fin 8) : fj (b + j.val) b = j :=
  Fin.ext (by show (b + j.val - b) % 8 = j.val; have hj := j.isLt; omega)

/-- The same one family of eight further on. -/
theorem fj_add8 (b : ℕ) (j : Fin 8) : fj (b + 8 + j.val) b = j :=
  Fin.ext (by show (b + 8 + j.val - b) % 8 = j.val; have hj := j.isLt; omega)

theorem dpay_in (c : Dev nD) (i : Fin 12) : dpay m c i.val = payIn m c i := by
  unfold dpay; rw [dif_pos i.isLt]

theorem dpay_zs (c : Dev nD) (j : Fin 8) : dpay m c (12 + j.val) = payZs m c j := by
  have hj := j.isLt
  unfold dpay; rw [dif_neg (by omega), if_pos (by omega), fj_add]

theorem dpay_zr (c : Dev nD) (j : Fin 8) : dpay m c (20 + j.val) = payZr m c j := by
  have hj := j.isLt
  unfold dpay; rw [dif_neg (by omega), if_neg (by omega), if_pos (by omega), fj_add]

theorem dpay_xs (c : Dev nD) (k : Fin 8) : dpay m c (28 + k.val) = payXs m c k := by
  have hk := k.isLt
  unfold dpay; rw [dif_neg (by omega), if_neg (by omega), if_neg (by omega), if_pos (by omega), fj_add]

theorem dpay_xr (c : Dev nD) (k : Fin 8) : dpay m c (36 + k.val) = payXr m c k := by
  have hk := k.isLt
  unfold dpay; rw [dif_neg (by omega), if_neg (by omega), if_neg (by omega), if_neg (by omega), if_pos (by omega), fj_add]

theorem dpay_ys (c : Dev nD) (k : Fin 8) : dpay m c (44 + k.val) = payYs m c k := by
  have hk := k.isLt
  unfold dpay
  rw [dif_neg (by omega), if_neg (by omega), if_neg (by omega), if_neg (by omega), if_neg (by omega), if_pos (by omega), fj_add]

theorem dpay_yr (c : Dev nD) (k : Fin 8) : dpay m c (52 + k.val) = payYr m c k := by
  have hk := k.isLt
  unfold dpay
  rw [dif_neg (by omega), if_neg (by omega), if_neg (by omega), if_neg (by omega), if_neg (by omega), if_neg (by omega),
    if_pos (by omega), fj_add]

theorem dpay_lz (c : Dev nD) (j : Fin 8) : dpay m c (60 + j.val) = payLz m c j := by
  have hj := j.isLt
  unfold dpay
  rw [dif_neg (by omega), if_neg (by omega), if_neg (by omega), if_neg (by omega), if_neg (by omega), if_neg (by omega),
    if_neg (by omega), if_pos (by omega), fj_add]

theorem dpay_lx (c : Dev nD) (k : Fin 8) : dpay m c (68 + k.val) = payLx m c k := by
  have hk := k.isLt
  unfold dpay
  rw [dif_neg (by omega), if_neg (by omega), if_neg (by omega), if_neg (by omega), if_neg (by omega), if_neg (by omega),
    if_neg (by omega), if_neg (by omega), if_pos (by omega), fj_add]

theorem dpay_ly (c : Dev nD) (k : Fin 8) : dpay m c (76 + k.val) = payLy m c k := by
  have hk := k.isLt
  unfold dpay
  rw [dif_neg (by omega), if_neg (by omega), if_neg (by omega), if_neg (by omega), if_neg (by omega), if_neg (by omega),
    if_neg (by omega), if_neg (by omega), if_neg (by omega), if_pos (by omega), fj_add]

theorem dpay_lm (c : Dev nD) : dpay m c 84 = payLm m c := by
  unfold dpay
  rw [dif_neg (by omega), if_neg (by omega), if_neg (by omega), if_neg (by omega), if_neg (by omega), if_neg (by omega),
    if_neg (by omega), if_neg (by omega), if_neg (by omega), if_neg (by omega)]

/-! ## The units of each family: the credit of the destination rows, wherever they start -/

/-- The credit of r rows of each buffer is the credit of any rows of that number. -/
theorem credit_CM (o r : ℕ) (h : o + r ≤ 4096) (r' : ℕ) (h' : r' ≤ 4096) (e : r' = r) :
    (sl CM o r h).view.dmaCredit = amtCM r' h' := by subst e; rfl
theorem credit_OU (o r : ℕ) (h : o + r ≤ 8192) (r' : ℕ) (h' : r' ≤ 8192) (e : r' = r) :
    (sl OU o r h).view.dmaCredit = amtOU r' h' := by subst e; rfl

theorem credit_in (o : ℕ) (i : Fin 12) (h : o + inLen i ≤ 4096) : (sl ST o (inLen i) h).view.dmaCredit = damt i.val := by
  unfold damt; rw [dif_pos i.isLt]; rfl

theorem credit_zs (o : ℕ) (j : Fin 8) (h : o + ownLen j ≤ 4096) : (sl CM o (ownLen j) h).view.dmaCredit = damt (12 + j.val) := by
  have hj := j.isLt
  unfold damt; rw [dif_neg (by omega), if_pos (by omega)]; exact credit_CM o _ h _ _ (by rw [fj_add])

theorem credit_zr (o : ℕ) (j : Fin 8) (h : o + ownLen j ≤ 4096) : (sl CM o (ownLen j) h).view.dmaCredit = damt (20 + j.val) := by
  have hj := j.isLt
  unfold damt; rw [dif_neg (by omega), if_pos (by omega)]; exact credit_CM o _ h _ _ (by rw [fj_add8 12 j])

theorem credit_xs (o : ℕ) (k : Fin 8) (h : o + xinLen k ≤ 4096) : (sl CM o (xinLen k) h).view.dmaCredit = damt (28 + k.val) := by
  have hk := k.isLt
  unfold damt; rw [dif_neg (by omega), if_neg (by omega), if_pos (by omega)]; exact credit_CM o _ h _ _ (by rw [fj_add])

theorem credit_xr (o : ℕ) (k : Fin 8) (h : o + xinLen k ≤ 4096) : (sl CM o (xinLen k) h).view.dmaCredit = damt (36 + k.val) := by
  have hk := k.isLt
  unfold damt; rw [dif_neg (by omega), if_neg (by omega), if_pos (by omega)]; exact credit_CM o _ h _ _ (by rw [fj_add8 28 k])

theorem credit_ys (o : ℕ) (k : Fin 8) (h : o + yinLen k ≤ 4096) : (sl CM o (yinLen k) h).view.dmaCredit = damt (44 + k.val) := by
  have hk := k.isLt
  unfold damt; rw [dif_neg (by omega), if_neg (by omega), if_neg (by omega), if_pos (by omega)]; exact credit_CM o _ h _ _ (by rw [fj_add])

theorem credit_yr (o : ℕ) (k : Fin 8) (h : o + yinLen k ≤ 4096) : (sl CM o (yinLen k) h).view.dmaCredit = damt (52 + k.val) := by
  have hk := k.isLt
  unfold damt; rw [dif_neg (by omega), if_neg (by omega), if_neg (by omega), if_pos (by omega)]; exact credit_CM o _ h _ _ (by rw [fj_add8 44 k])

/-- The z-, x- and y-transfers' units, at the send cell and at the receive cell. -/
theorem credit_z (o : ℕ) (j : Fin 8) (h : o + ownLen j ≤ 4096) :
    (sl CM o (ownLen j) h).view.dmaCredit = damt (12 + j.val) ∧ (sl CM o (ownLen j) h).view.dmaCredit = damt (20 + j.val) :=
  ⟨credit_zs o j h, credit_zr o j h⟩
theorem credit_x (o : ℕ) (k : Fin 8) (h : o + xinLen k ≤ 4096) :
    (sl CM o (xinLen k) h).view.dmaCredit = damt (28 + k.val) ∧ (sl CM o (xinLen k) h).view.dmaCredit = damt (36 + k.val) :=
  ⟨credit_xs o k h, credit_xr o k h⟩
theorem credit_y (o : ℕ) (k : Fin 8) (h : o + yinLen k ≤ 4096) :
    (sl CM o (yinLen k) h).view.dmaCredit = damt (44 + k.val) ∧ (sl CM o (yinLen k) h).view.dmaCredit = damt (52 + k.val) :=
  ⟨credit_ys o k h, credit_yr o k h⟩

theorem credit_lz (o : ℕ) (j : Fin 8) (h : o + ownLen j ≤ 8192) : (sl OU o (ownLen j) h).view.dmaCredit = damt (60 + j.val) := by
  have hj := j.isLt
  unfold damt
  rw [dif_neg (by omega), if_neg (by omega), if_neg (by omega), if_neg (by omega), if_pos (by omega)]; exact credit_OU o _ h _ _ (by rw [fj_add])

theorem credit_lx (o : ℕ) (k : Fin 8) (h : o + xinLen k ≤ 8192) : (sl OU o (xinLen k) h).view.dmaCredit = damt (68 + k.val) := by
  have hk := k.isLt
  unfold damt
  rw [dif_neg (by omega), if_neg (by omega), if_neg (by omega), if_neg (by omega), if_neg (by omega), if_pos (by omega)]; exact credit_OU o _ h _ _ (by rw [fj_add])

theorem credit_ly (o : ℕ) (k : Fin 8) (h : o + yinLen k ≤ 8192) : (sl OU o (yinLen k) h).view.dmaCredit = damt (76 + k.val) := by
  have hk := k.isLt
  unfold damt
  rw [dif_neg (by omega), if_neg (by omega), if_neg (by omega), if_neg (by omega), if_neg (by omega), if_neg (by omega),
    if_pos (by omega)]; exact credit_OU o _ h _ _ (by rw [fj_add])

theorem credit_lm (o : ℕ) (h : o + 4096 ≤ 8192) : (sl OU o 4096 h).view.dmaCredit = damt 84 := by
  unfold damt
  rw [dif_neg (by omega), if_neg (by omega), if_neg (by omega), if_neg (by omega), if_neg (by omega), if_neg (by omega),
    if_neg (by omega)]; rfl

/-! ## Where a row of the communication buffer was converted, chunk by chunk -/

/-- Which of the two 704-regions is the device's own, with the parity the origin tests. -/
theorem rown_cases : ∀ c : Dev nD,
    (rown c = 2688 ∧ roth c = 3392 ∧ (c.val / 4 + (c.val / 2) % 2) % 2 = 0)
      ∨ (rown c = 3392 ∧ roth c = 2688 ∧ (c.val / 4 + (c.val / 2) % 2) % 2 = 1) := by decide

/-- A row of a 672-region was converted by the device of the other plane at the region's position, whoever asks from this plane. -/
theorem origin_low (c d : Dev nD) (r : ℕ) (hr : r < 2688) (hz : d.val % 2 = c.val % 2) : origin c r = origin d r := by
  unfold origin
  rw [if_pos hr, if_pos hr]
  apply Fin.ext
  show 4 * ((r / 672) % 2) + 2 * ((r / 672) / 2 % 2) + (1 - c.val % 2) = 4 * ((r / 672) % 2) + 2 * ((r / 672) / 2 % 2) + (1 - d.val % 2)
  rw [hz]

/-- A row of the device's own 672-region comes from its z-neighbour, -/
theorem origin_own672 (c : Dev nD) (r : ℕ) (h1 : pown c ≤ r) (h2 : r < pown c + 672) : origin c r = zn c := by
  have hp := pown_le c
  have hm := (p_mod c).1
  unfold origin
  rw [if_pos (by omega)]
  apply Fin.ext
  show 4 * ((r / 672) % 2) + 2 * ((r / 672) / 2 % 2) + (1 - c.val % 2) = (zn c).val
  have hq : r / 672 = pown c / 672 := by omega
  rw [hq]
  exact (by decide : ∀ c : Dev nD, 4 * ((pown c / 672) % 2) + 2 * ((pown c / 672) / 2 % 2) + (1 - c.val % 2) = (zn c).val) c

/-- and so does a row of its own 704-region. -/
theorem origin_own704 (c : Dev nD) (r : ℕ) (h1 : rown c ≤ r) (h2 : r < rown c + 704) : origin c r = zn c := by
  unfold origin
  rcases rown_cases c with ⟨ha, hb, hc⟩ | ⟨ha, hb, hc⟩
  · rw [if_neg (by omega), if_pos (by omega)]
  · rw [if_neg (by omega), if_pos (by omega)]

/-- A row of the first half of the other 704-region comes from the z-neighbour of the x-neighbour, -/
theorem origin_oth_lo (c : Dev nD) (r : ℕ) (h1 : roth c ≤ r) (h2 : r < roth c + 352) : origin c r = zn (xn c) := by
  unfold origin
  rcases rown_cases c with ⟨ha, hb, hc⟩ | ⟨ha, hb, hc⟩
  · rw [if_neg (by omega), if_neg (by omega), if_pos (by omega)]
  · rw [if_neg (by omega), if_neg (by omega), if_pos (by omega)]

/-- a row of its second half from the z-neighbour of the y-neighbour. -/
theorem origin_oth_hi (c : Dev nD) (r : ℕ) (h1 : roth c + 352 ≤ r) (h2 : r < roth c + 704) : origin c r = zn (yn c) := by
  unfold origin
  rcases rown_cases c with ⟨ha, hb, hc⟩ | ⟨ha, hb, hc⟩
  · rw [if_neg (by omega), if_neg (by omega), if_neg (by omega)]
  · rw [if_neg (by omega), if_neg (by omega), if_neg (by omega)]

/-- The neighbours in the plane are in the same plane, and the other 704-region is their own. -/
theorem xn_plane : ∀ c : Dev nD, (xn c).val % 2 = c.val % 2 := by decide
theorem yn_plane : ∀ c : Dev nD, (yn c).val % 2 = c.val % 2 := by decide
theorem rown_xn : ∀ c : Dev nD, rown (xn c) = roth c := by decide
theorem rown_yn : ∀ c : Dev nD, rown (yn c) = roth c := by decide

/-- In which region each chunk lies. -/
theorem own_region : ∀ (c : Dev nD) (j : Fin 8),
    (j.val < 4 → pown c ≤ ownOff c j ∧ ownOff c j + ownLen j ≤ pown c + 672)
      ∧ (4 ≤ j.val → rown c ≤ ownOff c j ∧ ownOff c j + ownLen j ≤ rown c + 704) := by decide
theorem xin_region : ∀ (c : Dev nD) (k : Fin 8),
    ((k.val < 4 ∨ 6 ≤ k.val) → xinOff c k + xinLen k ≤ 2688)
      ∧ (4 ≤ k.val → k.val < 6 → roth c ≤ xinOff c k ∧ xinOff c k + xinLen k ≤ roth c + 352) := by decide
theorem yin_region : ∀ (c : Dev nD) (k : Fin 8),
    ((k.val < 4 ∨ 6 ≤ k.val) → yinOff c k + yinLen k ≤ 2688)
      ∧ (4 ≤ k.val → k.val < 6 → roth c + 352 ≤ yinOff c k ∧ yinOff c k + yinLen k ≤ roth c + 704) := by decide

/-- A row of an own chunk was converted by the z-neighbour. -/
theorem origin_own (c : Dev nD) (j : Fin 8) (r : ℕ) (h1 : ownOff c j ≤ r) (h2 : r < ownOff c j + ownLen j) :
    origin c r = zn c := by
  by_cases hj : j.val < 4
  · have hh := (own_region c j).1 hj
    exact origin_own672 c r (by omega) (by omega)
  · have hh := (own_region c j).2 (by omega)
    exact origin_own704 c r (by omega) (by omega)

/-- A row of a chunk that arrives from the x-neighbour was converted where the x-neighbour says. -/
theorem origin_xin (c : Dev nD) (k : Fin 8) (r : ℕ) (h1 : xinOff c k ≤ r) (h2 : r < xinOff c k + xinLen k) :
    origin c r = origin (xn c) r := by
  by_cases hk : k.val < 4 ∨ 6 ≤ k.val
  · have hh := (xin_region c k).1 hk
    exact origin_low c (xn c) r (by omega) (xn_plane c)
  · have hh := (xin_region c k).2 (by omega) (by omega)
    rw [origin_oth_lo c r (by omega) (by omega), origin_own704 (xn c) r (by rw [rown_xn]; omega) (by rw [rown_xn]; omega)]

/-- A row of a chunk that arrives from the y-neighbour was converted where the y-neighbour says. -/
theorem origin_yin (c : Dev nD) (k : Fin 8) (r : ℕ) (h1 : yinOff c k ≤ r) (h2 : r < yinOff c k + yinLen k) :
    origin c r = origin (yn c) r := by
  by_cases hk : k.val < 4 ∨ 6 ≤ k.val
  · have hh := (yin_region c k).1 hk
    exact origin_low c (yn c) r (by omega) (yn_plane c)
  · have hh := (yin_region c k).2 (by omega) (by omega)
    rw [origin_oth_hi c r (by omega) (by omega), origin_own704 (yn c) r (by rw [rown_yn]; omega) (by rw [rown_yn]; omega)]

/-! ## The result, row by row -/

theorem othb_eq : ∀ c : Dev nD, othb c = 4096 * (1 - c.val % 2) := by decide

/-- At a row of the other half the result is the communication buffer's row, -/
theorem outV_oth (c : Dev nD) (x : (Sr 8192).Idx) (h1 : othb c ≤ (x 0).val) (h2 : (x 0).val < othb c + 4096) :
    outV m c x = commV m c (ix2 (⟨(x 0).val - othb c, by omega⟩ : Fin 4096) (x 1 : Fin 1024)) := by
  have ho := othb_eq c
  have hc : c.val % 2 < 2 := Nat.mod_lt _ (by decide)
  show (if (x 0).val / 4096 = c.val % 2 then _ else _) = _
  rw [if_neg (by omega)]
  have e : (⟨(x 0).val % 4096, Nat.mod_lt _ (by decide)⟩ : Fin 4096) = ⟨(x 0).val - othb c, by omega⟩ :=
    Fin.ext (by show (x 0).val % 4096 = (x 0).val - othb c; omega)
  rw [e]

/-- and at a row of the device's own half the conversion buffer's. -/
theorem outV_my (c : Dev nD) (x : (Sr 8192).Idx) (h1 : myb c ≤ (x 0).val) (h2 : (x 0).val < myb c + 4096) :
    outV m c x = mineV m c (ix2 (⟨(x 0).val - myb c, by omega⟩ : Fin 4096) (x 1 : Fin 1024)) := by
  have ho := myb_eq c
  have hc : c.val % 2 < 2 := Nat.mod_lt _ (by decide)
  show (if (x 0).val / 4096 = c.val % 2 then _ else _) = _
  rw [if_pos (by omega)]
  have e : (⟨(x 0).val % 4096, Nat.mod_lt _ (by decide)⟩ : Fin 4096) = ⟨(x 0).val - myb c, by omega⟩ :=
    Fin.ext (by show (x 0).val % 4096 = (x 0).val - myb c; omega)
  rw [e]

/-! ## Rows that keep their number, rows shifted into the result -/

/-- Between rows of the same number the source index is the destination index. -/
theorem shift_self {R r : ℕ} (o : ℕ) (h1 : o + r ≤ R) (x : (Sr R).Idx) (hx : o ≤ (x 0).val ∧ (x 0).val < o + r) :
    shift (R1 := R) (R2 := R) o o h1 x hx = x := by
  funext a
  apply Fin.ext
  match a with
  | ⟨0, _⟩ => show (x 0).val - o + o = (x 0).val; omega
  | ⟨1, _⟩ => rfl

/-- Into the result at b + o from row o the source index is the destination's with b taken off its row. -/
theorem shift_base {r : ℕ} (b o : ℕ) (h1 : o + r ≤ 4096) (x : (Sr 8192).Idx) (hx : b + o ≤ (x 0).val ∧ (x 0).val < b + o + r) :
    shift (R1 := 4096) (R2 := 8192) o (b + o) h1 x hx = ix2 (⟨(x 0).val - b, by omega⟩ : Fin 4096) (x 1 : Fin 1024) := by
  funext a
  apply Fin.ext
  match a with
  | ⟨0, _⟩ => show (x 0).val - (b + o) + o = (x 0).val - b; omega
  | ⟨1, _⟩ => rfl

/-- Rows named through equal starts are the same assertion. -/
theorem pts_off {sp : Space} {e : EltTy} {R : ℕ} (c : Dev nD) (M : Memref sig .tc sp (Sr R) e) {o o' : ℕ} (eo : o = o') (r : ℕ)
    (h : o + r ≤ R) (h' : o' + r ≤ R) (q : PosShare TreeShare) (f : Buf (Elt F) (M.view.loc (c : Thread nD τ))) :
    (pts c M o r h q f : sProp 𝕄) = pts c M o' r h' q f := by subst eo; rfl

/-! ## The copies on one device -/

/-- An input copy: the staging rows hold the device's half there, and the rows of the argument come back. -/
theorem pay_in (c : Dev nD) (i : Fin 12)
    (fd : Buf (Elt F) ((sl ST (inOff c i) (inLen i) (in_inb c i)).view.loc (c : Thread nD τ))) :
    iprop(((sl ST (inOff c i) (inLen i) (in_inb c i)).view.loc (c : Thread nD τ)
            ↦[(sl ST (inOff c i) (inLen i) (in_inb c i)).view.set]{fullShare}
              ((sl ST (inOff c i) (inLen i) (in_inb c i)).view.write (Elt F) fd
                ((sl XA (inOff c i) (inLen i) (in_inb c i)).view.read (Elt F) (X m c)) Finset.univ))
        ∗ ((sl XA (inOff c i) (inLen i) (in_inb c i)).view.loc (c : Thread nD τ)
            ↦[(sl XA (inOff c i) (inLen i) (in_inb c i)).view.set]{fullShare} (X m c)))
      ⊢ (dpay m c i.val : sProp 𝕄) := by
  rw [dpay_in]
  unfold payIn pts
  refine sep_mono_left (pointsTo_copy_entails XA ST c c (in_inb c i) (in_inb c i) (X m c) fd (X m c) fun x hx => ?_)
  show X m c x = X m c (shift (inOff c i) (inOff c i) (in_inb c i) x hx)
  rw [shift_self]

/-- A copy of rows [o, o + r) of the communication buffer to the other half of the result. -/
theorem pay_l_core (c : Dev nD) (o r : ℕ) (h : o + r ≤ 4096) (h' : othb c + o + r ≤ 8192) (q : PosShare TreeShare)
    (fd : Buf (Elt F) ((sl OU (othb c + o) r h').view.loc (c : Thread nD τ))) :
    iprop(((sl OU (othb c + o) r h').view.loc (c : Thread nD τ) ↦[(sl OU (othb c + o) r h').view.set]{fullShare}
              ((sl OU (othb c + o) r h').view.write (Elt F) fd ((sl CM o r h).view.read (Elt F) (commV m c)) Finset.univ))
        ∗ ((sl CM o r h).view.loc (c : Thread nD τ) ↦[(sl CM o r h).view.set]{q} (commV m c)))
      ⊢ (iprop(pts c OU (othb c + o) r h' fullShare (outV m c) ∗ pts c CM o r h q (commV m c)) : sProp 𝕄) := by
  unfold pts
  refine sep_mono_left (pointsTo_copy_entails CM OU c c h h' (commV m c) fd (outV m c) fun x hx => ?_)
  show outV m c x = commV m c (shift o (othb c + o) h x hx)
  rw [shift_base (othb c) o h x hx, outV_oth m c x (by omega) (by omega)]
  rfl

theorem pay_lz (c : Dev nD) (j : Fin 8)
    (fd : Buf (Elt F) ((sl OU (othb c + ownOff c j) (ownLen j) (oown_inb c j)).view.loc (c : Thread nD τ))) :
    iprop(((sl OU (othb c + ownOff c j) (ownLen j) (oown_inb c j)).view.loc (c : Thread nD τ)
            ↦[(sl OU (othb c + ownOff c j) (ownLen j) (oown_inb c j)).view.set]{fullShare}
              ((sl OU (othb c + ownOff c j) (ownLen j) (oown_inb c j)).view.write (Elt F) fd
                ((sl CM (ownOff c j) (ownLen j) (own_inb c j)).view.read (Elt F) (commV m c)) Finset.univ))
        ∗ ((sl CM (ownOff c j) (ownLen j) (own_inb c j)).view.loc (c : Thread nD τ)
            ↦[(sl CM (ownOff c j) (ownLen j) (own_inb c j)).view.set]{qlz j} (commV m c)))
      ⊢ (dpay m c (60 + j.val) : sProp 𝕄) := by
  rw [dpay_lz]
  exact pay_l_core m c (ownOff c j) (ownLen j) (own_inb c j) (oown_inb c j) (qlz j) fd

theorem pay_lx (c : Dev nD) (k : Fin 8)
    (fd : Buf (Elt F) ((sl OU (othb c + xinOff c k) (xinLen k) (oxin_inb c k)).view.loc (c : Thread nD τ))) :
    iprop(((sl OU (othb c + xinOff c k) (xinLen k) (oxin_inb c k)).view.loc (c : Thread nD τ)
            ↦[(sl OU (othb c + xinOff c k) (xinLen k) (oxin_inb c k)).view.set]{fullShare}
              ((sl OU (othb c + xinOff c k) (xinLen k) (oxin_inb c k)).view.write (Elt F) fd
                ((sl CM (xinOff c k) (xinLen k) (xin_inb c k)).view.read (Elt F) (commV m c)) Finset.univ))
        ∗ ((sl CM (xinOff c k) (xinLen k) (xin_inb c k)).view.loc (c : Thread nD τ)
            ↦[(sl CM (xinOff c k) (xinLen k) (xin_inb c k)).view.set]{qlx k} (commV m c)))
      ⊢ (dpay m c (68 + k.val) : sProp 𝕄) := by
  rw [dpay_lx]
  exact pay_l_core m c (xinOff c k) (xinLen k) (xin_inb c k) (oxin_inb c k) (qlx k) fd

theorem pay_ly (c : Dev nD) (k : Fin 8)
    (fd : Buf (Elt F) ((sl OU (othb c + yinOff c k) (yinLen k) (oyin_inb c k)).view.loc (c : Thread nD τ))) :
    iprop(((sl OU (othb c + yinOff c k) (yinLen k) (oyin_inb c k)).view.loc (c : Thread nD τ)
            ↦[(sl OU (othb c + yinOff c k) (yinLen k) (oyin_inb c k)).view.set]{fullShare}
              ((sl OU (othb c + yinOff c k) (yinLen k) (oyin_inb c k)).view.write (Elt F) fd
                ((sl CM (yinOff c k) (yinLen k) (yin_inb c k)).view.read (Elt F) (commV m c)) Finset.univ))
        ∗ ((sl CM (yinOff c k) (yinLen k) (yin_inb c k)).view.loc (c : Thread nD τ)
            ↦[(sl CM (yinOff c k) (yinLen k) (yin_inb c k)).view.set]{qly k} (commV m c)))
      ⊢ (dpay m c (76 + k.val) : sProp 𝕄) := by
  rw [dpay_ly]
  exact pay_l_core m c (yinOff c k) (yinLen k) (yin_inb c k) (oyin_inb c k) (qly k) fd

/-- The copy of the whole conversion buffer to the device's own half of the result. -/
theorem pay_lm (c : Dev nD)
    (fd : Buf (Elt F) ((sl OU (myb c) 4096 (omy_inb c)).view.loc (c : Thread nD τ))) :
    iprop(((sl OU (myb c) 4096 (omy_inb c)).view.loc (c : Thread nD τ)
            ↦[(sl OU (myb c) 4096 (omy_inb c)).view.set]{fullShare}
              ((sl OU (myb c) 4096 (omy_inb c)).view.write (Elt F) fd
                ((sl MI 0 4096 (Nat.le_refl _)).view.read (Elt F) (mineV m c)) Finset.univ))
        ∗ ((sl MI 0 4096 (Nat.le_refl _)).view.loc (c : Thread nD τ)
            ↦[(sl MI 0 4096 (Nat.le_refl _)).view.set]{sR} (mineV m c)))
      ⊢ (dpay m c 84 : sProp 𝕄) := by
  rw [dpay_lm]
  unfold payLm pts
  have h0 : 0 + 4096 ≤ 4096 := Nat.le_refl _
  refine sep_mono_left (pointsTo_copy_entails MI OU c c (o1 := 0) (o2 := myb c) (r := 4096) h0 (omy_inb c) (mineV m c) fd
    (outV m c) fun x hx => ?_)
  show outV m c x = mineV m c (shift 0 (myb c) h0 x hx)
  rw [outV_my m c x (by omega) (by omega)]
  rfl

/-! ## The transfers to a neighbour -/

/-- A z-transfer's source rows come back at the left half. -/
theorem pay_zs (c : Dev nD) (j : Fin 8) :
    ((sl MI (ownOff c j) (ownLen j) (own_inb c j)).view.loc (c : Thread nD τ)
        ↦[(sl MI (ownOff c j) (ownLen j) (own_inb c j)).view.set]{sL} (mineV m c))
      ⊢ (dpay m c (12 + j.val) : sProp 𝕄) := by
  rw [dpay_zs]; exact .rfl

/-- What it lands in the z-neighbour's communication buffer is what the neighbour's payload says: rows this device converted. -/
theorem pay_zr (c : Dev nD) (j : Fin 8)
    (fd : Buf (Elt F) ((sl CM (ownOff c j) (ownLen j) (own_inb c j)).view.loc (zn c : Thread nD τ))) :
    ((sl CM (ownOff c j) (ownLen j) (own_inb c j)).view.loc (zn c : Thread nD τ)
        ↦[(sl CM (ownOff c j) (ownLen j) (own_inb c j)).view.set]{fullShare}
          ((sl CM (ownOff c j) (ownLen j) (own_inb c j)).view.write (Elt F) fd
            ((sl MI (ownOff c j) (ownLen j) (own_inb c j)).view.read (Elt F) (mineV m c)) Finset.univ))
      ⊢ (dpay m (zn c) (20 + j.val) : sProp 𝕄) := by
  rw [dpay_zr]
  unfold payZr
  rw [pts_off (F := F) (zn c) CM (own_zn c j) (ownLen j) (own_inb (zn c) j) (own_inb c j)]
  unfold pts
  refine pointsTo_copy_entails MI CM c (zn c) (own_inb c j) (own_inb c j) (mineV m c) fd (commV m (zn c)) fun x hx => ?_
  show mineV m (origin (zn c) (x 0).val) x = mineV m c (shift (ownOff c j) (ownOff c j) (own_inb c j) x hx)
  rw [shift_self, origin_own (zn c) j (x 0).val (by rw [own_zn]; exact hx.1) (by rw [own_zn]; exact hx.2), zn_zn]

/-- An x-forward's source rows come back at the left half. -/
theorem pay_xs (c : Dev nD) (k : Fin 8) :
    ((sl CM (xinOff (xn c) k) (xinLen k) (xin_inb (xn c) k)).view.loc (c : Thread nD τ)
        ↦[(sl CM (xinOff (xn c) k) (xinLen k) (xin_inb (xn c) k)).view.set]{sL} (commV m c))
      ⊢ (dpay m c (28 + k.val) : sProp 𝕄) := by
  rw [dpay_xs]; exact .rfl

/-- What it lands in the x-neighbour's communication buffer: rows whose origin the neighbour takes from this device. -/
theorem pay_xr (c : Dev nD) (k : Fin 8)
    (fd : Buf (Elt F) ((sl CM (xinOff (xn c) k) (xinLen k) (xin_inb (xn c) k)).view.loc (xn c : Thread nD τ))) :
    ((sl CM (xinOff (xn c) k) (xinLen k) (xin_inb (xn c) k)).view.loc (xn c : Thread nD τ)
        ↦[(sl CM (xinOff (xn c) k) (xinLen k) (xin_inb (xn c) k)).view.set]{fullShare}
          ((sl CM (xinOff (xn c) k) (xinLen k) (xin_inb (xn c) k)).view.write (Elt F) fd
            ((sl CM (xinOff (xn c) k) (xinLen k) (xin_inb (xn c) k)).view.read (Elt F) (commV m c)) Finset.univ))
      ⊢ (dpay m (xn c) (36 + k.val) : sProp 𝕄) := by
  rw [dpay_xr]
  unfold payXr pts
  refine pointsTo_copy_entails CM CM c (xn c) (xin_inb (xn c) k) (xin_inb (xn c) k) (commV m c) fd (commV m (xn c)) fun x hx => ?_
  show mineV m (origin (xn c) (x 0).val) x
    = commV m c (shift (xinOff (xn c) k) (xinOff (xn c) k) (xin_inb (xn c) k) x hx)
  rw [shift_self, origin_xin (xn c) k (x 0).val hx.1 hx.2, xn_xn]
  rfl

/-- A y-forward's source rows come back at the share it read them with. -/
theorem pay_ys (c : Dev nD) (k : Fin 8) :
    ((sl CM (yinOff (yn c) k) (yinLen k) (yin_inb (yn c) k)).view.loc (c : Thread nD τ)
        ↦[(sl CM (yinOff (yn c) k) (yinLen k) (yin_inb (yn c) k)).view.set]{qys k} (commV m c))
      ⊢ (dpay m c (44 + k.val) : sProp 𝕄) := by
  rw [dpay_ys]; exact .rfl

/-- What it lands in the y-neighbour's communication buffer. -/
theorem pay_yr (c : Dev nD) (k : Fin 8)
    (fd : Buf (Elt F) ((sl CM (yinOff (yn c) k) (yinLen k) (yin_inb (yn c) k)).view.loc (yn c : Thread nD τ))) :
    ((sl CM (yinOff (yn c) k) (yinLen k) (yin_inb (yn c) k)).view.loc (yn c : Thread nD τ)
        ↦[(sl CM (yinOff (yn c) k) (yinLen k) (yin_inb (yn c) k)).view.set]{fullShare}
          ((sl CM (yinOff (yn c) k) (yinLen k) (yin_inb (yn c) k)).view.write (Elt F) fd
            ((sl CM (yinOff (yn c) k) (yinLen k) (yin_inb (yn c) k)).view.read (Elt F) (commV m c)) Finset.univ))
      ⊢ (dpay m (yn c) (52 + k.val) : sProp 𝕄) := by
  rw [dpay_yr]
  unfold payYr pts
  refine pointsTo_copy_entails CM CM c (yn c) (yin_inb (yn c) k) (yin_inb (yn c) k) (commV m c) fd (commV m (yn c)) fun x hx => ?_
  show mineV m (origin (yn c) (x 0).val) x
    = commV m c (shift (yinOff (yn c) k) (yinOff (yn c) k) (yin_inb (yn c) k) x hx)
  rw [shift_self, origin_yin (yn c) k (x 0).val hx.1 hx.2, yn_yn]
  rfl

end Cert.KernelIdeal.AG

end

/-- info: 'Cert.KernelIdeal.AG.dpay_lm' depends on axioms: [propext, Classical.choice, Quot.sound] -/
#guard_msgs in #print axioms Cert.KernelIdeal.AG.dpay_lm

/-- info: 'Cert.KernelIdeal.AG.credit_lm' depends on axioms: [propext, Classical.choice, Quot.sound] -/
#guard_msgs in #print axioms Cert.KernelIdeal.AG.credit_lm

/-- info: 'Cert.KernelIdeal.AG.origin_own' depends on axioms: [propext, Quot.sound] -/
#guard_msgs in #print axioms Cert.KernelIdeal.AG.origin_own

/-- info: 'Cert.KernelIdeal.AG.origin_xin' depends on axioms: [propext, Quot.sound] -/
#guard_msgs in #print axioms Cert.KernelIdeal.AG.origin_xin

/-- info: 'Cert.KernelIdeal.AG.origin_yin' depends on axioms: [propext, Quot.sound] -/
#guard_msgs in #print axioms Cert.KernelIdeal.AG.origin_yin

/-- info: 'Cert.KernelIdeal.AG.pay_in' depends on axioms: [propext, Classical.choice, Quot.sound] -/
#guard_msgs in #print axioms Cert.KernelIdeal.AG.pay_in

/-- info: 'Cert.KernelIdeal.AG.pay_lz' depends on axioms: [propext, Classical.choice, Quot.sound] -/
#guard_msgs in #print axioms Cert.KernelIdeal.AG.pay_lz

/-- info: 'Cert.KernelIdeal.AG.pay_lx' depends on axioms: [propext, Classical.choice, Quot.sound] -/
#guard_msgs in #print axioms Cert.KernelIdeal.AG.pay_lx

/-- info: 'Cert.KernelIdeal.AG.pay_ly' depends on axioms: [propext, Classical.choice, Quot.sound] -/
#guard_msgs in #print axioms Cert.KernelIdeal.AG.pay_ly

/-- info: 'Cert.KernelIdeal.AG.pay_lm' depends on axioms: [propext, Classical.choice, Quot.sound] -/
#guard_msgs in #print axioms Cert.KernelIdeal.AG.pay_lm

/-- info: 'Cert.KernelIdeal.AG.pay_zs' depends on axioms: [propext, Classical.choice, Quot.sound] -/
#guard_msgs in #print axioms Cert.KernelIdeal.AG.pay_zs

/-- info: 'Cert.KernelIdeal.AG.pay_zr' depends on axioms: [propext, Classical.choice, Quot.sound] -/
#guard_msgs in #print axioms Cert.KernelIdeal.AG.pay_zr

/-- info: 'Cert.KernelIdeal.AG.pay_xs' depends on axioms: [propext, Classical.choice, Quot.sound] -/
#guard_msgs in #print axioms Cert.KernelIdeal.AG.pay_xs

/-- info: 'Cert.KernelIdeal.AG.pay_xr' depends on axioms: [propext, Classical.choice, Quot.sound] -/
#guard_msgs in #print axioms Cert.KernelIdeal.AG.pay_xr

/-- info: 'Cert.KernelIdeal.AG.pay_ys' depends on axioms: [propext, Classical.choice, Quot.sound] -/
#guard_msgs in #print axioms Cert.KernelIdeal.AG.pay_ys

/-- info: 'Cert.KernelIdeal.AG.pay_yr' depends on axioms: [propext, Classical.choice, Quot.sound] -/
#guard_msgs in #print axioms Cert.KernelIdeal.AG.pay_yr
-- ==== Proof.AGOffs.lean ====
import proofs.«900673_g7700000000000674_dist_ag_v7x_xyz2x2x2_z_m4096_n1024_bf16_1_alg».proof.Proof.Gen.KernelIdeal
import proofs.«900673_g7700000000000674_dist_ag_v7x_xyz2x2x2_z_m4096_n1024_bf16_1_alg».proof.Proof.AGRegions
import proofs.«900673_g7700000000000674_dist_ag_v7x_xyz2x2x2_z_m4096_n1024_bf16_1_alg».proof.Proof.AGContents

namespace Cert.KernelIdeal.AG

open Idealize.ShloMosaic
open Cert.KernelIdeal Cert.KernelIdeal.Gen

theorem off1_eq (c : Dev nD) : k0_off1 c = ![pown c, 0] := by revert c; decide
theorem off2_eq (c : Dev nD) : k0_off2 c = ![pown c + 112, 0] := by revert c; decide
theorem off3_eq (c : Dev nD) : k0_off3 c = ![pown c + 336, 0] := by revert c; decide
theorem off4_eq (c : Dev nD) : k0_off4 c = ![pown c + 504, 0] := by revert c; decide
theorem off5_eq (c : Dev nD) : k0_off5 c = ![rown c, 0] := by revert c; decide
theorem off6_eq (c : Dev nD) : k0_off6 c = ![rown c + 176, 0] := by revert c; decide
theorem off7_eq (c : Dev nD) : k0_off7 c = ![rown c + 352, 0] := by revert c; decide
theorem off8_eq (c : Dev nD) : k0_off8 c = ![rown c + 528, 0] := by revert c; decide
theorem off9_eq (c : Dev nD) : k0_off9 c = ![pxn c, 0] := by revert c; decide
theorem off10_eq (c : Dev nD) : k0_off10 c = ![pyn c, 0] := by revert c; decide
theorem off11_eq (c : Dev nD) : k0_off11 c = ![pdg c, 0] := by revert c; decide
theorem off12_eq (c : Dev nD) : k0_off12 c = ![roth c, 0] := by revert c; decide
theorem off13_eq (c : Dev nD) : k0_off13 c = ![pown c, 0] := by revert c; decide
theorem off14_eq (c : Dev nD) : k0_off14 c = ![pown c + 112, 0] := by revert c; decide
theorem off15_eq (c : Dev nD) : k0_off15 c = ![pown c + 336, 0] := by revert c; decide
theorem off16_eq (c : Dev nD) : k0_off16 c = ![pown c + 504, 0] := by revert c; decide
theorem off17_eq (c : Dev nD) : k0_off17 c = ![rown c, 0] := by revert c; decide
theorem off18_eq (c : Dev nD) : k0_off18 c = ![rown c + 176, 0] := by revert c; decide
theorem off19_eq (c : Dev nD) : k0_off19 c = ![rown c + 352, 0] := by revert c; decide
theorem off20_eq (c : Dev nD) : k0_off20 c = ![rown c + 528, 0] := by revert c; decide
theorem off21_eq (c : Dev nD) : k0_off21 c = ![othb c + pown c, 0] := by revert c; decide
theorem off22_eq (c : Dev nD) : k0_off22 c = ![othb c + pown c + 112, 0] := by revert c; decide
theorem off23_eq (c : Dev nD) : k0_off23 c = ![pyn c, 0] := by revert c; decide
theorem off24_eq (c : Dev nD) : k0_off24 c = ![othb c + pyn c, 0] := by revert c; decide
theorem off25_eq (c : Dev nD) : k0_off25 c = ![othb c + pown c + 336, 0] := by revert c; decide
theorem off26_eq (c : Dev nD) : k0_off26 c = ![othb c + pown c + 504, 0] := by revert c; decide
theorem off27_eq (c : Dev nD) : k0_off27 c = ![pyn c + 112, 0] := by revert c; decide
theorem off28_eq (c : Dev nD) : k0_off28 c = ![othb c + pyn c + 112, 0] := by revert c; decide
theorem off30_eq (c : Dev nD) : k0_off30 c = ![othb c + pxn c + 336, 0] := by revert c; decide
theorem off31_eq (c : Dev nD) : k0_off31 c = ![pxn c + 336, 0] := by revert c; decide
theorem off32_eq (c : Dev nD) : k0_off32 c = ![pxn c + 504, 0] := by revert c; decide
theorem off33_eq (c : Dev nD) : k0_off33 c = ![othb c + pxn c + 504, 0] := by revert c; decide
theorem off34_eq (c : Dev nD) : k0_off34 c = ![othb c + rown c, 0] := by revert c; decide
theorem off35_eq (c : Dev nD) : k0_off35 c = ![othb c + rown c + 176, 0] := by revert c; decide
theorem off36_eq (c : Dev nD) : k0_off36 c = ![othb c + rown c + 352, 0] := by revert c; decide
theorem off37_eq (c : Dev nD) : k0_off37 c = ![othb c + rown c + 528, 0] := by revert c; decide
theorem off38_eq (c : Dev nD) : k0_off38 c = ![pxn c, 0] := by revert c; decide
theorem off39_eq (c : Dev nD) : k0_off39 c = ![pyn c, 0] := by revert c; decide
theorem off40_eq (c : Dev nD) : k0_off40 c = ![pdg c, 0] := by revert c; decide
theorem off41_eq (c : Dev nD) : k0_off41 c = ![roth c, 0] := by revert c; decide
theorem off42_eq (c : Dev nD) : k0_off42 c = ![myb c, 0] := by revert c; decide
theorem off43_eq (c : Dev nD) : k0_off43 c = ![pxn c, 0] := by revert c; decide
theorem off44_eq (c : Dev nD) : k0_off44 c = ![othb c + pxn c, 0] := by revert c; decide
theorem off45_eq (c : Dev nD) : k0_off45 c = ![pxn c + 112, 0] := by revert c; decide
theorem off46_eq (c : Dev nD) : k0_off46 c = ![othb c + pxn c + 112, 0] := by revert c; decide
theorem off47_eq (c : Dev nD) : k0_off47 c = ![roth c, 0] := by revert c; decide
theorem off48_eq (c : Dev nD) : k0_off48 c = ![othb c + roth c, 0] := by revert c; decide
theorem off51_eq (c : Dev nD) : k0_off51 c = ![pdg c, 0] := by revert c; decide
theorem off52_eq (c : Dev nD) : k0_off52 c = ![othb c + pdg c, 0] := by revert c; decide
theorem off53_eq (c : Dev nD) : k0_off53 c = ![pdg c + 112, 0] := by revert c; decide
theorem off54_eq (c : Dev nD) : k0_off54 c = ![othb c + pdg c + 112, 0] := by revert c; decide
theorem off55_eq (c : Dev nD) : k0_off55 c = ![pyn c + 336, 0] := by revert c; decide
theorem off56_eq (c : Dev nD) : k0_off56 c = ![othb c + pyn c + 336, 0] := by revert c; decide
theorem off57_eq (c : Dev nD) : k0_off57 c = ![pyn c + 504, 0] := by revert c; decide
theorem off58_eq (c : Dev nD) : k0_off58 c = ![othb c + pyn c + 504, 0] := by revert c; decide
theorem off59_eq (c : Dev nD) : k0_off59 c = ![roth c + 528, 0] := by revert c; decide
theorem off60_eq (c : Dev nD) : k0_off60 c = ![othb c + roth c + 528, 0] := by revert c; decide
theorem off61_eq (c : Dev nD) : k0_off61 c = ![pdg c + 336, 0] := by revert c; decide
theorem off62_eq (c : Dev nD) : k0_off62 c = ![othb c + pdg c + 336, 0] := by revert c; decide
theorem off63_eq (c : Dev nD) : k0_off63 c = ![pdg c + 504, 0] := by revert c; decide
theorem off64_eq (c : Dev nD) : k0_off64 c = ![othb c + pdg c + 504, 0] := by revert c; decide
theorem dev1_eq (c : Dev nD) : (⟨k0_dev1 c, k0_dev1_lt c⟩ : Dev nD) = zn c := by revert c; decide
theorem dev2_eq (c : Dev nD) : (⟨k0_dev2 c, k0_dev2_lt c⟩ : Dev nD) = xn c := by revert c; decide
theorem dev3_eq (c : Dev nD) : (⟨k0_dev3 c, k0_dev3_lt c⟩ : Dev nD) = yn c := by revert c; decide
theorem dev4_eq (c : Dev nD) : (⟨k0_dev4 c, k0_dev4_lt c⟩ : Dev nD) = zn c := by revert c; decide
theorem dev5_eq (c : Dev nD) : (⟨k0_dev5 c, k0_dev5_lt c⟩ : Dev nD) = zn c := by revert c; decide
theorem dev6_eq (c : Dev nD) : (⟨k0_dev6 c, k0_dev6_lt c⟩ : Dev nD) = zn c := by revert c; decide
theorem dev7_eq (c : Dev nD) : (⟨k0_dev7 c, k0_dev7_lt c⟩ : Dev nD) = zn c := by revert c; decide
theorem dev8_eq (c : Dev nD) : (⟨k0_dev8 c, k0_dev8_lt c⟩ : Dev nD) = zn c := by revert c; decide
theorem dev9_eq (c : Dev nD) : (⟨k0_dev9 c, k0_dev9_lt c⟩ : Dev nD) = zn c := by revert c; decide
theorem dev10_eq (c : Dev nD) : (⟨k0_dev10 c, k0_dev10_lt c⟩ : Dev nD) = zn c := by revert c; decide
theorem dev11_eq (c : Dev nD) : (⟨k0_dev11 c, k0_dev11_lt c⟩ : Dev nD) = zn c := by revert c; decide
theorem dev12_eq (c : Dev nD) : (⟨k0_dev12 c, k0_dev12_lt c⟩ : Dev nD) = xn c := by revert c; decide
theorem dev13_eq (c : Dev nD) : (⟨k0_dev13 c, k0_dev13_lt c⟩ : Dev nD) = yn c := by revert c; decide
theorem dev14_eq (c : Dev nD) : (⟨k0_dev14 c, k0_dev14_lt c⟩ : Dev nD) = xn c := by revert c; decide
theorem dev15_eq (c : Dev nD) : (⟨k0_dev15 c, k0_dev15_lt c⟩ : Dev nD) = yn c := by revert c; decide
theorem dev16_eq (c : Dev nD) : (⟨k0_dev16 c, k0_dev16_lt c⟩ : Dev nD) = xn c := by revert c; decide
theorem dev17_eq (c : Dev nD) : (⟨k0_dev17 c, k0_dev17_lt c⟩ : Dev nD) = xn c := by revert c; decide
theorem dev18_eq (c : Dev nD) : (⟨k0_dev18 c, k0_dev18_lt c⟩ : Dev nD) = yn c := by revert c; decide
theorem dev19_eq (c : Dev nD) : (⟨k0_dev19 c, k0_dev19_lt c⟩ : Dev nD) = xn c := by revert c; decide
theorem dev20_eq (c : Dev nD) : (⟨k0_dev20 c, k0_dev20_lt c⟩ : Dev nD) = yn c := by revert c; decide
theorem dev21_eq (c : Dev nD) : (⟨k0_dev21 c, k0_dev21_lt c⟩ : Dev nD) = xn c := by revert c; decide
theorem dev22_eq (c : Dev nD) : (⟨k0_dev22 c, k0_dev22_lt c⟩ : Dev nD) = yn c := by revert c; decide
theorem dev23_eq (c : Dev nD) : (⟨k0_dev23 c, k0_dev23_lt c⟩ : Dev nD) = yn c := by revert c; decide
theorem dev24_eq (c : Dev nD) : (⟨k0_dev24 c, k0_dev24_lt c⟩ : Dev nD) = xn c := by revert c; decide
theorem dev25_eq (c : Dev nD) : (⟨k0_dev25 c, k0_dev25_lt c⟩ : Dev nD) = xn c := by revert c; decide
theorem dev26_eq (c : Dev nD) : (⟨k0_dev26 c, k0_dev26_lt c⟩ : Dev nD) = yn c := by revert c; decide
theorem dev27_eq (c : Dev nD) : (⟨k0_dev27 c, k0_dev27_lt c⟩ : Dev nD) = yn c := by revert c; decide
theorem off29_1_eq (c : Dev nD) : k0_off29 c 112#32 224#32 = ![pxn c + 336, 0] := by revert c; decide
theorem off29_2_eq (c : Dev nD) : k0_off29 c 336#32 168#32 = ![pxn c + 504, 0] := by revert c; decide
theorem off49_1_eq (c : Dev nD) : k0_off49 c 176#32 = ![roth c + 176, 0] := by revert c; decide
theorem off49_2_eq (c : Dev nD) : k0_off49 c 352#32 = ![roth c + 352, 0] := by revert c; decide
theorem off50_1_eq (c : Dev nD) : k0_off50 c 176#32 = ![othb c + roth c + 176, 0] := by revert c; decide
theorem off50_2_eq (c : Dev nD) : k0_off50 c 352#32 = ![othb c + roth c + 352, 0] := by revert c; decide

end Cert.KernelIdeal.AG
-- ==== Proof.AGGlue.lean ====
/-
  Reading the ghost state cell by cell, and the neighbours' barrier payloads in the spelling of the device that holds the rows:
  what device c hands its z-neighbour is the eight own chunks of ITS OWN communication buffer (the z-neighbour's own chunks are at
  the same rows), what it hands its x- and y-neighbour the rows their forwards will land in; and symmetrically what it receives.
-/
import proofs.«900673_g7700000000000674_dist_ag_v7x_xyz2x2x2_z_m4096_n1024_bf16_1_alg».proof.Proof.AGSteps

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One cell out of the records -/

theorem ksem_dma (n : ℕ) (hn : n < 85) : ksem ⟨n, by omega⟩ = SemLoc.dma (⟨n, hn⟩ : DmaSem sig) := dif_pos hn
theorem ksem_bar : ksem (85 : Fin 86) = SemLoc.reg barS := rfl

theorem inv_dma (K : Dev nD × Fin 86 → ℕ) (d : Dev nD) (n : ℕ) (hn : n < 85) :
    records m K ⊢ cellInv ER (agRd m) (K (d, ⟨n, by omega⟩)) (dcell d n hn) := by
  have h : (bigSep Finset.univ fun ck : Dev nD × Fin 86 => (cellInv ER (agRd m) (K ck) (kcell ck) : sProp 𝕄))
      ⊢ cellInv ER (agRd m) (K (d, ⟨n, by omega⟩)) (kcell (d, ⟨n, by omega⟩)) := bigSep_elim (Finset.mem_univ _)
  rw [show kcell (d, (⟨n, by omega⟩ : Fin 86)) = dcell d n hn from by unfold kcell; rw [ksem_dma n hn]] at h
  unfold records
  iintro ⟨#HI, -⟩
  iapply h; iexact HI

theorem inv_bar (K : Dev nD × Fin 86 → ℕ) (d : Dev nD) : records m K ⊢ cellInv ER (agRd m) (K (d, 85)) (barCell d) := by
  have h : (bigSep Finset.univ fun ck : Dev nD × Fin 86 => (cellInv ER (agRd m) (K ck) (kcell ck) : sProp 𝕄))
      ⊢ cellInv ER (agRd m) (K (d, 85)) (kcell (d, 85)) := bigSep_elim (Finset.mem_univ _)
  unfold records
  iintro ⟨#HI, -⟩
  iapply h; iexact HI

theorem reached_dma (K : Dev nD × Fin 86 → ℕ) (d : Dev nD) (n : ℕ) (hn : n < 85) : records m K ⊢ reached ER (dcell d n hn) 0 := by
  have h : (bigSep Finset.univ fun ck : Dev nD × Fin 86 => (reached ER (kcell ck) 0 : sProp 𝕄))
      ⊢ reached ER (kcell (d, ⟨n, by omega⟩)) 0 := bigSep_elim (Finset.mem_univ _)
  rw [show kcell (d, (⟨n, by omega⟩ : Fin 86)) = dcell d n hn from by unfold kcell; rw [ksem_dma n hn]] at h
  unfold records
  iintro ⟨-, #HR⟩
  iapply h; iexact HR

theorem reached_bar (K : Dev nD × Fin 86 → ℕ) (d : Dev nD) : records m K ⊢ reached ER (barCell d) 0 := by
  have h : (bigSep Finset.univ fun ck : Dev nD × Fin 86 => (reached ER (kcell ck) 0 : sProp 𝕄))
      ⊢ reached ER (kcell (d, 85)) 0 := bigSep_elim (Finset.mem_univ _)
  unfold records
  iintro ⟨-, #HR⟩
  iapply h; iexact HR

/-! ## A family of eight, of twelve, written out -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The same rows under another name -/

omit [FloatOps F] in
theorem pts_respell {sp : Space} {e : EltTy} {R : ℕ} (d : Dev nD) (B : Memref sig .tc sp (Sr R) e) {o o' r r' : ℕ} (ho : o = o') (hr : r = r')
    (h : o + r ≤ R) (h' : o' + r' ≤ R) (q : PosShare TreeShare) (f : Buf (Elt F) (B.view.loc (d : Thread nD τ))) :
    pts (F := F) d B o r h q f = pts d B o' r' h' q f := by
  subst ho hr; rfl

/-! ## A copy's credit -/

omit [FloatOps F] in
/-- The credit of rows of a buffer does not depend on where the rows start. -/
theorem credit_rect {sp : Space} {e : EltTy} {R : ℕ} (M : Memref sig .tc sp (Sr R) e) (r : ℕ) (off : Fin 2 → ℕ)
    (inb : ∀ a, off a + (Sr r).size a ≤ (Sr R).size a) (hst : ∀ a, (Rect.unit (s := Sr R) off (Sr r).size inb).stride a = 1) (o : ℕ) (h : o + r ≤ R) :
    (M.slice (Rect.unit (s := Sr R) off (Sr r).size inb) hst).view.dmaCredit = (sl M o r h).view.dmaCredit := rfl

/-! ## The barrier payloads -/

/-- What a device whose z-neighbour is e hands over on duty 0: e's own chunks and e's z-receive cells' marks. -/
theorem bpay_z_at (d e : Dev nD) (h : zn d = e) :
    bpay (F := F) d 0 = bigSep Finset.univ fun j : Fin 8 => iprop((∃ f, pts e CM (ownOff e j) (ownLen j) (own_inb e j) fullShare f)
      ∗ reached ER (dcell e (20 + j.val) (by omega)) 0) := by
  subst h; unfold bpay; exact if_pos rfl
theorem bpay_x_at (d e : Dev nD) (h : xn d = e) :
    bpay (F := F) d 1 = bigSep Finset.univ fun k : Fin 8 => iprop((∃ f, pts e CM (xinOff e k) (xinLen k) (xin_inb e k) fullShare f)
      ∗ reached ER (dcell e (36 + k.val) (by omega)) 0) := by
  subst h; unfold bpay; exact (if_neg (by decide)).trans (if_pos rfl)
theorem bpay_y_at (d e : Dev nD) (h : yn d = e) :
    bpay (F := F) d 2 = bigSep Finset.univ fun k : Fin 8 => iprop((∃ f, pts e CM (yinOff e k) (yinLen k) (yin_inb e k) fullShare f)
      ∗ reached ER (dcell e (52 + k.val) (by omega)) 0) := by
  subst h; unfold bpay; exact (if_neg (by decide)).trans (if_neg (by decide))

/-- What device c hands its z-, x-, y-neighbour: rows of its own communication buffer. -/
theorem bpay_to_z (c : Dev nD) :
    bpay (F := F) (zn c) 0 = bigSep Finset.univ fun j : Fin 8 => iprop((∃ f, pts c CM (ownOff c j) (ownLen j) (own_inb c j) fullShare f)
      ∗ reached ER (dcell c (20 + j.val) (by omega)) 0) := bpay_z_at (zn c) c (zn_zn c)
theorem bpay_to_x (c : Dev nD) :
    bpay (F := F) (xn c) 1 = bigSep Finset.univ fun k : Fin 8 => iprop((∃ f, pts c CM (xinOff c k) (xinLen k) (xin_inb c k) fullShare f)
      ∗ reached ER (dcell c (36 + k.val) (by omega)) 0) := bpay_x_at (xn c) c (xn_xn c)
theorem bpay_to_y (c : Dev nD) :
    bpay (F := F) (yn c) 2 = bigSep Finset.univ fun k : Fin 8 => iprop((∃ f, pts c CM (yinOff c k) (yinLen k) (yin_inb c k) fullShare f)
      ∗ reached ER (dcell c (52 + k.val) (by omega)) 0) := bpay_y_at (yn c) c (yn_yn c)

/-- What device c receives from its z-neighbour: the z-neighbour's rows at c's own chunks (the same rows there). -/
theorem bpay_from_z (c : Dev nD) :
    bpay (F := F) c 0 = bigSep Finset.univ fun j : Fin 8 => iprop((∃ f, pts (zn c) CM (ownOff c j) (ownLen j) (own_inb c j) fullShare f)
      ∗ reached ER (dcell (zn c) (20 + j.val) (by omega)) 0) := by
  rw [bpay_z_at c (zn c) rfl]
  refine bigSep_congr fun j _ => ?_
  have e : ∀ f, pts (F := F) (zn c) CM (ownOff (zn c) j) (ownLen j) (own_inb (zn c) j) fullShare f
      = pts (zn c) CM (ownOff c j) (ownLen j) (own_inb c j) fullShare f := fun f => pts_respell (zn c) CM (own_zn c j) rfl _ _ _ f
  simp only [e]
theorem bpay_from_x (c : Dev nD) :
    bpay (F := F) c 1 = bigSep Finset.univ fun k : Fin 8 => iprop((∃ f, pts (xn c) CM (xinOff (xn c) k) (xinLen k) (xin_inb (xn c) k) fullShare f)
      ∗ reached ER (dcell (xn c) (36 + k.val) (by omega)) 0) := bpay_x_at c (xn c) rfl
theorem bpay_from_y (c : Dev nD) :
    bpay (F := F) c 2 = bigSep Finset.univ fun k : Fin 8 => iprop((∃ f, pts (yn c) CM (yinOff (yn c) k) (yinLen k) (yin_inb (yn c) k) fullShare f)
      ∗ reached ER (dcell (yn c) (52 + k.val) (by omega)) 0) := bpay_y_at c (yn c) rfl

end Cert.KernelIdeal.AG

end
-- ==== Proof.AGParts_ah.lean ====
/-
  What the part lemmas of the body share: a load and a store of a row range against the printed spelling; that rows on
  which the conversion of the staged rows was stored hold the device's half converted; the payloads of an input copy's and
  of a z-transfer's landing, spelt as the rows they are; the units of a z-transfer's two cells; rows held at a share as
  its two halves; and that the waits of the first parts lie below every cell still owed.
-/
import proofs.«900673_g7700000000000674_dist_ag_v7x_xyz2x2x2_z_m4096_n1024_bf16_1_alg».proof.Proof.Gen.KernelIdeal.Skeleton
import proofs.«900673_g7700000000000674_dist_ag_v7x_xyz2x2x2_z_m4096_n1024_bf16_1_alg».proof.Proof.AGSteps
import proofs.«900673_g7700000000000674_dist_ag_v7x_xyz2x2x2_z_m4096_n1024_bf16_1_alg».proof.Proof.AGPays
import proofs.«900673_g7700000000000674_dist_ag_v7x_xyz2x2x2_z_m4096_n1024_bf16_1_alg».proof.Proof.AGSlices
import proofs.«900673_g7700000000000674_dist_ag_v7x_xyz2x2x2_z_m4096_n1024_bf16_1_alg».proof.Proof.AGOffs
import proofs.«900673_g7700000000000674_dist_ag_v7x_xyz2x2x2_z_m4096_n1024_bf16_1_alg».proof.Proof.AGGlue

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads, stores and what a converted chunk holds -/

/-- A load of rows [o, o + r) of a buffer held at any share: it reads the rows. -/
theorem pa_load {cs : CoreSpace} {e : EltTy} {R : ℕ} (c : Dev nD) (M : Memref sig .tc (.core cs) (Sr R) e) (o r : ℕ) (h : o + r ≤ R)
    (q : PosShare TreeShare) (f : Buf (Elt F) ((sl M o r h).view.loc (c : Thread nD τ)))
    (off : Fin 2 → ℕ) (hoff : off = ![o, 0])
    {inb : ∀ a, off a + (Sr r).size a ≤ (Sr R).size a}
    {hl : M.view.LoadsAt (Rect.unit (s := Sr R) off (Sr r).size inb).toLoadRect}
    {α : Type} {Q : α → sProp 𝕄} {k : ((Sr r).Idx → Elt F e) → Prog (TpuEff nD τ sig (Elt F) Λ₀ .tc) α} :
    pts c M o r h q f
      ⊢ iprop((pts c M o r h q f -∗ wp frame (wpE (defs₀ (F := F)) 𝒱₀ (c : Thread nD τ) none) Set.univ (k (fun j => M.view.read (Elt F) f (up o h j))) Q)
          -∗ wp frame (wpE (defs₀ (F := F)) 𝒱₀ (c : Thread nD τ) none) Set.univ (.op (.load M (Rect.unit (s := Sr R) off (Sr r).size inb).toLoadRect hl) k) Q) := by
  subst hoff
  unfold pts
  have hw := wp_load (defs := defs₀ (F := F)) (Γ := PendingWaitsCtx.empty) 𝒱₀ (c : Thread nD τ) none Set.univ (m := M)
    (r := (Rect.unit (s := Sr R) ![o, 0] (Sr r).size inb).toLoadRect) (hl := hl) (k := k) (Q := Q)
    (S := (sl M o r h).view.set) (q := q) (f := f) (by rw [sl_set]; exact Finset.Subset.refl _)
  rw [readAt_rows M h f] at hw
  exact hw

/-- A store of a vector on rows [o, o + r) of a buffer held whole there. -/
theorem pa_store {cs : CoreSpace} {e : EltTy} {R : ℕ} (c : Dev nD) (M : Memref sig .tc (.core cs) (Sr R) e) (o r : ℕ) (h : o + r ≤ R)
    (f : Buf (Elt F) ((sl M o r h).view.loc (c : Thread nD τ))) (v : (Sr r).Idx → Elt F e)
    (off : Fin 2 → ℕ) (hoff : off = ![o, 0])
    {inb : ∀ a, off a + (Sr r).size a ≤ (Sr R).size a}
    {hx : (M.access (Rect.unit (s := Sr R) off (Sr r).size inb)).Stores Finset.univ}
    {hm : (Finset.univ : Finset (Rect.unit (s := Sr R) off (Sr r).size inb).shape.Idx) = Finset.univ ∨ ∀ a, (Rect.unit (s := Sr R) off (Sr r).size inb).stride a = 1}
    {α : Type} {Q : α → sProp 𝕄} {k : PUnit → Prog (TpuEff nD τ sig (Elt F) Λ₀ .tc) α} :
    pts c M o r h fullShare f
      ⊢ iprop((((sl M o r h).view.loc (c : Thread nD τ) ↦[(sl M o r h).view.set]{fullShare}
              ((M.access (Rect.unit (s := Sr R) ![o, 0] (Sr r).size (sl_inb h))).write (Elt F) f v Finset.univ))
            -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := Sr R) off (Sr r).size inb) v Finset.univ hx hm) k) Q) := by
  subst hoff
  unfold pts
  exact wp_store (defs := defs₀ (F := F)) (Γ := PendingWaitsCtx.empty) 𝒱₀ (c : Thread nD τ) none Set.univ (m := M)
    (r := Rect.unit (s := Sr R) ![o, 0] (Sr r).size inb) (w := v) (hx := hx) (hm := hm) (k := k) (Q := Q)
    (S := (sl M o r h).view.set) (f := f) (Finset.Subset.refl _)

/-- Rows of the conversion buffer on which the conversion of the staged rows was stored hold the device's half converted. -/
theorem pa_stored_mine (c : Dev nD) (o r : ℕ) (h : o + r ≤ 4096) (fm : Buf (Elt F) ((sl MI o r h).view.loc (c : Thread nD τ)))
    (v : (Sr r).Idx → Elt F .bf16)
    (hv : ∀ j, v j = FloatOps.truncf .bf16 (by decide) (X m c (up o h j))) :
    ((sl MI o r h).view.loc (c : Thread nD τ) ↦[(sl MI o r h).view.set]{fullShare}
        ((MI.access (Rect.unit (s := Sr 4096) ![o, 0] (Sr r).size (sl_inb h))).write (Elt F) fm v Finset.univ) : sProp 𝕄)
      = pts c MI o r h fullShare (mineV m c) := by
  unfold pts
  exact pointsTo_sl_congr MI c fullShare fun x hx => by
    rw [read_store_rows_of_mem MI h fm v x hx, hv, up_down]
    rfl

/-- What the landing of an input copy hands over. -/
theorem pa_wait_in (c : Dev nD) (i : Fin 12) (n : ℕ) (hn : n = i.val) :
    (dpay m c n : sProp 𝕄) ⊢ iprop(pts c ST (inOff c i) (inLen i) (in_inb c i) fullShare (X m c)
      ∗ pts c XA (inOff c i) (inLen i) (in_inb c i) fullShare (X m c)) := by
  subst hn; exact Entails.of_eq (dpay_in m c i)

/-- What the landing of a z-transfer hands the receiver: its own chunk of the communication buffer, holding what the
    z-neighbour converted. -/
theorem pa_wait_zr (c : Dev nD) (j : Fin 8) (n : ℕ) (hn : n = 20 + j.val) :
    (dpay m c n : sProp 𝕄) = pts c CM (ownOff c j) (ownLen j) (own_inb c j) fullShare (commV m c) := by
  subst hn; exact dpay_zr m c j

/-- A z-transfer's two cells carry the same units. -/
theorem pa_damt_z (j : Fin 8) : damt (12 + j.val) = damt (20 + j.val) :=
  (credit_zs 0 j (by have := (ownLen_pos j).2; omega)).symm.trans (credit_zr 0 j (by have := (ownLen_pos j).2; omega))

/-- Held whole, rows are held at the left and at the right half. -/
theorem pa_halves {sp : Space} {e : EltTy} {R : ℕ} (c : Dev nD) (M : Memref sig .tc sp (Sr R) e) (o r : ℕ) (h : o + r ≤ R)
    (q : PosShare TreeShare) (f : Buf (Elt F) ((sl M o r h).view.loc (c : Thread nD τ))) :
    (pts c M o r h q f : sProp 𝕄) ⊢ iprop(pts c M o r h q.left f ∗ pts c M o r h q.right f) := by
  unfold pts; exact (pointsTo_share_split _ q f).1

/-- The credit a z-transfer leaves on its send cell, in the send cell's own units. -/
theorem pa_cred_z (c : Dev nD) (j : Fin 8) (ns nr : ℕ) (hs : ns = 12 + j.val) (hr : nr = 20 + j.val) (h : ns < 85) :
    (cred (tallyAt (dcell c ns h) () (damt nr)) : sProp 𝕄) ⊢ cred (tallyAt (dcell c ns h) () (damt ns)) := by
  subst hs hr; exact Entails.of_eq (by rw [pa_damt_z j])

/-! ## The waits of these parts lie below everything still owed -/

theorem pa_lv_bar : ∀ (c : Dev nD), ∀ t ∈ (fires c).drop 3,
    lv ((c : Thread nD τ), SemLoc.reg barS) () < lv t.1 () ∧ t.1.1.2 = .tc := by decide
theorem pa_lv_in : ∀ (j : Fin 8) (c : Dev nD), ∀ t ∈ (fires c).drop (3 + j.val),
    lv ((c : Thread nD τ), SemLoc.dma ⟨j.val, by have := j.isLt; show j.val < 85; omega⟩) () < lv t.1 () ∧ t.1.1.2 = .tc := by decide
theorem pa_lv_zr0 : ∀ (c : Dev nD), ∀ t ∈ (fires c).drop 11,
    lv ((c : Thread nD τ), SemLoc.dma ⟨20, by decide⟩) () < lv t.1 () ∧ t.1.1.2 = .tc := by decide

end Cert.KernelIdeal.AG

end
-- ==== Proof.AGParts_a.lean ====
/-
  The body of one device, part by part: its first ten parts.
  The device reads its id; starts the twelve copies of its half of the argument into the staging buffer; signals its three
  neighbours, handing each the rows of its own communication buffer that the neighbour will write and the marks that the
  receive cells there are at their first round; waits for the three neighbours' signals and receives theirs.  Then, for
  each of its eight own chunks in turn: it waits for the chunk's input copy, converts the staged rows and stores them in
  the conversion buffer, and sends them to its z-neighbour, into the rows the neighbour handed over.
-/
import proofs.«900673_g7700000000000674_dist_ag_v7x_xyz2x2x2_z_m4096_n1024_bf16_1_alg».proof.Proof.Gen.KernelIdeal.Skeleton
import proofs.«900673_g7700000000000674_dist_ag_v7x_xyz2x2x2_z_m4096_n1024_bf16_1_alg».proof.Proof.AGSteps
import proofs.«900673_g7700000000000674_dist_ag_v7x_xyz2x2x2_z_m4096_n1024_bf16_1_alg».proof.Proof.AGPays
import proofs.«900673_g7700000000000674_dist_ag_v7x_xyz2x2x2_z_m4096_n1024_bf16_1_alg».proof.Proof.AGSlices
import proofs.«900673_g7700000000000674_dist_ag_v7x_xyz2x2x2_z_m4096_n1024_bf16_1_alg».proof.Proof.AGOffs
import proofs.«900673_g7700000000000674_dist_ag_v7x_xyz2x2x2_z_m4096_n1024_bf16_1_alg».proof.Proof.AGGlue
import proofs.«900673_g7700000000000674_dist_ag_v7x_xyz2x2x2_z_m4096_n1024_bf16_1_alg».proof.Proof.AGParts_ah

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Part 1: the device reads its id. -/
theorem part_1 (c : Dev nD) (K : Dev nD × Fin 86 → ℕ) :
    iprop(records m K ∗ levAts L lv)
      ⊢ wp frame (wpE (defs₀ (F := F)) 𝒱₀ (c : Thread nD τ) none) Set.univ
          (k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13)
          (fun r => iprop(⌜r.1 = c⌝)) := by
  simp only [k0_part1_eq_skeleton]; unfold k0_part1_skel
  simp only [Prog.lift, Prog.bind_op, Prog.bind_ret, Prog.pure_eq_ret, Prog.bind_assoc, wp_deviceId]
  iintro -
  rw [wp_ret]; imodintro
  ipureintro; rfl

set_option maxRecDepth 65536 in
/-- Part 2: the input copies of own chunks 0, 1, 2. -/
theorem part_2 (c : Dev nD) (K : Dev nD × Fin 86 → ℕ) (v2 v5 v22 v28 v33 c2_i32_18 : BitVec 32)
    (fd0 : Buf (Elt F) ((sl ST (inOff c 0) (inLen 0) (in_inb c 0)).view.loc (c : Thread nD τ))) (fd1 : Buf (Elt F) ((sl ST (inOff c 1) (inLen 1) (in_inb c 1)).view.loc (c : Thread nD τ))) (fd2 : Buf (Elt F) ((sl ST (inOff c 2) (inLen 2) (in_inb c 2)).view.loc (c : Thread nD τ))) :
    iprop(records m K ∗ levAts L lv
        ∗ pts c XA (inOff c 0) (inLen 0) (in_inb c 0) fullShare (X m c) ∗ pts c ST (inOff c 0) (inLen 0) (in_inb c 0) fullShare fd0
        ∗ dutyTok ER (dcell c 0 (by decide)) 0 0
        ∗ pts c XA (inOff c 1) (inLen 1) (in_inb c 1) fullShare (X m c) ∗ pts c ST (inOff c 1) (inLen 1) (in_inb c 1) fullShare fd1
        ∗ dutyTok ER (dcell c 1 (by decide)) 0 0
        ∗ pts c XA (inOff c 2) (inLen 2) (in_inb c 2) fullShare (X m c) ∗ pts c ST (inOff c 2) (inLen 2) (in_inb c 2) fullShare fd2
        ∗ dutyTok ER (dcell c 2 (by decide)) 0 0)
      ⊢ wp frame (wpE (defs₀ (F := F)) 𝒱₀ (c : Thread nD τ) none) Set.univ
          (k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v22 v28 v33 c2_i32_18)
          (fun r => iprop(cred (tallyAt (dcell c 0 (by decide)) () (damt 0)) ∗ cred (tallyAt (dcell c 1 (by decide)) () (damt 1)) ∗ cred (tallyAt (dcell c 2 (by decide)) () (damt 2)))) := by
  simp only [k0_part2_eq_skeleton]; unfold k0_part2_skel
  simp only [Prog.lift, Prog.bind_op, Prog.bind_ret, Prog.pure_eq_ret, Prog.bind_assoc]
  iintro ⟨#HR, #HL, Hxa0, Hst0, Ht0, Hxa1, Hst1, Ht1, Hxa2, Hst2, Ht2⟩
  iapply (step_copy' m c XA ST (inOff c 0) (inOff c 0) (inLen 0) (in_inb c 0) (in_inb c 0) 0 (by decide) fullShare (X m c) fd0
      (k0_off1 c) (k0_off1 c) ((off1_eq c).trans (by rfl)) ((off1_eq c).trans (by rfl)) _ rfl (κ := K (c, ⟨0, by omega⟩))
      (credit_in (inOff c 0) 0 (in_inb c 0)) (pay_in m c 0 fd0)) $$ [Hxa0 Hst0 Ht0]
  · isplitr; · iapply (inv_dma m K c 0 _); iexact HR
    isplitl [Hxa0]; · iexact Hxa0
    isplitl [Hst0]; · iexact Hst0
    isplitl [Ht0]; · iexact Ht0
    iapply (reached_dma m K c 0 _); iexact HR
  iintro Hc0
  iapply (step_copy' m c XA ST (inOff c 1) (inOff c 1) (inLen 1) (in_inb c 1) (in_inb c 1) 1 (by decide) fullShare (X m c) fd1
      (k0_off2 c) (k0_off2 c) ((off2_eq c).trans (by rfl)) ((off2_eq c).trans (by rfl)) _ rfl (κ := K (c, ⟨1, by omega⟩))
      (credit_in (inOff c 1) 1 (in_inb c 1)) (pay_in m c 1 fd1)) $$ [Hxa1 Hst1 Ht1]
  · isplitr; · iapply (inv_dma m K c 1 _); iexact HR
    isplitl [Hxa1]; · iexact Hxa1
    isplitl [Hst1]; · iexact Hst1
    isplitl [Ht1]; · iexact Ht1
    iapply (reached_dma m K c 1 _); iexact HR
  iintro Hc1
  iapply (step_copy' m c XA ST (inOff c 2) (inOff c 2) (inLen 2) (in_inb c 2) (in_inb c 2) 2 (by decide) fullShare (X m c) fd2
      (k0_off3 c) (k0_off3 c) ((off3_eq c).trans (by rfl)) ((off3_eq c).trans (by rfl)) _ rfl (κ := K (c, ⟨2, by omega⟩))
      (credit_in (inOff c 2) 2 (in_inb c 2)) (pay_in m c 2 fd2)) $$ [Hxa2 Hst2 Ht2]
  · isplitr; · iapply (inv_dma m K c 2 _); iexact HR
    isplitl [Hxa2]; · iexact Hxa2
    isplitl [Hst2]; · iexact Hst2
    isplitl [Ht2]; · iexact Ht2
    iapply (reached_dma m K c 2 _); iexact HR
  iintro Hc2
  rw [wp_ret]; imodintro
  isplitl [Hc0]; · iexact Hc0
  isplitl [Hc1]; · iexact Hc1
  iexact Hc2

set_option maxRecDepth 65536 in
/-- Part 3: the input copies of own chunks 3 to 7 and of the x- and the y-neighbour's 672-regions. -/
theorem part_3 (c : Dev nD) (K : Dev nD × Fin 86 → ℕ)
    (fd3 : Buf (Elt F) ((sl ST (inOff c 3) (inLen 3) (in_inb c 3)).view.loc (c : Thread nD τ))) (fd4 : Buf (Elt F) ((sl ST (inOff c 4) (inLen 4) (in_inb c 4)).view.loc (c : Thread nD τ))) (fd5 : Buf (Elt F) ((sl ST (inOff c 5) (inLen 5) (in_inb c 5)).view.loc (c : Thread nD τ))) (fd6 : Buf (Elt F) ((sl ST (inOff c 6) (inLen 6) (in_inb c 6)).view.loc (c : Thread nD τ))) (fd7 : Buf (Elt F) ((sl ST (inOff c 7) (inLen 7) (in_inb c 7)).view.loc (c : Thread nD τ))) (fd8 : Buf (Elt F) ((sl ST (inOff c 8) (inLen 8) (in_inb c 8)).view.loc (c : Thread nD τ))) (fd9 : Buf (Elt F) ((sl ST (inOff c 9) (inLen 9) (in_inb c 9)).view.loc (c : Thread nD τ))) :
    iprop(records m K ∗ levAts L lv
        ∗ pts c XA (inOff c 3) (inLen 3) (in_inb c 3) fullShare (X m c) ∗ pts c ST (inOff c 3) (inLen 3) (in_inb c 3) fullShare fd3
        ∗ dutyTok ER (dcell c 3 (by decide)) 0 0
        ∗ pts c XA (inOff c 4) (inLen 4) (in_inb c 4) fullShare (X m c) ∗ pts c ST (inOff c 4) (inLen 4) (in_inb c 4) fullShare fd4
        ∗ dutyTok ER (dcell c 4 (by decide)) 0 0
        ∗ pts c XA (inOff c 5) (inLen 5) (in_inb c 5) fullShare (X m c) ∗ pts c ST (inOff c 5) (inLen 5) (in_inb c 5) fullShare fd5
        ∗ dutyTok ER (dcell c 5 (by decide)) 0 0
        ∗ pts c XA (inOff c 6) (inLen 6) (in_inb c 6) fullShare (X m c) ∗ pts c ST (inOff c 6) (inLen 6) (in_inb c 6) fullShare fd6
        ∗ dutyTok ER (dcell c 6 (by decide)) 0 0
        ∗ pts c XA (inOff c 7) (inLen 7) (in_inb c 7) fullShare (X m c) ∗ pts c ST (inOff c 7) (inLen 7) (in_inb c 7) fullShare fd7
        ∗ dutyTok ER (dcell c 7 (by decide)) 0 0
        ∗ pts c XA (inOff c 8) (inLen 8) (in_inb c 8) fullShare (X m c) ∗ pts c ST (inOff c 8) (inLen 8) (in_inb c 8) fullShare fd8
        ∗ dutyTok ER (dcell c 8 (by decide)) 0 0
        ∗ pts c XA (inOff c 9) (inLen 9) (in_inb c 9) fullShare (X m c) ∗ pts c ST (inOff c 9) (inLen 9) (in_inb c 9) fullShare fd9
        ∗ dutyTok ER (dcell c 9 (by decide)) 0 0)
      ⊢ wp frame (wpE (defs₀ (F := F)) 𝒱₀ (c : Thread nD τ) none) Set.univ
          (k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
          (fun r => iprop(cred (tallyAt (dcell c 3 (by decide)) () (damt 3)) ∗ cred (tallyAt (dcell c 4 (by decide)) () (damt 4)) ∗ cred (tallyAt (dcell c 5 (by decide)) () (damt 5)) ∗ cred (tallyAt (dcell c 6 (by decide)) () (damt 6)) ∗ cred (tallyAt (dcell c 7 (by decide)) () (damt 7)) ∗ cred (tallyAt (dcell c 8 (by decide)) () (damt 8)) ∗ cred (tallyAt (dcell c 9 (by decide)) () (damt 9)))) := by
  simp only [k0_part3_eq_skeleton]; unfold k0_part3_skel
  simp only [Prog.lift, Prog.bind_op, Prog.bind_ret, Prog.pure_eq_ret, Prog.bind_assoc]
  iintro ⟨#HR, #HL, Hxa3, Hst3, Ht3, Hxa4, Hst4, Ht4, Hxa5, Hst5, Ht5, Hxa6, Hst6, Ht6, Hxa7, Hst7, Ht7, Hxa8, Hst8, Ht8, Hxa9, Hst9, Ht9⟩
  iapply (step_copy' m c XA ST (inOff c 3) (inOff c 3) (inLen 3) (in_inb c 3) (in_inb c 3) 3 (by decide) fullShare (X m c) fd3
      (k0_off4 c) (k0_off4 c) ((off4_eq c).trans (by rfl)) ((off4_eq c).trans (by rfl)) _ rfl (κ := K (c, ⟨3, by omega⟩))
      (credit_in (inOff c 3) 3 (in_inb c 3)) (pay_in m c 3 fd3)) $$ [Hxa3 Hst3 Ht3]
  · isplitr; · iapply (inv_dma m K c 3 _); iexact HR
    isplitl [Hxa3]; · iexact Hxa3
    isplitl [Hst3]; · iexact Hst3
    isplitl [Ht3]; · iexact Ht3
    iapply (reached_dma m K c 3 _); iexact HR
  iintro Hc3
  iapply (step_copy' m c XA ST (inOff c 4) (inOff c 4) (inLen 4) (in_inb c 4) (in_inb c 4) 4 (by decide) fullShare (X m c) fd4
      (k0_off5 c) (k0_off5 c) ((off5_eq c).trans (by rfl)) ((off5_eq c).trans (by rfl)) _ rfl (κ := K (c, ⟨4, by omega⟩))
      (credit_in (inOff c 4) 4 (in_inb c 4)) (pay_in m c 4 fd4)) $$ [Hxa4 Hst4 Ht4]
  · isplitr; · iapply (inv_dma m K c 4 _); iexact HR
    isplitl [Hxa4]; · iexact Hxa4
    isplitl [Hst4]; · iexact Hst4
    isplitl [Ht4]; · iexact Ht4
    iapply (reached_dma m K c 4 _); iexact HR
  iintro Hc4
  iapply (step_copy' m c XA ST (inOff c 5) (inOff c 5) (inLen 5) (in_inb c 5) (in_inb c 5) 5 (by decide) fullShare (X m c) fd5
      (k0_off6 c) (k0_off6 c) ((off6_eq c).trans (by rfl)) ((off6_eq c).trans (by rfl)) _ rfl (κ := K (c, ⟨5, by omega⟩))
      (credit_in (inOff c 5) 5 (in_inb c 5)) (pay_in m c 5 fd5)) $$ [Hxa5 Hst5 Ht5]
  · isplitr; · iapply (inv_dma m K c 5 _); iexact HR
    isplitl [Hxa5]; · iexact Hxa5
    isplitl [Hst5]; · iexact Hst5
    isplitl [Ht5]; · iexact Ht5
    iapply (reached_dma m K c 5 _); iexact HR
  iintro Hc5
  iapply (step_copy' m c XA ST (inOff c 6) (inOff c 6) (inLen 6) (in_inb c 6) (in_inb c 6) 6 (by decide) fullShare (X m c) fd6
      (k0_off7 c) (k0_off7 c) ((off7_eq c).trans (by rfl)) ((off7_eq c).trans (by rfl)) _ rfl (κ := K (c, ⟨6, by omega⟩))
      (credit_in (inOff c 6) 6 (in_inb c 6)) (pay_in m c 6 fd6)) $$ [Hxa6 Hst6 Ht6]
  · isplitr; · iapply (inv_dma m K c 6 _); iexact HR
    isplitl [Hxa6]; · iexact Hxa6
    isplitl [Hst6]; · iexact Hst6
    isplitl [Ht6]; · iexact Ht6
    iapply (reached_dma m K c 6 _); iexact HR
  iintro Hc6
  iapply (step_copy' m c XA ST (inOff c 7) (inOff c 7) (inLen 7) (in_inb c 7) (in_inb c 7) 7 (by decide) fullShare (X m c) fd7
      (k0_off8 c) (k0_off8 c) ((off8_eq c).trans (by rfl)) ((off8_eq c).trans (by rfl)) _ rfl (κ := K (c, ⟨7, by omega⟩))
      (credit_in (inOff c 7) 7 (in_inb c 7)) (pay_in m c 7 fd7)) $$ [Hxa7 Hst7 Ht7]
  · isplitr; · iapply (inv_dma m K c 7 _); iexact HR
    isplitl [Hxa7]; · iexact Hxa7
    isplitl [Hst7]; · iexact Hst7
    isplitl [Ht7]; · iexact Ht7
    iapply (reached_dma m K c 7 _); iexact HR
  iintro Hc7
  iapply (step_copy' m c XA ST (inOff c 8) (inOff c 8) (inLen 8) (in_inb c 8) (in_inb c 8) 8 (by decide) fullShare (X m c) fd8
      (k0_off9 c) (k0_off9 c) ((off9_eq c).trans (by rfl)) ((off9_eq c).trans (by rfl)) _ rfl (κ := K (c, ⟨8, by omega⟩))
      (credit_in (inOff c 8) 8 (in_inb c 8)) (pay_in m c 8 fd8)) $$ [Hxa8 Hst8 Ht8]
  · isplitr; · iapply (inv_dma m K c 8 _); iexact HR
    isplitl [Hxa8]; · iexact Hxa8
    isplitl [Hst8]; · iexact Hst8
    isplitl [Ht8]; · iexact Ht8
    iapply (reached_dma m K c 8 _); iexact HR
  iintro Hc8
  iapply (step_copy' m c XA ST (inOff c 9) (inOff c 9) (inLen 9) (in_inb c 9) (in_inb c 9) 9 (by decide) fullShare (X m c) fd9
      (k0_off10 c) (k0_off10 c) ((off10_eq c).trans (by rfl)) ((off10_eq c).trans (by rfl)) _ rfl (κ := K (c, ⟨9, by omega⟩))
      (credit_in (inOff c 9) 9 (in_inb c 9)) (pay_in m c 9 fd9)) $$ [Hxa9 Hst9 Ht9]
  · isplitr; · iapply (inv_dma m K c 9 _); iexact HR
    isplitl [Hxa9]; · iexact Hxa9
    isplitl [Hst9]; · iexact Hst9
    isplitl [Ht9]; · iexact Ht9
    iapply (reached_dma m K c 9 _); iexact HR
  iintro Hc9
  rw [wp_ret]; imodintro
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  iexact Hc9

set_option maxRecDepth 65536 in
set_option maxHeartbeats 4000000 in
/-- Part 4: the last two input copies; the three signals, each handing a neighbour the rows of the device's own communication
    buffer that the neighbour will write; the wait for the three neighbours' signals, which hands the device theirs. -/
theorem part_4 (c : Dev nD) (K : Dev nD × Fin 86 → ℕ) (v2 v5 v8 v9 v10 v11 v32 v46 : BitVec 32) (W : Waits sig Unit)
    (fd10 : Buf (Elt F) ((sl ST (inOff c 10) (inLen 10) (in_inb c 10)).view.loc (c : Thread nD τ))) (fd11 : Buf (Elt F) ((sl ST (inOff c 11) (inLen 11) (in_inb c 11)).view.loc (c : Thread nD τ)))
    (fz0 : Buf (Elt F) ((sl CM (ownOff c 0) (ownLen 0) (own_inb c 0)).view.loc (c : Thread nD τ))) (fz1 : Buf (Elt F) ((sl CM (ownOff c 1) (ownLen 1) (own_inb c 1)).view.loc (c : Thread nD τ))) (fz2 : Buf (Elt F) ((sl CM (ownOff c 2) (ownLen 2) (own_inb c 2)).view.loc (c : Thread nD τ))) (fz3 : Buf (Elt F) ((sl CM (ownOff c 3) (ownLen 3) (own_inb c 3)).view.loc (c : Thread nD τ))) (fz4 : Buf (Elt F) ((sl CM (ownOff c 4) (ownLen 4) (own_inb c 4)).view.loc (c : Thread nD τ))) (fz5 : Buf (Elt F) ((sl CM (ownOff c 5) (ownLen 5) (own_inb c 5)).view.loc (c : Thread nD τ))) (fz6 : Buf (Elt F) ((sl CM (ownOff c 6) (ownLen 6) (own_inb c 6)).view.loc (c : Thread nD τ))) (fz7 : Buf (Elt F) ((sl CM (ownOff c 7) (ownLen 7) (own_inb c 7)).view.loc (c : Thread nD τ)))
    (fx0 : Buf (Elt F) ((sl CM (xinOff c 0) (xinLen 0) (xin_inb c 0)).view.loc (c : Thread nD τ))) (fx1 : Buf (Elt F) ((sl CM (xinOff c 1) (xinLen 1) (xin_inb c 1)).view.loc (c : Thread nD τ))) (fx2 : Buf (Elt F) ((sl CM (xinOff c 2) (xinLen 2) (xin_inb c 2)).view.loc (c : Thread nD τ))) (fx3 : Buf (Elt F) ((sl CM (xinOff c 3) (xinLen 3) (xin_inb c 3)).view.loc (c : Thread nD τ))) (fx4 : Buf (Elt F) ((sl CM (xinOff c 4) (xinLen 4) (xin_inb c 4)).view.loc (c : Thread nD τ))) (fx5 : Buf (Elt F) ((sl CM (xinOff c 5) (xinLen 5) (xin_inb c 5)).view.loc (c : Thread nD τ))) (fx6 : Buf (Elt F) ((sl CM (xinOff c 6) (xinLen 6) (xin_inb c 6)).view.loc (c : Thread nD τ))) (fx7 : Buf (Elt F) ((sl CM (xinOff c 7) (xinLen 7) (xin_inb c 7)).view.loc (c : Thread nD τ)))
    (fy0 : Buf (Elt F) ((sl CM (yinOff c 0) (yinLen 0) (yin_inb c 0)).view.loc (c : Thread nD τ))) (fy1 : Buf (Elt F) ((sl CM (yinOff c 1) (yinLen 1) (yin_inb c 1)).view.loc (c : Thread nD τ))) (fy2 : Buf (Elt F) ((sl CM (yinOff c 2) (yinLen 2) (yin_inb c 2)).view.loc (c : Thread nD τ))) (fy3 : Buf (Elt F) ((sl CM (yinOff c 3) (yinLen 3) (yin_inb c 3)).view.loc (c : Thread nD τ))) (fy4 : Buf (Elt F) ((sl CM (yinOff c 4) (yinLen 4) (yin_inb c 4)).view.loc (c : Thread nD τ))) (fy5 : Buf (Elt F) ((sl CM (yinOff c 5) (yinLen 5) (yin_inb c 5)).view.loc (c : Thread nD τ))) (fy6 : Buf (Elt F) ((sl CM (yinOff c 6) (yinLen 6) (yin_inb c 6)).view.loc (c : Thread nD τ))) (fy7 : Buf (Elt F) ((sl CM (yinOff c 7) (yinLen 7) (yin_inb c 7)).view.loc (c : Thread nD τ))) :
    iprop(records m K ∗ levAts L lv
        ∗ pts c XA (inOff c 10) (inLen 10) (in_inb c 10) fullShare (X m c) ∗ pts c ST (inOff c 10) (inLen 10) (in_inb c 10) fullShare fd10
        ∗ dutyTok ER (dcell c 10 (by decide)) 0 0
        ∗ pts c XA (inOff c 11) (inLen 11) (in_inb c 11) fullShare (X m c) ∗ pts c ST (inOff c 11) (inLen 11) (in_inb c 11) fullShare fd11
        ∗ dutyTok ER (dcell c 11 (by decide)) 0 0
        ∗ owes (c : Thread nD τ) (owedAfter c 0) W
        ∗ dutyTok ER (barCell (zn c)) 0 0
        ∗ pts c CM (ownOff c 0) (ownLen 0) (own_inb c 0) fullShare fz0 ∗ pts c CM (ownOff c 1) (ownLen 1) (own_inb c 1) fullShare fz1 ∗ pts c CM (ownOff c 2) (ownLen 2) (own_inb c 2) fullShare fz2 ∗ pts c CM (ownOff c 3) (ownLen 3) (own_inb c 3) fullShare fz3 ∗ pts c CM (ownOff c 4) (ownLen 4) (own_inb c 4) fullShare fz4 ∗ pts c CM (ownOff c 5) (ownLen 5) (own_inb c 5) fullShare fz5 ∗ pts c CM (ownOff c 6) (ownLen 6) (own_inb c 6) fullShare fz6 ∗ pts c CM (ownOff c 7) (ownLen 7) (own_inb c 7) fullShare fz7
        ∗ dutyTok ER (barCell (xn c)) 0 1
        ∗ pts c CM (xinOff c 0) (xinLen 0) (xin_inb c 0) fullShare fx0 ∗ pts c CM (xinOff c 1) (xinLen 1) (xin_inb c 1) fullShare fx1 ∗ pts c CM (xinOff c 2) (xinLen 2) (xin_inb c 2) fullShare fx2 ∗ pts c CM (xinOff c 3) (xinLen 3) (xin_inb c 3) fullShare fx3 ∗ pts c CM (xinOff c 4) (xinLen 4) (xin_inb c 4) fullShare fx4 ∗ pts c CM (xinOff c 5) (xinLen 5) (xin_inb c 5) fullShare fx5 ∗ pts c CM (xinOff c 6) (xinLen 6) (xin_inb c 6) fullShare fx6 ∗ pts c CM (xinOff c 7) (xinLen 7) (xin_inb c 7) fullShare fx7
        ∗ dutyTok ER (barCell (yn c)) 0 2
        ∗ pts c CM (yinOff c 0) (yinLen 0) (yin_inb c 0) fullShare fy0 ∗ pts c CM (yinOff c 1) (yinLen 1) (yin_inb c 1) fullShare fy1 ∗ pts c CM (yinOff c 2) (yinLen 2) (yin_inb c 2) fullShare fy2 ∗ pts c CM (yinOff c 3) (yinLen 3) (yin_inb c 3) fullShare fy3 ∗ pts c CM (yinOff c 4) (yinLen 4) (yin_inb c 4) fullShare fy4 ∗ pts c CM (yinOff c 5) (yinLen 5) (yin_inb c 5) fullShare fy5 ∗ pts c CM (yinOff c 6) (yinLen 6) (yin_inb c 6) fullShare fy6 ∗ pts c CM (yinOff c 7) (yinLen 7) (yin_inb c 7) fullShare fy7
        ∗ cred (tallyAt (barCell c) () 3) ∗ atPos ER (barCell c) 0 ∅ 0)
      ⊢ wp frame (wpE (defs₀ (F := F)) 𝒱₀ (c : Thread nD τ) none) Set.univ
          (k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v10 v11 v32 v46)
          (fun r => iprop(cred (tallyAt (dcell c 10 (by decide)) () (damt 10)) ∗ cred (tallyAt (dcell c 11 (by decide)) () (damt 11))
            ∗ (∃ W', owes (c : Thread nD τ) (owedAfter c 3) W') ∗ atPos ER (barCell c) 1 ∅ 0
            ∗ (∃ f, pts (zn c) CM (ownOff c 0) (ownLen 0) (own_inb c 0) fullShare f) ∗ (∃ f, pts (zn c) CM (ownOff c 1) (ownLen 1) (own_inb c 1) fullShare f) ∗ (∃ f, pts (zn c) CM (ownOff c 2) (ownLen 2) (own_inb c 2) fullShare f) ∗ (∃ f, pts (zn c) CM (ownOff c 3) (ownLen 3) (own_inb c 3) fullShare f) ∗ (∃ f, pts (zn c) CM (ownOff c 4) (ownLen 4) (own_inb c 4) fullShare f) ∗ (∃ f, pts (zn c) CM (ownOff c 5) (ownLen 5) (own_inb c 5) fullShare f) ∗ (∃ f, pts (zn c) CM (ownOff c 6) (ownLen 6) (own_inb c 6) fullShare f) ∗ (∃ f, pts (zn c) CM (ownOff c 7) (ownLen 7) (own_inb c 7) fullShare f)
            ∗ (∃ f, pts (xn c) CM (xinOff (xn c) 0) (xinLen 0) (xin_inb (xn c) 0) fullShare f) ∗ (∃ f, pts (xn c) CM (xinOff (xn c) 1) (xinLen 1) (xin_inb (xn c) 1) fullShare f) ∗ (∃ f, pts (xn c) CM (xinOff (xn c) 2) (xinLen 2) (xin_inb (xn c) 2) fullShare f) ∗ (∃ f, pts (xn c) CM (xinOff (xn c) 3) (xinLen 3) (xin_inb (xn c) 3) fullShare f) ∗ (∃ f, pts (xn c) CM (xinOff (xn c) 4) (xinLen 4) (xin_inb (xn c) 4) fullShare f) ∗ (∃ f, pts (xn c) CM (xinOff (xn c) 5) (xinLen 5) (xin_inb (xn c) 5) fullShare f) ∗ (∃ f, pts (xn c) CM (xinOff (xn c) 6) (xinLen 6) (xin_inb (xn c) 6) fullShare f) ∗ (∃ f, pts (xn c) CM (xinOff (xn c) 7) (xinLen 7) (xin_inb (xn c) 7) fullShare f)
            ∗ (∃ f, pts (yn c) CM (yinOff (yn c) 0) (yinLen 0) (yin_inb (yn c) 0) fullShare f) ∗ (∃ f, pts (yn c) CM (yinOff (yn c) 1) (yinLen 1) (yin_inb (yn c) 1) fullShare f) ∗ (∃ f, pts (yn c) CM (yinOff (yn c) 2) (yinLen 2) (yin_inb (yn c) 2) fullShare f) ∗ (∃ f, pts (yn c) CM (yinOff (yn c) 3) (yinLen 3) (yin_inb (yn c) 3) fullShare f) ∗ (∃ f, pts (yn c) CM (yinOff (yn c) 4) (yinLen 4) (yin_inb (yn c) 4) fullShare f) ∗ (∃ f, pts (yn c) CM (yinOff (yn c) 5) (yinLen 5) (yin_inb (yn c) 5) fullShare f) ∗ (∃ f, pts (yn c) CM (yinOff (yn c) 6) (yinLen 6) (yin_inb (yn c) 6) fullShare f) ∗ (∃ f, pts (yn c) CM (yinOff (yn c) 7) (yinLen 7) (yin_inb (yn c) 7) fullShare f))) := by
  simp only [k0_part4_eq_skeleton]; unfold k0_part4_skel
  simp only [Prog.lift, Prog.bind_op, Prog.bind_ret, Prog.pure_eq_ret, Prog.bind_assoc, semSignalWord, semWaitWord, dev1_eq c, dev2_eq c, dev3_eq c]
  iintro ⟨#HR, #HL, Hxa10, Hst10, Ht10, Hxa11, Hst11, Ht11, HO, Htz, Hz0, Hz1, Hz2, Hz3, Hz4, Hz5, Hz6, Hz7, Htx, Hx0, Hx1, Hx2, Hx3, Hx4, Hx5, Hx6, Hx7, Hty, Hy0, Hy1, Hy2, Hy3, Hy4, Hy5, Hy6, Hy7, Hcb, Hab⟩
  iapply (step_copy' m c XA ST (inOff c 10) (inOff c 10) (inLen 10) (in_inb c 10) (in_inb c 10) 10 (by decide) fullShare (X m c) fd10
      (k0_off11 c) (k0_off11 c) ((off11_eq c).trans (by rfl)) ((off11_eq c).trans (by rfl)) _ rfl (κ := K (c, ⟨10, by omega⟩))
      (credit_in (inOff c 10) 10 (in_inb c 10)) (pay_in m c 10 fd10)) $$ [Hxa10 Hst10 Ht10]
  · isplitr; · iapply (inv_dma m K c 10 _); iexact HR
    isplitl [Hxa10]; · iexact Hxa10
    isplitl [Hst10]; · iexact Hst10
    isplitl [Ht10]; · iexact Ht10
    iapply (reached_dma m K c 10 _); iexact HR
  iintro Hc10
  iapply (step_copy' m c XA ST (inOff c 11) (inOff c 11) (inLen 11) (in_inb c 11) (in_inb c 11) 11 (by decide) fullShare (X m c) fd11
      (k0_off12 c) (k0_off12 c) ((off12_eq c).trans (by rfl)) ((off12_eq c).trans (by rfl)) _ rfl (κ := K (c, ⟨11, by omega⟩))
      (credit_in (inOff c 11) 11 (in_inb c 11)) (pay_in m c 11 fd11)) $$ [Hxa11 Hst11 Ht11]
  · isplitr; · iapply (inv_dma m K c 11 _); iexact HR
    isplitl [Hxa11]; · iexact Hxa11
    isplitl [Hst11]; · iexact Hst11
    isplitl [Ht11]; · iexact Ht11
    iapply (reached_dma m K c 11 _); iexact HR
  iintro Hc11
  iapply (step_signal m c (zn c) 0 (owedAfter c 0) (owedAfter c 1) W rfl (Topo.routes_tc _ _) (κ := K (zn c, 85))) $$ [HO Htz Hz0 Hz1 Hz2 Hz3 Hz4 Hz5 Hz6 Hz7]
  · isplitr; · iapply (inv_bar m K (zn c)); iexact HR
    isplitl [HO]; · iexact HO
    isplitl [Htz]; · iexact Htz
    isplitl [Hz0 Hz1 Hz2 Hz3 Hz4 Hz5 Hz6 Hz7]
    · rw [bpay_to_z, bigSep_fin8]
      isplitl [Hz0]
      · isplitl
        · iexists fz0; iexact Hz0
        · iapply (reached_dma m K c _ _); iexact HR
      isplitl [Hz1]
      · isplitl
        · iexists fz1; iexact Hz1
        · iapply (reached_dma m K c _ _); iexact HR
      isplitl [Hz2]
      · isplitl
        · iexists fz2; iexact Hz2
        · iapply (reached_dma m K c _ _); iexact HR
      isplitl [Hz3]
      · isplitl
        · iexists fz3; iexact Hz3
        · iapply (reached_dma m K c _ _); iexact HR
      isplitl [Hz4]
      · isplitl
        · iexists fz4; iexact Hz4
        · iapply (reached_dma m K c _ _); iexact HR
      isplitl [Hz5]
      · isplitl
        · iexists fz5; iexact Hz5
        · iapply (reached_dma m K c _ _); iexact HR
      isplitl [Hz6]
      · isplitl
        · iexists fz6; iexact Hz6
        · iapply (reached_dma m K c _ _); iexact HR
      · isplitl
        · iexists fz7; iexact Hz7
        · iapply (reached_dma m K c _ _); iexact HR
    iapply (reached_bar m K (zn c)); iexact HR
  iintro HO
  iapply (step_signal m c (xn c) 1 (owedAfter c 1) (owedAfter c 2) W rfl (Topo.routes_tc _ _) (κ := K (xn c, 85))) $$ [HO Htx Hx0 Hx1 Hx2 Hx3 Hx4 Hx5 Hx6 Hx7]
  · isplitr; · iapply (inv_bar m K (xn c)); iexact HR
    isplitl [HO]; · iexact HO
    isplitl [Htx]; · iexact Htx
    isplitl [Hx0 Hx1 Hx2 Hx3 Hx4 Hx5 Hx6 Hx7]
    · rw [bpay_to_x, bigSep_fin8]
      isplitl [Hx0]
      · isplitl
        · iexists fx0; iexact Hx0
        · iapply (reached_dma m K c _ _); iexact HR
      isplitl [Hx1]
      · isplitl
        · iexists fx1; iexact Hx1
        · iapply (reached_dma m K c _ _); iexact HR
      isplitl [Hx2]
      · isplitl
        · iexists fx2; iexact Hx2
        · iapply (reached_dma m K c _ _); iexact HR
      isplitl [Hx3]
      · isplitl
        · iexists fx3; iexact Hx3
        · iapply (reached_dma m K c _ _); iexact HR
      isplitl [Hx4]
      · isplitl
        · iexists fx4; iexact Hx4
        · iapply (reached_dma m K c _ _); iexact HR
      isplitl [Hx5]
      · isplitl
        · iexists fx5; iexact Hx5
        · iapply (reached_dma m K c _ _); iexact HR
      isplitl [Hx6]
      · isplitl
        · iexists fx6; iexact Hx6
        · iapply (reached_dma m K c _ _); iexact HR
      · isplitl
        · iexists fx7; iexact Hx7
        · iapply (reached_dma m K c _ _); iexact HR
    iapply (reached_bar m K (xn c)); iexact HR
  iintro HO
  iapply (step_signal m c (yn c) 2 (owedAfter c 2) (owedAfter c 3) W rfl (Topo.routes_tc _ _) (κ := K (yn c, 85))) $$ [HO Hty Hy0 Hy1 Hy2 Hy3 Hy4 Hy5 Hy6 Hy7]
  · isplitr; · iapply (inv_bar m K (yn c)); iexact HR
    isplitl [HO]; · iexact HO
    isplitl [Hty]; · iexact Hty
    isplitl [Hy0 Hy1 Hy2 Hy3 Hy4 Hy5 Hy6 Hy7]
    · rw [bpay_to_y, bigSep_fin8]
      isplitl [Hy0]
      · isplitl
        · iexists fy0; iexact Hy0
        · iapply (reached_dma m K c _ _); iexact HR
      isplitl [Hy1]
      · isplitl
        · iexists fy1; iexact Hy1
        · iapply (reached_dma m K c _ _); iexact HR
      isplitl [Hy2]
      · isplitl
        · iexists fy2; iexact Hy2
        · iapply (reached_dma m K c _ _); iexact HR
      isplitl [Hy3]
      · isplitl
        · iexists fy3; iexact Hy3
        · iapply (reached_dma m K c _ _); iexact HR
      isplitl [Hy4]
      · isplitl
        · iexists fy4; iexact Hy4
        · iapply (reached_dma m K c _ _); iexact HR
      isplitl [Hy5]
      · isplitl
        · iexists fy5; iexact Hy5
        · iapply (reached_dma m K c _ _); iexact HR
      isplitl [Hy6]
      · isplitl
        · iexists fy6; iexact Hy6
        · iapply (reached_dma m K c _ _); iexact HR
      · isplitl
        · iexists fy7; iexact Hy7
        · iapply (reached_dma m K c _ _); iexact HR
    iapply (reached_bar m K (yn c)); iexact HR
  iintro HO
  iapply (step_barwait m c (owedAfter c 3) W (κ := K (c, 85))) $$ [Hcb HO Hab]
  · isplitr; · iapply (inv_bar m K c); iexact HR
    isplitl [Hcb]; · iexact Hcb
    isplitl [HO]; · iexact HO
    isplitr [Hab]; · iapply (mayWait_after c (.reg barS) 3 (pa_lv_bar c)); iexact HL
    iexact Hab
  rw [bpay_from_z, bpay_from_x, bpay_from_y, bigSep_fin8, bigSep_fin8, bigSep_fin8]
  iintro ⟨HO, Hab, -, ⟨⟨Hnz0, -⟩, ⟨Hnz1, -⟩, ⟨Hnz2, -⟩, ⟨Hnz3, -⟩, ⟨Hnz4, -⟩, ⟨Hnz5, -⟩, ⟨Hnz6, -⟩, ⟨Hnz7, -⟩⟩, ⟨⟨Hnx0, -⟩, ⟨Hnx1, -⟩, ⟨Hnx2, -⟩, ⟨Hnx3, -⟩, ⟨Hnx4, -⟩, ⟨Hnx5, -⟩, ⟨Hnx6, -⟩, ⟨Hnx7, -⟩⟩, ⟨⟨Hny0, -⟩, ⟨Hny1, -⟩, ⟨Hny2, -⟩, ⟨Hny3, -⟩, ⟨Hny4, -⟩, ⟨Hny5, -⟩, ⟨Hny6, -⟩, ⟨Hny7, -⟩⟩⟩
  rw [wp_ret]; imodintro
  isplitl [Hc10]; · iexact Hc10
  isplitl [Hc11]; · iexact Hc11
  isplitl [HO]; · iexists _; iexact HO
  isplitl [Hab]; · iexact Hab
  isplitl [Hnz0]; · iexact Hnz0
  isplitl [Hnz1]; · iexact Hnz1
  isplitl [Hnz2]; · iexact Hnz2
  isplitl [Hnz3]; · iexact Hnz3
  isplitl [Hnz4]; · iexact Hnz4
  isplitl [Hnz5]; · iexact Hnz5
  isplitl [Hnz6]; · iexact Hnz6
  isplitl [Hnz7]; · iexact Hnz7
  isplitl [Hnx0]; · iexact Hnx0
  isplitl [Hnx1]; · iexact Hnx1
  isplitl [Hnx2]; · iexact Hnx2
  isplitl [Hnx3]; · iexact Hnx3
  isplitl [Hnx4]; · iexact Hnx4
  isplitl [Hnx5]; · iexact Hnx5
  isplitl [Hnx6]; · iexact Hnx6
  isplitl [Hnx7]; · iexact Hnx7
  isplitl [Hny0]; · iexact Hny0
  isplitl [Hny1]; · iexact Hny1
  isplitl [Hny2]; · iexact Hny2
  isplitl [Hny3]; · iexact Hny3
  isplitl [Hny4]; · iexact Hny4
  isplitl [Hny5]; · iexact Hny5
  isplitl [Hny6]; · iexact Hny6
  iexact Hny7

set_option maxRecDepth 65536 in
set_option maxHeartbeats 4000000 in
/-- Part 5: own chunk 0: the wait for its input copy, its conversion into the conversion buffer, its transfer to the z-neighbour. -/
theorem part_5 (c : Dev nD) (K : Dev nD × Fin 86 → ℕ) (v2 v5 v9 v28 v36 v41 v46 c112_i32_77 : BitVec 32) (W : Waits sig Unit) (fm0 : Buf (Elt F) ((sl MI (ownOff c 0) (ownLen 0) (own_inb c 0)).view.loc (c : Thread nD τ))) (fn0 : Buf (Elt F) ((sl CM (ownOff c 0) (ownLen 0) (own_inb c 0)).view.loc (zn c : Thread nD τ))) :
    iprop(records m K ∗ levAts L lv
        ∗ cred (tallyAt (dcell c 0 (by decide)) () (damt 0))
        ∗ owes (c : Thread nD τ) (owedAfter c 3) W
        ∗ atPos ER (dcell c 0 (by decide)) 0 ∅ 0
        ∗ pts c MI (ownOff c 0) (ownLen 0) (own_inb c 0) fullShare fm0
        ∗ pts (zn c) CM (ownOff c 0) (ownLen 0) (own_inb c 0) fullShare fn0
        ∗ dutyTok ER (dcell c 12 (by decide)) 0 0
        ∗ dutyTok ER (dcell (zn c) 20 (by decide)) 0 0)
      ⊢ wp frame (wpE (defs₀ (F := F)) 𝒱₀ (c : Thread nD τ) none) Set.univ
          (k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v28 v36 v41 v46 c112_i32_77)
          (fun r => iprop((∃ W', owes (c : Thread nD τ) (owedAfter c 4) W')
            ∗ atPos ER (dcell c 0 (by decide)) 1 ∅ 0
            ∗ pts c ST (inOff c 0) (inLen 0) (in_inb c 0) fullShare (X m c)
            ∗ pts c XA (inOff c 0) (inLen 0) (in_inb c 0) fullShare (X m c)
            ∗ pts c MI (ownOff c 0) (ownLen 0) (own_inb c 0) sR (mineV m c)
            ∗ cred (tallyAt (dcell c 12 (by decide)) () (damt 12)))) := by
  simp only [k0_part5_eq_skeleton]; unfold k0_part5_skel
  simp only [Prog.lift, Prog.bind_op, Prog.bind_ret, Prog.pure_eq_ret, Prog.bind_assoc]
  iintro ⟨#HR, #HL, Hc0, HO, Hap0, Hmi0, Hn0, Hts0, Htr0⟩
  iapply (step_wait' m c 0 (by decide) _ rfl (owedAfter c 3) _ ((credit_rect ST 112 _ _ _ 0 (by decide)).trans (credit_in 0 0 (by decide))) (κ := K (c, ⟨0, by omega⟩))) $$ [Hc0 HO Hap0]
  · isplitr; · iapply (inv_dma m K c 0 _); iexact HR
    isplitl [Hc0]; · iexact Hc0
    isplitl [HO]; · iexact HO
    isplitr [Hap0]; · iapply (mayWait_after c (.dma ⟨0, _⟩) 3 (pa_lv_in 0 c)); iexact HL
    iexact Hap0
  iintro ⟨HO, Hap0, -, Hp⟩
  ihave Hp := (pa_wait_in m c 0 0 rfl) $$ Hp
  icases Hp with ⟨Hst0, Hxa0⟩
  iapply (pa_load c ST (inOff c 0) (inLen 0) (in_inb c 0) fullShare (X m c) (k0_off13 c) ((off13_eq c).trans (by rfl))) $$ Hst0
  iintro Hst0
  iapply (pa_load c MI (ownOff c 0) (ownLen 0) (own_inb c 0) fullShare fm0 (k0_off13 c) ((off13_eq c).trans (by rfl))) $$ Hmi0
  iintro Hmi0
  iapply (pa_store c MI (ownOff c 0) (ownLen 0) (own_inb c 0) fm0 (k0_pay1 (fun y => ST.view.read (Elt F) (X m c) (up (inOff c 0) (in_inb c 0) y))) (k0_off13 c) ((off13_eq c).trans (by rfl))) $$ Hmi0
  iintro Hmi0
  ihave Hmi0 := (Entails.of_eq (pa_stored_mine m c (ownOff c 0) (ownLen 0) (own_inb c 0) fm0 (k0_pay1 (fun y => ST.view.read (Elt F) (X m c) (up (inOff c 0) (in_inb c 0) y))) (fun x => by simp only [k0_pay1, shapeCast_self]; rfl))) $$ Hmi0
  ihave Hmi0 := (pa_halves c MI (ownOff c 0) (ownLen 0) (own_inb c 0) fullShare (mineV m c)) $$ Hmi0
  icases Hmi0 with ⟨HmL0, HmR0⟩
  iapply (step_send' m c (zn c) MI CM (ownOff c 0) (ownOff c 0) (ownLen 0) (own_inb c 0) (own_inb c 0) 12 20 (by decide) (by decide) sL (mineV m c) fn0
      (k0_off1 c) (k0_off1 c) ((off1_eq c).trans (by rfl)) ((off1_eq c).trans (by rfl)) _ _ rfl rfl _ (dev4_eq c)
      (owedAfter c 3) (owedAfter c 4) _ rfl (credit_zr (ownOff c 0) 0 (own_inb c 0)) (pa_damt_z 0) (pay_zs m c 0) (pay_zr m c 0 fn0)
      (κ₁ := K (c, ⟨12, by omega⟩)) (κ₂ := K (zn c, ⟨20, by omega⟩))) $$ [HmL0 Hn0 HO Hts0 Htr0]
  · isplitr; · iapply (inv_dma m K c 12 _); iexact HR
    isplitr; · iapply (inv_dma m K (zn c) 20 _); iexact HR
    isplitl [HmL0]; · iexact HmL0
    isplitl [Hn0]; · iexact Hn0
    isplitl [HO]; · iexact HO
    isplitl [Hts0]; · iexact Hts0
    isplitr; · iapply (reached_dma m K c 12 _); iexact HR
    isplitl [Htr0]; · iexact Htr0
    iapply (reached_dma m K (zn c) 20 _); iexact HR
  iintro ⟨Hcs0, HO⟩
  ihave Hcs0 := (pa_cred_z c 0 12 20 rfl rfl _) $$ Hcs0
  rw [wp_ret]; imodintro
  isplitl [HO]; · iexists _; iexact HO
  isplitl [Hap0]; · iexact Hap0
  isplitl [Hst0]; · iexact Hst0
  isplitl [Hxa0]; · iexact Hxa0
  isplitl [HmR0]; · iexact HmR0
  iexact Hcs0

set_option maxRecDepth 65536 in
set_option maxHeartbeats 4000000 in
/-- Part 6: own chunk 1 whole; own chunk 2 up to its conversion. -/
theorem part_6 (c : Dev nD) (K : Dev nD × Fin 86 → ℕ) (v2 v5 v9 v47 v48 : BitVec 32) (W : Waits sig Unit) (fm1 : Buf (Elt F) ((sl MI (ownOff c 1) (ownLen 1) (own_inb c 1)).view.loc (c : Thread nD τ))) (fn1 : Buf (Elt F) ((sl CM (ownOff c 1) (ownLen 1) (own_inb c 1)).view.loc (zn c : Thread nD τ))) (fm2 : Buf (Elt F) ((sl MI (ownOff c 2) (ownLen 2) (own_inb c 2)).view.loc (c : Thread nD τ))) :
    iprop(records m K ∗ levAts L lv
        ∗ cred (tallyAt (dcell c 1 (by decide)) () (damt 1))
        ∗ owes (c : Thread nD τ) (owedAfter c 4) W
        ∗ atPos ER (dcell c 1 (by decide)) 0 ∅ 0
        ∗ pts c MI (ownOff c 1) (ownLen 1) (own_inb c 1) fullShare fm1
        ∗ pts (zn c) CM (ownOff c 1) (ownLen 1) (own_inb c 1) fullShare fn1
        ∗ dutyTok ER (dcell c 13 (by decide)) 0 0
        ∗ dutyTok ER (dcell (zn c) 21 (by decide)) 0 0
        ∗ cred (tallyAt (dcell c 2 (by decide)) () (damt 2))
        ∗ atPos ER (dcell c 2 (by decide)) 0 ∅ 0
        ∗ pts c MI (ownOff c 2) (ownLen 2) (own_inb c 2) fullShare fm2)
      ⊢ wp frame (wpE (defs₀ (F := F)) 𝒱₀ (c : Thread nD τ) none) Set.univ
          (k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v47 v48)
          (fun r => iprop((∃ W', owes (c : Thread nD τ) (owedAfter c 5) W')
            ∗ atPos ER (dcell c 1 (by decide)) 1 ∅ 0
            ∗ pts c ST (inOff c 1) (inLen 1) (in_inb c 1) fullShare (X m c)
            ∗ pts c XA (inOff c 1) (inLen 1) (in_inb c 1) fullShare (X m c)
            ∗ pts c MI (ownOff c 1) (ownLen 1) (own_inb c 1) sR (mineV m c)
            ∗ cred (tallyAt (dcell c 13 (by decide)) () (damt 13))
            ∗ atPos ER (dcell c 2 (by decide)) 1 ∅ 0
            ∗ pts c ST (inOff c 2) (inLen 2) (in_inb c 2) fullShare (X m c)
            ∗ pts c XA (inOff c 2) (inLen 2) (in_inb c 2) fullShare (X m c)
            ∗ pts c MI (ownOff c 2) (ownLen 2) (own_inb c 2) fullShare (mineV m c))) := by
  simp only [k0_part6_eq_skeleton]; unfold k0_part6_skel
  simp only [Prog.lift, Prog.bind_op, Prog.bind_ret, Prog.pure_eq_ret, Prog.bind_assoc]
  iintro ⟨#HR, #HL, Hc1, HO, Hap1, Hmi1, Hn1, Hts1, Htr1, Hc2, Hap2, Hmi2⟩
  iapply (step_wait' m c 1 (by decide) _ rfl (owedAfter c 4) _ ((credit_rect ST 224 _ _ _ 0 (by decide)).trans (credit_in 0 1 (by decide))) (κ := K (c, ⟨1, by omega⟩))) $$ [Hc1 HO Hap1]
  · isplitr; · iapply (inv_dma m K c 1 _); iexact HR
    isplitl [Hc1]; · iexact Hc1
    isplitl [HO]; · iexact HO
    isplitr [Hap1]; · iapply (mayWait_after c (.dma ⟨1, _⟩) 4 (pa_lv_in 1 c)); iexact HL
    iexact Hap1
  iintro ⟨HO, Hap1, -, Hp⟩
  ihave Hp := (pa_wait_in m c 1 1 rfl) $$ Hp
  icases Hp with ⟨Hst1, Hxa1⟩
  iapply (pa_load c ST (inOff c 1) (inLen 1) (in_inb c 1) fullShare (X m c) (k0_off14 c) ((off14_eq c).trans (by rfl))) $$ Hst1
  iintro Hst1
  iapply (pa_load c MI (ownOff c 1) (ownLen 1) (own_inb c 1) fullShare fm1 (k0_off14 c) ((off14_eq c).trans (by rfl))) $$ Hmi1
  iintro Hmi1
  iapply (pa_store c MI (ownOff c 1) (ownLen 1) (own_inb c 1) fm1 (k0_pay2 (fun y => ST.view.read (Elt F) (X m c) (up (inOff c 1) (in_inb c 1) y))) (k0_off14 c) ((off14_eq c).trans (by rfl))) $$ Hmi1
  iintro Hmi1
  ihave Hmi1 := (Entails.of_eq (pa_stored_mine m c (ownOff c 1) (ownLen 1) (own_inb c 1) fm1 (k0_pay2 (fun y => ST.view.read (Elt F) (X m c) (up (inOff c 1) (in_inb c 1) y))) (fun x => by simp only [k0_pay2, shapeCast_self]; rfl))) $$ Hmi1
  ihave Hmi1 := (pa_halves c MI (ownOff c 1) (ownLen 1) (own_inb c 1) fullShare (mineV m c)) $$ Hmi1
  icases Hmi1 with ⟨HmL1, HmR1⟩
  iapply (step_send' m c (zn c) MI CM (ownOff c 1) (ownOff c 1) (ownLen 1) (own_inb c 1) (own_inb c 1) 13 21 (by decide) (by decide) sL (mineV m c) fn1
      (k0_off2 c) (k0_off2 c) ((off2_eq c).trans (by rfl)) ((off2_eq c).trans (by rfl)) _ _ rfl rfl _ (dev5_eq c)
      (owedAfter c 4) (owedAfter c 5) _ rfl (credit_zr (ownOff c 1) 1 (own_inb c 1)) (pa_damt_z 1) (pay_zs m c 1) (pay_zr m c 1 fn1)
      (κ₁ := K (c, ⟨13, by omega⟩)) (κ₂ := K (zn c, ⟨21, by omega⟩))) $$ [HmL1 Hn1 HO Hts1 Htr1]
  · isplitr; · iapply (inv_dma m K c 13 _); iexact HR
    isplitr; · iapply (inv_dma m K (zn c) 21 _); iexact HR
    isplitl [HmL1]; · iexact HmL1
    isplitl [Hn1]; · iexact Hn1
    isplitl [HO]; · iexact HO
    isplitl [Hts1]; · iexact Hts1
    isplitr; · iapply (reached_dma m K c 13 _); iexact HR
    isplitl [Htr1]; · iexact Htr1
    iapply (reached_dma m K (zn c) 21 _); iexact HR
  iintro ⟨Hcs1, HO⟩
  ihave Hcs1 := (pa_cred_z c 1 13 21 rfl rfl _) $$ Hcs1
  iapply (step_wait' m c 2 (by decide) _ rfl (owedAfter c 5) _ ((credit_rect ST 168 _ _ _ 0 (by decide)).trans (credit_in 0 2 (by decide))) (κ := K (c, ⟨2, by omega⟩))) $$ [Hc2 HO Hap2]
  · isplitr; · iapply (inv_dma m K c 2 _); iexact HR
    isplitl [Hc2]; · iexact Hc2
    isplitl [HO]; · iexact HO
    isplitr [Hap2]; · iapply (mayWait_after c (.dma ⟨2, _⟩) 5 (pa_lv_in 2 c)); iexact HL
    iexact Hap2
  iintro ⟨HO, Hap2, -, Hp⟩
  ihave Hp := (pa_wait_in m c 2 2 rfl) $$ Hp
  icases Hp with ⟨Hst2, Hxa2⟩
  iapply (pa_load c ST (inOff c 2) (inLen 2) (in_inb c 2) fullShare (X m c) (k0_off15 c) ((off15_eq c).trans (by rfl))) $$ Hst2
  iintro Hst2
  iapply (pa_load c MI (ownOff c 2) (ownLen 2) (own_inb c 2) fullShare fm2 (k0_off15 c) ((off15_eq c).trans (by rfl))) $$ Hmi2
  iintro Hmi2
  iapply (pa_store c MI (ownOff c 2) (ownLen 2) (own_inb c 2) fm2 (k0_pay3 (fun y => ST.view.read (Elt F) (X m c) (up (inOff c 2) (in_inb c 2) y))) (k0_off15 c) ((off15_eq c).trans (by rfl))) $$ Hmi2
  iintro Hmi2
  ihave Hmi2 := (Entails.of_eq (pa_stored_mine m c (ownOff c 2) (ownLen 2) (own_inb c 2) fm2 (k0_pay3 (fun y => ST.view.read (Elt F) (X m c) (up (inOff c 2) (in_inb c 2) y))) (fun x => by simp only [k0_pay3, shapeCast_self]; rfl))) $$ Hmi2
  rw [wp_ret]; imodintro
  isplitl [HO]; · iexists _; iexact HO
  isplitl [Hap1]; · iexact Hap1
  isplitl [Hst1]; · iexact Hst1
  isplitl [Hxa1]; · iexact Hxa1
  isplitl [HmR1]; · iexact HmR1
  isplitl [Hcs1]; · iexact Hcs1
  isplitl [Hap2]; · iexact Hap2
  isplitl [Hst2]; · iexact Hst2
  isplitl [Hxa2]; · iexact Hxa2
  iexact Hmi2

set_option maxRecDepth 65536 in
set_option maxHeartbeats 4000000 in
/-- Part 7: the transfer of own chunk 2; own chunk 3 whole; the wait for the input copy of own chunk 4. -/
theorem part_7 (c : Dev nD) (K : Dev nD × Fin 86 → ℕ) (v2 v5 v9 v43 v49 v192 : BitVec 32) (W : Waits sig Unit) (fn2 : Buf (Elt F) ((sl CM (ownOff c 2) (ownLen 2) (own_inb c 2)).view.loc (zn c : Thread nD τ))) (fm3 : Buf (Elt F) ((sl MI (ownOff c 3) (ownLen 3) (own_inb c 3)).view.loc (c : Thread nD τ))) (fn3 : Buf (Elt F) ((sl CM (ownOff c 3) (ownLen 3) (own_inb c 3)).view.loc (zn c : Thread nD τ))) :
    iprop(records m K ∗ levAts L lv
        ∗ pts c MI (ownOff c 2) (ownLen 2) (own_inb c 2) fullShare (mineV m c)
        ∗ pts (zn c) CM (ownOff c 2) (ownLen 2) (own_inb c 2) fullShare fn2
        ∗ owes (c : Thread nD τ) (owedAfter c 5) W
        ∗ dutyTok ER (dcell c 14 (by decide)) 0 0
        ∗ dutyTok ER (dcell (zn c) 22 (by decide)) 0 0
        ∗ cred (tallyAt (dcell c 3 (by decide)) () (damt 3))
        ∗ atPos ER (dcell c 3 (by decide)) 0 ∅ 0
        ∗ pts c MI (ownOff c 3) (ownLen 3) (own_inb c 3) fullShare fm3
        ∗ pts (zn c) CM (ownOff c 3) (ownLen 3) (own_inb c 3) fullShare fn3
        ∗ dutyTok ER (dcell c 15 (by decide)) 0 0
        ∗ dutyTok ER (dcell (zn c) 23 (by decide)) 0 0
        ∗ cred (tallyAt (dcell c 4 (by decide)) () (damt 4))
        ∗ atPos ER (dcell c 4 (by decide)) 0 ∅ 0)
      ⊢ wp frame (wpE (defs₀ (F := F)) 𝒱₀ (c : Thread nD τ) none) Set.univ
          (k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v43 v49 v192)
          (fun r => iprop((∃ W', owes (c : Thread nD τ) (owedAfter c 7) W')
            ∗ pts c MI (ownOff c 2) (ownLen 2) (own_inb c 2) sR (mineV m c)
            ∗ cred (tallyAt (dcell c 14 (by decide)) () (damt 14))
            ∗ atPos ER (dcell c 3 (by decide)) 1 ∅ 0
            ∗ pts c ST (inOff c 3) (inLen 3) (in_inb c 3) fullShare (X m c)
            ∗ pts c XA (inOff c 3) (inLen 3) (in_inb c 3) fullShare (X m c)
            ∗ pts c MI (ownOff c 3) (ownLen 3) (own_inb c 3) sR (mineV m c)
            ∗ cred (tallyAt (dcell c 15 (by decide)) () (damt 15))
            ∗ atPos ER (dcell c 4 (by decide)) 1 ∅ 0
            ∗ pts c ST (inOff c 4) (inLen 4) (in_inb c 4) fullShare (X m c)
            ∗ pts c XA (inOff c 4) (inLen 4) (in_inb c 4) fullShare (X m c))) := by
  simp only [k0_part7_eq_skeleton]; unfold k0_part7_skel
  simp only [Prog.lift, Prog.bind_op, Prog.bind_ret, Prog.pure_eq_ret, Prog.bind_assoc]
  iintro ⟨#HR, #HL, Hmi2, Hn2, HO, Hts2, Htr2, Hc3, Hap3, Hmi3, Hn3, Hts3, Htr3, Hc4, Hap4⟩
  ihave Hmi2 := (pa_halves c MI (ownOff c 2) (ownLen 2) (own_inb c 2) fullShare (mineV m c)) $$ Hmi2
  icases Hmi2 with ⟨HmL2, HmR2⟩
  iapply (step_send' m c (zn c) MI CM (ownOff c 2) (ownOff c 2) (ownLen 2) (own_inb c 2) (own_inb c 2) 14 22 (by decide) (by decide) sL (mineV m c) fn2
      (k0_off3 c) (k0_off3 c) ((off3_eq c).trans (by rfl)) ((off3_eq c).trans (by rfl)) _ _ rfl rfl _ (dev6_eq c)
      (owedAfter c 5) (owedAfter c 6) _ rfl (credit_zr (ownOff c 2) 2 (own_inb c 2)) (pa_damt_z 2) (pay_zs m c 2) (pay_zr m c 2 fn2)
      (κ₁ := K (c, ⟨14, by omega⟩)) (κ₂ := K (zn c, ⟨22, by omega⟩))) $$ [HmL2 Hn2 HO Hts2 Htr2]
  · isplitr; · iapply (inv_dma m K c 14 _); iexact HR
    isplitr; · iapply (inv_dma m K (zn c) 22 _); iexact HR
    isplitl [HmL2]; · iexact HmL2
    isplitl [Hn2]; · iexact Hn2
    isplitl [HO]; · iexact HO
    isplitl [Hts2]; · iexact Hts2
    isplitr; · iapply (reached_dma m K c 14 _); iexact HR
    isplitl [Htr2]; · iexact Htr2
    iapply (reached_dma m K (zn c) 22 _); iexact HR
  iintro ⟨Hcs2, HO⟩
  ihave Hcs2 := (pa_cred_z c 2 14 22 rfl rfl _) $$ Hcs2
  iapply (step_wait' m c 3 (by decide) _ rfl (owedAfter c 6) _ ((credit_rect ST 168 _ _ _ 0 (by decide)).trans (credit_in 0 3 (by decide))) (κ := K (c, ⟨3, by omega⟩))) $$ [Hc3 HO Hap3]
  · isplitr; · iapply (inv_dma m K c 3 _); iexact HR
    isplitl [Hc3]; · iexact Hc3
    isplitl [HO]; · iexact HO
    isplitr [Hap3]; · iapply (mayWait_after c (.dma ⟨3, _⟩) 6 (pa_lv_in 3 c)); iexact HL
    iexact Hap3
  iintro ⟨HO, Hap3, -, Hp⟩
  ihave Hp := (pa_wait_in m c 3 3 rfl) $$ Hp
  icases Hp with ⟨Hst3, Hxa3⟩
  iapply (pa_load c ST (inOff c 3) (inLen 3) (in_inb c 3) fullShare (X m c) (k0_off16 c) ((off16_eq c).trans (by rfl))) $$ Hst3
  iintro Hst3
  iapply (pa_load c MI (ownOff c 3) (ownLen 3) (own_inb c 3) fullShare fm3 (k0_off16 c) ((off16_eq c).trans (by rfl))) $$ Hmi3
  iintro Hmi3
  iapply (pa_store c MI (ownOff c 3) (ownLen 3) (own_inb c 3) fm3 (k0_pay4 (fun y => ST.view.read (Elt F) (X m c) (up (inOff c 3) (in_inb c 3) y))) (k0_off16 c) ((off16_eq c).trans (by rfl))) $$ Hmi3
  iintro Hmi3
  ihave Hmi3 := (Entails.of_eq (pa_stored_mine m c (ownOff c 3) (ownLen 3) (own_inb c 3) fm3 (k0_pay4 (fun y => ST.view.read (Elt F) (X m c) (up (inOff c 3) (in_inb c 3) y))) (fun x => by simp only [k0_pay4, shapeCast_self]; rfl))) $$ Hmi3
  ihave Hmi3 := (pa_halves c MI (ownOff c 3) (ownLen 3) (own_inb c 3) fullShare (mineV m c)) $$ Hmi3
  icases Hmi3 with ⟨HmL3, HmR3⟩
  iapply (step_send' m c (zn c) MI CM (ownOff c 3) (ownOff c 3) (ownLen 3) (own_inb c 3) (own_inb c 3) 15 23 (by decide) (by decide) sL (mineV m c) fn3
      (k0_off4 c) (k0_off4 c) ((off4_eq c).trans (by rfl)) ((off4_eq c).trans (by rfl)) _ _ rfl rfl _ (dev7_eq c)
      (owedAfter c 6) (owedAfter c 7) _ rfl (credit_zr (ownOff c 3) 3 (own_inb c 3)) (pa_damt_z 3) (pay_zs m c 3) (pay_zr m c 3 fn3)
      (κ₁ := K (c, ⟨15, by omega⟩)) (κ₂ := K (zn c, ⟨23, by omega⟩))) $$ [HmL3 Hn3 HO Hts3 Htr3]
  · isplitr; · iapply (inv_dma m K c 15 _); iexact HR
    isplitr; · iapply (inv_dma m K (zn c) 23 _); iexact HR
    isplitl [HmL3]; · iexact HmL3
    isplitl [Hn3]; · iexact Hn3
    isplitl [HO]; · iexact HO
    isplitl [Hts3]; · iexact Hts3
    isplitr; · iapply (reached_dma m K c 15 _); iexact HR
    isplitl [Htr3]; · iexact Htr3
    iapply (reached_dma m K (zn c) 23 _); iexact HR
  iintro ⟨Hcs3, HO⟩
  ihave Hcs3 := (pa_cred_z c 3 15 23 rfl rfl _) $$ Hcs3
  iapply (step_wait' m c 4 (by decide) _ rfl (owedAfter c 7) _ ((credit_rect ST 176 _ _ _ 0 (by decide)).trans (credit_in 0 4 (by decide))) (κ := K (c, ⟨4, by omega⟩))) $$ [Hc4 HO Hap4]
  · isplitr; · iapply (inv_dma m K c 4 _); iexact HR
    isplitl [Hc4]; · iexact Hc4
    isplitl [HO]; · iexact HO
    isplitr [Hap4]; · iapply (mayWait_after c (.dma ⟨4, _⟩) 7 (pa_lv_in 4 c)); iexact HL
    iexact Hap4
  iintro ⟨HO, Hap4, -, Hp⟩
  ihave Hp := (pa_wait_in m c 4 4 rfl) $$ Hp
  icases Hp with ⟨Hst4, Hxa4⟩
  rw [wp_ret]; imodintro
  isplitl [HO]; · iexists _; iexact HO
  isplitl [HmR2]; · iexact HmR2
  isplitl [Hcs2]; · iexact Hcs2
  isplitl [Hap3]; · iexact Hap3
  isplitl [Hst3]; · iexact Hst3
  isplitl [Hxa3]; · iexact Hxa3
  isplitl [HmR3]; · iexact HmR3
  isplitl [Hcs3]; · iexact Hcs3
  isplitl [Hap4]; · iexact Hap4
  isplitl [Hst4]; · iexact Hst4
  iexact Hxa4

set_option maxRecDepth 65536 in
set_option maxHeartbeats 4000000 in
/-- Part 8: the conversion and the transfer of own chunk 4; own chunk 5 up to its conversion. -/
theorem part_8 (c : Dev nD) (K : Dev nD × Fin 86 → ℕ) (v2 v5 v9 v43 v50 : BitVec 32) (W : Waits sig Unit) (fm4 : Buf (Elt F) ((sl MI (ownOff c 4) (ownLen 4) (own_inb c 4)).view.loc (c : Thread nD τ))) (fn4 : Buf (Elt F) ((sl CM (ownOff c 4) (ownLen 4) (own_inb c 4)).view.loc (zn c : Thread nD τ))) (fm5 : Buf (Elt F) ((sl MI (ownOff c 5) (ownLen 5) (own_inb c 5)).view.loc (c : Thread nD τ))) :
    iprop(records m K ∗ levAts L lv
        ∗ pts c ST (inOff c 4) (inLen 4) (in_inb c 4) fullShare (X m c)
        ∗ pts c MI (ownOff c 4) (ownLen 4) (own_inb c 4) fullShare fm4
        ∗ pts (zn c) CM (ownOff c 4) (ownLen 4) (own_inb c 4) fullShare fn4
        ∗ owes (c : Thread nD τ) (owedAfter c 7) W
        ∗ dutyTok ER (dcell c 16 (by decide)) 0 0
        ∗ dutyTok ER (dcell (zn c) 24 (by decide)) 0 0
        ∗ cred (tallyAt (dcell c 5 (by decide)) () (damt 5))
        ∗ atPos ER (dcell c 5 (by decide)) 0 ∅ 0
        ∗ pts c MI (ownOff c 5) (ownLen 5) (own_inb c 5) fullShare fm5)
      ⊢ wp frame (wpE (defs₀ (F := F)) 𝒱₀ (c : Thread nD τ) none) Set.univ
          (k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v43 v50)
          (fun r => iprop((∃ W', owes (c : Thread nD τ) (owedAfter c 8) W')
            ∗ pts c ST (inOff c 4) (inLen 4) (in_inb c 4) fullShare (X m c)
            ∗ pts c MI (ownOff c 4) (ownLen 4) (own_inb c 4) sR (mineV m c)
            ∗ cred (tallyAt (dcell c 16 (by decide)) () (damt 16))
            ∗ atPos ER (dcell c 5 (by decide)) 1 ∅ 0
            ∗ pts c ST (inOff c 5) (inLen 5) (in_inb c 5) fullShare (X m c)
            ∗ pts c XA (inOff c 5) (inLen 5) (in_inb c 5) fullShare (X m c)
            ∗ pts c MI (ownOff c 5) (ownLen 5) (own_inb c 5) fullShare (mineV m c))) := by
  simp only [k0_part8_eq_skeleton]; unfold k0_part8_skel
  simp only [Prog.lift, Prog.bind_op, Prog.bind_ret, Prog.pure_eq_ret, Prog.bind_assoc]
  iintro ⟨#HR, #HL, Hst4, Hmi4, Hn4, HO, Hts4, Htr4, Hc5, Hap5, Hmi5⟩
  iapply (pa_load c ST (inOff c 4) (inLen 4) (in_inb c 4) fullShare (X m c) (k0_off17 c) ((off17_eq c).trans (by rfl))) $$ Hst4
  iintro Hst4
  iapply (pa_load c MI (ownOff c 4) (ownLen 4) (own_inb c 4) fullShare fm4 (k0_off17 c) ((off17_eq c).trans (by rfl))) $$ Hmi4
  iintro Hmi4
  iapply (pa_store c MI (ownOff c 4) (ownLen 4) (own_inb c 4) fm4 (k0_pay5 (fun y => ST.view.read (Elt F) (X m c) (up (inOff c 4) (in_inb c 4) y))) (k0_off17 c) ((off17_eq c).trans (by rfl))) $$ Hmi4
  iintro Hmi4
  ihave Hmi4 := (Entails.of_eq (pa_stored_mine m c (ownOff c 4) (ownLen 4) (own_inb c 4) fm4 (k0_pay5 (fun y => ST.view.read (Elt F) (X m c) (up (inOff c 4) (in_inb c 4) y))) (fun x => by simp only [k0_pay5, shapeCast_self]; rfl))) $$ Hmi4
  ihave Hmi4 := (pa_halves c MI (ownOff c 4) (ownLen 4) (own_inb c 4) fullShare (mineV m c)) $$ Hmi4
  icases Hmi4 with ⟨HmL4, HmR4⟩
  iapply (step_send' m c (zn c) MI CM (ownOff c 4) (ownOff c 4) (ownLen 4) (own_inb c 4) (own_inb c 4) 16 24 (by decide) (by decide) sL (mineV m c) fn4
      (k0_off5 c) (k0_off5 c) ((off5_eq c).trans (by rfl)) ((off5_eq c).trans (by rfl)) _ _ rfl rfl _ (dev8_eq c)
      (owedAfter c 7) (owedAfter c 8) _ rfl (credit_zr (ownOff c 4) 4 (own_inb c 4)) (pa_damt_z 4) (pay_zs m c 4) (pay_zr m c 4 fn4)
      (κ₁ := K (c, ⟨16, by omega⟩)) (κ₂ := K (zn c, ⟨24, by omega⟩))) $$ [HmL4 Hn4 HO Hts4 Htr4]
  · isplitr; · iapply (inv_dma m K c 16 _); iexact HR
    isplitr; · iapply (inv_dma m K (zn c) 24 _); iexact HR
    isplitl [HmL4]; · iexact HmL4
    isplitl [Hn4]; · iexact Hn4
    isplitl [HO]; · iexact HO
    isplitl [Hts4]; · iexact Hts4
    isplitr; · iapply (reached_dma m K c 16 _); iexact HR
    isplitl [Htr4]; · iexact Htr4
    iapply (reached_dma m K (zn c) 24 _); iexact HR
  iintro ⟨Hcs4, HO⟩
  ihave Hcs4 := (pa_cred_z c 4 16 24 rfl rfl _) $$ Hcs4
  iapply (step_wait' m c 5 (by decide) _ rfl (owedAfter c 8) _ ((credit_rect ST 176 _ _ _ 0 (by decide)).trans (credit_in 0 5 (by decide))) (κ := K (c, ⟨5, by omega⟩))) $$ [Hc5 HO Hap5]
  · isplitr; · iapply (inv_dma m K c 5 _); iexact HR
    isplitl [Hc5]; · iexact Hc5
    isplitl [HO]; · iexact HO
    isplitr [Hap5]; · iapply (mayWait_after c (.dma ⟨5, _⟩) 8 (pa_lv_in 5 c)); iexact HL
    iexact Hap5
  iintro ⟨HO, Hap5, -, Hp⟩
  ihave Hp := (pa_wait_in m c 5 5 rfl) $$ Hp
  icases Hp with ⟨Hst5, Hxa5⟩
  iapply (pa_load c ST (inOff c 5) (inLen 5) (in_inb c 5) fullShare (X m c) (k0_off18 c) ((off18_eq c).trans (by rfl))) $$ Hst5
  iintro Hst5
  iapply (pa_load c MI (ownOff c 5) (ownLen 5) (own_inb c 5) fullShare fm5 (k0_off18 c) ((off18_eq c).trans (by rfl))) $$ Hmi5
  iintro Hmi5
  iapply (pa_store c MI (ownOff c 5) (ownLen 5) (own_inb c 5) fm5 (k0_pay6 (fun y => ST.view.read (Elt F) (X m c) (up (inOff c 5) (in_inb c 5) y))) (k0_off18 c) ((off18_eq c).trans (by rfl))) $$ Hmi5
  iintro Hmi5
  ihave Hmi5 := (Entails.of_eq (pa_stored_mine m c (ownOff c 5) (ownLen 5) (own_inb c 5) fm5 (k0_pay6 (fun y => ST.view.read (Elt F) (X m c) (up (inOff c 5) (in_inb c 5) y))) (fun x => by simp only [k0_pay6, shapeCast_self]; rfl))) $$ Hmi5
  rw [wp_ret]; imodintro
  isplitl [HO]; · iexists _; iexact HO
  isplitl [Hst4]; · iexact Hst4
  isplitl [HmR4]; · iexact HmR4
  isplitl [Hcs4]; · iexact Hcs4
  isplitl [Hap5]; · iexact Hap5
  isplitl [Hst5]; · iexact Hst5
  isplitl [Hxa5]; · iexact Hxa5
  iexact Hmi5

set_option maxRecDepth 65536 in
set_option maxHeartbeats 4000000 in
/-- Part 9: the transfer of own chunk 5; own chunk 6 whole; own chunk 7 up to the load of its staged rows, whose conversion is handed on. -/
theorem part_9 (c : Dev nD) (K : Dev nD × Fin 86 → ℕ) (v2 v5 v9 v51 v52 : BitVec 32) (W : Waits sig Unit) (fn5 : Buf (Elt F) ((sl CM (ownOff c 5) (ownLen 5) (own_inb c 5)).view.loc (zn c : Thread nD τ))) (fm6 : Buf (Elt F) ((sl MI (ownOff c 6) (ownLen 6) (own_inb c 6)).view.loc (c : Thread nD τ))) (fn6 : Buf (Elt F) ((sl CM (ownOff c 6) (ownLen 6) (own_inb c 6)).view.loc (zn c : Thread nD τ))) :
    iprop(records m K ∗ levAts L lv
        ∗ pts c MI (ownOff c 5) (ownLen 5) (own_inb c 5) fullShare (mineV m c)
        ∗ pts (zn c) CM (ownOff c 5) (ownLen 5) (own_inb c 5) fullShare fn5
        ∗ owes (c : Thread nD τ) (owedAfter c 8) W
        ∗ dutyTok ER (dcell c 17 (by decide)) 0 0
        ∗ dutyTok ER (dcell (zn c) 25 (by decide)) 0 0
        ∗ cred (tallyAt (dcell c 6 (by decide)) () (damt 6))
        ∗ atPos ER (dcell c 6 (by decide)) 0 ∅ 0
        ∗ pts c MI (ownOff c 6) (ownLen 6) (own_inb c 6) fullShare fm6
        ∗ pts (zn c) CM (ownOff c 6) (ownLen 6) (own_inb c 6) fullShare fn6
        ∗ dutyTok ER (dcell c 18 (by decide)) 0 0
        ∗ dutyTok ER (dcell (zn c) 26 (by decide)) 0 0
        ∗ cred (tallyAt (dcell c 7 (by decide)) () (damt 7))
        ∗ atPos ER (dcell c 7 (by decide)) 0 ∅ 0)
      ⊢ wp frame (wpE (defs₀ (F := F)) 𝒱₀ (c : Thread nD τ) none) Set.univ
          (k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v51 v52)
          (fun r => iprop(⌜∀ y, r y = FloatOps.truncf .bf16 (by decide) (X m c (up (ownOff c 7) (own_inb c 7) y))⌝
            ∗ (∃ W', owes (c : Thread nD τ) (owedAfter c 10) W')
            ∗ pts c MI (ownOff c 5) (ownLen 5) (own_inb c 5) sR (mineV m c)
            ∗ cred (tallyAt (dcell c 17 (by decide)) () (damt 17))
            ∗ atPos ER (dcell c 6 (by decide)) 1 ∅ 0
            ∗ pts c ST (inOff c 6) (inLen 6) (in_inb c 6) fullShare (X m c)
            ∗ pts c XA (inOff c 6) (inLen 6) (in_inb c 6) fullShare (X m c)
            ∗ pts c MI (ownOff c 6) (ownLen 6) (own_inb c 6) sR (mineV m c)
            ∗ cred (tallyAt (dcell c 18 (by decide)) () (damt 18))
            ∗ atPos ER (dcell c 7 (by decide)) 1 ∅ 0
            ∗ pts c ST (inOff c 7) (inLen 7) (in_inb c 7) fullShare (X m c)
            ∗ pts c XA (inOff c 7) (inLen 7) (in_inb c 7) fullShare (X m c))) := by
  simp only [k0_part9_eq_skeleton]; unfold k0_part9_skel
  simp only [Prog.lift, Prog.bind_op, Prog.bind_ret, Prog.pure_eq_ret, Prog.bind_assoc]
  iintro ⟨#HR, #HL, Hmi5, Hn5, HO, Hts5, Htr5, Hc6, Hap6, Hmi6, Hn6, Hts6, Htr6, Hc7, Hap7⟩
  ihave Hmi5 := (pa_halves c MI (ownOff c 5) (ownLen 5) (own_inb c 5) fullShare (mineV m c)) $$ Hmi5
  icases Hmi5 with ⟨HmL5, HmR5⟩
  iapply (step_send' m c (zn c) MI CM (ownOff c 5) (ownOff c 5) (ownLen 5) (own_inb c 5) (own_inb c 5) 17 25 (by decide) (by decide) sL (mineV m c) fn5
      (k0_off6 c) (k0_off6 c) ((off6_eq c).trans (by rfl)) ((off6_eq c).trans (by rfl)) _ _ rfl rfl _ (dev9_eq c)
      (owedAfter c 8) (owedAfter c 9) _ rfl (credit_zr (ownOff c 5) 5 (own_inb c 5)) (pa_damt_z 5) (pay_zs m c 5) (pay_zr m c 5 fn5)
      (κ₁ := K (c, ⟨17, by omega⟩)) (κ₂ := K (zn c, ⟨25, by omega⟩))) $$ [HmL5 Hn5 HO Hts5 Htr5]
  · isplitr; · iapply (inv_dma m K c 17 _); iexact HR
    isplitr; · iapply (inv_dma m K (zn c) 25 _); iexact HR
    isplitl [HmL5]; · iexact HmL5
    isplitl [Hn5]; · iexact Hn5
    isplitl [HO]; · iexact HO
    isplitl [Hts5]; · iexact Hts5
    isplitr; · iapply (reached_dma m K c 17 _); iexact HR
    isplitl [Htr5]; · iexact Htr5
    iapply (reached_dma m K (zn c) 25 _); iexact HR
  iintro ⟨Hcs5, HO⟩
  ihave Hcs5 := (pa_cred_z c 5 17 25 rfl rfl _) $$ Hcs5
  iapply (step_wait' m c 6 (by decide) _ rfl (owedAfter c 9) _ ((credit_rect ST 176 _ _ _ 0 (by decide)).trans (credit_in 0 6 (by decide))) (κ := K (c, ⟨6, by omega⟩))) $$ [Hc6 HO Hap6]
  · isplitr; · iapply (inv_dma m K c 6 _); iexact HR
    isplitl [Hc6]; · iexact Hc6
    isplitl [HO]; · iexact HO
    isplitr [Hap6]; · iapply (mayWait_after c (.dma ⟨6, _⟩) 9 (pa_lv_in 6 c)); iexact HL
    iexact Hap6
  iintro ⟨HO, Hap6, -, Hp⟩
  ihave Hp := (pa_wait_in m c 6 6 rfl) $$ Hp
  icases Hp with ⟨Hst6, Hxa6⟩
  iapply (pa_load c ST (inOff c 6) (inLen 6) (in_inb c 6) fullShare (X m c) (k0_off19 c) ((off19_eq c).trans (by rfl))) $$ Hst6
  iintro Hst6
  iapply (pa_load c MI (ownOff c 6) (ownLen 6) (own_inb c 6) fullShare fm6 (k0_off19 c) ((off19_eq c).trans (by rfl))) $$ Hmi6
  iintro Hmi6
  iapply (pa_store c MI (ownOff c 6) (ownLen 6) (own_inb c 6) fm6 (k0_pay7 (fun y => ST.view.read (Elt F) (X m c) (up (inOff c 6) (in_inb c 6) y))) (k0_off19 c) ((off19_eq c).trans (by rfl))) $$ Hmi6
  iintro Hmi6
  ihave Hmi6 := (Entails.of_eq (pa_stored_mine m c (ownOff c 6) (ownLen 6) (own_inb c 6) fm6 (k0_pay7 (fun y => ST.view.read (Elt F) (X m c) (up (inOff c 6) (in_inb c 6) y))) (fun x => by simp only [k0_pay7, shapeCast_self]; rfl))) $$ Hmi6
  ihave Hmi6 := (pa_halves c MI (ownOff c 6) (ownLen 6) (own_inb c 6) fullShare (mineV m c)) $$ Hmi6
  icases Hmi6 with ⟨HmL6, HmR6⟩
  iapply (step_send' m c (zn c) MI CM (ownOff c 6) (ownOff c 6) (ownLen 6) (own_inb c 6) (own_inb c 6) 18 26 (by decide) (by decide) sL (mineV m c) fn6
      (k0_off7 c) (k0_off7 c) ((off7_eq c).trans (by rfl)) ((off7_eq c).trans (by rfl)) _ _ rfl rfl _ (dev10_eq c)
      (owedAfter c 9) (owedAfter c 10) _ rfl (credit_zr (ownOff c 6) 6 (own_inb c 6)) (pa_damt_z 6) (pay_zs m c 6) (pay_zr m c 6 fn6)
      (κ₁ := K (c, ⟨18, by omega⟩)) (κ₂ := K (zn c, ⟨26, by omega⟩))) $$ [HmL6 Hn6 HO Hts6 Htr6]
  · isplitr; · iapply (inv_dma m K c 18 _); iexact HR
    isplitr; · iapply (inv_dma m K (zn c) 26 _); iexact HR
    isplitl [HmL6]; · iexact HmL6
    isplitl [Hn6]; · iexact Hn6
    isplitl [HO]; · iexact HO
    isplitl [Hts6]; · iexact Hts6
    isplitr; · iapply (reached_dma m K c 18 _); iexact HR
    isplitl [Htr6]; · iexact Htr6
    iapply (reached_dma m K (zn c) 26 _); iexact HR
  iintro ⟨Hcs6, HO⟩
  ihave Hcs6 := (pa_cred_z c 6 18 26 rfl rfl _) $$ Hcs6
  iapply (step_wait' m c 7 (by decide) _ rfl (owedAfter c 10) _ ((credit_rect ST 176 _ _ _ 0 (by decide)).trans (credit_in 0 7 (by decide))) (κ := K (c, ⟨7, by omega⟩))) $$ [Hc7 HO Hap7]
  · isplitr; · iapply (inv_dma m K c 7 _); iexact HR
    isplitl [Hc7]; · iexact Hc7
    isplitl [HO]; · iexact HO
    isplitr [Hap7]; · iapply (mayWait_after c (.dma ⟨7, _⟩) 10 (pa_lv_in 7 c)); iexact HL
    iexact Hap7
  iintro ⟨HO, Hap7, -, Hp⟩
  ihave Hp := (pa_wait_in m c 7 7 rfl) $$ Hp
  icases Hp with ⟨Hst7, Hxa7⟩
  iapply (pa_load c ST (inOff c 7) (inLen 7) (in_inb c 7) fullShare (X m c) (k0_off20 c) ((off20_eq c).trans (by rfl))) $$ Hst7
  iintro Hst7
  rw [wp_ret]; imodintro
  isplitl []; · ipureintro; intro y; simp only [k0_pay8, shapeCast_self]; rfl
  isplitl [HO]; · iexists _; iexact HO
  isplitl [HmR5]; · iexact HmR5
  isplitl [Hcs5]; · iexact Hcs5
  isplitl [Hap6]; · iexact Hap6
  isplitl [Hst6]; · iexact Hst6
  isplitl [Hxa6]; · iexact Hxa6
  isplitl [HmR6]; · iexact HmR6
  isplitl [Hcs6]; · iexact Hcs6
  isplitl [Hap7]; · iexact Hap7
  isplitl [Hst7]; · iexact Hst7
  iexact Hxa7

set_option maxRecDepth 65536 in
set_option maxHeartbeats 4000000 in
/-- Part 10: the store and the transfer of own chunk 7; the wait for the z-neighbour's transfer of own chunk 0. -/
theorem part_10 (c : Dev nD) (K : Dev nD × Fin 86 → ℕ) (v2 v5 v8 v9 v10 v52 : BitVec 32) (v299 : FVec F S176x1024 .bf16)
    (hv299 : ∀ y, v299 y = FloatOps.truncf .bf16 (by decide) (X m c (up (ownOff c 7) (own_inb c 7) y)))
    (W : Waits sig Unit) (fm7 : Buf (Elt F) ((sl MI (ownOff c 7) (ownLen 7) (own_inb c 7)).view.loc (c : Thread nD τ))) (fn7 : Buf (Elt F) ((sl CM (ownOff c 7) (ownLen 7) (own_inb c 7)).view.loc (zn c : Thread nD τ))) :
    iprop(records m K ∗ levAts L lv
        ∗ pts c MI (ownOff c 7) (ownLen 7) (own_inb c 7) fullShare fm7
        ∗ pts (zn c) CM (ownOff c 7) (ownLen 7) (own_inb c 7) fullShare fn7
        ∗ owes (c : Thread nD τ) (owedAfter c 10) W
        ∗ dutyTok ER (dcell c 19 (by decide)) 0 0
        ∗ dutyTok ER (dcell (zn c) 27 (by decide)) 0 0
        ∗ cred (tallyAt (dcell c 20 (by decide)) () (damt 20))
        ∗ atPos ER (dcell c 20 (by decide)) 0 ∅ 0)
      ⊢ wp frame (wpE (defs₀ (F := F)) 𝒱₀ (c : Thread nD τ) none) Set.univ
          (k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v10 v52 v299)
          (fun r => iprop((∃ W', owes (c : Thread nD τ) (owedAfter c 11) W')
            ∗ pts c MI (ownOff c 7) (ownLen 7) (own_inb c 7) sR (mineV m c)
            ∗ cred (tallyAt (dcell c 19 (by decide)) () (damt 19))
            ∗ atPos ER (dcell c 20 (by decide)) 1 ∅ 0
            ∗ pts c CM (ownOff c 0) (ownLen 0) (own_inb c 0) fullShare (commV m c))) := by
  simp only [k0_part10_eq_skeleton]; unfold k0_part10_skel
  simp only [Prog.lift, Prog.bind_op, Prog.bind_ret, Prog.pure_eq_ret, Prog.bind_assoc]
  iintro ⟨#HR, #HL, Hmi7, Hn7, HO, Hts7, Htr7, Hcr20, Hap20⟩
  iapply (pa_load c MI (ownOff c 7) (ownLen 7) (own_inb c 7) fullShare fm7 (k0_off20 c) ((off20_eq c).trans (by rfl))) $$ Hmi7
  iintro Hmi7
  iapply (pa_store c MI (ownOff c 7) (ownLen 7) (own_inb c 7) fm7 (k0_pay9 v299) (k0_off20 c) ((off20_eq c).trans (by rfl))) $$ Hmi7
  iintro Hmi7
  ihave Hmi7 := (Entails.of_eq (pa_stored_mine m c (ownOff c 7) (ownLen 7) (own_inb c 7) fm7 (k0_pay9 v299) (fun x => by simp only [k0_pay9, shapeCast_self]; exact hv299 x))) $$ Hmi7
  ihave Hmi7 := (pa_halves c MI (ownOff c 7) (ownLen 7) (own_inb c 7) fullShare (mineV m c)) $$ Hmi7
  icases Hmi7 with ⟨HmL7, HmR7⟩
  iapply (step_send' m c (zn c) MI CM (ownOff c 7) (ownOff c 7) (ownLen 7) (own_inb c 7) (own_inb c 7) 19 27 (by decide) (by decide) sL (mineV m c) fn7
      (k0_off8 c) (k0_off8 c) ((off8_eq c).trans (by rfl)) ((off8_eq c).trans (by rfl)) _ _ rfl rfl _ (dev11_eq c)
      (owedAfter c 10) (owedAfter c 11) _ rfl (credit_zr (ownOff c 7) 7 (own_inb c 7)) (pa_damt_z 7) (pay_zs m c 7) (pay_zr m c 7 fn7)
      (κ₁ := K (c, ⟨19, by omega⟩)) (κ₂ := K (zn c, ⟨27, by omega⟩))) $$ [HmL7 Hn7 HO Hts7 Htr7]
  · isplitr; · iapply (inv_dma m K c 19 _); iexact HR
    isplitr; · iapply (inv_dma m K (zn c) 27 _); iexact HR
    isplitl [HmL7]; · iexact HmL7
    isplitl [Hn7]; · iexact Hn7
    isplitl [HO]; · iexact HO
    isplitl [Hts7]; · iexact Hts7
    isplitr; · iapply (reached_dma m K c 19 _); iexact HR
    isplitl [Htr7]; · iexact Htr7
    iapply (reached_dma m K (zn c) 27 _); iexact HR
  iintro ⟨Hcs7, HO⟩
  ihave Hcs7 := (pa_cred_z c 7 19 27 rfl rfl _) $$ Hcs7
  iapply (step_wait' m c 20 (by decide) _ rfl (owedAfter c 11) _ ((credit_rect CM 112 _ _ _ 0 (by decide)).trans (credit_zr 0 0 (by decide))) (κ := K (c, ⟨20, by omega⟩))) $$ [Hcr20 HO Hap20]
  · isplitr; · iapply (inv_dma m K c 20 _); iexact HR
    isplitl [Hcr20]; · iexact Hcr20
    isplitl [HO]; · iexact HO
    isplitr [Hap20]; · iapply (mayWait_after c (.dma ⟨20, _⟩) 11 (pa_lv_zr0 c)); iexact HL
    iexact Hap20
  rw [pa_wait_zr m c 0 20 rfl]
  iintro ⟨HO, Hap20, -, Hcm0⟩
  rw [wp_ret]; imodintro
  isplitl [HO]; · iexists _; iexact HO
  isplitl [HmR7]; · iexact HmR7
  isplitl [Hcs7]; · iexact Hcs7
  isplitl [Hap20]; · iexact Hap20
  iexact Hcm0

/-- info: 'Cert.KernelIdeal.AG.part_10' depends on axioms: [propext, Classical.choice, Quot.sound] -/
#guard_msgs in #print axioms part_10

end Cert.KernelIdeal.AG

end
-- ==== Proof.AGParts_b.lean ====
/- The forwarding phase of the body, part by part.  When an own chunk of the communication buffer has landed the device reads it
  three ways at once: it sends the rows on to its x-neighbour and to its y-neighbour and copies them to the other half of the
  result, each reader with its own part of the share.  Rows that arrive from the y-neighbour are copied and sent on to the
  x-neighbour, rows that arrive from the x-neighbour are copied and sent on to the y-neighbour.  Each transfer pays the next
  payment the device owes; each wait is for a cell below every cell still owed.
-/
import proofs.«900673_g7700000000000674_dist_ag_v7x_xyz2x2x2_z_m4096_n1024_bf16_1_alg».proof.Proof.Gen.KernelIdeal.Skeleton
import proofs.«900673_g7700000000000674_dist_ag_v7x_xyz2x2x2_z_m4096_n1024_bf16_1_alg».proof.Proof.AGSteps
import proofs.«900673_g7700000000000674_dist_ag_v7x_xyz2x2x2_z_m4096_n1024_bf16_1_alg».proof.Proof.AGPays
import proofs.«900673_g7700000000000674_dist_ag_v7x_xyz2x2x2_z_m4096_n1024_bf16_1_alg».proof.Proof.AGSlices
import proofs.«900673_g7700000000000674_dist_ag_v7x_xyz2x2x2_z_m4096_n1024_bf16_1_alg».proof.Proof.AGOffs
import proofs.«900673_g7700000000000674_dist_ag_v7x_xyz2x2x2_z_m4096_n1024_bf16_1_alg».proof.Proof.AGGlue

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows under their other names -/

/-- The rows the x-forwards read, as rows of the device's own regions and of its y-arrivals. -/
theorem pb_xsrc : ∀ c : Dev nD, xinOff (xn c) 0 = pown c ∧ xinOff (xn c) 1 = pown c + 112 ∧ xinOff (xn c) 2 = pown c + 336
    ∧ xinOff (xn c) 3 = pown c + 504 ∧ xinOff (xn c) 4 = rown c ∧ xinOff (xn c) 5 = rown c + 176 ∧ xinOff (xn c) 6 = pyn c
    ∧ xinOff (xn c) 7 = pyn c + 112 := by decide

/-- The rows the y-forwards read, as rows of the device's own regions and of its x-arrivals. -/
theorem pb_ysrc : ∀ c : Dev nD, yinOff (yn c) 0 = pown c ∧ yinOff (yn c) 1 = pown c + 112 ∧ yinOff (yn c) 2 = pown c + 336
    ∧ yinOff (yn c) 3 = pown c + 504 ∧ yinOff (yn c) 4 = rown c + 352 ∧ yinOff (yn c) 5 = rown c + 528 ∧ yinOff (yn c) 6 = pxn c + 336
    ∧ yinOff (yn c) 7 = pxn c + 504 := by decide

/-- An assertion over rows at a share is the assertions at the share's two halves. -/
theorem pb_pts_halves {sp : Space} {e : EltTy} {R : ℕ} (c : Dev nD) (M : Memref sig .tc sp (Sr R) e) (o r : ℕ) (h : o + r ≤ R)
    (q : PosShare TreeShare) (f : Buf (Elt F) ((sl M o r h).view.loc (c : Thread nD τ))) :
    (pts c M o r h q f : sProp 𝕄) ⊣⊢ iprop(pts c M o r h q.left f ∗ pts c M o r h q.right f) := by
  unfold pts; exact pointsTo_share_split _ q f

/-- The units a send cell is credited are those of its receive cell. -/
theorem pb_damt_xs_xr (k : Fin 8) : damt (28 + k.val) = damt (36 + k.val) := (credit_xs 0 k (by have := (xinLen_pos k).2; omega)).symm.trans (credit_xr 0 k (by have := (xinLen_pos k).2; omega))
theorem pb_damt_ys_yr (k : Fin 8) : damt (44 + k.val) = damt (52 + k.val) := (credit_ys 0 k (by have := (yinLen_pos k).2; omega)).symm.trans (credit_yr 0 k (by have := (yinLen_pos k).2; omega))

/-- The same rows, length and share under other names. -/
theorem pb_pts_re {sp : Space} {e : EltTy} {R : ℕ} (d : Dev nD) (B : Memref sig .tc sp (Sr R) e) {o o' r r' : ℕ} {q q' : PosShare TreeShare}
    (ho : o = o') (hr : r = r') (hq : q = q') (h : o + r ≤ R) (h' : o' + r' ≤ R) (f : Buf (Elt F) (B.view.loc (d : Thread nD τ))) :
    (pts d B o r h q f : sProp 𝕄) ⊢ pts d B o' r' h' q' f := by
  subst ho hr hq; exact .rfl

/-- Credit counted in equal units. -/
theorem pb_cred_amt (g : GSem nD τ sig) {a b : ℕ} (e : a = b) : (cred (tallyAt g () a) : sProp 𝕄) ⊢ cred (tallyAt g () b) := by
  subst e; exact .rfl

/-- A cell number below the number of DMA semaphores, by evaluation. -/
theorem pb_lt85 {n : ℕ} (h : decide (n < 85) = true) : n < 85 := of_decide_eq_true h

/-! ## What a landing hands over, cell by cell, with the cell's number as a literal -/

theorem pb_dpay_zr' (c : Dev nD) (j : Fin 8) (n : ℕ) (hn : n = 20 + j.val) :
    dpay m c n = pts c CM (ownOff c j) (ownLen j) (own_inb c j) fullShare (commV m c) := by subst hn; exact dpay_zr m c j
theorem pb_dpay_xr' (c : Dev nD) (k : Fin 8) (n : ℕ) (hn : n = 36 + k.val) :
    dpay m c n = pts c CM (xinOff c k) (xinLen k) (xin_inb c k) fullShare (commV m c) := by subst hn; exact dpay_xr m c k
theorem pb_dpay_yr' (c : Dev nD) (k : Fin 8) (n : ℕ) (hn : n = 52 + k.val) :
    dpay m c n = pts c CM (yinOff c k) (yinLen k) (yin_inb c k) fullShare (commV m c) := by subst hn; exact dpay_yr m c k

/-! ## Each wait of this phase is for a cell below every cell still owed -/

theorem pb_mw_21_13 (c : Dev nD) : (levAts L lv : sProp 𝕄) ⊢ MayWait (c : Thread nD τ) (.dma ⟨21, pb_lt85 rfl⟩) () (owedAfter c 13) :=
  mayWait_after c (.dma ⟨21, pb_lt85 rfl⟩) 13 (by revert c; decide)

theorem pb_mw_52_15 (c : Dev nD) : (levAts L lv : sProp 𝕄) ⊢ MayWait (c : Thread nD τ) (.dma ⟨52, pb_lt85 rfl⟩) () (owedAfter c 15) :=
  mayWait_after c (.dma ⟨52, pb_lt85 rfl⟩) 15 (by revert c; decide)

theorem pb_mw_22_16 (c : Dev nD) : (levAts L lv : sProp 𝕄) ⊢ MayWait (c : Thread nD τ) (.dma ⟨22, pb_lt85 rfl⟩) () (owedAfter c 16) :=
  mayWait_after c (.dma ⟨22, pb_lt85 rfl⟩) 16 (by revert c; decide)

theorem pb_mw_23_18 (c : Dev nD) : (levAts L lv : sProp 𝕄) ⊢ MayWait (c : Thread nD τ) (.dma ⟨23, pb_lt85 rfl⟩) () (owedAfter c 18) :=
  mayWait_after c (.dma ⟨23, pb_lt85 rfl⟩) 18 (by revert c; decide)

theorem pb_mw_53_20 (c : Dev nD) : (levAts L lv : sProp 𝕄) ⊢ MayWait (c : Thread nD τ) (.dma ⟨53, pb_lt85 rfl⟩) () (owedAfter c 20) :=
  mayWait_after c (.dma ⟨53, pb_lt85 rfl⟩) 20 (by revert c; decide)

theorem pb_mw_38_21 (c : Dev nD) : (levAts L lv : sProp 𝕄) ⊢ MayWait (c : Thread nD τ) (.dma ⟨38, pb_lt85 rfl⟩) () (owedAfter c 21) :=
  mayWait_after c (.dma ⟨38, pb_lt85 rfl⟩) 21 (by revert c; decide)

theorem pb_mw_39_22 (c : Dev nD) : (levAts L lv : sProp 𝕄) ⊢ MayWait (c : Thread nD τ) (.dma ⟨39, pb_lt85 rfl⟩) () (owedAfter c 22) :=
  mayWait_after c (.dma ⟨39, pb_lt85 rfl⟩) 22 (by revert c; decide)

theorem pb_mw_24_23 (c : Dev nD) : (levAts L lv : sProp 𝕄) ⊢ MayWait (c : Thread nD τ) (.dma ⟨24, pb_lt85 rfl⟩) () (owedAfter c 23) :=
  mayWait_after c (.dma ⟨24, pb_lt85 rfl⟩) 23 (by revert c; decide)

/-! ## Part 11: own chunk 0 goes on three ways; own chunk 1 lands -/

set_option maxRecDepth 65536 in
set_option maxHeartbeats 4000000 in
theorem part_11 (c : Dev nD) (K : Dev nD × Fin 86 → ℕ) (v2 v5 v8 v9 v10 v11 v25 v28 : BitVec 32) (W : Waits sig Unit)
    (f1 : Buf (Elt F) ((sl CM (xinOff (xn c) 0) (xinLen 0) (xin_inb (xn c) 0)).view.loc (xn c : Thread nD τ)))
    (f2 : Buf (Elt F) ((sl CM (yinOff (yn c) 0) (yinLen 0) (yin_inb (yn c) 0)).view.loc (yn c : Thread nD τ)))
    (fd3 : Buf (Elt F) ((sl OU (othb c + ownOff c 0) (ownLen 0) (oown_inb c 0)).view.loc (c : Thread nD τ))) :
    iprop(records m K ∗ levAts L lv
        ∗ pts c CM (ownOff c 0) (ownLen 0) (own_inb c 0) fullShare (commV m c)
        ∗ pts (xn c) CM (xinOff (xn c) 0) (xinLen 0) (xin_inb (xn c) 0) fullShare f1
        ∗ owes (c : Thread nD τ) (owedAfter c 11) W
        ∗ dutyTok ER (dcell c 28 (by decide)) 0 0
        ∗ dutyTok ER (dcell (xn c) 36 (by decide)) 0 0
        ∗ pts (yn c) CM (yinOff (yn c) 0) (yinLen 0) (yin_inb (yn c) 0) fullShare f2
        ∗ dutyTok ER (dcell c 44 (by decide)) 0 0
        ∗ dutyTok ER (dcell (yn c) 52 (by decide)) 0 0
        ∗ pts c OU (othb c + ownOff c 0) (ownLen 0) (oown_inb c 0) fullShare fd3
        ∗ dutyTok ER (dcell c 60 (by decide)) 0 0
        ∗ cred (tallyAt (dcell c 21 (by decide)) () (damt 21))
        ∗ atPos ER (dcell c 21 (by decide)) 0 ∅ 0)
      ⊢ wp frame (wpE (defs₀ (F := F)) 𝒱₀ (c : Thread nD τ) none) Set.univ
          (k0_part11 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v11 v25 v28)
          (fun _ => iprop(cred (tallyAt (dcell c 28 (by decide)) () (damt 28))
            ∗ cred (tallyAt (dcell c 44 (by decide)) () (damt 44))
            ∗ cred (tallyAt (dcell c 60 (by decide)) () (damt 60))
            ∗ (∃ W', owes (c : Thread nD τ) (owedAfter c 13) W')
            ∗ atPos ER (dcell c 21 (by decide)) 1 ∅ 0
            ∗ pts c CM (ownOff c 1) (ownLen 1) (own_inb c 1) fullShare (commV m c))) := by
  simp only [k0_part11_eq_skeleton]; unfold k0_part11_skel
  simp only [Prog.lift, Prog.bind_op, Prog.bind_ret, Prog.pure_eq_ret, Prog.bind_assoc]
  iintro ⟨#Hrec, #Hlev, Hown0, Hnx0, HO, Tsx0, Trx0, Hny0, Tsy0, Try0, Hdlz0, Tllz0, Hcr21, Hat21⟩
  ihave Hs := (pb_pts_halves c CM _ _ _ fullShare (commV m c)).1 $$ Hown0
  icases Hs with ⟨Hown0L, Hown0R⟩
  -- the x-forward 0
  ihave Hsrc := (pb_pts_re (F := F) c CM (o := ownOff c 0) (o' := xinOff (xn c) 0) (r := ownLen 0) (r' := xinLen 0) (q := sL) (q' := sL)
    (by rw [(pb_xsrc c).1]; rfl) rfl rfl (own_inb c 0) (xin_inb (xn c) 0) (commV m c)) $$ Hown0L
  iapply (step_send' m c (xn c) CM CM (xinOff (xn c) 0) (xinOff (xn c) 0) (xinLen 0) (xin_inb (xn c) 0) (xin_inb (xn c) 0) 28 36 (pb_lt85 rfl) (pb_lt85 rfl)
    (sL) (commV m c) f1 (k0_off1 c) (k0_off1 c) (by rw [off1_eq, (pb_xsrc c).1]) (by rw [off1_eq, (pb_xsrc c).1]) _ _ rfl rfl _ (dev12_eq c)
    (κ₁ := K (c, ⟨28, by omega⟩)) (κ₂ := K (xn c, ⟨36, by omega⟩))
    (owedAfter c 11) (owedAfter c 12) W rfl (credit_xr _ 0 _) (pb_damt_xs_xr 0) (pay_xs m c 0) (pay_xr m c 0 f1)) $$ [Hsrc Hnx0 HO Tsx0 Trx0]
  · isplitr; · first | (iapply (inv_dma m K c 28 (pb_lt85 rfl)); iexact Hrec) | iapply (inv_dma m K c 28 (pb_lt85 rfl))
    isplitr; · first | (iapply (inv_dma m K (xn c) 36 (pb_lt85 rfl)); iexact Hrec) | iapply (inv_dma m K (xn c) 36 (pb_lt85 rfl))
    isplitl [Hsrc]; · iexact Hsrc
    isplitl [Hnx0]; · iexact Hnx0
    isplitl [HO]; · iexact HO
    isplitl [Tsx0]; · iexact Tsx0
    isplitr; · first | (iapply (reached_dma m K c 28 (pb_lt85 rfl)); iexact Hrec) | iapply (reached_dma m K c 28 (pb_lt85 rfl))
    isplitl [Trx0]; · iexact Trx0
    first | (iapply (reached_dma m K (xn c) 36 (pb_lt85 rfl)); iexact Hrec) | iapply (reached_dma m K (xn c) 36 (pb_lt85 rfl))
  iintro ⟨Hc28, HO⟩
  ihave Hc28 := (pb_cred_amt (F := F) (dcell c 28 (pb_lt85 rfl)) (show damt 36 = damt 28 from (pb_damt_xs_xr 0).symm)) $$ Hc28
  ihave Hs := (pb_pts_halves c CM _ _ _ sR (commV m c)).1 $$ Hown0R
  icases Hs with ⟨Hown0RL, Hown0RR⟩
  -- the y-forward 0
  ihave Hsrc := (pb_pts_re (F := F) c CM (o := ownOff c 0) (o' := yinOff (yn c) 0) (r := ownLen 0) (r' := yinLen 0) (q := sRL) (q' := qys 0)
    (by rw [(pb_ysrc c).1]; rfl) rfl rfl (own_inb c 0) (yin_inb (yn c) 0) (commV m c)) $$ Hown0RL
  iapply (step_send' m c (yn c) CM CM (yinOff (yn c) 0) (yinOff (yn c) 0) (yinLen 0) (yin_inb (yn c) 0) (yin_inb (yn c) 0) 44 52 (pb_lt85 rfl) (pb_lt85 rfl)
    (qys 0) (commV m c) f2 (k0_off1 c) (k0_off1 c) (by rw [off1_eq, (pb_ysrc c).1]) (by rw [off1_eq, (pb_ysrc c).1]) _ _ rfl rfl _ (dev13_eq c)
    (κ₁ := K (c, ⟨44, by omega⟩)) (κ₂ := K (yn c, ⟨52, by omega⟩))
    (owedAfter c 12) (owedAfter c 13) W rfl (credit_yr _ 0 _) (pb_damt_ys_yr 0) (pay_ys m c 0) (pay_yr m c 0 f2)) $$ [Hsrc Hny0 HO Tsy0 Try0]
  · isplitr; · first | (iapply (inv_dma m K c 44 (pb_lt85 rfl)); iexact Hrec) | iapply (inv_dma m K c 44 (pb_lt85 rfl))
    isplitr; · first | (iapply (inv_dma m K (yn c) 52 (pb_lt85 rfl)); iexact Hrec) | iapply (inv_dma m K (yn c) 52 (pb_lt85 rfl))
    isplitl [Hsrc]; · iexact Hsrc
    isplitl [Hny0]; · iexact Hny0
    isplitl [HO]; · iexact HO
    isplitl [Tsy0]; · iexact Tsy0
    isplitr; · first | (iapply (reached_dma m K c 44 (pb_lt85 rfl)); iexact Hrec) | iapply (reached_dma m K c 44 (pb_lt85 rfl))
    isplitl [Try0]; · iexact Try0
    first | (iapply (reached_dma m K (yn c) 52 (pb_lt85 rfl)); iexact Hrec) | iapply (reached_dma m K (yn c) 52 (pb_lt85 rfl))
  iintro ⟨Hc44, HO⟩
  ihave Hc44 := (pb_cred_amt (F := F) (dcell c 44 (pb_lt85 rfl)) (show damt 52 = damt 44 from (pb_damt_ys_yr 0).symm)) $$ Hc44
  -- the copy lz 0 to the result
  ihave Hsrc := (pb_pts_re (F := F) c CM (o := ownOff c 0) (o' := ownOff c 0) (r := ownLen 0) (r' := ownLen 0) (q := sRR) (q' := qlz 0)
    rfl rfl rfl (own_inb c 0) (own_inb c 0) (commV m c)) $$ Hown0RR
  iapply (step_copy' m c CM OU (ownOff c 0) (othb c + ownOff c 0) (ownLen 0) (own_inb c 0) (oown_inb c 0) 60 (pb_lt85 rfl) (qlz 0) (commV m c) fd3
    (k0_off1 c) (k0_off21 c) (by rw [off1_eq]; rfl) (by first | (rw [off21_eq, Nat.add_assoc]; rfl) | (rw [off21_eq]; rfl)) _ rfl
    (κ := K (c, ⟨60, by omega⟩)) (credit_lz _ 0 _) (pay_lz m c 0 fd3)) $$ [Hsrc Hdlz0 Tllz0]
  · isplitr; · first | (iapply (inv_dma m K c 60 (pb_lt85 rfl)); iexact Hrec) | iapply (inv_dma m K c 60 (pb_lt85 rfl))
    isplitl [Hsrc]; · iexact Hsrc
    isplitl [Hdlz0]; · iexact Hdlz0
    isplitl [Tllz0]; · iexact Tllz0
    first | (iapply (reached_dma m K c 60 (pb_lt85 rfl)); iexact Hrec) | iapply (reached_dma m K c 60 (pb_lt85 rfl))
  iintro Hc60
  -- the wait on zr 1
  iapply (step_wait' m c 21 (pb_lt85 rfl) _ rfl (κ := K (c, ⟨21, by omega⟩)) (owedAfter c 13) W
    ((credit_rect CM 224 _ _ _ 0 (by decide)).trans (credit_zr 0 1 (by decide)))) $$ [Hcr21 HO Hat21]
  · isplitr; · first | (iapply (inv_dma m K c 21 (pb_lt85 rfl)); iexact Hrec) | iapply (inv_dma m K c 21 (pb_lt85 rfl))
    isplitl [Hcr21]; · iexact Hcr21
    isplitl [HO]; · iexact HO
    isplitr; · first | (iapply (pb_mw_21_13 (F := F) c); iexact Hlev) | iapply (pb_mw_21_13 (F := F) c)
    iexact Hat21
  rw [pb_dpay_zr' m c 1 21 rfl]
  iintro ⟨HO, Hat21, -, Hown1⟩
  rw [wp_ret]; imodintro
  isplitl [Hc28]; · iexact Hc28
  isplitl [Hc44]; · iexact Hc44
  isplitl [Hc60]; · iexact Hc60
  isplitl [HO]; · (iexists _; iexact HO)
  isplitl [Hat21]; · iexact Hat21
  iexact Hown1

/-! ## Part 12: own chunk 1 goes on three ways -/

set_option maxRecDepth 65536 in
set_option maxHeartbeats 4000000 in
theorem part_12 (c : Dev nD) (K : Dev nD × Fin 86 → ℕ) (v2 v5 v8 v9 v11 v25 v47 v365 : BitVec 32) (W : Waits sig Unit)
    (f1 : Buf (Elt F) ((sl CM (xinOff (xn c) 1) (xinLen 1) (xin_inb (xn c) 1)).view.loc (xn c : Thread nD τ)))
    (f2 : Buf (Elt F) ((sl CM (yinOff (yn c) 1) (yinLen 1) (yin_inb (yn c) 1)).view.loc (yn c : Thread nD τ)))
    (fd3 : Buf (Elt F) ((sl OU (othb c + ownOff c 1) (ownLen 1) (oown_inb c 1)).view.loc (c : Thread nD τ))) :
    iprop(records m K ∗ levAts L lv
        ∗ pts c CM (ownOff c 1) (ownLen 1) (own_inb c 1) fullShare (commV m c)
        ∗ pts (xn c) CM (xinOff (xn c) 1) (xinLen 1) (xin_inb (xn c) 1) fullShare f1
        ∗ owes (c : Thread nD τ) (owedAfter c 13) W
        ∗ dutyTok ER (dcell c 29 (by decide)) 0 0
        ∗ dutyTok ER (dcell (xn c) 37 (by decide)) 0 0
        ∗ pts (yn c) CM (yinOff (yn c) 1) (yinLen 1) (yin_inb (yn c) 1) fullShare f2
        ∗ dutyTok ER (dcell c 45 (by decide)) 0 0
        ∗ dutyTok ER (dcell (yn c) 53 (by decide)) 0 0
        ∗ pts c OU (othb c + ownOff c 1) (ownLen 1) (oown_inb c 1) fullShare fd3
        ∗ dutyTok ER (dcell c 61 (by decide)) 0 0)
      ⊢ wp frame (wpE (defs₀ (F := F)) 𝒱₀ (c : Thread nD τ) none) Set.univ
          (k0_part12 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v11 v25 v47 v365)
          (fun _ => iprop(cred (tallyAt (dcell c 29 (by decide)) () (damt 29))
            ∗ cred (tallyAt (dcell c 45 (by decide)) () (damt 45))
            ∗ cred (tallyAt (dcell c 61 (by decide)) () (damt 61))
            ∗ (∃ W', owes (c : Thread nD τ) (owedAfter c 15) W'))) := by
  simp only [k0_part12_eq_skeleton]; unfold k0_part12_skel
  simp only [Prog.lift, Prog.bind_op, Prog.bind_ret, Prog.pure_eq_ret, Prog.bind_assoc]
  iintro ⟨#Hrec, #Hlev, Hown1, Hnx1, HO, Tsx1, Trx1, Hny1, Tsy1, Try1, Hdlz1, Tllz1⟩
  ihave Hs := (pb_pts_halves c CM _ _ _ fullShare (commV m c)).1 $$ Hown1
  icases Hs with ⟨Hown1L, Hown1R⟩
  -- the x-forward 1
  ihave Hsrc := (pb_pts_re (F := F) c CM (o := ownOff c 1) (o' := xinOff (xn c) 1) (r := ownLen 1) (r' := xinLen 1) (q := sL) (q' := sL)
    (by rw [(pb_xsrc c).2.1]; rfl) rfl rfl (own_inb c 1) (xin_inb (xn c) 1) (commV m c)) $$ Hown1L
  iapply (step_send' m c (xn c) CM CM (xinOff (xn c) 1) (xinOff (xn c) 1) (xinLen 1) (xin_inb (xn c) 1) (xin_inb (xn c) 1) 29 37 (pb_lt85 rfl) (pb_lt85 rfl)
    (sL) (commV m c) f1 (k0_off2 c) (k0_off2 c) (by rw [off2_eq, (pb_xsrc c).2.1]) (by rw [off2_eq, (pb_xsrc c).2.1]) _ _ rfl rfl _ (dev14_eq c)
    (κ₁ := K (c, ⟨29, by omega⟩)) (κ₂ := K (xn c, ⟨37, by omega⟩))
    (owedAfter c 13) (owedAfter c 14) W rfl (credit_xr _ 1 _) (pb_damt_xs_xr 1) (pay_xs m c 1) (pay_xr m c 1 f1)) $$ [Hsrc Hnx1 HO Tsx1 Trx1]
  · isplitr; · first | (iapply (inv_dma m K c 29 (pb_lt85 rfl)); iexact Hrec) | iapply (inv_dma m K c 29 (pb_lt85 rfl))
    isplitr; · first | (iapply (inv_dma m K (xn c) 37 (pb_lt85 rfl)); iexact Hrec) | iapply (inv_dma m K (xn c) 37 (pb_lt85 rfl))
    isplitl [Hsrc]; · iexact Hsrc
    isplitl [Hnx1]; · iexact Hnx1
    isplitl [HO]; · iexact HO
    isplitl [Tsx1]; · iexact Tsx1
    isplitr; · first | (iapply (reached_dma m K c 29 (pb_lt85 rfl)); iexact Hrec) | iapply (reached_dma m K c 29 (pb_lt85 rfl))
    isplitl [Trx1]; · iexact Trx1
    first | (iapply (reached_dma m K (xn c) 37 (pb_lt85 rfl)); iexact Hrec) | iapply (reached_dma m K (xn c) 37 (pb_lt85 rfl))
  iintro ⟨Hc29, HO⟩
  ihave Hc29 := (pb_cred_amt (F := F) (dcell c 29 (pb_lt85 rfl)) (show damt 37 = damt 29 from (pb_damt_xs_xr 1).symm)) $$ Hc29
  ihave Hs := (pb_pts_halves c CM _ _ _ sR (commV m c)).1 $$ Hown1R
  icases Hs with ⟨Hown1RL, Hown1RR⟩
  -- the y-forward 1
  ihave Hsrc := (pb_pts_re (F := F) c CM (o := ownOff c 1) (o' := yinOff (yn c) 1) (r := ownLen 1) (r' := yinLen 1) (q := sRL) (q' := qys 1)
    (by rw [(pb_ysrc c).2.1]; rfl) rfl rfl (own_inb c 1) (yin_inb (yn c) 1) (commV m c)) $$ Hown1RL
  iapply (step_send' m c (yn c) CM CM (yinOff (yn c) 1) (yinOff (yn c) 1) (yinLen 1) (yin_inb (yn c) 1) (yin_inb (yn c) 1) 45 53 (pb_lt85 rfl) (pb_lt85 rfl)
    (qys 1) (commV m c) f2 (k0_off2 c) (k0_off2 c) (by rw [off2_eq, (pb_ysrc c).2.1]) (by rw [off2_eq, (pb_ysrc c).2.1]) _ _ rfl rfl _ (dev15_eq c)
    (κ₁ := K (c, ⟨45, by omega⟩)) (κ₂ := K (yn c, ⟨53, by omega⟩))
    (owedAfter c 14) (owedAfter c 15) W rfl (credit_yr _ 1 _) (pb_damt_ys_yr 1) (pay_ys m c 1) (pay_yr m c 1 f2)) $$ [Hsrc Hny1 HO Tsy1 Try1]
  · isplitr; · first | (iapply (inv_dma m K c 45 (pb_lt85 rfl)); iexact Hrec) | iapply (inv_dma m K c 45 (pb_lt85 rfl))
    isplitr; · first | (iapply (inv_dma m K (yn c) 53 (pb_lt85 rfl)); iexact Hrec) | iapply (inv_dma m K (yn c) 53 (pb_lt85 rfl))
    isplitl [Hsrc]; · iexact Hsrc
    isplitl [Hny1]; · iexact Hny1
    isplitl [HO]; · iexact HO
    isplitl [Tsy1]; · iexact Tsy1
    isplitr; · first | (iapply (reached_dma m K c 45 (pb_lt85 rfl)); iexact Hrec) | iapply (reached_dma m K c 45 (pb_lt85 rfl))
    isplitl [Try1]; · iexact Try1
    first | (iapply (reached_dma m K (yn c) 53 (pb_lt85 rfl)); iexact Hrec) | iapply (reached_dma m K (yn c) 53 (pb_lt85 rfl))
  iintro ⟨Hc45, HO⟩
  ihave Hc45 := (pb_cred_amt (F := F) (dcell c 45 (pb_lt85 rfl)) (show damt 53 = damt 45 from (pb_damt_ys_yr 1).symm)) $$ Hc45
  -- the copy lz 1 to the result
  ihave Hsrc := (pb_pts_re (F := F) c CM (o := ownOff c 1) (o' := ownOff c 1) (r := ownLen 1) (r' := ownLen 1) (q := sRR) (q' := qlz 1)
    rfl rfl rfl (own_inb c 1) (own_inb c 1) (commV m c)) $$ Hown1RR
  iapply (step_copy' m c CM OU (ownOff c 1) (othb c + ownOff c 1) (ownLen 1) (own_inb c 1) (oown_inb c 1) 61 (pb_lt85 rfl) (qlz 1) (commV m c) fd3
    (k0_off2 c) (k0_off22 c) (by rw [off2_eq]; rfl) (by first | (rw [off22_eq, Nat.add_assoc]; rfl) | (rw [off22_eq]; rfl)) _ rfl
    (κ := K (c, ⟨61, by omega⟩)) (credit_lz _ 1 _) (pay_lz m c 1 fd3)) $$ [Hsrc Hdlz1 Tllz1]
  · isplitr; · first | (iapply (inv_dma m K c 61 (pb_lt85 rfl)); iexact Hrec) | iapply (inv_dma m K c 61 (pb_lt85 rfl))
    isplitl [Hsrc]; · iexact Hsrc
    isplitl [Hdlz1]; · iexact Hdlz1
    isplitl [Tllz1]; · iexact Tllz1
    first | (iapply (reached_dma m K c 61 (pb_lt85 rfl)); iexact Hrec) | iapply (reached_dma m K c 61 (pb_lt85 rfl))
  iintro Hc61
  rw [wp_ret]; imodintro
  isplitl [Hc29]; · iexact Hc29
  isplitl [Hc45]; · iexact Hc45
  isplitl [Hc61]; · iexact Hc61
  iexists _; iexact HO

/-! ## Part 13: the y-arrival 0 lands, is copied and sent on to the x-neighbour; own chunk 2 lands -/

set_option maxRecDepth 65536 in
set_option maxHeartbeats 4000000 in
theorem part_13 (c : Dev nD) (K : Dev nD × Fin 86 → ℕ) (v2 v5 v8 v9 v10 v25 v36 : BitVec 32) (W : Waits sig Unit)
    (fd1 : Buf (Elt F) ((sl OU (othb c + yinOff c 0) (yinLen 0) (oyin_inb c 0)).view.loc (c : Thread nD τ)))
    (f2 : Buf (Elt F) ((sl CM (xinOff (xn c) 6) (xinLen 6) (xin_inb (xn c) 6)).view.loc (xn c : Thread nD τ))) :
    iprop(records m K ∗ levAts L lv
        ∗ cred (tallyAt (dcell c 52 (by decide)) () (damt 52))
        ∗ owes (c : Thread nD τ) (owedAfter c 15) W
        ∗ atPos ER (dcell c 52 (by decide)) 0 ∅ 0
        ∗ pts c OU (othb c + yinOff c 0) (yinLen 0) (oyin_inb c 0) fullShare fd1
        ∗ dutyTok ER (dcell c 76 (by decide)) 0 0
        ∗ pts (xn c) CM (xinOff (xn c) 6) (xinLen 6) (xin_inb (xn c) 6) fullShare f2
        ∗ dutyTok ER (dcell c 34 (by decide)) 0 0
        ∗ dutyTok ER (dcell (xn c) 42 (by decide)) 0 0
        ∗ cred (tallyAt (dcell c 22 (by decide)) () (damt 22))
        ∗ atPos ER (dcell c 22 (by decide)) 0 ∅ 0)
      ⊢ wp frame (wpE (defs₀ (F := F)) 𝒱₀ (c : Thread nD τ) none) Set.univ
          (k0_part13 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v25 v36)
          (fun _ => iprop(cred (tallyAt (dcell c 76 (by decide)) () (damt 76))
            ∗ cred (tallyAt (dcell c 34 (by decide)) () (damt 34))
            ∗ (∃ W', owes (c : Thread nD τ) (owedAfter c 16) W')
            ∗ atPos ER (dcell c 52 (by decide)) 1 ∅ 0
            ∗ atPos ER (dcell c 22 (by decide)) 1 ∅ 0
            ∗ pts c CM (ownOff c 2) (ownLen 2) (own_inb c 2) fullShare (commV m c))) := by
  simp only [k0_part13_eq_skeleton]; unfold k0_part13_skel
  simp only [Prog.lift, Prog.bind_op, Prog.bind_ret, Prog.pure_eq_ret, Prog.bind_assoc]
  iintro ⟨#Hrec, #Hlev, Hcr52, HO, Hat52, Hdly0, Tlly0, Hnx6, Tsx6, Trx6, Hcr22, Hat22⟩
  -- the wait on yr 0
  iapply (step_wait' m c 52 (pb_lt85 rfl) _ rfl (κ := K (c, ⟨52, by omega⟩)) (owedAfter c 15) W
    ((credit_rect CM 112 _ _ _ 0 (by decide)).trans (credit_yr 0 0 (by decide)))) $$ [Hcr52 HO Hat52]
  · isplitr; · first | (iapply (inv_dma m K c 52 (pb_lt85 rfl)); iexact Hrec) | iapply (inv_dma m K c 52 (pb_lt85 rfl))
    isplitl [Hcr52]; · iexact Hcr52
    isplitl [HO]; · iexact HO
    isplitr; · first | (iapply (pb_mw_52_15 (F := F) c); iexact Hlev) | iapply (pb_mw_52_15 (F := F) c)
    iexact Hat52
  rw [pb_dpay_yr' m c 0 52 rfl]
  iintro ⟨HO, Hat52, -, Hyin0⟩
  ihave Hs := (pb_pts_halves c CM _ _ _ fullShare (commV m c)).1 $$ Hyin0
  icases Hs with ⟨Hyin0L, Hyin0R⟩
  -- the copy ly 0 to the result
  ihave Hsrc := (pb_pts_re (F := F) c CM (o := yinOff c 0) (o' := yinOff c 0) (r := yinLen 0) (r' := yinLen 0) (q := sR) (q' := qly 0)
    rfl rfl rfl (yin_inb c 0) (yin_inb c 0) (commV m c)) $$ Hyin0R
  iapply (step_copy' m c CM OU (yinOff c 0) (othb c + yinOff c 0) (yinLen 0) (yin_inb c 0) (oyin_inb c 0) 76 (pb_lt85 rfl) (qly 0) (commV m c) fd1
    (k0_off23 c) (k0_off24 c) (by rw [off23_eq]; rfl) (by first | (rw [off24_eq, Nat.add_assoc]; rfl) | (rw [off24_eq]; rfl)) _ rfl
    (κ := K (c, ⟨76, by omega⟩)) (credit_ly _ 0 _) (pay_ly m c 0 fd1)) $$ [Hsrc Hdly0 Tlly0]
  · isplitr; · first | (iapply (inv_dma m K c 76 (pb_lt85 rfl)); iexact Hrec) | iapply (inv_dma m K c 76 (pb_lt85 rfl))
    isplitl [Hsrc]; · iexact Hsrc
    isplitl [Hdly0]; · iexact Hdly0
    isplitl [Tlly0]; · iexact Tlly0
    first | (iapply (reached_dma m K c 76 (pb_lt85 rfl)); iexact Hrec) | iapply (reached_dma m K c 76 (pb_lt85 rfl))
  iintro Hc76
  -- the x-forward 6
  ihave Hsrc := (pb_pts_re (F := F) c CM (o := yinOff c 0) (o' := xinOff (xn c) 6) (r := yinLen 0) (r' := xinLen 6) (q := sL) (q' := sL)
    (by rw [(pb_xsrc c).2.2.2.2.2.2.1]; rfl) rfl rfl (yin_inb c 0) (xin_inb (xn c) 6) (commV m c)) $$ Hyin0L
  iapply (step_send' m c (xn c) CM CM (xinOff (xn c) 6) (xinOff (xn c) 6) (xinLen 6) (xin_inb (xn c) 6) (xin_inb (xn c) 6) 34 42 (pb_lt85 rfl) (pb_lt85 rfl)
    (sL) (commV m c) f2 (k0_off23 c) (k0_off23 c) (by rw [off23_eq, (pb_xsrc c).2.2.2.2.2.2.1]) (by rw [off23_eq, (pb_xsrc c).2.2.2.2.2.2.1]) _ _ rfl rfl _ (dev16_eq c)
    (κ₁ := K (c, ⟨34, by omega⟩)) (κ₂ := K (xn c, ⟨42, by omega⟩))
    (owedAfter c 15) (owedAfter c 16) (insert (SemLoc.dma ⟨52, pb_lt85 rfl⟩, ()) W) rfl (credit_xr _ 6 _) (pb_damt_xs_xr 6) (pay_xs m c 6) (pay_xr m c 6 f2)) $$ [Hsrc Hnx6 HO Tsx6 Trx6]
  · isplitr; · first | (iapply (inv_dma m K c 34 (pb_lt85 rfl)); iexact Hrec) | iapply (inv_dma m K c 34 (pb_lt85 rfl))
    isplitr; · first | (iapply (inv_dma m K (xn c) 42 (pb_lt85 rfl)); iexact Hrec) | iapply (inv_dma m K (xn c) 42 (pb_lt85 rfl))
    isplitl [Hsrc]; · iexact Hsrc
    isplitl [Hnx6]; · iexact Hnx6
    isplitl [HO]; · iexact HO
    isplitl [Tsx6]; · iexact Tsx6
    isplitr; · first | (iapply (reached_dma m K c 34 (pb_lt85 rfl)); iexact Hrec) | iapply (reached_dma m K c 34 (pb_lt85 rfl))
    isplitl [Trx6]; · iexact Trx6
    first | (iapply (reached_dma m K (xn c) 42 (pb_lt85 rfl)); iexact Hrec) | iapply (reached_dma m K (xn c) 42 (pb_lt85 rfl))
  iintro ⟨Hc34, HO⟩
  ihave Hc34 := (pb_cred_amt (F := F) (dcell c 34 (pb_lt85 rfl)) (show damt 42 = damt 34 from (pb_damt_xs_xr 6).symm)) $$ Hc34
  -- the wait on zr 2
  iapply (step_wait' m c 22 (pb_lt85 rfl) _ rfl (κ := K (c, ⟨22, by omega⟩)) (owedAfter c 16) (insert (SemLoc.dma ⟨52, pb_lt85 rfl⟩, ()) W)
    ((credit_rect CM 168 _ _ _ 0 (by decide)).trans (credit_zr 0 2 (by decide)))) $$ [Hcr22 HO Hat22]
  · isplitr; · first | (iapply (inv_dma m K c 22 (pb_lt85 rfl)); iexact Hrec) | iapply (inv_dma m K c 22 (pb_lt85 rfl))
    isplitl [Hcr22]; · iexact Hcr22
    isplitl [HO]; · iexact HO
    isplitr; · first | (iapply (pb_mw_22_16 (F := F) c); iexact Hlev) | iapply (pb_mw_22_16 (F := F) c)
    iexact Hat22
  rw [pb_dpay_zr' m c 2 22 rfl]
  iintro ⟨HO, Hat22, -, Hown2⟩
  rw [wp_ret]; imodintro
  isplitl [Hc76]; · iexact Hc76
  isplitl [Hc34]; · iexact Hc34
  isplitl [HO]; · (iexists _; iexact HO)
  isplitl [Hat52]; · iexact Hat52
  isplitl [Hat22]; · iexact Hat22
  iexact Hown2

/-! ## Part 14: own chunk 2 goes on three ways -/

set_option maxRecDepth 65536 in
set_option maxHeartbeats 4000000 in
theorem part_14 (c : Dev nD) (K : Dev nD × Fin 86 → ℕ) (v2 v5 v8 v9 v11 v25 v48 v431 c0_i32_270 : BitVec 32) (W : Waits sig Unit)
    (f1 : Buf (Elt F) ((sl CM (xinOff (xn c) 2) (xinLen 2) (xin_inb (xn c) 2)).view.loc (xn c : Thread nD τ)))
    (f2 : Buf (Elt F) ((sl CM (yinOff (yn c) 2) (yinLen 2) (yin_inb (yn c) 2)).view.loc (yn c : Thread nD τ)))
    (fd3 : Buf (Elt F) ((sl OU (othb c + ownOff c 2) (ownLen 2) (oown_inb c 2)).view.loc (c : Thread nD τ))) :
    iprop(records m K ∗ levAts L lv
        ∗ pts c CM (ownOff c 2) (ownLen 2) (own_inb c 2) fullShare (commV m c)
        ∗ pts (xn c) CM (xinOff (xn c) 2) (xinLen 2) (xin_inb (xn c) 2) fullShare f1
        ∗ owes (c : Thread nD τ) (owedAfter c 16) W
        ∗ dutyTok ER (dcell c 30 (by decide)) 0 0
        ∗ dutyTok ER (dcell (xn c) 38 (by decide)) 0 0
        ∗ pts (yn c) CM (yinOff (yn c) 2) (yinLen 2) (yin_inb (yn c) 2) fullShare f2
        ∗ dutyTok ER (dcell c 46 (by decide)) 0 0
        ∗ dutyTok ER (dcell (yn c) 54 (by decide)) 0 0
        ∗ pts c OU (othb c + ownOff c 2) (ownLen 2) (oown_inb c 2) fullShare fd3
        ∗ dutyTok ER (dcell c 62 (by decide)) 0 0)
      ⊢ wp frame (wpE (defs₀ (F := F)) 𝒱₀ (c : Thread nD τ) none) Set.univ
          (k0_part14 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v11 v25 v48 v431 c0_i32_270)
          (fun _ => iprop(cred (tallyAt (dcell c 30 (by decide)) () (damt 30))
            ∗ cred (tallyAt (dcell c 46 (by decide)) () (damt 46))
            ∗ cred (tallyAt (dcell c 62 (by decide)) () (damt 62))
            ∗ (∃ W', owes (c : Thread nD τ) (owedAfter c 18) W'))) := by
  simp only [k0_part14_eq_skeleton]; unfold k0_part14_skel
  simp only [Prog.lift, Prog.bind_op, Prog.bind_ret, Prog.pure_eq_ret, Prog.bind_assoc]
  iintro ⟨#Hrec, #Hlev, Hown2, Hnx2, HO, Tsx2, Trx2, Hny2, Tsy2, Try2, Hdlz2, Tllz2⟩
  ihave Hs := (pb_pts_halves c CM _ _ _ fullShare (commV m c)).1 $$ Hown2
  icases Hs with ⟨Hown2L, Hown2R⟩
  -- the x-forward 2
  ihave Hsrc := (pb_pts_re (F := F) c CM (o := ownOff c 2) (o' := xinOff (xn c) 2) (r := ownLen 2) (r' := xinLen 2) (q := sL) (q' := sL)
    (by rw [(pb_xsrc c).2.2.1]; rfl) rfl rfl (own_inb c 2) (xin_inb (xn c) 2) (commV m c)) $$ Hown2L
  iapply (step_send' m c (xn c) CM CM (xinOff (xn c) 2) (xinOff (xn c) 2) (xinLen 2) (xin_inb (xn c) 2) (xin_inb (xn c) 2) 30 38 (pb_lt85 rfl) (pb_lt85 rfl)
    (sL) (commV m c) f1 (k0_off3 c) (k0_off3 c) (by rw [off3_eq, (pb_xsrc c).2.2.1]) (by rw [off3_eq, (pb_xsrc c).2.2.1]) _ _ rfl rfl _ (dev17_eq c)
    (κ₁ := K (c, ⟨30, by omega⟩)) (κ₂ := K (xn c, ⟨38, by omega⟩))
    (owedAfter c 16) (owedAfter c 17) W rfl (credit_xr _ 2 _) (pb_damt_xs_xr 2) (pay_xs m c 2) (pay_xr m c 2 f1)) $$ [Hsrc Hnx2 HO Tsx2 Trx2]
  · isplitr; · first | (iapply (inv_dma m K c 30 (pb_lt85 rfl)); iexact Hrec) | iapply (inv_dma m K c 30 (pb_lt85 rfl))
    isplitr; · first | (iapply (inv_dma m K (xn c) 38 (pb_lt85 rfl)); iexact Hrec) | iapply (inv_dma m K (xn c) 38 (pb_lt85 rfl))
    isplitl [Hsrc]; · iexact Hsrc
    isplitl [Hnx2]; · iexact Hnx2
    isplitl [HO]; · iexact HO
    isplitl [Tsx2]; · iexact Tsx2
    isplitr; · first | (iapply (reached_dma m K c 30 (pb_lt85 rfl)); iexact Hrec) | iapply (reached_dma m K c 30 (pb_lt85 rfl))
    isplitl [Trx2]; · iexact Trx2
    first | (iapply (reached_dma m K (xn c) 38 (pb_lt85 rfl)); iexact Hrec) | iapply (reached_dma m K (xn c) 38 (pb_lt85 rfl))
  iintro ⟨Hc30, HO⟩
  ihave Hc30 := (pb_cred_amt (F := F) (dcell c 30 (pb_lt85 rfl)) (show damt 38 = damt 30 from (pb_damt_xs_xr 2).symm)) $$ Hc30
  ihave Hs := (pb_pts_halves c CM _ _ _ sR (commV m c)).1 $$ Hown2R
  icases Hs with ⟨Hown2RL, Hown2RR⟩
  -- the y-forward 2
  ihave Hsrc := (pb_pts_re (F := F) c CM (o := ownOff c 2) (o' := yinOff (yn c) 2) (r := ownLen 2) (r' := yinLen 2) (q := sRL) (q' := qys 2)
    (by rw [(pb_ysrc c).2.2.1]; rfl) rfl rfl (own_inb c 2) (yin_inb (yn c) 2) (commV m c)) $$ Hown2RL
  iapply (step_send' m c (yn c) CM CM (yinOff (yn c) 2) (yinOff (yn c) 2) (yinLen 2) (yin_inb (yn c) 2) (yin_inb (yn c) 2) 46 54 (pb_lt85 rfl) (pb_lt85 rfl)
    (qys 2) (commV m c) f2 (k0_off3 c) (k0_off3 c) (by rw [off3_eq, (pb_ysrc c).2.2.1]) (by rw [off3_eq, (pb_ysrc c).2.2.1]) _ _ rfl rfl _ (dev18_eq c)
    (κ₁ := K (c, ⟨46, by omega⟩)) (κ₂ := K (yn c, ⟨54, by omega⟩))
    (owedAfter c 17) (owedAfter c 18) W rfl (credit_yr _ 2 _) (pb_damt_ys_yr 2) (pay_ys m c 2) (pay_yr m c 2 f2)) $$ [Hsrc Hny2 HO Tsy2 Try2]
  · isplitr; · first | (iapply (inv_dma m K c 46 (pb_lt85 rfl)); iexact Hrec) | iapply (inv_dma m K c 46 (pb_lt85 rfl))
    isplitr; · first | (iapply (inv_dma m K (yn c) 54 (pb_lt85 rfl)); iexact Hrec) | iapply (inv_dma m K (yn c) 54 (pb_lt85 rfl))
    isplitl [Hsrc]; · iexact Hsrc
    isplitl [Hny2]; · iexact Hny2
    isplitl [HO]; · iexact HO
    isplitl [Tsy2]; · iexact Tsy2
    isplitr; · first | (iapply (reached_dma m K c 46 (pb_lt85 rfl)); iexact Hrec) | iapply (reached_dma m K c 46 (pb_lt85 rfl))
    isplitl [Try2]; · iexact Try2
    first | (iapply (reached_dma m K (yn c) 54 (pb_lt85 rfl)); iexact Hrec) | iapply (reached_dma m K (yn c) 54 (pb_lt85 rfl))
  iintro ⟨Hc46, HO⟩
  ihave Hc46 := (pb_cred_amt (F := F) (dcell c 46 (pb_lt85 rfl)) (show damt 54 = damt 46 from (pb_damt_ys_yr 2).symm)) $$ Hc46
  -- the copy lz 2 to the result
  ihave Hsrc := (pb_pts_re (F := F) c CM (o := ownOff c 2) (o' := ownOff c 2) (r := ownLen 2) (r' := ownLen 2) (q := sRR) (q' := qlz 2)
    rfl rfl rfl (own_inb c 2) (own_inb c 2) (commV m c)) $$ Hown2RR
  iapply (step_copy' m c CM OU (ownOff c 2) (othb c + ownOff c 2) (ownLen 2) (own_inb c 2) (oown_inb c 2) 62 (pb_lt85 rfl) (qlz 2) (commV m c) fd3
    (k0_off3 c) (k0_off25 c) (by rw [off3_eq]; rfl) (by first | (rw [off25_eq, Nat.add_assoc]; rfl) | (rw [off25_eq]; rfl)) _ rfl
    (κ := K (c, ⟨62, by omega⟩)) (credit_lz _ 2 _) (pay_lz m c 2 fd3)) $$ [Hsrc Hdlz2 Tllz2]
  · isplitr; · first | (iapply (inv_dma m K c 62 (pb_lt85 rfl)); iexact Hrec) | iapply (inv_dma m K c 62 (pb_lt85 rfl))
    isplitl [Hsrc]; · iexact Hsrc
    isplitl [Hdlz2]; · iexact Hdlz2
    isplitl [Tllz2]; · iexact Tllz2
    first | (iapply (reached_dma m K c 62 (pb_lt85 rfl)); iexact Hrec) | iapply (reached_dma m K c 62 (pb_lt85 rfl))
  iintro Hc62
  rw [wp_ret]; imodintro
  isplitl [Hc30]; · iexact Hc30
  isplitl [Hc46]; · iexact Hc46
  isplitl [Hc62]; · iexact Hc62
  iexists _; iexact HO

/-! ## Part 15: own chunk 3 lands and goes on three ways -/

set_option maxRecDepth 65536 in
set_option maxHeartbeats 4000000 in
theorem part_15 (c : Dev nD) (K : Dev nD × Fin 86 → ℕ) (v2 v5 v8 v10 v11 v25 v49 : BitVec 32) (W : Waits sig Unit)
    (f1 : Buf (Elt F) ((sl CM (xinOff (xn c) 3) (xinLen 3) (xin_inb (xn c) 3)).view.loc (xn c : Thread nD τ)))
    (f2 : Buf (Elt F) ((sl CM (yinOff (yn c) 3) (yinLen 3) (yin_inb (yn c) 3)).view.loc (yn c : Thread nD τ)))
    (fd3 : Buf (Elt F) ((sl OU (othb c + ownOff c 3) (ownLen 3) (oown_inb c 3)).view.loc (c : Thread nD τ))) :
    iprop(records m K ∗ levAts L lv
        ∗ cred (tallyAt (dcell c 23 (by decide)) () (damt 23))
        ∗ owes (c : Thread nD τ) (owedAfter c 18) W
        ∗ atPos ER (dcell c 23 (by decide)) 0 ∅ 0
        ∗ pts (xn c) CM (xinOff (xn c) 3) (xinLen 3) (xin_inb (xn c) 3) fullShare f1
        ∗ dutyTok ER (dcell c 31 (by decide)) 0 0
        ∗ dutyTok ER (dcell (xn c) 39 (by decide)) 0 0
        ∗ pts (yn c) CM (yinOff (yn c) 3) (yinLen 3) (yin_inb (yn c) 3) fullShare f2
        ∗ dutyTok ER (dcell c 47 (by decide)) 0 0
        ∗ dutyTok ER (dcell (yn c) 55 (by decide)) 0 0
        ∗ pts c OU (othb c + ownOff c 3) (ownLen 3) (oown_inb c 3) fullShare fd3
        ∗ dutyTok ER (dcell c 63 (by decide)) 0 0)
      ⊢ wp frame (wpE (defs₀ (F := F)) 𝒱₀ (c : Thread nD τ) none) Set.univ
          (k0_part15 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v10 v11 v25 v49)
          (fun _ => iprop(cred (tallyAt (dcell c 31 (by decide)) () (damt 31))
            ∗ cred (tallyAt (dcell c 47 (by decide)) () (damt 47))
            ∗ cred (tallyAt (dcell c 63 (by decide)) () (damt 63))
            ∗ (∃ W', owes (c : Thread nD τ) (owedAfter c 20) W')
            ∗ atPos ER (dcell c 23 (by decide)) 1 ∅ 0)) := by
  simp only [k0_part15_eq_skeleton]; unfold k0_part15_skel
  simp only [Prog.lift, Prog.bind_op, Prog.bind_ret, Prog.pure_eq_ret, Prog.bind_assoc]
  iintro ⟨#Hrec, #Hlev, Hcr23, HO, Hat23, Hnx3, Tsx3, Trx3, Hny3, Tsy3, Try3, Hdlz3, Tllz3⟩
  -- the wait on zr 3
  iapply (step_wait' m c 23 (pb_lt85 rfl) _ rfl (κ := K (c, ⟨23, by omega⟩)) (owedAfter c 18) W
    ((credit_rect CM 168 _ _ _ 0 (by decide)).trans (credit_zr 0 3 (by decide)))) $$ [Hcr23 HO Hat23]
  · isplitr; · first | (iapply (inv_dma m K c 23 (pb_lt85 rfl)); iexact Hrec) | iapply (inv_dma m K c 23 (pb_lt85 rfl))
    isplitl [Hcr23]; · iexact Hcr23
    isplitl [HO]; · iexact HO
    isplitr; · first | (iapply (pb_mw_23_18 (F := F) c); iexact Hlev) | iapply (pb_mw_23_18 (F := F) c)
    iexact Hat23
  rw [pb_dpay_zr' m c 3 23 rfl]
  iintro ⟨HO, Hat23, -, Hown3⟩
  ihave Hs := (pb_pts_halves c CM _ _ _ fullShare (commV m c)).1 $$ Hown3
  icases Hs with ⟨Hown3L, Hown3R⟩
  -- the x-forward 3
  ihave Hsrc := (pb_pts_re (F := F) c CM (o := ownOff c 3) (o' := xinOff (xn c) 3) (r := ownLen 3) (r' := xinLen 3) (q := sL) (q' := sL)
    (by rw [(pb_xsrc c).2.2.2.1]; rfl) rfl rfl (own_inb c 3) (xin_inb (xn c) 3) (commV m c)) $$ Hown3L
  iapply (step_send' m c (xn c) CM CM (xinOff (xn c) 3) (xinOff (xn c) 3) (xinLen 3) (xin_inb (xn c) 3) (xin_inb (xn c) 3) 31 39 (pb_lt85 rfl) (pb_lt85 rfl)
    (sL) (commV m c) f1 (k0_off4 c) (k0_off4 c) (by rw [off4_eq, (pb_xsrc c).2.2.2.1]) (by rw [off4_eq, (pb_xsrc c).2.2.2.1]) _ _ rfl rfl _ (dev19_eq c)
    (κ₁ := K (c, ⟨31, by omega⟩)) (κ₂ := K (xn c, ⟨39, by omega⟩))
    (owedAfter c 18) (owedAfter c 19) (insert (SemLoc.dma ⟨23, pb_lt85 rfl⟩, ()) W) rfl (credit_xr _ 3 _) (pb_damt_xs_xr 3) (pay_xs m c 3) (pay_xr m c 3 f1)) $$ [Hsrc Hnx3 HO Tsx3 Trx3]
  · isplitr; · first | (iapply (inv_dma m K c 31 (pb_lt85 rfl)); iexact Hrec) | iapply (inv_dma m K c 31 (pb_lt85 rfl))
    isplitr; · first | (iapply (inv_dma m K (xn c) 39 (pb_lt85 rfl)); iexact Hrec) | iapply (inv_dma m K (xn c) 39 (pb_lt85 rfl))
    isplitl [Hsrc]; · iexact Hsrc
    isplitl [Hnx3]; · iexact Hnx3
    isplitl [HO]; · iexact HO
    isplitl [Tsx3]; · iexact Tsx3
    isplitr; · first | (iapply (reached_dma m K c 31 (pb_lt85 rfl)); iexact Hrec) | iapply (reached_dma m K c 31 (pb_lt85 rfl))
    isplitl [Trx3]; · iexact Trx3
    first | (iapply (reached_dma m K (xn c) 39 (pb_lt85 rfl)); iexact Hrec) | iapply (reached_dma m K (xn c) 39 (pb_lt85 rfl))
  iintro ⟨Hc31, HO⟩
  ihave Hc31 := (pb_cred_amt (F := F) (dcell c 31 (pb_lt85 rfl)) (show damt 39 = damt 31 from (pb_damt_xs_xr 3).symm)) $$ Hc31
  ihave Hs := (pb_pts_halves c CM _ _ _ sR (commV m c)).1 $$ Hown3R
  icases Hs with ⟨Hown3RL, Hown3RR⟩
  -- the y-forward 3
  ihave Hsrc := (pb_pts_re (F := F) c CM (o := ownOff c 3) (o' := yinOff (yn c) 3) (r := ownLen 3) (r' := yinLen 3) (q := sRL) (q' := qys 3)
    (by rw [(pb_ysrc c).2.2.2.1]; rfl) rfl rfl (own_inb c 3) (yin_inb (yn c) 3) (commV m c)) $$ Hown3RL
  iapply (step_send' m c (yn c) CM CM (yinOff (yn c) 3) (yinOff (yn c) 3) (yinLen 3) (yin_inb (yn c) 3) (yin_inb (yn c) 3) 47 55 (pb_lt85 rfl) (pb_lt85 rfl)
    (qys 3) (commV m c) f2 (k0_off4 c) (k0_off4 c) (by rw [off4_eq, (pb_ysrc c).2.2.2.1]) (by rw [off4_eq, (pb_ysrc c).2.2.2.1]) _ _ rfl rfl _ (dev20_eq c)
    (κ₁ := K (c, ⟨47, by omega⟩)) (κ₂ := K (yn c, ⟨55, by omega⟩))
    (owedAfter c 19) (owedAfter c 20) (insert (SemLoc.dma ⟨23, pb_lt85 rfl⟩, ()) W) rfl (credit_yr _ 3 _) (pb_damt_ys_yr 3) (pay_ys m c 3) (pay_yr m c 3 f2)) $$ [Hsrc Hny3 HO Tsy3 Try3]
  · isplitr; · first | (iapply (inv_dma m K c 47 (pb_lt85 rfl)); iexact Hrec) | iapply (inv_dma m K c 47 (pb_lt85 rfl))
    isplitr; · first | (iapply (inv_dma m K (yn c) 55 (pb_lt85 rfl)); iexact Hrec) | iapply (inv_dma m K (yn c) 55 (pb_lt85 rfl))
    isplitl [Hsrc]; · iexact Hsrc
    isplitl [Hny3]; · iexact Hny3
    isplitl [HO]; · iexact HO
    isplitl [Tsy3]; · iexact Tsy3
    isplitr; · first | (iapply (reached_dma m K c 47 (pb_lt85 rfl)); iexact Hrec) | iapply (reached_dma m K c 47 (pb_lt85 rfl))
    isplitl [Try3]; · iexact Try3
    first | (iapply (reached_dma m K (yn c) 55 (pb_lt85 rfl)); iexact Hrec) | iapply (reached_dma m K (yn c) 55 (pb_lt85 rfl))
  iintro ⟨Hc47, HO⟩
  ihave Hc47 := (pb_cred_amt (F := F) (dcell c 47 (pb_lt85 rfl)) (show damt 55 = damt 47 from (pb_damt_ys_yr 3).symm)) $$ Hc47
  -- the copy lz 3 to the result
  ihave Hsrc := (pb_pts_re (F := F) c CM (o := ownOff c 3) (o' := ownOff c 3) (r := ownLen 3) (r' := ownLen 3) (q := sRR) (q' := qlz 3)
    rfl rfl rfl (own_inb c 3) (own_inb c 3) (commV m c)) $$ Hown3RR
  iapply (step_copy' m c CM OU (ownOff c 3) (othb c + ownOff c 3) (ownLen 3) (own_inb c 3) (oown_inb c 3) 63 (pb_lt85 rfl) (qlz 3) (commV m c) fd3
    (k0_off4 c) (k0_off26 c) (by rw [off4_eq]; rfl) (by first | (rw [off26_eq, Nat.add_assoc]; rfl) | (rw [off26_eq]; rfl)) _ rfl
    (κ := K (c, ⟨63, by omega⟩)) (credit_lz _ 3 _) (pay_lz m c 3 fd3)) $$ [Hsrc Hdlz3 Tllz3]
  · isplitr; · first | (iapply (inv_dma m K c 63 (pb_lt85 rfl)); iexact Hrec) | iapply (inv_dma m K c 63 (pb_lt85 rfl))
    isplitl [Hsrc]; · iexact Hsrc
    isplitl [Hdlz3]; · iexact Hdlz3
    isplitl [Tllz3]; · iexact Tllz3
    first | (iapply (reached_dma m K c 63 (pb_lt85 rfl)); iexact Hrec) | iapply (reached_dma m K c 63 (pb_lt85 rfl))
  iintro Hc63
  rw [wp_ret]; imodintro
  isplitl [Hc31]; · iexact Hc31
  isplitl [Hc47]; · iexact Hc47
  isplitl [Hc63]; · iexact Hc63
  isplitl [HO]; · (iexists _; iexact HO)
  iexact Hat23

/-! ## Part 16: the y-arrival 1 lands, is copied and sent on to the x-neighbour -/

set_option maxRecDepth 65536 in
set_option maxHeartbeats 4000000 in
theorem part_16 (c : Dev nD) (K : Dev nD × Fin 86 → ℕ) (v2 v5 v8 v9 v10 v25 v36 v125 v499 : BitVec 32) (W : Waits sig Unit)
    (fd1 : Buf (Elt F) ((sl OU (othb c + yinOff c 1) (yinLen 1) (oyin_inb c 1)).view.loc (c : Thread nD τ)))
    (f2 : Buf (Elt F) ((sl CM (xinOff (xn c) 7) (xinLen 7) (xin_inb (xn c) 7)).view.loc (xn c : Thread nD τ))) :
    iprop(records m K ∗ levAts L lv
        ∗ cred (tallyAt (dcell c 53 (by decide)) () (damt 53))
        ∗ owes (c : Thread nD τ) (owedAfter c 20) W
        ∗ atPos ER (dcell c 53 (by decide)) 0 ∅ 0
        ∗ pts c OU (othb c + yinOff c 1) (yinLen 1) (oyin_inb c 1) fullShare fd1
        ∗ dutyTok ER (dcell c 77 (by decide)) 0 0
        ∗ pts (xn c) CM (xinOff (xn c) 7) (xinLen 7) (xin_inb (xn c) 7) fullShare f2
        ∗ dutyTok ER (dcell c 35 (by decide)) 0 0
        ∗ dutyTok ER (dcell (xn c) 43 (by decide)) 0 0)
      ⊢ wp frame (wpE (defs₀ (F := F)) 𝒱₀ (c : Thread nD τ) none) Set.univ
          (k0_part16 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v25 v36 v125 v499)
          (fun _ => iprop(cred (tallyAt (dcell c 77 (by decide)) () (damt 77))
            ∗ cred (tallyAt (dcell c 35 (by decide)) () (damt 35))
            ∗ (∃ W', owes (c : Thread nD τ) (owedAfter c 21) W')
            ∗ atPos ER (dcell c 53 (by decide)) 1 ∅ 0)) := by
  simp only [k0_part16_eq_skeleton]; unfold k0_part16_skel
  simp only [Prog.lift, Prog.bind_op, Prog.bind_ret, Prog.pure_eq_ret, Prog.bind_assoc]
  iintro ⟨#Hrec, #Hlev, Hcr53, HO, Hat53, Hdly1, Tlly1, Hnx7, Tsx7, Trx7⟩
  -- the wait on yr 1
  iapply (step_wait' m c 53 (pb_lt85 rfl) _ rfl (κ := K (c, ⟨53, by omega⟩)) (owedAfter c 20) W
    ((credit_rect CM 224 _ _ _ 0 (by decide)).trans (credit_yr 0 1 (by decide)))) $$ [Hcr53 HO Hat53]
  · isplitr; · first | (iapply (inv_dma m K c 53 (pb_lt85 rfl)); iexact Hrec) | iapply (inv_dma m K c 53 (pb_lt85 rfl))
    isplitl [Hcr53]; · iexact Hcr53
    isplitl [HO]; · iexact HO
    isplitr; · first | (iapply (pb_mw_53_20 (F := F) c); iexact Hlev) | iapply (pb_mw_53_20 (F := F) c)
    iexact Hat53
  rw [pb_dpay_yr' m c 1 53 rfl]
  iintro ⟨HO, Hat53, -, Hyin1⟩
  ihave Hs := (pb_pts_halves c CM _ _ _ fullShare (commV m c)).1 $$ Hyin1
  icases Hs with ⟨Hyin1L, Hyin1R⟩
  -- the copy ly 1 to the result
  ihave Hsrc := (pb_pts_re (F := F) c CM (o := yinOff c 1) (o' := yinOff c 1) (r := yinLen 1) (r' := yinLen 1) (q := sR) (q' := qly 1)
    rfl rfl rfl (yin_inb c 1) (yin_inb c 1) (commV m c)) $$ Hyin1R
  iapply (step_copy' m c CM OU (yinOff c 1) (othb c + yinOff c 1) (yinLen 1) (yin_inb c 1) (oyin_inb c 1) 77 (pb_lt85 rfl) (qly 1) (commV m c) fd1
    (k0_off27 c) (k0_off28 c) (by rw [off27_eq]; rfl) (by first | (rw [off28_eq, Nat.add_assoc]; rfl) | (rw [off28_eq]; rfl)) _ rfl
    (κ := K (c, ⟨77, by omega⟩)) (credit_ly _ 1 _) (pay_ly m c 1 fd1)) $$ [Hsrc Hdly1 Tlly1]
  · isplitr; · first | (iapply (inv_dma m K c 77 (pb_lt85 rfl)); iexact Hrec) | iapply (inv_dma m K c 77 (pb_lt85 rfl))
    isplitl [Hsrc]; · iexact Hsrc
    isplitl [Hdly1]; · iexact Hdly1
    isplitl [Tlly1]; · iexact Tlly1
    first | (iapply (reached_dma m K c 77 (pb_lt85 rfl)); iexact Hrec) | iapply (reached_dma m K c 77 (pb_lt85 rfl))
  iintro Hc77
  -- the x-forward 7
  ihave Hsrc := (pb_pts_re (F := F) c CM (o := yinOff c 1) (o' := xinOff (xn c) 7) (r := yinLen 1) (r' := xinLen 7) (q := sL) (q' := sL)
    (by rw [(pb_xsrc c).2.2.2.2.2.2.2]; rfl) rfl rfl (yin_inb c 1) (xin_inb (xn c) 7) (commV m c)) $$ Hyin1L
  iapply (step_send' m c (xn c) CM CM (xinOff (xn c) 7) (xinOff (xn c) 7) (xinLen 7) (xin_inb (xn c) 7) (xin_inb (xn c) 7) 35 43 (pb_lt85 rfl) (pb_lt85 rfl)
    (sL) (commV m c) f2 (k0_off27 c) (k0_off27 c) (by rw [off27_eq, (pb_xsrc c).2.2.2.2.2.2.2]) (by rw [off27_eq, (pb_xsrc c).2.2.2.2.2.2.2]) _ _ rfl rfl _ (dev21_eq c)
    (κ₁ := K (c, ⟨35, by omega⟩)) (κ₂ := K (xn c, ⟨43, by omega⟩))
    (owedAfter c 20) (owedAfter c 21) (insert (SemLoc.dma ⟨53, pb_lt85 rfl⟩, ()) W) rfl (credit_xr _ 7 _) (pb_damt_xs_xr 7) (pay_xs m c 7) (pay_xr m c 7 f2)) $$ [Hsrc Hnx7 HO Tsx7 Trx7]
  · isplitr; · first | (iapply (inv_dma m K c 35 (pb_lt85 rfl)); iexact Hrec) | iapply (inv_dma m K c 35 (pb_lt85 rfl))
    isplitr; · first | (iapply (inv_dma m K (xn c) 43 (pb_lt85 rfl)); iexact Hrec) | iapply (inv_dma m K (xn c) 43 (pb_lt85 rfl))
    isplitl [Hsrc]; · iexact Hsrc
    isplitl [Hnx7]; · iexact Hnx7
    isplitl [HO]; · iexact HO
    isplitl [Tsx7]; · iexact Tsx7
    isplitr; · first | (iapply (reached_dma m K c 35 (pb_lt85 rfl)); iexact Hrec) | iapply (reached_dma m K c 35 (pb_lt85 rfl))
    isplitl [Trx7]; · iexact Trx7
    first | (iapply (reached_dma m K (xn c) 43 (pb_lt85 rfl)); iexact Hrec) | iapply (reached_dma m K (xn c) 43 (pb_lt85 rfl))
  iintro ⟨Hc35, HO⟩
  ihave Hc35 := (pb_cred_amt (F := F) (dcell c 35 (pb_lt85 rfl)) (show damt 43 = damt 35 from (pb_damt_xs_xr 7).symm)) $$ Hc35
  rw [wp_ret]; imodintro
  isplitl [Hc77]; · iexact Hc77
  isplitl [Hc35]; · iexact Hc35
  isplitl [HO]; · (iexists _; iexact HO)
  iexact Hat53

/-! ## Part 17: the x-arrival 2 lands, is copied and sent on to the y-neighbour; the x-arrival 3 lands -/

set_option maxRecDepth 65536 in
set_option maxHeartbeats 4000000 in
theorem part_17 (c : Dev nD) (K : Dev nD × Fin 86 → ℕ) (v2 v5 v8 v9 v11 v25 v32 v121 v122 : BitVec 32) (W : Waits sig Unit)
    (fd1 : Buf (Elt F) ((sl OU (othb c + xinOff c 2) (xinLen 2) (oxin_inb c 2)).view.loc (c : Thread nD τ)))
    (f2 : Buf (Elt F) ((sl CM (yinOff (yn c) 6) (yinLen 6) (yin_inb (yn c) 6)).view.loc (yn c : Thread nD τ))) :
    iprop(records m K ∗ levAts L lv
        ∗ cred (tallyAt (dcell c 38 (by decide)) () (damt 38))
        ∗ owes (c : Thread nD τ) (owedAfter c 21) W
        ∗ atPos ER (dcell c 38 (by decide)) 0 ∅ 0
        ∗ pts c OU (othb c + xinOff c 2) (xinLen 2) (oxin_inb c 2) fullShare fd1
        ∗ dutyTok ER (dcell c 70 (by decide)) 0 0
        ∗ pts (yn c) CM (yinOff (yn c) 6) (yinLen 6) (yin_inb (yn c) 6) fullShare f2
        ∗ dutyTok ER (dcell c 50 (by decide)) 0 0
        ∗ dutyTok ER (dcell (yn c) 58 (by decide)) 0 0
        ∗ cred (tallyAt (dcell c 39 (by decide)) () (damt 39))
        ∗ atPos ER (dcell c 39 (by decide)) 0 ∅ 0)
      ⊢ wp frame (wpE (defs₀ (F := F)) 𝒱₀ (c : Thread nD τ) none) Set.univ
          (k0_part17 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v11 v25 v32 v121 v122)
          (fun _ => iprop(cred (tallyAt (dcell c 70 (by decide)) () (damt 70))
            ∗ cred (tallyAt (dcell c 50 (by decide)) () (damt 50))
            ∗ (∃ W', owes (c : Thread nD τ) (owedAfter c 22) W')
            ∗ atPos ER (dcell c 38 (by decide)) 1 ∅ 0
            ∗ atPos ER (dcell c 39 (by decide)) 1 ∅ 0
            ∗ pts c CM (xinOff c 3) (xinLen 3) (xin_inb c 3) fullShare (commV m c))) := by
  simp only [k0_part17_eq_skeleton]; unfold k0_part17_skel
  simp only [Prog.lift, Prog.bind_op, Prog.bind_ret, Prog.pure_eq_ret, Prog.bind_assoc]
  iintro ⟨#Hrec, #Hlev, Hcr38, HO, Hat38, Hdlx2, Tllx2, Hny6, Tsy6, Try6, Hcr39, Hat39⟩
  -- the wait on xr 2
  iapply (step_wait' m c 38 (pb_lt85 rfl) _ rfl (κ := K (c, ⟨38, by omega⟩)) (owedAfter c 21) W
    ((credit_rect CM 168 _ _ _ 0 (by decide)).trans (credit_xr 0 2 (by decide)))) $$ [Hcr38 HO Hat38]
  · isplitr; · first | (iapply (inv_dma m K c 38 (pb_lt85 rfl)); iexact Hrec) | iapply (inv_dma m K c 38 (pb_lt85 rfl))
    isplitl [Hcr38]; · iexact Hcr38
    isplitl [HO]; · iexact HO
    isplitr; · first | (iapply (pb_mw_38_21 (F := F) c); iexact Hlev) | iapply (pb_mw_38_21 (F := F) c)
    iexact Hat38
  rw [pb_dpay_xr' m c 2 38 rfl]
  iintro ⟨HO, Hat38, -, Hxin2⟩
  ihave Hs := (pb_pts_halves c CM _ _ _ fullShare (commV m c)).1 $$ Hxin2
  icases Hs with ⟨Hxin2L, Hxin2R⟩
  -- the copy lx 2 to the result
  ihave Hsrc := (pb_pts_re (F := F) c CM (o := xinOff c 2) (o' := xinOff c 2) (r := xinLen 2) (r' := xinLen 2) (q := sR) (q' := qlx 2)
    rfl rfl rfl (xin_inb c 2) (xin_inb c 2) (commV m c)) $$ Hxin2R
  iapply (step_copy' m c CM OU (xinOff c 2) (othb c + xinOff c 2) (xinLen 2) (xin_inb c 2) (oxin_inb c 2) 70 (pb_lt85 rfl) (qlx 2) (commV m c) fd1
    (k0_off29 c 112#32 224#32) (k0_off30 c) (by rw [off29_1_eq]; rfl) (by first | (rw [off30_eq, Nat.add_assoc]; rfl) | (rw [off30_eq]; rfl)) _ rfl
    (κ := K (c, ⟨70, by omega⟩)) (credit_lx _ 2 _) (pay_lx m c 2 fd1)) $$ [Hsrc Hdlx2 Tllx2]
  · isplitr; · first | (iapply (inv_dma m K c 70 (pb_lt85 rfl)); iexact Hrec) | iapply (inv_dma m K c 70 (pb_lt85 rfl))
    isplitl [Hsrc]; · iexact Hsrc
    isplitl [Hdlx2]; · iexact Hdlx2
    isplitl [Tllx2]; · iexact Tllx2
    first | (iapply (reached_dma m K c 70 (pb_lt85 rfl)); iexact Hrec) | iapply (reached_dma m K c 70 (pb_lt85 rfl))
  iintro Hc70
  -- the y-forward 6
  ihave Hsrc := (pb_pts_re (F := F) c CM (o := xinOff c 2) (o' := yinOff (yn c) 6) (r := xinLen 2) (r' := yinLen 6) (q := sL) (q' := qys 6)
    (by rw [(pb_ysrc c).2.2.2.2.2.2.1]; rfl) rfl rfl (xin_inb c 2) (yin_inb (yn c) 6) (commV m c)) $$ Hxin2L
  iapply (step_send' m c (yn c) CM CM (yinOff (yn c) 6) (yinOff (yn c) 6) (yinLen 6) (yin_inb (yn c) 6) (yin_inb (yn c) 6) 50 58 (pb_lt85 rfl) (pb_lt85 rfl)
    (qys 6) (commV m c) f2 (k0_off31 c) (k0_off31 c) (by rw [off31_eq, (pb_ysrc c).2.2.2.2.2.2.1]) (by rw [off31_eq, (pb_ysrc c).2.2.2.2.2.2.1]) _ _ rfl rfl _ (dev22_eq c)
    (κ₁ := K (c, ⟨50, by omega⟩)) (κ₂ := K (yn c, ⟨58, by omega⟩))
    (owedAfter c 21) (owedAfter c 22) (insert (SemLoc.dma ⟨38, pb_lt85 rfl⟩, ()) W) rfl (credit_yr _ 6 _) (pb_damt_ys_yr 6) (pay_ys m c 6) (pay_yr m c 6 f2)) $$ [Hsrc Hny6 HO Tsy6 Try6]
  · isplitr; · first | (iapply (inv_dma m K c 50 (pb_lt85 rfl)); iexact Hrec) | iapply (inv_dma m K c 50 (pb_lt85 rfl))
    isplitr; · first | (iapply (inv_dma m K (yn c) 58 (pb_lt85 rfl)); iexact Hrec) | iapply (inv_dma m K (yn c) 58 (pb_lt85 rfl))
    isplitl [Hsrc]; · iexact Hsrc
    isplitl [Hny6]; · iexact Hny6
    isplitl [HO]; · iexact HO
    isplitl [Tsy6]; · iexact Tsy6
    isplitr; · first | (iapply (reached_dma m K c 50 (pb_lt85 rfl)); iexact Hrec) | iapply (reached_dma m K c 50 (pb_lt85 rfl))
    isplitl [Try6]; · iexact Try6
    first | (iapply (reached_dma m K (yn c) 58 (pb_lt85 rfl)); iexact Hrec) | iapply (reached_dma m K (yn c) 58 (pb_lt85 rfl))
  iintro ⟨Hc50, HO⟩
  ihave Hc50 := (pb_cred_amt (F := F) (dcell c 50 (pb_lt85 rfl)) (show damt 58 = damt 50 from (pb_damt_ys_yr 6).symm)) $$ Hc50
  -- the wait on xr 3
  iapply (step_wait' m c 39 (pb_lt85 rfl) _ rfl (κ := K (c, ⟨39, by omega⟩)) (owedAfter c 22) (insert (SemLoc.dma ⟨38, pb_lt85 rfl⟩, ()) W)
    ((credit_rect CM 168 _ _ _ 0 (by decide)).trans (credit_xr 0 3 (by decide)))) $$ [Hcr39 HO Hat39]
  · isplitr; · first | (iapply (inv_dma m K c 39 (pb_lt85 rfl)); iexact Hrec) | iapply (inv_dma m K c 39 (pb_lt85 rfl))
    isplitl [Hcr39]; · iexact Hcr39
    isplitl [HO]; · iexact HO
    isplitr; · first | (iapply (pb_mw_39_22 (F := F) c); iexact Hlev) | iapply (pb_mw_39_22 (F := F) c)
    iexact Hat39
  rw [pb_dpay_xr' m c 3 39 rfl]
  iintro ⟨HO, Hat39, -, Hxin3⟩
  rw [wp_ret]; imodintro
  isplitl [Hc70]; · iexact Hc70
  isplitl [Hc50]; · iexact Hc50
  isplitl [HO]; · (iexists _; iexact HO)
  isplitl [Hat38]; · iexact Hat38
  isplitl [Hat39]; · iexact Hat39
  iexact Hxin3

/-! ## Part 18: the x-arrival 3 is copied and sent on to the y-neighbour; own chunk 4 lands -/

set_option maxRecDepth 65536 in
set_option maxHeartbeats 4000000 in
theorem part_18 (c : Dev nD) (K : Dev nD × Fin 86 → ℕ) (v2 v5 v8 v9 v10 v11 v32 : BitVec 32) (W : Waits sig Unit)
    (fd1 : Buf (Elt F) ((sl OU (othb c + xinOff c 3) (xinLen 3) (oxin_inb c 3)).view.loc (c : Thread nD τ)))
    (f2 : Buf (Elt F) ((sl CM (yinOff (yn c) 7) (yinLen 7) (yin_inb (yn c) 7)).view.loc (yn c : Thread nD τ))) :
    iprop(records m K ∗ levAts L lv
        ∗ pts c CM (xinOff c 3) (xinLen 3) (xin_inb c 3) fullShare (commV m c)
        ∗ pts c OU (othb c + xinOff c 3) (xinLen 3) (oxin_inb c 3) fullShare fd1
        ∗ dutyTok ER (dcell c 71 (by decide)) 0 0
        ∗ owes (c : Thread nD τ) (owedAfter c 22) W
        ∗ pts (yn c) CM (yinOff (yn c) 7) (yinLen 7) (yin_inb (yn c) 7) fullShare f2
        ∗ dutyTok ER (dcell c 51 (by decide)) 0 0
        ∗ dutyTok ER (dcell (yn c) 59 (by decide)) 0 0
        ∗ cred (tallyAt (dcell c 24 (by decide)) () (damt 24))
        ∗ atPos ER (dcell c 24 (by decide)) 0 ∅ 0)
      ⊢ wp frame (wpE (defs₀ (F := F)) 𝒱₀ (c : Thread nD τ) none) Set.univ
          (k0_part18 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v11 v32)
          (fun _ => iprop(cred (tallyAt (dcell c 71 (by decide)) () (damt 71))
            ∗ cred (tallyAt (dcell c 51 (by decide)) () (damt 51))
            ∗ (∃ W', owes (c : Thread nD τ) (owedAfter c 23) W')
            ∗ atPos ER (dcell c 24 (by decide)) 1 ∅ 0
            ∗ pts c CM (ownOff c 4) (ownLen 4) (own_inb c 4) fullShare (commV m c))) := by
  simp only [k0_part18_eq_skeleton]; unfold k0_part18_skel
  simp only [Prog.lift, Prog.bind_op, Prog.bind_ret, Prog.pure_eq_ret, Prog.bind_assoc]
  iintro ⟨#Hrec, #Hlev, Hxin3, Hdlx3, Tllx3, HO, Hny7, Tsy7, Try7, Hcr24, Hat24⟩
  ihave Hs := (pb_pts_halves c CM _ _ _ fullShare (commV m c)).1 $$ Hxin3
  icases Hs with ⟨Hxin3L, Hxin3R⟩
  -- the copy lx 3 to the result
  ihave Hsrc := (pb_pts_re (F := F) c CM (o := xinOff c 3) (o' := xinOff c 3) (r := xinLen 3) (r' := xinLen 3) (q := sR) (q' := qlx 3)
    rfl rfl rfl (xin_inb c 3) (xin_inb c 3) (commV m c)) $$ Hxin3R
  iapply (step_copy' m c CM OU (xinOff c 3) (othb c + xinOff c 3) (xinLen 3) (xin_inb c 3) (oxin_inb c 3) 71 (pb_lt85 rfl) (qlx 3) (commV m c) fd1
    (k0_off32 c) (k0_off33 c) (by rw [off32_eq]; rfl) (by first | (rw [off33_eq, Nat.add_assoc]; rfl) | (rw [off33_eq]; rfl)) _ rfl
    (κ := K (c, ⟨71, by omega⟩)) (credit_lx _ 3 _) (pay_lx m c 3 fd1)) $$ [Hsrc Hdlx3 Tllx3]
  · isplitr; · first | (iapply (inv_dma m K c 71 (pb_lt85 rfl)); iexact Hrec) | iapply (inv_dma m K c 71 (pb_lt85 rfl))
    isplitl [Hsrc]; · iexact Hsrc
    isplitl [Hdlx3]; · iexact Hdlx3
    isplitl [Tllx3]; · iexact Tllx3
    first | (iapply (reached_dma m K c 71 (pb_lt85 rfl)); iexact Hrec) | iapply (reached_dma m K c 71 (pb_lt85 rfl))
  iintro Hc71
  -- the y-forward 7
  ihave Hsrc := (pb_pts_re (F := F) c CM (o := xinOff c 3) (o' := yinOff (yn c) 7) (r := xinLen 3) (r' := yinLen 7) (q := sL) (q' := qys 7)
    (by rw [(pb_ysrc c).2.2.2.2.2.2.2]; rfl) rfl rfl (xin_inb c 3) (yin_inb (yn c) 7) (commV m c)) $$ Hxin3L
  iapply (step_send' m c (yn c) CM CM (yinOff (yn c) 7) (yinOff (yn c) 7) (yinLen 7) (yin_inb (yn c) 7) (yin_inb (yn c) 7) 51 59 (pb_lt85 rfl) (pb_lt85 rfl)
    (qys 7) (commV m c) f2 (k0_off29 c 336#32 168#32) (k0_off29 c 336#32 168#32) (by rw [off29_2_eq, (pb_ysrc c).2.2.2.2.2.2.2]) (by rw [off29_2_eq, (pb_ysrc c).2.2.2.2.2.2.2]) _ _ rfl rfl _ (dev23_eq c)
    (κ₁ := K (c, ⟨51, by omega⟩)) (κ₂ := K (yn c, ⟨59, by omega⟩))
    (owedAfter c 22) (owedAfter c 23) W rfl (credit_yr _ 7 _) (pb_damt_ys_yr 7) (pay_ys m c 7) (pay_yr m c 7 f2)) $$ [Hsrc Hny7 HO Tsy7 Try7]
  · isplitr; · first | (iapply (inv_dma m K c 51 (pb_lt85 rfl)); iexact Hrec) | iapply (inv_dma m K c 51 (pb_lt85 rfl))
    isplitr; · first | (iapply (inv_dma m K (yn c) 59 (pb_lt85 rfl)); iexact Hrec) | iapply (inv_dma m K (yn c) 59 (pb_lt85 rfl))
    isplitl [Hsrc]; · iexact Hsrc
    isplitl [Hny7]; · iexact Hny7
    isplitl [HO]; · iexact HO
    isplitl [Tsy7]; · iexact Tsy7
    isplitr; · first | (iapply (reached_dma m K c 51 (pb_lt85 rfl)); iexact Hrec) | iapply (reached_dma m K c 51 (pb_lt85 rfl))
    isplitl [Try7]; · iexact Try7
    first | (iapply (reached_dma m K (yn c) 59 (pb_lt85 rfl)); iexact Hrec) | iapply (reached_dma m K (yn c) 59 (pb_lt85 rfl))
  iintro ⟨Hc51, HO⟩
  ihave Hc51 := (pb_cred_amt (F := F) (dcell c 51 (pb_lt85 rfl)) (show damt 59 = damt 51 from (pb_damt_ys_yr 7).symm)) $$ Hc51
  -- the wait on zr 4
  iapply (step_wait' m c 24 (pb_lt85 rfl) _ rfl (κ := K (c, ⟨24, by omega⟩)) (owedAfter c 23) W
    ((credit_rect CM 176 _ _ _ 0 (by decide)).trans (credit_zr 0 4 (by decide)))) $$ [Hcr24 HO Hat24]
  · isplitr; · first | (iapply (inv_dma m K c 24 (pb_lt85 rfl)); iexact Hrec) | iapply (inv_dma m K c 24 (pb_lt85 rfl))
    isplitl [Hcr24]; · iexact Hcr24
    isplitl [HO]; · iexact HO
    isplitr; · first | (iapply (pb_mw_24_23 (F := F) c); iexact Hlev) | iapply (pb_mw_24_23 (F := F) c)
    iexact Hat24
  rw [pb_dpay_zr' m c 4 24 rfl]
  iintro ⟨HO, Hat24, -, Hown4⟩
  rw [wp_ret]; imodintro
  isplitl [Hc71]; · iexact Hc71
  isplitl [Hc51]; · iexact Hc51
  isplitl [HO]; · (iexists _; iexact HO)
  isplitl [Hat24]; · iexact Hat24
  iexact Hown4

end Cert.KernelIdeal.AG

end

/-- info: 'Cert.KernelIdeal.AG.part_11' depends on axioms: [propext, Classical.choice, Quot.sound] -/
#guard_msgs in #print axioms Cert.KernelIdeal.AG.part_11

/-- info: 'Cert.KernelIdeal.AG.part_12' depends on axioms: [propext, Classical.choice, Quot.sound] -/
#guard_msgs in #print axioms Cert.KernelIdeal.AG.part_12

/-- info: 'Cert.KernelIdeal.AG.part_13' depends on axioms: [propext, Classical.choice, Quot.sound] -/
#guard_msgs in #print axioms Cert.KernelIdeal.AG.part_13

/-- info: 'Cert.KernelIdeal.AG.part_14' depends on axioms: [propext, Classical.choice, Quot.sound] -/
#guard_msgs in #print axioms Cert.KernelIdeal.AG.part_14

/-- info: 'Cert.KernelIdeal.AG.part_15' depends on axioms: [propext, Classical.choice, Quot.sound] -/
#guard_msgs in #print axioms Cert.KernelIdeal.AG.part_15

/-- info: 'Cert.KernelIdeal.AG.part_16' depends on axioms: [propext, Classical.choice, Quot.sound] -/
#guard_msgs in #print axioms Cert.KernelIdeal.AG.part_16

/-- info: 'Cert.KernelIdeal.AG.part_17' depends on axioms: [propext, Classical.choice, Quot.sound] -/
#guard_msgs in #print axioms Cert.KernelIdeal.AG.part_17

/-- info: 'Cert.KernelIdeal.AG.part_18' depends on axioms: [propext, Classical.choice, Quot.sound] -/
#guard_msgs in #print axioms Cert.KernelIdeal.AG.part_18
-- ==== Proof.AGParts_f.lean ====
/-
  The body of one device, part by part: the last three parts of its forwarding.
  Own chunks 4 to 7 of the communication buffer, as they arrive from the z-neighbour, are forwarded: chunks 4 and 5 to the
  x-neighbour, chunks 6 and 7 to the y-neighbour, each read at the left half; the right half of each is copied into the other
  half of the result.  Then the device waits for the input copy of the x-neighbour's 672-region and loads the staged rows,
  whose conversion is handed on.
-/
import proofs.«900673_g7700000000000674_dist_ag_v7x_xyz2x2x2_z_m4096_n1024_bf16_1_alg».proof.Proof.Gen.KernelIdeal.Skeleton
import proofs.«900673_g7700000000000674_dist_ag_v7x_xyz2x2x2_z_m4096_n1024_bf16_1_alg».proof.Proof.AGSteps
import proofs.«900673_g7700000000000674_dist_ag_v7x_xyz2x2x2_z_m4096_n1024_bf16_1_alg».proof.Proof.AGPays
import proofs.«900673_g7700000000000674_dist_ag_v7x_xyz2x2x2_z_m4096_n1024_bf16_1_alg».proof.Proof.AGSlices
import proofs.«900673_g7700000000000674_dist_ag_v7x_xyz2x2x2_z_m4096_n1024_bf16_1_alg».proof.Proof.AGOffs
import proofs.«900673_g7700000000000674_dist_ag_v7x_xyz2x2x2_z_m4096_n1024_bf16_1_alg».proof.Proof.AGGlue
import proofs.«900673_g7700000000000674_dist_ag_v7x_xyz2x2x2_z_m4096_n1024_bf16_1_alg».proof.Proof.AGParts_ah

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows, units and levels of these parts -/

/-- Own chunks 4 and 5 are what the x-neighbour calls its arrivals 4 and 5 from this device; own chunks 6 and 7 what the
    y-neighbour calls its arrivals 4 and 5. -/
theorem pf_rows : ∀ c : Dev nD, ownOff c 4 = xinOff (xn c) 4 ∧ ownOff c 5 = xinOff (xn c) 5
    ∧ ownOff c 6 = yinOff (yn c) 4 ∧ ownOff c 7 = yinOff (yn c) 5 := by decide

/-- An x- and a y-transfer's two cells carry the same units. -/
theorem pf_damt_x (k : Fin 8) : damt (28 + k.val) = damt (36 + k.val) :=
  (credit_xs 0 k (by have := (xinLen_pos k).2; omega)).symm.trans (credit_xr 0 k (by have := (xinLen_pos k).2; omega))
theorem pf_damt_y (k : Fin 8) : damt (44 + k.val) = damt (52 + k.val) :=
  (credit_ys 0 k (by have := (yinLen_pos k).2; omega)).symm.trans (credit_yr 0 k (by have := (yinLen_pos k).2; omega))

/-- A credit in other units that are the same number. -/
theorem pf_cred_eq (c : Dev nD) (n : ℕ) (h : n < 85) (a b : ℕ) (hab : a = b) :
    (cred (tallyAt (dcell c n h) () a) : sProp 𝕄) ⊢ cred (tallyAt (dcell c n h) () b) := by subst hab; exact .rfl

theorem pf_lv_25 : ∀ (c : Dev nD), ∀ t ∈ (fires c).drop 24,
    lv ((c : Thread nD τ), SemLoc.dma ⟨25, by decide⟩) () < lv t.1 () ∧ t.1.1.2 = .tc := by decide
theorem pf_lv_26 : ∀ (c : Dev nD), ∀ t ∈ (fires c).drop 25,
    lv ((c : Thread nD τ), SemLoc.dma ⟨26, by decide⟩) () < lv t.1 () ∧ t.1.1.2 = .tc := by decide
theorem pf_lv_27 : ∀ (c : Dev nD), ∀ t ∈ (fires c).drop 26,
    lv ((c : Thread nD τ), SemLoc.dma ⟨27, by decide⟩) () < lv t.1 () ∧ t.1.1.2 = .tc := by decide
theorem pf_lv_8 : ∀ (c : Dev nD), ∀ t ∈ (fires c).drop 27,
    lv ((c : Thread nD τ), SemLoc.dma ⟨8, by decide⟩) () < lv t.1 () ∧ t.1.1.2 = .tc := by decide

set_option maxRecDepth 65536 in
set_option maxHeartbeats 4000000 in
/-- Part 19: own chunk 4 forwarded to the x-neighbour and copied into the result; the wait for own chunk 5 from the z-neighbour; own chunk 5 forwarded to the x-neighbour. -/
theorem part_19 (c : Dev nD) (K : Dev nD × Fin 86 → ℕ) (v2 v5 v8 v9 v10 v25 v43 v597 c1_i32_387 : BitVec 32) (W : Waits sig Unit) (fnx4 : Buf (Elt F) ((sl CM (xinOff (xn c) 4) (xinLen 4) (xin_inb (xn c) 4)).view.loc (xn c : Thread nD τ))) (fo4 : Buf (Elt F) ((sl OU (othb c + ownOff c 4) (ownLen 4) (oown_inb c 4)).view.loc (c : Thread nD τ))) (fnx5 : Buf (Elt F) ((sl CM (xinOff (xn c) 5) (xinLen 5) (xin_inb (xn c) 5)).view.loc (xn c : Thread nD τ))) :
    iprop(records m K ∗ levAts L lv
        ∗ pts c CM (ownOff c 4) (ownLen 4) (own_inb c 4) fullShare (commV m c)
        ∗ pts (xn c) CM (xinOff (xn c) 4) (xinLen 4) (xin_inb (xn c) 4) fullShare fnx4
        ∗ owes (c : Thread nD τ) (owedAfter c 23) W
        ∗ dutyTok ER (dcell c 32 (by decide)) 0 0
        ∗ dutyTok ER (dcell (xn c) 40 (by decide)) 0 0
        ∗ pts c OU (othb c + ownOff c 4) (ownLen 4) (oown_inb c 4) fullShare fo4
        ∗ dutyTok ER (dcell c 64 (by decide)) 0 0
        ∗ cred (tallyAt (dcell c 25 (by decide)) () (damt 25))
        ∗ atPos ER (dcell c 25 (by decide)) 0 ∅ 0
        ∗ pts (xn c) CM (xinOff (xn c) 5) (xinLen 5) (xin_inb (xn c) 5) fullShare fnx5
        ∗ dutyTok ER (dcell c 33 (by decide)) 0 0
        ∗ dutyTok ER (dcell (xn c) 41 (by decide)) 0 0)
      ⊢ wp frame (wpE (defs₀ (F := F)) 𝒱₀ (c : Thread nD τ) none) Set.univ
          (k0_part19 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v10 v25 v43 v597 c1_i32_387)
          (fun r => iprop((∃ W', owes (c : Thread nD τ) (owedAfter c 25) W')
            ∗ cred (tallyAt (dcell c 32 (by decide)) () (damt 32))
            ∗ cred (tallyAt (dcell c 64 (by decide)) () (damt 64))
            ∗ atPos ER (dcell c 25 (by decide)) 1 ∅ 0
            ∗ pts c CM (ownOff c 5) (ownLen 5) (own_inb c 5) sR (commV m c)
            ∗ cred (tallyAt (dcell c 33 (by decide)) () (damt 33)))) := by
  simp only [k0_part19_eq_skeleton]; unfold k0_part19_skel
  simp only [Prog.lift, Prog.bind_op, Prog.bind_ret, Prog.pure_eq_ret, Prog.bind_assoc]
  iintro ⟨#HR, #HL, Hcm4, Hnx4, HO, Htxs4, Htxr4, Hou4, Htl4, Hcr25, Hap25, Hnx5, Htxs5, Htxr5⟩
  ihave Hcm4 := (pa_halves c CM (ownOff c 4) (ownLen 4) (own_inb c 4) fullShare (commV m c)) $$ Hcm4
  icases Hcm4 with ⟨HcmL4, HcmR4⟩
  ihave HcmL4 := (Entails.of_eq (pts_respell (F := F) c CM (pf_rows c).1 (by decide : ownLen 4 = xinLen 4) (own_inb c 4) (xin_inb (xn c) 4) sL (commV m c))) $$ HcmL4
  iapply (step_send' m c (xn c) CM CM (xinOff (xn c) 4) (xinOff (xn c) 4) (xinLen 4) (xin_inb (xn c) 4) (xin_inb (xn c) 4) 32 40 (by decide) (by decide) sL (commV m c) fnx4
      (k0_off5 c) (k0_off5 c) ((off5_eq c).trans (by rw [← (pf_rows c).1]; rfl)) ((off5_eq c).trans (by rw [← (pf_rows c).1]; rfl)) _ _ rfl rfl _ (dev24_eq c)
      (owedAfter c 23) (owedAfter c 24) _ rfl (credit_xr (xinOff (xn c) 4) 4 (xin_inb (xn c) 4)) (pf_damt_x 4) (pay_xs m c 4) (pay_xr m c 4 fnx4)
      (κ₁ := K (c, ⟨32, by omega⟩)) (κ₂ := K (xn c, ⟨40, by omega⟩))) $$ [HcmL4 Hnx4 HO Htxs4 Htxr4]
  · isplitr; · iapply (inv_dma m K c 32 _); iexact HR
    isplitr; · iapply (inv_dma m K (xn c) 40 _); iexact HR
    isplitl [HcmL4]; · iexact HcmL4
    isplitl [Hnx4]; · iexact Hnx4
    isplitl [HO]; · iexact HO
    isplitl [Htxs4]; · iexact Htxs4
    isplitr; · iapply (reached_dma m K c 32 _); iexact HR
    isplitl [Htxr4]; · iexact Htxr4
    iapply (reached_dma m K (xn c) 40 _); iexact HR
  iintro ⟨Hcxs4, HO⟩
  ihave Hcxs4 := (pf_cred_eq c 32 _ (damt 40) (damt 32) (pf_damt_x 4).symm) $$ Hcxs4
  iapply (step_copy' m c CM OU (ownOff c 4) (othb c + ownOff c 4) (ownLen 4) (own_inb c 4) (oown_inb c 4) 64 (by decide) sR (commV m c) fo4
      (k0_off5 c) (k0_off34 c) ((off5_eq c).trans (by rfl)) ((off34_eq c).trans (by rfl)) _ rfl (κ := K (c, ⟨64, by omega⟩))
      (credit_lz (othb c + ownOff c 4) 4 (oown_inb c 4)) (pay_lz m c 4 fo4)) $$ [HcmR4 Hou4 Htl4]
  · isplitr; · iapply (inv_dma m K c 64 _); iexact HR
    isplitl [HcmR4]; · iexact HcmR4
    isplitl [Hou4]; · iexact Hou4
    isplitl [Htl4]; · iexact Htl4
    iapply (reached_dma m K c 64 _); iexact HR
  iintro Hcl4
  iapply (step_wait' m c 25 (by decide) _ rfl (owedAfter c 24) _ ((credit_rect CM 176 _ _ _ 0 (by decide)).trans (credit_zr 0 5 (by decide))) (κ := K (c, ⟨25, by omega⟩))) $$ [Hcr25 HO Hap25]
  · isplitr; · iapply (inv_dma m K c 25 _); iexact HR
    isplitl [Hcr25]; · iexact Hcr25
    isplitl [HO]; · iexact HO
    isplitr [Hap25]; · iapply (mayWait_after c (.dma ⟨25, _⟩) 24 (pf_lv_25 c)); iexact HL
    iexact Hap25
  rw [pa_wait_zr m c 5 25 rfl]
  iintro ⟨HO, Hap25, -, Hcm5⟩
  ihave Hcm5 := (pa_halves c CM (ownOff c 5) (ownLen 5) (own_inb c 5) fullShare (commV m c)) $$ Hcm5
  icases Hcm5 with ⟨HcmL5, HcmR5⟩
  ihave HcmL5 := (Entails.of_eq (pts_respell (F := F) c CM (pf_rows c).2.1 (by decide : ownLen 5 = xinLen 5) (own_inb c 5) (xin_inb (xn c) 5) sL (commV m c))) $$ HcmL5
  iapply (step_send' m c (xn c) CM CM (xinOff (xn c) 5) (xinOff (xn c) 5) (xinLen 5) (xin_inb (xn c) 5) (xin_inb (xn c) 5) 33 41 (by decide) (by decide) sL (commV m c) fnx5
      (k0_off6 c) (k0_off6 c) ((off6_eq c).trans (by rw [← (pf_rows c).2.1]; rfl)) ((off6_eq c).trans (by rw [← (pf_rows c).2.1]; rfl)) _ _ rfl rfl _ (dev25_eq c)
      (owedAfter c 24) (owedAfter c 25) _ rfl (credit_xr (xinOff (xn c) 5) 5 (xin_inb (xn c) 5)) (pf_damt_x 5) (pay_xs m c 5) (pay_xr m c 5 fnx5)
      (κ₁ := K (c, ⟨33, by omega⟩)) (κ₂ := K (xn c, ⟨41, by omega⟩))) $$ [HcmL5 Hnx5 HO Htxs5 Htxr5]
  · isplitr; · iapply (inv_dma m K c 33 _); iexact HR
    isplitr; · iapply (inv_dma m K (xn c) 41 _); iexact HR
    isplitl [HcmL5]; · iexact HcmL5
    isplitl [Hnx5]; · iexact Hnx5
    isplitl [HO]; · iexact HO
    isplitl [Htxs5]; · iexact Htxs5
    isplitr; · iapply (reached_dma m K c 33 _); iexact HR
    isplitl [Htxr5]; · iexact Htxr5
    iapply (reached_dma m K (xn c) 41 _); iexact HR
  iintro ⟨Hcxs5, HO⟩
  ihave Hcxs5 := (pf_cred_eq c 33 _ (damt 41) (damt 33) (pf_damt_x 5).symm) $$ Hcxs5
  rw [wp_ret]; imodintro
  isplitl [HO]; · iexists _; iexact HO
  isplitl [Hcxs4]; · iexact Hcxs4
  isplitl [Hcl4]; · iexact Hcl4
  isplitl [Hap25]; · iexact Hap25
  isplitl [HcmR5]; · iexact HcmR5
  iexact Hcxs5

set_option maxRecDepth 65536 in
set_option maxHeartbeats 4000000 in
/-- Part 20: own chunk 5 copied into the result; the wait for own chunk 6 from the z-neighbour; own chunk 6 forwarded to the y-neighbour and copied into the result. -/
theorem part_20 (c : Dev nD) (K : Dev nD × Fin 86 → ℕ) (v2 v5 v8 v9 v11 v25 v50 v51 : BitVec 32) (W : Waits sig Unit) (fo5 : Buf (Elt F) ((sl OU (othb c + ownOff c 5) (ownLen 5) (oown_inb c 5)).view.loc (c : Thread nD τ))) (fny4 : Buf (Elt F) ((sl CM (yinOff (yn c) 4) (yinLen 4) (yin_inb (yn c) 4)).view.loc (yn c : Thread nD τ))) (fo6 : Buf (Elt F) ((sl OU (othb c + ownOff c 6) (ownLen 6) (oown_inb c 6)).view.loc (c : Thread nD τ))) :
    iprop(records m K ∗ levAts L lv
        ∗ pts c CM (ownOff c 5) (ownLen 5) (own_inb c 5) sR (commV m c)
        ∗ pts c OU (othb c + ownOff c 5) (ownLen 5) (oown_inb c 5) fullShare fo5
        ∗ dutyTok ER (dcell c 65 (by decide)) 0 0
        ∗ cred (tallyAt (dcell c 26 (by decide)) () (damt 26))
        ∗ owes (c : Thread nD τ) (owedAfter c 25) W
        ∗ atPos ER (dcell c 26 (by decide)) 0 ∅ 0
        ∗ pts (yn c) CM (yinOff (yn c) 4) (yinLen 4) (yin_inb (yn c) 4) fullShare fny4
        ∗ dutyTok ER (dcell c 48 (by decide)) 0 0
        ∗ dutyTok ER (dcell (yn c) 56 (by decide)) 0 0
        ∗ pts c OU (othb c + ownOff c 6) (ownLen 6) (oown_inb c 6) fullShare fo6
        ∗ dutyTok ER (dcell c 66 (by decide)) 0 0)
      ⊢ wp frame (wpE (defs₀ (F := F)) 𝒱₀ (c : Thread nD τ) none) Set.univ
          (k0_part20 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v11 v25 v50 v51)
          (fun r => iprop(cred (tallyAt (dcell c 65 (by decide)) () (damt 65))
            ∗ (∃ W', owes (c : Thread nD τ) (owedAfter c 26) W')
            ∗ atPos ER (dcell c 26 (by decide)) 1 ∅ 0
            ∗ cred (tallyAt (dcell c 48 (by decide)) () (damt 48))
            ∗ cred (tallyAt (dcell c 66 (by decide)) () (damt 66)))) := by
  simp only [k0_part20_eq_skeleton]; unfold k0_part20_skel
  simp only [Prog.lift, Prog.bind_op, Prog.bind_ret, Prog.pure_eq_ret, Prog.bind_assoc]
  iintro ⟨#HR, #HL, HcmR5, Hou5, Htl5, Hcr26, HO, Hap26, Hny4, Htys4, Htyr4, Hou6, Htl6⟩
  iapply (step_copy' m c CM OU (ownOff c 5) (othb c + ownOff c 5) (ownLen 5) (own_inb c 5) (oown_inb c 5) 65 (by decide) sR (commV m c) fo5
      (k0_off6 c) (k0_off35 c) ((off6_eq c).trans (by rfl)) ((off35_eq c).trans (by rw [Nat.add_assoc]; rfl)) _ rfl (κ := K (c, ⟨65, by omega⟩))
      (credit_lz (othb c + ownOff c 5) 5 (oown_inb c 5)) (pay_lz m c 5 fo5)) $$ [HcmR5 Hou5 Htl5]
  · isplitr; · iapply (inv_dma m K c 65 _); iexact HR
    isplitl [HcmR5]; · iexact HcmR5
    isplitl [Hou5]; · iexact Hou5
    isplitl [Htl5]; · iexact Htl5
    iapply (reached_dma m K c 65 _); iexact HR
  iintro Hcl5
  iapply (step_wait' m c 26 (by decide) _ rfl (owedAfter c 25) _ ((credit_rect CM 176 _ _ _ 0 (by decide)).trans (credit_zr 0 6 (by decide))) (κ := K (c, ⟨26, by omega⟩))) $$ [Hcr26 HO Hap26]
  · isplitr; · iapply (inv_dma m K c 26 _); iexact HR
    isplitl [Hcr26]; · iexact Hcr26
    isplitl [HO]; · iexact HO
    isplitr [Hap26]; · iapply (mayWait_after c (.dma ⟨26, _⟩) 25 (pf_lv_26 c)); iexact HL
    iexact Hap26
  rw [pa_wait_zr m c 6 26 rfl]
  iintro ⟨HO, Hap26, -, Hcm6⟩
  ihave Hcm6 := (pa_halves c CM (ownOff c 6) (ownLen 6) (own_inb c 6) fullShare (commV m c)) $$ Hcm6
  icases Hcm6 with ⟨HcmL6, HcmR6⟩
  ihave HcmL6 := (Entails.of_eq (pts_respell (F := F) c CM (pf_rows c).2.2.1 (by decide : ownLen 6 = yinLen 4) (own_inb c 6) (yin_inb (yn c) 4) sL (commV m c))) $$ HcmL6
  iapply (step_send' m c (yn c) CM CM (yinOff (yn c) 4) (yinOff (yn c) 4) (yinLen 4) (yin_inb (yn c) 4) (yin_inb (yn c) 4) 48 56 (by decide) (by decide) sL (commV m c) fny4
      (k0_off7 c) (k0_off7 c) ((off7_eq c).trans (by rw [← (pf_rows c).2.2.1]; rfl)) ((off7_eq c).trans (by rw [← (pf_rows c).2.2.1]; rfl)) _ _ rfl rfl _ (dev26_eq c)
      (owedAfter c 25) (owedAfter c 26) _ rfl (credit_yr (yinOff (yn c) 4) 4 (yin_inb (yn c) 4)) (pf_damt_y 4) (pay_ys m c 4) (pay_yr m c 4 fny4)
      (κ₁ := K (c, ⟨48, by omega⟩)) (κ₂ := K (yn c, ⟨56, by omega⟩))) $$ [HcmL6 Hny4 HO Htys4 Htyr4]
  · isplitr; · iapply (inv_dma m K c 48 _); iexact HR
    isplitr; · iapply (inv_dma m K (yn c) 56 _); iexact HR
    isplitl [HcmL6]; · iexact HcmL6
    isplitl [Hny4]; · iexact Hny4
    isplitl [HO]; · iexact HO
    isplitl [Htys4]; · iexact Htys4
    isplitr; · iapply (reached_dma m K c 48 _); iexact HR
    isplitl [Htyr4]; · iexact Htyr4
    iapply (reached_dma m K (yn c) 56 _); iexact HR
  iintro ⟨Hcys4, HO⟩
  ihave Hcys4 := (pf_cred_eq c 48 _ (damt 56) (damt 48) (pf_damt_y 4).symm) $$ Hcys4
  iapply (step_copy' m c CM OU (ownOff c 6) (othb c + ownOff c 6) (ownLen 6) (own_inb c 6) (oown_inb c 6) 66 (by decide) sR (commV m c) fo6
      (k0_off7 c) (k0_off36 c) ((off7_eq c).trans (by rfl)) ((off36_eq c).trans (by rw [Nat.add_assoc]; rfl)) _ rfl (κ := K (c, ⟨66, by omega⟩))
      (credit_lz (othb c + ownOff c 6) 6 (oown_inb c 6)) (pay_lz m c 6 fo6)) $$ [HcmR6 Hou6 Htl6]
  · isplitr; · iapply (inv_dma m K c 66 _); iexact HR
    isplitl [HcmR6]; · iexact HcmR6
    isplitl [Hou6]; · iexact Hou6
    isplitl [Htl6]; · iexact Htl6
    iapply (reached_dma m K c 66 _); iexact HR
  iintro Hcl6
  rw [wp_ret]; imodintro
  isplitl [Hcl5]; · iexact Hcl5
  isplitl [HO]; · iexists _; iexact HO
  isplitl [Hap26]; · iexact Hap26
  isplitl [Hcys4]; · iexact Hcys4
  iexact Hcl6

set_option maxRecDepth 65536 in
set_option maxHeartbeats 4000000 in
/-- Part 21: the wait for own chunk 7 from the z-neighbour; own chunk 7 forwarded to the y-neighbour and copied into the result; the wait for the input copy of the x-neighbour's 672-region and the load of its staged rows, whose conversion is handed on. -/
theorem part_21 (c : Dev nD) (K : Dev nD × Fin 86 → ℕ) (v2 v5 v8 v9 v11 v25 v32 v52 : BitVec 32) (W : Waits sig Unit) (fny5 : Buf (Elt F) ((sl CM (yinOff (yn c) 5) (yinLen 5) (yin_inb (yn c) 5)).view.loc (yn c : Thread nD τ))) (fo7 : Buf (Elt F) ((sl OU (othb c + ownOff c 7) (ownLen 7) (oown_inb c 7)).view.loc (c : Thread nD τ))) :
    iprop(records m K ∗ levAts L lv
        ∗ cred (tallyAt (dcell c 27 (by decide)) () (damt 27))
        ∗ owes (c : Thread nD τ) (owedAfter c 26) W
        ∗ atPos ER (dcell c 27 (by decide)) 0 ∅ 0
        ∗ pts (yn c) CM (yinOff (yn c) 5) (yinLen 5) (yin_inb (yn c) 5) fullShare fny5
        ∗ dutyTok ER (dcell c 49 (by decide)) 0 0
        ∗ dutyTok ER (dcell (yn c) 57 (by decide)) 0 0
        ∗ pts c OU (othb c + ownOff c 7) (ownLen 7) (oown_inb c 7) fullShare fo7
        ∗ dutyTok ER (dcell c 67 (by decide)) 0 0
        ∗ cred (tallyAt (dcell c 8 (by decide)) () (damt 8))
        ∗ atPos ER (dcell c 8 (by decide)) 0 ∅ 0)
      ⊢ wp frame (wpE (defs₀ (F := F)) 𝒱₀ (c : Thread nD τ) none) Set.univ
          (k0_part21 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v11 v25 v32 v52)
          (fun r => iprop(⌜∀ y : (Sr (inLen 8)).Idx, r y = mineV m c (up (inOff c 8) (in_inb c 8) y)⌝
            ∗ (∃ W', owes (c : Thread nD τ) (owedAfter c 27) W')
            ∗ atPos ER (dcell c 27 (by decide)) 1 ∅ 0
            ∗ cred (tallyAt (dcell c 49 (by decide)) () (damt 49))
            ∗ cred (tallyAt (dcell c 67 (by decide)) () (damt 67))
            ∗ atPos ER (dcell c 8 (by decide)) 1 ∅ 0
            ∗ pts c ST (inOff c 8) (inLen 8) (in_inb c 8) fullShare (X m c)
            ∗ pts c XA (inOff c 8) (inLen 8) (in_inb c 8) fullShare (X m c))) := by
  simp only [k0_part21_eq_skeleton]; unfold k0_part21_skel
  simp only [Prog.lift, Prog.bind_op, Prog.bind_ret, Prog.pure_eq_ret, Prog.bind_assoc]
  iintro ⟨#HR, #HL, Hcr27, HO, Hap27, Hny5, Htys5, Htyr5, Hou7, Htl7, Hc8, Hap8⟩
  iapply (step_wait' m c 27 (by decide) _ rfl (owedAfter c 26) _ ((credit_rect CM 176 _ _ _ 0 (by decide)).trans (credit_zr 0 7 (by decide))) (κ := K (c, ⟨27, by omega⟩))) $$ [Hcr27 HO Hap27]
  · isplitr; · iapply (inv_dma m K c 27 _); iexact HR
    isplitl [Hcr27]; · iexact Hcr27
    isplitl [HO]; · iexact HO
    isplitr [Hap27]; · iapply (mayWait_after c (.dma ⟨27, _⟩) 26 (pf_lv_27 c)); iexact HL
    iexact Hap27
  rw [pa_wait_zr m c 7 27 rfl]
  iintro ⟨HO, Hap27, -, Hcm7⟩
  ihave Hcm7 := (pa_halves c CM (ownOff c 7) (ownLen 7) (own_inb c 7) fullShare (commV m c)) $$ Hcm7
  icases Hcm7 with ⟨HcmL7, HcmR7⟩
  ihave HcmL7 := (Entails.of_eq (pts_respell (F := F) c CM (pf_rows c).2.2.2 (by decide : ownLen 7 = yinLen 5) (own_inb c 7) (yin_inb (yn c) 5) sL (commV m c))) $$ HcmL7
  iapply (step_send' m c (yn c) CM CM (yinOff (yn c) 5) (yinOff (yn c) 5) (yinLen 5) (yin_inb (yn c) 5) (yin_inb (yn c) 5) 49 57 (by decide) (by decide) sL (commV m c) fny5
      (k0_off8 c) (k0_off8 c) ((off8_eq c).trans (by rw [← (pf_rows c).2.2.2]; rfl)) ((off8_eq c).trans (by rw [← (pf_rows c).2.2.2]; rfl)) _ _ rfl rfl _ (dev27_eq c)
      (owedAfter c 26) (owedAfter c 27) _ rfl (credit_yr (yinOff (yn c) 5) 5 (yin_inb (yn c) 5)) (pf_damt_y 5) (pay_ys m c 5) (pay_yr m c 5 fny5)
      (κ₁ := K (c, ⟨49, by omega⟩)) (κ₂ := K (yn c, ⟨57, by omega⟩))) $$ [HcmL7 Hny5 HO Htys5 Htyr5]
  · isplitr; · iapply (inv_dma m K c 49 _); iexact HR
    isplitr; · iapply (inv_dma m K (yn c) 57 _); iexact HR
    isplitl [HcmL7]; · iexact HcmL7
    isplitl [Hny5]; · iexact Hny5
    isplitl [HO]; · iexact HO
    isplitl [Htys5]; · iexact Htys5
    isplitr; · iapply (reached_dma m K c 49 _); iexact HR
    isplitl [Htyr5]; · iexact Htyr5
    iapply (reached_dma m K (yn c) 57 _); iexact HR
  iintro ⟨Hcys5, HO⟩
  ihave Hcys5 := (pf_cred_eq c 49 _ (damt 57) (damt 49) (pf_damt_y 5).symm) $$ Hcys5
  iapply (step_copy' m c CM OU (ownOff c 7) (othb c + ownOff c 7) (ownLen 7) (own_inb c 7) (oown_inb c 7) 67 (by decide) sR (commV m c) fo7
      (k0_off8 c) (k0_off37 c) ((off8_eq c).trans (by rfl)) ((off37_eq c).trans (by rw [Nat.add_assoc]; rfl)) _ rfl (κ := K (c, ⟨67, by omega⟩))
      (credit_lz (othb c + ownOff c 7) 7 (oown_inb c 7)) (pay_lz m c 7 fo7)) $$ [HcmR7 Hou7 Htl7]
  · isplitr; · iapply (inv_dma m K c 67 _); iexact HR
    isplitl [HcmR7]; · iexact HcmR7
    isplitl [Hou7]; · iexact Hou7
    isplitl [Htl7]; · iexact Htl7
    iapply (reached_dma m K c 67 _); iexact HR
  iintro Hcl7
  iapply (step_wait' m c 8 (by decide) _ rfl (owedAfter c 27) _ ((credit_rect ST 672 _ _ _ 0 (by decide)).trans (credit_in 0 8 (by decide))) (κ := K (c, ⟨8, by omega⟩))) $$ [Hc8 HO Hap8]
  · isplitr; · iapply (inv_dma m K c 8 _); iexact HR
    isplitl [Hc8]; · iexact Hc8
    isplitl [HO]; · iexact HO
    isplitr [Hap8]; · iapply (mayWait_after c (.dma ⟨8, _⟩) 27 (pf_lv_8 c)); iexact HL
    iexact Hap8
  iintro ⟨HO, Hap8, -, Hp⟩
  ihave Hp := (pa_wait_in m c 8 8 rfl) $$ Hp
  icases Hp with ⟨Hst8, Hxa8⟩
  iapply (pa_load c ST (inOff c 8) (inLen 8) (in_inb c 8) fullShare (X m c) (k0_off38 c) ((off38_eq c).trans (by rfl))) $$ Hst8
  iintro Hst8
  rw [wp_ret]; imodintro
  isplitl []; · ipureintro; intro y; simp only [k0_pay10, shapeCast_self]; rfl
  isplitl [HO]; · iexists _; iexact HO
  isplitl [Hap27]; · iexact Hap27
  isplitl [Hcys5]; · iexact Hcys5
  isplitl [Hcl7]; · iexact Hcl7
  isplitl [Hap8]; · iexact Hap8
  isplitl [Hst8]; · iexact Hst8
  iexact Hxa8

/-- info: 'Cert.KernelIdeal.AG.part_19' depends on axioms: [propext, Classical.choice, Quot.sound] -/
#guard_msgs in #print axioms part_19
/-- info: 'Cert.KernelIdeal.AG.part_20' depends on axioms: [propext, Classical.choice, Quot.sound] -/
#guard_msgs in #print axioms part_20
/-- info: 'Cert.KernelIdeal.AG.part_21' depends on axioms: [propext, Classical.choice, Quot.sound] -/
#guard_msgs in #print axioms part_21

end Cert.KernelIdeal.AG

end
-- ==== Proof.AGParts_c.lean ====
/-
  The body, parts 22 to 28: the last four input copies' rows converted into the conversion buffer; the conversion buffer whole
  copied to the device's own half of the result; then every arrival from the x- and the y-neighbour not yet waited for, each
  waited for and copied to the other half of the result; last the waits for the first two z-transfers' send cells.
  By now the device has made all its 27 payments, so it owes nothing and may wait on any of its cells.  A receive wait hands over
  the rows of the communication buffer holding what their origin converted; the copy to the result reads them whole.
-/
import proofs.«900673_g7700000000000674_dist_ag_v7x_xyz2x2x2_z_m4096_n1024_bf16_1_alg».proof.Proof.Gen.KernelIdeal.Skeleton
import proofs.«900673_g7700000000000674_dist_ag_v7x_xyz2x2x2_z_m4096_n1024_bf16_1_alg».proof.Proof.AGSteps
import proofs.«900673_g7700000000000674_dist_ag_v7x_xyz2x2x2_z_m4096_n1024_bf16_1_alg».proof.Proof.AGPays
import proofs.«900673_g7700000000000674_dist_ag_v7x_xyz2x2x2_z_m4096_n1024_bf16_1_alg».proof.Proof.AGSlices
import proofs.«900673_g7700000000000674_dist_ag_v7x_xyz2x2x2_z_m4096_n1024_bf16_1_alg».proof.Proof.AGOffs
import proofs.«900673_g7700000000000674_dist_ag_v7x_xyz2x2x2_z_m4096_n1024_bf16_1_alg».proof.Proof.AGGlue

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a landing hands over, by the cell's number -/

theorem pc_dpay_xr' (c : Dev nD) (k : Fin 8) (n : ℕ) (hn : n = 36 + k.val) :
    dpay m c n ⊢ pts c CM (xinOff c k) (xinLen k) (xin_inb c k) fullShare (commV m c) := by
  subst hn; rw [dpay_xr]; exact .rfl

theorem pc_dpay_yr' (c : Dev nD) (k : Fin 8) (n : ℕ) (hn : n = 52 + k.val) :
    dpay m c n ⊢ pts c CM (yinOff c k) (yinLen k) (yin_inb c k) fullShare (commV m c) := by
  subst hn; rw [dpay_yr]; exact .rfl

/-! ## A receive wait followed by the copy of the rows received to the result

  Nothing is owed any more, so the wait is allowed; the landing hands over the rows of the communication buffer whole, and the
  copy to the other half of the result reads them whole. -/

theorem pc_step_recv_copy (c : Dev nD) (K : Dev nD × Fin 86 → ℕ) (o r : ℕ) (h : o + r ≤ 4096) (h' : othb c + o + r ≤ 8192)
    (nr nc : ℕ) (hnr : nr < 85) (hnc : nc < 85)
    (fd : Buf (Elt F) ((sl OU (othb c + o) r h').view.loc (c : Thread nD τ)))
    (off off' : Fin 2 → ℕ) (hoff : off = ![o, 0]) (hoff' : off' = ![othb c + o, 0])
    (qr qc : DmaSem sig) (hqr : qr = ⟨nr, hnr⟩) (hqc : qc = ⟨nc, hnc⟩)
    {inb : ∀ a, off a + (Sr r).size a ≤ (Sr 4096).size a} {inb' : ∀ a, off' a + (Sr r).size a ≤ (Sr 8192).size a}
    {hst : ∀ a, (Rect.unit (s := Sr 4096) off (Sr r).size inb).stride a = 1} {hst' : ∀ a, (Rect.unit (s := Sr 8192) off' (Sr r).size inb').stride a = 1}
    {hw1 hw2 hsrc : (CM.slice (Rect.unit (s := Sr 4096) off (Sr r).size inb) hst).view.WordExact}
    {hdst : (OU.slice (Rect.unit (s := Sr 8192) off' (Sr r).size inb') hst').view.WordExact}
    {hsem : DmaTarget.Typed (nD := nD) (τ := τ) (p := .tc) .vmem (SemLoc.dma qc) (DmaTarget.here (OU.slice (Rect.unit (s := Sr 8192) off' (Sr r).size inb') hst'))}
    {α : Type} {Q : α → sProp 𝕄} {k : PUnit → Prog (TpuEff nD τ sig (Elt F) Λ₀ .tc) α} (W : Waits sig Unit)
    (hkr : (sl CM o r h).view.dmaCredit = damt nr) (hkc : (sl OU (othb c + o) r h').view.dmaCredit = damt nc)
    (hrecv : dpay m c nr ⊢ pts c CM o r h fullShare (commV m c))
    (hpay : iprop(((sl OU (othb c + o) r h').view.loc (c : Thread nD τ) ↦[(sl OU (othb c + o) r h').view.set]{fullShare}
                ((sl OU (othb c + o) r h').view.write (Elt F) fd ((sl CM o r h).view.read (Elt F) (commV m c)) Finset.univ))
              ∗ ((sl CM o r h).view.loc (c : Thread nD τ) ↦[(sl CM o r h).view.set]{fullShare} (commV m c))) ⊢ dpay m c nc) :
    iprop(records m K ∗ cred (tallyAt (dcell c nr hnr) () (damt nr)) ∗ owes (c : Thread nD τ) (owedAfter c 27) W ∗ atPos ER (dcell c nr hnr) 0 ∅ 0
        ∗ pts c OU (othb c + o) r h' fullShare fd ∗ dutyTok ER (dcell c nc hnc) 0 0)
      ⊢ iprop(((owes (c : Thread nD τ) (owedAfter c 27) (insert (SemLoc.dma ⟨nr, hnr⟩, ()) W) ∗ atPos ER (dcell c nr hnr) 1 ∅ 0
              ∗ cred (tallyAt (dcell c nc hnc) () (damt nc)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qr (CM.slice (Rect.unit (s := Sr 4096) off (Sr r).size inb) hst) (CM.slice (Rect.unit (s := Sr 4096) off (Sr r).size inb) hst) hw1 hw2)
                fun _ => .op (.enqueueDma (CM.slice (Rect.unit (s := Sr 4096) off (Sr r).size inb) hst)
                  (.here (OU.slice (Rect.unit (s := Sr 8192) off' (Sr r).size inb') hst')) (.dma qc) hsrc hdst hsem) k) Q) := by
  subst hoff hoff' hqr hqc
  iintro ⟨#Hrec, Hcr, Howes, Hat, Hou, Hdt⟩ Hk
  ihave #Hir := (inv_dma m K c nr hnr) $$ Hrec
  ihave #Hic := (inv_dma m K c nc hnc) $$ Hrec
  ihave #Hrc := (reached_dma m K c nc hnc) $$ Hrec
  iapply (step_wait m c nr hnr (owedAfter c 27) W hkr) $$ [Hcr Howes Hat]
  · isplitr; · iexact Hir
    isplitl [Hcr]; · iexact Hcr
    isplitl [Howes]; · iexact Howes
    isplitr; · rw [owedAfter_all, MayWait_zero]; iempintro
    iexact Hat
  iintro ⟨Howes, Hat, -, Hpay⟩
  ihave Hcm := hrecv $$ Hpay
  iapply (step_copy m c CM OU o (othb c + o) r h h' nc hnc fullShare (commV m c) fd hkc hpay) $$ [Hcm Hou Hdt]
  · isplitr; · iexact Hic
    isplitl [Hcm]; · iexact Hcm
    isplitl [Hou]; · iexact Hou
    isplitl [Hdt]; · iexact Hdt
    iexact Hrc
  iintro Hcr'
  iapply Hk
  isplitl [Howes]; · iexact Howes
  isplitl [Hat]; · iexact Hat
  iexact Hcr'

/-! ## The conversion of rows of the staging buffer into the conversion buffer -/

/-- Rows written with the conversion of the device's half at those rows hold the converted half there. -/
theorem pc_store_mine_eq_on (c : Dev nD) (o r : ℕ) (h : o + r ≤ 4096) (f : Buf (Elt F) (MI.view.loc (c : Thread nD τ)))
    (w : (Sr r).Idx → Elt F .bf16) (hw : ∀ y, w y = mineV m c (up o h y)) :
    ∀ i ∈ (sl MI o r h).view.set, (sl MI o r h).view.write (Elt F) f w Finset.univ i = mineV m c i := by
  intro i hi
  obtain ⟨x, rfl, hx⟩ := (sl_mem_iff_exists MI).mp hi
  refine eq_at_emb_of_read_eq MI ((read_sl_write_of_mem MI h f w x hx).trans ?_)
  rw [hw, up_down]
  rfl

/-- The conversion of the staged rows is the converted half at those rows. -/
theorem pc_truncf_rows (c : Dev nD) (o r : ℕ) (h : o + r ≤ 4096) (y : (Sr r).Idx) :
    truncf .bf16 ((sl ST o r h).view.read (Elt F) (X m c)) (by decide) y = mineV m c (up o h y) := by
  show FloatOps.truncf .bf16 _ ((sl ST o r h).view.read (Elt F) (X m c) y) = FloatOps.truncf .bf16 _ (X m c (up o h y))
  rw [sl_read]
  rfl

/-- A load of rows of the conversion buffer whose value is not used, then the store of w over them: when w is the converted
    half at those rows, the rows hold it. -/
theorem pc_step_load_store (c : Dev nD) (o r : ℕ) (h : o + r ≤ 4096) (fm : Buf (Elt F) ((sl MI o r h).view.loc (c : Thread nD τ)))
    (off : Fin 2 → ℕ) (hoff : off = ![o, 0]) {inb : ∀ a, off a + (Sr r).size a ≤ (Sr 4096).size a}
    {hl : MI.view.LoadsAt (Rect.unit (s := Sr 4096) off (Sr r).size inb).toLoadRect}
    (w : (Sr r).Idx → Elt F .bf16)
    {hx : (MI.access (Rect.unit (s := Sr 4096) off (Sr r).size inb)).Stores Finset.univ}
    {hm : (Finset.univ : Finset (Rect.unit (s := Sr 4096) off (Sr r).size inb).shape.Idx) = Finset.univ ∨ ∀ a, (Rect.unit (s := Sr 4096) off (Sr r).size inb).stride a = 1}
    {α : Type} {Q : α → sProp 𝕄} {k : PUnit → Prog (TpuEff nD τ sig (Elt F) Λ₀ .tc) α}
    (hw : ∀ y, w y = mineV m c (up o h y)) :
    pts c MI o r h fullShare fm
      ⊢ iprop((pts c MI o r h fullShare (mineV m c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load MI (Rect.unit (s := Sr 4096) off (Sr r).size inb).toLoadRect hl) fun _ =>
                .op (.store MI (Rect.unit (s := Sr 4096) off (Sr r).size inb) w Finset.univ hx hm) k) Q) := by
  subst hoff
  unfold pts
  iintro Hm Hk
  iapply (wp_load_rect 𝒱₀ (c : Thread nD τ) none Set.univ (m := MI) (r := Rect.unit (s := Sr 4096) ![o, 0] (Sr r).size inb)
    (S := (sl MI o r h).view.set) (q := fullShare) (f := fm) subset_rfl) $$ Hm
  iintro Hm
  iapply (wp_store 𝒱₀ (c : Thread nD τ) none Set.univ (m := MI) (r := Rect.unit (s := Sr 4096) ![o, 0] (Sr r).size inb)
    (S := (sl MI o r h).view.set) (f := fm) (by rw [View.setOn_univ])) $$ Hm
  iintro Hm
  iapply Hk
  iapply (pointsTo_congr_on (pc_store_mine_eq_on m c o r h fm w hw)).1
  iexact Hm

/-! ## A wait when nothing is owed any more -/

/-- The credit of rows of the conversion buffer is that of as many rows of the communication buffer. -/
theorem pc_credit_mi (o : ℕ) (j : Fin 8) (h : o + ownLen j ≤ 4096) : (sl MI o (ownLen j) h).view.dmaCredit = damt (12 + j.val) :=
  credit_zs o j h

theorem pc_dpay_zs' (c : Dev nD) (j : Fin 8) (n : ℕ) (hn : n = 12 + j.val) :
    dpay m c n ⊢ pts c MI (ownOff c j) (ownLen j) (own_inb c j) sL (mineV m c) := by
  subst hn; rw [dpay_zs]; exact .rfl

theorem pc_dpay_in' (c : Dev nD) (i : Fin 12) (n : ℕ) (hn : n = i.val) :
    dpay m c n ⊢ iprop(pts c ST (inOff c i) (inLen i) (in_inb c i) fullShare (X m c) ∗ pts c XA (inOff c i) (inLen i) (in_inb c i) fullShare (X m c)) := by
  subst hn; rw [dpay_in]; exact .rfl

/-- The wait on DMA cell n of the device, for a transfer whose destination is rows [o, o + r) of M, once all payments are made:
    the cell's payload. -/
theorem pc_step_wait_done {sp sp' : Space} {s' : Shape} {e e' : EltTy} {R : ℕ} (c : Dev nD) (K : Dev nD × Fin 86 → ℕ)
    (M : Memref sig .tc sp (Sr R) e) (o r : ℕ) (h : o + r ≤ R) (n : ℕ) (hn : n < 85)
    (off : Fin 2 → ℕ) (hoff : off = ![o, 0]) (qs : DmaSem sig) (hqs : qs = ⟨n, hn⟩)
    {inb : ∀ a, off a + (Sr r).size a ≤ (Sr R).size a} {hst : ∀ a, (Rect.unit (s := Sr R) off (Sr r).size inb).stride a = 1}
    {src : Memref sig .tc sp' s' e'} {hsrc : src.view.WordExact} {hdst : (M.slice (Rect.unit (s := Sr R) off (Sr r).size inb) hst).view.WordExact}
    {α : Type} {Q : α → sProp 𝕄} {k : PUnit → Prog (TpuEff nD τ sig (Elt F) Λ₀ .tc) α} (W : Waits sig Unit)
    (hk : (sl M o r h).view.dmaCredit = damt n) :
    iprop(records m K ∗ cred (tallyAt (dcell c n hn) () (damt n)) ∗ owes (c : Thread nD τ) (owedAfter c 27) W ∗ atPos ER (dcell c n hn) 0 ∅ 0)
      ⊢ iprop(((owes (c : Thread nD τ) (owedAfter c 27) (insert (SemLoc.dma ⟨n, hn⟩, ()) W) ∗ atPos ER (dcell c n hn) 1 ∅ 0 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs src (M.slice (Rect.unit (s := Sr R) off (Sr r).size inb) hst) hsrc hdst) k) Q) := by
  subst hoff hqs
  iintro ⟨#Hrec, Hcr, Howes, Hat⟩ Hk
  ihave #Hi := (inv_dma m K c n hn) $$ Hrec
  iapply (step_wait m c n hn (owedAfter c 27) W hk) $$ [Hcr Howes Hat]
  · isplitr; · iexact Hi
    isplitl [Hcr]; · iexact Hcr
    isplitl [Howes]; · iexact Howes
    isplitr; · rw [owedAfter_all, MayWait_zero]; iempintro
    iexact Hat
  iintro ⟨Howes, Hat, -, Hpay⟩
  iapply Hk
  isplitl [Howes]; · iexact Howes
  isplitl [Hat]; · iexact Hat
  iexact Hpay

/-! ## The copy of the whole conversion buffer to the device's own half of the result -/

/-- All 4096 rows of a memref read as the memref itself reads. -/
theorem pc_sl_whole_read {Val : EltTy → Type} {sp : Space} {e : EltTy} {R : ℕ} (M : Memref sig .tc sp (Sr R) e) (h : 0 + R ≤ R)
    (f : M.view.ty.Contents Val) : (sl M 0 R h).view.read Val f = M.view.read Val f := by
  funext y
  rw [sl_read]
  congr 1
  funext a
  apply Fin.ext
  match a with
  | ⟨0, _⟩ => show 0 + (y 0).val = (y 0).val; omega
  | ⟨1, _⟩ => rfl

/-- What the copy of the whole conversion buffer lands, the source named whole. -/
theorem pc_pay_lm_whole (c : Dev nD) (fd : Buf (Elt F) ((sl OU (myb c) 4096 (omy_inb c)).view.loc (c : Thread nD τ))) :
    iprop(((sl OU (myb c) 4096 (omy_inb c)).view.loc (c : Thread nD τ) ↦[(sl OU (myb c) 4096 (omy_inb c)).view.set]{fullShare}
              ((sl OU (myb c) 4096 (omy_inb c)).view.write (Elt F) fd (MI.view.read (Elt F) (mineV m c)) Finset.univ))
        ∗ (MI.view.loc (c : Thread nD τ) ↦[MI.view.set]{sR} (mineV m c)))
      ⊢ (dpay m c 84 : sProp 𝕄) := by
  have h := pay_lm m c fd
  rw [pc_sl_whole_read MI (Nat.le_refl _), sl_whole_set MI] at h
  exact h

theorem pc_step_copy_lm (c : Dev nD) (K : Dev nD × Fin 86 → ℕ) (fd : Buf (Elt F) ((sl OU (myb c) 4096 (omy_inb c)).view.loc (c : Thread nD τ)))
    (off' : Fin 2 → ℕ) (hoff' : off' = ![myb c, 0]) (qs : DmaSem sig) (hqs : qs = ⟨84, by decide⟩)
    {inb' : ∀ a, off' a + (Sr 4096).size a ≤ (Sr 8192).size a} {hst' : ∀ a, (Rect.unit (s := Sr 8192) off' (Sr 4096).size inb').stride a = 1}
    {hsrc : MI.view.WordExact} {hdst : (OU.slice (Rect.unit (s := Sr 8192) off' (Sr 4096).size inb') hst').view.WordExact}
    {hsem : DmaTarget.Typed (nD := nD) (τ := τ) (p := .tc) .vmem (SemLoc.dma qs) (DmaTarget.here (OU.slice (Rect.unit (s := Sr 8192) off' (Sr 4096).size inb') hst'))}
    {α : Type} {Q : α → sProp 𝕄} {k : PUnit → Prog (TpuEff nD τ sig (Elt F) Λ₀ .tc) α} :
    iprop(records m K ∗ pts c MI 0 4096 (Nat.le_refl _) sR (mineV m c) ∗ pts c OU (myb c) 4096 (omy_inb c) fullShare fd
        ∗ dutyTok ER (dcell c 84 (by decide)) 0 0)
      ⊢ iprop((cred (tallyAt (dcell c 84 (by decide)) () (damt 84)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma MI (.here (OU.slice (Rect.unit (s := Sr 8192) off' (Sr 4096).size inb') hst')) (.dma qs) hsrc hdst hsem) k) Q) := by
  subst hoff' hqs
  have hc := Rounds.wp_copy_pointsTo (defs := defs₀ (F := F)) 𝒱₀ ER (agRd m) (c : Thread nD τ) none (r := 0) (d := 0) (Q := Q) (k := k)
    (src := MI) (dst := sl OU (myb c) 4096 (omy_inb c)) (q := sR) (fs := mineV m c) (fd := fd) (hsrc := hsrc) (hdst := hdst) (hsem := hsem)
    (κ := K (c, ⟨84, by omega⟩)) (Es := Set.univ) (Γ := PendingWaitsCtx.empty)
    (by rw [duties_dma]; exact Finset.mem_singleton_self _) () (damt 84) ((View.amount_dma _ _).trans (credit_lm (myb c) (omy_inb c)))
    (amount_dma m c 84 (by decide) 0) (by rw [payload_dma]; exact pc_pay_lm_whole m c fd)
  unfold pts
  rw [sl_whole_set MI]
  iintro ⟨#Hrec, Hmi, Hou, Hdt⟩
  ihave #Hi := (inv_dma m K c 84 (by decide)) $$ Hrec
  ihave #Hr := (reached_dma m K c 84 (by decide)) $$ Hrec
  iapply hc
  isplitr; · iexact Hi
  isplitl [Hmi]; · iexact Hmi
  isplitl [Hou]; · iexact Hou
  isplitl [Hdt]; · iexact Hdt
  iexact Hr

/-! ## The printed row chains of these parts, as rows of the arrivals -/

theorem pc_off43_x0 (c : Dev nD) : k0_off43 c = ![xinOff c 0, 0] :=
  (off43_eq c).trans ((by decide : ∀ c : Dev nD, (![pxn c, 0] : Fin 2 → ℕ) = ![xinOff c 0, 0]) c)
theorem pc_off44_x0 (c : Dev nD) : k0_off44 c = ![othb c + xinOff c 0, 0] :=
  (off44_eq c).trans ((by decide : ∀ c : Dev nD, (![othb c + pxn c, 0] : Fin 2 → ℕ) = ![othb c + xinOff c 0, 0]) c)

theorem pc_off45_x1 (c : Dev nD) : k0_off45 c = ![xinOff c 1, 0] :=
  (off45_eq c).trans ((by decide : ∀ c : Dev nD, (![pxn c + 112, 0] : Fin 2 → ℕ) = ![xinOff c 1, 0]) c)
theorem pc_off46_x1 (c : Dev nD) : k0_off46 c = ![othb c + xinOff c 1, 0] :=
  (off46_eq c).trans ((by decide : ∀ c : Dev nD, (![othb c + pxn c + 112, 0] : Fin 2 → ℕ) = ![othb c + xinOff c 1, 0]) c)

theorem pc_off47_x4 (c : Dev nD) : k0_off47 c = ![xinOff c 4, 0] :=
  (off47_eq c).trans ((by decide : ∀ c : Dev nD, (![roth c, 0] : Fin 2 → ℕ) = ![xinOff c 4, 0]) c)
theorem pc_off48_x4 (c : Dev nD) : k0_off48 c = ![othb c + xinOff c 4, 0] :=
  (off48_eq c).trans ((by decide : ∀ c : Dev nD, (![othb c + roth c, 0] : Fin 2 → ℕ) = ![othb c + xinOff c 4, 0]) c)

theorem pc_off49_1_x5 (c : Dev nD) : k0_off49 c 176#32 = ![xinOff c 5, 0] :=
  (off49_1_eq c).trans ((by decide : ∀ c : Dev nD, (![roth c + 176, 0] : Fin 2 → ℕ) = ![xinOff c 5, 0]) c)
theorem pc_off50_1_x5 (c : Dev nD) : k0_off50 c 176#32 = ![othb c + xinOff c 5, 0] :=
  (off50_1_eq c).trans ((by decide : ∀ c : Dev nD, (![othb c + roth c + 176, 0] : Fin 2 → ℕ) = ![othb c + xinOff c 5, 0]) c)

theorem pc_off51_x6 (c : Dev nD) : k0_off51 c = ![xinOff c 6, 0] :=
  (off51_eq c).trans ((by decide : ∀ c : Dev nD, (![pdg c, 0] : Fin 2 → ℕ) = ![xinOff c 6, 0]) c)
theorem pc_off52_x6 (c : Dev nD) : k0_off52 c = ![othb c + xinOff c 6, 0] :=
  (off52_eq c).trans ((by decide : ∀ c : Dev nD, (![othb c + pdg c, 0] : Fin 2 → ℕ) = ![othb c + xinOff c 6, 0]) c)

theorem pc_off53_x7 (c : Dev nD) : k0_off53 c = ![xinOff c 7, 0] :=
  (off53_eq c).trans ((by decide : ∀ c : Dev nD, (![pdg c + 112, 0] : Fin 2 → ℕ) = ![xinOff c 7, 0]) c)
theorem pc_off54_x7 (c : Dev nD) : k0_off54 c = ![othb c + xinOff c 7, 0] :=
  (off54_eq c).trans ((by decide : ∀ c : Dev nD, (![othb c + pdg c + 112, 0] : Fin 2 → ℕ) = ![othb c + xinOff c 7, 0]) c)

theorem pc_off55_y2 (c : Dev nD) : k0_off55 c = ![yinOff c 2, 0] :=
  (off55_eq c).trans ((by decide : ∀ c : Dev nD, (![pyn c + 336, 0] : Fin 2 → ℕ) = ![yinOff c 2, 0]) c)
theorem pc_off56_y2 (c : Dev nD) : k0_off56 c = ![othb c + yinOff c 2, 0] :=
  (off56_eq c).trans ((by decide : ∀ c : Dev nD, (![othb c + pyn c + 336, 0] : Fin 2 → ℕ) = ![othb c + yinOff c 2, 0]) c)

theorem pc_off57_y3 (c : Dev nD) : k0_off57 c = ![yinOff c 3, 0] :=
  (off57_eq c).trans ((by decide : ∀ c : Dev nD, (![pyn c + 504, 0] : Fin 2 → ℕ) = ![yinOff c 3, 0]) c)
theorem pc_off58_y3 (c : Dev nD) : k0_off58 c = ![othb c + yinOff c 3, 0] :=
  (off58_eq c).trans ((by decide : ∀ c : Dev nD, (![othb c + pyn c + 504, 0] : Fin 2 → ℕ) = ![othb c + yinOff c 3, 0]) c)

theorem pc_off49_2_y4 (c : Dev nD) : k0_off49 c 352#32 = ![yinOff c 4, 0] :=
  (off49_2_eq c).trans ((by decide : ∀ c : Dev nD, (![roth c + 352, 0] : Fin 2 → ℕ) = ![yinOff c 4, 0]) c)
theorem pc_off50_2_y4 (c : Dev nD) : k0_off50 c 352#32 = ![othb c + yinOff c 4, 0] :=
  (off50_2_eq c).trans ((by decide : ∀ c : Dev nD, (![othb c + roth c + 352, 0] : Fin 2 → ℕ) = ![othb c + yinOff c 4, 0]) c)

theorem pc_off59_y5 (c : Dev nD) : k0_off59 c = ![yinOff c 5, 0] :=
  (off59_eq c).trans ((by decide : ∀ c : Dev nD, (![roth c + 528, 0] : Fin 2 → ℕ) = ![yinOff c 5, 0]) c)
theorem pc_off60_y5 (c : Dev nD) : k0_off60 c = ![othb c + yinOff c 5, 0] :=
  (off60_eq c).trans ((by decide : ∀ c : Dev nD, (![othb c + roth c + 528, 0] : Fin 2 → ℕ) = ![othb c + yinOff c 5, 0]) c)

theorem pc_off61_y6 (c : Dev nD) : k0_off61 c = ![yinOff c 6, 0] :=
  (off61_eq c).trans ((by decide : ∀ c : Dev nD, (![pdg c + 336, 0] : Fin 2 → ℕ) = ![yinOff c 6, 0]) c)
theorem pc_off62_y6 (c : Dev nD) : k0_off62 c = ![othb c + yinOff c 6, 0] :=
  (off62_eq c).trans ((by decide : ∀ c : Dev nD, (![othb c + pdg c + 336, 0] : Fin 2 → ℕ) = ![othb c + yinOff c 6, 0]) c)

theorem pc_off63_y7 (c : Dev nD) : k0_off63 c = ![yinOff c 7, 0] :=
  (off63_eq c).trans ((by decide : ∀ c : Dev nD, (![pdg c + 504, 0] : Fin 2 → ℕ) = ![yinOff c 7, 0]) c)
theorem pc_off64_y7 (c : Dev nD) : k0_off64 c = ![othb c + yinOff c 7, 0] :=
  (off64_eq c).trans ((by decide : ∀ c : Dev nD, (![othb c + pdg c + 504, 0] : Fin 2 → ℕ) = ![othb c + yinOff c 7, 0]) c)

theorem pc_off1_z0 (c : Dev nD) : k0_off1 c = ![ownOff c 0, 0] :=
  (off1_eq c).trans ((by decide : ∀ c : Dev nD, (![pown c, 0] : Fin 2 → ℕ) = ![ownOff c 0, 0]) c)
theorem pc_off2_z1 (c : Dev nD) : k0_off2 c = ![ownOff c 1, 0] :=
  (off2_eq c).trans ((by decide : ∀ c : Dev nD, (![pown c + 112, 0] : Fin 2 → ℕ) = ![ownOff c 1, 0]) c)
theorem pc_off42_my (c : Dev nD) : k0_off42 c = ![myb c, 0] := off42_eq c

theorem pc_off38_in8 (c : Dev nD) : k0_off38 c = ![inOff c 8, 0] :=
  (off38_eq c).trans ((by decide : ∀ c : Dev nD, (![pxn c, 0] : Fin 2 → ℕ) = ![inOff c 8, 0]) c)
theorem pc_off10_in9 (c : Dev nD) : k0_off10 c = ![inOff c 9, 0] :=
  (off10_eq c).trans ((by decide : ∀ c : Dev nD, (![pyn c, 0] : Fin 2 → ℕ) = ![inOff c 9, 0]) c)
theorem pc_off39_in9 (c : Dev nD) : k0_off39 c = ![inOff c 9, 0] :=
  (off39_eq c).trans ((by decide : ∀ c : Dev nD, (![pyn c, 0] : Fin 2 → ℕ) = ![inOff c 9, 0]) c)
theorem pc_off11_in10 (c : Dev nD) : k0_off11 c = ![inOff c 10, 0] :=
  (off11_eq c).trans ((by decide : ∀ c : Dev nD, (![pdg c, 0] : Fin 2 → ℕ) = ![inOff c 10, 0]) c)
theorem pc_off40_in10 (c : Dev nD) : k0_off40 c = ![inOff c 10, 0] :=
  (off40_eq c).trans ((by decide : ∀ c : Dev nD, (![pdg c, 0] : Fin 2 → ℕ) = ![inOff c 10, 0]) c)
theorem pc_off12_in11 (c : Dev nD) : k0_off12 c = ![inOff c 11, 0] :=
  (off12_eq c).trans ((by decide : ∀ c : Dev nD, (![roth c, 0] : Fin 2 → ℕ) = ![inOff c 11, 0]) c)
theorem pc_off41_in11 (c : Dev nD) : k0_off41 c = ![inOff c 11, 0] :=
  (off41_eq c).trans ((by decide : ∀ c : Dev nD, (![roth c, 0] : Fin 2 → ℕ) = ![inOff c 11, 0]) c)

/-! ## An input wait followed by the conversion of the rows it staged -/

theorem pc_pts_eq {sp : Space} {e : EltTy} {R : ℕ} (c : Dev nD) (M : Memref sig .tc sp (Sr R) e) (o r : ℕ) (h : o + r ≤ R) (q : PosShare TreeShare)
    (f : Buf (Elt F) ((sl M o r h).view.loc (c : Thread nD τ))) :
    pts (F := F) c M o r h q f = ((sl M o r h).view.loc (c : Thread nD τ) ↦[(sl M o r h).view.set]{q} f) := rfl

/-- The wait for input copy i, the load of the rows it staged, the unused load of the same rows of the conversion buffer and
    the store of the staged rows converted: the staging rows and the argument's rows come back, and the rows of the conversion
    buffer hold the device's half converted. -/
theorem pc_step_wait_conv (c : Dev nD) (K : Dev nD × Fin 86 → ℕ) (i : Fin 12) (n : ℕ) (hni : n = i.val) (hn : n < 85)
    (fm : Buf (Elt F) ((sl MI (inOff c i) (inLen i) (in_inb c i)).view.loc (c : Thread nD τ)))
    (offw off : Fin 2 → ℕ) (hoffw : offw = ![inOff c i, 0]) (hoff : off = ![inOff c i, 0]) (qs : DmaSem sig) (hqs : qs = ⟨n, hn⟩)
    {inbw : ∀ a, offw a + (Sr (inLen i)).size a ≤ (Sr 4096).size a} {inb : ∀ a, off a + (Sr (inLen i)).size a ≤ (Sr 4096).size a}
    {hstw : ∀ a, (Rect.unit (s := Sr 4096) offw (Sr (inLen i)).size inbw).stride a = 1}
    {sp' : Space} {s' : Shape} {e' : EltTy} {src : Memref sig .tc sp' s' e'} {hws : src.view.WordExact}
    {hwd : (ST.slice (Rect.unit (s := Sr 4096) offw (Sr (inLen i)).size inbw) hstw).view.WordExact}
    {hl1 : ST.view.LoadsAt (Rect.unit (s := Sr 4096) off (Sr (inLen i)).size inb).toLoadRect}
    {hl2 : MI.view.LoadsAt (Rect.unit (s := Sr 4096) off (Sr (inLen i)).size inb).toLoadRect}
    (pay : ((Sr (inLen i)).Idx → Elt F .f32) → (Sr (inLen i)).Idx → Elt F .bf16)
    {hx : (MI.access (Rect.unit (s := Sr 4096) off (Sr (inLen i)).size inb)).Stores Finset.univ}
    {hm : (Finset.univ : Finset (Rect.unit (s := Sr 4096) off (Sr (inLen i)).size inb).shape.Idx) = Finset.univ ∨ ∀ a, (Rect.unit (s := Sr 4096) off (Sr (inLen i)).size inb).stride a = 1}
    {α : Type} {Q : α → sProp 𝕄} {k : PUnit → Prog (TpuEff nD τ sig (Elt F) Λ₀ .tc) α} (W : Waits sig Unit)
    (hpayv : ∀ v, pay v = truncf .bf16 v (by decide)) :
    iprop(records m K ∗ cred (tallyAt (dcell c n hn) () (damt n)) ∗ owes (c : Thread nD τ) (owedAfter c 27) W ∗ atPos ER (dcell c n hn) 0 ∅ 0
        ∗ pts c MI (inOff c i) (inLen i) (in_inb c i) fullShare fm)
      ⊢ iprop(((owes (c : Thread nD τ) (owedAfter c 27) (insert (SemLoc.dma ⟨n, hn⟩, ()) W) ∗ atPos ER (dcell c n hn) 1 ∅ 0
              ∗ pts c ST (inOff c i) (inLen i) (in_inb c i) fullShare (X m c) ∗ pts c XA (inOff c i) (inLen i) (in_inb c i) fullShare (X m c)
              ∗ pts c MI (inOff c i) (inLen i) (in_inb c i) fullShare (mineV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs src (ST.slice (Rect.unit (s := Sr 4096) offw (Sr (inLen i)).size inbw) hstw) hws hwd) fun _ =>
                .op (.load ST (Rect.unit (s := Sr 4096) off (Sr (inLen i)).size inb).toLoadRect hl1) fun v =>
                  .op (.load MI (Rect.unit (s := Sr 4096) off (Sr (inLen i)).size inb).toLoadRect hl2) fun _ =>
                    .op (.store MI (Rect.unit (s := Sr 4096) off (Sr (inLen i)).size inb) (pay v) Finset.univ hx hm) k) Q) := by
  subst hoffw hoff hqs hni
  iintro ⟨#Hrec, Hcr, Howes, Hat, Hm⟩ Hk
  iapply (pc_step_wait_done m c K ST (inOff c i) (inLen i) (in_inb c i) i.val hn ![inOff c i, 0] rfl _ rfl W
      (credit_in (inOff c i) i (in_inb c i))) $$ [Hcr Howes Hat]
  · isplitr; · iexact Hrec
    isplitl [Hcr]; · iexact Hcr
    isplitl [Howes]; · iexact Howes
    iexact Hat
  iintro ⟨Howes, Hat, Hpay⟩
  ihave Hp := (pc_dpay_in' m c i i.val rfl) $$ Hpay
  icases Hp with ⟨Hst, Hxa⟩
  ihave Hst := (Entails.of_eq (pc_pts_eq c ST (inOff c i) (inLen i) (in_inb c i) fullShare (X m c))) $$ Hst
  iapply (wp_load_rect 𝒱₀ (c : Thread nD τ) none Set.univ (m := ST) (r := Rect.unit (s := Sr 4096) ![inOff c i, 0] (Sr (inLen i)).size inb)
    (S := (sl ST (inOff c i) (inLen i) (in_inb c i)).view.set) (q := fullShare) (f := X m c) subset_rfl) $$ Hst
  iintro Hst
  iapply (pc_step_load_store m c (inOff c i) (inLen i) (in_inb c i) fm ![inOff c i, 0] rfl _
      (fun y => by rw [hpayv]; exact pc_truncf_rows m c _ _ _ y)) $$ Hm
  iintro Hm
  iapply Hk
  isplitl [Howes]; · iexact Howes
  isplitl [Hat]; · iexact Hat
  isplitl [Hst]; · iapply (Entails.of_eq (pc_pts_eq c ST (inOff c i) (inLen i) (in_inb c i) fullShare (X m c)).symm); iexact Hst
  isplitl [Hxa]; · iexact Hxa
  iexact Hm

/-- The conversion of the rows input copy 8 staged is the converted half at those rows: what the vector handed to part 22 is. -/
theorem pc_pay10_rows (c : Dev nD) (y : (Sr (inLen 8)).Idx) :
    k0_pay10 ((sl ST (inOff c 8) (inLen 8) (in_inb c 8)).view.read (Elt F) (X m c)) y = mineV m c (up (inOff c 8) (in_inb c 8) y) :=
  pc_truncf_rows m c _ _ _ y

set_option maxRecDepth 65536 in
set_option maxHeartbeats 1000000 in
/-- Part 22: the store of the converted rows of input copy 8 (the vector v698 is those rows converted); then, for input copies
    9, 10 and 11, the wait, the load of the staged rows and the store of them converted.  After it the conversion buffer holds the
    device's half converted on the rows of all four. -/
theorem part_22 (c : Dev nD) (K : Dev nD × Fin 86 → ℕ) (v36 v41 v46 : BitVec 32) (v698 : FVec F S672x1024 .bf16) (W : Waits sig Unit)
    (hv : ∀ y : (Sr (inLen 8)).Idx, v698 y = mineV m c (up (inOff c 8) (in_inb c 8) y))
    (fm8 : Buf (Elt F) ((sl MI (inOff c 8) (inLen 8) (in_inb c 8)).view.loc (c : Thread nD τ))) (fm9 : Buf (Elt F) ((sl MI (inOff c 9) (inLen 9) (in_inb c 9)).view.loc (c : Thread nD τ)))
    (fm10 : Buf (Elt F) ((sl MI (inOff c 10) (inLen 10) (in_inb c 10)).view.loc (c : Thread nD τ))) (fm11 : Buf (Elt F) ((sl MI (inOff c 11) (inLen 11) (in_inb c 11)).view.loc (c : Thread nD τ))) :
    iprop(records m K ∗ levAts L lv
        ∗ pts c MI (inOff c 8) (inLen 8) (in_inb c 8) fullShare fm8
        ∗ cred (tallyAt (dcell c 9 (by decide)) () (damt 9)) ∗ owes (c : Thread nD τ) (owedAfter c 27) W ∗ atPos ER (dcell c 9 (by decide)) 0 ∅ 0
        ∗ pts c MI (inOff c 9) (inLen 9) (in_inb c 9) fullShare fm9
        ∗ cred (tallyAt (dcell c 10 (by decide)) () (damt 10)) ∗ atPos ER (dcell c 10 (by decide)) 0 ∅ 0
        ∗ pts c MI (inOff c 10) (inLen 10) (in_inb c 10) fullShare fm10
        ∗ cred (tallyAt (dcell c 11 (by decide)) () (damt 11)) ∗ atPos ER (dcell c 11 (by decide)) 0 ∅ 0
        ∗ pts c MI (inOff c 11) (inLen 11) (in_inb c 11) fullShare fm11)
      ⊢ wp frame (wpE (defs₀ (F := F)) 𝒱₀ (c : Thread nD τ) none) Set.univ
          (k0_part22 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v36 v41 v46 v698)
          (fun r => iprop(pts c MI (inOff c 8) (inLen 8) (in_inb c 8) fullShare (mineV m c)
            ∗ (∃ W', owes (c : Thread nD τ) (owedAfter c 27) W')
            ∗ atPos ER (dcell c 9 (by decide)) 1 ∅ 0 ∗ pts c ST (inOff c 9) (inLen 9) (in_inb c 9) fullShare (X m c)
            ∗ pts c XA (inOff c 9) (inLen 9) (in_inb c 9) fullShare (X m c) ∗ pts c MI (inOff c 9) (inLen 9) (in_inb c 9) fullShare (mineV m c)
            ∗ atPos ER (dcell c 10 (by decide)) 1 ∅ 0 ∗ pts c ST (inOff c 10) (inLen 10) (in_inb c 10) fullShare (X m c)
            ∗ pts c XA (inOff c 10) (inLen 10) (in_inb c 10) fullShare (X m c) ∗ pts c MI (inOff c 10) (inLen 10) (in_inb c 10) fullShare (mineV m c)
            ∗ atPos ER (dcell c 11 (by decide)) 1 ∅ 0 ∗ pts c ST (inOff c 11) (inLen 11) (in_inb c 11) fullShare (X m c)
            ∗ pts c XA (inOff c 11) (inLen 11) (in_inb c 11) fullShare (X m c) ∗ pts c MI (inOff c 11) (inLen 11) (in_inb c 11) fullShare (mineV m c))) := by
  simp only [k0_part22_eq_skeleton]; unfold k0_part22_skel
  simp only [Prog.lift, Prog.bind_op, Prog.bind_ret, Prog.pure_eq_ret, Prog.bind_assoc]
  iintro ⟨#Hrec, -, Hm8, Hcr9, Howes, Hat9, Hm9, Hcr10, Hat10, Hm10, Hcr11, Hat11, Hm11⟩
  iapply (pc_step_load_store m c (inOff c 8) (inLen 8) (in_inb c 8) fm8 (k0_off38 c) (pc_off38_in8 c) (k0_pay11 v698)
      (fun y => by rw [show k0_pay11 v698 = v698 from shapeCast_self _ _]; exact hv y)) $$ Hm8
  iintro Hm8
  iapply (pc_step_wait_conv m c K 9 9 rfl (by decide) fm9 (k0_off10 c) (k0_off39 c) (pc_off10_in9 c) (pc_off39_in9 c) _ rfl k0_pay12 W
      (fun v => shapeCast_self _ _)) $$ [Hcr9 Howes Hat9 Hm9]
  · isplitr; · iexact Hrec
    isplitl [Hcr9]; · iexact Hcr9
    isplitl [Howes]; · iexact Howes
    isplitl [Hat9]; · iexact Hat9
    iexact Hm9
  iintro ⟨Howes, Hat9, Hst9, Hxa9, Hm9⟩
  iapply (pc_step_wait_conv m c K 10 10 rfl (by decide) fm10 (k0_off11 c) (k0_off40 c) (pc_off11_in10 c) (pc_off40_in10 c) _ rfl k0_pay13 _
      (fun v => shapeCast_self _ _)) $$ [Hcr10 Howes Hat10 Hm10]
  · isplitr; · iexact Hrec
    isplitl [Hcr10]; · iexact Hcr10
    isplitl [Howes]; · iexact Howes
    isplitl [Hat10]; · iexact Hat10
    iexact Hm10
  iintro ⟨Howes, Hat10, Hst10, Hxa10, Hm10⟩
  iapply (pc_step_wait_conv m c K 11 11 rfl (by decide) fm11 (k0_off12 c) (k0_off41 c) (pc_off12_in11 c) (pc_off41_in11 c) _ rfl k0_pay14 _
      (fun v => shapeCast_self _ _)) $$ [Hcr11 Howes Hat11 Hm11]
  · isplitr; · iexact Hrec
    isplitl [Hcr11]; · iexact Hcr11
    isplitl [Howes]; · iexact Howes
    isplitl [Hat11]; · iexact Hat11
    iexact Hm11
  iintro ⟨Howes, Hat11, Hst11, Hxa11, Hm11⟩
  rw [wp_ret]; imodintro
  isplitl [Hm8]; · iexact Hm8
  isplitl [Howes]; · iexists _; iexact Howes
  isplitl [Hat9]; · iexact Hat9
  isplitl [Hst9]; · iexact Hst9
  isplitl [Hxa9]; · iexact Hxa9
  isplitl [Hm9]; · iexact Hm9
  isplitl [Hat10]; · iexact Hat10
  isplitl [Hst10]; · iexact Hst10
  isplitl [Hxa10]; · iexact Hxa10
  isplitl [Hm10]; · iexact Hm10
  isplitl [Hat11]; · iexact Hat11
  isplitl [Hst11]; · iexact Hst11
  isplitl [Hxa11]; · iexact Hxa11
  iexact Hm11

set_option maxRecDepth 65536 in
set_option maxHeartbeats 1000000 in
/-- Part 23: the conversion buffer, whole and holding the device's half converted, copied (read at the right half) to the
    device's own half of the result; then the x-arrivals 0 and 1, each waited for and copied to the result. -/
theorem part_23 (c : Dev nD) (K : Dev nD × Fin 86 → ℕ) (v2 v5 v9 v25 v32 v120 : BitVec 32) (W : Waits sig Unit)
    (fdm : Buf (Elt F) ((sl OU (myb c) 4096 (omy_inb c)).view.loc (c : Thread nD τ)))
    (fdx0 : Buf (Elt F) ((sl OU (othb c + xinOff c 0) (xinLen 0) (oxin_inb c 0)).view.loc (c : Thread nD τ)))
    (fdx1 : Buf (Elt F) ((sl OU (othb c + xinOff c 1) (xinLen 1) (oxin_inb c 1)).view.loc (c : Thread nD τ))) :
    iprop(records m K ∗ levAts L lv
        ∗ pts c MI 0 4096 (Nat.le_refl _) sR (mineV m c) ∗ pts c OU (myb c) 4096 (omy_inb c) fullShare fdm ∗ dutyTok ER (dcell c 84 (by decide)) 0 0
        ∗ cred (tallyAt (dcell c 36 (by decide)) () (damt 36)) ∗ owes (c : Thread nD τ) (owedAfter c 27) W ∗ atPos ER (dcell c 36 (by decide)) 0 ∅ 0
        ∗ pts c OU (othb c + xinOff c 0) (xinLen 0) (oxin_inb c 0) fullShare fdx0 ∗ dutyTok ER (dcell c 68 (by decide)) 0 0
        ∗ cred (tallyAt (dcell c 37 (by decide)) () (damt 37)) ∗ atPos ER (dcell c 37 (by decide)) 0 ∅ 0
        ∗ pts c OU (othb c + xinOff c 1) (xinLen 1) (oxin_inb c 1) fullShare fdx1 ∗ dutyTok ER (dcell c 69 (by decide)) 0 0)
      ⊢ wp frame (wpE (defs₀ (F := F)) 𝒱₀ (c : Thread nD τ) none) Set.univ
          (k0_part23 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v32 v120)
          (fun r => iprop(cred (tallyAt (dcell c 84 (by decide)) () (damt 84))
            ∗ (∃ W', owes (c : Thread nD τ) (owedAfter c 27) W')
            ∗ atPos ER (dcell c 36 (by decide)) 1 ∅ 0 ∗ cred (tallyAt (dcell c 68 (by decide)) () (damt 68))
            ∗ atPos ER (dcell c 37 (by decide)) 1 ∅ 0 ∗ cred (tallyAt (dcell c 69 (by decide)) () (damt 69)))) := by
  simp only [k0_part23_eq_skeleton]; unfold k0_part23_skel
  simp only [Prog.lift, Prog.bind_op, Prog.bind_ret, Prog.pure_eq_ret, Prog.bind_assoc]
  iintro ⟨#Hrec, -, Hmi, Houm, Hdt84, Hcrx0, Howes, Hatx0, Houx0, Hdtx0, Hcrx1, Hatx1, Houx1, Hdtx1⟩
  iapply (pc_step_copy_lm m c K fdm (k0_off42 c) (pc_off42_my c) _ rfl) $$ [Hmi Houm Hdt84]
  · isplitr; · iexact Hrec
    isplitl [Hmi]; · iexact Hmi
    isplitl [Houm]; · iexact Houm
    iexact Hdt84
  iintro Hcl84
  iapply (pc_step_recv_copy m c K (xinOff c 0) (xinLen 0) (xin_inb c 0) (oxin_inb c 0) 36 68 (by decide) (by decide) fdx0
      (k0_off43 c) (k0_off44 c) (pc_off43_x0 c) (pc_off44_x0 c) _ _ rfl rfl W
      (credit_xr (xinOff c 0) 0 (xin_inb c 0)) (credit_lx (othb c + xinOff c 0) 0 (oxin_inb c 0)) (pc_dpay_xr' m c 0 36 rfl) (pay_lx m c 0 fdx0))
    $$ [Hcrx0 Howes Hatx0 Houx0 Hdtx0]
  · isplitr; · iexact Hrec
    isplitl [Hcrx0]; · iexact Hcrx0
    isplitl [Howes]; · iexact Howes
    isplitl [Hatx0]; · iexact Hatx0
    isplitl [Houx0]; · iexact Houx0
    iexact Hdtx0
  iintro ⟨Howes, Hatx0, Hclx0⟩
  iapply (pc_step_recv_copy m c K (xinOff c 1) (xinLen 1) (xin_inb c 1) (oxin_inb c 1) 37 69 (by decide) (by decide) fdx1
      (k0_off45 c) (k0_off46 c) (pc_off45_x1 c) (pc_off46_x1 c) _ _ rfl rfl _
      (credit_xr (xinOff c 1) 1 (xin_inb c 1)) (credit_lx (othb c + xinOff c 1) 1 (oxin_inb c 1)) (pc_dpay_xr' m c 1 37 rfl) (pay_lx m c 1 fdx1))
    $$ [Hcrx1 Howes Hatx1 Houx1 Hdtx1]
  · isplitr; · iexact Hrec
    isplitl [Hcrx1]; · iexact Hcrx1
    isplitl [Howes]; · iexact Howes
    isplitl [Hatx1]; · iexact Hatx1
    isplitl [Houx1]; · iexact Houx1
    iexact Hdtx1
  iintro ⟨Howes, Hatx1, Hclx1⟩
  rw [wp_ret]; imodintro
  isplitl [Hcl84]; · iexact Hcl84
  isplitl [Howes]; · iexists _; iexact Howes
  isplitl [Hatx0]; · iexact Hatx0
  isplitl [Hclx0]; · iexact Hclx0
  isplitl [Hatx1]; · iexact Hatx1
  iexact Hclx1

set_option maxRecDepth 65536 in
set_option maxHeartbeats 1000000 in
/-- Part 24: the x-arrivals 4 and 5 (the first half of the other 704-region), each waited for and copied to the result. -/
theorem part_24 (c : Dev nD) (K : Dev nD × Fin 86 → ℕ) (v2 v5 v9 v25 v46 v123 : BitVec 32) (W : Waits sig Unit)
    (fdx4 : Buf (Elt F) ((sl OU (othb c + xinOff c 4) (xinLen 4) (oxin_inb c 4)).view.loc (c : Thread nD τ)))
    (fdx5 : Buf (Elt F) ((sl OU (othb c + xinOff c 5) (xinLen 5) (oxin_inb c 5)).view.loc (c : Thread nD τ))) :
    iprop(records m K ∗ levAts L lv
        ∗ cred (tallyAt (dcell c 40 (by decide)) () (damt 40)) ∗ owes (c : Thread nD τ) (owedAfter c 27) W ∗ atPos ER (dcell c 40 (by decide)) 0 ∅ 0
        ∗ pts c OU (othb c + xinOff c 4) (xinLen 4) (oxin_inb c 4) fullShare fdx4 ∗ dutyTok ER (dcell c 72 (by decide)) 0 0
        ∗ cred (tallyAt (dcell c 41 (by decide)) () (damt 41)) ∗ atPos ER (dcell c 41 (by decide)) 0 ∅ 0
        ∗ pts c OU (othb c + xinOff c 5) (xinLen 5) (oxin_inb c 5) fullShare fdx5 ∗ dutyTok ER (dcell c 73 (by decide)) 0 0)
      ⊢ wp frame (wpE (defs₀ (F := F)) 𝒱₀ (c : Thread nD τ) none) Set.univ
          (k0_part24 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v46 v123)
          (fun r => iprop((∃ W', owes (c : Thread nD τ) (owedAfter c 27) W')
            ∗ atPos ER (dcell c 40 (by decide)) 1 ∅ 0 ∗ cred (tallyAt (dcell c 72 (by decide)) () (damt 72))
            ∗ atPos ER (dcell c 41 (by decide)) 1 ∅ 0 ∗ cred (tallyAt (dcell c 73 (by decide)) () (damt 73)))) := by
  simp only [k0_part24_eq_skeleton]; unfold k0_part24_skel
  simp only [Prog.lift, Prog.bind_op, Prog.bind_ret, Prog.pure_eq_ret, Prog.bind_assoc]
  iintro ⟨#Hrec, -, Hcrx4, Howes, Hatx4, Houx4, Hdtx4, Hcrx5, Hatx5, Houx5, Hdtx5⟩
  iapply (pc_step_recv_copy m c K (xinOff c 4) (xinLen 4) (xin_inb c 4) (oxin_inb c 4) 40 72 (by decide) (by decide) fdx4
      (k0_off47 c) (k0_off48 c) (pc_off47_x4 c) (pc_off48_x4 c) _ _ rfl rfl W
      (credit_xr (xinOff c 4) 4 (xin_inb c 4)) (credit_lx (othb c + xinOff c 4) 4 (oxin_inb c 4)) (pc_dpay_xr' m c 4 40 rfl) (pay_lx m c 4 fdx4))
    $$ [Hcrx4 Howes Hatx4 Houx4 Hdtx4]
  · isplitr; · iexact Hrec
    isplitl [Hcrx4]; · iexact Hcrx4
    isplitl [Howes]; · iexact Howes
    isplitl [Hatx4]; · iexact Hatx4
    isplitl [Houx4]; · iexact Houx4
    iexact Hdtx4
  iintro ⟨Howes, Hatx4, Hclx4⟩
  iapply (pc_step_recv_copy m c K (xinOff c 5) (xinLen 5) (xin_inb c 5) (oxin_inb c 5) 41 73 (by decide) (by decide) fdx5
      (k0_off49 c 176#32) (k0_off50 c 176#32) (pc_off49_1_x5 c) (pc_off50_1_x5 c) _ _ rfl rfl _
      (credit_xr (xinOff c 5) 5 (xin_inb c 5)) (credit_lx (othb c + xinOff c 5) 5 (oxin_inb c 5)) (pc_dpay_xr' m c 5 41 rfl) (pay_lx m c 5 fdx5))
    $$ [Hcrx5 Howes Hatx5 Houx5 Hdtx5]
  · isplitr; · iexact Hrec
    isplitl [Hcrx5]; · iexact Hcrx5
    isplitl [Howes]; · iexact Howes
    isplitl [Hatx5]; · iexact Hatx5
    isplitl [Houx5]; · iexact Houx5
    iexact Hdtx5
  iintro ⟨Howes, Hatx5, Hclx5⟩
  rw [wp_ret]; imodintro
  isplitl [Howes]; · iexists _; iexact Howes
  isplitl [Hatx4]; · iexact Hatx4
  isplitl [Hclx4]; · iexact Hclx4
  isplitl [Hatx5]; · iexact Hatx5
  iexact Hclx5

set_option maxRecDepth 65536 in
set_option maxHeartbeats 1000000 in
/-- Part 25: the x-arrivals 6 and 7 (the first two chunks of the diagonal's 672-region), each waited for and copied to the result. -/
theorem part_25 (c : Dev nD) (K : Dev nD × Fin 86 → ℕ) (v2 v5 v9 v25 v41 v124 v798 : BitVec 32) (W : Waits sig Unit)
    (fdx6 : Buf (Elt F) ((sl OU (othb c + xinOff c 6) (xinLen 6) (oxin_inb c 6)).view.loc (c : Thread nD τ)))
    (fdx7 : Buf (Elt F) ((sl OU (othb c + xinOff c 7) (xinLen 7) (oxin_inb c 7)).view.loc (c : Thread nD τ))) :
    iprop(records m K ∗ levAts L lv
        ∗ cred (tallyAt (dcell c 42 (by decide)) () (damt 42)) ∗ owes (c : Thread nD τ) (owedAfter c 27) W ∗ atPos ER (dcell c 42 (by decide)) 0 ∅ 0
        ∗ pts c OU (othb c + xinOff c 6) (xinLen 6) (oxin_inb c 6) fullShare fdx6 ∗ dutyTok ER (dcell c 74 (by decide)) 0 0
        ∗ cred (tallyAt (dcell c 43 (by decide)) () (damt 43)) ∗ atPos ER (dcell c 43 (by decide)) 0 ∅ 0
        ∗ pts c OU (othb c + xinOff c 7) (xinLen 7) (oxin_inb c 7) fullShare fdx7 ∗ dutyTok ER (dcell c 75 (by decide)) 0 0)
      ⊢ wp frame (wpE (defs₀ (F := F)) 𝒱₀ (c : Thread nD τ) none) Set.univ
          (k0_part25 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v41 v124 v798)
          (fun r => iprop((∃ W', owes (c : Thread nD τ) (owedAfter c 27) W')
            ∗ atPos ER (dcell c 42 (by decide)) 1 ∅ 0 ∗ cred (tallyAt (dcell c 74 (by decide)) () (damt 74))
            ∗ atPos ER (dcell c 43 (by decide)) 1 ∅ 0 ∗ cred (tallyAt (dcell c 75 (by decide)) () (damt 75)))) := by
  simp only [k0_part25_eq_skeleton]; unfold k0_part25_skel
  simp only [Prog.lift, Prog.bind_op, Prog.bind_ret, Prog.pure_eq_ret, Prog.bind_assoc]
  iintro ⟨#Hrec, -, Hcrx6, Howes, Hatx6, Houx6, Hdtx6, Hcrx7, Hatx7, Houx7, Hdtx7⟩
  iapply (pc_step_recv_copy m c K (xinOff c 6) (xinLen 6) (xin_inb c 6) (oxin_inb c 6) 42 74 (by decide) (by decide) fdx6
      (k0_off51 c) (k0_off52 c) (pc_off51_x6 c) (pc_off52_x6 c) _ _ rfl rfl W
      (credit_xr (xinOff c 6) 6 (xin_inb c 6)) (credit_lx (othb c + xinOff c 6) 6 (oxin_inb c 6)) (pc_dpay_xr' m c 6 42 rfl) (pay_lx m c 6 fdx6))
    $$ [Hcrx6 Howes Hatx6 Houx6 Hdtx6]
  · isplitr; · iexact Hrec
    isplitl [Hcrx6]; · iexact Hcrx6
    isplitl [Howes]; · iexact Howes
    isplitl [Hatx6]; · iexact Hatx6
    isplitl [Houx6]; · iexact Houx6
    iexact Hdtx6
  iintro ⟨Howes, Hatx6, Hclx6⟩
  iapply (pc_step_recv_copy m c K (xinOff c 7) (xinLen 7) (xin_inb c 7) (oxin_inb c 7) 43 75 (by decide) (by decide) fdx7
      (k0_off53 c) (k0_off54 c) (pc_off53_x7 c) (pc_off54_x7 c) _ _ rfl rfl _
      (credit_xr (xinOff c 7) 7 (xin_inb c 7)) (credit_lx (othb c + xinOff c 7) 7 (oxin_inb c 7)) (pc_dpay_xr' m c 7 43 rfl) (pay_lx m c 7 fdx7))
    $$ [Hcrx7 Howes Hatx7 Houx7 Hdtx7]
  · isplitr; · iexact Hrec
    isplitl [Hcrx7]; · iexact Hcrx7
    isplitl [Howes]; · iexact Howes
    isplitl [Hatx7]; · iexact Hatx7
    isplitl [Houx7]; · iexact Houx7
    iexact Hdtx7
  iintro ⟨Howes, Hatx7, Hclx7⟩
  rw [wp_ret]; imodintro
  isplitl [Howes]; · iexists _; iexact Howes
  isplitl [Hatx6]; · iexact Hatx6
  isplitl [Hclx6]; · iexact Hclx6
  isplitl [Hatx7]; · iexact Hatx7
  iexact Hclx7

set_option maxRecDepth 65536 in
set_option maxHeartbeats 1000000 in
/-- Part 26: the y-arrivals 2 and 3 (the last two chunks of the y-neighbour's 672-region), each waited for and copied to the result. -/
theorem part_26 (c : Dev nD) (K : Dev nD × Fin 86 → ℕ) (v2 v5 v9 v25 v126 v127 v830 c1_i32_542 : BitVec 32) (W : Waits sig Unit)
    (fdy2 : Buf (Elt F) ((sl OU (othb c + yinOff c 2) (yinLen 2) (oyin_inb c 2)).view.loc (c : Thread nD τ)))
    (fdy3 : Buf (Elt F) ((sl OU (othb c + yinOff c 3) (yinLen 3) (oyin_inb c 3)).view.loc (c : Thread nD τ))) :
    iprop(records m K ∗ levAts L lv
        ∗ cred (tallyAt (dcell c 54 (by decide)) () (damt 54)) ∗ owes (c : Thread nD τ) (owedAfter c 27) W ∗ atPos ER (dcell c 54 (by decide)) 0 ∅ 0
        ∗ pts c OU (othb c + yinOff c 2) (yinLen 2) (oyin_inb c 2) fullShare fdy2 ∗ dutyTok ER (dcell c 78 (by decide)) 0 0
        ∗ cred (tallyAt (dcell c 55 (by decide)) () (damt 55)) ∗ atPos ER (dcell c 55 (by decide)) 0 ∅ 0
        ∗ pts c OU (othb c + yinOff c 3) (yinLen 3) (oyin_inb c 3) fullShare fdy3 ∗ dutyTok ER (dcell c 79 (by decide)) 0 0)
      ⊢ wp frame (wpE (defs₀ (F := F)) 𝒱₀ (c : Thread nD τ) none) Set.univ
          (k0_part26 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v126 v127 v830 c1_i32_542)
          (fun r => iprop((∃ W', owes (c : Thread nD τ) (owedAfter c 27) W')
            ∗ atPos ER (dcell c 54 (by decide)) 1 ∅ 0 ∗ cred (tallyAt (dcell c 78 (by decide)) () (damt 78))
            ∗ atPos ER (dcell c 55 (by decide)) 1 ∅ 0 ∗ cred (tallyAt (dcell c 79 (by decide)) () (damt 79)))) := by
  simp only [k0_part26_eq_skeleton]; unfold k0_part26_skel
  simp only [Prog.lift, Prog.bind_op, Prog.bind_ret, Prog.pure_eq_ret, Prog.bind_assoc]
  iintro ⟨#Hrec, -, Hcry2, Howes, Haty2, Houy2, Hdty2, Hcry3, Haty3, Houy3, Hdty3⟩
  iapply (pc_step_recv_copy m c K (yinOff c 2) (yinLen 2) (yin_inb c 2) (oyin_inb c 2) 54 78 (by decide) (by decide) fdy2
      (k0_off55 c) (k0_off56 c) (pc_off55_y2 c) (pc_off56_y2 c) _ _ rfl rfl W
      (credit_yr (yinOff c 2) 2 (yin_inb c 2)) (credit_ly (othb c + yinOff c 2) 2 (oyin_inb c 2)) (pc_dpay_yr' m c 2 54 rfl) (pay_ly m c 2 fdy2))
    $$ [Hcry2 Howes Haty2 Houy2 Hdty2]
  · isplitr; · iexact Hrec
    isplitl [Hcry2]; · iexact Hcry2
    isplitl [Howes]; · iexact Howes
    isplitl [Haty2]; · iexact Haty2
    isplitl [Houy2]; · iexact Houy2
    iexact Hdty2
  iintro ⟨Howes, Haty2, Hcly2⟩
  iapply (pc_step_recv_copy m c K (yinOff c 3) (yinLen 3) (yin_inb c 3) (oyin_inb c 3) 55 79 (by decide) (by decide) fdy3
      (k0_off57 c) (k0_off58 c) (pc_off57_y3 c) (pc_off58_y3 c) _ _ rfl rfl _
      (credit_yr (yinOff c 3) 3 (yin_inb c 3)) (credit_ly (othb c + yinOff c 3) 3 (oyin_inb c 3)) (pc_dpay_yr' m c 3 55 rfl) (pay_ly m c 3 fdy3))
    $$ [Hcry3 Howes Haty3 Houy3 Hdty3]
  · isplitr; · iexact Hrec
    isplitl [Hcry3]; · iexact Hcry3
    isplitl [Howes]; · iexact Howes
    isplitl [Haty3]; · iexact Haty3
    isplitl [Houy3]; · iexact Houy3
    iexact Hdty3
  iintro ⟨Howes, Haty3, Hcly3⟩
  rw [wp_ret]; imodintro
  isplitl [Howes]; · iexists _; iexact Howes
  isplitl [Haty2]; · iexact Haty2
  isplitl [Hcly2]; · iexact Hcly2
  isplitl [Haty3]; · iexact Haty3
  iexact Hcly3

set_option maxRecDepth 65536 in
set_option maxHeartbeats 1000000 in
/-- Part 27: the y-arrivals 4 and 5 (the second half of the other 704-region), each waited for and copied to the result. -/
theorem part_27 (c : Dev nD) (K : Dev nD × Fin 86 → ℕ) (v2 v5 v9 v25 v128 v129 : BitVec 32) (W : Waits sig Unit)
    (fdy4 : Buf (Elt F) ((sl OU (othb c + yinOff c 4) (yinLen 4) (oyin_inb c 4)).view.loc (c : Thread nD τ)))
    (fdy5 : Buf (Elt F) ((sl OU (othb c + yinOff c 5) (yinLen 5) (oyin_inb c 5)).view.loc (c : Thread nD τ))) :
    iprop(records m K ∗ levAts L lv
        ∗ cred (tallyAt (dcell c 56 (by decide)) () (damt 56)) ∗ owes (c : Thread nD τ) (owedAfter c 27) W ∗ atPos ER (dcell c 56 (by decide)) 0 ∅ 0
        ∗ pts c OU (othb c + yinOff c 4) (yinLen 4) (oyin_inb c 4) fullShare fdy4 ∗ dutyTok ER (dcell c 80 (by decide)) 0 0
        ∗ cred (tallyAt (dcell c 57 (by decide)) () (damt 57)) ∗ atPos ER (dcell c 57 (by decide)) 0 ∅ 0
        ∗ pts c OU (othb c + yinOff c 5) (yinLen 5) (oyin_inb c 5) fullShare fdy5 ∗ dutyTok ER (dcell c 81 (by decide)) 0 0)
      ⊢ wp frame (wpE (defs₀ (F := F)) 𝒱₀ (c : Thread nD τ) none) Set.univ
          (k0_part27 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v128 v129)
          (fun r => iprop((∃ W', owes (c : Thread nD τ) (owedAfter c 27) W')
            ∗ atPos ER (dcell c 56 (by decide)) 1 ∅ 0 ∗ cred (tallyAt (dcell c 80 (by decide)) () (damt 80))
            ∗ atPos ER (dcell c 57 (by decide)) 1 ∅ 0 ∗ cred (tallyAt (dcell c 81 (by decide)) () (damt 81)))) := by
  simp only [k0_part27_eq_skeleton]; unfold k0_part27_skel
  simp only [Prog.lift, Prog.bind_op, Prog.bind_ret, Prog.pure_eq_ret, Prog.bind_assoc]
  iintro ⟨#Hrec, -, Hcry4, Howes, Haty4, Houy4, Hdty4, Hcry5, Haty5, Houy5, Hdty5⟩
  iapply (pc_step_recv_copy m c K (yinOff c 4) (yinLen 4) (yin_inb c 4) (oyin_inb c 4) 56 80 (by decide) (by decide) fdy4
      (k0_off49 c 352#32) (k0_off50 c 352#32) (pc_off49_2_y4 c) (pc_off50_2_y4 c) _ _ rfl rfl W
      (credit_yr (yinOff c 4) 4 (yin_inb c 4)) (credit_ly (othb c + yinOff c 4) 4 (oyin_inb c 4)) (pc_dpay_yr' m c 4 56 rfl) (pay_ly m c 4 fdy4))
    $$ [Hcry4 Howes Haty4 Houy4 Hdty4]
  · isplitr; · iexact Hrec
    isplitl [Hcry4]; · iexact Hcry4
    isplitl [Howes]; · iexact Howes
    isplitl [Haty4]; · iexact Haty4
    isplitl [Houy4]; · iexact Houy4
    iexact Hdty4
  iintro ⟨Howes, Haty4, Hcly4⟩
  iapply (pc_step_recv_copy m c K (yinOff c 5) (yinLen 5) (yin_inb c 5) (oyin_inb c 5) 57 81 (by decide) (by decide) fdy5
      (k0_off59 c) (k0_off60 c) (pc_off59_y5 c) (pc_off60_y5 c) _ _ rfl rfl _
      (credit_yr (yinOff c 5) 5 (yin_inb c 5)) (credit_ly (othb c + yinOff c 5) 5 (oyin_inb c 5)) (pc_dpay_yr' m c 5 57 rfl) (pay_ly m c 5 fdy5))
    $$ [Hcry5 Howes Haty5 Houy5 Hdty5]
  · isplitr; · iexact Hrec
    isplitl [Hcry5]; · iexact Hcry5
    isplitl [Howes]; · iexact Howes
    isplitl [Haty5]; · iexact Haty5
    isplitl [Houy5]; · iexact Houy5
    iexact Hdty5
  iintro ⟨Howes, Haty5, Hcly5⟩
  rw [wp_ret]; imodintro
  isplitl [Howes]; · iexists _; iexact Howes
  isplitl [Haty4]; · iexact Haty4
  isplitl [Hcly4]; · iexact Hcly4
  isplitl [Haty5]; · iexact Haty5
  iexact Hcly5

set_option maxRecDepth 65536 in
set_option maxHeartbeats 1000000 in
/-- Part 28: the y-arrivals 6 and 7 (the last two chunks of the diagonal's 672-region), each waited for and copied to the result;
    then the waits for the send cells of the first two z-transfers, which hand back the left half of their rows of the
    conversion buffer. -/
theorem part_28 (c : Dev nD) (K : Dev nD × Fin 86 → ℕ) (v2 v5 v9 v25 v130 v131 : BitVec 32) (W : Waits sig Unit)
    (fdy6 : Buf (Elt F) ((sl OU (othb c + yinOff c 6) (yinLen 6) (oyin_inb c 6)).view.loc (c : Thread nD τ)))
    (fdy7 : Buf (Elt F) ((sl OU (othb c + yinOff c 7) (yinLen 7) (oyin_inb c 7)).view.loc (c : Thread nD τ))) :
    iprop(records m K ∗ levAts L lv
        ∗ cred (tallyAt (dcell c 58 (by decide)) () (damt 58)) ∗ owes (c : Thread nD τ) (owedAfter c 27) W ∗ atPos ER (dcell c 58 (by decide)) 0 ∅ 0
        ∗ pts c OU (othb c + yinOff c 6) (yinLen 6) (oyin_inb c 6) fullShare fdy6 ∗ dutyTok ER (dcell c 82 (by decide)) 0 0
        ∗ cred (tallyAt (dcell c 59 (by decide)) () (damt 59)) ∗ atPos ER (dcell c 59 (by decide)) 0 ∅ 0
        ∗ pts c OU (othb c + yinOff c 7) (yinLen 7) (oyin_inb c 7) fullShare fdy7 ∗ dutyTok ER (dcell c 83 (by decide)) 0 0
        ∗ cred (tallyAt (dcell c 12 (by decide)) () (damt 12)) ∗ atPos ER (dcell c 12 (by decide)) 0 ∅ 0
        ∗ cred (tallyAt (dcell c 13 (by decide)) () (damt 13)) ∗ atPos ER (dcell c 13 (by decide)) 0 ∅ 0)
      ⊢ wp frame (wpE (defs₀ (F := F)) 𝒱₀ (c : Thread nD τ) none) Set.univ
          (k0_part28 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v130 v131)
          (fun r => iprop((∃ W', owes (c : Thread nD τ) (owedAfter c 27) W')
            ∗ atPos ER (dcell c 58 (by decide)) 1 ∅ 0 ∗ cred (tallyAt (dcell c 82 (by decide)) () (damt 82))
            ∗ atPos ER (dcell c 59 (by decide)) 1 ∅ 0 ∗ cred (tallyAt (dcell c 83 (by decide)) () (damt 83))
            ∗ atPos ER (dcell c 12 (by decide)) 1 ∅ 0 ∗ pts c MI (ownOff c 0) (ownLen 0) (own_inb c 0) sL (mineV m c)
            ∗ atPos ER (dcell c 13 (by decide)) 1 ∅ 0 ∗ pts c MI (ownOff c 1) (ownLen 1) (own_inb c 1) sL (mineV m c))) := by
  simp only [k0_part28_eq_skeleton]; unfold k0_part28_skel
  simp only [Prog.lift, Prog.bind_op, Prog.bind_ret, Prog.pure_eq_ret, Prog.bind_assoc]
  iintro ⟨#Hrec, -, Hcry6, Howes, Haty6, Houy6, Hdty6, Hcry7, Haty7, Houy7, Hdty7, Hcr12, Hat12, Hcr13, Hat13⟩
  iapply (pc_step_recv_copy m c K (yinOff c 6) (yinLen 6) (yin_inb c 6) (oyin_inb c 6) 58 82 (by decide) (by decide) fdy6
      (k0_off61 c) (k0_off62 c) (pc_off61_y6 c) (pc_off62_y6 c) _ _ rfl rfl W
      (credit_yr (yinOff c 6) 6 (yin_inb c 6)) (credit_ly (othb c + yinOff c 6) 6 (oyin_inb c 6)) (pc_dpay_yr' m c 6 58 rfl) (pay_ly m c 6 fdy6))
    $$ [Hcry6 Howes Haty6 Houy6 Hdty6]
  · isplitr; · iexact Hrec
    isplitl [Hcry6]; · iexact Hcry6
    isplitl [Howes]; · iexact Howes
    isplitl [Haty6]; · iexact Haty6
    isplitl [Houy6]; · iexact Houy6
    iexact Hdty6
  iintro ⟨Howes, Haty6, Hcly6⟩
  iapply (pc_step_recv_copy m c K (yinOff c 7) (yinLen 7) (yin_inb c 7) (oyin_inb c 7) 59 83 (by decide) (by decide) fdy7
      (k0_off63 c) (k0_off64 c) (pc_off63_y7 c) (pc_off64_y7 c) _ _ rfl rfl _
      (credit_yr (yinOff c 7) 7 (yin_inb c 7)) (credit_ly (othb c + yinOff c 7) 7 (oyin_inb c 7)) (pc_dpay_yr' m c 7 59 rfl) (pay_ly m c 7 fdy7))
    $$ [Hcry7 Howes Haty7 Houy7 Hdty7]
  · isplitr; · iexact Hrec
    isplitl [Hcry7]; · iexact Hcry7
    isplitl [Howes]; · iexact Howes
    isplitl [Haty7]; · iexact Haty7
    isplitl [Houy7]; · iexact Houy7
    iexact Hdty7
  iintro ⟨Howes, Haty7, Hcly7⟩
  iapply (pc_step_wait_done m c K MI (ownOff c 0) (ownLen 0) (own_inb c 0) 12 (by decide) (k0_off1 c) (pc_off1_z0 c) _ rfl _
      (pc_credit_mi (ownOff c 0) 0 (own_inb c 0))) $$ [Hcr12 Howes Hat12]
  · isplitr; · iexact Hrec
    isplitl [Hcr12]; · iexact Hcr12
    isplitl [Howes]; · iexact Howes
    iexact Hat12
  iintro ⟨Howes, Hat12, Hp12⟩
  ihave Hmi0 := (pc_dpay_zs' m c 0 12 rfl) $$ Hp12
  iapply (pc_step_wait_done m c K MI (ownOff c 1) (ownLen 1) (own_inb c 1) 13 (by decide) (k0_off2 c) (pc_off2_z1 c) _ rfl _
      (pc_credit_mi (ownOff c 1) 1 (own_inb c 1))) $$ [Hcr13 Howes Hat13]
  · isplitr; · iexact Hrec
    isplitl [Hcr13]; · iexact Hcr13
    isplitl [Howes]; · iexact Howes
    iexact Hat13
  iintro ⟨Howes, Hat13, Hp13⟩
  ihave Hmi1 := (pc_dpay_zs' m c 1 13 rfl) $$ Hp13
  rw [wp_ret]; imodintro
  isplitl [Howes]; · iexists _; iexact Howes
  isplitl [Haty6]; · iexact Haty6
  isplitl [Hcly6]; · iexact Hcly6
  isplitl [Haty7]; · iexact Haty7
  isplitl [Hcly7]; · iexact Hcly7
  isplitl [Hat12]; · iexact Hat12
  isplitl [Hmi0]; · iexact Hmi0
  isplitl [Hat13]; · iexact Hat13
  iexact Hmi1

end Cert.KernelIdeal.AG

end

/-- info: 'Cert.KernelIdeal.AG.part_22' depends on axioms: [propext, Classical.choice, Quot.sound] -/
#guard_msgs in #print axioms Cert.KernelIdeal.AG.part_22

/-- info: 'Cert.KernelIdeal.AG.part_23' depends on axioms: [propext, Classical.choice, Quot.sound] -/
#guard_msgs in #print axioms Cert.KernelIdeal.AG.part_23

/-- info: 'Cert.KernelIdeal.AG.part_24' depends on axioms: [propext, Classical.choice, Quot.sound] -/
#guard_msgs in #print axioms Cert.KernelIdeal.AG.part_24

/-- info: 'Cert.KernelIdeal.AG.part_25' depends on axioms: [propext, Classical.choice, Quot.sound] -/
#guard_msgs in #print axioms Cert.KernelIdeal.AG.part_25

/-- info: 'Cert.KernelIdeal.AG.part_26' depends on axioms: [propext, Classical.choice, Quot.sound] -/
#guard_msgs in #print axioms Cert.KernelIdeal.AG.part_26

/-- info: 'Cert.KernelIdeal.AG.part_27' depends on axioms: [propext, Classical.choice, Quot.sound] -/
#guard_msgs in #print axioms Cert.KernelIdeal.AG.part_27

/-- info: 'Cert.KernelIdeal.AG.part_28' depends on axioms: [propext, Classical.choice, Quot.sound] -/
#guard_msgs in #print axioms Cert.KernelIdeal.AG.part_28
-- ==== Proof.AGParts_d.lean ====
/-
  The last phase of the body: every payment is made, the device owes nothing, and it waits, one after the other, for each of its
  24 send cells (the source rows come back at the share the transfer read them with) and its 25 result-copy cells (the rows of the
  result written, and the source rows back).
-/
import proofs.«900673_g7700000000000674_dist_ag_v7x_xyz2x2x2_z_m4096_n1024_bf16_1_alg».proof.Proof.Gen.KernelIdeal.Skeleton
import proofs.«900673_g7700000000000674_dist_ag_v7x_xyz2x2x2_z_m4096_n1024_bf16_1_alg».proof.Proof.AGGlue
import proofs.«900673_g7700000000000674_dist_ag_v7x_xyz2x2x2_z_m4096_n1024_bf16_1_alg».proof.Proof.AGPays
import proofs.«900673_g7700000000000674_dist_ag_v7x_xyz2x2x2_z_m4096_n1024_bf16_1_alg».proof.Proof.AGOffs

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A wait on DMA cell n of the device when it owes nothing: the cell's payload. -/
theorem wait0 {sp sp' : Space} {s s' : Shape} {e e' : EltTy} (c : Dev nD) (K : Dev nD × Fin 86 → ℕ) (n : ℕ) (hn : n < 85) (qs : DmaSem sig) (hqs : qs = ⟨n, hn⟩)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α}
    (W : Waits sig Unit) (hk : dst.view.dmaCredit = damt n) :
    iprop(records m K ∗ cred (tallyAt (dcell c n hn) () (damt n)) ∗ atPos ER (dcell c n hn) 0 ∅ 0 ∗ owes (c : Thread nD τ) 0 W)
      ⊢ iprop(((owes (c : Thread nD τ) 0 (insert (SemLoc.dma ⟨n, hn⟩, ()) W) ∗ atPos ER (dcell c n hn) 1 ∅ 0 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  iintro ⟨#HR, Hc, Ha, HO⟩ Hk
  iapply (step_wait' m c n hn qs hqs 0 W hk (κ := K (c, ⟨n, by omega⟩))) $$ [Hc Ha HO]
  · isplitr; · iapply (inv_dma m K c n hn); iexact HR
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iexact Hp

/-! ## Credits at literal row counts and cell numbers -/

theorem ck_zs (j : Fin 8) (r n : ℕ) (hr : ownLen j = r) (hn : 12 + j.val = n) (off : Fin 2 → ℕ)
    (inb : ∀ a, off a + (Sr r).size a ≤ (Sr 4096).size a) (hst : ∀ a, (Rect.unit (s := Sr 4096) off (Sr r).size inb).stride a = 1) :
    (MI.slice (Rect.unit (s := Sr 4096) off (Sr r).size inb) hst).view.dmaCredit = damt n := by
  subst hr hn; exact (credit_rect MI (ownLen j) off inb hst 0 (by have := (ownLen_pos j).2; omega)).trans (credit_zs 0 j (by have := (ownLen_pos j).2; omega))
theorem ck_xs (k : Fin 8) (r n : ℕ) (hr : xinLen k = r) (hn : 28 + k.val = n) (off : Fin 2 → ℕ)
    (inb : ∀ a, off a + (Sr r).size a ≤ (Sr 4096).size a) (hst : ∀ a, (Rect.unit (s := Sr 4096) off (Sr r).size inb).stride a = 1) :
    (CM.slice (Rect.unit (s := Sr 4096) off (Sr r).size inb) hst).view.dmaCredit = damt n := by
  subst hr hn; exact (credit_rect CM (xinLen k) off inb hst 0 (by have := (xinLen_pos k).2; omega)).trans (credit_xs 0 k (by have := (xinLen_pos k).2; omega))
theorem ck_ys (k : Fin 8) (r n : ℕ) (hr : yinLen k = r) (hn : 44 + k.val = n) (off : Fin 2 → ℕ)
    (inb : ∀ a, off a + (Sr r).size a ≤ (Sr 4096).size a) (hst : ∀ a, (Rect.unit (s := Sr 4096) off (Sr r).size inb).stride a = 1) :
    (CM.slice (Rect.unit (s := Sr 4096) off (Sr r).size inb) hst).view.dmaCredit = damt n := by
  subst hr hn; exact (credit_rect CM (yinLen k) off inb hst 0 (by have := (yinLen_pos k).2; omega)).trans (credit_ys 0 k (by have := (yinLen_pos k).2; omega))
theorem ck_lz (j : Fin 8) (r n : ℕ) (hr : ownLen j = r) (hn : 60 + j.val = n) (off : Fin 2 → ℕ)
    (inb : ∀ a, off a + (Sr r).size a ≤ (Sr 8192).size a) (hst : ∀ a, (Rect.unit (s := Sr 8192) off (Sr r).size inb).stride a = 1) :
    (OU.slice (Rect.unit (s := Sr 8192) off (Sr r).size inb) hst).view.dmaCredit = damt n := by
  subst hr hn; exact (credit_rect OU (ownLen j) off inb hst 0 (by have := (ownLen_pos j).2; omega)).trans (credit_lz 0 j (by have := (ownLen_pos j).2; omega))
theorem ck_lx (k : Fin 8) (r n : ℕ) (hr : xinLen k = r) (hn : 68 + k.val = n) (off : Fin 2 → ℕ)
    (inb : ∀ a, off a + (Sr r).size a ≤ (Sr 8192).size a) (hst : ∀ a, (Rect.unit (s := Sr 8192) off (Sr r).size inb).stride a = 1) :
    (OU.slice (Rect.unit (s := Sr 8192) off (Sr r).size inb) hst).view.dmaCredit = damt n := by
  subst hr hn; exact (credit_rect OU (xinLen k) off inb hst 0 (by have := (xinLen_pos k).2; omega)).trans (credit_lx 0 k (by have := (xinLen_pos k).2; omega))
theorem ck_ly (k : Fin 8) (r n : ℕ) (hr : yinLen k = r) (hn : 76 + k.val = n) (off : Fin 2 → ℕ)
    (inb : ∀ a, off a + (Sr r).size a ≤ (Sr 8192).size a) (hst : ∀ a, (Rect.unit (s := Sr 8192) off (Sr r).size inb).stride a = 1) :
    (OU.slice (Rect.unit (s := Sr 8192) off (Sr r).size inb) hst).view.dmaCredit = damt n := by
  subst hr hn; exact (credit_rect OU (yinLen k) off inb hst 0 (by have := (yinLen_pos k).2; omega)).trans (credit_ly 0 k (by have := (yinLen_pos k).2; omega))
theorem ck_lm (off : Fin 2 → ℕ)
    (inb : ∀ a, off a + (Sr 4096).size a ≤ (Sr 8192).size a) (hst : ∀ a, (Rect.unit (s := Sr 8192) off (Sr 4096).size inb).stride a = 1) :
    (OU.slice (Rect.unit (s := Sr 8192) off (Sr 4096).size inb) hst).view.dmaCredit = damt 84 :=
  (credit_rect OU 4096 off inb hst 0 (by decide)).trans (credit_lm 0 (by decide))

set_option maxRecDepth 65536 in
/-- Part 29: the waits on z-send cells 2 … 7. -/
theorem part_29 (c : Dev nD) (K : Dev nD × Fin 86 → ℕ) (W : Waits sig Unit) :
    iprop(records m K ∗ owes (c : Thread nD τ) 0 W
      ∗ (cred (tallyAt (dcell c 14 (by decide)) () (damt 14)) ∗ atPos ER (dcell c 14 (by decide)) 0 ∅ 0)
      ∗ (cred (tallyAt (dcell c 15 (by decide)) () (damt 15)) ∗ atPos ER (dcell c 15 (by decide)) 0 ∅ 0)
      ∗ (cred (tallyAt (dcell c 16 (by decide)) () (damt 16)) ∗ atPos ER (dcell c 16 (by decide)) 0 ∅ 0)
      ∗ (cred (tallyAt (dcell c 17 (by decide)) () (damt 17)) ∗ atPos ER (dcell c 17 (by decide)) 0 ∅ 0)
      ∗ (cred (tallyAt (dcell c 18 (by decide)) () (damt 18)) ∗ atPos ER (dcell c 18 (by decide)) 0 ∅ 0)
      ∗ (cred (tallyAt (dcell c 19 (by decide)) () (damt 19)) ∗ atPos ER (dcell c 19 (by decide)) 0 ∅ 0))
    ⊢ wp frame (wpE (defs₀ (F := F)) 𝒱₀ (c : Thread nD τ) none) Set.univ
        (k0_part29 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 14 (by decide)) 1 ∅ 0 ∗ payZs m c 2) ∗ (atPos ER (dcell c 15 (by decide)) 1 ∅ 0 ∗ payZs m c 3)
          ∗ (atPos ER (dcell c 16 (by decide)) 1 ∅ 0 ∗ payZs m c 4) ∗ (atPos ER (dcell c 17 (by decide)) 1 ∅ 0 ∗ payZs m c 5)
          ∗ (atPos ER (dcell c 18 (by decide)) 1 ∅ 0 ∗ payZs m c 6) ∗ (atPos ER (dcell c 19 (by decide)) 1 ∅ 0 ∗ payZs m c 7))) := by
  simp only [k0_part29_eq_skeleton]; unfold k0_part29_skel
  simp only [Prog.lift, Prog.bind_op, Prog.bind_ret, Prog.pure_eq_ret, Prog.bind_assoc]
  iintro ⟨#HR, HO, ⟨Hc2, Ha2⟩, ⟨Hc3, Ha3⟩, ⟨Hc4, Ha4⟩, ⟨Hc5, Ha5⟩, ⟨Hc6, Ha6⟩, ⟨Hc7, Ha7⟩⟩
  iapply (wait0 m c K 14 (by decide) _ rfl W (ck_zs 2 168 14 (by decide) (by decide) _ _ _)) $$ [Hc2 Ha2 HO]
  · isplitr; · iexact HR
    isplitl [Hc2]; · iexact Hc2
    isplitl [Ha2]; · iexact Ha2
    iexact HO
  iintro ⟨HO, Ha2, Hp2⟩
  iapply (wait0 m c K 15 (by decide) _ rfl _ (ck_zs 3 168 15 (by decide) (by decide) _ _ _)) $$ [Hc3 Ha3 HO]
  · isplitr; · iexact HR
    isplitl [Hc3]; · iexact Hc3
    isplitl [Ha3]; · iexact Ha3
    iexact HO
  iintro ⟨HO, Ha3, Hp3⟩
  iapply (wait0 m c K 16 (by decide) _ rfl _ (ck_zs 4 176 16 (by decide) (by decide) _ _ _)) $$ [Hc4 Ha4 HO]
  · isplitr; · iexact HR
    isplitl [Hc4]; · iexact Hc4
    isplitl [Ha4]; · iexact Ha4
    iexact HO
  iintro ⟨HO, Ha4, Hp4⟩
  iapply (wait0 m c K 17 (by decide) _ rfl _ (ck_zs 5 176 17 (by decide) (by decide) _ _ _)) $$ [Hc5 Ha5 HO]
  · isplitr; · iexact HR
    isplitl [Hc5]; · iexact Hc5
    isplitl [Ha5]; · iexact Ha5
    iexact HO
  iintro ⟨HO, Ha5, Hp5⟩
  iapply (wait0 m c K 18 (by decide) _ rfl _ (ck_zs 6 176 18 (by decide) (by decide) _ _ _)) $$ [Hc6 Ha6 HO]
  · isplitr; · iexact HR
    isplitl [Hc6]; · iexact Hc6
    isplitl [Ha6]; · iexact Ha6
    iexact HO
  iintro ⟨HO, Ha6, Hp6⟩
  iapply (wait0 m c K 19 (by decide) _ rfl _ (ck_zs 7 176 19 (by decide) (by decide) _ _ _)) $$ [Hc7 Ha7 HO]
  · isplitr; · iexact HR
    isplitl [Hc7]; · iexact Hc7
    isplitl [Ha7]; · iexact Ha7
    iexact HO
  iintro ⟨HO, Ha7, Hp7⟩
  rw [wp_ret]; imodintro
  rw [← dpay_zs m c 2, ← dpay_zs m c 3, ← dpay_zs m c 4, ← dpay_zs m c 5, ← dpay_zs m c 6, ← dpay_zs m c 7]
  isplitl [HO]; · iexists _; iexact HO
  isplitl [Ha2 Hp2]; · isplitl [Ha2]; · iexact Ha2
                       iexact Hp2
  isplitl [Ha3 Hp3]; · isplitl [Ha3]; · iexact Ha3
                       iexact Hp3
  isplitl [Ha4 Hp4]; · isplitl [Ha4]; · iexact Ha4
                       iexact Hp4
  isplitl [Ha5 Hp5]; · isplitl [Ha5]; · iexact Ha5
                       iexact Hp5
  isplitl [Ha6 Hp6]; · isplitl [Ha6]; · iexact Ha6
                       iexact Hp6
  isplitl [Ha7]; · iexact Ha7
  iexact Hp7

end Cert.KernelIdeal.AG

end
-- ==== Proof.AGParts_e.lean ====
/-
  The body, parts 30 to 34: the device owes nothing any more and waits, one after the other, for its x- and y-send cells (each
  hands back the source rows of the communication buffer at the share the forward read them with) and for the cells of its
  copies to the result (each hands over the rows of the result written, and the source rows back).
-/
import proofs.«900673_g7700000000000674_dist_ag_v7x_xyz2x2x2_z_m4096_n1024_bf16_1_alg».proof.Proof.Gen.KernelIdeal.Skeleton
import proofs.«900673_g7700000000000674_dist_ag_v7x_xyz2x2x2_z_m4096_n1024_bf16_1_alg».proof.Proof.AGParts_d

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A wait on DMA cell n of the device when it owes nothing, the cell's payload named by its family. -/
theorem pe_wait0P {sp sp' : Space} {s s' : Shape} {e e' : EltTy} (c : Dev nD) (K : Dev nD × Fin 86 → ℕ) (n : ℕ) (hn : n < 85) (qs : DmaSem sig) (hqs : qs = ⟨n, hn⟩)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α}
    (W : Waits sig Unit) (P : sProp 𝕄) (hP : dpay m c n = P) (hk : dst.view.dmaCredit = damt n) :
    iprop(records m K ∗ cred (tallyAt (dcell c n hn) () (damt n)) ∗ atPos ER (dcell c n hn) 0 ∅ 0 ∗ owes (c : Thread nD τ) 0 W)
      ⊢ iprop(((owes (c : Thread nD τ) 0 (insert (SemLoc.dma ⟨n, hn⟩, ()) W) ∗ atPos ER (dcell c n hn) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hP
  exact wait0 m c K n hn qs hqs W hk

set_option maxRecDepth 65536 in
set_option maxHeartbeats 1000000 in
/-- Part 30: the waits on the send cells of the forwards x0, y0, x1, y1, x6, x2, in the order they were fired. -/
theorem part_30 (c : Dev nD) (K : Dev nD × Fin 86 → ℕ) (W : Waits sig Unit) :
    iprop(records m K ∗ owes (c : Thread nD τ) 0 W
      ∗ (cred (tallyAt (dcell c 28 (by decide)) () (damt 28)) ∗ atPos ER (dcell c 28 (by decide)) 0 ∅ 0)
      ∗ (cred (tallyAt (dcell c 44 (by decide)) () (damt 44)) ∗ atPos ER (dcell c 44 (by decide)) 0 ∅ 0)
      ∗ (cred (tallyAt (dcell c 29 (by decide)) () (damt 29)) ∗ atPos ER (dcell c 29 (by decide)) 0 ∅ 0)
      ∗ (cred (tallyAt (dcell c 45 (by decide)) () (damt 45)) ∗ atPos ER (dcell c 45 (by decide)) 0 ∅ 0)
      ∗ (cred (tallyAt (dcell c 34 (by decide)) () (damt 34)) ∗ atPos ER (dcell c 34 (by decide)) 0 ∅ 0)
      ∗ (cred (tallyAt (dcell c 30 (by decide)) () (damt 30)) ∗ atPos ER (dcell c 30 (by decide)) 0 ∅ 0))
    ⊢ wp frame (wpE (defs₀ (F := F)) 𝒱₀ (c : Thread nD τ) none) Set.univ
        (k0_part30 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 28 (by decide)) 1 ∅ 0 ∗ payXs m c 0)
          ∗ (atPos ER (dcell c 44 (by decide)) 1 ∅ 0 ∗ payYs m c 0)
          ∗ (atPos ER (dcell c 29 (by decide)) 1 ∅ 0 ∗ payXs m c 1)
          ∗ (atPos ER (dcell c 45 (by decide)) 1 ∅ 0 ∗ payYs m c 1)
          ∗ (atPos ER (dcell c 34 (by decide)) 1 ∅ 0 ∗ payXs m c 6)
          ∗ (atPos ER (dcell c 30 (by decide)) 1 ∅ 0 ∗ payXs m c 2))) := by
  simp only [k0_part30_eq_skeleton]; unfold k0_part30_skel
  simp only [Prog.lift, Prog.bind_op, Prog.bind_ret, Prog.pure_eq_ret, Prog.bind_assoc]
  iintro ⟨#HR, HO, ⟨Hc28, Ha28⟩, ⟨Hc44, Ha44⟩, ⟨Hc29, Ha29⟩, ⟨Hc45, Ha45⟩, ⟨Hc34, Ha34⟩, ⟨Hc30, Ha30⟩⟩
  iapply (pe_wait0P m c K 28 (by decide) _ rfl W (payXs m c 0) (dpay_xs m c 0) (ck_xs 0 112 28 (by decide) (by decide) _ _ _)) $$ [Hc28 Ha28 HO]
  · isplitr; · iexact HR
    isplitl [Hc28]; · iexact Hc28
    isplitl [Ha28]; · iexact Ha28
    iexact HO
  iintro ⟨HO, Ha28, Hp28⟩
  iapply (pe_wait0P m c K 44 (by decide) _ rfl _ (payYs m c 0) (dpay_ys m c 0) (ck_ys 0 112 44 (by decide) (by decide) _ _ _)) $$ [Hc44 Ha44 HO]
  · isplitr; · iexact HR
    isplitl [Hc44]; · iexact Hc44
    isplitl [Ha44]; · iexact Ha44
    iexact HO
  iintro ⟨HO, Ha44, Hp44⟩
  iapply (pe_wait0P m c K 29 (by decide) _ rfl _ (payXs m c 1) (dpay_xs m c 1) (ck_xs 1 224 29 (by decide) (by decide) _ _ _)) $$ [Hc29 Ha29 HO]
  · isplitr; · iexact HR
    isplitl [Hc29]; · iexact Hc29
    isplitl [Ha29]; · iexact Ha29
    iexact HO
  iintro ⟨HO, Ha29, Hp29⟩
  iapply (pe_wait0P m c K 45 (by decide) _ rfl _ (payYs m c 1) (dpay_ys m c 1) (ck_ys 1 224 45 (by decide) (by decide) _ _ _)) $$ [Hc45 Ha45 HO]
  · isplitr; · iexact HR
    isplitl [Hc45]; · iexact Hc45
    isplitl [Ha45]; · iexact Ha45
    iexact HO
  iintro ⟨HO, Ha45, Hp45⟩
  iapply (pe_wait0P m c K 34 (by decide) _ rfl _ (payXs m c 6) (dpay_xs m c 6) (ck_xs 6 112 34 (by decide) (by decide) _ _ _)) $$ [Hc34 Ha34 HO]
  · isplitr; · iexact HR
    isplitl [Hc34]; · iexact Hc34
    isplitl [Ha34]; · iexact Ha34
    iexact HO
  iintro ⟨HO, Ha34, Hp34⟩
  iapply (pe_wait0P m c K 30 (by decide) _ rfl _ (payXs m c 2) (dpay_xs m c 2) (ck_xs 2 168 30 (by decide) (by decide) _ _ _)) $$ [Hc30 Ha30 HO]
  · isplitr; · iexact HR
    isplitl [Hc30]; · iexact Hc30
    isplitl [Ha30]; · iexact Ha30
    iexact HO
  iintro ⟨HO, Ha30, Hp30⟩
  rw [wp_ret]; imodintro
  isplitl [HO]; · iexists _; iexact HO
  isplitl [Ha28 Hp28]
  · isplitl [Ha28]; · iexact Ha28
    iexact Hp28
  isplitl [Ha44 Hp44]
  · isplitl [Ha44]; · iexact Ha44
    iexact Hp44
  isplitl [Ha29 Hp29]
  · isplitl [Ha29]; · iexact Ha29
    iexact Hp29
  isplitl [Ha45 Hp45]
  · isplitl [Ha45]; · iexact Ha45
    iexact Hp45
  isplitl [Ha34 Hp34]
  · isplitl [Ha34]; · iexact Ha34
    iexact Hp34
  isplitl [Ha30]; · iexact Ha30
  iexact Hp30

set_option maxRecDepth 65536 in
set_option maxHeartbeats 1000000 in
/-- Part 31: the waits on the send cells of the forwards y2, x3, y3, x7, y6, y7. -/
theorem part_31 (c : Dev nD) (K : Dev nD × Fin 86 → ℕ) (W : Waits sig Unit) :
    iprop(records m K ∗ owes (c : Thread nD τ) 0 W
      ∗ (cred (tallyAt (dcell c 46 (by decide)) () (damt 46)) ∗ atPos ER (dcell c 46 (by decide)) 0 ∅ 0)
      ∗ (cred (tallyAt (dcell c 31 (by decide)) () (damt 31)) ∗ atPos ER (dcell c 31 (by decide)) 0 ∅ 0)
      ∗ (cred (tallyAt (dcell c 47 (by decide)) () (damt 47)) ∗ atPos ER (dcell c 47 (by decide)) 0 ∅ 0)
      ∗ (cred (tallyAt (dcell c 35 (by decide)) () (damt 35)) ∗ atPos ER (dcell c 35 (by decide)) 0 ∅ 0)
      ∗ (cred (tallyAt (dcell c 50 (by decide)) () (damt 50)) ∗ atPos ER (dcell c 50 (by decide)) 0 ∅ 0)
      ∗ (cred (tallyAt (dcell c 51 (by decide)) () (damt 51)) ∗ atPos ER (dcell c 51 (by decide)) 0 ∅ 0))
    ⊢ wp frame (wpE (defs₀ (F := F)) 𝒱₀ (c : Thread nD τ) none) Set.univ
        (k0_part31 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 46 (by decide)) 1 ∅ 0 ∗ payYs m c 2)
          ∗ (atPos ER (dcell c 31 (by decide)) 1 ∅ 0 ∗ payXs m c 3)
          ∗ (atPos ER (dcell c 47 (by decide)) 1 ∅ 0 ∗ payYs m c 3)
          ∗ (atPos ER (dcell c 35 (by decide)) 1 ∅ 0 ∗ payXs m c 7)
          ∗ (atPos ER (dcell c 50 (by decide)) 1 ∅ 0 ∗ payYs m c 6)
          ∗ (atPos ER (dcell c 51 (by decide)) 1 ∅ 0 ∗ payYs m c 7))) := by
  simp only [k0_part31_eq_skeleton]; unfold k0_part31_skel
  simp only [Prog.lift, Prog.bind_op, Prog.bind_ret, Prog.pure_eq_ret, Prog.bind_assoc]
  iintro ⟨#HR, HO, ⟨Hc46, Ha46⟩, ⟨Hc31, Ha31⟩, ⟨Hc47, Ha47⟩, ⟨Hc35, Ha35⟩, ⟨Hc50, Ha50⟩, ⟨Hc51, Ha51⟩⟩
  iapply (pe_wait0P m c K 46 (by decide) _ rfl W (payYs m c 2) (dpay_ys m c 2) (ck_ys 2 168 46 (by decide) (by decide) _ _ _)) $$ [Hc46 Ha46 HO]
  · isplitr; · iexact HR
    isplitl [Hc46]; · iexact Hc46
    isplitl [Ha46]; · iexact Ha46
    iexact HO
  iintro ⟨HO, Ha46, Hp46⟩
  iapply (pe_wait0P m c K 31 (by decide) _ rfl _ (payXs m c 3) (dpay_xs m c 3) (ck_xs 3 168 31 (by decide) (by decide) _ _ _)) $$ [Hc31 Ha31 HO]
  · isplitr; · iexact HR
    isplitl [Hc31]; · iexact Hc31
    isplitl [Ha31]; · iexact Ha31
    iexact HO
  iintro ⟨HO, Ha31, Hp31⟩
  iapply (pe_wait0P m c K 47 (by decide) _ rfl _ (payYs m c 3) (dpay_ys m c 3) (ck_ys 3 168 47 (by decide) (by decide) _ _ _)) $$ [Hc47 Ha47 HO]
  · isplitr; · iexact HR
    isplitl [Hc47]; · iexact Hc47
    isplitl [Ha47]; · iexact Ha47
    iexact HO
  iintro ⟨HO, Ha47, Hp47⟩
  iapply (pe_wait0P m c K 35 (by decide) _ rfl _ (payXs m c 7) (dpay_xs m c 7) (ck_xs 7 224 35 (by decide) (by decide) _ _ _)) $$ [Hc35 Ha35 HO]
  · isplitr; · iexact HR
    isplitl [Hc35]; · iexact Hc35
    isplitl [Ha35]; · iexact Ha35
    iexact HO
  iintro ⟨HO, Ha35, Hp35⟩
  iapply (pe_wait0P m c K 50 (by decide) _ rfl _ (payYs m c 6) (dpay_ys m c 6) (ck_ys 6 168 50 (by decide) (by decide) _ _ _)) $$ [Hc50 Ha50 HO]
  · isplitr; · iexact HR
    isplitl [Hc50]; · iexact Hc50
    isplitl [Ha50]; · iexact Ha50
    iexact HO
  iintro ⟨HO, Ha50, Hp50⟩
  iapply (pe_wait0P m c K 51 (by decide) _ rfl _ (payYs m c 7) (dpay_ys m c 7) (ck_ys 7 168 51 (by decide) (by decide) _ _ _)) $$ [Hc51 Ha51 HO]
  · isplitr; · iexact HR
    isplitl [Hc51]; · iexact Hc51
    isplitl [Ha51]; · iexact Ha51
    iexact HO
  iintro ⟨HO, Ha51, Hp51⟩
  rw [wp_ret]; imodintro
  isplitl [HO]; · iexists _; iexact HO
  isplitl [Ha46 Hp46]
  · isplitl [Ha46]; · iexact Ha46
    iexact Hp46
  isplitl [Ha31 Hp31]
  · isplitl [Ha31]; · iexact Ha31
    iexact Hp31
  isplitl [Ha47 Hp47]
  · isplitl [Ha47]; · iexact Ha47
    iexact Hp47
  isplitl [Ha35 Hp35]
  · isplitl [Ha35]; · iexact Ha35
    iexact Hp35
  isplitl [Ha50 Hp50]
  · isplitl [Ha50]; · iexact Ha50
    iexact Hp50
  isplitl [Ha51]; · iexact Ha51
  iexact Hp51

set_option maxRecDepth 65536 in
set_option maxHeartbeats 1000000 in
/-- Part 32: the waits on the send cells of the forwards x4, x5, y4, y5, then on the cells of the copies of own chunks 0 and 1 to the result. -/
theorem part_32 (c : Dev nD) (K : Dev nD × Fin 86 → ℕ) (W : Waits sig Unit) :
    iprop(records m K ∗ owes (c : Thread nD τ) 0 W
      ∗ (cred (tallyAt (dcell c 32 (by decide)) () (damt 32)) ∗ atPos ER (dcell c 32 (by decide)) 0 ∅ 0)
      ∗ (cred (tallyAt (dcell c 33 (by decide)) () (damt 33)) ∗ atPos ER (dcell c 33 (by decide)) 0 ∅ 0)
      ∗ (cred (tallyAt (dcell c 48 (by decide)) () (damt 48)) ∗ atPos ER (dcell c 48 (by decide)) 0 ∅ 0)
      ∗ (cred (tallyAt (dcell c 49 (by decide)) () (damt 49)) ∗ atPos ER (dcell c 49 (by decide)) 0 ∅ 0)
      ∗ (cred (tallyAt (dcell c 60 (by decide)) () (damt 60)) ∗ atPos ER (dcell c 60 (by decide)) 0 ∅ 0)
      ∗ (cred (tallyAt (dcell c 61 (by decide)) () (damt 61)) ∗ atPos ER (dcell c 61 (by decide)) 0 ∅ 0))
    ⊢ wp frame (wpE (defs₀ (F := F)) 𝒱₀ (c : Thread nD τ) none) Set.univ
        (k0_part32 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 32 (by decide)) 1 ∅ 0 ∗ payXs m c 4)
          ∗ (atPos ER (dcell c 33 (by decide)) 1 ∅ 0 ∗ payXs m c 5)
          ∗ (atPos ER (dcell c 48 (by decide)) 1 ∅ 0 ∗ payYs m c 4)
          ∗ (atPos ER (dcell c 49 (by decide)) 1 ∅ 0 ∗ payYs m c 5)
          ∗ (atPos ER (dcell c 60 (by decide)) 1 ∅ 0 ∗ payLz m c 0)
          ∗ (atPos ER (dcell c 61 (by decide)) 1 ∅ 0 ∗ payLz m c 1))) := by
  simp only [k0_part32_eq_skeleton]; unfold k0_part32_skel
  simp only [Prog.lift, Prog.bind_op, Prog.bind_ret, Prog.pure_eq_ret, Prog.bind_assoc]
  iintro ⟨#HR, HO, ⟨Hc32, Ha32⟩, ⟨Hc33, Ha33⟩, ⟨Hc48, Ha48⟩, ⟨Hc49, Ha49⟩, ⟨Hc60, Ha60⟩, ⟨Hc61, Ha61⟩⟩
  iapply (pe_wait0P m c K 32 (by decide) _ rfl W (payXs m c 4) (dpay_xs m c 4) (ck_xs 4 176 32 (by decide) (by decide) _ _ _)) $$ [Hc32 Ha32 HO]
  · isplitr; · iexact HR
    isplitl [Hc32]; · iexact Hc32
    isplitl [Ha32]; · iexact Ha32
    iexact HO
  iintro ⟨HO, Ha32, Hp32⟩
  iapply (pe_wait0P m c K 33 (by decide) _ rfl _ (payXs m c 5) (dpay_xs m c 5) (ck_xs 5 176 33 (by decide) (by decide) _ _ _)) $$ [Hc33 Ha33 HO]
  · isplitr; · iexact HR
    isplitl [Hc33]; · iexact Hc33
    isplitl [Ha33]; · iexact Ha33
    iexact HO
  iintro ⟨HO, Ha33, Hp33⟩
  iapply (pe_wait0P m c K 48 (by decide) _ rfl _ (payYs m c 4) (dpay_ys m c 4) (ck_ys 4 176 48 (by decide) (by decide) _ _ _)) $$ [Hc48 Ha48 HO]
  · isplitr; · iexact HR
    isplitl [Hc48]; · iexact Hc48
    isplitl [Ha48]; · iexact Ha48
    iexact HO
  iintro ⟨HO, Ha48, Hp48⟩
  iapply (pe_wait0P m c K 49 (by decide) _ rfl _ (payYs m c 5) (dpay_ys m c 5) (ck_ys 5 176 49 (by decide) (by decide) _ _ _)) $$ [Hc49 Ha49 HO]
  · isplitr; · iexact HR
    isplitl [Hc49]; · iexact Hc49
    isplitl [Ha49]; · iexact Ha49
    iexact HO
  iintro ⟨HO, Ha49, Hp49⟩
  iapply (pe_wait0P m c K 60 (by decide) _ rfl _ (payLz m c 0) (dpay_lz m c 0) (ck_lz 0 112 60 (by decide) (by decide) _ _ _)) $$ [Hc60 Ha60 HO]
  · isplitr; · iexact HR
    isplitl [Hc60]; · iexact Hc60
    isplitl [Ha60]; · iexact Ha60
    iexact HO
  iintro ⟨HO, Ha60, Hp60⟩
  iapply (pe_wait0P m c K 61 (by decide) _ rfl _ (payLz m c 1) (dpay_lz m c 1) (ck_lz 1 224 61 (by decide) (by decide) _ _ _)) $$ [Hc61 Ha61 HO]
  · isplitr; · iexact HR
    isplitl [Hc61]; · iexact Hc61
    isplitl [Ha61]; · iexact Ha61
    iexact HO
  iintro ⟨HO, Ha61, Hp61⟩
  rw [wp_ret]; imodintro
  isplitl [HO]; · iexists _; iexact HO
  isplitl [Ha32 Hp32]
  · isplitl [Ha32]; · iexact Ha32
    iexact Hp32
  isplitl [Ha33 Hp33]
  · isplitl [Ha33]; · iexact Ha33
    iexact Hp33
  isplitl [Ha48 Hp48]
  · isplitl [Ha48]; · iexact Ha48
    iexact Hp48
  isplitl [Ha49 Hp49]
  · isplitl [Ha49]; · iexact Ha49
    iexact Hp49
  isplitl [Ha60 Hp60]
  · isplitl [Ha60]; · iexact Ha60
    iexact Hp60
  isplitl [Ha61]; · iexact Ha61
  iexact Hp61

set_option maxRecDepth 65536 in
set_option maxHeartbeats 1000000 in
/-- Part 33: the waits on the cells of the copies to the result of y-arrival 0, own chunks 2 and 3, y-arrival 1, x-arrivals 2 and 3, own chunks 4 and 5. -/
theorem part_33 (c : Dev nD) (K : Dev nD × Fin 86 → ℕ) (W : Waits sig Unit) :
    iprop(records m K ∗ owes (c : Thread nD τ) 0 W
      ∗ (cred (tallyAt (dcell c 76 (by decide)) () (damt 76)) ∗ atPos ER (dcell c 76 (by decide)) 0 ∅ 0)
      ∗ (cred (tallyAt (dcell c 62 (by decide)) () (damt 62)) ∗ atPos ER (dcell c 62 (by decide)) 0 ∅ 0)
      ∗ (cred (tallyAt (dcell c 63 (by decide)) () (damt 63)) ∗ atPos ER (dcell c 63 (by decide)) 0 ∅ 0)
      ∗ (cred (tallyAt (dcell c 77 (by decide)) () (damt 77)) ∗ atPos ER (dcell c 77 (by decide)) 0 ∅ 0)
      ∗ (cred (tallyAt (dcell c 70 (by decide)) () (damt 70)) ∗ atPos ER (dcell c 70 (by decide)) 0 ∅ 0)
      ∗ (cred (tallyAt (dcell c 71 (by decide)) () (damt 71)) ∗ atPos ER (dcell c 71 (by decide)) 0 ∅ 0)
      ∗ (cred (tallyAt (dcell c 64 (by decide)) () (damt 64)) ∗ atPos ER (dcell c 64 (by decide)) 0 ∅ 0)
      ∗ (cred (tallyAt (dcell c 65 (by decide)) () (damt 65)) ∗ atPos ER (dcell c 65 (by decide)) 0 ∅ 0))
    ⊢ wp frame (wpE (defs₀ (F := F)) 𝒱₀ (c : Thread nD τ) none) Set.univ
        (k0_part33 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 76 (by decide)) 1 ∅ 0 ∗ payLy m c 0)
          ∗ (atPos ER (dcell c 62 (by decide)) 1 ∅ 0 ∗ payLz m c 2)
          ∗ (atPos ER (dcell c 63 (by decide)) 1 ∅ 0 ∗ payLz m c 3)
          ∗ (atPos ER (dcell c 77 (by decide)) 1 ∅ 0 ∗ payLy m c 1)
          ∗ (atPos ER (dcell c 70 (by decide)) 1 ∅ 0 ∗ payLx m c 2)
          ∗ (atPos ER (dcell c 71 (by decide)) 1 ∅ 0 ∗ payLx m c 3)
          ∗ (atPos ER (dcell c 64 (by decide)) 1 ∅ 0 ∗ payLz m c 4)
          ∗ (atPos ER (dcell c 65 (by decide)) 1 ∅ 0 ∗ payLz m c 5))) := by
  simp only [k0_part33_eq_skeleton]; unfold k0_part33_skel
  simp only [Prog.lift, Prog.bind_op, Prog.bind_ret, Prog.pure_eq_ret, Prog.bind_assoc]
  iintro ⟨#HR, HO, ⟨Hc76, Ha76⟩, ⟨Hc62, Ha62⟩, ⟨Hc63, Ha63⟩, ⟨Hc77, Ha77⟩, ⟨Hc70, Ha70⟩, ⟨Hc71, Ha71⟩, ⟨Hc64, Ha64⟩, ⟨Hc65, Ha65⟩⟩
  iapply (pe_wait0P m c K 76 (by decide) _ rfl W (payLy m c 0) (dpay_ly m c 0) (ck_ly 0 112 76 (by decide) (by decide) _ _ _)) $$ [Hc76 Ha76 HO]
  · isplitr; · iexact HR
    isplitl [Hc76]; · iexact Hc76
    isplitl [Ha76]; · iexact Ha76
    iexact HO
  iintro ⟨HO, Ha76, Hp76⟩
  iapply (pe_wait0P m c K 62 (by decide) _ rfl _ (payLz m c 2) (dpay_lz m c 2) (ck_lz 2 168 62 (by decide) (by decide) _ _ _)) $$ [Hc62 Ha62 HO]
  · isplitr; · iexact HR
    isplitl [Hc62]; · iexact Hc62
    isplitl [Ha62]; · iexact Ha62
    iexact HO
  iintro ⟨HO, Ha62, Hp62⟩
  iapply (pe_wait0P m c K 63 (by decide) _ rfl _ (payLz m c 3) (dpay_lz m c 3) (ck_lz 3 168 63 (by decide) (by decide) _ _ _)) $$ [Hc63 Ha63 HO]
  · isplitr; · iexact HR
    isplitl [Hc63]; · iexact Hc63
    isplitl [Ha63]; · iexact Ha63
    iexact HO
  iintro ⟨HO, Ha63, Hp63⟩
  iapply (pe_wait0P m c K 77 (by decide) _ rfl _ (payLy m c 1) (dpay_ly m c 1) (ck_ly 1 224 77 (by decide) (by decide) _ _ _)) $$ [Hc77 Ha77 HO]
  · isplitr; · iexact HR
    isplitl [Hc77]; · iexact Hc77
    isplitl [Ha77]; · iexact Ha77
    iexact HO
  iintro ⟨HO, Ha77, Hp77⟩
  iapply (pe_wait0P m c K 70 (by decide) _ rfl _ (payLx m c 2) (dpay_lx m c 2) (ck_lx 2 168 70 (by decide) (by decide) _ _ _)) $$ [Hc70 Ha70 HO]
  · isplitr; · iexact HR
    isplitl [Hc70]; · iexact Hc70
    isplitl [Ha70]; · iexact Ha70
    iexact HO
  iintro ⟨HO, Ha70, Hp70⟩
  iapply (pe_wait0P m c K 71 (by decide) _ rfl _ (payLx m c 3) (dpay_lx m c 3) (ck_lx 3 168 71 (by decide) (by decide) _ _ _)) $$ [Hc71 Ha71 HO]
  · isplitr; · iexact HR
    isplitl [Hc71]; · iexact Hc71
    isplitl [Ha71]; · iexact Ha71
    iexact HO
  iintro ⟨HO, Ha71, Hp71⟩
  iapply (pe_wait0P m c K 64 (by decide) _ rfl _ (payLz m c 4) (dpay_lz m c 4) (ck_lz 4 176 64 (by decide) (by decide) _ _ _)) $$ [Hc64 Ha64 HO]
  · isplitr; · iexact HR
    isplitl [Hc64]; · iexact Hc64
    isplitl [Ha64]; · iexact Ha64
    iexact HO
  iintro ⟨HO, Ha64, Hp64⟩
  iapply (pe_wait0P m c K 65 (by decide) _ rfl _ (payLz m c 5) (dpay_lz m c 5) (ck_lz 5 176 65 (by decide) (by decide) _ _ _)) $$ [Hc65 Ha65 HO]
  · isplitr; · iexact HR
    isplitl [Hc65]; · iexact Hc65
    isplitl [Ha65]; · iexact Ha65
    iexact HO
  iintro ⟨HO, Ha65, Hp65⟩
  rw [wp_ret]; imodintro
  isplitl [HO]; · iexists _; iexact HO
  isplitl [Ha76 Hp76]
  · isplitl [Ha76]; · iexact Ha76
    iexact Hp76
  isplitl [Ha62 Hp62]
  · isplitl [Ha62]; · iexact Ha62
    iexact Hp62
  isplitl [Ha63 Hp63]
  · isplitl [Ha63]; · iexact Ha63
    iexact Hp63
  isplitl [Ha77 Hp77]
  · isplitl [Ha77]; · iexact Ha77
    iexact Hp77
  isplitl [Ha70 Hp70]
  · isplitl [Ha70]; · iexact Ha70
    iexact Hp70
  isplitl [Ha71 Hp71]
  · isplitl [Ha71]; · iexact Ha71
    iexact Hp71
  isplitl [Ha64 Hp64]
  · isplitl [Ha64]; · iexact Ha64
    iexact Hp64
  isplitl [Ha65]; · iexact Ha65
  iexact Hp65

set_option maxRecDepth 65536 in
set_option maxHeartbeats 1000000 in
/-- Part 34: the waits on the cells of the copies to the result of own chunks 6 and 7, of the whole conversion buffer, and of x-arrivals 0, 1, 4, 5, 6. -/
theorem part_34 (c : Dev nD) (K : Dev nD × Fin 86 → ℕ) (W : Waits sig Unit) :
    iprop(records m K ∗ owes (c : Thread nD τ) 0 W
      ∗ (cred (tallyAt (dcell c 66 (by decide)) () (damt 66)) ∗ atPos ER (dcell c 66 (by decide)) 0 ∅ 0)
      ∗ (cred (tallyAt (dcell c 67 (by decide)) () (damt 67)) ∗ atPos ER (dcell c 67 (by decide)) 0 ∅ 0)
      ∗ (cred (tallyAt (dcell c 84 (by decide)) () (damt 84)) ∗ atPos ER (dcell c 84 (by decide)) 0 ∅ 0)
      ∗ (cred (tallyAt (dcell c 68 (by decide)) () (damt 68)) ∗ atPos ER (dcell c 68 (by decide)) 0 ∅ 0)
      ∗ (cred (tallyAt (dcell c 69 (by decide)) () (damt 69)) ∗ atPos ER (dcell c 69 (by decide)) 0 ∅ 0)
      ∗ (cred (tallyAt (dcell c 72 (by decide)) () (damt 72)) ∗ atPos ER (dcell c 72 (by decide)) 0 ∅ 0)
      ∗ (cred (tallyAt (dcell c 73 (by decide)) () (damt 73)) ∗ atPos ER (dcell c 73 (by decide)) 0 ∅ 0)
      ∗ (cred (tallyAt (dcell c 74 (by decide)) () (damt 74)) ∗ atPos ER (dcell c 74 (by decide)) 0 ∅ 0))
    ⊢ wp frame (wpE (defs₀ (F := F)) 𝒱₀ (c : Thread nD τ) none) Set.univ
        (k0_part34 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 66 (by decide)) 1 ∅ 0 ∗ payLz m c 6)
          ∗ (atPos ER (dcell c 67 (by decide)) 1 ∅ 0 ∗ payLz m c 7)
          ∗ (atPos ER (dcell c 84 (by decide)) 1 ∅ 0 ∗ payLm m c)
          ∗ (atPos ER (dcell c 68 (by decide)) 1 ∅ 0 ∗ payLx m c 0)
          ∗ (atPos ER (dcell c 69 (by decide)) 1 ∅ 0 ∗ payLx m c 1)
          ∗ (atPos ER (dcell c 72 (by decide)) 1 ∅ 0 ∗ payLx m c 4)
          ∗ (atPos ER (dcell c 73 (by decide)) 1 ∅ 0 ∗ payLx m c 5)
          ∗ (atPos ER (dcell c 74 (by decide)) 1 ∅ 0 ∗ payLx m c 6))) := by
  simp only [k0_part34_eq_skeleton]; unfold k0_part34_skel
  simp only [Prog.lift, Prog.bind_op, Prog.bind_ret, Prog.pure_eq_ret, Prog.bind_assoc]
  iintro ⟨#HR, HO, ⟨Hc66, Ha66⟩, ⟨Hc67, Ha67⟩, ⟨Hc84, Ha84⟩, ⟨Hc68, Ha68⟩, ⟨Hc69, Ha69⟩, ⟨Hc72, Ha72⟩, ⟨Hc73, Ha73⟩, ⟨Hc74, Ha74⟩⟩
  iapply (pe_wait0P m c K 66 (by decide) _ rfl W (payLz m c 6) (dpay_lz m c 6) (ck_lz 6 176 66 (by decide) (by decide) _ _ _)) $$ [Hc66 Ha66 HO]
  · isplitr; · iexact HR
    isplitl [Hc66]; · iexact Hc66
    isplitl [Ha66]; · iexact Ha66
    iexact HO
  iintro ⟨HO, Ha66, Hp66⟩
  iapply (pe_wait0P m c K 67 (by decide) _ rfl _ (payLz m c 7) (dpay_lz m c 7) (ck_lz 7 176 67 (by decide) (by decide) _ _ _)) $$ [Hc67 Ha67 HO]
  · isplitr; · iexact HR
    isplitl [Hc67]; · iexact Hc67
    isplitl [Ha67]; · iexact Ha67
    iexact HO
  iintro ⟨HO, Ha67, Hp67⟩
  iapply (pe_wait0P m c K 84 (by decide) _ rfl _ (payLm m c) (dpay_lm m c) (ck_lm _ _ _)) $$ [Hc84 Ha84 HO]
  · isplitr; · iexact HR
    isplitl [Hc84]; · iexact Hc84
    isplitl [Ha84]; · iexact Ha84
    iexact HO
  iintro ⟨HO, Ha84, Hp84⟩
  iapply (pe_wait0P m c K 68 (by decide) _ rfl _ (payLx m c 0) (dpay_lx m c 0) (ck_lx 0 112 68 (by decide) (by decide) _ _ _)) $$ [Hc68 Ha68 HO]
  · isplitr; · iexact HR
    isplitl [Hc68]; · iexact Hc68
    isplitl [Ha68]; · iexact Ha68
    iexact HO
  iintro ⟨HO, Ha68, Hp68⟩
  iapply (pe_wait0P m c K 69 (by decide) _ rfl _ (payLx m c 1) (dpay_lx m c 1) (ck_lx 1 224 69 (by decide) (by decide) _ _ _)) $$ [Hc69 Ha69 HO]
  · isplitr; · iexact HR
    isplitl [Hc69]; · iexact Hc69
    isplitl [Ha69]; · iexact Ha69
    iexact HO
  iintro ⟨HO, Ha69, Hp69⟩
  iapply (pe_wait0P m c K 72 (by decide) _ rfl _ (payLx m c 4) (dpay_lx m c 4) (ck_lx 4 176 72 (by decide) (by decide) _ _ _)) $$ [Hc72 Ha72 HO]
  · isplitr; · iexact HR
    isplitl [Hc72]; · iexact Hc72
    isplitl [Ha72]; · iexact Ha72
    iexact HO
  iintro ⟨HO, Ha72, Hp72⟩
  iapply (pe_wait0P m c K 73 (by decide) _ rfl _ (payLx m c 5) (dpay_lx m c 5) (ck_lx 5 176 73 (by decide) (by decide) _ _ _)) $$ [Hc73 Ha73 HO]
  · isplitr; · iexact HR
    isplitl [Hc73]; · iexact Hc73
    isplitl [Ha73]; · iexact Ha73
    iexact HO
  iintro ⟨HO, Ha73, Hp73⟩
  iapply (pe_wait0P m c K 74 (by decide) _ rfl _ (payLx m c 6) (dpay_lx m c 6) (ck_lx 6 112 74 (by decide) (by decide) _ _ _)) $$ [Hc74 Ha74 HO]
  · isplitr; · iexact HR
    isplitl [Hc74]; · iexact Hc74
    isplitl [Ha74]; · iexact Ha74
    iexact HO
  iintro ⟨HO, Ha74, Hp74⟩
  rw [wp_ret]; imodintro
  isplitl [HO]; · iexists _; iexact HO
  isplitl [Ha66 Hp66]
  · isplitl [Ha66]; · iexact Ha66
    iexact Hp66
  isplitl [Ha67 Hp67]
  · isplitl [Ha67]; · iexact Ha67
    iexact Hp67
  isplitl [Ha84 Hp84]
  · isplitl [Ha84]; · iexact Ha84
    iexact Hp84
  isplitl [Ha68 Hp68]
  · isplitl [Ha68]; · iexact Ha68
    iexact Hp68
  isplitl [Ha69 Hp69]
  · isplitl [Ha69]; · iexact Ha69
    iexact Hp69
  isplitl [Ha72 Hp72]
  · isplitl [Ha72]; · iexact Ha72
    iexact Hp72
  isplitl [Ha73 Hp73]
  · isplitl [Ha73]; · iexact Ha73
    iexact Hp73
  isplitl [Ha74]; · iexact Ha74
  iexact Hp74

end Cert.KernelIdeal.AG

end

/-- info: 'Cert.KernelIdeal.AG.part_30' depends on axioms: [propext, Classical.choice, Quot.sound] -/
#guard_msgs in #print axioms Cert.KernelIdeal.AG.part_30

/-- info: 'Cert.KernelIdeal.AG.part_31' depends on axioms: [propext, Classical.choice, Quot.sound] -/
#guard_msgs in #print axioms Cert.KernelIdeal.AG.part_31

/-- info: 'Cert.KernelIdeal.AG.part_32' depends on axioms: [propext, Classical.choice, Quot.sound] -/
#guard_msgs in #print axioms Cert.KernelIdeal.AG.part_32

/-- info: 'Cert.KernelIdeal.AG.part_33' depends on axioms: [propext, Classical.choice, Quot.sound] -/
#guard_msgs in #print axioms Cert.KernelIdeal.AG.part_33

/-- info: 'Cert.KernelIdeal.AG.part_34' depends on axioms: [propext, Classical.choice, Quot.sound] -/
#guard_msgs in #print axioms Cert.KernelIdeal.AG.part_34
-- ==== Proof.AGEpilogue.lean ====
/-
  The end of the body: the pieces in which a device holds its buffers when its last wait is over make the whole buffers again,
  and every DMA cell of the device closes with its counter at zero.
  The staging buffer and the argument come back as their twelve input ranges, the result as the device's own half and the chunks
  of the other half; each is the whole buffer because the ranges are the buffer's rows, each once.  The conversion buffer comes
  back as its twelve input ranges at the left half of the share and its 4096 rows at the right half; the rows at the right half
  are the same twelve ranges, and a range held at the two halves of the share is the range held whole.
  A DMA cell has duties in round 0 only; its owner, at round 1 with nothing taken, closes it.
-/
import proofs.«900673_g7700000000000674_dist_ag_v7x_xyz2x2x2_z_m4096_n1024_bf16_1_alg».proof.Proof.AGCuts
import proofs.«900673_g7700000000000674_dist_ag_v7x_xyz2x2x2_z_m4096_n1024_bf16_1_alg».proof.Proof.AGGlue
import proofs.«900673_g7700000000000674_dist_ag_v7x_xyz2x2x2_z_m4096_n1024_bf16_1_alg».proof.Proof.AGPays

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- Every DMA cell of a device, its one round over and nothing of a later round taken, closes with its counter at zero. -/
theorem close_cells (K : Dev nD × Fin 86 → ℕ) (c : Dev nD) :
    iprop(records m K ∗ bigSep Finset.univ fun n : Fin 85 => atPos ER (dcell c n.val n.isLt) 1 ∅ 0)
      ⊢ iprop(|={Set.univ}=> bigSep Finset.univ fun n : Fin 85 => semVal (dcell c n.val n.isLt) 0) :=
  (bigSep_with_persistent (R := records m K) (Φ := fun n : Fin 85 => atPos ER (dcell c n.val n.isLt) 1 ∅ 0)
      (Ψ := fun n : Fin 85 => iprop(|={Set.univ}=> semVal (dcell c n.val n.isLt) 0))
      fun n _ => (sep_mono_left (inv_dma m K c n.val n.isLt)).trans
        (Rounds.cell_close ER (agRd m) (Set.mem_univ _) (fun h => h) (R := 1) (duties_later m _))).trans
    (bigSep_fupd _ _)

/-! ## A whole buffer at some contents -/

omit [FloatOps F] in
theorem ep_someBuf_intro (c : Dev nD) (b : Ref sig .tc) (f : Buf (Elt F) ((c : Thread nD τ).loc b)) :
    ((((c : Thread nD τ).loc b) ↦{fullShare} f : sProp 𝕄)) ⊢ someBuf c b := by
  unfold someBuf
  iintro H
  iexists f
  iexact H

/-! ## The result -/

theorem join_ou (c : Dev nD) :
    iprop(pts c OU (myb c) 4096 (omy_inb c) fullShare (outV m c)
      ∗ (bigSep Finset.univ fun j : Fin 8 => pts c OU (othb c + ownOff c j) (ownLen j) (oown_inb c j) fullShare (outV m c))
      ∗ (bigSep Finset.univ fun k : Fin 8 => pts c OU (othb c + xinOff c k) (xinLen k) (oxin_inb c k) fullShare (outV m c))
      ∗ (bigSep Finset.univ fun k : Fin 8 => pts c OU (othb c + yinOff c k) (yinLen k) (oyin_inb c k) fullShare (outV m c)))
      ⊢ (((c : Thread nD τ).loc main_v1) ↦{fullShare} outV m c : sProp 𝕄) :=
  (cut_ou c (outV m c)).2

/-! ## The staging buffer and the argument -/

theorem join_st (c : Dev nD) :
    (bigSep Finset.univ fun i : Fin 12 => pts c ST (inOff c i) (inLen i) (in_inb c i) fullShare (X m c)) ⊢ someBuf (F := F) c cc0_scratch0 :=
  (cut_in_ST c fullShare (X m c)).2.trans (ep_someBuf_intro c cc0_scratch0 (X m c))

theorem join_xa (c : Dev nD) :
    (bigSep Finset.univ fun i : Fin 12 => pts c XA (inOff c i) (inLen i) (in_inb c i) fullShare (X m c))
      ⊢ (((c : Thread nD τ).loc main_arg0) ↦{fullShare} X m c : sProp 𝕄) :=
  (cut_in_XA c fullShare (X m c)).2

/-! ## Shares -/

omit [FloatOps F] in
/-- Rows held at a share are the rows held at its two halves. -/
theorem ep_pts_share {sp : Space} {e : EltTy} {R : ℕ} (c : Dev nD) (B : Memref sig .tc sp (Sr R) e) (o r : ℕ) (h : o + r ≤ R)
    (q : PosShare TreeShare) (f : Buf (Elt F) (B.view.loc (c : Thread nD τ))) :
    pts (F := F) c B o r h q f = iprop(pts c B o r h q.left f ∗ pts c B o r h q.right f) := by
  have hs := pointsTo_share_split (Ix := Unit) (Val := Elt F) (Name := ℕ) (U := UU) (Lvl := ℕ)
    (sl B o r h).view.set q f
  unfold pts
  exact BI.equiv_iff.mp ⟨hs.1, hs.2⟩

/-! ## The conversion buffer -/

theorem ep_own_in_off : ∀ (c : Dev nD) (j : Fin 8), ownOff c j = inOff c ⟨j.val, by omega⟩ := by decide
theorem ep_own_in_len : ∀ j : Fin 8, ownLen j = inLen ⟨j.val, by omega⟩ := by decide

omit [FloatOps F] in
/-- An own chunk is the input range of the same number. -/
theorem mi_own_in (c : Dev nD) (j : Fin 8) (q : PosShare TreeShare) (f : Buf (Elt F) ((c : Thread nD τ).loc cc0_scratch1)) :
    pts (F := F) c MI (ownOff c j) (ownLen j) (own_inb c j) q f
      = pts c MI (inOff c ⟨j.val, by omega⟩) (inLen ⟨j.val, by omega⟩) (in_inb c _) q f :=
  pts_eq c MI q f (ep_own_in_off c j) (ep_own_in_len j) _ _

omit [FloatOps F] in
/-- The twelve input ranges of the conversion buffer at the right half make its 4096 rows at the right half. -/
theorem mi_sR_join (c : Dev nD) (f : Buf (Elt F) ((c : Thread nD τ).loc cc0_scratch1)) :
    (bigSep Finset.univ fun i : Fin 12 => pts c MI (inOff c i) (inLen i) (in_inb c i) sR f) ⊢ pts c MI 0 4096 (Nat.le_refl _) sR f :=
  (join_mi_sR c f).1

omit [FloatOps F] in
/-- The whole conversion buffer is its twelve input ranges at the left half and its 4096 rows at the right half. -/
theorem ep_mi_whole_eq (c : Dev nD) (f : Buf (Elt F) ((c : Thread nD τ).loc cc0_scratch1)) :
    ((((c : Thread nD τ).loc cc0_scratch1) ↦{fullShare} f : sProp 𝕄))
      = iprop((bigSep Finset.univ fun i : Fin 12 => pts c MI (inOff c i) (inLen i) (in_inb c i) sL f) ∗ pts c MI 0 4096 (Nat.le_refl _) sR f) :=
  calc ((((c : Thread nD τ).loc cc0_scratch1) ↦{fullShare} f : sProp 𝕄))
      = pts c MI 0 4096 (Nat.le_refl _) fullShare f := whole_rows c MI (View.set_whole _) fullShare f
    _ = bigSep Finset.univ (fun i : Fin 12 => pts c MI (inOff c i) (inLen i) (in_inb c i) fullShare f) := rows_in c MI fullShare f
    _ = bigSep Finset.univ (fun i : Fin 12 => iprop(pts c MI (inOff c i) (inLen i) (in_inb c i) sL f ∗ pts c MI (inOff c i) (inLen i) (in_inb c i) sR f)) :=
        bigSep_congr fun i _ => ep_pts_share c MI _ _ _ fullShare f
    _ = iprop((bigSep Finset.univ fun i : Fin 12 => pts c MI (inOff c i) (inLen i) (in_inb c i) sL f)
          ∗ (bigSep Finset.univ fun i : Fin 12 => pts c MI (inOff c i) (inLen i) (in_inb c i) sR f)) := bigSep_sep' _ _ _
    _ = _ := by rw [rows_in c MI sR f]

theorem join_mi (c : Dev nD) :
    iprop((bigSep Finset.univ fun i : Fin 12 => pts c MI (inOff c i) (inLen i) (in_inb c i) sL (mineV m c))
      ∗ pts c MI 0 4096 (Nat.le_refl _) sR (mineV m c)) ⊢ someBuf (F := F) c cc0_scratch1 :=
  (Entails.of_eq (ep_mi_whole_eq c (mineV m c)).symm).trans (ep_someBuf_intro c cc0_scratch1 (mineV m c))

end Cert.KernelIdeal.AG

end

/-- info: 'Cert.KernelIdeal.AG.close_cells' depends on axioms: [propext, Classical.choice, Quot.sound] -/
#guard_msgs in #print axioms Cert.KernelIdeal.AG.close_cells

/-- info: 'Cert.KernelIdeal.AG.join_ou' depends on axioms: [propext, Classical.choice, Quot.sound] -/
#guard_msgs in #print axioms Cert.KernelIdeal.AG.join_ou

/-- info: 'Cert.KernelIdeal.AG.join_st' depends on axioms: [propext, Classical.choice, Quot.sound] -/
#guard_msgs in #print axioms Cert.KernelIdeal.AG.join_st

/-- info: 'Cert.KernelIdeal.AG.join_xa' depends on axioms: [propext, Classical.choice, Quot.sound] -/
#guard_msgs in #print axioms Cert.KernelIdeal.AG.join_xa

/-- info: 'Cert.KernelIdeal.AG.mi_own_in' depends on axioms: [propext, Classical.choice, Quot.sound] -/
#guard_msgs in #print axioms Cert.KernelIdeal.AG.mi_own_in

/-- info: 'Cert.KernelIdeal.AG.mi_sR_join' depends on axioms: [propext, Classical.choice, Quot.sound] -/
#guard_msgs in #print axioms Cert.KernelIdeal.AG.mi_sR_join

/-- info: 'Cert.KernelIdeal.AG.join_mi' depends on axioms: [propext, Classical.choice, Quot.sound] -/
#guard_msgs in #print axioms Cert.KernelIdeal.AG.join_mi
-- ==== Proof.AGEpiCM.lean ====
/-
  The communication buffer put back together when the body is done.
  Every row range of it comes back in pieces: an own chunk of a 672-region as the left half from the wait on the x-forward
  that read it, the left of the right half from the wait on the y-forward, and the right of the right half from the wait on
  its copy into the result; an own chunk of a 704-region as the left half from its one forward and the right half from its
  copy; the x-arrivals 2, 3 and the y-arrivals 0, 1 as the left half from the forward on and the right half from their
  copy; every other arrival whole from its copy.  Halves joined and equal rows respelt, the pieces are the own chunks, the
  x-arrivals and the y-arrivals whole, which together are the whole buffer.
-/
import proofs.«900673_g7700000000000674_dist_ag_v7x_xyz2x2x2_z_m4096_n1024_bf16_1_alg».proof.Proof.AGCuts
import proofs.«900673_g7700000000000674_dist_ag_v7x_xyz2x2x2_z_m4096_n1024_bf16_1_alg».proof.Proof.AGGlue
import proofs.«900673_g7700000000000674_dist_ag_v7x_xyz2x2x2_z_m4096_n1024_bf16_1_alg».proof.Proof.AGPays

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which rows a forward's source rows are -/

theorem pg_xr0 (c : Dev nD) : xinOff (xn c) 0 = ownOff c 0 := by revert c; decide
theorem pg_xr1 (c : Dev nD) : xinOff (xn c) 1 = ownOff c 1 := by revert c; decide
theorem pg_xr2 (c : Dev nD) : xinOff (xn c) 2 = ownOff c 2 := by revert c; decide
theorem pg_xr3 (c : Dev nD) : xinOff (xn c) 3 = ownOff c 3 := by revert c; decide
theorem pg_xr4 (c : Dev nD) : xinOff (xn c) 4 = ownOff c 4 := by revert c; decide
theorem pg_xr5 (c : Dev nD) : xinOff (xn c) 5 = ownOff c 5 := by revert c; decide
theorem pg_xr6 (c : Dev nD) : xinOff (xn c) 6 = yinOff c 0 := by revert c; decide
theorem pg_xr7 (c : Dev nD) : xinOff (xn c) 7 = yinOff c 1 := by revert c; decide
theorem pg_yr0 (c : Dev nD) : yinOff (yn c) 0 = ownOff c 0 := by revert c; decide
theorem pg_yr1 (c : Dev nD) : yinOff (yn c) 1 = ownOff c 1 := by revert c; decide
theorem pg_yr2 (c : Dev nD) : yinOff (yn c) 2 = ownOff c 2 := by revert c; decide
theorem pg_yr3 (c : Dev nD) : yinOff (yn c) 3 = ownOff c 3 := by revert c; decide
theorem pg_yr4 (c : Dev nD) : yinOff (yn c) 4 = ownOff c 6 := by revert c; decide
theorem pg_yr5 (c : Dev nD) : yinOff (yn c) 5 = ownOff c 7 := by revert c; decide
theorem pg_yr6 (c : Dev nD) : yinOff (yn c) 6 = xinOff c 2 := by revert c; decide
theorem pg_yr7 (c : Dev nD) : yinOff (yn c) 7 = xinOff c 3 := by revert c; decide

/-- An x-forward's source rows, back at the left half, under the name they have among the device's own rows. -/
theorem pg_xs (c : Dev nD) (k : Fin 8) (o r : ℕ) (h : o + r ≤ 4096) (ho : xinOff (xn c) k = o) (hr : xinLen k = r) :
    (payXs m c k : sProp 𝕄) ⊢ pts c CM o r h sL (commV m c) := by
  unfold payXs; exact Entails.of_eq (pts_respell c CM ho hr _ _ _ _)

/-- A y-forward's source rows, back at the share it read them with. -/
theorem pg_ys (c : Dev nD) (k : Fin 8) (o r : ℕ) (h : o + r ≤ 4096) (q : PosShare TreeShare) (ho : yinOff (yn c) k = o) (hr : yinLen k = r)
    (hq : qys k = q) : (payYs m c k : sProp 𝕄) ⊢ pts c CM o r h q (commV m c) := by
  subst hq; unfold payYs; exact Entails.of_eq (pts_respell c CM ho hr _ _ _ _)

/-- The same rows at a share written another way. -/
theorem pg_q (c : Dev nD) (o r : ℕ) (h : o + r ≤ 4096) (q q' : PosShare TreeShare) (f : Buf (Elt F) ((sl CM o r h).view.loc (c : Thread nD τ)))
    (hq : q = q') : (pts c CM o r h q f : sProp 𝕄) ⊢ pts c CM o r h q' f := by subst hq; exact .rfl

/-- Rows held at the two halves of a share are held at the share. -/
theorem pg_join (c : Dev nD) (o r : ℕ) (h : o + r ≤ 4096) (q : PosShare TreeShare) (f : Buf (Elt F) ((sl CM o r h).view.loc (c : Thread nD τ))) :
    (iprop(pts c CM o r h q.left f ∗ pts c CM o r h q.right f) : sProp 𝕄) ⊢ pts c CM o r h q f := by
  unfold pts; exact (pointsTo_share_split _ q f).2

/-! ## The buffer whole -/

set_option maxRecDepth 65536 in
set_option maxHeartbeats 4000000 in
/-- The pieces the body's waits hand back are the whole communication buffer. -/
theorem join_cm (c : Dev nD) :
    iprop((bigSep Finset.univ fun k : Fin 8 => payXs m c k) ∗ (bigSep Finset.univ fun k : Fin 8 => payYs m c k)
        ∗ (bigSep Finset.univ fun j : Fin 8 => pts c CM (ownOff c j) (ownLen j) (own_inb c j) (qlz j) (commV m c))
        ∗ (bigSep Finset.univ fun k : Fin 8 => pts c CM (xinOff c k) (xinLen k) (xin_inb c k) (qlx k) (commV m c))
        ∗ (bigSep Finset.univ fun k : Fin 8 => pts c CM (yinOff c k) (yinLen k) (yin_inb c k) (qly k) (commV m c)))
      ⊢ someBuf (F := F) c cc0_scratch2 := by
  rw [bigSep_fin8, bigSep_fin8, bigSep_fin8, bigSep_fin8, bigSep_fin8]
  iintro ⟨⟨Hxs0, Hxs1, Hxs2, Hxs3, Hxs4, Hxs5, Hxs6, Hxs7⟩, ⟨Hys0, Hys1, Hys2, Hys3, Hys4, Hys5, Hys6, Hys7⟩, ⟨Hz0, Hz1, Hz2, Hz3, Hz4, Hz5, Hz6, Hz7⟩, ⟨Hx0, Hx1, Hx2, Hx3, Hx4, Hx5, Hx6, Hx7⟩, ⟨Hy0, Hy1, Hy2, Hy3, Hy4, Hy5, Hy6, Hy7⟩⟩
  ihave Hxs0 := (pg_xs m c 0 (ownOff c 0) (ownLen 0) (own_inb c 0) (pg_xr0 c) (by decide)) $$ Hxs0
  ihave Hxs1 := (pg_xs m c 1 (ownOff c 1) (ownLen 1) (own_inb c 1) (pg_xr1 c) (by decide)) $$ Hxs1
  ihave Hxs2 := (pg_xs m c 2 (ownOff c 2) (ownLen 2) (own_inb c 2) (pg_xr2 c) (by decide)) $$ Hxs2
  ihave Hxs3 := (pg_xs m c 3 (ownOff c 3) (ownLen 3) (own_inb c 3) (pg_xr3 c) (by decide)) $$ Hxs3
  ihave Hxs4 := (pg_xs m c 4 (ownOff c 4) (ownLen 4) (own_inb c 4) (pg_xr4 c) (by decide)) $$ Hxs4
  ihave Hxs5 := (pg_xs m c 5 (ownOff c 5) (ownLen 5) (own_inb c 5) (pg_xr5 c) (by decide)) $$ Hxs5
  ihave Hxs6 := (pg_xs m c 6 (yinOff c 0) (yinLen 0) (yin_inb c 0) (pg_xr6 c) (by decide)) $$ Hxs6
  ihave Hxs7 := (pg_xs m c 7 (yinOff c 1) (yinLen 1) (yin_inb c 1) (pg_xr7 c) (by decide)) $$ Hxs7
  ihave Hys0 := (pg_ys m c 0 (ownOff c 0) (ownLen 0) (own_inb c 0) sRL (pg_yr0 c) (by decide) rfl) $$ Hys0
  ihave Hys1 := (pg_ys m c 1 (ownOff c 1) (ownLen 1) (own_inb c 1) sRL (pg_yr1 c) (by decide) rfl) $$ Hys1
  ihave Hys2 := (pg_ys m c 2 (ownOff c 2) (ownLen 2) (own_inb c 2) sRL (pg_yr2 c) (by decide) rfl) $$ Hys2
  ihave Hys3 := (pg_ys m c 3 (ownOff c 3) (ownLen 3) (own_inb c 3) sRL (pg_yr3 c) (by decide) rfl) $$ Hys3
  ihave Hys4 := (pg_ys m c 4 (ownOff c 6) (ownLen 6) (own_inb c 6) sL (pg_yr4 c) (by decide) rfl) $$ Hys4
  ihave Hys5 := (pg_ys m c 5 (ownOff c 7) (ownLen 7) (own_inb c 7) sL (pg_yr5 c) (by decide) rfl) $$ Hys5
  ihave Hys6 := (pg_ys m c 6 (xinOff c 2) (xinLen 2) (xin_inb c 2) sL (pg_yr6 c) (by decide) rfl) $$ Hys6
  ihave Hys7 := (pg_ys m c 7 (xinOff c 3) (xinLen 3) (xin_inb c 3) sL (pg_yr7 c) (by decide) rfl) $$ Hys7
  ihave Hz0 := (pg_q c (ownOff c 0) (ownLen 0) (own_inb c 0) (qlz 0) sRR (commV m c) rfl) $$ Hz0
  ihave Hr0 := (pg_join c (ownOff c 0) (ownLen 0) (own_inb c 0) sR (commV m c)) $$ [Hys0 Hz0]
  · isplitl [Hys0] <;> iassumption
  ihave Ho0 := (pg_join c (ownOff c 0) (ownLen 0) (own_inb c 0) fullShare (commV m c)) $$ [Hxs0 Hr0]
  · isplitl [Hxs0] <;> iassumption
  ihave Hz1 := (pg_q c (ownOff c 1) (ownLen 1) (own_inb c 1) (qlz 1) sRR (commV m c) rfl) $$ Hz1
  ihave Hr1 := (pg_join c (ownOff c 1) (ownLen 1) (own_inb c 1) sR (commV m c)) $$ [Hys1 Hz1]
  · isplitl [Hys1] <;> iassumption
  ihave Ho1 := (pg_join c (ownOff c 1) (ownLen 1) (own_inb c 1) fullShare (commV m c)) $$ [Hxs1 Hr1]
  · isplitl [Hxs1] <;> iassumption
  ihave Hz2 := (pg_q c (ownOff c 2) (ownLen 2) (own_inb c 2) (qlz 2) sRR (commV m c) rfl) $$ Hz2
  ihave Hr2 := (pg_join c (ownOff c 2) (ownLen 2) (own_inb c 2) sR (commV m c)) $$ [Hys2 Hz2]
  · isplitl [Hys2] <;> iassumption
  ihave Ho2 := (pg_join c (ownOff c 2) (ownLen 2) (own_inb c 2) fullShare (commV m c)) $$ [Hxs2 Hr2]
  · isplitl [Hxs2] <;> iassumption
  ihave Hz3 := (pg_q c (ownOff c 3) (ownLen 3) (own_inb c 3) (qlz 3) sRR (commV m c) rfl) $$ Hz3
  ihave Hr3 := (pg_join c (ownOff c 3) (ownLen 3) (own_inb c 3) sR (commV m c)) $$ [Hys3 Hz3]
  · isplitl [Hys3] <;> iassumption
  ihave Ho3 := (pg_join c (ownOff c 3) (ownLen 3) (own_inb c 3) fullShare (commV m c)) $$ [Hxs3 Hr3]
  · isplitl [Hxs3] <;> iassumption
  ihave Hz4 := (pg_q c (ownOff c 4) (ownLen 4) (own_inb c 4) (qlz 4) sR (commV m c) rfl) $$ Hz4
  ihave Ho4 := (pg_join c (ownOff c 4) (ownLen 4) (own_inb c 4) fullShare (commV m c)) $$ [Hxs4 Hz4]
  · isplitl [Hxs4] <;> iassumption
  ihave Hz5 := (pg_q c (ownOff c 5) (ownLen 5) (own_inb c 5) (qlz 5) sR (commV m c) rfl) $$ Hz5
  ihave Ho5 := (pg_join c (ownOff c 5) (ownLen 5) (own_inb c 5) fullShare (commV m c)) $$ [Hxs5 Hz5]
  · isplitl [Hxs5] <;> iassumption
  ihave Hz6 := (pg_q c (ownOff c 6) (ownLen 6) (own_inb c 6) (qlz 6) sR (commV m c) rfl) $$ Hz6
  ihave Ho6 := (pg_join c (ownOff c 6) (ownLen 6) (own_inb c 6) fullShare (commV m c)) $$ [Hys4 Hz6]
  · isplitl [Hys4] <;> iassumption
  ihave Hz7 := (pg_q c (ownOff c 7) (ownLen 7) (own_inb c 7) (qlz 7) sR (commV m c) rfl) $$ Hz7
  ihave Ho7 := (pg_join c (ownOff c 7) (ownLen 7) (own_inb c 7) fullShare (commV m c)) $$ [Hys5 Hz7]
  · isplitl [Hys5] <;> iassumption
  ihave Hx0 := (pg_q c (xinOff c 0) (xinLen 0) (xin_inb c 0) (qlx 0) fullShare (commV m c) rfl) $$ Hx0
  ihave Hx1 := (pg_q c (xinOff c 1) (xinLen 1) (xin_inb c 1) (qlx 1) fullShare (commV m c) rfl) $$ Hx1
  ihave Hx2 := (pg_q c (xinOff c 2) (xinLen 2) (xin_inb c 2) (qlx 2) sR (commV m c) rfl) $$ Hx2
  ihave Hx2 := (pg_join c (xinOff c 2) (xinLen 2) (xin_inb c 2) fullShare (commV m c)) $$ [Hys6 Hx2]
  · isplitl [Hys6] <;> iassumption
  ihave Hx3 := (pg_q c (xinOff c 3) (xinLen 3) (xin_inb c 3) (qlx 3) sR (commV m c) rfl) $$ Hx3
  ihave Hx3 := (pg_join c (xinOff c 3) (xinLen 3) (xin_inb c 3) fullShare (commV m c)) $$ [Hys7 Hx3]
  · isplitl [Hys7] <;> iassumption
  ihave Hx4 := (pg_q c (xinOff c 4) (xinLen 4) (xin_inb c 4) (qlx 4) fullShare (commV m c) rfl) $$ Hx4
  ihave Hx5 := (pg_q c (xinOff c 5) (xinLen 5) (xin_inb c 5) (qlx 5) fullShare (commV m c) rfl) $$ Hx5
  ihave Hx6 := (pg_q c (xinOff c 6) (xinLen 6) (xin_inb c 6) (qlx 6) fullShare (commV m c) rfl) $$ Hx6
  ihave Hx7 := (pg_q c (xinOff c 7) (xinLen 7) (xin_inb c 7) (qlx 7) fullShare (commV m c) rfl) $$ Hx7
  ihave Hy0 := (pg_q c (yinOff c 0) (yinLen 0) (yin_inb c 0) (qly 0) sR (commV m c) rfl) $$ Hy0
  ihave Hy0 := (pg_join c (yinOff c 0) (yinLen 0) (yin_inb c 0) fullShare (commV m c)) $$ [Hxs6 Hy0]
  · isplitl [Hxs6] <;> iassumption
  ihave Hy1 := (pg_q c (yinOff c 1) (yinLen 1) (yin_inb c 1) (qly 1) sR (commV m c) rfl) $$ Hy1
  ihave Hy1 := (pg_join c (yinOff c 1) (yinLen 1) (yin_inb c 1) fullShare (commV m c)) $$ [Hxs7 Hy1]
  · isplitl [Hxs7] <;> iassumption
  ihave Hy2 := (pg_q c (yinOff c 2) (yinLen 2) (yin_inb c 2) (qly 2) fullShare (commV m c) rfl) $$ Hy2
  ihave Hy3 := (pg_q c (yinOff c 3) (yinLen 3) (yin_inb c 3) (qly 3) fullShare (commV m c) rfl) $$ Hy3
  ihave Hy4 := (pg_q c (yinOff c 4) (yinLen 4) (yin_inb c 4) (qly 4) fullShare (commV m c) rfl) $$ Hy4
  ihave Hy5 := (pg_q c (yinOff c 5) (yinLen 5) (yin_inb c 5) (qly 5) fullShare (commV m c) rfl) $$ Hy5
  ihave Hy6 := (pg_q c (yinOff c 6) (yinLen 6) (yin_inb c 6) (qly 6) fullShare (commV m c) rfl) $$ Hy6
  ihave Hy7 := (pg_q c (yinOff c 7) (yinLen 7) (yin_inb c 7) (qly 7) fullShare (commV m c) rfl) $$ Hy7
  unfold someBuf
  iexists (commV m c)
  iapply (cut_cm c fullShare (commV m c)).2
  rw [bigSep_fin8, bigSep_fin8, bigSep_fin8]
  isplitl [Ho0 Ho1 Ho2 Ho3 Ho4 Ho5 Ho6 Ho7]
  ·
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hx0 Hx1 Hx2 Hx3 Hx4 Hx5 Hx6 Hx7]
  ·
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hy0]; · iexact Hy0
  isplitl [Hy1]; · iexact Hy1
  isplitl [Hy2]; · iexact Hy2
  isplitl [Hy3]; · iexact Hy3
  isplitl [Hy4]; · iexact Hy4
  isplitl [Hy5]; · iexact Hy5
  isplitl [Hy6]; · iexact Hy6
  iexact Hy7

/-- info: 'Cert.KernelIdeal.AG.join_cm' depends on axioms: [propext, Classical.choice, Quot.sound] -/
#guard_msgs in #print axioms join_cm

end Cert.KernelIdeal.AG

end
-- ==== Proof.AGRoot.lean ====
/-
  The body of one device, whole: from the ghost state and the five buffers as the launch hands them over, through the 35 printed
  parts in order, to the five buffers back — the result holding the whole array converted — and every DMA cell closed at zero.
  Each part is a lemma of its own over the resources it touches; here they are composed along the program's sequence: a part runs,
  what it produces joins what was set aside, and the next part takes what it needs.
-/
import proofs.«900673_g7700000000000674_dist_ag_v7x_xyz2x2x2_z_m4096_n1024_bf16_1_alg».proof.Proof.Gen.KernelIdeal.Points
import proofs.«900673_g7700000000000674_dist_ag_v7x_xyz2x2x2_z_m4096_n1024_bf16_1_alg».proof.Proof.AGCuts
import proofs.«900673_g7700000000000674_dist_ag_v7x_xyz2x2x2_z_m4096_n1024_bf16_1_alg».proof.Proof.AGParts_a
import proofs.«900673_g7700000000000674_dist_ag_v7x_xyz2x2x2_z_m4096_n1024_bf16_1_alg».proof.Proof.AGParts_b
import proofs.«900673_g7700000000000674_dist_ag_v7x_xyz2x2x2_z_m4096_n1024_bf16_1_alg».proof.Proof.AGParts_f
import proofs.«900673_g7700000000000674_dist_ag_v7x_xyz2x2x2_z_m4096_n1024_bf16_1_alg».proof.Proof.AGParts_c
import proofs.«900673_g7700000000000674_dist_ag_v7x_xyz2x2x2_z_m4096_n1024_bf16_1_alg».proof.Proof.AGParts_d
import proofs.«900673_g7700000000000674_dist_ag_v7x_xyz2x2x2_z_m4096_n1024_bf16_1_alg».proof.Proof.AGParts_e
import proofs.«900673_g7700000000000674_dist_ag_v7x_xyz2x2x2_z_m4096_n1024_bf16_1_alg».proof.Proof.AGEpilogue
import proofs.«900673_g7700000000000674_dist_ag_v7x_xyz2x2x2_z_m4096_n1024_bf16_1_alg».proof.Proof.AGEpiCM

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The ghost families written out -/

omit [FloatOps F] in
/-- All 86 cells of a device, in order. -/
theorem bigSep_fin86 (Φ : Fin 86 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85] (by decide) (by decide) Φ

omit [FloatOps F] in
/-- The 61 cells a device pays itself. -/
theorem bigSep_ownPaid (Φ : Fin 85 → sProp 𝕄) :
    bigSep ownPaid Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 28 ∗ Φ 29 ∗ Φ 30 ∗ Φ 31 ∗ Φ 32 ∗ Φ 33 ∗ Φ 34 ∗ Φ 35 ∗ Φ 44 ∗ Φ 45 ∗ Φ 46 ∗ Φ 47 ∗ Φ 48 ∗ Φ 49 ∗ Φ 50 ∗ Φ 51 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84) :=
  bigSep_eq_bigSepL_of_eq [0, 1, 2, 3, 4, 5, 6, 7, 8, 9, 10, 11, 12, 13, 14, 15, 16, 17, 18, 19, 28, 29, 30, 31, 32, 33, 34, 35, 44, 45, 46, 47, 48, 49, 50, 51, 60, 61, 62, 63, 64, 65, 66, 67, 68, 69, 70, 71, 72, 73, 74, 75, 76, 77, 78, 79, 80, 81, 82, 83, 84] (by decide) (by decide) Φ

omit [FloatOps F] in
/-- Its 24 receive cells. -/
theorem bigSep_ownRecv (Φ : Fin 85 → sProp 𝕄) :
    bigSep ownRecv Φ = iprop(Φ 20 ∗ Φ 21 ∗ Φ 22 ∗ Φ 23 ∗ Φ 24 ∗ Φ 25 ∗ Φ 26 ∗ Φ 27 ∗ Φ 36 ∗ Φ 37 ∗ Φ 38 ∗ Φ 39 ∗ Φ 40 ∗ Φ 41 ∗ Φ 42 ∗ Φ 43 ∗ Φ 52 ∗ Φ 53 ∗ Φ 54 ∗ Φ 55 ∗ Φ 56 ∗ Φ 57 ∗ Φ 58 ∗ Φ 59) :=
  bigSep_eq_bigSepL_of_eq [20, 21, 22, 23, 24, 25, 26, 27, 36, 37, 38, 39, 40, 41, 42, 43, 52, 53, 54, 55, 56, 57, 58, 59] (by decide) (by decide) Φ

omit [FloatOps F] in
/-- The 85 DMA cells of a device, in order. -/
theorem bigSep_fin85 (Φ : Fin 85 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84] (by decide) (by decide) Φ

/-! ## The body -/

set_option maxRecDepth 65536 in
set_option maxHeartbeats 64000000 in
theorem sound_body (c : Dev nD) (W₀ : Waits sig Unit) :
    iprop(Φ₀ m c ∗ owes (c : Thread nD τ) (owedAfter c 0) W₀)
      ⊢ wp frame (wpE (defs₀ (F := F)) 𝒱₀ (c : Thread nD τ) none) Set.univ (bodyAt0 (F := F) t0_0)
          (fun _ => iprop(Φ₁ m c ∗ ∃ W', owes (c : Thread nD τ) 0 W')) := by
  unfold bodyAt0
  simp only [cc0_body_eq_skeleton]; unfold cc0_body_skel
  simp only [k0_part35_eq_skeleton]; unfold k0_part35_skel
  unfold Φ₀ start someBuf positions payToks creds
  iintro ⟨⟨⟨⟨%K, #HR, Hpos, HtbZ, HtbX, HtbY, HtZ, HtX, HtY, HtOwn⟩, ⟨HcB, HcRecv⟩, #HL⟩, ⟨⟨%fst, Hst⟩, ⟨%fmi, Hmi⟩, ⟨%fcm, Hcm⟩⟩, Hxa, ⟨%fou, Hou⟩⟩, HO⟩
  simp only [bind_assoc, Prog.bind_assoc]
  -- the argument, the staging buffer and the communication buffer by their row ranges; the ghost families by cell
  ihave Hxa := (cut_in_XA c fullShare (X m c)).1 $$ Hxa
  ihave Hxa := (Entails.of_eq (bigSep_fin12 _)) $$ Hxa
  icases Hxa with ⟨Hxa0, Hxa1, Hxa2, Hxa3, Hxa4, Hxa5, Hxa6, Hxa7, Hxa8, Hxa9, Hxa10, Hxa11⟩
  ihave Hst := (cut_in_ST c fullShare fst).1 $$ Hst
  ihave Hst := (Entails.of_eq (bigSep_fin12 _)) $$ Hst
  icases Hst with ⟨Hst0, Hst1, Hst2, Hst3, Hst4, Hst5, Hst6, Hst7, Hst8, Hst9, Hst10, Hst11⟩
  ihave Hcm := (cut_cm c fullShare fcm).1 $$ Hcm
  icases Hcm with ⟨Hcz, Hcx, Hcy⟩
  ihave Hcz := (Entails.of_eq (bigSep_fin8 _)) $$ Hcz
  icases Hcz with ⟨Hcz0, Hcz1, Hcz2, Hcz3, Hcz4, Hcz5, Hcz6, Hcz7⟩
  ihave Hcx := (Entails.of_eq (bigSep_fin8 _)) $$ Hcx
  icases Hcx with ⟨Hcx0, Hcx1, Hcx2, Hcx3, Hcx4, Hcx5, Hcx6, Hcx7⟩
  ihave Hcy := (Entails.of_eq (bigSep_fin8 _)) $$ Hcy
  icases Hcy with ⟨Hcy0, Hcy1, Hcy2, Hcy3, Hcy4, Hcy5, Hcy6, Hcy7⟩
  ihave HtOwn := (Entails.of_eq (bigSep_ownPaid _)) $$ HtOwn
  icases HtOwn with ⟨Ht0, Ht1, Ht2, Ht3, Ht4, Ht5, Ht6, Ht7, Ht8, Ht9, Ht10, Ht11, Ht12, Ht13, Ht14, Ht15, Ht16, Ht17, Ht18, Ht19, Ht28, Ht29, Ht30, Ht31, Ht32, Ht33, Ht34, Ht35, Ht44, Ht45, Ht46, Ht47, Ht48, Ht49, Ht50, Ht51, Ht60, Ht61, Ht62, Ht63, Ht64, Ht65, Ht66, Ht67, Ht68, Ht69, Ht70, Ht71, Ht72, Ht73, Ht74, Ht75, Ht76, Ht77, Ht78, Ht79, Ht80, Ht81, Ht82, Ht83, Ht84⟩
  ihave Hpos := (Entails.of_eq (bigSep_fin86 _)) $$ Hpos
  icases Hpos with ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63, Hp64, Hp65, Hp66, Hp67, Hp68, Hp69, Hp70, Hp71, Hp72, Hp73, Hp74, Hp75, Hp76, Hp77, Hp78, Hp79, Hp80, Hp81, Hp82, Hp83, Hp84, Hp85⟩
  -- part 1: the device reads its id
  rw [wp_bind]
  iapply (wp_wand (Fr := frame) (wpE := wpE (defs₀ (F := F)) 𝒱₀ (c : Thread nD τ) none) (E := Set.univ)) $$ []
  · iapply (part_1 m c K); isplitr; · iexact HR
    iexact HL
  iintro %r %hr
  obtain ⟨d0, v2, v5, v8, v9, v10, v11, v22, v25, v28, v32, v33, c2⟩ := r
  simp only at hr
  have hd : c = d0 := hr.symm
  subst hd
  simp only []
  -- part 2: input copies 0, 1, 2
  rw [wp_bind]
  iapply (wp_wand (Fr := frame) (wpE := wpE (defs₀ (F := F)) 𝒱₀ (c : Thread nD τ) none) (E := Set.univ)) $$ [Hxa0 Hst0 Ht0 Hxa1 Hst1 Ht1 Hxa2 Hst2 Ht2]
  · iapply (part_2 m c K _ _ _ _ _ _ fst fst fst)
    isplitr; · iexact HR
    isplitr; · iexact HL
    isplitl [Hxa0]; · iexact Hxa0
    isplitl [Hst0]; · iexact Hst0
    isplitl [Ht0]; · iexact Ht0
    isplitl [Hxa1]; · iexact Hxa1
    isplitl [Hst1]; · iexact Hst1
    isplitl [Ht1]; · iexact Ht1
    isplitl [Hxa2]; · iexact Hxa2
    isplitl [Hst2]; · iexact Hst2
    iexact Ht2
  iintro %r2 ⟨Hci0, Hci1, Hci2⟩
  -- part 3: input copies 3 … 9
  rw [wp_bind]
  iapply (wp_wand (Fr := frame) (wpE := wpE (defs₀ (F := F)) 𝒱₀ (c : Thread nD τ) none) (E := Set.univ)) $$ [Hxa3 Hst3 Ht3 Hxa4 Hst4 Ht4 Hxa5 Hst5 Ht5 Hxa6 Hst6 Ht6 Hxa7 Hst7 Ht7 Hxa8 Hst8 Ht8 Hxa9 Hst9 Ht9]
  · iapply (part_3 m c K fst fst fst fst fst fst fst)
    isplitr; · iexact HR
    isplitr; · iexact HL
    isplitl [Hxa3]; · iexact Hxa3
    isplitl [Hst3]; · iexact Hst3
    isplitl [Ht3]; · iexact Ht3
    isplitl [Hxa4]; · iexact Hxa4
    isplitl [Hst4]; · iexact Hst4
    isplitl [Ht4]; · iexact Ht4
    isplitl [Hxa5]; · iexact Hxa5
    isplitl [Hst5]; · iexact Hst5
    isplitl [Ht5]; · iexact Ht5
    isplitl [Hxa6]; · iexact Hxa6
    isplitl [Hst6]; · iexact Hst6
    isplitl [Ht6]; · iexact Ht6
    isplitl [Hxa7]; · iexact Hxa7
    isplitl [Hst7]; · iexact Hst7
    isplitl [Ht7]; · iexact Ht7
    isplitl [Hxa8]; · iexact Hxa8
    isplitl [Hst8]; · iexact Hst8
    isplitl [Ht8]; · iexact Ht8
    isplitl [Hxa9]; · iexact Hxa9
    isplitl [Hst9]; · iexact Hst9
    iexact Ht9
  iintro %r3 ⟨Hci3, Hci4, Hci5, Hci6, Hci7, Hci8, Hci9⟩
  -- part 4: input copies 10, 11; the three signals; the barrier wait
  rw [wp_bind]
  iapply (wp_wand (Fr := frame) (wpE := wpE (defs₀ (F := F)) 𝒱₀ (c : Thread nD τ) none) (E := Set.univ)) $$ [Hxa10 Hst10 Ht10 Hxa11 Hst11 Ht11 HO HtbZ Hcz0 Hcz1 Hcz2 Hcz3 Hcz4 Hcz5 Hcz6 Hcz7 HtbX Hcx0 Hcx1 Hcx2 Hcx3 Hcx4 Hcx5 Hcx6 Hcx7 HtbY Hcy0 Hcy1 Hcy2 Hcy3 Hcy4 Hcy5 Hcy6 Hcy7 HcB Hp85]
  · iapply (part_4 m c K _ _ _ _ _ _ _ _ W₀ fst fst fcm fcm fcm fcm fcm fcm fcm fcm fcm fcm fcm fcm fcm fcm fcm fcm fcm fcm fcm fcm fcm fcm fcm fcm)
    isplitr; · iexact HR
    isplitr; · iexact HL
    isplitl [Hxa10]; · iexact Hxa10
    isplitl [Hst10]; · iexact Hst10
    isplitl [Ht10]; · iexact Ht10
    isplitl [Hxa11]; · iexact Hxa11
    isplitl [Hst11]; · iexact Hst11
    isplitl [Ht11]; · iexact Ht11
    isplitl [HO]; · iexact HO
    isplitl [HtbZ]; · iexact HtbZ
    isplitl [Hcz0]; · iexact Hcz0
    isplitl [Hcz1]; · iexact Hcz1
    isplitl [Hcz2]; · iexact Hcz2
    isplitl [Hcz3]; · iexact Hcz3
    isplitl [Hcz4]; · iexact Hcz4
    isplitl [Hcz5]; · iexact Hcz5
    isplitl [Hcz6]; · iexact Hcz6
    isplitl [Hcz7]; · iexact Hcz7
    isplitl [HtbX]; · iexact HtbX
    isplitl [Hcx0]; · iexact Hcx0
    isplitl [Hcx1]; · iexact Hcx1
    isplitl [Hcx2]; · iexact Hcx2
    isplitl [Hcx3]; · iexact Hcx3
    isplitl [Hcx4]; · iexact Hcx4
    isplitl [Hcx5]; · iexact Hcx5
    isplitl [Hcx6]; · iexact Hcx6
    isplitl [Hcx7]; · iexact Hcx7
    isplitl [HtbY]; · iexact HtbY
    isplitl [Hcy0]; · iexact Hcy0
    isplitl [Hcy1]; · iexact Hcy1
    isplitl [Hcy2]; · iexact Hcy2
    isplitl [Hcy3]; · iexact Hcy3
    isplitl [Hcy4]; · iexact Hcy4
    isplitl [Hcy5]; · iexact Hcy5
    isplitl [Hcy6]; · iexact Hcy6
    isplitl [Hcy7]; · iexact Hcy7
    isplitl [HcB]; · iexact HcB
    iexact Hp85
  iintro %r4 ⟨Hci10, Hci11, ⟨%W1, HO⟩, HpB, ⟨%fnz0, Hnz0⟩, ⟨%fnz1, Hnz1⟩, ⟨%fnz2, Hnz2⟩, ⟨%fnz3, Hnz3⟩, ⟨%fnz4, Hnz4⟩, ⟨%fnz5, Hnz5⟩, ⟨%fnz6, Hnz6⟩, ⟨%fnz7, Hnz7⟩, ⟨%fnx0, Hnx0⟩, ⟨%fnx1, Hnx1⟩, ⟨%fnx2, Hnx2⟩, ⟨%fnx3, Hnx3⟩, ⟨%fnx4, Hnx4⟩, ⟨%fnx5, Hnx5⟩, ⟨%fnx6, Hnx6⟩, ⟨%fnx7, Hnx7⟩, ⟨%fny0, Hny0⟩, ⟨%fny1, Hny1⟩, ⟨%fny2, Hny2⟩, ⟨%fny3, Hny3⟩, ⟨%fny4, Hny4⟩, ⟨%fny5, Hny5⟩, ⟨%fny6, Hny6⟩, ⟨%fny7, Hny7⟩⟩
  -- the conversion buffer by its row ranges; the neighbours' receive tokens by cell
  ihave Hmi := (cut_in_MI c fullShare fmi).1 $$ Hmi
  ihave Hmi := (Entails.of_eq (bigSep_fin12 _)) $$ Hmi
  icases Hmi with ⟨Hmi0, Hmi1, Hmi2, Hmi3, Hmi4, Hmi5, Hmi6, Hmi7, Hmi8, Hmi9, Hmi10, Hmi11⟩
  ihave HtZ := (Entails.of_eq (bigSep_fin8 _)) $$ HtZ
  icases HtZ with ⟨HtZ0, HtZ1, HtZ2, HtZ3, HtZ4, HtZ5, HtZ6, HtZ7⟩
  ihave HtX := (Entails.of_eq (bigSep_fin8 _)) $$ HtX
  icases HtX with ⟨HtX0, HtX1, HtX2, HtX3, HtX4, HtX5, HtX6, HtX7⟩
  ihave HtY := (Entails.of_eq (bigSep_fin8 _)) $$ HtY
  icases HtY with ⟨HtY0, HtY1, HtY2, HtY3, HtY4, HtY5, HtY6, HtY7⟩
  -- part 5: own chunk 0 converted and sent to the z-neighbour
  rw [wp_bind]
  iapply (wp_wand (Fr := frame) (wpE := wpE (defs₀ (F := F)) 𝒱₀ (c : Thread nD τ) none) (E := Set.univ)) $$ [Hci0 HO Hp0 Hmi0 Hnz0 Ht12 HtZ0]
  · iapply (part_5 m c K _ _ _ _ _ _ _ _ W1 fmi fnz0)
    isplitr; · iexact HR
    isplitr; · iexact HL
    isplitl [Hci0]; · iexact Hci0
    isplitl [HO]; · iexact HO
    isplitl [Hp0]; · iexact Hp0
    isplitl [Hmi0]; · iexact Hmi0
    isplitl [Hnz0]; · iexact Hnz0
    isplitl [Ht12]; · iexact Ht12
    iexact HtZ0
  iintro %r5 ⟨⟨%W2, HO⟩, Hq0, Hst0, Hxa0, HmiR0, Hcs12⟩
  -- part 6: own chunk 1 converted and sent; own chunk 2 converted
  rw [wp_bind]
  iapply (wp_wand (Fr := frame) (wpE := wpE (defs₀ (F := F)) 𝒱₀ (c : Thread nD τ) none) (E := Set.univ)) $$ [Hci1 HO Hp1 Hmi1 Hnz1 Ht13 HtZ1 Hci2 Hp2 Hmi2]
  · iapply (part_6 m c K _ _ _ _ _ W2 fmi fnz1 fmi)
    isplitr; · iexact HR
    isplitr; · iexact HL
    isplitl [Hci1]; · iexact Hci1
    isplitl [HO]; · iexact HO
    isplitl [Hp1]; · iexact Hp1
    isplitl [Hmi1]; · iexact Hmi1
    isplitl [Hnz1]; · iexact Hnz1
    isplitl [Ht13]; · iexact Ht13
    isplitl [HtZ1]; · iexact HtZ1
    isplitl [Hci2]; · iexact Hci2
    isplitl [Hp2]; · iexact Hp2
    iexact Hmi2
  iintro %r6 ⟨⟨%W3, HO⟩, Hq1, Hst1, Hxa1, HmiR1, Hcs13, Hq2, Hst2, Hxa2, HmiF2⟩
  -- part 7: own chunk 2 sent; own chunk 3 converted and sent; input 4 waited
  rw [wp_bind]
  iapply (wp_wand (Fr := frame) (wpE := wpE (defs₀ (F := F)) 𝒱₀ (c : Thread nD τ) none) (E := Set.univ)) $$ [HmiF2 Hnz2 HO Ht14 HtZ2 Hci3 Hp3 Hmi3 Hnz3 Ht15 HtZ3 Hci4 Hp4]
  · iapply (part_7 m c K _ _ _ _ _ _ W3 fnz2 fmi fnz3)
    isplitr; · iexact HR
    isplitr; · iexact HL
    isplitl [HmiF2]; · iexact HmiF2
    isplitl [Hnz2]; · iexact Hnz2
    isplitl [HO]; · iexact HO
    isplitl [Ht14]; · iexact Ht14
    isplitl [HtZ2]; · iexact HtZ2
    isplitl [Hci3]; · iexact Hci3
    isplitl [Hp3]; · iexact Hp3
    isplitl [Hmi3]; · iexact Hmi3
    isplitl [Hnz3]; · iexact Hnz3
    isplitl [Ht15]; · iexact Ht15
    isplitl [HtZ3]; · iexact HtZ3
    isplitl [Hci4]; · iexact Hci4
    iexact Hp4
  iintro %r7 ⟨⟨%W4, HO⟩, HmiR2, Hcs14, Hq3, Hst3, Hxa3, HmiR3, Hcs15, Hq4, Hst4, Hxa4⟩
  -- the receive credits by cell; the result by its row ranges
  ihave HcRecv := (Entails.of_eq (bigSep_ownRecv _)) $$ HcRecv
  icases HcRecv with ⟨Hcr20, Hcr21, Hcr22, Hcr23, Hcr24, Hcr25, Hcr26, Hcr27, Hcr36, Hcr37, Hcr38, Hcr39, Hcr40, Hcr41, Hcr42, Hcr43, Hcr52, Hcr53, Hcr54, Hcr55, Hcr56, Hcr57, Hcr58, Hcr59⟩
  ihave Hou := (cut_ou c fou).1 $$ Hou
  icases Hou with ⟨HouM, Houz, Houx, Houy⟩
  ihave Houz := (Entails.of_eq (bigSep_fin8 _)) $$ Houz
  icases Houz with ⟨Houz0, Houz1, Houz2, Houz3, Houz4, Houz5, Houz6, Houz7⟩
  ihave Houx := (Entails.of_eq (bigSep_fin8 _)) $$ Houx
  icases Houx with ⟨Houx0, Houx1, Houx2, Houx3, Houx4, Houx5, Houx6, Houx7⟩
  ihave Houy := (Entails.of_eq (bigSep_fin8 _)) $$ Houy
  icases Houy with ⟨Houy0, Houy1, Houy2, Houy3, Houy4, Houy5, Houy6, Houy7⟩
  -- part 8: own chunk 4 converted and sent; own chunk 5 converted
  rw [wp_bind]
  iapply (wp_wand (Fr := frame) (wpE := wpE (defs₀ (F := F)) 𝒱₀ (c : Thread nD τ) none) (E := Set.univ)) $$ [Hst4 Hmi4 Hnz4 HO Ht16 HtZ4 Hci5 Hp5 Hmi5]
  · iapply (part_8 m c K _ _ _ _ _ W4 fmi fnz4 fmi)
    isplitr; · iexact HR
    isplitr; · iexact HL
    isplitl [Hst4]; · iexact Hst4
    isplitl [Hmi4]; · iexact Hmi4
    isplitl [Hnz4]; · iexact Hnz4
    isplitl [HO]; · iexact HO
    isplitl [Ht16]; · iexact Ht16
    isplitl [HtZ4]; · iexact HtZ4
    isplitl [Hci5]; · iexact Hci5
    isplitl [Hp5]; · iexact Hp5
    iexact Hmi5
  iintro %r8 ⟨⟨%W5, HO⟩, Hst4, HmiR4, Hcs16, Hq5, Hst5, Hxa5, HmiF5⟩
  -- part 9: own chunk 5 sent; own chunk 6 converted and sent; input 7 waited and loaded
  rw [wp_bind]
  iapply (wp_wand (Fr := frame) (wpE := wpE (defs₀ (F := F)) 𝒱₀ (c : Thread nD τ) none) (E := Set.univ)) $$ [HmiF5 Hnz5 HO Ht17 HtZ5 Hci6 Hp6 Hmi6 Hnz6 Ht18 HtZ6 Hci7 Hp7]
  · iapply (part_9 m c K _ _ _ _ _ W5 fnz5 fmi fnz6)
    isplitr; · iexact HR
    isplitr; · iexact HL
    isplitl [HmiF5]; · iexact HmiF5
    isplitl [Hnz5]; · iexact Hnz5
    isplitl [HO]; · iexact HO
    isplitl [Ht17]; · iexact Ht17
    isplitl [HtZ5]; · iexact HtZ5
    isplitl [Hci6]; · iexact Hci6
    isplitl [Hp6]; · iexact Hp6
    isplitl [Hmi6]; · iexact Hmi6
    isplitl [Hnz6]; · iexact Hnz6
    isplitl [Ht18]; · iexact Ht18
    isplitl [HtZ6]; · iexact HtZ6
    isplitl [Hci7]; · iexact Hci7
    iexact Hp7
  iintro %r9 ⟨%hv9, ⟨%W6, HO⟩, HmiR5, Hcs17, Hq6, Hst6, Hxa6, HmiR6, Hcs18, Hq7, Hst7, Hxa7⟩
  -- part 10: own chunk 7 stored and sent; the wait for the z-neighbour's chunk 0
  rw [wp_bind]
  iapply (wp_wand (Fr := frame) (wpE := wpE (defs₀ (F := F)) 𝒱₀ (c : Thread nD τ) none) (E := Set.univ)) $$ [Hmi7 Hnz7 HO Ht19 HtZ7 Hcr20 Hp20]
  · iapply (part_10 m c K _ _ _ _ _ _ r9 hv9 W6 fmi fnz7)
    isplitr; · iexact HR
    isplitr; · iexact HL
    isplitl [Hmi7]; · iexact Hmi7
    isplitl [Hnz7]; · iexact Hnz7
    isplitl [HO]; · iexact HO
    isplitl [Ht19]; · iexact Ht19
    isplitl [HtZ7]; · iexact HtZ7
    isplitl [Hcr20]; · iexact Hcr20
    iexact Hp20
  iintro %r10 ⟨⟨%W7, HO⟩, HmiR7, Hcs19, Hq20, HcmO0⟩
  -- part 11: chunk 0 forwarded to x and y and copied to the result; chunk 1 awaited
  rw [wp_bind]
  iapply (wp_wand (Fr := frame) (wpE := wpE (defs₀ (F := F)) 𝒱₀ (c : Thread nD τ) none) (E := Set.univ)) $$ [HcmO0 Hnx0 HO Ht28 HtX0 Hny0 Ht44 HtY0 Houz0 Ht60 Hcr21 Hp21]
  · iapply (part_11 m c K _ _ _ _ _ _ _ _ W7 fnx0 fny0 fou)
    isplitr; · iexact HR
    isplitr; · iexact HL
    isplitl [HcmO0]; · iexact HcmO0
    isplitl [Hnx0]; · iexact Hnx0
    isplitl [HO]; · iexact HO
    isplitl [Ht28]; · iexact Ht28
    isplitl [HtX0]; · iexact HtX0
    isplitl [Hny0]; · iexact Hny0
    isplitl [Ht44]; · iexact Ht44
    isplitl [HtY0]; · iexact HtY0
    isplitl [Houz0]; · iexact Houz0
    isplitl [Ht60]; · iexact Ht60
    isplitl [Hcr21]; · iexact Hcr21
    iexact Hp21
  iintro %r11 ⟨Hcs28, Hcs44, Hcs60, ⟨%W8, HO⟩, Hq21, HcmO1⟩
  -- part 12: chunk 1 forwarded and copied
  rw [wp_bind]
  iapply (wp_wand (Fr := frame) (wpE := wpE (defs₀ (F := F)) 𝒱₀ (c : Thread nD τ) none) (E := Set.univ)) $$ [HcmO1 Hnx1 HO Ht29 HtX1 Hny1 Ht45 HtY1 Houz1 Ht61]
  · iapply (part_12 m c K _ _ _ _ _ _ _ _ W8 fnx1 fny1 fou)
    isplitr; · iexact HR
    isplitr; · iexact HL
    isplitl [HcmO1]; · iexact HcmO1
    isplitl [Hnx1]; · iexact Hnx1
    isplitl [HO]; · iexact HO
    isplitl [Ht29]; · iexact Ht29
    isplitl [HtX1]; · iexact HtX1
    isplitl [Hny1]; · iexact Hny1
    isplitl [Ht45]; · iexact Ht45
    isplitl [HtY1]; · iexact HtY1
    isplitl [Houz1]; · iexact Houz1
    iexact Ht61
  iintro %r12 ⟨Hcs29, Hcs45, Hcs61, ⟨%W9, HO⟩⟩
  -- part 13: the y-neighbour's chunk 0 awaited, copied and forwarded to x; chunk 2 awaited
  rw [wp_bind]
  iapply (wp_wand (Fr := frame) (wpE := wpE (defs₀ (F := F)) 𝒱₀ (c : Thread nD τ) none) (E := Set.univ)) $$ [Hcr52 HO Hp52 Houy0 Ht76 Hnx6 Ht34 HtX6 Hcr22 Hp22]
  · iapply (part_13 m c K _ _ _ _ _ _ _ W9 fou fnx6)
    isplitr; · iexact HR
    isplitr; · iexact HL
    isplitl [Hcr52]; · iexact Hcr52
    isplitl [HO]; · iexact HO
    isplitl [Hp52]; · iexact Hp52
    isplitl [Houy0]; · iexact Houy0
    isplitl [Ht76]; · iexact Ht76
    isplitl [Hnx6]; · iexact Hnx6
    isplitl [Ht34]; · iexact Ht34
    isplitl [HtX6]; · iexact HtX6
    isplitl [Hcr22]; · iexact Hcr22
    iexact Hp22
  iintro %r13 ⟨Hcs76, Hcs34, ⟨%W10, HO⟩, Hq52, Hq22, HcmO2⟩
  -- part 14: chunk 2 forwarded and copied
  rw [wp_bind]
  iapply (wp_wand (Fr := frame) (wpE := wpE (defs₀ (F := F)) 𝒱₀ (c : Thread nD τ) none) (E := Set.univ)) $$ [HcmO2 Hnx2 HO Ht30 HtX2 Hny2 Ht46 HtY2 Houz2 Ht62]
  · iapply (part_14 m c K _ _ _ _ _ _ _ _ _ W10 fnx2 fny2 fou)
    isplitr; · iexact HR
    isplitr; · iexact HL
    isplitl [HcmO2]; · iexact HcmO2
    isplitl [Hnx2]; · iexact Hnx2
    isplitl [HO]; · iexact HO
    isplitl [Ht30]; · iexact Ht30
    isplitl [HtX2]; · iexact HtX2
    isplitl [Hny2]; · iexact Hny2
    isplitl [Ht46]; · iexact Ht46
    isplitl [HtY2]; · iexact HtY2
    isplitl [Houz2]; · iexact Houz2
    iexact Ht62
  iintro %r14 ⟨Hcs30, Hcs46, Hcs62, ⟨%W11, HO⟩⟩
  -- part 15: chunk 3 awaited, forwarded and copied
  rw [wp_bind]
  iapply (wp_wand (Fr := frame) (wpE := wpE (defs₀ (F := F)) 𝒱₀ (c : Thread nD τ) none) (E := Set.univ)) $$ [Hcr23 HO Hp23 Hnx3 Ht31 HtX3 Hny3 Ht47 HtY3 Houz3 Ht63]
  · iapply (part_15 m c K _ _ _ _ _ _ _ W11 fnx3 fny3 fou)
    isplitr; · iexact HR
    isplitr; · iexact HL
    isplitl [Hcr23]; · iexact Hcr23
    isplitl [HO]; · iexact HO
    isplitl [Hp23]; · iexact Hp23
    isplitl [Hnx3]; · iexact Hnx3
    isplitl [Ht31]; · iexact Ht31
    isplitl [HtX3]; · iexact HtX3
    isplitl [Hny3]; · iexact Hny3
    isplitl [Ht47]; · iexact Ht47
    isplitl [HtY3]; · iexact HtY3
    isplitl [Houz3]; · iexact Houz3
    iexact Ht63
  iintro %r15 ⟨Hcs31, Hcs47, Hcs63, ⟨%W12, HO⟩, Hq23⟩
  -- part 16: the y-neighbour's chunk 1 awaited, copied and forwarded to x
  rw [wp_bind]
  iapply (wp_wand (Fr := frame) (wpE := wpE (defs₀ (F := F)) 𝒱₀ (c : Thread nD τ) none) (E := Set.univ)) $$ [Hcr53 HO Hp53 Houy1 Ht77 Hnx7 Ht35 HtX7]
  · iapply (part_16 m c K _ _ _ _ _ _ _ _ _ W12 fou fnx7)
    isplitr; · iexact HR
    isplitr; · iexact HL
    isplitl [Hcr53]; · iexact Hcr53
    isplitl [HO]; · iexact HO
    isplitl [Hp53]; · iexact Hp53
    isplitl [Houy1]; · iexact Houy1
    isplitl [Ht77]; · iexact Ht77
    isplitl [Hnx7]; · iexact Hnx7
    isplitl [Ht35]; · iexact Ht35
    iexact HtX7
  iintro %r16 ⟨Hcs77, Hcs35, ⟨%W13, HO⟩, Hq53⟩
  -- part 17: the x-neighbour's chunk 2 awaited, copied and forwarded to y; its chunk 3 awaited
  rw [wp_bind]
  iapply (wp_wand (Fr := frame) (wpE := wpE (defs₀ (F := F)) 𝒱₀ (c : Thread nD τ) none) (E := Set.univ)) $$ [Hcr38 HO Hp38 Houx2 Ht70 Hny6 Ht50 HtY6 Hcr39 Hp39]
  · iapply (part_17 m c K _ _ _ _ _ _ _ _ _ W13 fou fny6)
    isplitr; · iexact HR
    isplitr; · iexact HL
    isplitl [Hcr38]; · iexact Hcr38
    isplitl [HO]; · iexact HO
    isplitl [Hp38]; · iexact Hp38
    isplitl [Houx2]; · iexact Houx2
    isplitl [Ht70]; · iexact Ht70
    isplitl [Hny6]; · iexact Hny6
    isplitl [Ht50]; · iexact Ht50
    isplitl [HtY6]; · iexact HtY6
    isplitl [Hcr39]; · iexact Hcr39
    iexact Hp39
  iintro %r17 ⟨Hcs70, Hcs50, ⟨%W14, HO⟩, Hq38, Hq39, HcmX3⟩
  -- part 18: the x-neighbour's chunk 3 copied and forwarded to y; chunk 4 awaited
  rw [wp_bind]
  iapply (wp_wand (Fr := frame) (wpE := wpE (defs₀ (F := F)) 𝒱₀ (c : Thread nD τ) none) (E := Set.univ)) $$ [HcmX3 Houx3 Ht71 HO Hny7 Ht51 HtY7 Hcr24 Hp24]
  · iapply (part_18 m c K _ _ _ _ _ _ _ W14 fou fny7)
    isplitr; · iexact HR
    isplitr; · iexact HL
    isplitl [HcmX3]; · iexact HcmX3
    isplitl [Houx3]; · iexact Houx3
    isplitl [Ht71]; · iexact Ht71
    isplitl [HO]; · iexact HO
    isplitl [Hny7]; · iexact Hny7
    isplitl [Ht51]; · iexact Ht51
    isplitl [HtY7]; · iexact HtY7
    isplitl [Hcr24]; · iexact Hcr24
    iexact Hp24
  iintro %r18 ⟨Hcs71, Hcs51, ⟨%W15, HO⟩, Hq24, HcmO4⟩
  -- part 19: chunk 4 forwarded to x and copied; chunk 5 awaited and forwarded to x
  rw [wp_bind]
  iapply (wp_wand (Fr := frame) (wpE := wpE (defs₀ (F := F)) 𝒱₀ (c : Thread nD τ) none) (E := Set.univ)) $$ [HcmO4 Hnx4 HO Ht32 HtX4 Houz4 Ht64 Hcr25 Hp25 Hnx5 Ht33 HtX5]
  · iapply (part_19 m c K _ _ _ _ _ _ _ _ _ W15 fnx4 fou fnx5)
    isplitr; · iexact HR
    isplitr; · iexact HL
    isplitl [HcmO4]; · iexact HcmO4
    isplitl [Hnx4]; · iexact Hnx4
    isplitl [HO]; · iexact HO
    isplitl [Ht32]; · iexact Ht32
    isplitl [HtX4]; · iexact HtX4
    isplitl [Houz4]; · iexact Houz4
    isplitl [Ht64]; · iexact Ht64
    isplitl [Hcr25]; · iexact Hcr25
    isplitl [Hp25]; · iexact Hp25
    isplitl [Hnx5]; · iexact Hnx5
    isplitl [Ht33]; · iexact Ht33
    iexact HtX5
  iintro %r19 ⟨⟨%W16, HO⟩, Hcs32, Hcs64, Hq25, HcmO5R, Hcs33⟩
  -- part 20: chunk 5 copied; chunk 6 awaited, forwarded to y and copied
  rw [wp_bind]
  iapply (wp_wand (Fr := frame) (wpE := wpE (defs₀ (F := F)) 𝒱₀ (c : Thread nD τ) none) (E := Set.univ)) $$ [HcmO5R Houz5 Ht65 Hcr26 HO Hp26 Hny4 Ht48 HtY4 Houz6 Ht66]
  · iapply (part_20 m c K _ _ _ _ _ _ _ _ W16 fou fny4 fou)
    isplitr; · iexact HR
    isplitr; · iexact HL
    isplitl [HcmO5R]; · iexact HcmO5R
    isplitl [Houz5]; · iexact Houz5
    isplitl [Ht65]; · iexact Ht65
    isplitl [Hcr26]; · iexact Hcr26
    isplitl [HO]; · iexact HO
    isplitl [Hp26]; · iexact Hp26
    isplitl [Hny4]; · iexact Hny4
    isplitl [Ht48]; · iexact Ht48
    isplitl [HtY4]; · iexact HtY4
    isplitl [Houz6]; · iexact Houz6
    iexact Ht66
  iintro %r20 ⟨Hcs65, ⟨%W17, HO⟩, Hq26, Hcs48, Hcs66⟩
  -- part 21: chunk 7 awaited, forwarded to y and copied; input 8 waited and loaded
  rw [wp_bind]
  iapply (wp_wand (Fr := frame) (wpE := wpE (defs₀ (F := F)) 𝒱₀ (c : Thread nD τ) none) (E := Set.univ)) $$ [Hcr27 HO Hp27 Hny5 Ht49 HtY5 Houz7 Ht67 Hci8 Hp8]
  · iapply (part_21 m c K _ _ _ _ _ _ _ _ W17 fny5 fou)
    isplitr; · iexact HR
    isplitr; · iexact HL
    isplitl [Hcr27]; · iexact Hcr27
    isplitl [HO]; · iexact HO
    isplitl [Hp27]; · iexact Hp27
    isplitl [Hny5]; · iexact Hny5
    isplitl [Ht49]; · iexact Ht49
    isplitl [HtY5]; · iexact HtY5
    isplitl [Houz7]; · iexact Houz7
    isplitl [Ht67]; · iexact Ht67
    isplitl [Hci8]; · iexact Hci8
    iexact Hp8
  iintro %r21 ⟨%hv21, ⟨%W18, HO⟩, Hq27, Hcs49, Hcs67, Hq8, Hst8, Hxa8⟩
  -- part 22: input 8 stored; inputs 9, 10, 11 waited, loaded and stored
  rw [wp_bind]
  iapply (wp_wand (Fr := frame) (wpE := wpE (defs₀ (F := F)) 𝒱₀ (c : Thread nD τ) none) (E := Set.univ)) $$ [Hmi8 Hci9 HO Hp9 Hmi9 Hci10 Hp10 Hmi10 Hci11 Hp11 Hmi11]
  · iapply (part_22 m c K _ _ _ r21 W18 hv21 fmi fmi fmi fmi)
    isplitr; · iexact HR
    isplitr; · iexact HL
    isplitl [Hmi8]; · iexact Hmi8
    isplitl [Hci9]; · iexact Hci9
    isplitl [HO]; · iexact HO
    isplitl [Hp9]; · iexact Hp9
    isplitl [Hmi9]; · iexact Hmi9
    isplitl [Hci10]; · iexact Hci10
    isplitl [Hp10]; · iexact Hp10
    isplitl [Hmi10]; · iexact Hmi10
    isplitl [Hci11]; · iexact Hci11
    isplitl [Hp11]; · iexact Hp11
    iexact Hmi11
  iintro %r22 ⟨HmiF8, ⟨%W19, HO⟩, Hq9, Hst9, Hxa9, HmiF9, Hq10, Hst10, Hxa10, HmiF10, Hq11, Hst11, Hxa11, HmiF11⟩
  -- the four last ranges of the conversion buffer halved; the twelve right halves joined into the whole buffer's right half
  ihave H8 := (pa_halves c MI (inOff c 8) (inLen 8) (in_inb c 8) fullShare (mineV m c)) $$ HmiF8
  icases H8 with ⟨HmiL8, HmiR8⟩
  ihave H9 := (pa_halves c MI (inOff c 9) (inLen 9) (in_inb c 9) fullShare (mineV m c)) $$ HmiF9
  icases H9 with ⟨HmiL9, HmiR9⟩
  ihave H10 := (pa_halves c MI (inOff c 10) (inLen 10) (in_inb c 10) fullShare (mineV m c)) $$ HmiF10
  icases H10 with ⟨HmiL10, HmiR10⟩
  ihave H11 := (pa_halves c MI (inOff c 11) (inLen 11) (in_inb c 11) fullShare (mineV m c)) $$ HmiF11
  icases H11 with ⟨HmiL11, HmiR11⟩
  -- part 23: the conversion buffer copied to the device's own half of the result; the x-neighbour's chunks 0, 1 awaited and copied
  rw [wp_bind]
  iapply (wp_wand (Fr := frame) (wpE := wpE (defs₀ (F := F)) 𝒱₀ (c : Thread nD τ) none) (E := Set.univ)) $$ [HmiR0 HmiR1 HmiR2 HmiR3 HmiR4 HmiR5 HmiR6 HmiR7 HmiR8 HmiR9 HmiR10 HmiR11 HouM Ht84 Hcr36 HO Hp36 Houx0 Ht68 Hcr37 Hp37 Houx1 Ht69]
  · iapply (part_23 m c K _ _ _ _ _ _ W19 fou fou fou)
    isplitr; · iexact HR
    isplitr; · iexact HL
    isplitl [HmiR0 HmiR1 HmiR2 HmiR3 HmiR4 HmiR5 HmiR6 HmiR7 HmiR8 HmiR9 HmiR10 HmiR11]
    · iapply (join_mi_sR c (mineV m c)).1
      rw [bigSep_fin12]
      isplitl [HmiR0]; · iexact HmiR0
      isplitl [HmiR1]; · iexact HmiR1
      isplitl [HmiR2]; · iexact HmiR2
      isplitl [HmiR3]; · iexact HmiR3
      isplitl [HmiR4]; · iexact HmiR4
      isplitl [HmiR5]; · iexact HmiR5
      isplitl [HmiR6]; · iexact HmiR6
      isplitl [HmiR7]; · iexact HmiR7
      isplitl [HmiR8]; · iexact HmiR8
      isplitl [HmiR9]; · iexact HmiR9
      isplitl [HmiR10]; · iexact HmiR10
      iexact HmiR11
    isplitl [HouM]; · iexact HouM
    isplitl [Ht84]; · iexact Ht84
    isplitl [Hcr36]; · iexact Hcr36
    isplitl [HO]; · iexact HO
    isplitl [Hp36]; · iexact Hp36
    isplitl [Houx0]; · iexact Houx0
    isplitl [Ht68]; · iexact Ht68
    isplitl [Hcr37]; · iexact Hcr37
    isplitl [Hp37]; · iexact Hp37
    isplitl [Houx1]; · iexact Houx1
    iexact Ht69
  iintro %r23 ⟨Hcs84, ⟨%W20, HO⟩, Hq36, Hcs68, Hq37, Hcs69⟩
  -- part 24: the x-neighbour's 704-region chunks awaited and copied
  rw [wp_bind]
  iapply (wp_wand (Fr := frame) (wpE := wpE (defs₀ (F := F)) 𝒱₀ (c : Thread nD τ) none) (E := Set.univ)) $$ [Hcr40 HO Hp40 Houx4 Ht72 Hcr41 Hp41 Houx5 Ht73]
  · iapply (part_24 m c K _ _ _ _ _ _ W20 fou fou)
    isplitr; · iexact HR
    isplitr; · iexact HL
    isplitl [Hcr40]; · iexact Hcr40
    isplitl [HO]; · iexact HO
    isplitl [Hp40]; · iexact Hp40
    isplitl [Houx4]; · iexact Houx4
    isplitl [Ht72]; · iexact Ht72
    isplitl [Hcr41]; · iexact Hcr41
    isplitl [Hp41]; · iexact Hp41
    isplitl [Houx5]; · iexact Houx5
    iexact Ht73
  iintro %r24 ⟨⟨%W21, HO⟩, Hq40, Hcs72, Hq41, Hcs73⟩
  -- part 25: the diagonal's first two chunks awaited and copied
  rw [wp_bind]
  iapply (wp_wand (Fr := frame) (wpE := wpE (defs₀ (F := F)) 𝒱₀ (c : Thread nD τ) none) (E := Set.univ)) $$ [Hcr42 HO Hp42 Houx6 Ht74 Hcr43 Hp43 Houx7 Ht75]
  · iapply (part_25 m c K _ _ _ _ _ _ _ W21 fou fou)
    isplitr; · iexact HR
    isplitr; · iexact HL
    isplitl [Hcr42]; · iexact Hcr42
    isplitl [HO]; · iexact HO
    isplitl [Hp42]; · iexact Hp42
    isplitl [Houx6]; · iexact Houx6
    isplitl [Ht74]; · iexact Ht74
    isplitl [Hcr43]; · iexact Hcr43
    isplitl [Hp43]; · iexact Hp43
    isplitl [Houx7]; · iexact Houx7
    iexact Ht75
  iintro %r25 ⟨⟨%W22, HO⟩, Hq42, Hcs74, Hq43, Hcs75⟩
  -- part 26: the y-neighbour's chunks 2, 3 awaited and copied
  rw [wp_bind]
  iapply (wp_wand (Fr := frame) (wpE := wpE (defs₀ (F := F)) 𝒱₀ (c : Thread nD τ) none) (E := Set.univ)) $$ [Hcr54 HO Hp54 Houy2 Ht78 Hcr55 Hp55 Houy3 Ht79]
  · iapply (part_26 m c K _ _ _ _ _ _ _ _ W22 fou fou)
    isplitr; · iexact HR
    isplitr; · iexact HL
    isplitl [Hcr54]; · iexact Hcr54
    isplitl [HO]; · iexact HO
    isplitl [Hp54]; · iexact Hp54
    isplitl [Houy2]; · iexact Houy2
    isplitl [Ht78]; · iexact Ht78
    isplitl [Hcr55]; · iexact Hcr55
    isplitl [Hp55]; · iexact Hp55
    isplitl [Houy3]; · iexact Houy3
    iexact Ht79
  iintro %r26 ⟨⟨%W23, HO⟩, Hq54, Hcs78, Hq55, Hcs79⟩
  -- part 27: the y-neighbour's 704-region chunks awaited and copied
  rw [wp_bind]
  iapply (wp_wand (Fr := frame) (wpE := wpE (defs₀ (F := F)) 𝒱₀ (c : Thread nD τ) none) (E := Set.univ)) $$ [Hcr56 HO Hp56 Houy4 Ht80 Hcr57 Hp57 Houy5 Ht81]
  · iapply (part_27 m c K _ _ _ _ _ _ W23 fou fou)
    isplitr; · iexact HR
    isplitr; · iexact HL
    isplitl [Hcr56]; · iexact Hcr56
    isplitl [HO]; · iexact HO
    isplitl [Hp56]; · iexact Hp56
    isplitl [Houy4]; · iexact Houy4
    isplitl [Ht80]; · iexact Ht80
    isplitl [Hcr57]; · iexact Hcr57
    isplitl [Hp57]; · iexact Hp57
    isplitl [Houy5]; · iexact Houy5
    iexact Ht81
  iintro %r27 ⟨⟨%W24, HO⟩, Hq56, Hcs80, Hq57, Hcs81⟩
  -- part 28: the diagonal's last two chunks awaited and copied; the first two z-sends waited
  rw [wp_bind]
  iapply (wp_wand (Fr := frame) (wpE := wpE (defs₀ (F := F)) 𝒱₀ (c : Thread nD τ) none) (E := Set.univ)) $$ [Hcr58 HO Hp58 Houy6 Ht82 Hcr59 Hp59 Houy7 Ht83 Hcs12 Hp12 Hcs13 Hp13]
  · iapply (part_28 m c K _ _ _ _ _ _ W24 fou fou)
    isplitr; · iexact HR
    isplitr; · iexact HL
    isplitl [Hcr58]; · iexact Hcr58
    isplitl [HO]; · iexact HO
    isplitl [Hp58]; · iexact Hp58
    isplitl [Houy6]; · iexact Houy6
    isplitl [Ht82]; · iexact Ht82
    isplitl [Hcr59]; · iexact Hcr59
    isplitl [Hp59]; · iexact Hp59
    isplitl [Houy7]; · iexact Houy7
    isplitl [Ht83]; · iexact Ht83
    isplitl [Hcs12]; · iexact Hcs12
    isplitl [Hp12]; · iexact Hp12
    isplitl [Hcs13]; · iexact Hcs13
    iexact Hp13
  iintro %r28 ⟨⟨%W25, HO⟩, Hq58, Hcs82, Hq59, Hcs83, Hq12, HmiL0, Hq13, HmiL1⟩
  -- every payment is made: the device owes nothing
  ihave HO := (Entails.of_eq (congrArg (fun O => (owes (c : Thread nD τ) O W25 : sProp 𝕄)) (owedAfter_all c))) $$ HO
  -- part 29: the z-sends 2 … 7 waited
  rw [wp_bind]
  iapply (wp_wand (Fr := frame) (wpE := wpE (defs₀ (F := F)) 𝒱₀ (c : Thread nD τ) none) (E := Set.univ)) $$ [HO Hcs14 Hp14 Hcs15 Hp15 Hcs16 Hp16 Hcs17 Hp17 Hcs18 Hp18 Hcs19 Hp19]
  · iapply (part_29 m c K _)
    isplitr; · iexact HR
    isplitl [HO]; · iexact HO
    isplitl [Hcs14 Hp14]; · isplitl [Hcs14]; · iexact Hcs14
                            iexact Hp14
    isplitl [Hcs15 Hp15]; · isplitl [Hcs15]; · iexact Hcs15
                            iexact Hp15
    isplitl [Hcs16 Hp16]; · isplitl [Hcs16]; · iexact Hcs16
                            iexact Hp16
    isplitl [Hcs17 Hp17]; · isplitl [Hcs17]; · iexact Hcs17
                            iexact Hp17
    isplitl [Hcs18 Hp18]; · isplitl [Hcs18]; · iexact Hcs18
                            iexact Hp18
    isplitl [Hcs19]; · iexact Hcs19
    iexact Hp19
  iintro %r29 ⟨⟨%Wf29, HO⟩, ⟨Hq14, HpZ2⟩, ⟨Hq15, HpZ3⟩, ⟨Hq16, HpZ4⟩, ⟨Hq17, HpZ5⟩, ⟨Hq18, HpZ6⟩, ⟨Hq19, HpZ7⟩⟩
  -- part 30: the forwards x0 y0 x1 y1 x6 x2 waited
  rw [wp_bind]
  iapply (wp_wand (Fr := frame) (wpE := wpE (defs₀ (F := F)) 𝒱₀ (c : Thread nD τ) none) (E := Set.univ)) $$ [HO Hcs28 Hp28 Hcs44 Hp44 Hcs29 Hp29 Hcs45 Hp45 Hcs34 Hp34 Hcs30 Hp30]
  · iapply (part_30 m c K _)
    isplitr; · iexact HR
    isplitl [HO]; · iexact HO
    isplitl [Hcs28 Hp28]; · isplitl [Hcs28]; · iexact Hcs28
                            iexact Hp28
    isplitl [Hcs44 Hp44]; · isplitl [Hcs44]; · iexact Hcs44
                            iexact Hp44
    isplitl [Hcs29 Hp29]; · isplitl [Hcs29]; · iexact Hcs29
                            iexact Hp29
    isplitl [Hcs45 Hp45]; · isplitl [Hcs45]; · iexact Hcs45
                            iexact Hp45
    isplitl [Hcs34 Hp34]; · isplitl [Hcs34]; · iexact Hcs34
                            iexact Hp34
    isplitl [Hcs30]; · iexact Hcs30
    iexact Hp30
  iintro %r30 ⟨⟨%Wf30, HO⟩, ⟨Hq28, HpX0⟩, ⟨Hq44, HpY0⟩, ⟨Hq29, HpX1⟩, ⟨Hq45, HpY1⟩, ⟨Hq34, HpX6⟩, ⟨Hq30, HpX2⟩⟩
  -- part 31: the forwards y2 x3 y3 x7 y6 y7 waited
  rw [wp_bind]
  iapply (wp_wand (Fr := frame) (wpE := wpE (defs₀ (F := F)) 𝒱₀ (c : Thread nD τ) none) (E := Set.univ)) $$ [HO Hcs46 Hp46 Hcs31 Hp31 Hcs47 Hp47 Hcs35 Hp35 Hcs50 Hp50 Hcs51 Hp51]
  · iapply (part_31 m c K _)
    isplitr; · iexact HR
    isplitl [HO]; · iexact HO
    isplitl [Hcs46 Hp46]; · isplitl [Hcs46]; · iexact Hcs46
                            iexact Hp46
    isplitl [Hcs31 Hp31]; · isplitl [Hcs31]; · iexact Hcs31
                            iexact Hp31
    isplitl [Hcs47 Hp47]; · isplitl [Hcs47]; · iexact Hcs47
                            iexact Hp47
    isplitl [Hcs35 Hp35]; · isplitl [Hcs35]; · iexact Hcs35
                            iexact Hp35
    isplitl [Hcs50 Hp50]; · isplitl [Hcs50]; · iexact Hcs50
                            iexact Hp50
    isplitl [Hcs51]; · iexact Hcs51
    iexact Hp51
  iintro %r31 ⟨⟨%Wf31, HO⟩, ⟨Hq46, HpY2⟩, ⟨Hq31, HpX3⟩, ⟨Hq47, HpY3⟩, ⟨Hq35, HpX7⟩, ⟨Hq50, HpY6⟩, ⟨Hq51, HpY7⟩⟩
  -- part 32: the forwards x4 x5 y4 y5 and the result copies of own chunks 0, 1 waited
  rw [wp_bind]
  iapply (wp_wand (Fr := frame) (wpE := wpE (defs₀ (F := F)) 𝒱₀ (c : Thread nD τ) none) (E := Set.univ)) $$ [HO Hcs32 Hp32 Hcs33 Hp33 Hcs48 Hp48 Hcs49 Hp49 Hcs60 Hp60 Hcs61 Hp61]
  · iapply (part_32 m c K _)
    isplitr; · iexact HR
    isplitl [HO]; · iexact HO
    isplitl [Hcs32 Hp32]; · isplitl [Hcs32]; · iexact Hcs32
                            iexact Hp32
    isplitl [Hcs33 Hp33]; · isplitl [Hcs33]; · iexact Hcs33
                            iexact Hp33
    isplitl [Hcs48 Hp48]; · isplitl [Hcs48]; · iexact Hcs48
                            iexact Hp48
    isplitl [Hcs49 Hp49]; · isplitl [Hcs49]; · iexact Hcs49
                            iexact Hp49
    isplitl [Hcs60 Hp60]; · isplitl [Hcs60]; · iexact Hcs60
                            iexact Hp60
    isplitl [Hcs61]; · iexact Hcs61
    iexact Hp61
  iintro %r32 ⟨⟨%Wf32, HO⟩, ⟨Hq32, HpX4⟩, ⟨Hq33, HpX5⟩, ⟨Hq48, HpY4⟩, ⟨Hq49, HpY5⟩, ⟨Hq60, HpLz0⟩, ⟨Hq61, HpLz1⟩⟩
  -- part 33: result copies waited
  rw [wp_bind]
  iapply (wp_wand (Fr := frame) (wpE := wpE (defs₀ (F := F)) 𝒱₀ (c : Thread nD τ) none) (E := Set.univ)) $$ [HO Hcs76 Hp76 Hcs62 Hp62 Hcs63 Hp63 Hcs77 Hp77 Hcs70 Hp70 Hcs71 Hp71 Hcs64 Hp64 Hcs65 Hp65]
  · iapply (part_33 m c K _)
    isplitr; · iexact HR
    isplitl [HO]; · iexact HO
    isplitl [Hcs76 Hp76]; · isplitl [Hcs76]; · iexact Hcs76
                            iexact Hp76
    isplitl [Hcs62 Hp62]; · isplitl [Hcs62]; · iexact Hcs62
                            iexact Hp62
    isplitl [Hcs63 Hp63]; · isplitl [Hcs63]; · iexact Hcs63
                            iexact Hp63
    isplitl [Hcs77 Hp77]; · isplitl [Hcs77]; · iexact Hcs77
                            iexact Hp77
    isplitl [Hcs70 Hp70]; · isplitl [Hcs70]; · iexact Hcs70
                            iexact Hp70
    isplitl [Hcs71 Hp71]; · isplitl [Hcs71]; · iexact Hcs71
                            iexact Hp71
    isplitl [Hcs64 Hp64]; · isplitl [Hcs64]; · iexact Hcs64
                            iexact Hp64
    isplitl [Hcs65]; · iexact Hcs65
    iexact Hp65
  iintro %r33 ⟨⟨%Wf33, HO⟩, ⟨Hq76, HpLy0⟩, ⟨Hq62, HpLz2⟩, ⟨Hq63, HpLz3⟩, ⟨Hq77, HpLy1⟩, ⟨Hq70, HpLx2⟩, ⟨Hq71, HpLx3⟩, ⟨Hq64, HpLz4⟩, ⟨Hq65, HpLz5⟩⟩
  -- part 34: result copies waited, the copy of the conversion buffer among them
  rw [wp_bind]
  iapply (wp_wand (Fr := frame) (wpE := wpE (defs₀ (F := F)) 𝒱₀ (c : Thread nD τ) none) (E := Set.univ)) $$ [HO Hcs66 Hp66 Hcs67 Hp67 Hcs84 Hp84 Hcs68 Hp68 Hcs69 Hp69 Hcs72 Hp72 Hcs73 Hp73 Hcs74 Hp74]
  · iapply (part_34 m c K _)
    isplitr; · iexact HR
    isplitl [HO]; · iexact HO
    isplitl [Hcs66 Hp66]; · isplitl [Hcs66]; · iexact Hcs66
                            iexact Hp66
    isplitl [Hcs67 Hp67]; · isplitl [Hcs67]; · iexact Hcs67
                            iexact Hp67
    isplitl [Hcs84 Hp84]; · isplitl [Hcs84]; · iexact Hcs84
                            iexact Hp84
    isplitl [Hcs68 Hp68]; · isplitl [Hcs68]; · iexact Hcs68
                            iexact Hp68
    isplitl [Hcs69 Hp69]; · isplitl [Hcs69]; · iexact Hcs69
                            iexact Hp69
    isplitl [Hcs72 Hp72]; · isplitl [Hcs72]; · iexact Hcs72
                            iexact Hp72
    isplitl [Hcs73 Hp73]; · isplitl [Hcs73]; · iexact Hcs73
                            iexact Hp73
    isplitl [Hcs74]; · iexact Hcs74
    iexact Hp74
  iintro %r34 ⟨⟨%Wf34, HO⟩, ⟨Hq66, HpLz6⟩, ⟨Hq67, HpLz7⟩, ⟨Hq84, HpLm⟩, ⟨Hq68, HpLx0⟩, ⟨Hq69, HpLx1⟩, ⟨Hq72, HpLx4⟩, ⟨Hq73, HpLx5⟩, ⟨Hq74, HpLx6⟩⟩
  -- the last seven result copies waited: three at the end of the part sequence, four at the end of the body
  simp only [Prog.lift, Prog.bind_op, Prog.bind_ret, Prog.pure_eq_ret, Prog.bind_assoc]
  iapply (pe_wait0P m c K 75 (by decide) _ rfl Wf34 (payLx m c 7) (dpay_lx m c 7) (ck_lx 7 224 75 (by decide) (by decide) _ _ _)) $$ [Hcs75 Hp75 HO]
  · isplitr; · iexact HR
    isplitl [Hcs75]; · iexact Hcs75
    isplitl [Hp75]; · iexact Hp75
    iexact HO
  iintro ⟨HO, Hq75, HpLx7⟩
  iapply (pe_wait0P m c K 78 (by decide) _ rfl _ (payLy m c 2) (dpay_ly m c 2) (ck_ly 2 168 78 (by decide) (by decide) _ _ _)) $$ [Hcs78 Hp78 HO]
  · isplitr; · iexact HR
    isplitl [Hcs78]; · iexact Hcs78
    isplitl [Hp78]; · iexact Hp78
    iexact HO
  iintro ⟨HO, Hq78, HpLy2⟩
  iapply (pe_wait0P m c K 79 (by decide) _ rfl _ (payLy m c 3) (dpay_ly m c 3) (ck_ly 3 168 79 (by decide) (by decide) _ _ _)) $$ [Hcs79 Hp79 HO]
  · isplitr; · iexact HR
    isplitl [Hcs79]; · iexact Hcs79
    isplitl [Hp79]; · iexact Hp79
    iexact HO
  iintro ⟨HO, Hq79, HpLy3⟩
  iapply (pe_wait0P m c K 80 (by decide) _ rfl _ (payLy m c 4) (dpay_ly m c 4) (ck_ly 4 176 80 (by decide) (by decide) _ _ _)) $$ [Hcs80 Hp80 HO]
  · isplitr; · iexact HR
    isplitl [Hcs80]; · iexact Hcs80
    isplitl [Hp80]; · iexact Hp80
    iexact HO
  iintro ⟨HO, Hq80, HpLy4⟩
  iapply (pe_wait0P m c K 81 (by decide) _ rfl _ (payLy m c 5) (dpay_ly m c 5) (ck_ly 5 176 81 (by decide) (by decide) _ _ _)) $$ [Hcs81 Hp81 HO]
  · isplitr; · iexact HR
    isplitl [Hcs81]; · iexact Hcs81
    isplitl [Hp81]; · iexact Hp81
    iexact HO
  iintro ⟨HO, Hq81, HpLy5⟩
  iapply (pe_wait0P m c K 82 (by decide) _ rfl _ (payLy m c 6) (dpay_ly m c 6) (ck_ly 6 168 82 (by decide) (by decide) _ _ _)) $$ [Hcs82 Hp82 HO]
  · isplitr; · iexact HR
    isplitl [Hcs82]; · iexact Hcs82
    isplitl [Hp82]; · iexact Hp82
    iexact HO
  iintro ⟨HO, Hq82, HpLy6⟩
  iapply (pe_wait0P m c K 83 (by decide) _ rfl _ (payLy m c 7) (dpay_ly m c 7) (ck_ly 7 168 83 (by decide) (by decide) _ _ _)) $$ [Hcs83 Hp83 HO]
  · isplitr; · iexact HR
    isplitl [Hcs83]; · iexact Hcs83
    isplitl [Hp83]; · iexact Hp83
    iexact HO
  iintro ⟨HO, Hq83, HpLy7⟩
  -- the body is over: the result copies' payloads opened, the 85 cells closed, the five buffers rejoined
  rw [wp_ret]
  unfold payZs payLz payLx payLy payLm
  icases HpLz0 with ⟨Hoz0, Hkz0⟩
  icases HpLz1 with ⟨Hoz1, Hkz1⟩
  icases HpLz2 with ⟨Hoz2, Hkz2⟩
  icases HpLz3 with ⟨Hoz3, Hkz3⟩
  icases HpLz4 with ⟨Hoz4, Hkz4⟩
  icases HpLz5 with ⟨Hoz5, Hkz5⟩
  icases HpLz6 with ⟨Hoz6, Hkz6⟩
  icases HpLz7 with ⟨Hoz7, Hkz7⟩
  icases HpLx0 with ⟨Hox0, Hkx0⟩
  icases HpLx1 with ⟨Hox1, Hkx1⟩
  icases HpLx2 with ⟨Hox2, Hkx2⟩
  icases HpLx3 with ⟨Hox3, Hkx3⟩
  icases HpLx4 with ⟨Hox4, Hkx4⟩
  icases HpLx5 with ⟨Hox5, Hkx5⟩
  icases HpLx6 with ⟨Hox6, Hkx6⟩
  icases HpLx7 with ⟨Hox7, Hkx7⟩
  icases HpLy0 with ⟨Hoy0, Hky0⟩
  icases HpLy1 with ⟨Hoy1, Hky1⟩
  icases HpLy2 with ⟨Hoy2, Hky2⟩
  icases HpLy3 with ⟨Hoy3, Hky3⟩
  icases HpLy4 with ⟨Hoy4, Hky4⟩
  icases HpLy5 with ⟨Hoy5, Hky5⟩
  icases HpLy6 with ⟨Hoy6, Hky6⟩
  icases HpLy7 with ⟨Hoy7, Hky7⟩
  icases HpLm with ⟨HoM, HmiRb⟩
  imod (close_cells m K c) $$ [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84] with Hz
  · isplitr; · iexact HR
    rw [bigSep_fin85]
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    isplitl [Hq72]; · iexact Hq72
    isplitl [Hq73]; · iexact Hq73
    isplitl [Hq74]; · iexact Hq74
    isplitl [Hq75]; · iexact Hq75
    isplitl [Hq76]; · iexact Hq76
    isplitl [Hq77]; · iexact Hq77
    isplitl [Hq78]; · iexact Hq78
    isplitl [Hq79]; · iexact Hq79
    isplitl [Hq80]; · iexact Hq80
    isplitl [Hq81]; · iexact Hq81
    isplitl [Hq82]; · iexact Hq82
    isplitl [Hq83]; · iexact Hq83
    iexact Hq84
  imodintro
  unfold Φ₁
  isplitr [HO]
  · isplitl [Hst0 Hst1 Hst2 Hst3 Hst4 Hst5 Hst6 Hst7 Hst8 Hst9 Hst10 Hst11 HmiL0 HmiL1 HpZ2 HpZ3 HpZ4 HpZ5 HpZ6 HpZ7 HmiL8 HmiL9 HmiL10 HmiL11 HmiRb HpX0 HpX1 HpX2 HpX3 HpX4 HpX5 HpX6 HpX7 HpY0 HpY1 HpY2 HpY3 HpY4 HpY5 HpY6 HpY7 Hkz0 Hkz1 Hkz2 Hkz3 Hkz4 Hkz5 Hkz6 Hkz7 Hkx0 Hkx1 Hkx2 Hkx3 Hkx4 Hkx5 Hkx6 Hkx7 Hky0 Hky1 Hky2 Hky3 Hky4 Hky5 Hky6 Hky7]
    · isplitl [Hst0 Hst1 Hst2 Hst3 Hst4 Hst5 Hst6 Hst7 Hst8 Hst9 Hst10 Hst11]
      · iapply (join_st m c)
        rw [bigSep_fin12]
        isplitl [Hst0]; · iexact Hst0
        isplitl [Hst1]; · iexact Hst1
        isplitl [Hst2]; · iexact Hst2
        isplitl [Hst3]; · iexact Hst3
        isplitl [Hst4]; · iexact Hst4
        isplitl [Hst5]; · iexact Hst5
        isplitl [Hst6]; · iexact Hst6
        isplitl [Hst7]; · iexact Hst7
        isplitl [Hst8]; · iexact Hst8
        isplitl [Hst9]; · iexact Hst9
        isplitl [Hst10]; · iexact Hst10
        iexact Hst11
      isplitl [HmiL0 HmiL1 HpZ2 HpZ3 HpZ4 HpZ5 HpZ6 HpZ7 HmiL8 HmiL9 HmiL10 HmiL11 HmiRb]
      · iapply (join_mi m c)
        isplitr [HmiRb]
        · rw [bigSep_fin12]
          isplitl [HmiL0]; · iexact HmiL0
          isplitl [HmiL1]; · iexact HmiL1
          isplitl [HpZ2]; · iexact HpZ2
          isplitl [HpZ3]; · iexact HpZ3
          isplitl [HpZ4]; · iexact HpZ4
          isplitl [HpZ5]; · iexact HpZ5
          isplitl [HpZ6]; · iexact HpZ6
          isplitl [HpZ7]; · iexact HpZ7
          isplitl [HmiL8]; · iexact HmiL8
          isplitl [HmiL9]; · iexact HmiL9
          isplitl [HmiL10]; · iexact HmiL10
          iexact HmiL11
        iexact HmiRb
      iapply (join_cm m c)
      isplitl [HpX0 HpX1 HpX2 HpX3 HpX4 HpX5 HpX6 HpX7]
      · rw [bigSep_fin8]
        isplitl [HpX0]; · iexact HpX0
        isplitl [HpX1]; · iexact HpX1
        isplitl [HpX2]; · iexact HpX2
        isplitl [HpX3]; · iexact HpX3
        isplitl [HpX4]; · iexact HpX4
        isplitl [HpX5]; · iexact HpX5
        isplitl [HpX6]; · iexact HpX6
        iexact HpX7
      isplitl [HpY0 HpY1 HpY2 HpY3 HpY4 HpY5 HpY6 HpY7]
      · rw [bigSep_fin8]
        isplitl [HpY0]; · iexact HpY0
        isplitl [HpY1]; · iexact HpY1
        isplitl [HpY2]; · iexact HpY2
        isplitl [HpY3]; · iexact HpY3
        isplitl [HpY4]; · iexact HpY4
        isplitl [HpY5]; · iexact HpY5
        isplitl [HpY6]; · iexact HpY6
        iexact HpY7
      isplitl [Hkz0 Hkz1 Hkz2 Hkz3 Hkz4 Hkz5 Hkz6 Hkz7]
      · rw [bigSep_fin8]
        isplitl [Hkz0]; · iexact Hkz0
        isplitl [Hkz1]; · iexact Hkz1
        isplitl [Hkz2]; · iexact Hkz2
        isplitl [Hkz3]; · iexact Hkz3
        isplitl [Hkz4]; · iexact Hkz4
        isplitl [Hkz5]; · iexact Hkz5
        isplitl [Hkz6]; · iexact Hkz6
        iexact Hkz7
      isplitl [Hkx0 Hkx1 Hkx2 Hkx3 Hkx4 Hkx5 Hkx6 Hkx7]
      · rw [bigSep_fin8]
        isplitl [Hkx0]; · iexact Hkx0
        isplitl [Hkx1]; · iexact Hkx1
        isplitl [Hkx2]; · iexact Hkx2
        isplitl [Hkx3]; · iexact Hkx3
        isplitl [Hkx4]; · iexact Hkx4
        isplitl [Hkx5]; · iexact Hkx5
        isplitl [Hkx6]; · iexact Hkx6
        iexact Hkx7
      rw [bigSep_fin8]
      isplitl [Hky0]; · iexact Hky0
      isplitl [Hky1]; · iexact Hky1
      isplitl [Hky2]; · iexact Hky2
      isplitl [Hky3]; · iexact Hky3
      isplitl [Hky4]; · iexact Hky4
      isplitl [Hky5]; · iexact Hky5
      isplitl [Hky6]; · iexact Hky6
      iexact Hky7
    isplitl [Hxa0 Hxa1 Hxa2 Hxa3 Hxa4 Hxa5 Hxa6 Hxa7 Hxa8 Hxa9 Hxa10 Hxa11]
    · iapply (join_xa m c)
      rw [bigSep_fin12]
      isplitl [Hxa0]; · iexact Hxa0
      isplitl [Hxa1]; · iexact Hxa1
      isplitl [Hxa2]; · iexact Hxa2
      isplitl [Hxa3]; · iexact Hxa3
      isplitl [Hxa4]; · iexact Hxa4
      isplitl [Hxa5]; · iexact Hxa5
      isplitl [Hxa6]; · iexact Hxa6
      isplitl [Hxa7]; · iexact Hxa7
      isplitl [Hxa8]; · iexact Hxa8
      isplitl [Hxa9]; · iexact Hxa9
      isplitl [Hxa10]; · iexact Hxa10
      iexact Hxa11
    isplitl [HoM Hoz0 Hoz1 Hoz2 Hoz3 Hoz4 Hoz5 Hoz6 Hoz7 Hox0 Hox1 Hox2 Hox3 Hox4 Hox5 Hox6 Hox7 Hoy0 Hoy1 Hoy2 Hoy3 Hoy4 Hoy5 Hoy6 Hoy7]
    · iapply (join_ou m c)
      isplitl [HoM]; · iexact HoM
      isplitl [Hoz0 Hoz1 Hoz2 Hoz3 Hoz4 Hoz5 Hoz6 Hoz7]
      · rw [bigSep_fin8]
        isplitl [Hoz0]; · iexact Hoz0
        isplitl [Hoz1]; · iexact Hoz1
        isplitl [Hoz2]; · iexact Hoz2
        isplitl [Hoz3]; · iexact Hoz3
        isplitl [Hoz4]; · iexact Hoz4
        isplitl [Hoz5]; · iexact Hoz5
        isplitl [Hoz6]; · iexact Hoz6
        iexact Hoz7
      isplitl [Hox0 Hox1 Hox2 Hox3 Hox4 Hox5 Hox6 Hox7]
      · rw [bigSep_fin8]
        isplitl [Hox0]; · iexact Hox0
        isplitl [Hox1]; · iexact Hox1
        isplitl [Hox2]; · iexact Hox2
        isplitl [Hox3]; · iexact Hox3
        isplitl [Hox4]; · iexact Hox4
        isplitl [Hox5]; · iexact Hox5
        isplitl [Hox6]; · iexact Hox6
        iexact Hox7
      rw [bigSep_fin8]
      isplitl [Hoy0]; · iexact Hoy0
      isplitl [Hoy1]; · iexact Hoy1
      isplitl [Hoy2]; · iexact Hoy2
      isplitl [Hoy3]; · iexact Hoy3
      isplitl [Hoy4]; · iexact Hoy4
      isplitl [Hoy5]; · iexact Hoy5
      isplitl [Hoy6]; · iexact Hoy6
      iexact Hoy7
    iexact Hz
  iexists _
  iexact HO

end Cert.KernelIdeal.AG

end
-- ==== Proof.AGLaunch.lean ====
/-
  The launch.  Every device's DMA semaphores are the kernel's own; the barrier semaphore is the runtime's, so every cell's
  invariant is allocated for all devices under one update, and the duty tokens are dealt so that each device ends holding
  the tokens of the duties it pays: its signal on each neighbour's barrier cell, the receive duty of the eight transfers
  it sends each neighbour, and the duty of each of its own cells it pays itself.  The credit dealt at launch is, per
  cell, what all devices owe it: three units on a barrier cell (one from each neighbour) and the amount of the one
  transfer that lands on a receive cell.  The result and the argument are not staged: they travel through the launch
  as the unscoped rest, and are read back against the final state.
-/
import proofs.«900673_g7700000000000674_dist_ag_v7x_xyz2x2x2_z_m4096_n1024_bf16_1_alg».proof.Proof.AGState
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

/-- The kernel's own semaphores: all of its DMA semaphores. -/
abbrev osem : Fin 85 → SemLoc sig := fun n => .dma n

theorem ownSemFacts : Pipeline.OwnSemFacts cfg0.spec osem := by decide

theorem ksem_injective : Function.Injective (ksem : Fin 86 → SemLoc sig) := by
  intro k k' h
  by_cases hk : k.val < 85 <;> by_cases hk' : k'.val < 85
  · have h' : (SemLoc.dma ⟨k.val, hk⟩ : SemLoc sig) = .dma ⟨k'.val, hk'⟩ := by
      have := h; simp only [ksem, dif_pos hk, dif_pos hk'] at this; exact this
    exact Fin.ext (Fin.mk.inj (SemLoc.dma.inj h'))
  · exfalso; simp only [ksem, dif_pos hk, dif_neg hk'] at h; cases h
  · exfalso; simp only [ksem, dif_neg hk, dif_pos hk'] at h; cases h
  · exact Fin.ext (by have := k.isLt; have := k'.isLt; omega)

theorem kcell_injective : Function.Injective (kcell : Dev nD × Fin 86 → GSem nD τ sig) := by
  rintro ⟨c, k⟩ ⟨c', k'⟩ h
  have h1 : c = c' := congrArg (fun g : GSem nD τ sig => g.1.1) h
  subst h1
  have h2 : ksem k = ksem k' := congrArg Prod.snd h
  rw [ksem_injective h2]

/-- Every cell of every device. -/
def allCells : Finset (GSem nD τ sig) := Finset.univ.map ⟨kcell, kcell_injective⟩

/-- The duty tokens as minted: per device the one duty of each DMA cell and the three of its barrier cell. -/
def tokOf : Dev nD × (Fin 85 ⊕ Fin 3) → GSem nD τ sig × ℕ × Fin 3
  | (c, .inl n) => (dcell c n.val n.isLt, 0, 0)
  | (c, .inr d) => (barCell c, 0, d)

theorem tokOf_injective : Function.Injective tokOf := by
  rintro ⟨c, a⟩ ⟨c', a'⟩ h
  have h1 : c = c' := by
    cases a <;> cases a' <;> exact congrArg (fun x : GSem nD τ sig × ℕ × Fin 3 => x.1.1.1) h
  subst h1
  cases a with
  | inl n =>
    cases a' with
    | inl n' =>
      have h2 : (SemLoc.dma ⟨n.val, n.isLt⟩ : SemLoc sig) = .dma ⟨n'.val, n'.isLt⟩ := congrArg (fun x : GSem nD τ sig × ℕ × Fin 3 => x.1.2) h
      have h3 : n = n' := Fin.ext (Fin.mk.inj (SemLoc.dma.inj h2))
      subst h3; rfl
    | inr d' => exact absurd (congrArg (fun x : GSem nD τ sig × ℕ × Fin 3 => x.1.2) h) (fun h' => by cases h')
  | inr d =>
    cases a' with
    | inl n' => exact absurd (congrArg (fun x : GSem nD τ sig × ℕ × Fin 3 => x.1.2) h) (fun h' => by cases h')
    | inr d' =>
      have h3 : d = d' := congrArg (fun x : GSem nD τ sig × ℕ × Fin 3 => x.2.2) h
      subst h3; rfl

def allToks : Finset (GSem nD τ sig × ℕ × Fin 3) := Finset.univ.map ⟨tokOf, tokOf_injective⟩

/-- The launch element: the pipeline library's (no staging cell) beside the rounds library's over every cell and token. -/
def u₀ : UU :=
  (initOf (Pipeline.cells cfgs cellOf_inj) (Pipeline.launchToks cfgs cellOf_inj), initOf allCells allToks)

/-- The duty tokens of device c's own cells. -/
def toks (c : Dev nD) : sProp 𝕄 :=
  iprop((bigSep Finset.univ fun n : Fin 85 => dutyTok ER (dcell c n.val n.isLt) 0 0) ∗ (bigSep Finset.univ fun d : Fin 3 => dutyTok ER (barCell c) 0 d))

/-- What the launch element deals device c. -/
def G (c : Dev nD) : sProp 𝕄 :=
  iprop((bigSep Finset.univ fun k : Fin 86 => roundState ER (agRd m) (kcell (c, k)) 0)
    ∗ (bigSep Finset.univ fun k : Fin 86 => iprop(atPos ER (kcell (c, k)) 0 ∅ 0 ∗ reached ER (kcell (c, k)) 0)) ∗ toks c)

/-- What the global step makes of it. -/
def G' (c : Dev nD) : sProp 𝕄 := iprop(∃ K, records m K ∗ positions c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 86 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (agRd m) allCells allToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, and the tokens dealt to their payers -/

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem kcell_dma (c : Dev nD) (n : Fin 85) : kcell (c, ⟨n.val, by omega⟩) = dcell c n.val n.isLt := by
  simp only [kcell, ksem, dif_pos n.isLt]
theorem kcell_bar (c : Dev nD) : kcell (c, ⟨85, by decide⟩) = barCell c := rfl

/-- A device's 86 cells: its 85 DMA cells, then its barrier cell. -/
theorem bigSep_cells (c : Dev nD) (Φ : GSem nD τ sig → sProp 𝕄) :
    (bigSep Finset.univ fun k : Fin 86 => Φ (kcell (c, k)))
      = iprop((bigSep Finset.univ fun n : Fin 85 => Φ (dcell c n.val n.isLt)) ∗ Φ (barCell c)) := by
  rw [bigSep_univ_equiv (finSumFinEquiv (m := 85) (n := 1)) (fun k : Fin 86 => Φ (kcell (c, k))), bigSep_univ_sum,
    bigSep_univ_of_subsingleton (0 : Fin 1)]
  refine congrArg₂ _ (bigSep_congr fun n _ => ?_) ?_
  · exact congrArg Φ (kcell_dma c n)
  · exact congrArg Φ (kcell_bar c)

theorem ownSems0_eq (c : Dev nD) : (Pipeline.ownSems0 (Ix := Unit) (Name := ℕ) (U := UU) (Lvl := ℕ) (Val := Elt F) (τ := τ) osem c : sProp 𝕄)
    = bigSep Finset.univ fun n : Fin 85 => semVal (dcell c n.val n.isLt) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 86 => semVal (kcell (c, k)) 0 : sProp 𝕄) := by
  rw [ownSems0_eq, unscopedSems0_eq, bigSep_cells c (fun g => semVal g 0)]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 86 => iprop(∃ κ : ℕ, cellInv ER (agRd m) κ (kcell (c, k))))
          ∗ (bigSep Finset.univ fun k : Fin 86 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 86 => semVal (kcell (c, k)) 0) ∗ bigSep Finset.univ fun k : Fin 86 => roundState ER (agRd m) (kcell (c, k)) 0)
      ⊢ (|={Set.univ}=> bigSep Finset.univ fun k : Fin 86 => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The three families of receive cells among a device's DMA cells. -/
def e20 : Fin 8 ↪ Fin 85 := ⟨fun j => ⟨20 + j.val, by omega⟩, fun a b h => Fin.ext (by have := congrArg Fin.val h; simp only at this; omega)⟩
def e36 : Fin 8 ↪ Fin 85 := ⟨fun j => ⟨36 + j.val, by omega⟩, fun a b h => Fin.ext (by have := congrArg Fin.val h; simp only at this; omega)⟩
def e52 : Fin 8 ↪ Fin 85 := ⟨fun j => ⟨52 + j.val, by omega⟩, fun a b h => Fin.ext (by have := congrArg Fin.val h; simp only at this; omega)⟩

theorem ownRecv_eq : ownRecv = Finset.univ.map e20 ∪ (Finset.univ.map e36 ∪ Finset.univ.map e52) := by decide
theorem univ85_eq : (Finset.univ : Finset (Fin 85)) = ownPaid ∪ ownRecv := by decide
theorem paid_recv_disj : Disjoint ownPaid ownRecv := by decide
theorem disj20 : Disjoint (Finset.univ.map e20) (Finset.univ.map e36 ∪ Finset.univ.map e52) := by decide
theorem disj36 : Disjoint (Finset.univ.map e36) (Finset.univ.map e52) := by decide

theorem bigSep_recv (Φ : Fin 85 → sProp 𝕄) :
    bigSep ownRecv Φ = iprop((bigSep Finset.univ fun j : Fin 8 => Φ (e20 j)) ∗ (bigSep Finset.univ fun k : Fin 8 => Φ (e36 k))
      ∗ (bigSep Finset.univ fun k : Fin 8 => Φ (e52 k))) := by
  rw [ownRecv_eq, bigSep_union disj20, bigSep_union disj36, bigSep_map, bigSep_map, bigSep_map]
  rfl

theorem bigSep_univ85 (Φ : Fin 85 → sProp 𝕄) : bigSep Finset.univ Φ = iprop(bigSep ownPaid Φ ∗ bigSep ownRecv Φ) := by
  rw [univ85_eq, bigSep_union paid_recv_disj]; rfl

/-- Flipping a coordinate, as a permutation of the devices. -/
def znE : Dev nD ≃ Dev nD := ⟨zn, zn, zn_zn, zn_zn⟩
def xnE : Dev nD ≃ Dev nD := ⟨xn, xn, xn_xn, xn_xn⟩
def ynE : Dev nD ≃ Dev nD := ⟨yn, yn, yn_yn, yn_yn⟩

/-- The tokens dealt to the payers: a barrier cell's three to the three neighbours, a receive cell's to the neighbour that
    transfers into it, the others stay. -/
theorem toks_around : (bigSep Finset.univ fun c : Dev nD => (toks c : sProp 𝕄)) ⊢ bigSep Finset.univ fun c : Dev nD => payToks c := by
  have hc (c : Dev nD) : (toks c : sProp 𝕄) = iprop(
      ((bigSep ownPaid fun n => dutyTok ER (dcell c n.val n.isLt) 0 0)
        ∗ (bigSep Finset.univ fun j : Fin 8 => dutyTok ER (dcell c (20 + j.val) (by omega)) 0 0)
        ∗ (bigSep Finset.univ fun k : Fin 8 => dutyTok ER (dcell c (36 + k.val) (by omega)) 0 0)
        ∗ (bigSep Finset.univ fun k : Fin 8 => dutyTok ER (dcell c (52 + k.val) (by omega)) 0 0))
      ∗ (dutyTok ER (barCell c) 0 0 ∗ dutyTok ER (barCell c) 0 1 ∗ dutyTok ER (barCell c) 0 2)) := by
    unfold toks
    rw [bigSep_univ85, bigSep_recv, bigSep_fin3]
    rfl
  rw [bigSep_congr fun c _ => hc c]
  unfold payToks
  simp only [bigSep_sep']
  rw [bigSep_univ_equiv znE (fun c : Dev nD => (dutyTok ER (barCell c) 0 0 : sProp 𝕄)),
    bigSep_univ_equiv xnE (fun c : Dev nD => (dutyTok ER (barCell c) 0 1 : sProp 𝕄)),
    bigSep_univ_equiv ynE (fun c : Dev nD => (dutyTok ER (barCell c) 0 2 : sProp 𝕄)),
    bigSep_univ_equiv znE (fun c : Dev nD => (bigSep Finset.univ fun j : Fin 8 => dutyTok ER (dcell c (20 + j.val) (by omega)) 0 0 : sProp 𝕄)),
    bigSep_univ_equiv xnE (fun c : Dev nD => (bigSep Finset.univ fun k : Fin 8 => dutyTok ER (dcell c (36 + k.val) (by omega)) 0 0 : sProp 𝕄)),
    bigSep_univ_equiv ynE (fun c : Dev nD => (bigSep Finset.univ fun k : Fin 8 => dutyTok ER (dcell c (52 + k.val) (by omega)) 0 0 : sProp 𝕄))]
  iintro ⟨⟨Hp, Hz, Hx, Hy⟩, Hb0, Hb1, Hb2⟩
  isplitl [Hb0]; · iexact Hb0
  isplitl [Hb1]; · iexact Hb1
  isplitl [Hb2]; · iexact Hb2
  isplitl [Hz]; · iexact Hz
  isplitl [Hx]; · iexact Hx
  isplitl [Hy]; · iexact Hy
  iexact Hp

theorem ghost_intro (K : Dev nD × Fin 86 → ℕ) (c : Dev nD) : iprop(records m K ∗ (positions c ∗ payToks c)) ⊢ G' m c := by
  unfold G'
  iintro ⟨HR, HP⟩
  iexists K
  isplitl [HR] <;> iassumption

theorem regroup :
    (bigSep Finset.univ fun c : Dev nD => iprop((bigSep Finset.univ fun k : Fin 86 => iprop(∃ κ : ℕ, cellInv ER (agRd m) κ (kcell (c, k))))
          ∗ (bigSep Finset.univ fun k : Fin 86 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 86 => iprop(∃ κ : ℕ, cellInv ER (agRd m) κ (kcell ck))),
    bigSep_congr (s := Finset.univ) (fun (c : Dev nD) _ => bigSep_sep' Finset.univ (fun k : Fin 86 => (atPos ER (kcell (c, k)) 0 ∅ 0 : sProp 𝕄)) (fun k => reached ER (kcell (c, k)) 0)),
    bigSep_sep', ← bigSep_univ_prod (fun ck : Dev nD × Fin 86 => (reached ER (kcell ck) 0 : sProp 𝕄))]
  iintro ⟨HI, ⟨Hat, #HR⟩, Htok⟩
  ihave HK := (BI.bigSep_exists_pi Finset.univ (fun (ck : Dev nD × Fin 86) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_zn {M : Type} [AddCommMonoid M] (g : Dev nD → M) : ∑ d, g (zn d) = ∑ d, g d := Equiv.sum_comp znE g
theorem sum_xn {M : Type} [AddCommMonoid M] (g : Dev nD → M) : ∑ d, g (xn d) = ∑ d, g d := Equiv.sum_comp xnE g
theorem sum_yn {M : Type} [AddCommMonoid M] (g : Dev nD → M) : ∑ d, g (yn d) = ∑ d, g d := Equiv.sum_comp ynE g

/-- What device d owes at launch, family by family: a unit to each neighbour's barrier cell, and to each neighbour the
    amounts of the eight transfers it sends it. -/
theorem owed0_eq (d : Dev nD) : owedAfter d 0 =
    tallyAt (barCell (zn d)) () 1 + tallyAt (barCell (xn d)) () 1 + tallyAt (barCell (yn d)) () 1
    + (∑ j : Fin 8, tallyAt (dcell (zn d) (20 + j.val) (by omega)) () (damt (20 + j.val)))
    + (∑ k : Fin 8, tallyAt (dcell (xn d) (36 + k.val) (by omega)) () (damt (36 + k.val)))
    + (∑ k : Fin 8, tallyAt (dcell (yn d) (52 + k.val) (by omega)) () (damt (52 + k.val))) := by
  rw [Fin.sum_univ_eight, Fin.sum_univ_eight, Fin.sum_univ_eight]
  show ((((((((((((((((((((((((((((0 : CellTallies nD τ sig Unit) + tallyAt (dcell (yn d) 57 (by decide)) () (damt 57)) + tallyAt (dcell (yn d) 56 (by decide)) () (damt 56)) + tallyAt (dcell (xn d) 41 (by decide)) () (damt 41)) + tallyAt (dcell (xn d) 40 (by decide)) () (damt 40)) + tallyAt (dcell (yn d) 59 (by decide)) () (damt 59)) + tallyAt (dcell (yn d) 58 (by decide)) () (damt 58)) + tallyAt (dcell (xn d) 43 (by decide)) () (damt 43)) + tallyAt (dcell (yn d) 55 (by decide)) () (damt 55)) + tallyAt (dcell (xn d) 39 (by decide)) () (damt 39)) + tallyAt (dcell (yn d) 54 (by decide)) () (damt 54)) + tallyAt (dcell (xn d) 38 (by decide)) () (damt 38)) + tallyAt (dcell (xn d) 42 (by decide)) () (damt 42)) + tallyAt (dcell (yn d) 53 (by decide)) () (damt 53)) + tallyAt (dcell (xn d) 37 (by decide)) () (damt 37)) + tallyAt (dcell (yn d) 52 (by decide)) () (damt 52)) + tallyAt (dcell (xn d) 36 (by decide)) () (damt 36)) + tallyAt (dcell (zn d) 27 (by decide)) () (damt 27)) + tallyAt (dcell (zn d) 26 (by decide)) () (damt 26)) + tallyAt (dcell (zn d) 25 (by decide)) () (damt 25)) + tallyAt (dcell (zn d) 24 (by decide)) () (damt 24)) + tallyAt (dcell (zn d) 23 (by decide)) () (damt 23)) + tallyAt (dcell (zn d) 22 (by decide)) () (damt 22)) + tallyAt (dcell (zn d) 21 (by decide)) () (damt 21)) + tallyAt (dcell (zn d) 20 (by decide)) () (damt 20)) + tallyAt (barCell (yn d)) () 1) + tallyAt (barCell (xn d)) () 1) + tallyAt (barCell (zn d)) () 1)
    = tallyAt (barCell (zn d)) () 1 + tallyAt (barCell (xn d)) () 1 + tallyAt (barCell (yn d)) () 1 + (tallyAt (dcell (zn d) 20 (by decide)) () (damt 20) + tallyAt (dcell (zn d) 21 (by decide)) () (damt 21) + tallyAt (dcell (zn d) 22 (by decide)) () (damt 22) + tallyAt (dcell (zn d) 23 (by decide)) () (damt 23) + tallyAt (dcell (zn d) 24 (by decide)) () (damt 24) + tallyAt (dcell (zn d) 25 (by decide)) () (damt 25) + tallyAt (dcell (zn d) 26 (by decide)) () (damt 26) + tallyAt (dcell (zn d) 27 (by decide)) () (damt 27)) + (tallyAt (dcell (xn d) 36 (by decide)) () (damt 36) + tallyAt (dcell (xn d) 37 (by decide)) () (damt 37) + tallyAt (dcell (xn d) 38 (by decide)) () (damt 38) + tallyAt (dcell (xn d) 39 (by decide)) () (damt 39) + tallyAt (dcell (xn d) 40 (by decide)) () (damt 40) + tallyAt (dcell (xn d) 41 (by decide)) () (damt 41) + tallyAt (dcell (xn d) 42 (by decide)) () (damt 42) + tallyAt (dcell (xn d) 43 (by decide)) () (damt 43)) + (tallyAt (dcell (yn d) 52 (by decide)) () (damt 52) + tallyAt (dcell (yn d) 53 (by decide)) () (damt 53) + tallyAt (dcell (yn d) 54 (by decide)) () (damt 54) + tallyAt (dcell (yn d) 55 (by decide)) () (damt 55) + tallyAt (dcell (yn d) 56 (by decide)) () (damt 56) + tallyAt (dcell (yn d) 57 (by decide)) () (damt 57) + tallyAt (dcell (yn d) 58 (by decide)) () (damt 58) + tallyAt (dcell (yn d) 59 (by decide)) () (damt 59))
  abel

/-- What all devices owe the cells of device c: three units on its barrier cell, and on each receive cell the amount of
    the one transfer that lands there. -/
def due (c : Dev nD) : CellTallies nD τ sig Unit :=
  tallyAt (barCell c) () 3
    + (∑ j : Fin 8, tallyAt (dcell c (20 + j.val) (by omega)) () (damt (20 + j.val)))
    + (∑ k : Fin 8, tallyAt (dcell c (36 + k.val) (by omega)) () (damt (36 + k.val)))
    + (∑ k : Fin 8, tallyAt (dcell c (52 + k.val) (by omega)) () (damt (52 + k.val)))

theorem owed_sum : (∑ d : Dev nD, owedAfter d 0) = ∑ d : Dev nD, due d := by
  simp only [owed0_eq, due, Finset.sum_add_distrib]
  rw [sum_zn (fun d => (tallyAt (barCell d) () 1 : CellTallies nD τ sig Unit)),
    sum_xn (fun d => (tallyAt (barCell d) () 1 : CellTallies nD τ sig Unit)),
    sum_yn (fun d => (tallyAt (barCell d) () 1 : CellTallies nD τ sig Unit)),
    sum_zn (fun d => ∑ j : Fin 8, (tallyAt (dcell d (20 + j.val) (by omega)) () (damt (20 + j.val)) : CellTallies nD τ sig Unit)),
    sum_xn (fun d => ∑ k : Fin 8, (tallyAt (dcell d (36 + k.val) (by omega)) () (damt (36 + k.val)) : CellTallies nD τ sig Unit)),
    sum_yn (fun d => ∑ k : Fin 8, (tallyAt (dcell d (52 + k.val) (by omega)) () (damt (52 + k.val)) : CellTallies nD τ sig Unit)),
    ← Finset.sum_add_distrib, ← Finset.sum_add_distrib]
  refine congrArg₂ _ (congrArg₂ _ (congrArg₂ _ (Finset.sum_congr rfl fun d _ => ?_) rfl) rfl) rfl
  rw [tallyAt_add, tallyAt_add]

/-- What is due to a device's cells sits on that device's cells. -/
theorem due_own (d : Dev nD) (g : GSem nD τ sig) (h : due d g ≠ 0) : g.1 = (d : Thread nD τ) := by
  by_contra hne
  refine h ?_
  have hz (sm : SemLoc sig) (k : ℕ) : (tallyAt (((d : Thread nD τ), sm) : GSem nD τ sig) () k : CellTallies nD τ sig Unit) g = 0 :=
    tallyAt_ne_cell (fun e => hne (congrArg Prod.fst e)) () k
  unfold due
  simp only [Pi.add_apply, Finset.sum_apply, hz, Finset.sum_const_zero, add_zero]

theorem creds_intro (c : Dev nD) : (Pipeline.launchCred (fun d => owedAfter d 0) c : sProp 𝕄) ⊢ creds c := by
  rw [Pipeline.launchCred_of_sum _ due owed_sum due_own c]
  unfold due creds
  rw [bigSep_recv]
  iintro H
  ihave H := (cred_add _ _).1 $$ H
  icases H with ⟨H, Hy⟩
  ihave H := (cred_add _ _).1 $$ H
  icases H with ⟨H, Hx⟩
  ihave H := (cred_add _ _).1 $$ H
  icases H with ⟨Hb, Hz⟩
  isplitl [Hb]; · iexact Hb
  isplitl [Hz]; · iapply (Entails.of_eq (Pipeline.cred_finsetSum _ _)); iexact Hz
  isplitl [Hx]; · iapply (Entails.of_eq (Pipeline.cred_finsetSum _ _)); iexact Hx
  iapply (Entails.of_eq (Pipeline.cred_finsetSum _ _)); iexact Hy

/-! ## The theorem's side conditions -/

/-- What a device holds when the region is entered: the ghost state, its argument as launched, its result at some contents. -/
def XX (c : Dev nD) : sProp 𝕄 :=
  iprop(start m c ∗ (((c : Thread nD τ).loc main_arg0) ↦{fullShare} X m c) ∗ someBuf c main_v1)

/-- What it holds of its arrays at the end: the argument unchanged, the result the whole array converted. -/
def YY (c : Dev nD) : sProp 𝕄 :=
  iprop((((c : Thread nD τ).loc main_arg0) ↦{fullShare} X m c) ∗ (((c : Thread nD τ).loc main_v1) ↦{fullShare} outV m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owedAfter d 0) c ∗ prngReg c (ρ c) ∗ G' m c)
      ⊢ |={Set.univ}=> iprop(XX m c ∗ emp) := by
  rw [Pipeline.unscopedRestP_none, unscopedRest0_eq]
  iintro ⟨⟨Ha, Hv⟩, Hlev, Hcr, -, HG⟩
  ihave Hc := (creds_intro (F := F) c) $$ Hcr
  imodintro
  unfold XX start G' someBuf
  isplitl
  · isplitl [HG Hc Hlev]
    · isplitl [HG]; · iexact HG
      isplitl [Hc]; · iexact Hc
      iexact Hlev
    isplitl [Ha]; · iexact Ha
    iexists _; iexact Hv
  · iempintro

theorem phi0_intro (c : Dev nD) :
    iprop(XX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ XX someBuf
  iintro ⟨⟨Hs, Ha, Hv⟩, -, Hr⟩
  isplitl [Hs]; · iexact Hs
  isplitl [Hr]; · iexact Hr
  isplitl [Ha]; · iexact Ha
  iexact Hv

theorem phi1_exit (c : Dev nD) :
    (dats m 0 c).Φ (Fin.last cfg0.N) ⊢ iprop(YY m c ∗ Pipeline.ownSems0 osem c ∗ Pipeline.scopedRest cfg0.spec c) := by
  rw [show (dats m 0 c).Φ (Fin.last cfg0.N) = Φ₁ m c from rfl, scopedRest0_eq, ownSems0_eq]
  unfold Φ₁ YY someBuf
  iintro ⟨Hr, Ha, Hv, Hz⟩
  isplitl [Ha Hv]
  · isplitl [Ha] <;> iassumption
  isplitl [Hz]; · iexact Hz
  iexact Hr

/-- No window is staged, so the pipeline itself waits on no cell. -/
theorem waits (c : Dev nD) : (levAts L lv : sProp 𝕄) ⊢ Pipeline.cellsWaits cfgs (dats m) () 0 c :=
  Pipeline.cellsWaits_intro cfgs (dats m) () 0 c fun w s t => w.elim0

/-! ## The run -/

/-- At the compiled mesh of eight devices, for any float values, from any memory with zero counters: given the body of one
    device, every weakly fair execution of @main terminates, and every final state has each device's result holding the
    gathered array and its argument unchanged. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c.tc : Thread nD τ).loc main_v1) = outV m c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun c w => w.elim0)
    (hdistinct := winFacts0.arr_inj)
    (O₀ := fun c => owedAfter c 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := XX m) (Y := YY m) (Z := fun _ => iprop(emp))
    (hX := start_intro m ρ) (hin := phi0_intro m) (hout := phi1_exit m)
    (QY := fun c s => s.mem ((c : Thread nD τ).loc main_v1) = outV m c ∧ s.mem ((c : Thread nD τ).loc main_arg0) = m ((c : Thread nD τ).loc main_arg0))
    (hY := fun c s' => by
      unfold YY
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.AGBody.lean ====
/-
  The body obligation of the pipeline's one point, from the body theorem; and the run of the whole program with the result named.
-/
import proofs.«900673_g7700000000000674_dist_ag_v7x_xyz2x2x2_z_m4096_n1024_bf16_1_alg».proof.Proof.AGRoot
import proofs.«900673_g7700000000000674_dist_ag_v7x_xyz2x2x2_z_m4096_n1024_bf16_1_alg».proof.Proof.AGLaunch

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_W0 (Φ : Fin cfg0.W → sProp 𝕄) : bigSep Finset.univ Φ = iprop(emp) := by
  rw [bigSep_univ_eq_bigSepL [] (by decide) (by decide)]; rfl

set_option maxRecDepth 65536 in
set_option maxHeartbeats 4000000 in
/-- The library's body obligation on device c: the one point's body from the invariant before to the invariant after. -/
theorem body_obligation (c : Dev nD) : BodyObligation (dats (F := F) m 0 c) (defs₀ (F := F)) 𝒱₀ () Set.univ := fun t => by
  rw [fin_N0 t, bigSep_W0, bigSep_W0]
  show iprop(Φ₀ m c ∗ (dats m 0 c).owesAt () t0_0.castSucc ∗ emp)
    ⊢ wp frame (wpE (defs₀ (F := F)) 𝒱₀ c none) Set.univ (bodyAt0 (F := F) t0_0)
        (fun _ => iprop(Φ₁ m c ∗ (dats m 0 c).owesAt () t0_0.succ ∗ emp))
  unfold Dat.owesAt Pipeline.owesWithin
  iintro ⟨HΦ, ⟨%W, %hW, HO⟩, -⟩
  iapply (wp_wand (Fr := frame) (wpE := wpE (defs₀ (F := F)) 𝒱₀ (c : Thread nD τ) none) (E := Set.univ)) $$ [HΦ HO]
  · iapply (sound_body m c W)
    isplitl [HΦ]; · iexact HΦ
    iexact HO
  iintro %r ⟨HΦ, ⟨%W', HO⟩⟩
  isplitl [HΦ]; · iexact HΦ
  isplitl [HO]
  · iexists W'
    isplitr; · ipureintro; exact fun _ _ => Or.inl trivial
    iexact HO
  iempintro

/-- Every weakly fair execution of the program on the eight devices terminates without a fault, each device's result holding the
    whole array converted and its argument unchanged. -/
theorem run_body (ρ : Dev nD → PrngReg) :
    θ_run defs (onTc (τ := τ) (main (F := F))) ⟨m, fun _ => 0, ρ⟩ (fun r => ∀ c : Dev nD,
      r.2.mem ((c.tc : Thread nD τ).loc main_v1) = outV m c ∧ r.2.mem ((c.tc : Thread nD τ).loc main_arg0) = m ((c.tc : Thread nD τ).loc main_arg0)) :=
  run_main m (body_obligation m) ρ

end Cert.KernelIdeal.AG

end
-- ==== Proof.K.AGSl.lean ====
/-
  Row slices of a buffer of 1024 columns: rows [o, o + r) of every column, as the memref a copy or a transfer goes through.
-/
import proofs.«900673_g7700000000000674_dist_ag_v7x_xyz2x2x2_z_m4096_n1024_bf16_1_alg».proof.Kernel

noncomputable section

namespace Cert.Kernel.AG

open Idealize.ShloMosaic Idealize.ShloMosaic.TcCoe Idealize.SL.Sem
open Cert.Kernel

/-- r rows of 1024 columns. -/
abbrev Sr (r : ℕ) : Shape := ⟨2, ![r, 1024]⟩

theorem sl_inb {R o r : ℕ} (h : o + r ≤ R) : ∀ a, (![o, 0] : Fin 2 → Nat) a + (Sr r).size a ≤ (Sr R).size a := by
  intro a; fin_cases a
  · exact h
  · exact Nat.le_refl _

/-- Rows [o, o + r) of a memref of R rows. -/
abbrev sl {sp : Space} {e : EltTy} {R : ℕ} (M : Memref sig .tc sp (Sr R) e) (o r : ℕ) (h : o + r ≤ R) : Memref sig .tc sp (Sr r) e :=
  M.slice (Rect.unit (s := Sr R) ![o, 0] (Sr r).size (sl_inb h)) (fun _ => rfl)

end Cert.Kernel.AG

end
-- ==== Proof.K.AGSlices.lean ====
/-
  Row slices of buffers of 1024 columns, as sets of elements and as points-to assertions.
  A buffer of R rows is held as separate assertions over row ranges [o, o + r); this module says which elements a
  row range has, that adjacent ranges are disjoint and together make the longer range, how an assertion over a
  range is cut and rejoined along rows and along the share, and what a copy of r rows from one buffer into another
  leaves at each element of the destination.  Every statement is over an arbitrary memref M of R rows and speaks of
  an element of its buffer as the place M.view.emb x of an index x of the R x 1024 shape, and of the buffer's
  contents through M.view.read; for a whole buffer both are the identity, by definition.
-/
import proofs.«900673_g7700000000000674_dist_ag_v7x_xyz2x2x2_z_m4096_n1024_bf16_1_alg».proof.Proof.K.AGSl
import Idealize.ShloMosaic.Lib.Pipeline.Value
import Idealize.ShloMosaic.Lib.ValueIdx
import Idealize.ShloMosaic.Rules.PointsTo

noncomputable section

namespace Cert.Kernel.AG

open Idealize.ShloMosaic Idealize.ShloMosaic.TcCoe Idealize.SL.Sem
open Cert.Kernel
open Idealize.SL
open Idealize.SL.RA Idealize.SL.ProofMode
open Idealize.SL.BI (sProp)
open scoped Idealize.SL.BI
open Idealize.SL.BI.BIBase Idealize.SL.BI.Laws
open PCS URA Auth

/-! ## Row ranges as sets of indices of the shape -/

/-- The indices of the R x 1024 shape in rows [o, o + r). -/
def rows (R o r : ℕ) (h : o + r ≤ R) : Finset (Sr R).Idx :=
  (Rect.unit (s := Sr R) ![o, 0] (Sr r).size (sl_inb h)).set

theorem mem_rows {R o r : ℕ} {h : o + r ≤ R} {x : (Sr R).Idx} :
    x ∈ rows R o r h ↔ o ≤ (x 0).val ∧ (x 0).val < o + r := by
  unfold rows
  rw [Rect.mem_set_unit]
  constructor
  · intro H; exact H 0
  · intro H a
    match a with
    | ⟨0, _⟩ => exact H
    | ⟨1, _⟩ => exact ⟨Nat.zero_le _, by have h1 : (x 1).val < 1024 := (x 1).isLt; show (x 1).val < 0 + 1024; omega⟩

/-- Ranges that do not meet have no index in common. -/
theorem rows_disjoint {R o1 r1 o2 r2 : ℕ} {h1 : o1 + r1 ≤ R} {h2 : o2 + r2 ≤ R} (h12 : o1 + r1 ≤ o2) :
    Disjoint (rows R o1 r1 h1) (rows R o2 r2 h2) := by
  rw [Finset.disjoint_left]
  intro x hx1 hx2
  have a := mem_rows.mp hx1
  have b := mem_rows.mp hx2
  omega

/-- Two adjacent ranges make the range of their lengths together. -/
theorem rows_union {R o r1 r2 : ℕ} {h1 : o + r1 ≤ R} {h2 : o + r1 + r2 ≤ R} {h : o + (r1 + r2) ≤ R} :
    rows R o r1 h1 ∪ rows R (o + r1) r2 h2 = rows R o (r1 + r2) h := by
  ext x
  rw [Finset.mem_union, mem_rows, mem_rows, mem_rows]
  omega

/-- All R rows are every index. -/
theorem rows_whole {R : ℕ} {h : 0 + R ≤ R} : rows R 0 R h = Finset.univ := by
  ext x
  rw [mem_rows]
  have h0 : (x 0).val < R := (x 0).isLt
  simp only [Finset.mem_univ, iff_true]
  exact ⟨Nat.zero_le _, by omega⟩

/-! ## The elements of a row slice of a memref -/

section Sets

variable {sp : Space} {e : EltTy} {R : ℕ} (M : Memref sig .tc sp (Sr R) e)

/-- A row slice lives in its memref's buffer. -/
theorem sl_loc (c : Dev nD) (o r : ℕ) (h : o + r ≤ R) :
    (sl M o r h).view.loc (c.tc : Thread nD τ) = M.view.loc (c.tc : Thread nD τ) := rfl

/-- The elements of a row slice are the places of the range's indices. -/
theorem sl_set (o r : ℕ) (h : o + r ≤ R) : (sl M o r h).view.set = (rows R o r h).map M.view.emb :=
  View.set_slice M.view _

/-- The place of an index is in the slice exactly when its row is in the range. -/
theorem sl_mem {o r : ℕ} {h : o + r ≤ R} {x : (Sr R).Idx} :
    M.view.emb x ∈ (sl M o r h).view.set ↔ o ≤ (x 0).val ∧ (x 0).val < o + r := by
  rw [sl_set, Finset.mem_map' M.view.emb, mem_rows]

/-- Every element of the slice is the place of an index whose row is in the range. -/
theorem sl_mem_iff_exists {o r : ℕ} {h : o + r ≤ R} {i : M.view.ty.Idx} :
    i ∈ (sl M o r h).view.set ↔ ∃ x : (Sr R).Idx, M.view.emb x = i ∧ o ≤ (x 0).val ∧ (x 0).val < o + r := by
  rw [sl_set, Finset.mem_map]
  constructor
  · rintro ⟨x, hx, rfl⟩; exact ⟨x, rfl, mem_rows.mp hx⟩
  · rintro ⟨x, rfl, hx⟩; exact ⟨x, mem_rows.mpr hx, rfl⟩

/-- Slices over ranges that do not meet share no element. -/
theorem sl_disjoint {o1 r1 o2 r2 : ℕ} {h1 : o1 + r1 ≤ R} {h2 : o2 + r2 ≤ R} (h12 : o1 + r1 ≤ o2) :
    Disjoint (sl M o1 r1 h1).view.set (sl M o2 r2 h2).view.set := by
  rw [sl_set, sl_set, Finset.disjoint_map]
  exact rows_disjoint h12

/-- Slices over adjacent ranges make the slice over both. -/
theorem sl_union {o r1 r2 : ℕ} {h1 : o + r1 ≤ R} {h2 : o + r1 + r2 ≤ R} {h : o + (r1 + r2) ≤ R} :
    (sl M o r1 h1).view.set ∪ (sl M (o + r1) r2 h2).view.set = (sl M o (r1 + r2) h).view.set := by
  rw [sl_set, sl_set, sl_set, ← Finset.map_union, rows_union]

/-- The slice of all R rows has the memref's own elements, -/
theorem sl_whole_set {h : 0 + R ≤ R} : (sl M 0 R h).view.set = M.view.set := by
  rw [sl_set, rows_whole]; rfl

/-- which for a whole buffer are all of them. -/
theorem sl_whole {h : 0 + R ≤ R} (hM : M.view.set = Finset.univ) : (sl M 0 R h).view.set = Finset.univ := by
  rw [sl_whole_set, hM]

/-- A slice's elements are among those of a slice over a range that contains its range. -/
theorem sl_subset {o r o' r' : ℕ} {h : o + r ≤ R} {h' : o' + r' ≤ R} (hlo : o' ≤ o) (hhi : o + r ≤ o' + r') :
    (sl M o r h).view.set ⊆ (sl M o' r' h').view.set := by
  rw [sl_set, sl_set]
  refine Finset.map_subset_map.mpr fun x hx => ?_
  have a := mem_rows.mp hx
  exact mem_rows.mpr ⟨by omega, by omega⟩

end Sets

/-! ## Points-to assertions over row slices -/

section PointsTo

variable {Ix : Type} [DecidableEq Ix] {Val : EltTy → Type} {Name : Type} [DecidableEq Name] {U : Type} [URA U] {Lvl : Type}

local notation "𝕄" => MT nD τ sig Ix Val Name U Lvl

/-- An assertion over a range of rows is the assertions over its first r1 rows and over the r2 rows after them. -/
theorem pointsTo_rows_split {sp : Space} {e : EltTy} {R : ℕ} (M : Memref sig .tc sp (Sr R) e) (c : Dev nD)
    {o r1 r2 : ℕ} {h1 : o + r1 ≤ R} {h2 : o + r1 + r2 ≤ R} {h : o + (r1 + r2) ≤ R}
    (q : PosShare TreeShare) (f : Buf Val (M.view.loc (c.tc : Thread nD τ))) :
    (M.view.loc (c.tc : Thread nD τ) ↦[(sl M o (r1 + r2) h).view.set]{q} f : sProp 𝕄)
      ⊣⊢ iprop((M.view.loc (c.tc : Thread nD τ) ↦[(sl M o r1 h1).view.set]{q} f)
            ∗ (M.view.loc (c.tc : Thread nD τ) ↦[(sl M (o + r1) r2 h2).view.set]{q} f)) := by
  rw [← sl_union M (h1 := h1) (h2 := h2) (h := h)]
  exact pointsTo_union (sl_disjoint M (Nat.le_refl _))

/-- An assertion at a share is the assertions at the share's two halves. -/
theorem pointsTo_share_split {ℓ : Loc nD τ sig} (S : Finset (Idx ℓ)) (q : PosShare TreeShare) (f : Buf Val ℓ) :
    (ℓ ↦[S]{q} f : sProp 𝕄) ⊣⊢ iprop((ℓ ↦[S]{q.left} f) ∗ (ℓ ↦[S]{q.right} f)) :=
  pointsTo_share (PosShare.mem_left_op_right q)

/-- Contents that agree on the elements held are the same assertion. -/
theorem pointsTo_congr_on {ℓ : Loc nD τ sig} {S : Finset (Idx ℓ)} {q : PosShare TreeShare} {f g : Buf Val ℓ}
    (hfg : ∀ i ∈ S, f i = g i) : (ℓ ↦[S]{q} f : sProp 𝕄) ⊣⊢ (ℓ ↦[S]{q} g) :=
  BiEntails.of_eq (pointsTo_congr hfg)

end PointsTo

/-! ## Reading and writing through a row slice, element by element -/

section Values

open Idealize.ShloMosaic.ValueIdx

variable {Val : EltTy → Type}

/-- The index of the R x 1024 shape that row y of a slice at row o stands for. -/
def up {R r : ℕ} (o : ℕ) (h : o + r ≤ R) (y : (Sr r).Idx) : (Sr R).Idx :=
  ix2 (⟨o + (y 0).val, by have h0 : (y 0).val < r := (y 0).isLt; omega⟩ : Fin R) (y 1 : Fin 1024)

/-- The index of the r x 1024 shape that an index of the R x 1024 shape whose row is in [o, o + r) is, seen from row o. -/
def down {R r : ℕ} (o : ℕ) (x : (Sr R).Idx) (hx : o ≤ (x 0).val ∧ (x 0).val < o + r) : (Sr r).Idx :=
  ix2 (⟨(x 0).val - o, by omega⟩ : Fin r) (x 1 : Fin 1024)

theorem up_down {R r : ℕ} (o : ℕ) (h : o + r ≤ R) (x : (Sr R).Idx) (hx : o ≤ (x 0).val ∧ (x 0).val < o + r) :
    up o h (down o x hx) = x := by
  funext a
  apply Fin.ext
  match a with
  | ⟨0, _⟩ => show o + ((x 0).val - o) = (x 0).val; omega
  | ⟨1, _⟩ => rfl

section One

variable {sp : Space} {e : EltTy} {R : ℕ} (M : Memref sig .tc sp (Sr R) e)

/-- Where a slice puts its index y: the place of the index it stands for. -/
theorem sl_emb {o r : ℕ} (h : o + r ≤ R) (y : (Sr r).Idx) :
    (sl M o r h).view.emb y = M.view.emb (up o h y) := by
  show M.view.emb ((Rect.unit (s := Sr R) ![o, 0] (Sr r).size (sl_inb h)).emb y) = M.view.emb (up o h y)
  congr 1
  funext a
  apply Fin.ext
  match a with
  | ⟨0, _⟩ => show o + 1 * (y 0).val = o + (y 0).val; omega
  | ⟨1, _⟩ => show 0 + 1 * (y 1).val = (y 1).val; omega

/-- A slice reads, at its row y, what the memref reads at row o + y. -/
theorem sl_read {o r : ℕ} (h : o + r ≤ R) (f : M.view.ty.Contents Val) (y : (Sr r).Idx) :
    (sl M o r h).view.read Val f y = M.view.read Val f (up o h y) := by
  rw [View.read_apply, View.read_apply, sl_emb]

/-- After a write of w on every index of a slice, the memref reads w at the rows of the slice, -/
theorem read_sl_write_of_mem {o r : ℕ} (h : o + r ≤ R) (f : M.view.ty.Contents Val) (w : (Sr r).Idx → Val e)
    (x : (Sr R).Idx) (hx : o ≤ (x 0).val ∧ (x 0).val < o + r) :
    M.view.read Val ((sl M o r h).view.write Val f w Finset.univ) x = w (down o x hx) := by
  have hw := View.read_write_of_mem (v := (sl M o r h).view) (Val := Val) f w (M := Finset.univ) (x := down o x hx)
    (Finset.mem_univ _)
  rw [sl_read, up_down] at hw
  exact hw

/-- and what it read before at every other row. -/
theorem read_sl_write_of_not_mem {o r : ℕ} (h : o + r ≤ R) (f : M.view.ty.Contents Val) (w : (Sr r).Idx → Val e)
    (x : (Sr R).Idx) (hx : ¬ (o ≤ (x 0).val ∧ (x 0).val < o + r)) :
    M.view.read Val ((sl M o r h).view.write Val f w Finset.univ) x = M.view.read Val f x := by
  refine View.read_congr_at x (View.write_of_not_mem _ _ _ fun hm => hx ?_)
  rw [View.setOn_univ] at hm
  exact (sl_mem M).mp hm

/-- Contents are equal at the place of an index when the memref reads them the same there. -/
theorem eq_at_emb_of_read_eq {f g : M.view.ty.Contents Val} {x : (Sr R).Idx}
    (hfg : M.view.read Val f x = M.view.read Val g x) : f (M.view.emb x) = g (M.view.emb x) := by
  rw [View.read_apply, View.read_apply] at hfg
  exact (cast_inj _).mp hfg

/-- A load of r rows at row o reads, at its row j, the memref's row o + j. -/
theorem readAt_rows {o r : ℕ} (h : o + r ≤ R) (f : M.view.ty.Contents Val) :
    M.view.readAt Val (Rect.unit (s := Sr R) ![o, 0] (Sr r).size (sl_inb h)).toLoadRect f
      = fun j : (Sr r).Idx => M.view.read Val f (up o h j) :=
  funext fun j => sl_read M h f j

/-- A store of v on every index of r rows at row o leaves v at the rows stored, -/
theorem read_store_rows_of_mem {o r : ℕ} (h : o + r ≤ R) (f : M.view.ty.Contents Val) (v : (Sr r).Idx → Val e)
    (x : (Sr R).Idx) (hx : o ≤ (x 0).val ∧ (x 0).val < o + r) :
    M.view.read Val ((M.access (Rect.unit (s := Sr R) ![o, 0] (Sr r).size (sl_inb h))).write Val f v Finset.univ) x
      = v (down o x hx) :=
  read_sl_write_of_mem M h f v x hx

/-- and the old contents at every other row. -/
theorem read_store_rows_of_not_mem {o r : ℕ} (h : o + r ≤ R) (f : M.view.ty.Contents Val) (v : (Sr r).Idx → Val e)
    (x : (Sr R).Idx) (hx : ¬ (o ≤ (x 0).val ∧ (x 0).val < o + r)) :
    M.view.read Val ((M.access (Rect.unit (s := Sr R) ![o, 0] (Sr r).size (sl_inb h))).write Val f v Finset.univ) x
      = M.view.read Val f x :=
  read_sl_write_of_not_mem M h f v x hx

end One

/-! ## A copy of r rows from one buffer into another -/

section Copy

variable {sp1 sp2 : Space} {e : EltTy} {R1 R2 : ℕ}
variable (M1 : Memref sig .tc sp1 (Sr R1) e) (M2 : Memref sig .tc sp2 (Sr R2) e)

/-- The source index that lands at index x of the destination: the same column, row o1 + (row of x - o2). -/
def shift {r : ℕ} (o1 o2 : ℕ) (h1 : o1 + r ≤ R1) (x : (Sr R2).Idx) (hx : o2 ≤ (x 0).val ∧ (x 0).val < o2 + r) :
    (Sr R1).Idx :=
  ix2 (⟨(x 0).val - o2 + o1, by omega⟩ : Fin R1) (x 1 : Fin 1024)

theorem up_down_eq_shift {r : ℕ} (o1 o2 : ℕ) (h1 : o1 + r ≤ R1) (x : (Sr R2).Idx)
    (hx : o2 ≤ (x 0).val ∧ (x 0).val < o2 + r) : up o1 h1 (down o2 x hx) = shift o1 o2 h1 x hx := by
  funext a
  apply Fin.ext
  match a with
  | ⟨0, _⟩ => show o1 + ((x 0).val - o2) = (x 0).val - o2 + o1; omega
  | ⟨1, _⟩ => rfl

/-- THE COPY, element by element: after rows [o1, o1 + r) of the source, which holds fs, are written over rows
    [o2, o2 + r) of the destination, the destination reads at an index of those rows what the source read at the
    shifted index, -/
theorem read_copy_of_mem {o1 o2 r : ℕ} (h1 : o1 + r ≤ R1) (h2 : o2 + r ≤ R2)
    (fs : M1.view.ty.Contents Val) (fd : M2.view.ty.Contents Val)
    (x : (Sr R2).Idx) (hx : o2 ≤ (x 0).val ∧ (x 0).val < o2 + r) :
    M2.view.read Val ((sl M2 o2 r h2).view.write Val fd ((sl M1 o1 r h1).view.read Val fs) Finset.univ) x
      = M1.view.read Val fs (shift o1 o2 h1 x hx) := by
  rw [read_sl_write_of_mem M2 h2 fd _ x hx, sl_read, up_down_eq_shift]

/-- and what it read before at every other index. -/
theorem read_copy_of_not_mem {o1 o2 r : ℕ} (h1 : o1 + r ≤ R1) (h2 : o2 + r ≤ R2)
    (fs : M1.view.ty.Contents Val) (fd : M2.view.ty.Contents Val)
    (x : (Sr R2).Idx) (hx : ¬ (o2 ≤ (x 0).val ∧ (x 0).val < o2 + r)) :
    M2.view.read Val ((sl M2 o2 r h2).view.write Val fd ((sl M1 o1 r h1).view.read Val fs) Finset.univ) x
      = M2.view.read Val fd x :=
  read_sl_write_of_not_mem M2 h2 fd _ x hx

/-- Contents G that read, at every index of the destination rows, what the source read at the shifted index
    agree with the copy's result on the destination slice. -/
theorem copy_eq_on {o1 o2 r : ℕ} (h1 : o1 + r ≤ R1) (h2 : o2 + r ≤ R2)
    (fs : M1.view.ty.Contents Val) (fd G : M2.view.ty.Contents Val)
    (hG : ∀ (x : (Sr R2).Idx) (hx : o2 ≤ (x 0).val ∧ (x 0).val < o2 + r),
      M2.view.read Val G x = M1.view.read Val fs (shift o1 o2 h1 x hx)) :
    ∀ i ∈ (sl M2 o2 r h2).view.set,
      (sl M2 o2 r h2).view.write Val fd ((sl M1 o1 r h1).view.read Val fs) Finset.univ i = G i := by
  intro i hi
  obtain ⟨x, rfl, hx⟩ := (sl_mem_iff_exists M2).mp hi
  exact eq_at_emb_of_read_eq M2 ((read_copy_of_mem M1 M2 h1 h2 fs fd x hx).trans (hG x hx).symm)

end Copy

end Values

section CopyPointsTo

open Idealize.ShloMosaic.ValueIdx

variable {Ix : Type} [DecidableEq Ix] {Val : EltTy → Type} {Name : Type} [DecidableEq Name] {U : Type} [URA U] {Lvl : Type}

local notation "𝕄" => MT nD τ sig Ix Val Name U Lvl

variable {sp1 sp2 : Space} {e : EltTy} {R1 R2 : ℕ}

/-- THE COPY, as an assertion: the destination rows holding the copy's result hold any contents G that read, at
    every index of those rows, what the source read at the shifted index. The devices of source and destination
    do not enter. -/
theorem pointsTo_copy_eq (M1 : Memref sig .tc sp1 (Sr R1) e) (M2 : Memref sig .tc sp2 (Sr R2) e) (c1 c2 : Dev nD)
    {o1 o2 r : ℕ} (h1 : o1 + r ≤ R1) (h2 : o2 + r ≤ R2) (q : PosShare TreeShare)
    (fs : Buf Val ((sl M1 o1 r h1).view.loc (c1.tc : Thread nD τ)))
    (fd G : Buf Val ((sl M2 o2 r h2).view.loc (c2.tc : Thread nD τ)))
    (hG : ∀ (x : (Sr R2).Idx) (hx : o2 ≤ (x 0).val ∧ (x 0).val < o2 + r),
      M2.view.read Val G x = M1.view.read Val fs (shift o1 o2 h1 x hx)) :
    ((sl M2 o2 r h2).view.loc (c2.tc : Thread nD τ) ↦[(sl M2 o2 r h2).view.set]{q}
        ((sl M2 o2 r h2).view.write Val fd ((sl M1 o1 r h1).view.read Val fs) Finset.univ) : sProp 𝕄)
      = ((sl M2 o2 r h2).view.loc (c2.tc : Thread nD τ) ↦[(sl M2 o2 r h2).view.set]{q} G) :=
  pointsTo_congr (copy_eq_on M1 M2 h1 h2 fs fd G hG)

/-- The same as an entailment at the full share, the form a transfer's landing hands over. -/
theorem pointsTo_copy_entails (M1 : Memref sig .tc sp1 (Sr R1) e) (M2 : Memref sig .tc sp2 (Sr R2) e) (c1 c2 : Dev nD)
    {o1 o2 r : ℕ} (h1 : o1 + r ≤ R1) (h2 : o2 + r ≤ R2)
    (fs : Buf Val ((sl M1 o1 r h1).view.loc (c1.tc : Thread nD τ)))
    (fd G : Buf Val ((sl M2 o2 r h2).view.loc (c2.tc : Thread nD τ)))
    (hG : ∀ (x : (Sr R2).Idx) (hx : o2 ≤ (x 0).val ∧ (x 0).val < o2 + r),
      M2.view.read Val G x = M1.view.read Val fs (shift o1 o2 h1 x hx)) :
    ((sl M2 o2 r h2).view.loc (c2.tc : Thread nD τ) ↦[(sl M2 o2 r h2).view.set]{fullShare}
        ((sl M2 o2 r h2).view.write Val fd ((sl M1 o1 r h1).view.read Val fs) Finset.univ) : sProp 𝕄)
      ⊢ ((sl M2 o2 r h2).view.loc (c2.tc : Thread nD τ) ↦[(sl M2 o2 r h2).view.set]{fullShare} G) :=
  Entails.of_eq (pointsTo_copy_eq M1 M2 c1 c2 h1 h2 fullShare fs fd G hG)

end CopyPointsTo

/-! ## Cutting a whole buffer into row ranges, and joining ranges held at different contents -/

section Join

variable {Ix : Type} [DecidableEq Ix] {Val : EltTy → Type} {Name : Type} [DecidableEq Name] {U : Type} [URA U] {Lvl : Type}

local notation "𝕄" => MT nD τ sig Ix Val Name U Lvl

variable {sp : Space} {e : EltTy} {R : ℕ} (M : Memref sig .tc sp (Sr R) e)

/-- Contents that the memref reads the same at every index of a range agree on the slice over the range. -/
theorem eq_on_sl_of_read_eq {o r : ℕ} {h : o + r ≤ R} {f g : M.view.ty.Contents Val}
    (hfg : ∀ x : (Sr R).Idx, o ≤ (x 0).val ∧ (x 0).val < o + r → M.view.read Val f x = M.view.read Val g x) :
    ∀ i ∈ (sl M o r h).view.set, f i = g i := by
  intro i hi
  obtain ⟨x, rfl, hx⟩ := (sl_mem_iff_exists M).mp hi
  exact eq_at_emb_of_read_eq M (hfg x hx)

/-- So they make the same assertion over the slice. -/
theorem pointsTo_sl_congr (c : Dev nD) {o r : ℕ} {h : o + r ≤ R} (q : PosShare TreeShare)
    {f g : Buf Val (M.view.loc (c.tc : Thread nD τ))}
    (hfg : ∀ x : (Sr R).Idx, o ≤ (x 0).val ∧ (x 0).val < o + r → M.view.read Val f x = M.view.read Val g x) :
    (M.view.loc (c.tc : Thread nD τ) ↦[(sl M o r h).view.set]{q} f : sProp 𝕄)
      = (M.view.loc (c.tc : Thread nD τ) ↦[(sl M o r h).view.set]{q} g) :=
  pointsTo_congr (eq_on_sl_of_read_eq M (h := h) (f := f) (g := g) hfg)

/-- Two adjacent ranges held at contents f and g are the range of both held at any contents G that reads as f on
    the first and as g on the second. -/
theorem pointsTo_rows_join (c : Dev nD) {o r1 r2 : ℕ} {h1 : o + r1 ≤ R} {h2 : o + r1 + r2 ≤ R} {h : o + (r1 + r2) ≤ R}
    (q : PosShare TreeShare) {f g G : Buf Val (M.view.loc (c.tc : Thread nD τ))}
    (hf : ∀ x : (Sr R).Idx, o ≤ (x 0).val ∧ (x 0).val < o + r1 → M.view.read Val f x = M.view.read Val G x)
    (hg : ∀ x : (Sr R).Idx, o + r1 ≤ (x 0).val ∧ (x 0).val < o + r1 + r2 → M.view.read Val g x = M.view.read Val G x) :
    iprop((M.view.loc (c.tc : Thread nD τ) ↦[(sl M o r1 h1).view.set]{q} f)
        ∗ (M.view.loc (c.tc : Thread nD τ) ↦[(sl M (o + r1) r2 h2).view.set]{q} g))
      ⊢ (M.view.loc (c.tc : Thread nD τ) ↦[(sl M o (r1 + r2) h).view.set]{q} G : sProp 𝕄) := by
  rw [pointsTo_sl_congr M c q hf, pointsTo_sl_congr M c q hg]
  exact (pointsTo_rows_split M c (h1 := h1) (h2 := h2) (h := h) q G).2

/-- A buffer held whole is held as its slice of all R rows. -/
theorem pointsTo_univ_eq_rows (c : Dev nD) {h : 0 + R ≤ R} (hM : M.view.set = Finset.univ) (q : PosShare TreeShare)
    (f : Buf Val (M.view.loc (c.tc : Thread nD τ))) :
    (M.view.loc (c.tc : Thread nD τ) ↦[Finset.univ]{q} f : sProp 𝕄)
      = (M.view.loc (c.tc : Thread nD τ) ↦[(sl M 0 R h).view.set]{q} f) := by
  rw [sl_whole M hM]

end Join

end Cert.Kernel.AG

end

/-- info: 'Cert.Kernel.AG.pointsTo_rows_split' depends on axioms: [propext, Classical.choice, Quot.sound] -/
#guard_msgs in #print axioms Cert.Kernel.AG.pointsTo_rows_split

/-- info: 'Cert.Kernel.AG.pointsTo_share_split' depends on axioms: [propext, Classical.choice, Quot.sound] -/
#guard_msgs in #print axioms Cert.Kernel.AG.pointsTo_share_split

/-- info: 'Cert.Kernel.AG.pointsTo_congr_on' depends on axioms: [propext, Classical.choice, Quot.sound] -/
#guard_msgs in #print axioms Cert.Kernel.AG.pointsTo_congr_on

/-- info: 'Cert.Kernel.AG.pointsTo_copy_entails' depends on axioms: [propext, Classical.choice, Quot.sound] -/
#guard_msgs in #print axioms Cert.Kernel.AG.pointsTo_copy_entails

/-- info: 'Cert.Kernel.AG.readAt_rows' depends on axioms: [propext, Classical.choice, Quot.sound] -/
#guard_msgs in #print axioms Cert.Kernel.AG.readAt_rows

/-- info: 'Cert.Kernel.AG.read_store_rows_of_mem' depends on axioms: [propext, Classical.choice, Quot.sound] -/
#guard_msgs in #print axioms Cert.Kernel.AG.read_store_rows_of_mem

/-- info: 'Cert.Kernel.AG.read_store_rows_of_not_mem' depends on axioms: [propext, Classical.choice, Quot.sound] -/
#guard_msgs in #print axioms Cert.Kernel.AG.read_store_rows_of_not_mem

/-- info: 'Cert.Kernel.AG.sl_whole' depends on axioms: [propext, Classical.choice, Quot.sound] -/
#guard_msgs in #print axioms Cert.Kernel.AG.sl_whole

/-- info: 'Cert.Kernel.AG.pointsTo_rows_join' depends on axioms: [propext, Classical.choice, Quot.sound] -/
#guard_msgs in #print axioms Cert.Kernel.AG.pointsTo_rows_join

/-- info: 'Cert.Kernel.AG.pointsTo_univ_eq_rows' depends on axioms: [propext, Classical.choice, Quot.sound] -/
#guard_msgs in #print axioms Cert.Kernel.AG.pointsTo_univ_eq_rows
-- ==== Proof.K.AGContents.lean ====
/-
  What each buffer holds when a device has finished, as ONE whole-buffer function per buffer.
  The mesh is 2 x 2 x 2; device c sits at (x, y, z) = (c / 4, c / 2 % 2, c % 2) and holds the z-th half of the rows of the array.
  Each device has three neighbours, one per axis, obtained by flipping that coordinate.
  The 4096 rows of a device's half are cut into four regions of 672 rows (one per (x, y) position in the plane) followed by two
  regions of 704 rows (one per parity of x + y).  A device converts the whole half to bf16; of the OTHER half it receives, into its
  communication buffer, every row from the device that converted it: a row of a 672-region q from the device at
  (q % 2, q / 2) of the other plane, whatever road it took; a row of a 704-region of the device's own parity from its z-neighbour,
  of the other parity from the z-neighbour of its x-neighbour (first 352 rows) or of its y-neighbour (last 352 rows).
  The result holds the device's own half at its own rows and the communication buffer at the other half's rows.
-/
import proofs.«900673_g7700000000000674_dist_ag_v7x_xyz2x2x2_z_m4096_n1024_bf16_1_alg».proof.Kernel
import Idealize.ShloMosaic.Lib.ValueIdx

noncomputable section

namespace Cert.Kernel.AG

open Idealize.ShloMosaic Idealize.ShloMosaic.TcCoe Idealize.SL.Sem
open Cert.Kernel

variable {F : FTy → Type} [FloatOps F]

/-- The neighbour along z: the last coordinate flipped. -/
def zn (c : Dev nD) : Dev nD := ⟨(4 * (c.val / 4) + 2 * ((c.val / 2) % 2) + 1) - (c.val % 2), by have h : c.val < 8 := c.isLt; show _ < 8; omega⟩
/-- The neighbour along x: the first coordinate flipped. -/
def xn (c : Dev nD) : Dev nD := ⟨(2 * ((c.val / 2) % 2) + (c.val % 2) + 4) - 4 * (c.val / 4), by have h : c.val < 8 := c.isLt; show _ < 8; omega⟩
/-- The neighbour along y: the middle coordinate flipped. -/
def yn (c : Dev nD) : Dev nD := ⟨(4 * (c.val / 4) + (c.val % 2) + 2) - 2 * ((c.val / 2) % 2), by have h : c.val < 8 := c.isLt; show _ < 8; omega⟩

theorem zn_zn (c : Dev nD) : zn (zn c) = c := by revert c; decide
theorem xn_xn (c : Dev nD) : xn (xn c) = c := by revert c; decide
theorem yn_yn (c : Dev nD) : yn (yn c) = c := by revert c; decide
theorem xn_yn (c : Dev nD) : xn (yn c) = yn (xn c) := by revert c; decide
theorem zn_xn (c : Dev nD) : zn (xn c) = xn (zn c) := by revert c; decide
theorem zn_yn (c : Dev nD) : zn (yn c) = yn (zn c) := by revert c; decide
theorem zn_ne (c : Dev nD) : zn c ≠ c := by revert c; decide
theorem xn_ne (c : Dev nD) : xn c ≠ c := by revert c; decide
theorem yn_ne (c : Dev nD) : yn c ≠ c := by revert c; decide
theorem zn_ne_xn (c : Dev nD) : zn c ≠ xn c := by revert c; decide
theorem zn_ne_yn (c : Dev nD) : zn c ≠ yn c := by revert c; decide
theorem xn_ne_yn (c : Dev nD) : xn c ≠ yn c := by revert c; decide

/-- Where row r of device c's communication buffer was converted. -/
def origin (c : Dev nD) (r : ℕ) : Dev nD :=
  if r < 2688 then ⟨4 * ((r / 672) % 2) + 2 * ((r / 672) / 2 % 2) + (1 - c.val % 2), by show _ < 8; omega⟩
  else if ((r - 2688) / 704) % 2 = (c.val / 4 + (c.val / 2) % 2) % 2 then zn c
  else if (r - 2688) % 704 < 352 then zn (xn c) else zn (yn c)

/-- Every origin lies in the other plane. -/
theorem origin_z (c : Dev nD) (r : ℕ) : (origin c r).val % 2 = 1 - c.val % 2 := by
  unfold origin
  split
  · show (4 * ((r / 672) % 2) + 2 * ((r / 672) / 2 % 2) + (1 - c.val % 2)) % 2 = _; omega
  · split
    · exact (by decide : ∀ c : Dev nD, (zn c).val % 2 = 1 - c.val % 2) c
    · split
      · exact (by decide : ∀ c : Dev nD, (zn (xn c)).val % 2 = 1 - c.val % 2) c
      · exact (by decide : ∀ c : Dev nD, (zn (yn c)).val % 2 = 1 - c.val % 2) c

variable (m : (ℓ : Loc nD τ sig) → Buf (Elt F) ℓ)

/-- Device c's half of the array, as launched. -/
def X (c : Dev nD) : Vec F S4096x1024 .f32 := m ((c : Thread nD τ).loc main_arg0)

/-- Device c's half converted to bf16: what its conversion buffer ends holding. -/
def mineV (c : Dev nD) : Vec F S4096x1024 .bf16 := truncf .bf16 (X m c) (by decide)

/-- What device c's communication buffer ends holding: each row from the device that converted it. -/
def commV (c : Dev nD) : Vec F S4096x1024 .bf16 := fun i => mineV m (origin c (i 0).val) i

/-- What device c's result ends holding: its own half at its own rows, the communication buffer at the other half's rows. -/
def outV (c : Dev nD) : Vec F S8192x1024 .bf16 := fun i =>
  if (i 0).val / 4096 = c.val % 2 then mineV m c (ValueIdx.ix2 ⟨(i 0).val % 4096, Nat.mod_lt _ (by decide)⟩ (i 1))
  else commV m c (ValueIdx.ix2 ⟨(i 0).val % 4096, Nat.mod_lt _ (by decide)⟩ (i 1))

end Cert.Kernel.AG

end
-- ==== Proof.K.AGRegions.lean ====
/-
  The rows of the regions, by device.  Device c sits at (x, y, z) = (c / 4, c / 2 % 2, c % 2).  Its half of the array has four
  regions of 672 rows, region q = x' + 2 y' belonging to the position (x', y') of the plane, and two of 704 rows, one per parity
  of x' + y'.  For device c: its OWN 672-region starts at pown c and its own 704-region at rown c; the x-neighbour's at pxn c,
  the y-neighbour's at pyn c, the diagonal's at pdg c; the 704-region of the other parity at roth c.  In the result the device's
  own half starts at row myb c and the other half at row othb c.
  A 672-region is cut into chunks of 112, 224, 168, 168 rows (starting at 0, 112, 336, 504 inside it), a 704-region into four of 176.
-/
import proofs.«900673_g7700000000000674_dist_ag_v7x_xyz2x2x2_z_m4096_n1024_bf16_1_alg».proof.Kernel

namespace Cert.Kernel.AG

open Idealize.ShloMosaic
open Cert.Kernel

def pown (c : Dev nD) : ℕ := (![0, 0, 1344, 1344, 672, 672, 2016, 2016] : Fin 8 → ℕ) c
def pxn (c : Dev nD) : ℕ := (![672, 672, 2016, 2016, 0, 0, 1344, 1344] : Fin 8 → ℕ) c
def pyn (c : Dev nD) : ℕ := (![1344, 1344, 0, 0, 2016, 2016, 672, 672] : Fin 8 → ℕ) c
def pdg (c : Dev nD) : ℕ := (![2016, 2016, 672, 672, 1344, 1344, 0, 0] : Fin 8 → ℕ) c
def rown (c : Dev nD) : ℕ := (![2688, 2688, 3392, 3392, 3392, 3392, 2688, 2688] : Fin 8 → ℕ) c
def roth (c : Dev nD) : ℕ := (![3392, 3392, 2688, 2688, 2688, 2688, 3392, 3392] : Fin 8 → ℕ) c
def myb (c : Dev nD) : ℕ := (![0, 4096, 0, 4096, 0, 4096, 0, 4096] : Fin 8 → ℕ) c
def othb (c : Dev nD) : ℕ := (![4096, 0, 4096, 0, 4096, 0, 4096, 0] : Fin 8 → ℕ) c

/-- Every 672-region lies in the first 2688 rows, every 704-region in the last 1408; the halves of the result are the two halves. -/
theorem pown_le (c : Dev nD) : pown c + 672 ≤ 2688 := by revert c; decide
theorem pxn_le (c : Dev nD) : pxn c + 672 ≤ 2688 := by revert c; decide
theorem pyn_le (c : Dev nD) : pyn c + 672 ≤ 2688 := by revert c; decide
theorem pdg_le (c : Dev nD) : pdg c + 672 ≤ 2688 := by revert c; decide
theorem rown_le (c : Dev nD) : 2688 ≤ rown c ∧ rown c + 704 ≤ 4096 := by revert c; decide
theorem roth_le (c : Dev nD) : 2688 ≤ roth c ∧ roth c + 704 ≤ 4096 := by revert c; decide
theorem myb_le (c : Dev nD) : myb c + 4096 ≤ 8192 := by revert c; decide
theorem othb_le (c : Dev nD) : othb c + 4096 ≤ 8192 := by revert c; decide
theorem myb_othb (c : Dev nD) : myb c + othb c = 4096 := by revert c; decide
theorem myb_eq (c : Dev nD) : myb c = 4096 * (c.val % 2) := by revert c; decide

/-- The four 672-regions of a device are the four regions, each once; likewise the two 704-regions. -/
theorem p_distinct (c : Dev nD) : pown c ≠ pxn c ∧ pown c ≠ pyn c ∧ pown c ≠ pdg c ∧ pxn c ≠ pyn c ∧ pxn c ≠ pdg c ∧ pyn c ≠ pdg c := by
  revert c; decide
theorem p_mod (c : Dev nD) : pown c % 672 = 0 ∧ pxn c % 672 = 0 ∧ pyn c % 672 = 0 ∧ pdg c % 672 = 0 := by revert c; decide
theorem r_distinct (c : Dev nD) : rown c ≠ roth c := by revert c; decide

end Cert.Kernel.AG
-- ==== Proof.K.AGSched.lean ====
/-
  The protocol, cell by cell.  Every semaphore of a device is used for exactly one round.
  The barrier cell of device c has three duties of one unit, paid by its z-, x- and y-neighbour (duties 0, 1, 2): each neighbour
  hands over the eight row ranges of ITS communication buffer that c will write, and that round 0 of the eight receive cells
  those writes credit is reached.
  A DMA cell has one duty (duty 0) of the credit of the copy's destination.  What its landing hands the cell's owner:
   * an input cell: the staging rows holding the device's half, and the rows of the argument read back;
   * a send cell: the source rows back at the share the transfer read them with;
   * a receive cell: the rows of the communication buffer holding what the origin converted;
   * an output cell: the rows of the result written, and the source rows back.
  Shares: rows of the conversion buffer that the z-transfer reads are read at the left half (the whole-buffer copy to the result
  reads the right half); an own 672-chunk of the communication buffer is read by the x-forward (left), the y-forward (left of
  right) and the copy to the result (right of right); an own 704-chunk by its one forward (left) and the copy (right); the
  y-neighbour's first two and the x-neighbour's last two 672-chunks by the forward on (left) and the copy (right).
-/
import proofs.«900673_g7700000000000674_dist_ag_v7x_xyz2x2x2_z_m4096_n1024_bf16_1_alg».proof.Proof.Gen.Kernel.Launch
import proofs.«900673_g7700000000000674_dist_ag_v7x_xyz2x2x2_z_m4096_n1024_bf16_1_alg».proof.Proof.K.AGContents
import proofs.«900673_g7700000000000674_dist_ag_v7x_xyz2x2x2_z_m4096_n1024_bf16_1_alg».proof.Proof.K.AGSl
import proofs.«900673_g7700000000000674_dist_ag_v7x_xyz2x2x2_z_m4096_n1024_bf16_1_alg».proof.Proof.K.AGRegions
import Idealize.ShloMosaic.Lib.Pipeline.Launch
import Idealize.ShloMosaic.Lib.Pipeline.Kit
import Idealize.ShloMosaic.Lib.Tactic

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds library's with duties Fin 3 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers -/

abbrev XA : Memref sig .tc .hbm (Sr 4096) .f32 := Memref.whole main_arg0
abbrev OU : Memref sig .tc .hbm (Sr 8192) .bf16 := Memref.whole main_v1
abbrev ST : Memref sig .tc .vmem (Sr 4096) .f32 := Memref.whole cc0_scratch0
abbrev MI : Memref sig .tc .vmem (Sr 4096) .bf16 := Memref.whole cc0_scratch1
abbrev CM : Memref sig .tc .vmem (Sr 4096) .bf16 := Memref.whole cc0_scratch2

/-- Rows [o, o + r) of a buffer of device c, held at share q with contents f. -/
def pts {sp : Space} {e : EltTy} {R : ℕ} (c : Dev nD) (M : Memref sig .tc sp (Sr R) e) (o r : ℕ) (h : o + r ≤ R) (q : PosShare TreeShare)
    (f : Buf (Elt F) ((sl M o r h).view.loc (c : Thread nD τ))) : sProp 𝕄 :=
  (sl M o r h).view.loc (c : Thread nD τ) ↦[(sl M o r h).view.set]{q} f

/-! ## Chunks -/

/-- Where a chunk of a 672-region starts inside it, and how many rows it has. -/
def pco : Fin 4 → ℕ := ![0, 112, 336, 504]
def pcl : Fin 4 → ℕ := ![112, 224, 168, 168]

/-- Chunk j of the device's own regions: four of its 672-region, then four of its 704-region. -/
def ownOff (c : Dev nD) (j : Fin 8) : ℕ := if h : j.val < 4 then pown c + pco ⟨j.val, h⟩ else rown c + 176 * (j.val - 4)
def ownLen (j : Fin 8) : ℕ := if h : j.val < 4 then pcl ⟨j.val, h⟩ else 176
/-- What arrives from the x-neighbour: its own 672-region, the first half of its 704-region, the first two chunks of the diagonal's. -/
def xinOff (c : Dev nD) (k : Fin 8) : ℕ :=
  if h : k.val < 4 then pxn c + pco ⟨k.val, h⟩ else if k.val < 6 then roth c + 176 * (k.val - 4) else pdg c + pco ⟨k.val - 6, by omega⟩
def xinLen (k : Fin 8) : ℕ := if h : k.val < 4 then pcl ⟨k.val, h⟩ else if k.val < 6 then 176 else pcl ⟨k.val - 6, by omega⟩
/-- What arrives from the y-neighbour: its own 672-region, the second half of its 704-region, the last two chunks of the diagonal's. -/
def yinOff (c : Dev nD) (k : Fin 8) : ℕ :=
  if h : k.val < 4 then pyn c + pco ⟨k.val, h⟩ else if k.val < 6 then roth c + 352 + 176 * (k.val - 4) else pdg c + pco ⟨k.val - 4, by omega⟩
def yinLen (k : Fin 8) : ℕ := if h : k.val < 4 then pcl ⟨k.val, h⟩ else if k.val < 6 then 176 else 168
/-- The twelve input copies: the eight own chunks, then the three other 672-regions and the other 704-region whole. -/
def inOff (c : Dev nD) (i : Fin 12) : ℕ :=
  if h : i.val < 8 then ownOff c ⟨i.val, h⟩ else if i.val = 8 then pxn c else if i.val = 9 then pyn c else if i.val = 10 then pdg c else roth c
def inLen (i : Fin 12) : ℕ := if h : i.val < 8 then ownLen ⟨i.val, h⟩ else if i.val = 11 then 704 else 672

theorem own_inb : ∀ (c : Dev nD) (j : Fin 8), ownOff c j + ownLen j ≤ 4096 := by decide
theorem xin_inb : ∀ (c : Dev nD) (k : Fin 8), xinOff c k + xinLen k ≤ 4096 := by decide
theorem yin_inb : ∀ (c : Dev nD) (k : Fin 8), yinOff c k + yinLen k ≤ 4096 := by decide
theorem in_inb : ∀ (c : Dev nD) (i : Fin 12), inOff c i + inLen i ≤ 4096 := by decide
theorem oown_inb : ∀ (c : Dev nD) (j : Fin 8), othb c + ownOff c j + ownLen j ≤ 8192 := by decide
theorem oxin_inb : ∀ (c : Dev nD) (k : Fin 8), othb c + xinOff c k + xinLen k ≤ 8192 := by decide
theorem oyin_inb : ∀ (c : Dev nD) (k : Fin 8), othb c + yinOff c k + yinLen k ≤ 8192 := by decide
theorem omy_inb (c : Dev nD) : myb c + 4096 ≤ 8192 := myb_le c

/-- A neighbour's chunks are this device's at the same rows: what the x-neighbour calls its own chunk the device receives as the
    x-neighbour's, and so on around. -/
theorem xin_xn : ∀ (c : Dev nD) (k : Fin 4), xinOff c ⟨k.val, by omega⟩ = ownOff (xn c) ⟨k.val, by omega⟩ := by decide
theorem yin_yn : ∀ (c : Dev nD) (k : Fin 4), yinOff c ⟨k.val, by omega⟩ = ownOff (yn c) ⟨k.val, by omega⟩ := by decide
theorem own_zn : ∀ (c : Dev nD) (j : Fin 8), ownOff (zn c) j = ownOff c j := by decide

/-! ## Shares -/

abbrev sL : PosShare TreeShare := fullShare.left
abbrev sR : PosShare TreeShare := fullShare.right
abbrev sRL : PosShare TreeShare := fullShare.right.left
abbrev sRR : PosShare TreeShare := fullShare.right.right

/-- The share the copy of own chunk j to the result reads the communication buffer with. -/
def qlz (j : Fin 8) : PosShare TreeShare := if j.val < 4 then sRR else sR
/-- The share the x-forward k reads with (always the left half); the y-forward's: left of right for an own 672-chunk, else left. -/
def qys (k : Fin 8) : PosShare TreeShare := if k.val < 4 then sRL else sL
/-- The share the copy of the x-arrival k to the result reads with: the right half where the y-forward on reads the left. -/
def qlx (k : Fin 8) : PosShare TreeShare := if k.val = 2 ∨ k.val = 3 then sR else fullShare
def qly (k : Fin 8) : PosShare TreeShare := if k.val = 0 ∨ k.val = 1 then sR else fullShare

/-! ## The cells -/

abbrev barS : Sem sig := (SemArray.scalar (sig.barrier 0 rfl) : Sems sig S_).sem
abbrev barCell (c : Dev nD) : GSem nD τ sig := ((c : Thread nD τ), .reg barS)
/-- DMA semaphore n of device c: 0–11 the inputs; then eight each of: z-send, z-receive, x-send, x-receive, y-send, y-receive,
    result copies of the own, the x- and the y-arrivals; 84 the copy of the conversion buffer. -/
abbrev dcell (c : Dev nD) (n : ℕ) (h : n < 85) : GSem nD τ sig := ((c : Thread nD τ), .dma ⟨n, h⟩)

/-! ## Payloads -/

/-- An input cell: the staging rows holding the device's half there, and the rows of the argument back. -/
def payIn (c : Dev nD) (i : Fin 12) : sProp 𝕄 :=
  iprop(pts c ST (inOff c i) (inLen i) (in_inb c i) fullShare (X m c) ∗ pts c XA (inOff c i) (inLen i) (in_inb c i) fullShare (X m c))
/-- A z-send cell: the rows of the conversion buffer back at the left half. -/
def payZs (c : Dev nD) (j : Fin 8) : sProp 𝕄 := pts c MI (ownOff c j) (ownLen j) (own_inb c j) sL (mineV m c)
/-- A z-receive cell: the own chunk of the communication buffer, holding what the origins converted. -/
def payZr (c : Dev nD) (j : Fin 8) : sProp 𝕄 := pts c CM (ownOff c j) (ownLen j) (own_inb c j) fullShare (commV m c)
/-- An x-send cell: the source rows (the x-neighbour's arrival k, at the same rows here) back at the left half. -/
def payXs (c : Dev nD) (k : Fin 8) : sProp 𝕄 := pts c CM (xinOff (xn c) k) (xinLen k) (xin_inb (xn c) k) sL (commV m c)
def payXr (c : Dev nD) (k : Fin 8) : sProp 𝕄 := pts c CM (xinOff c k) (xinLen k) (xin_inb c k) fullShare (commV m c)
def payYs (c : Dev nD) (k : Fin 8) : sProp 𝕄 := pts c CM (yinOff (yn c) k) (yinLen k) (yin_inb (yn c) k) (qys k) (commV m c)
def payYr (c : Dev nD) (k : Fin 8) : sProp 𝕄 := pts c CM (yinOff c k) (yinLen k) (yin_inb c k) fullShare (commV m c)
/-- An output cell: the rows of the result written, and the source rows of the communication buffer back. -/
def payLz (c : Dev nD) (j : Fin 8) : sProp 𝕄 :=
  iprop(pts c OU (othb c + ownOff c j) (ownLen j) (oown_inb c j) fullShare (outV m c) ∗ pts c CM (ownOff c j) (ownLen j) (own_inb c j) (qlz j) (commV m c))
def payLx (c : Dev nD) (k : Fin 8) : sProp 𝕄 :=
  iprop(pts c OU (othb c + xinOff c k) (xinLen k) (oxin_inb c k) fullShare (outV m c) ∗ pts c CM (xinOff c k) (xinLen k) (xin_inb c k) (qlx k) (commV m c))
def payLy (c : Dev nD) (k : Fin 8) : sProp 𝕄 :=
  iprop(pts c OU (othb c + yinOff c k) (yinLen k) (oyin_inb c k) fullShare (outV m c) ∗ pts c CM (yinOff c k) (yinLen k) (yin_inb c k) (qly k) (commV m c))
/-- The copy of the whole conversion buffer: the device's own half of the result, and the buffer back at the right half. -/
def payLm (c : Dev nD) : sProp 𝕄 :=
  iprop(pts c OU (myb c) 4096 (omy_inb c) fullShare (outV m c) ∗ pts c MI 0 4096 (Nat.le_refl _) sR (mineV m c))

/-- The index within its family of eight of DMA semaphore n, the family starting at b. -/
def fj (n b : ℕ) : Fin 8 := ⟨(n - b) % 8, Nat.mod_lt _ (by decide)⟩

/-- What the landing on DMA cell n hands device c. -/
def dpay (c : Dev nD) (n : ℕ) : sProp 𝕄 :=
  if h : n < 12 then payIn m c ⟨n, h⟩
  else if n < 20 then payZs m c (fj n 12)
  else if n < 28 then payZr m c (fj n 20)
  else if n < 36 then payXs m c (fj n 28)
  else if n < 44 then payXr m c (fj n 36)
  else if n < 52 then payYs m c (fj n 44)
  else if n < 60 then payYr m c (fj n 52)
  else if n < 68 then payLz m c (fj n 60)
  else if n < 76 then payLx m c (fj n 68)
  else if n < 84 then payLy m c (fj n 76)
  else payLm m c

/-- What neighbour d's signal (0: z, 1: x, 2: y) hands device c: the eight row ranges of the neighbour's communication buffer that
    c writes, and that the eight receive cells there are at round 0. -/
def bpay (c : Dev nD) (d : Fin 3) : sProp 𝕄 :=
  if d.val = 0 then
    bigSep Finset.univ fun j : Fin 8 => iprop((∃ f, pts (zn c) CM (ownOff (zn c) j) (ownLen j) (own_inb (zn c) j) fullShare f)
      ∗ reached ER (dcell (zn c) (20 + j.val) (by omega)) 0)
  else if d.val = 1 then
    bigSep Finset.univ fun k : Fin 8 => iprop((∃ f, pts (xn c) CM (xinOff (xn c) k) (xinLen k) (xin_inb (xn c) k) fullShare f)
      ∗ reached ER (dcell (xn c) (36 + k.val) (by omega)) 0)
  else
    bigSep Finset.univ fun k : Fin 8 => iprop((∃ f, pts (yn c) CM (yinOff (yn c) k) (yinLen k) (yin_inb (yn c) k) fullShare f)
      ∗ reached ER (dcell (yn c) (52 + k.val) (by omega)) 0)

/-! ## Amounts: the credit of the copy's destination rows (it does not depend on where the rows start) -/

theorem Sr_numel_pos {r : ℕ} (h : 0 < r) : 0 < (Sr r).numel :=
  Shape.numel_pos fun a => by fin_cases a; exact h; exact (by decide : 0 < 1024)

theorem inLen_pos : ∀ i : Fin 12, 0 < inLen i ∧ inLen i ≤ 4096 := by decide
theorem ownLen_pos : ∀ j : Fin 8, 0 < ownLen j ∧ ownLen j ≤ 4096 := by decide
theorem xinLen_pos : ∀ k : Fin 8, 0 < xinLen k ∧ xinLen k ≤ 4096 := by decide
theorem yinLen_pos : ∀ k : Fin 8, 0 < yinLen k ∧ yinLen k ≤ 4096 := by decide

def amtST (r : ℕ) (h : r ≤ 4096) : ℕ := (sl ST 0 r (by omega)).view.dmaCredit
def amtCM (r : ℕ) (h : r ≤ 4096) : ℕ := (sl CM 0 r (by omega)).view.dmaCredit
def amtOU (r : ℕ) (h : r ≤ 8192) : ℕ := (sl OU 0 r (by omega)).view.dmaCredit

theorem amtST_pos {r : ℕ} (h : r ≤ 4096) (hr : 0 < r) : 0 < amtST r h := View.dmaCredit_pos _ (Sr_numel_pos hr)
theorem amtCM_pos {r : ℕ} (h : r ≤ 4096) (hr : 0 < r) : 0 < amtCM r h := View.dmaCredit_pos _ (Sr_numel_pos hr)
theorem amtOU_pos {r : ℕ} (h : r ≤ 8192) (hr : 0 < r) : 0 < amtOU r h := View.dmaCredit_pos _ (Sr_numel_pos hr)

/-- The units one round of DMA cell n carries. -/
def damt (n : ℕ) : ℕ :=
  if h : n < 12 then amtST (inLen ⟨n, h⟩) (inLen_pos _).2
  else if n < 28 then amtCM (ownLen (fj n 12)) (ownLen_pos _).2
  else if n < 44 then amtCM (xinLen (fj n 28)) (xinLen_pos _).2
  else if n < 60 then amtCM (yinLen (fj n 44)) (yinLen_pos _).2
  else if n < 68 then amtOU (ownLen (fj n 60)) (Nat.le_trans (ownLen_pos _).2 (by decide))
  else if n < 76 then amtOU (xinLen (fj n 68)) (Nat.le_trans (xinLen_pos _).2 (by decide))
  else if n < 84 then amtOU (yinLen (fj n 76)) (Nat.le_trans (yinLen_pos _).2 (by decide))
  else amtOU 4096 (by decide)

theorem damt_pos (n : ℕ) : 0 < damt n := by
  unfold damt
  split
  · exact amtST_pos _ (inLen_pos _).1
  split
  · exact amtCM_pos _ (ownLen_pos _).1
  split
  · exact amtCM_pos _ (xinLen_pos _).1
  split
  · exact amtCM_pos _ (yinLen_pos _).1
  split
  · exact amtOU_pos _ (ownLen_pos _).1
  split
  · exact amtOU_pos _ (xinLen_pos _).1
  split
  · exact amtOU_pos _ (yinLen_pos _).1
  · exact amtOU_pos _ (by decide)

/-! ## The schedule -/

/-- One round, round 0, on every TensorCore cell: the barrier cell's three unit duties, a DMA cell's one. -/
def agRd : Rounds.Schedule (GSem nD τ sig) (Fin 3) 𝕄 where
  duties g r := if r = 0 ∧ g.1.2 = .tc then (match g.2 with | .reg s => if s = barS then Finset.univ else ∅ | .dma _ => {0}) else ∅
  unitless _ := False
  amount g _ _ := match g.2 with | .reg _ => 1 | .dma q => damt q.val
  payload g _ d := match g.2 with | .reg _ => bpay g.1.1 d | .dma q => dpay m g.1.1 q.val
  amount_pos g r d h := by
    obtain ⟨t, s⟩ := g
    cases s with
    | reg s => exact Nat.one_pos
    | dma q => exact damt_pos q.val

instance pts_storable {sp : Space} {e : EltTy} {R : ℕ} (c : Dev nD) (M : Memref sig .tc sp (Sr R) e) (o r : ℕ) (h : o + r ≤ R) (q : PosShare TreeShare)
    (f : Buf (Elt F) ((sl M o r h).view.loc (c : Thread nD τ))) : BI.Storable (upEmb : UEmb _ 𝕄) (pts (F := F) c M o r h q f) := by
  unfold pts; infer_instance

instance dpay_storable (c : Dev nD) (n : ℕ) : BI.Storable (upEmb : UEmb _ 𝕄) (dpay (F := F) m c n) := by
  unfold dpay payIn payZs payZr payXs payXr payYs payYr payLz payLx payLy payLm
  (repeat' split) <;> infer_instance

instance bpay_storable (c : Dev nD) (d : Fin 3) : BI.Storable (upEmb : UEmb _ 𝕄) (bpay (F := F) c d) := by
  unfold bpay
  (repeat' split) <;> infer_instance

instance agRd_payload_storable (g : GSem nD τ sig) (r : ℕ) (d : Fin 3) : BI.Storable (upEmb : UEmb _ 𝕄) ((agRd (F := F) m).payload g r d) := by
  obtain ⟨t, s⟩ := g
  cases s with
  | reg s => exact bpay_storable t.1 d
  | dma q => exact dpay_storable m t.1 q.val

end Cert.Kernel.AG

end
-- ==== Proof.K.AGState.lean ====
/-
  The schedule's tables read cell by cell, what each device owes when the kernel is launched, and the levels.
  A device owes: one unit to each neighbour's barrier cell, and to each neighbour the credit of the eight transfers it sends it
  (the z-neighbour's eight z-receive cells, the x-neighbour's eight x-receive cells, the y-neighbour's eight y-receive cells).
  Levels: a send cell or a local copy's cell is at 0 (its owner pays it itself); the barrier cell at 1; a receive cell at 2 + its
  place in the order in which every device waits for its receive cells:
  z0 z1 y0 z2 z3 y1 x2 x3 z4 z5 z6 z7 x0 x1 x4 x5 x6 x7 y2 y3 y4 y5 y6 y7.
  Every transfer a device fires after one of these waits credits a cell that comes later in that order, so a device waits only
  on cells below everything it still owes.
-/
import proofs.«900673_g7700000000000674_dist_ag_v7x_xyz2x2x2_z_m4096_n1024_bf16_1_alg».proof.Proof.K.AGSched

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables -/

section Tables
variable (c : Dev nD) (n : ℕ) (h : n < 85)

theorem duties_bar : (agRd (F := F) m).duties (barCell c) 0 = Finset.univ := by
  dsimp only [agRd]; rw [if_pos ⟨rfl, rfl⟩, if_pos rfl]
theorem duties_dma : (agRd (F := F) m).duties (dcell c n h) 0 = {0} := by
  dsimp only [agRd]; rw [if_pos ⟨rfl, rfl⟩]
theorem duties_later (g : GSem nD τ sig) : ∀ r, 1 ≤ r → (agRd (F := F) m).duties g r = ∅ :=
  fun r hr => by dsimp only [agRd]; rw [if_neg fun h => by omega]
theorem amount_bar (d : Fin 3) : (agRd (F := F) m).amount (barCell c) 0 d = 1 := rfl
theorem amount_dma (d : Fin 3) : (agRd (F := F) m).amount (dcell c n h) 0 d = damt n := rfl
theorem payload_bar (d : Fin 3) : (agRd (F := F) m).payload (barCell c) 0 d = bpay c d := rfl
theorem payload_dma (d : Fin 3) : (agRd (F := F) m).payload (dcell c n h) 0 d = dpay m c n := rfl

theorem expect_bar : (agRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma : (agRd (F := F) m).expect (dcell c n h) 0 = damt n := by
  unfold Schedule.expect Schedule.amountOf; rw [duties_dma, Finset.sum_singleton, amount_dma]

/-- The rest of a DMA cell's round, nothing taken: its one payload. -/
theorem rest_dma : bigSep ((agRd (F := F) m).duties (dcell c n h) 0 \ ∅) (fun d => (agRd (F := F) m).payload (dcell c n h) 0 d) = dpay m c n := by
  rw [Finset.sdiff_empty, duties_dma, bigSep_singleton, payload_dma]

/-- The rest of the barrier cell's round, nothing taken: the three neighbours' payloads. -/
theorem rest_bar : bigSep ((agRd (F := F) m).duties (barCell c) 0 \ ∅) (fun d => (agRd (F := F) m).payload (barCell c) 0 d)
    = iprop(bpay c 0 ∗ bpay c 1 ∗ bpay c 2) := by
  rw [Finset.sdiff_empty, duties_bar, bigSep_univ_eq_bigSepL [0, 1, 2] (by decide) (by decide)]
  rfl

end Tables

/-! ## Every cell of a device, by one index: 0–84 its DMA cells, 85 its barrier cell -/

abbrev ksem (k : Fin 86) : SemLoc sig := if h : k.val < 85 then .dma ⟨k.val, h⟩ else .reg barS
abbrev kcell (ck : Dev nD × Fin 86) : GSem nD τ sig := ((ck.1 : Thread nD τ), ksem ck.2)

/-! ## What a device owes at launch, in the order in which it pays -/

/-- The cells device c pays another device's owner on, with the units, in the order the body pays them: the three barrier
    signals (z, x, y); the eight z-transfers; then the forwards x0 y0 x1 y1 x6 x2 y2 x3 y3 x7 y6 y7 x4 x5 y4 y5. -/
def fires (c : Dev nD) : List (GSem nD τ sig × ℕ) :=
  [ (barCell (zn c), 1), (barCell (xn c), 1), (barCell (yn c), 1),
    (dcell (zn c) 20 (by decide), damt 20), (dcell (zn c) 21 (by decide), damt 21), (dcell (zn c) 22 (by decide), damt 22), (dcell (zn c) 23 (by decide), damt 23),
    (dcell (zn c) 24 (by decide), damt 24), (dcell (zn c) 25 (by decide), damt 25), (dcell (zn c) 26 (by decide), damt 26), (dcell (zn c) 27 (by decide), damt 27),
    (dcell (xn c) 36 (by decide), damt 36), (dcell (yn c) 52 (by decide), damt 52),
    (dcell (xn c) 37 (by decide), damt 37), (dcell (yn c) 53 (by decide), damt 53),
    (dcell (xn c) 42 (by decide), damt 42),
    (dcell (xn c) 38 (by decide), damt 38), (dcell (yn c) 54 (by decide), damt 54),
    (dcell (xn c) 39 (by decide), damt 39), (dcell (yn c) 55 (by decide), damt 55),
    (dcell (xn c) 43 (by decide), damt 43),
    (dcell (yn c) 58 (by decide), damt 58), (dcell (yn c) 59 (by decide), damt 59),
    (dcell (xn c) 40 (by decide), damt 40), (dcell (xn c) 41 (by decide), damt 41),
    (dcell (yn c) 56 (by decide), damt 56), (dcell (yn c) 57 (by decide), damt 57) ]

/-- What is still owed once the first k payments are made: the later ones, the next payment the LAST summand. -/
def owedAfter (c : Dev nD) (k : ℕ) : CellTallies nD τ sig Unit :=
  ((fires c).drop k).foldr (fun t acc => acc + tallyAt t.1 () t.2) 0

theorem owedAfter_all (c : Dev nD) : owedAfter c 27 = 0 := rfl

/-! ## Levels -/

def L (g : GSem nD τ sig) : Finset Unit := if g.1.2 = .tc then {()} else ∅

/-- The place of a receive cell in the order every device waits for them, plus 2; every other DMA cell 0. -/
def lvDma (n : ℕ) : ℕ :=
  if n = 20 then 2 else if n = 21 then 3 else if n = 52 then 4 else if n = 22 then 5 else if n = 23 then 6 else if n = 53 then 7
  else if n = 38 then 8 else if n = 39 then 9 else if n = 24 then 10 else if n = 25 then 11 else if n = 26 then 12 else if n = 27 then 13
  else if n = 36 then 14 else if n = 37 then 15 else if n = 40 then 16 else if n = 41 then 17 else if n = 42 then 18 else if n = 43 then 19
  else if n = 54 then 20 else if n = 55 then 21 else if n = 56 then 22 else if n = 57 then 23 else if n = 58 then 24 else if n = 59 then 25
  else 0

def lv (g : GSem nD τ sig) (_ : Unit) : ℕ := match g.2 with | .reg _ => 1 | .dma q => lvDma q.val

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- Every cell's invariant, under the names the launch allocated them at, and that round 0 of every cell is reached. -/
def records (K : Dev nD × Fin 86 → ℕ) : sProp 𝕄 :=
  iprop((bigSep Finset.univ fun ck : Dev nD × Fin 86 => cellInv ER (agRd m) (K ck) (kcell ck))
    ∗ bigSep Finset.univ fun ck : Dev nD × Fin 86 => reached ER (kcell ck) 0)

instance records_persistent (K : Dev nD × Fin 86 → ℕ) : BI.Persistent (records m K) := by unfold records; infer_instance

/-- The device's positions: at round 0 of each of its cells, nothing taken. -/
def positions (c : Dev nD) : sProp 𝕄 := bigSep Finset.univ fun k : Fin 86 => atPos ER (kcell (c, k)) 0 ∅ 0

/-- The DMA cells of its own that a device pays itself: inputs, sends, result copies. -/
def ownPaid : Finset (Fin 85) := Finset.univ.filter fun n => n.val < 20 ∨ (28 ≤ n.val ∧ n.val < 36) ∨ (44 ≤ n.val ∧ n.val < 52) ∨ 60 ≤ n.val
/-- Its receive cells. -/
def ownRecv : Finset (Fin 85) := Finset.univ.filter fun n => (20 ≤ n.val ∧ n.val < 28) ∨ (36 ≤ n.val ∧ n.val < 44) ∨ (52 ≤ n.val ∧ n.val < 60)

/-- The tokens of the duties the device pays: its signal duty on each neighbour's barrier cell, the receive duty of each
    neighbour's eight receive cells it transfers into, and the duty of each of its own cells it pays itself. -/
def payToks (c : Dev nD) : sProp 𝕄 :=
  iprop(dutyTok ER (barCell (zn c)) 0 0 ∗ dutyTok ER (barCell (xn c)) 0 1 ∗ dutyTok ER (barCell (yn c)) 0 2
    ∗ (bigSep Finset.univ fun j : Fin 8 => dutyTok ER (dcell (zn c) (20 + j.val) (by omega)) 0 0)
    ∗ (bigSep Finset.univ fun k : Fin 8 => dutyTok ER (dcell (xn c) (36 + k.val) (by omega)) 0 0)
    ∗ (bigSep Finset.univ fun k : Fin 8 => dutyTok ER (dcell (yn c) (52 + k.val) (by omega)) 0 0)
    ∗ (bigSep ownPaid fun n => dutyTok ER (dcell c n.val n.isLt) 0 0))

/-- The credit dealt at launch: the three units of its barrier cell and the amount of each of its receive cells. -/
def creds (c : Dev nD) : sProp 𝕄 :=
  iprop(cred (tallyAt (barCell c) () 3) ∗ bigSep ownRecv fun n => cred (tallyAt (dcell c n.val n.isLt) () (damt n.val)))

/-- What the body of device c starts from, besides its buffers. -/
def start (c : Dev nD) : sProp 𝕄 :=
  iprop((∃ K, records m K ∗ positions c ∗ payToks c) ∗ creds c ∗ levAts L lv)

/-- A whole buffer of device c at some contents; at given contents. -/
def someBuf (c : Dev nD) (b : Ref sig .tc) : sProp 𝕄 := iprop(∃ f : Buf (Elt F) ((c : Thread nD τ).loc b), ((c : Thread nD τ).loc b) ↦{fullShare} f)

/-- Before the body: the ghost state, the three scratch buffers at some contents, the argument as launched, the result at some contents. -/
def Φ₀ (c : Dev nD) : sProp 𝕄 :=
  iprop(start m c ∗ (someBuf c cc0_scratch0 ∗ someBuf c cc0_scratch1 ∗ someBuf c cc0_scratch2)
    ∗ (((c : Thread nD τ).loc main_arg0) ↦{fullShare} X m c) ∗ someBuf c main_v1)

/-- After the body: the scratch buffers at some contents, the argument unchanged, the result holding the whole array converted,
    and every one of the device's DMA cells closed with its counter at zero. -/
def Φ₁ (c : Dev nD) : sProp 𝕄 :=
  iprop((someBuf c cc0_scratch0 ∗ someBuf c cc0_scratch1 ∗ someBuf c cc0_scratch2)
    ∗ (((c : Thread nD τ).loc main_arg0) ↦{fullShare} X m c) ∗ (((c : Thread nD τ).loc main_v1) ↦{fullShare} outV m c)
    ∗ bigSep Finset.univ fun n : Fin 85 => semVal (dcell c n.val n.isLt) 0)

/-- The pipeline's proof data: no window; the invariant before and after the one point; what is owed before and after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owedAfter c 0
    | ⟨_ + 1, _⟩ => 0

abbrev 𝒱₀ : Variants := Variants.none

end Cert.Kernel.AG

end
-- ==== Proof.K.AGCuts.lean ====
/-
  Cutting a whole buffer of a device into the row ranges it is held by, and joining the ranges back.
  A buffer of 4096 rows is four regions of 672 rows (at rows 0, 672, 1344, 2016) and two of 704 rows (at rows 2688, 3392); a
  672-region is chunks of 112, 224, 168, 168 rows, a 704-region four chunks of 176 rows.  For device c the regions at pown c, pxn c,
  pyn c, pdg c are those four 672-regions in an order that depends on c, and the regions at rown c, roth c the two 704-regions.
  Adjacent row ranges held at one share and one contents are the range of both, so the 4096 rows are the twenty-four chunks; and
  since the separating conjunction is commutative and associative, the chunks can be listed family by family: the eight own chunks,
  the eight ranges that arrive from the x-neighbour and the eight that arrive from the y-neighbour; or the eight own chunks and the
  three other 672-regions and the other 704-region whole.  The result has 8192 rows: the device's own half, and in the other half
  the same families counted from that half's first row.
  Every statement is an equality of assertions (two assertions that entail each other are equal), given as an equivalence.
-/
import proofs.«900673_g7700000000000674_dist_ag_v7x_xyz2x2x2_z_m4096_n1024_bf16_1_alg».proof.Proof.K.AGSlices
import proofs.«900673_g7700000000000674_dist_ag_v7x_xyz2x2x2_z_m4096_n1024_bf16_1_alg».proof.Proof.K.AGState

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Separating conjunction is commutative and associative as an equality of assertions -/

local instance sepComm {M : Type _} [RA M] : Std.Commutative (α := sProp M) BIBase.sep :=
  ⟨fun _ _ => BI.Entails.antisymm BI.sep_comm BI.sep_comm⟩
local instance sepAssoc {M : Type _} [RA M] : Std.Associative (α := sProp M) BIBase.sep :=
  ⟨fun _ _ _ => BI.Entails.antisymm BI.sep_assoc BI.sep_assoc'⟩

/-! ## Families of eight and of twelve, written out -/

omit [FloatOps F] in
theorem cuts_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem cuts_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The regions of a device are the regions, in another order -/

omit [FloatOps F] in
/-- The four 672-regions of a device are the regions at 0, 672, 1344, 2016 in some order. -/
theorem perm_p (A : ℕ → sProp 𝕄) (c : Dev nD) :
    iprop(A 0 ∗ A 672 ∗ A 1344 ∗ A 2016) = iprop(A (pown c) ∗ A (pxn c) ∗ A (pyn c) ∗ A (pdg c)) := by
  have h : (pown c = 0 ∧ pxn c = 672 ∧ pyn c = 1344 ∧ pdg c = 2016) ∨ (pown c = 672 ∧ pxn c = 0 ∧ pyn c = 2016 ∧ pdg c = 1344)
      ∨ (pown c = 1344 ∧ pxn c = 2016 ∧ pyn c = 0 ∧ pdg c = 672) ∨ (pown c = 2016 ∧ pxn c = 1344 ∧ pyn c = 672 ∧ pdg c = 0) := by
    revert c; decide
  rcases h with ⟨h1, h2, h3, h4⟩ | ⟨h1, h2, h3, h4⟩ | ⟨h1, h2, h3, h4⟩ | ⟨h1, h2, h3, h4⟩ <;> rw [h1, h2, h3, h4] <;> ac_rfl

omit [FloatOps F] in
/-- The two 704-regions of a device are the regions at 2688 and 3392 in some order. -/
theorem perm_r (A : ℕ → sProp 𝕄) (c : Dev nD) : iprop(A 2688 ∗ A 3392) = iprop(A (rown c) ∗ A (roth c)) := by
  have h : (rown c = 2688 ∧ roth c = 3392) ∨ (rown c = 3392 ∧ roth c = 2688) := by revert c; decide
  rcases h with ⟨h1, h2⟩ | ⟨h1, h2⟩ <;> rw [h1, h2] <;> ac_rfl

omit [FloatOps F] in
/-- The two halves of the result of a device are the halves at 0 and 4096 in some order. -/
theorem perm_b (A : ℕ → sProp 𝕄) (c : Dev nD) : iprop(A 0 ∗ A 4096) = iprop(A (myb c) ∗ A (othb c)) := by
  have h : (myb c = 0 ∧ othb c = 4096) ∨ (myb c = 4096 ∧ othb c = 0) := by revert c; decide
  rcases h with ⟨h1, h2⟩ | ⟨h1, h2⟩ <;> rw [h1, h2] <;> ac_rfl

/-! ## Row ranges counted from a base row -/

section Pieces

variable {sp : Space} {e : EltTy} {R : ℕ} (c : Dev nD) (B : Memref sig .tc sp (Sr R) e) (β : ℕ) (q : PosShare TreeShare)
  (f : Buf (Elt F) (B.view.loc (c : Thread nD τ)))

omit [FloatOps F] in
/-- The same rows under another spelling of their first row and their number. -/
theorem pts_eq {o o' r r' : ℕ} (ho : o = o') (hr : r = r') (h : o + r ≤ R) (h' : o' + r' ≤ R) :
    pts (F := F) c B o r h q f = pts c B o' r' h' q f := by
  subst ho hr; rfl

/-- Rows [β + o, β + o + r) of the buffer, where they lie inside it. -/
def pc (o r : ℕ) : sProp 𝕄 := if h : β + o + r ≤ R then pts c B (β + o) r h q f else iprop(emp)

omit [FloatOps F] in
theorem pc_pts {o r : ℕ} (h : β + o + r ≤ R) : pc c B β q f o r = pts c B (β + o) r h q f := dif_pos h

omit [FloatOps F] in
/-- Counted from row 0 the rows are the buffer's own. -/
theorem pc_zero {o r : ℕ} (h : o + r ≤ R) : pc c B 0 q f o r = pts c B o r h q f :=
  (pc_pts c B 0 q f (by omega)).trans (pts_eq c B q f (Nat.zero_add o) rfl _ h)

omit [FloatOps F] in
/-- A range is its first r1 rows and the r2 rows after them. -/
theorem pc_cut {o r : ℕ} (r1 : ℕ) {o2 r2 : ℕ} (h : β + o + r ≤ R) (ho : o2 = o + r1) (hr : r = r1 + r2) :
    pc c B β q f o r = iprop(pc c B β q f o r1 ∗ pc c B β q f o2 r2) := by
  subst ho hr
  have h1 : β + o + r1 ≤ R := by omega
  have h2 : β + o + r1 + r2 ≤ R := by omega
  have h2' : β + (o + r1) + r2 ≤ R := by omega
  have h0 : β + o + (r1 + r2) ≤ R := h
  rw [pc_pts c B β q f h0, pc_pts c B β q f h1, pc_pts c B β q f h2',
    pts_eq c B q f (show β + (o + r1) = β + o + r1 by omega) rfl h2' h2]
  have hs := pointsTo_rows_split (Ix := Unit) (Val := Elt F) (Name := ℕ) (U := UU) (Lvl := ℕ) B c
    (o := β + o) (r1 := r1) (r2 := r2) (h1 := h1) (h2 := h2) (h := h0) q f
  unfold pts
  exact BI.equiv_iff.mp ⟨hs.1, hs.2⟩

omit [FloatOps F] in
/-- A range is four ranges one after another. -/
theorem pc_cut4 {o r : ℕ} (l0 l1 l2 l3 : ℕ) {a1 a2 a3 : ℕ} (h : β + o + r ≤ R)
    (e1 : a1 = o + l0) (e2 : a2 = o + l0 + l1) (e3 : a3 = o + l0 + l1 + l2) (hr : r = l0 + l1 + l2 + l3) :
    pc c B β q f o r = iprop(pc c B β q f o l0 ∗ pc c B β q f a1 l1 ∗ pc c B β q f a2 l2 ∗ pc c B β q f a3 l3) := by
  rw [pc_cut c B β q f l0 (o := o) (r := r) (o2 := a1) (r2 := l1 + l2 + l3) h e1 (by omega),
    pc_cut c B β q f l1 (o := a1) (r := l1 + l2 + l3) (o2 := a2) (r2 := l2 + l3) (by omega) (by omega) (by omega),
    pc_cut c B β q f l2 (o := a2) (r := l2 + l3) (o2 := a3) (r2 := l3) (by omega) (by omega) rfl]

omit [FloatOps F] in
/-- The 4096 rows from the base are the four regions of 672 rows and the two of 704, -/
theorem pc_regions (hβ : β + 4096 ≤ R) :
    pc c B β q f 0 4096 = iprop((pc c B β q f 0 672 ∗ pc c B β q f 672 672 ∗ pc c B β q f 1344 672 ∗ pc c B β q f 2016 672)
      ∗ (pc c B β q f 2688 704 ∗ pc c B β q f 3392 704)) := by
  rw [pc_cut c B β q f 2688 (o := 0) (r := 4096) (o2 := 2688) (r2 := 1408) (by omega) rfl rfl,
    pc_cut4 c B β q f 672 672 672 672 (o := 0) (r := 2688) (a1 := 672) (a2 := 1344) (a3 := 2016) (by omega) rfl rfl rfl rfl,
    pc_cut c B β q f 704 (o := 2688) (r := 1408) (o2 := 3392) (r2 := 704) (by omega) rfl rfl]

omit [FloatOps F] in
/-- that is the device's own, x-, y- and diagonal 672-region and its own and other 704-region. -/
theorem pc_regions_dev (hβ : β + 4096 ≤ R) :
    pc c B β q f 0 4096 = iprop((pc c B β q f (pown c) 672 ∗ pc c B β q f (pxn c) 672 ∗ pc c B β q f (pyn c) 672 ∗ pc c B β q f (pdg c) 672)
      ∗ (pc c B β q f (rown c) 704 ∗ pc c B β q f (roth c) 704)) := by
  have hp := perm_p (fun o => pc c B β q f o 672) c
  have hr := perm_r (fun o => pc c B β q f o 704) c
  beta_reduce at hp hr
  rw [pc_regions c B β q f hβ, hp, hr]

omit [FloatOps F] in
/-- A 672-region is its chunks of 112, 224, 168, 168 rows. -/
theorem pc_chunks_p {p : ℕ} (hp : p + 672 ≤ 4096) (hβ : β + 4096 ≤ R) :
    pc c B β q f p 672 = iprop(pc c B β q f p 112 ∗ pc c B β q f (p + 112) 224 ∗ pc c B β q f (p + 336) 168 ∗ pc c B β q f (p + 504) 168) :=
  pc_cut4 c B β q f 112 224 168 168 (by omega) rfl (by omega) (by omega) rfl

omit [FloatOps F] in
/-- A 704-region is its four chunks of 176 rows. -/
theorem pc_chunks_r {p : ℕ} (hp : p + 704 ≤ 4096) (hβ : β + 4096 ≤ R) :
    pc c B β q f p 704 = iprop(pc c B β q f p 176 ∗ pc c B β q f (p + 176) 176 ∗ pc c B β q f (p + 352) 176 ∗ pc c B β q f (p + 352 + 176) 176) :=
  pc_cut4 c B β q f 176 176 176 176 (by omega) rfl (by omega) (by omega) rfl

omit [FloatOps F] in
/-- The 4096 rows as the own chunks, the x-arrivals and the y-arrivals, chunk by chunk. -/
theorem pc_fam3_rows (hβ : β + 4096 ≤ R) :
    pc c B β q f 0 4096 = iprop(
      (pc c B β q f (pown c) 112 ∗ pc c B β q f (pown c + 112) 224 ∗ pc c B β q f (pown c + 336) 168 ∗ pc c B β q f (pown c + 504) 168
        ∗ pc c B β q f (rown c) 176 ∗ pc c B β q f (rown c + 176) 176 ∗ pc c B β q f (rown c + 352) 176 ∗ pc c B β q f (rown c + 352 + 176) 176)
      ∗ (pc c B β q f (pxn c) 112 ∗ pc c B β q f (pxn c + 112) 224 ∗ pc c B β q f (pxn c + 336) 168 ∗ pc c B β q f (pxn c + 504) 168
        ∗ pc c B β q f (roth c) 176 ∗ pc c B β q f (roth c + 176) 176 ∗ pc c B β q f (pdg c) 112 ∗ pc c B β q f (pdg c + 112) 224)
      ∗ (pc c B β q f (pyn c) 112 ∗ pc c B β q f (pyn c + 112) 224 ∗ pc c B β q f (pyn c + 336) 168 ∗ pc c B β q f (pyn c + 504) 168
        ∗ pc c B β q f (roth c + 352) 176 ∗ pc c B β q f (roth c + 352 + 176) 176 ∗ pc c B β q f (pdg c + 336) 168 ∗ pc c B β q f (pdg c + 504) 168)) := by
  rw [pc_regions_dev c B β q f hβ,
    pc_chunks_p c B β q f (pown_le c |> fun h => by omega) hβ, pc_chunks_p c B β q f (pxn_le c |> fun h => by omega) hβ,
    pc_chunks_p c B β q f (pyn_le c |> fun h => by omega) hβ, pc_chunks_p c B β q f (pdg_le c |> fun h => by omega) hβ,
    pc_chunks_r c B β q f (rown_le c).2 hβ, pc_chunks_r c B β q f (roth_le c).2 hβ]
  ac_rfl

omit [FloatOps F] in
/-- The 4096 rows as the twelve input ranges: the own chunks, then the x-, y- and diagonal 672-region and the other 704-region whole. -/
theorem pc_fam12_rows (hβ : β + 4096 ≤ R) :
    pc c B β q f 0 4096 = iprop(
      pc c B β q f (pown c) 112 ∗ pc c B β q f (pown c + 112) 224 ∗ pc c B β q f (pown c + 336) 168 ∗ pc c B β q f (pown c + 504) 168
        ∗ pc c B β q f (rown c) 176 ∗ pc c B β q f (rown c + 176) 176 ∗ pc c B β q f (rown c + 352) 176 ∗ pc c B β q f (rown c + 352 + 176) 176
        ∗ pc c B β q f (pxn c) 672 ∗ pc c B β q f (pyn c) 672 ∗ pc c B β q f (pdg c) 672 ∗ pc c B β q f (roth c) 704) := by
  rw [pc_regions_dev c B β q f hβ, pc_chunks_p c B β q f (pown_le c |> fun h => by omega) hβ, pc_chunks_r c B β q f (rown_le c).2 hβ]
  ac_rfl

/-! ## The same in the families' spelling -/

omit [FloatOps F] in
theorem pc_fam3 (hβ : β + 4096 ≤ R) :
    pc c B β q f 0 4096 = iprop(
      (bigSep Finset.univ fun j : Fin 8 => pc c B β q f (ownOff c j) (ownLen j))
      ∗ (bigSep Finset.univ fun k : Fin 8 => pc c B β q f (xinOff c k) (xinLen k))
      ∗ (bigSep Finset.univ fun k : Fin 8 => pc c B β q f (yinOff c k) (yinLen k))) := by
  rw [cuts_fin8, cuts_fin8, cuts_fin8]
  exact pc_fam3_rows c B β q f hβ

omit [FloatOps F] in
theorem pc_fam12 (hβ : β + 4096 ≤ R) :
    pc c B β q f 0 4096 = bigSep Finset.univ fun i : Fin 12 => pc c B β q f (inOff c i) (inLen i) := by
  rw [cuts_fin12]
  exact pc_fam12_rows c B β q f hβ

omit [FloatOps F] in
/-- Rows [β, β + 4096) of a buffer are the own chunks, the x-arrivals and the y-arrivals counted from row β. -/
theorem pts_fam3 (hβ : β + 4096 ≤ R) (ho : ∀ j : Fin 8, β + ownOff c j + ownLen j ≤ R)
    (hx : ∀ k : Fin 8, β + xinOff c k + xinLen k ≤ R) (hy : ∀ k : Fin 8, β + yinOff c k + yinLen k ≤ R) :
    pts (F := F) c B β 4096 hβ q f = iprop(
      (bigSep Finset.univ fun j : Fin 8 => pts c B (β + ownOff c j) (ownLen j) (ho j) q f)
      ∗ (bigSep Finset.univ fun k : Fin 8 => pts c B (β + xinOff c k) (xinLen k) (hx k) q f)
      ∗ (bigSep Finset.univ fun k : Fin 8 => pts c B (β + yinOff c k) (yinLen k) (hy k) q f)) := by
  rw [bigSep_congr fun j _ => (pc_pts c B β q f (ho j)).symm, bigSep_congr fun k _ => (pc_pts c B β q f (hx k)).symm,
    bigSep_congr fun k _ => (pc_pts c B β q f (hy k)).symm, ← pc_fam3 c B β q f hβ, pc_pts c B β q f (o := 0) (r := 4096) (by omega)]
  exact pts_eq c B q f rfl rfl _ _

omit [FloatOps F] in
/-- Rows [β, β + 4096) of a buffer are the twelve input ranges counted from row β. -/
theorem pts_fam12 (hβ : β + 4096 ≤ R) (hi : ∀ i : Fin 12, β + inOff c i + inLen i ≤ R) :
    pts (F := F) c B β 4096 hβ q f = bigSep Finset.univ fun i : Fin 12 => pts c B (β + inOff c i) (inLen i) (hi i) q f := by
  rw [bigSep_congr fun i _ => (pc_pts c B β q f (hi i)).symm, ← pc_fam12 c B β q f hβ, pc_pts c B β q f (o := 0) (r := 4096) (by omega)]
  exact pts_eq c B q f rfl rfl _ _

end Pieces

/-! ## The whole buffers of a device -/

section Whole

variable {sp : Space} {e : EltTy} (c : Dev nD)

omit [FloatOps F] in
/-- A buffer held whole is its rows [0, R). -/
theorem whole_rows {R : ℕ} (B : Memref sig .tc sp (Sr R) e) (hB : B.view.set = Finset.univ) (q : PosShare TreeShare)
    (f : Buf (Elt F) (B.view.loc (c : Thread nD τ))) :
    (B.view.loc (c : Thread nD τ) ↦{q} f : sProp 𝕄) = pts c B 0 R (Nat.le_of_eq (Nat.zero_add R)) q f := by
  unfold pts
  exact pointsTo_univ_eq_rows (Ix := Unit) (Val := Elt F) (Name := ℕ) (U := UU) (Lvl := ℕ) B c hB q f

omit [FloatOps F] in
/-- The 4096 rows of a buffer are the twelve input ranges. -/
theorem rows_in (B : Memref sig .tc sp (Sr 4096) e) (q : PosShare TreeShare) (f : Buf (Elt F) (B.view.loc (c : Thread nD τ))) :
    pts (F := F) c B 0 4096 (Nat.le_refl _) q f = bigSep Finset.univ fun i : Fin 12 => pts c B (inOff c i) (inLen i) (in_inb c i) q f := by
  rw [pts_fam12 c B 0 q f (Nat.le_refl _) (fun i => by have := in_inb c i; omega)]
  exact bigSep_congr fun i _ => pts_eq c B q f (Nat.zero_add _) rfl _ _

omit [FloatOps F] in
/-- The 4096 rows of a buffer are the own chunks, the x-arrivals and the y-arrivals. -/
theorem rows_fam (B : Memref sig .tc sp (Sr 4096) e) (q : PosShare TreeShare) (f : Buf (Elt F) (B.view.loc (c : Thread nD τ))) :
    pts (F := F) c B 0 4096 (Nat.le_refl _) q f = iprop(
      (bigSep Finset.univ fun j : Fin 8 => pts c B (ownOff c j) (ownLen j) (own_inb c j) q f)
      ∗ (bigSep Finset.univ fun k : Fin 8 => pts c B (xinOff c k) (xinLen k) (xin_inb c k) q f)
      ∗ (bigSep Finset.univ fun k : Fin 8 => pts c B (yinOff c k) (yinLen k) (yin_inb c k) q f)) := by
  rw [pts_fam3 c B 0 q f (Nat.le_refl _) (fun j => by have := own_inb c j; omega) (fun k => by have := xin_inb c k; omega)
    (fun k => by have := yin_inb c k; omega)]
  exact congrArg₂ _ (bigSep_congr fun j _ => pts_eq c B q f (Nat.zero_add _) rfl _ _)
    (congrArg₂ _ (bigSep_congr fun k _ => pts_eq c B q f (Nat.zero_add _) rfl _ _)
      (bigSep_congr fun k _ => pts_eq c B q f (Nat.zero_add _) rfl _ _))

omit [FloatOps F] in
/-- (1) A whole buffer of 4096 rows is the twelve input ranges. -/
theorem cut_in (B : Memref sig .tc sp (Sr 4096) e) (hB : B.view.set = Finset.univ) (q : PosShare TreeShare)
    (f : Buf (Elt F) (B.view.loc (c : Thread nD τ))) :
    (B.view.loc (c : Thread nD τ) ↦{q} f : sProp 𝕄)
      ⊣⊢ bigSep Finset.univ fun i : Fin 12 => pts c B (inOff c i) (inLen i) (in_inb c i) q f :=
  BiEntails.of_eq ((whole_rows c B hB q f).trans (rows_in c B q f))

omit [FloatOps F] in
theorem cut_in_XA (q : PosShare TreeShare) (f : Buf (Elt F) ((c : Thread nD τ).loc main_arg0)) :
    ((((c : Thread nD τ).loc main_arg0) ↦{q} f : sProp 𝕄))
      ⊣⊢ bigSep Finset.univ fun i : Fin 12 => pts c XA (inOff c i) (inLen i) (in_inb c i) q f :=
  cut_in c XA (View.set_whole _) q f

omit [FloatOps F] in
theorem cut_in_ST (q : PosShare TreeShare) (f : Buf (Elt F) ((c : Thread nD τ).loc cc0_scratch0)) :
    ((((c : Thread nD τ).loc cc0_scratch0) ↦{q} f : sProp 𝕄))
      ⊣⊢ bigSep Finset.univ fun i : Fin 12 => pts c ST (inOff c i) (inLen i) (in_inb c i) q f :=
  cut_in c ST (View.set_whole _) q f

omit [FloatOps F] in
theorem cut_in_MI (q : PosShare TreeShare) (f : Buf (Elt F) ((c : Thread nD τ).loc cc0_scratch1)) :
    ((((c : Thread nD τ).loc cc0_scratch1) ↦{q} f : sProp 𝕄))
      ⊣⊢ bigSep Finset.univ fun i : Fin 12 => pts c MI (inOff c i) (inLen i) (in_inb c i) q f :=
  cut_in c MI (View.set_whole _) q f

omit [FloatOps F] in
/-- (2) The whole communication buffer is the own chunks, the x-arrivals and the y-arrivals. -/
theorem cut_cm (q : PosShare TreeShare) (f : Buf (Elt F) ((c : Thread nD τ).loc cc0_scratch2)) :
    ((((c : Thread nD τ).loc cc0_scratch2) ↦{q} f : sProp 𝕄)) ⊣⊢ iprop(
      (bigSep Finset.univ fun j : Fin 8 => pts c CM (ownOff c j) (ownLen j) (own_inb c j) q f)
      ∗ (bigSep Finset.univ fun k : Fin 8 => pts c CM (xinOff c k) (xinLen k) (xin_inb c k) q f)
      ∗ (bigSep Finset.univ fun k : Fin 8 => pts c CM (yinOff c k) (yinLen k) (yin_inb c k) q f)) :=
  BiEntails.of_eq ((whole_rows c CM (View.set_whole _) q f).trans (rows_fam c CM q f))

omit [FloatOps F] in
/-- (3) The whole result is the device's own half and, in the other half, the own chunks, the x-arrivals and the y-arrivals. -/
theorem cut_ou_at (q : PosShare TreeShare) (f : Buf (Elt F) ((c : Thread nD τ).loc main_v1)) :
    ((((c : Thread nD τ).loc main_v1) ↦{q} f : sProp 𝕄)) ⊣⊢ iprop(pts c OU (myb c) 4096 (omy_inb c) q f
      ∗ (bigSep Finset.univ fun j : Fin 8 => pts c OU (othb c + ownOff c j) (ownLen j) (oown_inb c j) q f)
      ∗ (bigSep Finset.univ fun k : Fin 8 => pts c OU (othb c + xinOff c k) (xinLen k) (oxin_inb c k) q f)
      ∗ (bigSep Finset.univ fun k : Fin 8 => pts c OU (othb c + yinOff c k) (yinLen k) (oyin_inb c k) q f)) := by
  refine BiEntails.of_eq ((whole_rows c OU (View.set_whole _) q f).trans ?_)
  have e1 := pc_zero c OU q f (o := 0) (r := 8192) (Nat.le_refl _)
  have e2 := pc_cut c OU 0 q f 4096 (o := 0) (r := 8192) (o2 := 4096) (r2 := 4096) (Nat.le_refl _) rfl rfl
  have hb := perm_b (fun o => pc c OU 0 q f o 4096) c
  beta_reduce at hb
  have e3 := pc_zero c OU q f (omy_inb c)
  have e4 := pc_zero c OU q f (othb_le c)
  have e5 := pts_fam3 c OU (othb c) q f (othb_le c) (oown_inb c) (oxin_inb c) (oyin_inb c)
  rw [← e1, e2, hb, e3, e4, e5]

omit [FloatOps F] in
theorem cut_ou (f : Buf (Elt F) ((c : Thread nD τ).loc main_v1)) :
    ((((c : Thread nD τ).loc main_v1) ↦{fullShare} f : sProp 𝕄)) ⊣⊢ iprop(pts c OU (myb c) 4096 (omy_inb c) fullShare f
      ∗ (bigSep Finset.univ fun j : Fin 8 => pts c OU (othb c + ownOff c j) (ownLen j) (oown_inb c j) fullShare f)
      ∗ (bigSep Finset.univ fun k : Fin 8 => pts c OU (othb c + xinOff c k) (xinLen k) (oxin_inb c k) fullShare f)
      ∗ (bigSep Finset.univ fun k : Fin 8 => pts c OU (othb c + yinOff c k) (yinLen k) (oyin_inb c k) fullShare f)) :=
  cut_ou_at c fullShare f

omit [FloatOps F] in
/-- (4) The twelve input ranges of the conversion buffer at the right half make its 4096 rows at the right half. -/
theorem join_mi_sR (f : Buf (Elt F) ((c : Thread nD τ).loc cc0_scratch1)) :
    (bigSep Finset.univ fun i : Fin 12 => pts c MI (inOff c i) (inLen i) (in_inb c i) sR f)
      ⊣⊢ pts c MI 0 4096 (Nat.le_refl _) sR f :=
  BiEntails.of_eq (rows_in c MI sR f).symm

end Whole

end Cert.Kernel.AG

end

/-- info: 'Cert.Kernel.AG.cut_in' depends on axioms: [propext, Classical.choice, Quot.sound] -/
#guard_msgs in #print axioms Cert.Kernel.AG.cut_in

/-- info: 'Cert.Kernel.AG.cut_in_XA' depends on axioms: [propext, Classical.choice, Quot.sound] -/
#guard_msgs in #print axioms Cert.Kernel.AG.cut_in_XA

/-- info: 'Cert.Kernel.AG.cut_in_ST' depends on axioms: [propext, Classical.choice, Quot.sound] -/
#guard_msgs in #print axioms Cert.Kernel.AG.cut_in_ST

/-- info: 'Cert.Kernel.AG.cut_in_MI' depends on axioms: [propext, Classical.choice, Quot.sound] -/
#guard_msgs in #print axioms Cert.Kernel.AG.cut_in_MI

/-- info: 'Cert.Kernel.AG.cut_cm' depends on axioms: [propext, Classical.choice, Quot.sound] -/
#guard_msgs in #print axioms Cert.Kernel.AG.cut_cm

/-- info: 'Cert.Kernel.AG.cut_ou' depends on axioms: [propext, Classical.choice, Quot.sound] -/
#guard_msgs in #print axioms Cert.Kernel.AG.cut_ou

/-- info: 'Cert.Kernel.AG.join_mi_sR' depends on axioms: [propext, Classical.choice, Quot.sound] -/
#guard_msgs in #print axioms Cert.Kernel.AG.join_mi_sR
-- ==== Proof.K.AGSteps.lean ====
/-
  The body's steps, once each.  A local copy pays the one duty of the device's own cell; an addressed transfer pays the one duty of
  the device's send cell and the one duty of the neighbour's receive cell, off what the device owes; a wait for the whole amount of
  a DMA cell takes the cell's one payload.  What each landing hands over is the schedule's payload: the hypotheses hpay say that the
  rows as written ARE that payload.  A wait is allowed because the waited cell lies below every cell still owed.
-/
import proofs.«900673_g7700000000000674_dist_ag_v7x_xyz2x2x2_z_m4096_n1024_bf16_1_alg».proof.Proof.K.AGState

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A local copy -/

/-- Rows [o, o+r) of M copied to rows [o', o'+r) of M' on DMA cell n of the device itself. -/
theorem step_copy {sp sp' : Space} {e : EltTy} {R R' : ℕ} (c : Dev nD) (M : Memref sig .tc sp (Sr R) e) (M' : Memref sig .tc sp' (Sr R') e)
    (o o' r : ℕ) (h : o + r ≤ R) (h' : o' + r ≤ R') (n : ℕ) (hn : n < 85) (q : PosShare TreeShare)
    (fs : Buf (Elt F) ((sl M o r h).view.loc (c : Thread nD τ))) (fd : Buf (Elt F) ((sl M' o' r h').view.loc (c : Thread nD τ)))
    {hsrc : (sl M o r h).view.WordExact} {hdst : (sl M' o' r h').view.WordExact}
    {hsem : DmaTarget.Typed (nD := nD) (τ := τ) (p := .tc) sp (SemLoc.dma (⟨n, hn⟩ : DmaSem sig)) (DmaTarget.here (sl M' o' r h'))}
    {α : Type} {Q : α → sProp 𝕄} {k : PUnit → Prog (TpuEff nD τ sig (Elt F) Λ₀ .tc) α} {κ : ℕ}
    (hk : (sl M' o' r h').view.dmaCredit = damt n)
    (hpay : iprop(((sl M' o' r h').view.loc (c : Thread nD τ) ↦[(sl M' o' r h').view.set]{fullShare}
                ((sl M' o' r h').view.write (Elt F) fd ((sl M o r h).view.read (Elt F) fs) Finset.univ))
              ∗ ((sl M o r h).view.loc (c : Thread nD τ) ↦[(sl M o r h).view.set]{q} fs)) ⊢ dpay m c n) :
    iprop(cellInv ER (agRd m) κ (dcell c n hn) ∗ pts c M o r h q fs ∗ pts c M' o' r h' fullShare fd
        ∗ dutyTok ER (dcell c n hn) 0 0 ∗ reached ER (dcell c n hn) 0)
      ⊢ iprop((cred (tallyAt (dcell c n hn) () (damt n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl M o r h) (.here (sl M' o' r h')) (.dma ⟨n, hn⟩) hsrc hdst hsem) k) Q) := by
  unfold pts
  exact Rounds.wp_copy_pointsTo 𝒱₀ ER (agRd m) (c : Thread nD τ) none (r := 0) (d := 0)
    (by rw [duties_dma]; exact Finset.mem_singleton_self _) () (damt n) ((View.amount_dma _ _).trans hk) (amount_dma m c n hn 0)
    (by rw [payload_dma]; exact hpay)

/-! ## An addressed transfer -/

/-- Rows [o, o+r) of M on device c sent to the same rows of M' on device d: the send cell ns of c, the receive cell nr of d. -/
theorem step_send {sp sp' : Space} {e : EltTy} {R R' : ℕ} (c d : Dev nD) (M : Memref sig .tc sp (Sr R) e) (M' : Memref sig .tc sp' (Sr R') e)
    (o o' r : ℕ) (h : o + r ≤ R) (h' : o' + r ≤ R') (ns nr : ℕ) (hns : ns < 85) (hnr : nr < 85) (q : PosShare TreeShare)
    (fs : Buf (Elt F) ((sl M o r h).view.loc (c : Thread nD τ))) (fd : Buf (Elt F) ((sl M' o' r h').view.loc (d : Thread nD τ)))
    {hsc : (sl M' o' r h' : Memref sig (Dev.tc d : Thread nD τ).2.kind sp' (Sr r) e).view.ref.isScScratch = false}
    {hsrc : (sl M o r h).view.WordExact} {hdst : (sl M' o' r h').view.WordExact}
    {hsem : DmaTarget.Typed sp (.dma ⟨nr, hnr⟩) (.remote (Dev.tc d : Thread nD τ) (sl M' o' r h') (.dma ⟨ns, hns⟩) hsc)}
    {α : Type} {Q : α → sProp 𝕄} {k : PUnit → Prog (TpuEff nD τ sig (Elt F) Λ₀ .tc) α} {κ₁ κ₂ : ℕ}
    (O₀ O : CellTallies nD τ sig Unit) (W : Waits sig Unit)
    (hO : O₀ = O + tallyAt (dcell d nr hnr) () (damt nr))
    (hk : (sl M' o' r h').view.dmaCredit = damt nr) (hks : damt ns = damt nr)
    (hpay₁ : ((sl M o r h).view.loc (c : Thread nD τ) ↦[(sl M o r h).view.set]{q} fs) ⊢ dpay m c ns)
    (hpay₂ : ((sl M' o' r h').view.loc (d : Thread nD τ) ↦[(sl M' o' r h').view.set]{fullShare}
                ((sl M' o' r h').view.write (Elt F) fd ((sl M o r h).view.read (Elt F) fs) Finset.univ)) ⊢ dpay m d nr) :
    iprop(cellInv ER (agRd m) κ₁ (dcell c ns hns) ∗ cellInv ER (agRd m) κ₂ (dcell d nr hnr)
        ∗ pts c M o r h q fs ∗ pts d M' o' r h' fullShare fd
        ∗ owes (c : Thread nD τ) O₀ W
        ∗ dutyTok ER (dcell c ns hns) 0 0 ∗ reached ER (dcell c ns hns) 0
        ∗ dutyTok ER (dcell d nr hnr) 0 0 ∗ reached ER (dcell d nr hnr) 0)
      ⊢ iprop(((cred (tallyAt (dcell c ns hns) () (damt nr)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl M o r h) (.remote (Dev.tc d : Thread nD τ) (sl M' o' r h') (.dma ⟨ns, hns⟩) hsc) (.dma ⟨nr, hnr⟩) hsrc hdst hsem) k) Q) := by
  unfold pts
  exact Rounds.wp_send_pointsTo 𝒱₀ ER (agRd m) (c : Thread nD τ) none (κ₁ := κ₁) (κ₂ := κ₂) (r₁ := 0) (r₂ := 0) (d₁ := 0) (d₂ := 0) (fd := fd)
    (by rw [duties_dma]; exact Finset.mem_singleton_self _) (by rw [duties_dma]; exact Finset.mem_singleton_self _)
    () () (damt nr) ((View.amount_dma _ _).trans hk) ((amount_dma m c ns hns 0).trans hks) (amount_dma m d nr hnr 0) O hO (W := W)
    (by rw [payload_dma]; exact hpay₁) (by rw [payload_dma]; exact hpay₂)

/-! ## A wait for the whole amount of a DMA cell -/

theorem step_wait {sp sp' : Space} {s s' : Shape} {e e' : EltTy} (c : Dev nD) (n : ℕ) (hn : n < 85)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α} {κ : ℕ}
    (O : CellTallies nD τ sig Unit) (W : Waits sig Unit) (hk : dst.view.dmaCredit = damt n) :
    iprop(cellInv ER (agRd m) κ (dcell c n hn) ∗ cred (tallyAt (dcell c n hn) () (damt n)) ∗ owes (c : Thread nD τ) O W
        ∗ MayWait (c : Thread nD τ) (.dma ⟨n, hn⟩) () O ∗ atPos ER (dcell c n hn) 0 ∅ 0)
      ⊢ iprop(((owes (c : Thread nD τ) O (insert (SemLoc.dma ⟨n, hn⟩, ()) W) ∗ atPos ER (dcell c n hn) 1 ∅ 0 ∗ reached ER (dcell c n hn) 1 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ⟨n, hn⟩ src dst hsrc hdst) k) Q) := by
  have hr := Rounds.wp_wait_rest_token (defs := defs₀ (F := F)) 𝒱₀ ER (agRd m) (c : Thread nD τ) none (κ := κ) (Q := Q) (k := k)
      (w := .waitDma2 ⟨n, hn⟩ src dst hsrc hdst) (sm := .dma ⟨n, hn⟩) (k' := damt n)
      (fun K => (wpE_waitDma2_eq (defs := defs₀ (F := F)) 𝒱₀ (c : Thread nD τ) none Set.univ K).trans (by rw [hk])) (Set.mem_univ _) () (O := O) (W := W) (R := 0) (m := 0) (T := ∅)
      (by rw [Nat.zero_add, expect_dma])
  rw [rest_dma] at hr
  exact hr

/-! ## The barrier -/

/-- The signal to a neighbour's barrier cell paying duty dn of it: the device hands over the payload and pays one unit off what it owes. -/
theorem step_signal (c d : Dev nD) (dn : Fin 3)
    {α : Type} {Q : α → sProp 𝕄} {k : PUnit → Prog (TpuEff nD τ sig (Elt F) Λ₀ .tc) α} {κ : ℕ}
    (O₀ O : CellTallies nD τ sig Unit) (W : Waits sig Unit) (hO : O₀ = O + tallyAt (barCell d) () 1)
    (hr : τ.routes (c : Thread nD τ) (d : Thread nD τ) = true) :
    iprop(cellInv ER (agRd m) κ (barCell d) ∗ owes (c : Thread nD τ) O₀ W ∗ dutyTok ER (barCell d) 0 dn ∗ bpay (F := F) d dn ∗ reached ER (barCell d) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) := by
  have hs := Rounds.wp_signal (defs := defs₀ (F := F)) (Γ := PendingWaitsCtx.empty) 𝒱₀ ER (agRd m) (c : Thread nD τ) none (dst := (d : Thread nD τ)) (sem := barS) (r := 0) (d := dn) (k' := 1)
    (κ := κ) (Q := Q) (k := k) (by rw [duties_bar]; exact Finset.mem_univ _) (amount_bar m d dn) () O hO (W := W) (Es := Set.univ) hr
  rw [payload_bar] at hs
  exact hs

/-- The wait for the three units of the device's own barrier cell: the three neighbours' payloads. -/
theorem step_barwait (c : Dev nD)
    {α : Type} {Q : α → sProp 𝕄} {k : PUnit → Prog (TpuEff nD τ sig (Elt F) Λ₀ .tc) α} {κ : ℕ}
    (O : CellTallies nD τ sig Unit) (W : Waits sig Unit) :
    iprop(cellInv ER (agRd m) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ (bpay (F := F) c 0 ∗ bpay (F := F) c 1 ∗ bpay (F := F) c 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  have hr := Rounds.wp_wait_rest_token (defs := defs₀ (F := F)) 𝒱₀ ER (agRd m) (c : Thread nD τ) none (κ := κ) (Q := Q) (k := k)
      (w := .semWait barS 3) (sm := .reg barS) (k' := 3)
      (wpE_semWait_eq (defs := defs₀ (F := F)) 𝒱₀ (c : Thread nD τ) none Set.univ) (Set.mem_univ _) () (O := O) (W := W) (R := 0) (m := 0) (T := ∅)
      (by rw [expect_bar])
  rw [rest_bar] at hr
  exact hr

/-! ## A wait is below everything still owed -/

/-- What a list of payments still owes is positive only at one of its cells. -/
theorem owed_pos (l : List (GSem nD τ sig × ℕ)) {g : GSem nD τ sig} {u : Unit}
    (h : 0 < (l.foldr (fun t acc => acc + tallyAt t.1 () t.2) (0 : CellTallies nD τ sig Unit)) g u) : ∃ t ∈ l, g = t.1 := by
  induction l with
  | nil => exact absurd h (Nat.lt_irrefl 0)
  | cons t l ih =>
    rw [List.foldr_cons] at h
    rcases Pipeline.add_pos_cases h with h | h
    · obtain ⟨t', ht', rfl⟩ := ih h
      exact ⟨t', List.mem_cons_of_mem _ ht', rfl⟩
    · rw [tallyAt_apply] at h
      by_cases hg : g = t.1 ∧ u = ()
      · exact ⟨t, List.mem_cons_self .., hg.1⟩
      · rw [if_neg hg] at h; exact absurd h (Nat.lt_irrefl 0)

/-- A wait on one of the device's cells, after k payments: allowed when the cell's level is below the level of every later payment's cell. -/
theorem mayWait_after (c : Dev nD) (sm : SemLoc sig) (k : ℕ)
    (hlv : ∀ t ∈ (fires c).drop k, lv ((c : Thread nD τ), sm) () < lv t.1 () ∧ t.1.1.2 = .tc) :
    (levAts L lv : sProp 𝕄) ⊢ MayWait (c : Thread nD τ) sm () (owedAfter c k) :=
  Pipeline.mayWait_of_levAts (by rw [L_tc]; exact Finset.mem_singleton_self _) fun g u hg => by
    obtain ⟨t, ht, rfl⟩ := owed_pos _ hg
    refine ⟨?_, (hlv t ht).1⟩
    cases u
    unfold L; rw [if_pos (hlv t ht).2]; exact Finset.mem_singleton_self _

/-! ## The same steps against the printed spelling

  The printed program names a row range by the chain that computes its first row, a semaphore by its place in its array and a
  neighbour by the chain that computes its id; each equals the region's row, the cell's number, the neighbour. -/

theorem step_copy' {sp sp' : Space} {e : EltTy} {R R' : ℕ} (c : Dev nD) (M : Memref sig .tc sp (Sr R) e) (M' : Memref sig .tc sp' (Sr R') e)
    (o o' r : ℕ) (h : o + r ≤ R) (h' : o' + r ≤ R') (n : ℕ) (hn : n < 85) (q : PosShare TreeShare)
    (fs : Buf (Elt F) ((sl M o r h).view.loc (c : Thread nD τ))) (fd : Buf (Elt F) ((sl M' o' r h').view.loc (c : Thread nD τ)))
    (off off' : Fin 2 → ℕ) (hoff : off = ![o, 0]) (hoff' : off' = ![o', 0]) (qs : DmaSem sig) (hqs : qs = ⟨n, hn⟩)
    {inb : ∀ a, off a + (Sr r).size a ≤ (Sr R).size a} {inb' : ∀ a, off' a + (Sr r).size a ≤ (Sr R').size a}
    {hst : ∀ a, (Rect.unit (s := Sr R) off (Sr r).size inb).stride a = 1} {hst' : ∀ a, (Rect.unit (s := Sr R') off' (Sr r).size inb').stride a = 1}
    {hsrc : (M.slice (Rect.unit (s := Sr R) off (Sr r).size inb) hst).view.WordExact} {hdst : (M'.slice (Rect.unit (s := Sr R') off' (Sr r).size inb') hst').view.WordExact}
    {hsem : DmaTarget.Typed (nD := nD) (τ := τ) (p := .tc) sp (SemLoc.dma qs) (DmaTarget.here (M'.slice (Rect.unit (s := Sr R') off' (Sr r).size inb') hst'))}
    {α : Type} {Q : α → sProp 𝕄} {k : PUnit → Prog (TpuEff nD τ sig (Elt F) Λ₀ .tc) α} {κ : ℕ}
    (hk : (sl M' o' r h').view.dmaCredit = damt n)
    (hpay : iprop(((sl M' o' r h').view.loc (c : Thread nD τ) ↦[(sl M' o' r h').view.set]{fullShare}
                ((sl M' o' r h').view.write (Elt F) fd ((sl M o r h).view.read (Elt F) fs) Finset.univ))
              ∗ ((sl M o r h).view.loc (c : Thread nD τ) ↦[(sl M o r h).view.set]{q} fs)) ⊢ dpay m c n) :
    iprop(cellInv ER (agRd m) κ (dcell c n hn) ∗ pts c M o r h q fs ∗ pts c M' o' r h' fullShare fd
        ∗ dutyTok ER (dcell c n hn) 0 0 ∗ reached ER (dcell c n hn) 0)
      ⊢ iprop((cred (tallyAt (dcell c n hn) () (damt n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M.slice (Rect.unit (s := Sr R) off (Sr r).size inb) hst) (.here (M'.slice (Rect.unit (s := Sr R') off' (Sr r).size inb') hst')) (.dma qs) hsrc hdst hsem) k) Q) := by
  subst hoff hoff' hqs
  exact step_copy m c M M' o o' r h h' n hn q fs fd hk hpay

theorem step_send' {sp sp' : Space} {e : EltTy} {R R' : ℕ} (c d : Dev nD) (M : Memref sig .tc sp (Sr R) e) (M' : Memref sig .tc sp' (Sr R') e)
    (o o' r : ℕ) (h : o + r ≤ R) (h' : o' + r ≤ R') (ns nr : ℕ) (hns : ns < 85) (hnr : nr < 85) (q : PosShare TreeShare)
    (fs : Buf (Elt F) ((sl M o r h).view.loc (c : Thread nD τ))) (fd : Buf (Elt F) ((sl M' o' r h').view.loc (d : Thread nD τ)))
    (off off' : Fin 2 → ℕ) (hoff : off = ![o, 0]) (hoff' : off' = ![o', 0]) (qs qr : DmaSem sig) (hqs : qs = ⟨ns, hns⟩) (hqr : qr = ⟨nr, hnr⟩)
    (dv : Dev nD) (hdv : dv = d)
    {inb : ∀ a, off a + (Sr r).size a ≤ (Sr R).size a} {inb' : ∀ a, off' a + (Sr r).size a ≤ (Sr R').size a}
    {hst : ∀ a, (Rect.unit (s := Sr R) off (Sr r).size inb).stride a = 1} {hst' : ∀ a, (Rect.unit (s := Sr R') off' (Sr r).size inb').stride a = 1}
    {hsc : (M'.slice (Rect.unit (s := Sr R') off' (Sr r).size inb') hst' : Memref sig (Dev.tc dv : Thread nD τ).2.kind sp' (Sr r) e).view.ref.isScScratch = false}
    {hsrc : (M.slice (Rect.unit (s := Sr R) off (Sr r).size inb) hst).view.WordExact} {hdst : (M'.slice (Rect.unit (s := Sr R') off' (Sr r).size inb') hst').view.WordExact}
    {hsem : DmaTarget.Typed sp (.dma qr) (.remote (Dev.tc dv : Thread nD τ) (M'.slice (Rect.unit (s := Sr R') off' (Sr r).size inb') hst') (.dma qs) hsc)}
    {α : Type} {Q : α → sProp 𝕄} {k : PUnit → Prog (TpuEff nD τ sig (Elt F) Λ₀ .tc) α} {κ₁ κ₂ : ℕ}
    (O₀ O : CellTallies nD τ sig Unit) (W : Waits sig Unit)
    (hO : O₀ = O + tallyAt (dcell d nr hnr) () (damt nr))
    (hk : (sl M' o' r h').view.dmaCredit = damt nr) (hks : damt ns = damt nr)
    (hpay₁ : ((sl M o r h).view.loc (c : Thread nD τ) ↦[(sl M o r h).view.set]{q} fs) ⊢ dpay m c ns)
    (hpay₂ : ((sl M' o' r h').view.loc (d : Thread nD τ) ↦[(sl M' o' r h').view.set]{fullShare}
                ((sl M' o' r h').view.write (Elt F) fd ((sl M o r h).view.read (Elt F) fs) Finset.univ)) ⊢ dpay m d nr) :
    iprop(cellInv ER (agRd m) κ₁ (dcell c ns hns) ∗ cellInv ER (agRd m) κ₂ (dcell d nr hnr)
        ∗ pts c M o r h q fs ∗ pts d M' o' r h' fullShare fd
        ∗ owes (c : Thread nD τ) O₀ W
        ∗ dutyTok ER (dcell c ns hns) 0 0 ∗ reached ER (dcell c ns hns) 0
        ∗ dutyTok ER (dcell d nr hnr) 0 0 ∗ reached ER (dcell d nr hnr) 0)
      ⊢ iprop(((cred (tallyAt (dcell c ns hns) () (damt nr)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M.slice (Rect.unit (s := Sr R) off (Sr r).size inb) hst)
                (.remote (Dev.tc dv : Thread nD τ) (M'.slice (Rect.unit (s := Sr R') off' (Sr r).size inb') hst') (.dma qs) hsc) (.dma qr) hsrc hdst hsem) k) Q) := by
  subst hoff hoff' hqs hqr hdv
  exact step_send m c dv M M' o o' r h h' ns nr hns hnr q fs fd O₀ O W hO hk hks hpay₁ hpay₂

theorem step_wait' {sp sp' : Space} {s s' : Shape} {e e' : EltTy} (c : Dev nD) (n : ℕ) (hn : n < 85) (qs : DmaSem sig) (hqs : qs = ⟨n, hn⟩)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α} {κ : ℕ}
    (O : CellTallies nD τ sig Unit) (W : Waits sig Unit) (hk : dst.view.dmaCredit = damt n) :
    iprop(cellInv ER (agRd m) κ (dcell c n hn) ∗ cred (tallyAt (dcell c n hn) () (damt n)) ∗ owes (c : Thread nD τ) O W
        ∗ MayWait (c : Thread nD τ) (.dma ⟨n, hn⟩) () O ∗ atPos ER (dcell c n hn) 0 ∅ 0)
      ⊢ iprop(((owes (c : Thread nD τ) O (insert (SemLoc.dma ⟨n, hn⟩, ()) W) ∗ atPos ER (dcell c n hn) 1 ∅ 0 ∗ reached ER (dcell c n hn) 1 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hqs
  exact step_wait m c n hn O W hk

end Cert.Kernel.AG

end
-- ==== Proof.K.AGPays.lean ====
/-
  What each copy and each transfer lands is what the schedule's payload for its cell says.
  The rows a transfer moves keep their row number from buffer to buffer and from device to device; only the copies into the
  result shift them, by the row at which the half they belong to starts there.  So each landing is the destination rows holding
  the source's contents at the same (or the shifted) rows, and the payload names those contents by the whole-buffer functions:
  a row of the communication buffer holds what its origin converted, and the origin of a row that arrives from a neighbour is
  the origin the neighbour knew for it.
-/
import proofs.«900673_g7700000000000674_dist_ag_v7x_xyz2x2x2_z_m4096_n1024_bf16_1_alg».proof.Proof.K.AGSlices
import proofs.«900673_g7700000000000674_dist_ag_v7x_xyz2x2x2_z_m4096_n1024_bf16_1_alg».proof.Proof.K.AGState

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The payload of each family of cells -/

/-- The place in its family of the cell j places after the family's first. -/
theorem fj_add (b : ℕ) (j : Fin 8) : fj (b + j.val) b = j :=
  Fin.ext (by show (b + j.val - b) % 8 = j.val; have hj := j.isLt; omega)

/-- The same one family of eight further on. -/
theorem fj_add8 (b : ℕ) (j : Fin 8) : fj (b + 8 + j.val) b = j :=
  Fin.ext (by show (b + 8 + j.val - b) % 8 = j.val; have hj := j.isLt; omega)

theorem dpay_in (c : Dev nD) (i : Fin 12) : dpay m c i.val = payIn m c i := by
  unfold dpay; rw [dif_pos i.isLt]

theorem dpay_zs (c : Dev nD) (j : Fin 8) : dpay m c (12 + j.val) = payZs m c j := by
  have hj := j.isLt
  unfold dpay; rw [dif_neg (by omega), if_pos (by omega), fj_add]

theorem dpay_zr (c : Dev nD) (j : Fin 8) : dpay m c (20 + j.val) = payZr m c j := by
  have hj := j.isLt
  unfold dpay; rw [dif_neg (by omega), if_neg (by omega), if_pos (by omega), fj_add]

theorem dpay_xs (c : Dev nD) (k : Fin 8) : dpay m c (28 + k.val) = payXs m c k := by
  have hk := k.isLt
  unfold dpay; rw [dif_neg (by omega), if_neg (by omega), if_neg (by omega), if_pos (by omega), fj_add]

theorem dpay_xr (c : Dev nD) (k : Fin 8) : dpay m c (36 + k.val) = payXr m c k := by
  have hk := k.isLt
  unfold dpay; rw [dif_neg (by omega), if_neg (by omega), if_neg (by omega), if_neg (by omega), if_pos (by omega), fj_add]

theorem dpay_ys (c : Dev nD) (k : Fin 8) : dpay m c (44 + k.val) = payYs m c k := by
  have hk := k.isLt
  unfold dpay
  rw [dif_neg (by omega), if_neg (by omega), if_neg (by omega), if_neg (by omega), if_neg (by omega), if_pos (by omega), fj_add]

theorem dpay_yr (c : Dev nD) (k : Fin 8) : dpay m c (52 + k.val) = payYr m c k := by
  have hk := k.isLt
  unfold dpay
  rw [dif_neg (by omega), if_neg (by omega), if_neg (by omega), if_neg (by omega), if_neg (by omega), if_neg (by omega),
    if_pos (by omega), fj_add]

theorem dpay_lz (c : Dev nD) (j : Fin 8) : dpay m c (60 + j.val) = payLz m c j := by
  have hj := j.isLt
  unfold dpay
  rw [dif_neg (by omega), if_neg (by omega), if_neg (by omega), if_neg (by omega), if_neg (by omega), if_neg (by omega),
    if_neg (by omega), if_pos (by omega), fj_add]

theorem dpay_lx (c : Dev nD) (k : Fin 8) : dpay m c (68 + k.val) = payLx m c k := by
  have hk := k.isLt
  unfold dpay
  rw [dif_neg (by omega), if_neg (by omega), if_neg (by omega), if_neg (by omega), if_neg (by omega), if_neg (by omega),
    if_neg (by omega), if_neg (by omega), if_pos (by omega), fj_add]

theorem dpay_ly (c : Dev nD) (k : Fin 8) : dpay m c (76 + k.val) = payLy m c k := by
  have hk := k.isLt
  unfold dpay
  rw [dif_neg (by omega), if_neg (by omega), if_neg (by omega), if_neg (by omega), if_neg (by omega), if_neg (by omega),
    if_neg (by omega), if_neg (by omega), if_neg (by omega), if_pos (by omega), fj_add]

theorem dpay_lm (c : Dev nD) : dpay m c 84 = payLm m c := by
  unfold dpay
  rw [dif_neg (by omega), if_neg (by omega), if_neg (by omega), if_neg (by omega), if_neg (by omega), if_neg (by omega),
    if_neg (by omega), if_neg (by omega), if_neg (by omega), if_neg (by omega)]

/-! ## The units of each family: the credit of the destination rows, wherever they start -/

/-- The credit of r rows of each buffer is the credit of any rows of that number. -/
theorem credit_CM (o r : ℕ) (h : o + r ≤ 4096) (r' : ℕ) (h' : r' ≤ 4096) (e : r' = r) :
    (sl CM o r h).view.dmaCredit = amtCM r' h' := by subst e; rfl
theorem credit_OU (o r : ℕ) (h : o + r ≤ 8192) (r' : ℕ) (h' : r' ≤ 8192) (e : r' = r) :
    (sl OU o r h).view.dmaCredit = amtOU r' h' := by subst e; rfl

theorem credit_in (o : ℕ) (i : Fin 12) (h : o + inLen i ≤ 4096) : (sl ST o (inLen i) h).view.dmaCredit = damt i.val := by
  unfold damt; rw [dif_pos i.isLt]; rfl

theorem credit_zs (o : ℕ) (j : Fin 8) (h : o + ownLen j ≤ 4096) : (sl CM o (ownLen j) h).view.dmaCredit = damt (12 + j.val) := by
  have hj := j.isLt
  unfold damt; rw [dif_neg (by omega), if_pos (by omega)]; exact credit_CM o _ h _ _ (by rw [fj_add])

theorem credit_zr (o : ℕ) (j : Fin 8) (h : o + ownLen j ≤ 4096) : (sl CM o (ownLen j) h).view.dmaCredit = damt (20 + j.val) := by
  have hj := j.isLt
  unfold damt; rw [dif_neg (by omega), if_pos (by omega)]; exact credit_CM o _ h _ _ (by rw [fj_add8 12 j])

theorem credit_xs (o : ℕ) (k : Fin 8) (h : o + xinLen k ≤ 4096) : (sl CM o (xinLen k) h).view.dmaCredit = damt (28 + k.val) := by
  have hk := k.isLt
  unfold damt; rw [dif_neg (by omega), if_neg (by omega), if_pos (by omega)]; exact credit_CM o _ h _ _ (by rw [fj_add])

theorem credit_xr (o : ℕ) (k : Fin 8) (h : o + xinLen k ≤ 4096) : (sl CM o (xinLen k) h).view.dmaCredit = damt (36 + k.val) := by
  have hk := k.isLt
  unfold damt; rw [dif_neg (by omega), if_neg (by omega), if_pos (by omega)]; exact credit_CM o _ h _ _ (by rw [fj_add8 28 k])

theorem credit_ys (o : ℕ) (k : Fin 8) (h : o + yinLen k ≤ 4096) : (sl CM o (yinLen k) h).view.dmaCredit = damt (44 + k.val) := by
  have hk := k.isLt
  unfold damt; rw [dif_neg (by omega), if_neg (by omega), if_neg (by omega), if_pos (by omega)]; exact credit_CM o _ h _ _ (by rw [fj_add])

theorem credit_yr (o : ℕ) (k : Fin 8) (h : o + yinLen k ≤ 4096) : (sl CM o (yinLen k) h).view.dmaCredit = damt (52 + k.val) := by
  have hk := k.isLt
  unfold damt; rw [dif_neg (by omega), if_neg (by omega), if_neg (by omega), if_pos (by omega)]; exact credit_CM o _ h _ _ (by rw [fj_add8 44 k])

/-- The z-, x- and y-transfers' units, at the send cell and at the receive cell. -/
theorem credit_z (o : ℕ) (j : Fin 8) (h : o + ownLen j ≤ 4096) :
    (sl CM o (ownLen j) h).view.dmaCredit = damt (12 + j.val) ∧ (sl CM o (ownLen j) h).view.dmaCredit = damt (20 + j.val) :=
  ⟨credit_zs o j h, credit_zr o j h⟩
theorem credit_x (o : ℕ) (k : Fin 8) (h : o + xinLen k ≤ 4096) :
    (sl CM o (xinLen k) h).view.dmaCredit = damt (28 + k.val) ∧ (sl CM o (xinLen k) h).view.dmaCredit = damt (36 + k.val) :=
  ⟨credit_xs o k h, credit_xr o k h⟩
theorem credit_y (o : ℕ) (k : Fin 8) (h : o + yinLen k ≤ 4096) :
    (sl CM o (yinLen k) h).view.dmaCredit = damt (44 + k.val) ∧ (sl CM o (yinLen k) h).view.dmaCredit = damt (52 + k.val) :=
  ⟨credit_ys o k h, credit_yr o k h⟩

theorem credit_lz (o : ℕ) (j : Fin 8) (h : o + ownLen j ≤ 8192) : (sl OU o (ownLen j) h).view.dmaCredit = damt (60 + j.val) := by
  have hj := j.isLt
  unfold damt
  rw [dif_neg (by omega), if_neg (by omega), if_neg (by omega), if_neg (by omega), if_pos (by omega)]; exact credit_OU o _ h _ _ (by rw [fj_add])

theorem credit_lx (o : ℕ) (k : Fin 8) (h : o + xinLen k ≤ 8192) : (sl OU o (xinLen k) h).view.dmaCredit = damt (68 + k.val) := by
  have hk := k.isLt
  unfold damt
  rw [dif_neg (by omega), if_neg (by omega), if_neg (by omega), if_neg (by omega), if_neg (by omega), if_pos (by omega)]; exact credit_OU o _ h _ _ (by rw [fj_add])

theorem credit_ly (o : ℕ) (k : Fin 8) (h : o + yinLen k ≤ 8192) : (sl OU o (yinLen k) h).view.dmaCredit = damt (76 + k.val) := by
  have hk := k.isLt
  unfold damt
  rw [dif_neg (by omega), if_neg (by omega), if_neg (by omega), if_neg (by omega), if_neg (by omega), if_neg (by omega),
    if_pos (by omega)]; exact credit_OU o _ h _ _ (by rw [fj_add])

theorem credit_lm (o : ℕ) (h : o + 4096 ≤ 8192) : (sl OU o 4096 h).view.dmaCredit = damt 84 := by
  unfold damt
  rw [dif_neg (by omega), if_neg (by omega), if_neg (by omega), if_neg (by omega), if_neg (by omega), if_neg (by omega),
    if_neg (by omega)]; rfl

/-! ## Where a row of the communication buffer was converted, chunk by chunk -/

/-- Which of the two 704-regions is the device's own, with the parity the origin tests. -/
theorem rown_cases : ∀ c : Dev nD,
    (rown c = 2688 ∧ roth c = 3392 ∧ (c.val / 4 + (c.val / 2) % 2) % 2 = 0)
      ∨ (rown c = 3392 ∧ roth c = 2688 ∧ (c.val / 4 + (c.val / 2) % 2) % 2 = 1) := by decide

/-- A row of a 672-region was converted by the device of the other plane at the region's position, whoever asks from this plane. -/
theorem origin_low (c d : Dev nD) (r : ℕ) (hr : r < 2688) (hz : d.val % 2 = c.val % 2) : origin c r = origin d r := by
  unfold origin
  rw [if_pos hr, if_pos hr]
  apply Fin.ext
  show 4 * ((r / 672) % 2) + 2 * ((r / 672) / 2 % 2) + (1 - c.val % 2) = 4 * ((r / 672) % 2) + 2 * ((r / 672) / 2 % 2) + (1 - d.val % 2)
  rw [hz]

/-- A row of the device's own 672-region comes from its z-neighbour, -/
theorem origin_own672 (c : Dev nD) (r : ℕ) (h1 : pown c ≤ r) (h2 : r < pown c + 672) : origin c r = zn c := by
  have hp := pown_le c
  have hm := (p_mod c).1
  unfold origin
  rw [if_pos (by omega)]
  apply Fin.ext
  show 4 * ((r / 672) % 2) + 2 * ((r / 672) / 2 % 2) + (1 - c.val % 2) = (zn c).val
  have hq : r / 672 = pown c / 672 := by omega
  rw [hq]
  exact (by decide : ∀ c : Dev nD, 4 * ((pown c / 672) % 2) + 2 * ((pown c / 672) / 2 % 2) + (1 - c.val % 2) = (zn c).val) c

/-- and so does a row of its own 704-region. -/
theorem origin_own704 (c : Dev nD) (r : ℕ) (h1 : rown c ≤ r) (h2 : r < rown c + 704) : origin c r = zn c := by
  unfold origin
  rcases rown_cases c with ⟨ha, hb, hc⟩ | ⟨ha, hb, hc⟩
  · rw [if_neg (by omega), if_pos (by omega)]
  · rw [if_neg (by omega), if_pos (by omega)]

/-- A row of the first half of the other 704-region comes from the z-neighbour of the x-neighbour, -/
theorem origin_oth_lo (c : Dev nD) (r : ℕ) (h1 : roth c ≤ r) (h2 : r < roth c + 352) : origin c r = zn (xn c) := by
  unfold origin
  rcases rown_cases c with ⟨ha, hb, hc⟩ | ⟨ha, hb, hc⟩
  · rw [if_neg (by omega), if_neg (by omega), if_pos (by omega)]
  · rw [if_neg (by omega), if_neg (by omega), if_pos (by omega)]

/-- a row of its second half from the z-neighbour of the y-neighbour. -/
theorem origin_oth_hi (c : Dev nD) (r : ℕ) (h1 : roth c + 352 ≤ r) (h2 : r < roth c + 704) : origin c r = zn (yn c) := by
  unfold origin
  rcases rown_cases c with ⟨ha, hb, hc⟩ | ⟨ha, hb, hc⟩
  · rw [if_neg (by omega), if_neg (by omega), if_neg (by omega)]
  · rw [if_neg (by omega), if_neg (by omega), if_neg (by omega)]

/-- The neighbours in the plane are in the same plane, and the other 704-region is their own. -/
theorem xn_plane : ∀ c : Dev nD, (xn c).val % 2 = c.val % 2 := by decide
theorem yn_plane : ∀ c : Dev nD, (yn c).val % 2 = c.val % 2 := by decide
theorem rown_xn : ∀ c : Dev nD, rown (xn c) = roth c := by decide
theorem rown_yn : ∀ c : Dev nD, rown (yn c) = roth c := by decide

/-- In which region each chunk lies. -/
theorem own_region : ∀ (c : Dev nD) (j : Fin 8),
    (j.val < 4 → pown c ≤ ownOff c j ∧ ownOff c j + ownLen j ≤ pown c + 672)
      ∧ (4 ≤ j.val → rown c ≤ ownOff c j ∧ ownOff c j + ownLen j ≤ rown c + 704) := by decide
theorem xin_region : ∀ (c : Dev nD) (k : Fin 8),
    ((k.val < 4 ∨ 6 ≤ k.val) → xinOff c k + xinLen k ≤ 2688)
      ∧ (4 ≤ k.val → k.val < 6 → roth c ≤ xinOff c k ∧ xinOff c k + xinLen k ≤ roth c + 352) := by decide
theorem yin_region : ∀ (c : Dev nD) (k : Fin 8),
    ((k.val < 4 ∨ 6 ≤ k.val) → yinOff c k + yinLen k ≤ 2688)
      ∧ (4 ≤ k.val → k.val < 6 → roth c + 352 ≤ yinOff c k ∧ yinOff c k + yinLen k ≤ roth c + 704) := by decide

/-- A row of an own chunk was converted by the z-neighbour. -/
theorem origin_own (c : Dev nD) (j : Fin 8) (r : ℕ) (h1 : ownOff c j ≤ r) (h2 : r < ownOff c j + ownLen j) :
    origin c r = zn c := by
  by_cases hj : j.val < 4
  · have hh := (own_region c j).1 hj
    exact origin_own672 c r (by omega) (by omega)
  · have hh := (own_region c j).2 (by omega)
    exact origin_own704 c r (by omega) (by omega)

/-- A row of a chunk that arrives from the x-neighbour was converted where the x-neighbour says. -/
theorem origin_xin (c : Dev nD) (k : Fin 8) (r : ℕ) (h1 : xinOff c k ≤ r) (h2 : r < xinOff c k + xinLen k) :
    origin c r = origin (xn c) r := by
  by_cases hk : k.val < 4 ∨ 6 ≤ k.val
  · have hh := (xin_region c k).1 hk
    exact origin_low c (xn c) r (by omega) (xn_plane c)
  · have hh := (xin_region c k).2 (by omega) (by omega)
    rw [origin_oth_lo c r (by omega) (by omega), origin_own704 (xn c) r (by rw [rown_xn]; omega) (by rw [rown_xn]; omega)]

/-- A row of a chunk that arrives from the y-neighbour was converted where the y-neighbour says. -/
theorem origin_yin (c : Dev nD) (k : Fin 8) (r : ℕ) (h1 : yinOff c k ≤ r) (h2 : r < yinOff c k + yinLen k) :
    origin c r = origin (yn c) r := by
  by_cases hk : k.val < 4 ∨ 6 ≤ k.val
  · have hh := (yin_region c k).1 hk
    exact origin_low c (yn c) r (by omega) (yn_plane c)
  · have hh := (yin_region c k).2 (by omega) (by omega)
    rw [origin_oth_hi c r (by omega) (by omega), origin_own704 (yn c) r (by rw [rown_yn]; omega) (by rw [rown_yn]; omega)]

/-! ## The result, row by row -/

theorem othb_eq : ∀ c : Dev nD, othb c = 4096 * (1 - c.val % 2) := by decide

/-- At a row of the other half the result is the communication buffer's row, -/
theorem outV_oth (c : Dev nD) (x : (Sr 8192).Idx) (h1 : othb c ≤ (x 0).val) (h2 : (x 0).val < othb c + 4096) :
    outV m c x = commV m c (ix2 (⟨(x 0).val - othb c, by omega⟩ : Fin 4096) (x 1 : Fin 1024)) := by
  have ho := othb_eq c
  have hc : c.val % 2 < 2 := Nat.mod_lt _ (by decide)
  show (if (x 0).val / 4096 = c.val % 2 then _ else _) = _
  rw [if_neg (by omega)]
  have e : (⟨(x 0).val % 4096, Nat.mod_lt _ (by decide)⟩ : Fin 4096) = ⟨(x 0).val - othb c, by omega⟩ :=
    Fin.ext (by show (x 0).val % 4096 = (x 0).val - othb c; omega)
  rw [e]

/-- and at a row of the device's own half the conversion buffer's. -/
theorem outV_my (c : Dev nD) (x : (Sr 8192).Idx) (h1 : myb c ≤ (x 0).val) (h2 : (x 0).val < myb c + 4096) :
    outV m c x = mineV m c (ix2 (⟨(x 0).val - myb c, by omega⟩ : Fin 4096) (x 1 : Fin 1024)) := by
  have ho := myb_eq c
  have hc : c.val % 2 < 2 := Nat.mod_lt _ (by decide)
  show (if (x 0).val / 4096 = c.val % 2 then _ else _) = _
  rw [if_pos (by omega)]
  have e : (⟨(x 0).val % 4096, Nat.mod_lt _ (by decide)⟩ : Fin 4096) = ⟨(x 0).val - myb c, by omega⟩ :=
    Fin.ext (by show (x 0).val % 4096 = (x 0).val - myb c; omega)
  rw [e]

/-! ## Rows that keep their number, rows shifted into the result -/

/-- Between rows of the same number the source index is the destination index. -/
theorem shift_self {R r : ℕ} (o : ℕ) (h1 : o + r ≤ R) (x : (Sr R).Idx) (hx : o ≤ (x 0).val ∧ (x 0).val < o + r) :
    shift (R1 := R) (R2 := R) o o h1 x hx = x := by
  funext a
  apply Fin.ext
  match a with
  | ⟨0, _⟩ => show (x 0).val - o + o = (x 0).val; omega
  | ⟨1, _⟩ => rfl

/-- Into the result at b + o from row o the source index is the destination's with b taken off its row. -/
theorem shift_base {r : ℕ} (b o : ℕ) (h1 : o + r ≤ 4096) (x : (Sr 8192).Idx) (hx : b + o ≤ (x 0).val ∧ (x 0).val < b + o + r) :
    shift (R1 := 4096) (R2 := 8192) o (b + o) h1 x hx = ix2 (⟨(x 0).val - b, by omega⟩ : Fin 4096) (x 1 : Fin 1024) := by
  funext a
  apply Fin.ext
  match a with
  | ⟨0, _⟩ => show (x 0).val - (b + o) + o = (x 0).val - b; omega
  | ⟨1, _⟩ => rfl

/-- Rows named through equal starts are the same assertion. -/
theorem pts_off {sp : Space} {e : EltTy} {R : ℕ} (c : Dev nD) (M : Memref sig .tc sp (Sr R) e) {o o' : ℕ} (eo : o = o') (r : ℕ)
    (h : o + r ≤ R) (h' : o' + r ≤ R) (q : PosShare TreeShare) (f : Buf (Elt F) (M.view.loc (c : Thread nD τ))) :
    (pts c M o r h q f : sProp 𝕄) = pts c M o' r h' q f := by subst eo; rfl

/-! ## The copies on one device -/

/-- An input copy: the staging rows hold the device's half there, and the rows of the argument come back. -/
theorem pay_in (c : Dev nD) (i : Fin 12)
    (fd : Buf (Elt F) ((sl ST (inOff c i) (inLen i) (in_inb c i)).view.loc (c : Thread nD τ))) :
    iprop(((sl ST (inOff c i) (inLen i) (in_inb c i)).view.loc (c : Thread nD τ)
            ↦[(sl ST (inOff c i) (inLen i) (in_inb c i)).view.set]{fullShare}
              ((sl ST (inOff c i) (inLen i) (in_inb c i)).view.write (Elt F) fd
                ((sl XA (inOff c i) (inLen i) (in_inb c i)).view.read (Elt F) (X m c)) Finset.univ))
        ∗ ((sl XA (inOff c i) (inLen i) (in_inb c i)).view.loc (c : Thread nD τ)
            ↦[(sl XA (inOff c i) (inLen i) (in_inb c i)).view.set]{fullShare} (X m c)))
      ⊢ (dpay m c i.val : sProp 𝕄) := by
  rw [dpay_in]
  unfold payIn pts
  refine sep_mono_left (pointsTo_copy_entails XA ST c c (in_inb c i) (in_inb c i) (X m c) fd (X m c) fun x hx => ?_)
  show X m c x = X m c (shift (inOff c i) (inOff c i) (in_inb c i) x hx)
  rw [shift_self]

/-- A copy of rows [o, o + r) of the communication buffer to the other half of the result. -/
theorem pay_l_core (c : Dev nD) (o r : ℕ) (h : o + r ≤ 4096) (h' : othb c + o + r ≤ 8192) (q : PosShare TreeShare)
    (fd : Buf (Elt F) ((sl OU (othb c + o) r h').view.loc (c : Thread nD τ))) :
    iprop(((sl OU (othb c + o) r h').view.loc (c : Thread nD τ) ↦[(sl OU (othb c + o) r h').view.set]{fullShare}
              ((sl OU (othb c + o) r h').view.write (Elt F) fd ((sl CM o r h).view.read (Elt F) (commV m c)) Finset.univ))
        ∗ ((sl CM o r h).view.loc (c : Thread nD τ) ↦[(sl CM o r h).view.set]{q} (commV m c)))
      ⊢ (iprop(pts c OU (othb c + o) r h' fullShare (outV m c) ∗ pts c CM o r h q (commV m c)) : sProp 𝕄) := by
  unfold pts
  refine sep_mono_left (pointsTo_copy_entails CM OU c c h h' (commV m c) fd (outV m c) fun x hx => ?_)
  show outV m c x = commV m c (shift o (othb c + o) h x hx)
  rw [shift_base (othb c) o h x hx, outV_oth m c x (by omega) (by omega)]
  rfl

theorem pay_lz (c : Dev nD) (j : Fin 8)
    (fd : Buf (Elt F) ((sl OU (othb c + ownOff c j) (ownLen j) (oown_inb c j)).view.loc (c : Thread nD τ))) :
    iprop(((sl OU (othb c + ownOff c j) (ownLen j) (oown_inb c j)).view.loc (c : Thread nD τ)
            ↦[(sl OU (othb c + ownOff c j) (ownLen j) (oown_inb c j)).view.set]{fullShare}
              ((sl OU (othb c + ownOff c j) (ownLen j) (oown_inb c j)).view.write (Elt F) fd
                ((sl CM (ownOff c j) (ownLen j) (own_inb c j)).view.read (Elt F) (commV m c)) Finset.univ))
        ∗ ((sl CM (ownOff c j) (ownLen j) (own_inb c j)).view.loc (c : Thread nD τ)
            ↦[(sl CM (ownOff c j) (ownLen j) (own_inb c j)).view.set]{qlz j} (commV m c)))
      ⊢ (dpay m c (60 + j.val) : sProp 𝕄) := by
  rw [dpay_lz]
  exact pay_l_core m c (ownOff c j) (ownLen j) (own_inb c j) (oown_inb c j) (qlz j) fd

theorem pay_lx (c : Dev nD) (k : Fin 8)
    (fd : Buf (Elt F) ((sl OU (othb c + xinOff c k) (xinLen k) (oxin_inb c k)).view.loc (c : Thread nD τ))) :
    iprop(((sl OU (othb c + xinOff c k) (xinLen k) (oxin_inb c k)).view.loc (c : Thread nD τ)
            ↦[(sl OU (othb c + xinOff c k) (xinLen k) (oxin_inb c k)).view.set]{fullShare}
              ((sl OU (othb c + xinOff c k) (xinLen k) (oxin_inb c k)).view.write (Elt F) fd
                ((sl CM (xinOff c k) (xinLen k) (xin_inb c k)).view.read (Elt F) (commV m c)) Finset.univ))
        ∗ ((sl CM (xinOff c k) (xinLen k) (xin_inb c k)).view.loc (c : Thread nD τ)
            ↦[(sl CM (xinOff c k) (xinLen k) (xin_inb c k)).view.set]{qlx k} (commV m c)))
      ⊢ (dpay m c (68 + k.val) : sProp 𝕄) := by
  rw [dpay_lx]
  exact pay_l_core m c (xinOff c k) (xinLen k) (xin_inb c k) (oxin_inb c k) (qlx k) fd

theorem pay_ly (c : Dev nD) (k : Fin 8)
    (fd : Buf (Elt F) ((sl OU (othb c + yinOff c k) (yinLen k) (oyin_inb c k)).view.loc (c : Thread nD τ))) :
    iprop(((sl OU (othb c + yinOff c k) (yinLen k) (oyin_inb c k)).view.loc (c : Thread nD τ)
            ↦[(sl OU (othb c + yinOff c k) (yinLen k) (oyin_inb c k)).view.set]{fullShare}
              ((sl OU (othb c + yinOff c k) (yinLen k) (oyin_inb c k)).view.write (Elt F) fd
                ((sl CM (yinOff c k) (yinLen k) (yin_inb c k)).view.read (Elt F) (commV m c)) Finset.univ))
        ∗ ((sl CM (yinOff c k) (yinLen k) (yin_inb c k)).view.loc (c : Thread nD τ)
            ↦[(sl CM (yinOff c k) (yinLen k) (yin_inb c k)).view.set]{qly k} (commV m c)))
      ⊢ (dpay m c (76 + k.val) : sProp 𝕄) := by
  rw [dpay_ly]
  exact pay_l_core m c (yinOff c k) (yinLen k) (yin_inb c k) (oyin_inb c k) (qly k) fd

/-- The copy of the whole conversion buffer to the device's own half of the result. -/
theorem pay_lm (c : Dev nD)
    (fd : Buf (Elt F) ((sl OU (myb c) 4096 (omy_inb c)).view.loc (c : Thread nD τ))) :
    iprop(((sl OU (myb c) 4096 (omy_inb c)).view.loc (c : Thread nD τ)
            ↦[(sl OU (myb c) 4096 (omy_inb c)).view.set]{fullShare}
              ((sl OU (myb c) 4096 (omy_inb c)).view.write (Elt F) fd
                ((sl MI 0 4096 (Nat.le_refl _)).view.read (Elt F) (mineV m c)) Finset.univ))
        ∗ ((sl MI 0 4096 (Nat.le_refl _)).view.loc (c : Thread nD τ)
            ↦[(sl MI 0 4096 (Nat.le_refl _)).view.set]{sR} (mineV m c)))
      ⊢ (dpay m c 84 : sProp 𝕄) := by
  rw [dpay_lm]
  unfold payLm pts
  have h0 : 0 + 4096 ≤ 4096 := Nat.le_refl _
  refine sep_mono_left (pointsTo_copy_entails MI OU c c (o1 := 0) (o2 := myb c) (r := 4096) h0 (omy_inb c) (mineV m c) fd
    (outV m c) fun x hx => ?_)
  show outV m c x = mineV m c (shift 0 (myb c) h0 x hx)
  rw [outV_my m c x (by omega) (by omega)]
  rfl

/-! ## The transfers to a neighbour -/

/-- A z-transfer's source rows come back at the left half. -/
theorem pay_zs (c : Dev nD) (j : Fin 8) :
    ((sl MI (ownOff c j) (ownLen j) (own_inb c j)).view.loc (c : Thread nD τ)
        ↦[(sl MI (ownOff c j) (ownLen j) (own_inb c j)).view.set]{sL} (mineV m c))
      ⊢ (dpay m c (12 + j.val) : sProp 𝕄) := by
  rw [dpay_zs]; exact .rfl

/-- What it lands in the z-neighbour's communication buffer is what the neighbour's payload says: rows this device converted. -/
theorem pay_zr (c : Dev nD) (j : Fin 8)
    (fd : Buf (Elt F) ((sl CM (ownOff c j) (ownLen j) (own_inb c j)).view.loc (zn c : Thread nD τ))) :
    ((sl CM (ownOff c j) (ownLen j) (own_inb c j)).view.loc (zn c : Thread nD τ)
        ↦[(sl CM (ownOff c j) (ownLen j) (own_inb c j)).view.set]{fullShare}
          ((sl CM (ownOff c j) (ownLen j) (own_inb c j)).view.write (Elt F) fd
            ((sl MI (ownOff c j) (ownLen j) (own_inb c j)).view.read (Elt F) (mineV m c)) Finset.univ))
      ⊢ (dpay m (zn c) (20 + j.val) : sProp 𝕄) := by
  rw [dpay_zr]
  unfold payZr
  rw [pts_off (F := F) (zn c) CM (own_zn c j) (ownLen j) (own_inb (zn c) j) (own_inb c j)]
  unfold pts
  refine pointsTo_copy_entails MI CM c (zn c) (own_inb c j) (own_inb c j) (mineV m c) fd (commV m (zn c)) fun x hx => ?_
  show mineV m (origin (zn c) (x 0).val) x = mineV m c (shift (ownOff c j) (ownOff c j) (own_inb c j) x hx)
  rw [shift_self, origin_own (zn c) j (x 0).val (by rw [own_zn]; exact hx.1) (by rw [own_zn]; exact hx.2), zn_zn]

/-- An x-forward's source rows come back at the left half. -/
theorem pay_xs (c : Dev nD) (k : Fin 8) :
    ((sl CM (xinOff (xn c) k) (xinLen k) (xin_inb (xn c) k)).view.loc (c : Thread nD τ)
        ↦[(sl CM (xinOff (xn c) k) (xinLen k) (xin_inb (xn c) k)).view.set]{sL} (commV m c))
      ⊢ (dpay m c (28 + k.val) : sProp 𝕄) := by
  rw [dpay_xs]; exact .rfl

/-- What it lands in the x-neighbour's communication buffer: rows whose origin the neighbour takes from this device. -/
theorem pay_xr (c : Dev nD) (k : Fin 8)
    (fd : Buf (Elt F) ((sl CM (xinOff (xn c) k) (xinLen k) (xin_inb (xn c) k)).view.loc (xn c : Thread nD τ))) :
    ((sl CM (xinOff (xn c) k) (xinLen k) (xin_inb (xn c) k)).view.loc (xn c : Thread nD τ)
        ↦[(sl CM (xinOff (xn c) k) (xinLen k) (xin_inb (xn c) k)).view.set]{fullShare}
          ((sl CM (xinOff (xn c) k) (xinLen k) (xin_inb (xn c) k)).view.write (Elt F) fd
            ((sl CM (xinOff (xn c) k) (xinLen k) (xin_inb (xn c) k)).view.read (Elt F) (commV m c)) Finset.univ))
      ⊢ (dpay m (xn c) (36 + k.val) : sProp 𝕄) := by
  rw [dpay_xr]
  unfold payXr pts
  refine pointsTo_copy_entails CM CM c (xn c) (xin_inb (xn c) k) (xin_inb (xn c) k) (commV m c) fd (commV m (xn c)) fun x hx => ?_
  show mineV m (origin (xn c) (x 0).val) x
    = commV m c (shift (xinOff (xn c) k) (xinOff (xn c) k) (xin_inb (xn c) k) x hx)
  rw [shift_self, origin_xin (xn c) k (x 0).val hx.1 hx.2, xn_xn]
  rfl

/-- A y-forward's source rows come back at the share it read them with. -/
theorem pay_ys (c : Dev nD) (k : Fin 8) :
    ((sl CM (yinOff (yn c) k) (yinLen k) (yin_inb (yn c) k)).view.loc (c : Thread nD τ)
        ↦[(sl CM (yinOff (yn c) k) (yinLen k) (yin_inb (yn c) k)).view.set]{qys k} (commV m c))
      ⊢ (dpay m c (44 + k.val) : sProp 𝕄) := by
  rw [dpay_ys]; exact .rfl

/-- What it lands in the y-neighbour's communication buffer. -/
theorem pay_yr (c : Dev nD) (k : Fin 8)
    (fd : Buf (Elt F) ((sl CM (yinOff (yn c) k) (yinLen k) (yin_inb (yn c) k)).view.loc (yn c : Thread nD τ))) :
    ((sl CM (yinOff (yn c) k) (yinLen k) (yin_inb (yn c) k)).view.loc (yn c : Thread nD τ)
        ↦[(sl CM (yinOff (yn c) k) (yinLen k) (yin_inb (yn c) k)).view.set]{fullShare}
          ((sl CM (yinOff (yn c) k) (yinLen k) (yin_inb (yn c) k)).view.write (Elt F) fd
            ((sl CM (yinOff (yn c) k) (yinLen k) (yin_inb (yn c) k)).view.read (Elt F) (commV m c)) Finset.univ))
      ⊢ (dpay m (yn c) (52 + k.val) : sProp 𝕄) := by
  rw [dpay_yr]
  unfold payYr pts
  refine pointsTo_copy_entails CM CM c (yn c) (yin_inb (yn c) k) (yin_inb (yn c) k) (commV m c) fd (commV m (yn c)) fun x hx => ?_
  show mineV m (origin (yn c) (x 0).val) x
    = commV m c (shift (yinOff (yn c) k) (yinOff (yn c) k) (yin_inb (yn c) k) x hx)
  rw [shift_self, origin_yin (yn c) k (x 0).val hx.1 hx.2, yn_yn]
  rfl

end Cert.Kernel.AG

end

/-- info: 'Cert.Kernel.AG.dpay_lm' depends on axioms: [propext, Classical.choice, Quot.sound] -/
#guard_msgs in #print axioms Cert.Kernel.AG.dpay_lm

/-- info: 'Cert.Kernel.AG.credit_lm' depends on axioms: [propext, Classical.choice, Quot.sound] -/
#guard_msgs in #print axioms Cert.Kernel.AG.credit_lm

/-- info: 'Cert.Kernel.AG.origin_own' depends on axioms: [propext, Quot.sound] -/
#guard_msgs in #print axioms Cert.Kernel.AG.origin_own

/-- info: 'Cert.Kernel.AG.origin_xin' depends on axioms: [propext, Quot.sound] -/
#guard_msgs in #print axioms Cert.Kernel.AG.origin_xin

/-- info: 'Cert.Kernel.AG.origin_yin' depends on axioms: [propext, Quot.sound] -/
#guard_msgs in #print axioms Cert.Kernel.AG.origin_yin

/-- info: 'Cert.Kernel.AG.pay_in' depends on axioms: [propext, Classical.choice, Quot.sound] -/
#guard_msgs in #print axioms Cert.Kernel.AG.pay_in

/-- info: 'Cert.Kernel.AG.pay_lz' depends on axioms: [propext, Classical.choice, Quot.sound] -/
#guard_msgs in #print axioms Cert.Kernel.AG.pay_lz

/-- info: 'Cert.Kernel.AG.pay_lx' depends on axioms: [propext, Classical.choice, Quot.sound] -/
#guard_msgs in #print axioms Cert.Kernel.AG.pay_lx

/-- info: 'Cert.Kernel.AG.pay_ly' depends on axioms: [propext, Classical.choice, Quot.sound] -/
#guard_msgs in #print axioms Cert.Kernel.AG.pay_ly

/-- info: 'Cert.Kernel.AG.pay_lm' depends on axioms: [propext, Classical.choice, Quot.sound] -/
#guard_msgs in #print axioms Cert.Kernel.AG.pay_lm

/-- info: 'Cert.Kernel.AG.pay_zs' depends on axioms: [propext, Classical.choice, Quot.sound] -/
#guard_msgs in #print axioms Cert.Kernel.AG.pay_zs

/-- info: 'Cert.Kernel.AG.pay_zr' depends on axioms: [propext, Classical.choice, Quot.sound] -/
#guard_msgs in #print axioms Cert.Kernel.AG.pay_zr

/-- info: 'Cert.Kernel.AG.pay_xs' depends on axioms: [propext, Classical.choice, Quot.sound] -/
#guard_msgs in #print axioms Cert.Kernel.AG.pay_xs

/-- info: 'Cert.Kernel.AG.pay_xr' depends on axioms: [propext, Classical.choice, Quot.sound] -/
#guard_msgs in #print axioms Cert.Kernel.AG.pay_xr

/-- info: 'Cert.Kernel.AG.pay_ys' depends on axioms: [propext, Classical.choice, Quot.sound] -/
#guard_msgs in #print axioms Cert.Kernel.AG.pay_ys

/-- info: 'Cert.Kernel.AG.pay_yr' depends on axioms: [propext, Classical.choice, Quot.sound] -/
#guard_msgs in #print axioms Cert.Kernel.AG.pay_yr
-- ==== Proof.K.AGOffs.lean ====
import proofs.«900673_g7700000000000674_dist_ag_v7x_xyz2x2x2_z_m4096_n1024_bf16_1_alg».proof.Proof.Gen.Kernel
import proofs.«900673_g7700000000000674_dist_ag_v7x_xyz2x2x2_z_m4096_n1024_bf16_1_alg».proof.Proof.K.AGRegions
import proofs.«900673_g7700000000000674_dist_ag_v7x_xyz2x2x2_z_m4096_n1024_bf16_1_alg».proof.Proof.K.AGContents

namespace Cert.Kernel.AG

open Idealize.ShloMosaic
open Cert.Kernel Cert.Kernel.Gen

theorem off1_eq (c : Dev nD) : k0_off1 c = ![pown c, 0] := by revert c; decide
theorem off2_eq (c : Dev nD) : k0_off2 c = ![pown c + 112, 0] := by revert c; decide
theorem off3_eq (c : Dev nD) : k0_off3 c = ![pown c + 336, 0] := by revert c; decide
theorem off4_eq (c : Dev nD) : k0_off4 c = ![pown c + 504, 0] := by revert c; decide
theorem off5_eq (c : Dev nD) : k0_off5 c = ![rown c, 0] := by revert c; decide
theorem off6_eq (c : Dev nD) : k0_off6 c = ![rown c + 176, 0] := by revert c; decide
theorem off7_eq (c : Dev nD) : k0_off7 c = ![rown c + 352, 0] := by revert c; decide
theorem off8_eq (c : Dev nD) : k0_off8 c = ![rown c + 528, 0] := by revert c; decide
theorem off9_eq (c : Dev nD) : k0_off9 c = ![pxn c, 0] := by revert c; decide
theorem off10_eq (c : Dev nD) : k0_off10 c = ![pyn c, 0] := by revert c; decide
theorem off11_eq (c : Dev nD) : k0_off11 c = ![pdg c, 0] := by revert c; decide
theorem off12_eq (c : Dev nD) : k0_off12 c = ![roth c, 0] := by revert c; decide
theorem off13_eq (c : Dev nD) : k0_off13 c = ![pown c, 0] := by revert c; decide
theorem off14_eq (c : Dev nD) : k0_off14 c = ![pown c + 112, 0] := by revert c; decide
theorem off15_eq (c : Dev nD) : k0_off15 c = ![pown c + 336, 0] := by revert c; decide
theorem off16_eq (c : Dev nD) : k0_off16 c = ![pown c + 504, 0] := by revert c; decide
theorem off17_eq (c : Dev nD) : k0_off17 c = ![rown c, 0] := by revert c; decide
theorem off18_eq (c : Dev nD) : k0_off18 c = ![rown c + 176, 0] := by revert c; decide
theorem off19_eq (c : Dev nD) : k0_off19 c = ![rown c + 352, 0] := by revert c; decide
theorem off20_eq (c : Dev nD) : k0_off20 c = ![rown c + 528, 0] := by revert c; decide
theorem off21_eq (c : Dev nD) : k0_off21 c = ![othb c + pown c, 0] := by revert c; decide
theorem off22_eq (c : Dev nD) : k0_off22 c = ![othb c + pown c + 112, 0] := by revert c; decide
theorem off23_eq (c : Dev nD) : k0_off23 c = ![pyn c, 0] := by revert c; decide
theorem off24_eq (c : Dev nD) : k0_off24 c = ![othb c + pyn c, 0] := by revert c; decide
theorem off25_eq (c : Dev nD) : k0_off25 c = ![othb c + pown c + 336, 0] := by revert c; decide
theorem off26_eq (c : Dev nD) : k0_off26 c = ![othb c + pown c + 504, 0] := by revert c; decide
theorem off27_eq (c : Dev nD) : k0_off27 c = ![pyn c + 112, 0] := by revert c; decide
theorem off28_eq (c : Dev nD) : k0_off28 c = ![othb c + pyn c + 112, 0] := by revert c; decide
theorem off30_eq (c : Dev nD) : k0_off30 c = ![othb c + pxn c + 336, 0] := by revert c; decide
theorem off31_eq (c : Dev nD) : k0_off31 c = ![pxn c + 336, 0] := by revert c; decide
theorem off32_eq (c : Dev nD) : k0_off32 c = ![pxn c + 504, 0] := by revert c; decide
theorem off33_eq (c : Dev nD) : k0_off33 c = ![othb c + pxn c + 504, 0] := by revert c; decide
theorem off34_eq (c : Dev nD) : k0_off34 c = ![othb c + rown c, 0] := by revert c; decide
theorem off35_eq (c : Dev nD) : k0_off35 c = ![othb c + rown c + 176, 0] := by revert c; decide
theorem off36_eq (c : Dev nD) : k0_off36 c = ![othb c + rown c + 352, 0] := by revert c; decide
theorem off37_eq (c : Dev nD) : k0_off37 c = ![othb c + rown c + 528, 0] := by revert c; decide
theorem off38_eq (c : Dev nD) : k0_off38 c = ![pxn c, 0] := by revert c; decide
theorem off39_eq (c : Dev nD) : k0_off39 c = ![pyn c, 0] := by revert c; decide
theorem off40_eq (c : Dev nD) : k0_off40 c = ![pdg c, 0] := by revert c; decide
theorem off41_eq (c : Dev nD) : k0_off41 c = ![roth c, 0] := by revert c; decide
theorem off42_eq (c : Dev nD) : k0_off42 c = ![myb c, 0] := by revert c; decide
theorem off43_eq (c : Dev nD) : k0_off43 c = ![pxn c, 0] := by revert c; decide
theorem off44_eq (c : Dev nD) : k0_off44 c = ![othb c + pxn c, 0] := by revert c; decide
theorem off45_eq (c : Dev nD) : k0_off45 c = ![pxn c + 112, 0] := by revert c; decide
theorem off46_eq (c : Dev nD) : k0_off46 c = ![othb c + pxn c + 112, 0] := by revert c; decide
theorem off47_eq (c : Dev nD) : k0_off47 c = ![roth c, 0] := by revert c; decide
theorem off48_eq (c : Dev nD) : k0_off48 c = ![othb c + roth c, 0] := by revert c; decide
theorem off51_eq (c : Dev nD) : k0_off51 c = ![pdg c, 0] := by revert c; decide
theorem off52_eq (c : Dev nD) : k0_off52 c = ![othb c + pdg c, 0] := by revert c; decide
theorem off53_eq (c : Dev nD) : k0_off53 c = ![pdg c + 112, 0] := by revert c; decide
theorem off54_eq (c : Dev nD) : k0_off54 c = ![othb c + pdg c + 112, 0] := by revert c; decide
theorem off55_eq (c : Dev nD) : k0_off55 c = ![pyn c + 336, 0] := by revert c; decide
theorem off56_eq (c : Dev nD) : k0_off56 c = ![othb c + pyn c + 336, 0] := by revert c; decide
theorem off57_eq (c : Dev nD) : k0_off57 c = ![pyn c + 504, 0] := by revert c; decide
theorem off58_eq (c : Dev nD) : k0_off58 c = ![othb c + pyn c + 504, 0] := by revert c; decide
theorem off59_eq (c : Dev nD) : k0_off59 c = ![roth c + 528, 0] := by revert c; decide
theorem off60_eq (c : Dev nD) : k0_off60 c = ![othb c + roth c + 528, 0] := by revert c; decide
theorem off61_eq (c : Dev nD) : k0_off61 c = ![pdg c + 336, 0] := by revert c; decide
theorem off62_eq (c : Dev nD) : k0_off62 c = ![othb c + pdg c + 336, 0] := by revert c; decide
theorem off63_eq (c : Dev nD) : k0_off63 c = ![pdg c + 504, 0] := by revert c; decide
theorem off64_eq (c : Dev nD) : k0_off64 c = ![othb c + pdg c + 504, 0] := by revert c; decide
theorem dev1_eq (c : Dev nD) : (⟨k0_dev1 c, k0_dev1_lt c⟩ : Dev nD) = zn c := by revert c; decide
theorem dev2_eq (c : Dev nD) : (⟨k0_dev2 c, k0_dev2_lt c⟩ : Dev nD) = xn c := by revert c; decide
theorem dev3_eq (c : Dev nD) : (⟨k0_dev3 c, k0_dev3_lt c⟩ : Dev nD) = yn c := by revert c; decide
theorem dev4_eq (c : Dev nD) : (⟨k0_dev4 c, k0_dev4_lt c⟩ : Dev nD) = zn c := by revert c; decide
theorem dev5_eq (c : Dev nD) : (⟨k0_dev5 c, k0_dev5_lt c⟩ : Dev nD) = zn c := by revert c; decide
theorem dev6_eq (c : Dev nD) : (⟨k0_dev6 c, k0_dev6_lt c⟩ : Dev nD) = zn c := by revert c; decide
theorem dev7_eq (c : Dev nD) : (⟨k0_dev7 c, k0_dev7_lt c⟩ : Dev nD) = zn c := by revert c; decide
theorem dev8_eq (c : Dev nD) : (⟨k0_dev8 c, k0_dev8_lt c⟩ : Dev nD) = zn c := by revert c; decide
theorem dev9_eq (c : Dev nD) : (⟨k0_dev9 c, k0_dev9_lt c⟩ : Dev nD) = zn c := by revert c; decide
theorem dev10_eq (c : Dev nD) : (⟨k0_dev10 c, k0_dev10_lt c⟩ : Dev nD) = zn c := by revert c; decide
theorem dev11_eq (c : Dev nD) : (⟨k0_dev11 c, k0_dev11_lt c⟩ : Dev nD) = zn c := by revert c; decide
theorem dev12_eq (c : Dev nD) : (⟨k0_dev12 c, k0_dev12_lt c⟩ : Dev nD) = xn c := by revert c; decide
theorem dev13_eq (c : Dev nD) : (⟨k0_dev13 c, k0_dev13_lt c⟩ : Dev nD) = yn c := by revert c; decide
theorem dev14_eq (c : Dev nD) : (⟨k0_dev14 c, k0_dev14_lt c⟩ : Dev nD) = xn c := by revert c; decide
theorem dev15_eq (c : Dev nD) : (⟨k0_dev15 c, k0_dev15_lt c⟩ : Dev nD) = yn c := by revert c; decide
theorem dev16_eq (c : Dev nD) : (⟨k0_dev16 c, k0_dev16_lt c⟩ : Dev nD) = xn c := by revert c; decide
theorem dev17_eq (c : Dev nD) : (⟨k0_dev17 c, k0_dev17_lt c⟩ : Dev nD) = xn c := by revert c; decide
theorem dev18_eq (c : Dev nD) : (⟨k0_dev18 c, k0_dev18_lt c⟩ : Dev nD) = yn c := by revert c; decide
theorem dev19_eq (c : Dev nD) : (⟨k0_dev19 c, k0_dev19_lt c⟩ : Dev nD) = xn c := by revert c; decide
theorem dev20_eq (c : Dev nD) : (⟨k0_dev20 c, k0_dev20_lt c⟩ : Dev nD) = yn c := by revert c; decide
theorem dev21_eq (c : Dev nD) : (⟨k0_dev21 c, k0_dev21_lt c⟩ : Dev nD) = xn c := by revert c; decide
theorem dev22_eq (c : Dev nD) : (⟨k0_dev22 c, k0_dev22_lt c⟩ : Dev nD) = yn c := by revert c; decide
theorem dev23_eq (c : Dev nD) : (⟨k0_dev23 c, k0_dev23_lt c⟩ : Dev nD) = yn c := by revert c; decide
theorem dev24_eq (c : Dev nD) : (⟨k0_dev24 c, k0_dev24_lt c⟩ : Dev nD) = xn c := by revert c; decide
theorem dev25_eq (c : Dev nD) : (⟨k0_dev25 c, k0_dev25_lt c⟩ : Dev nD) = xn c := by revert c; decide
theorem dev26_eq (c : Dev nD) : (⟨k0_dev26 c, k0_dev26_lt c⟩ : Dev nD) = yn c := by revert c; decide
theorem dev27_eq (c : Dev nD) : (⟨k0_dev27 c, k0_dev27_lt c⟩ : Dev nD) = yn c := by revert c; decide
theorem off29_1_eq (c : Dev nD) : k0_off29 c 112#32 224#32 = ![pxn c + 336, 0] := by revert c; decide
theorem off29_2_eq (c : Dev nD) : k0_off29 c 336#32 168#32 = ![pxn c + 504, 0] := by revert c; decide
theorem off49_1_eq (c : Dev nD) : k0_off49 c 176#32 = ![roth c + 176, 0] := by revert c; decide
theorem off49_2_eq (c : Dev nD) : k0_off49 c 352#32 = ![roth c + 352, 0] := by revert c; decide
theorem off50_1_eq (c : Dev nD) : k0_off50 c 176#32 = ![othb c + roth c + 176, 0] := by revert c; decide
theorem off50_2_eq (c : Dev nD) : k0_off50 c 352#32 = ![othb c + roth c + 352, 0] := by revert c; decide

end Cert.Kernel.AG
-- ==== Proof.K.AGGlue.lean ====
/-
  Reading the ghost state cell by cell, and the neighbours' barrier payloads in the spelling of the device that holds the rows:
  what device c hands its z-neighbour is the eight own chunks of ITS OWN communication buffer (the z-neighbour's own chunks are at
  the same rows), what it hands its x- and y-neighbour the rows their forwards will land in; and symmetrically what it receives.
-/
import proofs.«900673_g7700000000000674_dist_ag_v7x_xyz2x2x2_z_m4096_n1024_bf16_1_alg».proof.Proof.K.AGSteps

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One cell out of the records -/

theorem ksem_dma (n : ℕ) (hn : n < 85) : ksem ⟨n, by omega⟩ = SemLoc.dma (⟨n, hn⟩ : DmaSem sig) := dif_pos hn
theorem ksem_bar : ksem (85 : Fin 86) = SemLoc.reg barS := rfl

theorem inv_dma (K : Dev nD × Fin 86 → ℕ) (d : Dev nD) (n : ℕ) (hn : n < 85) :
    records m K ⊢ cellInv ER (agRd m) (K (d, ⟨n, by omega⟩)) (dcell d n hn) := by
  have h : (bigSep Finset.univ fun ck : Dev nD × Fin 86 => (cellInv ER (agRd m) (K ck) (kcell ck) : sProp 𝕄))
      ⊢ cellInv ER (agRd m) (K (d, ⟨n, by omega⟩)) (kcell (d, ⟨n, by omega⟩)) := bigSep_elim (Finset.mem_univ _)
  rw [show kcell (d, (⟨n, by omega⟩ : Fin 86)) = dcell d n hn from by unfold kcell; rw [ksem_dma n hn]] at h
  unfold records
  iintro ⟨#HI, -⟩
  iapply h; iexact HI

theorem inv_bar (K : Dev nD × Fin 86 → ℕ) (d : Dev nD) : records m K ⊢ cellInv ER (agRd m) (K (d, 85)) (barCell d) := by
  have h : (bigSep Finset.univ fun ck : Dev nD × Fin 86 => (cellInv ER (agRd m) (K ck) (kcell ck) : sProp 𝕄))
      ⊢ cellInv ER (agRd m) (K (d, 85)) (kcell (d, 85)) := bigSep_elim (Finset.mem_univ _)
  unfold records
  iintro ⟨#HI, -⟩
  iapply h; iexact HI

theorem reached_dma (K : Dev nD × Fin 86 → ℕ) (d : Dev nD) (n : ℕ) (hn : n < 85) : records m K ⊢ reached ER (dcell d n hn) 0 := by
  have h : (bigSep Finset.univ fun ck : Dev nD × Fin 86 => (reached ER (kcell ck) 0 : sProp 𝕄))
      ⊢ reached ER (kcell (d, ⟨n, by omega⟩)) 0 := bigSep_elim (Finset.mem_univ _)
  rw [show kcell (d, (⟨n, by omega⟩ : Fin 86)) = dcell d n hn from by unfold kcell; rw [ksem_dma n hn]] at h
  unfold records
  iintro ⟨-, #HR⟩
  iapply h; iexact HR

theorem reached_bar (K : Dev nD × Fin 86 → ℕ) (d : Dev nD) : records m K ⊢ reached ER (barCell d) 0 := by
  have h : (bigSep Finset.univ fun ck : Dev nD × Fin 86 => (reached ER (kcell ck) 0 : sProp 𝕄))
      ⊢ reached ER (kcell (d, 85)) 0 := bigSep_elim (Finset.mem_univ _)
  unfold records
  iintro ⟨-, #HR⟩
  iapply h; iexact HR

/-! ## A family of eight, of twelve, written out -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The same rows under another name -/

omit [FloatOps F] in
theorem pts_respell {sp : Space} {e : EltTy} {R : ℕ} (d : Dev nD) (B : Memref sig .tc sp (Sr R) e) {o o' r r' : ℕ} (ho : o = o') (hr : r = r')
    (h : o + r ≤ R) (h' : o' + r' ≤ R) (q : PosShare TreeShare) (f : Buf (Elt F) (B.view.loc (d : Thread nD τ))) :
    pts (F := F) d B o r h q f = pts d B o' r' h' q f := by
  subst ho hr; rfl

/-! ## A copy's credit -/

omit [FloatOps F] in
/-- The credit of rows of a buffer does not depend on where the rows start. -/
theorem credit_rect {sp : Space} {e : EltTy} {R : ℕ} (M : Memref sig .tc sp (Sr R) e) (r : ℕ) (off : Fin 2 → ℕ)
    (inb : ∀ a, off a + (Sr r).size a ≤ (Sr R).size a) (hst : ∀ a, (Rect.unit (s := Sr R) off (Sr r).size inb).stride a = 1) (o : ℕ) (h : o + r ≤ R) :
    (M.slice (Rect.unit (s := Sr R) off (Sr r).size inb) hst).view.dmaCredit = (sl M o r h).view.dmaCredit := rfl

/-! ## The barrier payloads -/

/-- What a device whose z-neighbour is e hands over on duty 0: e's own chunks and e's z-receive cells' marks. -/
theorem bpay_z_at (d e : Dev nD) (h : zn d = e) :
    bpay (F := F) d 0 = bigSep Finset.univ fun j : Fin 8 => iprop((∃ f, pts e CM (ownOff e j) (ownLen j) (own_inb e j) fullShare f)
      ∗ reached ER (dcell e (20 + j.val) (by omega)) 0) := by
  subst h; unfold bpay; exact if_pos rfl
theorem bpay_x_at (d e : Dev nD) (h : xn d = e) :
    bpay (F := F) d 1 = bigSep Finset.univ fun k : Fin 8 => iprop((∃ f, pts e CM (xinOff e k) (xinLen k) (xin_inb e k) fullShare f)
      ∗ reached ER (dcell e (36 + k.val) (by omega)) 0) := by
  subst h; unfold bpay; exact (if_neg (by decide)).trans (if_pos rfl)
theorem bpay_y_at (d e : Dev nD) (h : yn d = e) :
    bpay (F := F) d 2 = bigSep Finset.univ fun k : Fin 8 => iprop((∃ f, pts e CM (yinOff e k) (yinLen k) (yin_inb e k) fullShare f)
      ∗ reached ER (dcell e (52 + k.val) (by omega)) 0) := by
  subst h; unfold bpay; exact (if_neg (by decide)).trans (if_neg (by decide))

/-- What device c hands its z-, x-, y-neighbour: rows of its own communication buffer. -/
theorem bpay_to_z (c : Dev nD) :
    bpay (F := F) (zn c) 0 = bigSep Finset.univ fun j : Fin 8 => iprop((∃ f, pts c CM (ownOff c j) (ownLen j) (own_inb c j) fullShare f)
      ∗ reached ER (dcell c (20 + j.val) (by omega)) 0) := bpay_z_at (zn c) c (zn_zn c)
theorem bpay_to_x (c : Dev nD) :
    bpay (F := F) (xn c) 1 = bigSep Finset.univ fun k : Fin 8 => iprop((∃ f, pts c CM (xinOff c k) (xinLen k) (xin_inb c k) fullShare f)
      ∗ reached ER (dcell c (36 + k.val) (by omega)) 0) := bpay_x_at (xn c) c (xn_xn c)
theorem bpay_to_y (c : Dev nD) :
    bpay (F := F) (yn c) 2 = bigSep Finset.univ fun k : Fin 8 => iprop((∃ f, pts c CM (yinOff c k) (yinLen k) (yin_inb c k) fullShare f)
      ∗ reached ER (dcell c (52 + k.val) (by omega)) 0) := bpay_y_at (yn c) c (yn_yn c)

/-- What device c receives from its z-neighbour: the z-neighbour's rows at c's own chunks (the same rows there). -/
theorem bpay_from_z (c : Dev nD) :
    bpay (F := F) c 0 = bigSep Finset.univ fun j : Fin 8 => iprop((∃ f, pts (zn c) CM (ownOff c j) (ownLen j) (own_inb c j) fullShare f)
      ∗ reached ER (dcell (zn c) (20 + j.val) (by omega)) 0) := by
  rw [bpay_z_at c (zn c) rfl]
  refine bigSep_congr fun j _ => ?_
  have e : ∀ f, pts (F := F) (zn c) CM (ownOff (zn c) j) (ownLen j) (own_inb (zn c) j) fullShare f
      = pts (zn c) CM (ownOff c j) (ownLen j) (own_inb c j) fullShare f := fun f => pts_respell (zn c) CM (own_zn c j) rfl _ _ _ f
  simp only [e]
theorem bpay_from_x (c : Dev nD) :
    bpay (F := F) c 1 = bigSep Finset.univ fun k : Fin 8 => iprop((∃ f, pts (xn c) CM (xinOff (xn c) k) (xinLen k) (xin_inb (xn c) k) fullShare f)
      ∗ reached ER (dcell (xn c) (36 + k.val) (by omega)) 0) := bpay_x_at c (xn c) rfl
theorem bpay_from_y (c : Dev nD) :
    bpay (F := F) c 2 = bigSep Finset.univ fun k : Fin 8 => iprop((∃ f, pts (yn c) CM (yinOff (yn c) k) (yinLen k) (yin_inb (yn c) k) fullShare f)
      ∗ reached ER (dcell (yn c) (52 + k.val) (by omega)) 0) := bpay_y_at c (yn c) rfl

end Cert.Kernel.AG

end
-- ==== Proof.K.AGParts_ah.lean ====
/-
  What the part lemmas of the body share: a load and a store of a row range against the printed spelling; that rows on
  which the conversion of the staged rows was stored hold the device's half converted; the payloads of an input copy's and
  of a z-transfer's landing, spelt as the rows they are; the units of a z-transfer's two cells; rows held at a share as
  its two halves; and that the waits of the first parts lie below every cell still owed.
-/
import proofs.«900673_g7700000000000674_dist_ag_v7x_xyz2x2x2_z_m4096_n1024_bf16_1_alg».proof.Proof.Gen.Kernel.Skeleton
import proofs.«900673_g7700000000000674_dist_ag_v7x_xyz2x2x2_z_m4096_n1024_bf16_1_alg».proof.Proof.K.AGSteps
import proofs.«900673_g7700000000000674_dist_ag_v7x_xyz2x2x2_z_m4096_n1024_bf16_1_alg».proof.Proof.K.AGPays
import proofs.«900673_g7700000000000674_dist_ag_v7x_xyz2x2x2_z_m4096_n1024_bf16_1_alg».proof.Proof.K.AGSlices
import proofs.«900673_g7700000000000674_dist_ag_v7x_xyz2x2x2_z_m4096_n1024_bf16_1_alg».proof.Proof.K.AGOffs
import proofs.«900673_g7700000000000674_dist_ag_v7x_xyz2x2x2_z_m4096_n1024_bf16_1_alg».proof.Proof.K.AGGlue

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads, stores and what a converted chunk holds -/

/-- A load of rows [o, o + r) of a buffer held at any share: it reads the rows. -/
theorem pa_load {cs : CoreSpace} {e : EltTy} {R : ℕ} (c : Dev nD) (M : Memref sig .tc (.core cs) (Sr R) e) (o r : ℕ) (h : o + r ≤ R)
    (q : PosShare TreeShare) (f : Buf (Elt F) ((sl M o r h).view.loc (c : Thread nD τ)))
    (off : Fin 2 → ℕ) (hoff : off = ![o, 0])
    {inb : ∀ a, off a + (Sr r).size a ≤ (Sr R).size a}
    {hl : M.view.LoadsAt (Rect.unit (s := Sr R) off (Sr r).size inb).toLoadRect}
    {α : Type} {Q : α → sProp 𝕄} {k : ((Sr r).Idx → Elt F e) → Prog (TpuEff nD τ sig (Elt F) Λ₀ .tc) α} :
    pts c M o r h q f
      ⊢ iprop((pts c M o r h q f -∗ wp frame (wpE (defs₀ (F := F)) 𝒱₀ (c : Thread nD τ) none) Set.univ (k (fun j => M.view.read (Elt F) f (up o h j))) Q)
          -∗ wp frame (wpE (defs₀ (F := F)) 𝒱₀ (c : Thread nD τ) none) Set.univ (.op (.load M (Rect.unit (s := Sr R) off (Sr r).size inb).toLoadRect hl) k) Q) := by
  subst hoff
  unfold pts
  have hw := wp_load (defs := defs₀ (F := F)) (Γ := PendingWaitsCtx.empty) 𝒱₀ (c : Thread nD τ) none Set.univ (m := M)
    (r := (Rect.unit (s := Sr R) ![o, 0] (Sr r).size inb).toLoadRect) (hl := hl) (k := k) (Q := Q)
    (S := (sl M o r h).view.set) (q := q) (f := f) (by rw [sl_set]; exact Finset.Subset.refl _)
  rw [readAt_rows M h f] at hw
  exact hw

/-- A store of a vector on rows [o, o + r) of a buffer held whole there. -/
theorem pa_store {cs : CoreSpace} {e : EltTy} {R : ℕ} (c : Dev nD) (M : Memref sig .tc (.core cs) (Sr R) e) (o r : ℕ) (h : o + r ≤ R)
    (f : Buf (Elt F) ((sl M o r h).view.loc (c : Thread nD τ))) (v : (Sr r).Idx → Elt F e)
    (off : Fin 2 → ℕ) (hoff : off = ![o, 0])
    {inb : ∀ a, off a + (Sr r).size a ≤ (Sr R).size a}
    {hx : (M.access (Rect.unit (s := Sr R) off (Sr r).size inb)).Stores Finset.univ}
    {hm : (Finset.univ : Finset (Rect.unit (s := Sr R) off (Sr r).size inb).shape.Idx) = Finset.univ ∨ ∀ a, (Rect.unit (s := Sr R) off (Sr r).size inb).stride a = 1}
    {α : Type} {Q : α → sProp 𝕄} {k : PUnit → Prog (TpuEff nD τ sig (Elt F) Λ₀ .tc) α} :
    pts c M o r h fullShare f
      ⊢ iprop((((sl M o r h).view.loc (c : Thread nD τ) ↦[(sl M o r h).view.set]{fullShare}
              ((M.access (Rect.unit (s := Sr R) ![o, 0] (Sr r).size (sl_inb h))).write (Elt F) f v Finset.univ))
            -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := Sr R) off (Sr r).size inb) v Finset.univ hx hm) k) Q) := by
  subst hoff
  unfold pts
  exact wp_store (defs := defs₀ (F := F)) (Γ := PendingWaitsCtx.empty) 𝒱₀ (c : Thread nD τ) none Set.univ (m := M)
    (r := Rect.unit (s := Sr R) ![o, 0] (Sr r).size inb) (w := v) (hx := hx) (hm := hm) (k := k) (Q := Q)
    (S := (sl M o r h).view.set) (f := f) (Finset.Subset.refl _)

/-- Rows of the conversion buffer on which the conversion of the staged rows was stored hold the device's half converted. -/
theorem pa_stored_mine (c : Dev nD) (o r : ℕ) (h : o + r ≤ 4096) (fm : Buf (Elt F) ((sl MI o r h).view.loc (c : Thread nD τ)))
    (v : (Sr r).Idx → Elt F .bf16)
    (hv : ∀ j, v j = FloatOps.truncf .bf16 (by decide) (X m c (up o h j))) :
    ((sl MI o r h).view.loc (c : Thread nD τ) ↦[(sl MI o r h).view.set]{fullShare}
        ((MI.access (Rect.unit (s := Sr 4096) ![o, 0] (Sr r).size (sl_inb h))).write (Elt F) fm v Finset.univ) : sProp 𝕄)
      = pts c MI o r h fullShare (mineV m c) := by
  unfold pts
  exact pointsTo_sl_congr MI c fullShare fun x hx => by
    rw [read_store_rows_of_mem MI h fm v x hx, hv, up_down]
    rfl

/-- What the landing of an input copy hands over. -/
theorem pa_wait_in (c : Dev nD) (i : Fin 12) (n : ℕ) (hn : n = i.val) :
    (dpay m c n : sProp 𝕄) ⊢ iprop(pts c ST (inOff c i) (inLen i) (in_inb c i) fullShare (X m c)
      ∗ pts c XA (inOff c i) (inLen i) (in_inb c i) fullShare (X m c)) := by
  subst hn; exact Entails.of_eq (dpay_in m c i)

/-- What the landing of a z-transfer hands the receiver: its own chunk of the communication buffer, holding what the
    z-neighbour converted. -/
theorem pa_wait_zr (c : Dev nD) (j : Fin 8) (n : ℕ) (hn : n = 20 + j.val) :
    (dpay m c n : sProp 𝕄) = pts c CM (ownOff c j) (ownLen j) (own_inb c j) fullShare (commV m c) := by
  subst hn; exact dpay_zr m c j

/-- A z-transfer's two cells carry the same units. -/
theorem pa_damt_z (j : Fin 8) : damt (12 + j.val) = damt (20 + j.val) :=
  (credit_zs 0 j (by have := (ownLen_pos j).2; omega)).symm.trans (credit_zr 0 j (by have := (ownLen_pos j).2; omega))

/-- Held whole, rows are held at the left and at the right half. -/
theorem pa_halves {sp : Space} {e : EltTy} {R : ℕ} (c : Dev nD) (M : Memref sig .tc sp (Sr R) e) (o r : ℕ) (h : o + r ≤ R)
    (q : PosShare TreeShare) (f : Buf (Elt F) ((sl M o r h).view.loc (c : Thread nD τ))) :
    (pts c M o r h q f : sProp 𝕄) ⊢ iprop(pts c M o r h q.left f ∗ pts c M o r h q.right f) := by
  unfold pts; exact (pointsTo_share_split _ q f).1

/-- The credit a z-transfer leaves on its send cell, in the send cell's own units. -/
theorem pa_cred_z (c : Dev nD) (j : Fin 8) (ns nr : ℕ) (hs : ns = 12 + j.val) (hr : nr = 20 + j.val) (h : ns < 85) :
    (cred (tallyAt (dcell c ns h) () (damt nr)) : sProp 𝕄) ⊢ cred (tallyAt (dcell c ns h) () (damt ns)) := by
  subst hs hr; exact Entails.of_eq (by rw [pa_damt_z j])

/-! ## The waits of these parts lie below everything still owed -/

theorem pa_lv_bar : ∀ (c : Dev nD), ∀ t ∈ (fires c).drop 3,
    lv ((c : Thread nD τ), SemLoc.reg barS) () < lv t.1 () ∧ t.1.1.2 = .tc := by decide
theorem pa_lv_in : ∀ (j : Fin 8) (c : Dev nD), ∀ t ∈ (fires c).drop (3 + j.val),
    lv ((c : Thread nD τ), SemLoc.dma ⟨j.val, by have := j.isLt; show j.val < 85; omega⟩) () < lv t.1 () ∧ t.1.1.2 = .tc := by decide
theorem pa_lv_zr0 : ∀ (c : Dev nD), ∀ t ∈ (fires c).drop 11,
    lv ((c : Thread nD τ), SemLoc.dma ⟨20, by decide⟩) () < lv t.1 () ∧ t.1.1.2 = .tc := by decide

end Cert.Kernel.AG

end
-- ==== Proof.K.AGParts_a.lean ====
/-
  The body of one device, part by part: its first ten parts.
  The device reads its id; starts the twelve copies of its half of the argument into the staging buffer; signals its three
  neighbours, handing each the rows of its own communication buffer that the neighbour will write and the marks that the
  receive cells there are at their first round; waits for the three neighbours' signals and receives theirs.  Then, for
  each of its eight own chunks in turn: it waits for the chunk's input copy, converts the staged rows and stores them in
  the conversion buffer, and sends them to its z-neighbour, into the rows the neighbour handed over.
-/
import proofs.«900673_g7700000000000674_dist_ag_v7x_xyz2x2x2_z_m4096_n1024_bf16_1_alg».proof.Proof.Gen.Kernel.Skeleton
import proofs.«900673_g7700000000000674_dist_ag_v7x_xyz2x2x2_z_m4096_n1024_bf16_1_alg».proof.Proof.K.AGSteps
import proofs.«900673_g7700000000000674_dist_ag_v7x_xyz2x2x2_z_m4096_n1024_bf16_1_alg».proof.Proof.K.AGPays
import proofs.«900673_g7700000000000674_dist_ag_v7x_xyz2x2x2_z_m4096_n1024_bf16_1_alg».proof.Proof.K.AGSlices
import proofs.«900673_g7700000000000674_dist_ag_v7x_xyz2x2x2_z_m4096_n1024_bf16_1_alg».proof.Proof.K.AGOffs
import proofs.«900673_g7700000000000674_dist_ag_v7x_xyz2x2x2_z_m4096_n1024_bf16_1_alg».proof.Proof.K.AGGlue
import proofs.«900673_g7700000000000674_dist_ag_v7x_xyz2x2x2_z_m4096_n1024_bf16_1_alg».proof.Proof.K.AGParts_ah

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Part 1: the device reads its id. -/
theorem part_1 (c : Dev nD) (K : Dev nD × Fin 86 → ℕ) :
    iprop(records m K ∗ levAts L lv)
      ⊢ wp frame (wpE (defs₀ (F := F)) 𝒱₀ (c : Thread nD τ) none) Set.univ
          (k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13)
          (fun r => iprop(⌜r.1 = c⌝)) := by
  simp only [k0_part1_eq_skeleton]; unfold k0_part1_skel
  simp only [Prog.lift, Prog.bind_op, Prog.bind_ret, Prog.pure_eq_ret, Prog.bind_assoc, wp_deviceId]
  iintro -
  rw [wp_ret]; imodintro
  ipureintro; rfl

set_option maxRecDepth 65536 in
/-- Part 2: the input copies of own chunks 0, 1, 2. -/
theorem part_2 (c : Dev nD) (K : Dev nD × Fin 86 → ℕ) (v2 v5 v22 v28 v33 c2_i32_18 : BitVec 32)
    (fd0 : Buf (Elt F) ((sl ST (inOff c 0) (inLen 0) (in_inb c 0)).view.loc (c : Thread nD τ))) (fd1 : Buf (Elt F) ((sl ST (inOff c 1) (inLen 1) (in_inb c 1)).view.loc (c : Thread nD τ))) (fd2 : Buf (Elt F) ((sl ST (inOff c 2) (inLen 2) (in_inb c 2)).view.loc (c : Thread nD τ))) :
    iprop(records m K ∗ levAts L lv
        ∗ pts c XA (inOff c 0) (inLen 0) (in_inb c 0) fullShare (X m c) ∗ pts c ST (inOff c 0) (inLen 0) (in_inb c 0) fullShare fd0
        ∗ dutyTok ER (dcell c 0 (by decide)) 0 0
        ∗ pts c XA (inOff c 1) (inLen 1) (in_inb c 1) fullShare (X m c) ∗ pts c ST (inOff c 1) (inLen 1) (in_inb c 1) fullShare fd1
        ∗ dutyTok ER (dcell c 1 (by decide)) 0 0
        ∗ pts c XA (inOff c 2) (inLen 2) (in_inb c 2) fullShare (X m c) ∗ pts c ST (inOff c 2) (inLen 2) (in_inb c 2) fullShare fd2
        ∗ dutyTok ER (dcell c 2 (by decide)) 0 0)
      ⊢ wp frame (wpE (defs₀ (F := F)) 𝒱₀ (c : Thread nD τ) none) Set.univ
          (k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v22 v28 v33 c2_i32_18)
          (fun r => iprop(cred (tallyAt (dcell c 0 (by decide)) () (damt 0)) ∗ cred (tallyAt (dcell c 1 (by decide)) () (damt 1)) ∗ cred (tallyAt (dcell c 2 (by decide)) () (damt 2)))) := by
  simp only [k0_part2_eq_skeleton]; unfold k0_part2_skel
  simp only [Prog.lift, Prog.bind_op, Prog.bind_ret, Prog.pure_eq_ret, Prog.bind_assoc]
  iintro ⟨#HR, #HL, Hxa0, Hst0, Ht0, Hxa1, Hst1, Ht1, Hxa2, Hst2, Ht2⟩
  iapply (step_copy' m c XA ST (inOff c 0) (inOff c 0) (inLen 0) (in_inb c 0) (in_inb c 0) 0 (by decide) fullShare (X m c) fd0
      (k0_off1 c) (k0_off1 c) ((off1_eq c).trans (by rfl)) ((off1_eq c).trans (by rfl)) _ rfl (κ := K (c, ⟨0, by omega⟩))
      (credit_in (inOff c 0) 0 (in_inb c 0)) (pay_in m c 0 fd0)) $$ [Hxa0 Hst0 Ht0]
  · isplitr; · iapply (inv_dma m K c 0 _); iexact HR
    isplitl [Hxa0]; · iexact Hxa0
    isplitl [Hst0]; · iexact Hst0
    isplitl [Ht0]; · iexact Ht0
    iapply (reached_dma m K c 0 _); iexact HR
  iintro Hc0
  iapply (step_copy' m c XA ST (inOff c 1) (inOff c 1) (inLen 1) (in_inb c 1) (in_inb c 1) 1 (by decide) fullShare (X m c) fd1
      (k0_off2 c) (k0_off2 c) ((off2_eq c).trans (by rfl)) ((off2_eq c).trans (by rfl)) _ rfl (κ := K (c, ⟨1, by omega⟩))
      (credit_in (inOff c 1) 1 (in_inb c 1)) (pay_in m c 1 fd1)) $$ [Hxa1 Hst1 Ht1]
  · isplitr; · iapply (inv_dma m K c 1 _); iexact HR
    isplitl [Hxa1]; · iexact Hxa1
    isplitl [Hst1]; · iexact Hst1
    isplitl [Ht1]; · iexact Ht1
    iapply (reached_dma m K c 1 _); iexact HR
  iintro Hc1
  iapply (step_copy' m c XA ST (inOff c 2) (inOff c 2) (inLen 2) (in_inb c 2) (in_inb c 2) 2 (by decide) fullShare (X m c) fd2
      (k0_off3 c) (k0_off3 c) ((off3_eq c).trans (by rfl)) ((off3_eq c).trans (by rfl)) _ rfl (κ := K (c, ⟨2, by omega⟩))
      (credit_in (inOff c 2) 2 (in_inb c 2)) (pay_in m c 2 fd2)) $$ [Hxa2 Hst2 Ht2]
  · isplitr; · iapply (inv_dma m K c 2 _); iexact HR
    isplitl [Hxa2]; · iexact Hxa2
    isplitl [Hst2]; · iexact Hst2
    isplitl [Ht2]; · iexact Ht2
    iapply (reached_dma m K c 2 _); iexact HR
  iintro Hc2
  rw [wp_ret]; imodintro
  isplitl [Hc0]; · iexact Hc0
  isplitl [Hc1]; · iexact Hc1
  iexact Hc2

set_option maxRecDepth 65536 in
/-- Part 3: the input copies of own chunks 3 to 7 and of the x- and the y-neighbour's 672-regions. -/
theorem part_3 (c : Dev nD) (K : Dev nD × Fin 86 → ℕ)
    (fd3 : Buf (Elt F) ((sl ST (inOff c 3) (inLen 3) (in_inb c 3)).view.loc (c : Thread nD τ))) (fd4 : Buf (Elt F) ((sl ST (inOff c 4) (inLen 4) (in_inb c 4)).view.loc (c : Thread nD τ))) (fd5 : Buf (Elt F) ((sl ST (inOff c 5) (inLen 5) (in_inb c 5)).view.loc (c : Thread nD τ))) (fd6 : Buf (Elt F) ((sl ST (inOff c 6) (inLen 6) (in_inb c 6)).view.loc (c : Thread nD τ))) (fd7 : Buf (Elt F) ((sl ST (inOff c 7) (inLen 7) (in_inb c 7)).view.loc (c : Thread nD τ))) (fd8 : Buf (Elt F) ((sl ST (inOff c 8) (inLen 8) (in_inb c 8)).view.loc (c : Thread nD τ))) (fd9 : Buf (Elt F) ((sl ST (inOff c 9) (inLen 9) (in_inb c 9)).view.loc (c : Thread nD τ))) :
    iprop(records m K ∗ levAts L lv
        ∗ pts c XA (inOff c 3) (inLen 3) (in_inb c 3) fullShare (X m c) ∗ pts c ST (inOff c 3) (inLen 3) (in_inb c 3) fullShare fd3
        ∗ dutyTok ER (dcell c 3 (by decide)) 0 0
        ∗ pts c XA (inOff c 4) (inLen 4) (in_inb c 4) fullShare (X m c) ∗ pts c ST (inOff c 4) (inLen 4) (in_inb c 4) fullShare fd4
        ∗ dutyTok ER (dcell c 4 (by decide)) 0 0
        ∗ pts c XA (inOff c 5) (inLen 5) (in_inb c 5) fullShare (X m c) ∗ pts c ST (inOff c 5) (inLen 5) (in_inb c 5) fullShare fd5
        ∗ dutyTok ER (dcell c 5 (by decide)) 0 0
        ∗ pts c XA (inOff c 6) (inLen 6) (in_inb c 6) fullShare (X m c) ∗ pts c ST (inOff c 6) (inLen 6) (in_inb c 6) fullShare fd6
        ∗ dutyTok ER (dcell c 6 (by decide)) 0 0
        ∗ pts c XA (inOff c 7) (inLen 7) (in_inb c 7) fullShare (X m c) ∗ pts c ST (inOff c 7) (inLen 7) (in_inb c 7) fullShare fd7
        ∗ dutyTok ER (dcell c 7 (by decide)) 0 0
        ∗ pts c XA (inOff c 8) (inLen 8) (in_inb c 8) fullShare (X m c) ∗ pts c ST (inOff c 8) (inLen 8) (in_inb c 8) fullShare fd8
        ∗ dutyTok ER (dcell c 8 (by decide)) 0 0
        ∗ pts c XA (inOff c 9) (inLen 9) (in_inb c 9) fullShare (X m c) ∗ pts c ST (inOff c 9) (inLen 9) (in_inb c 9) fullShare fd9
        ∗ dutyTok ER (dcell c 9 (by decide)) 0 0)
      ⊢ wp frame (wpE (defs₀ (F := F)) 𝒱₀ (c : Thread nD τ) none) Set.univ
          (k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
          (fun r => iprop(cred (tallyAt (dcell c 3 (by decide)) () (damt 3)) ∗ cred (tallyAt (dcell c 4 (by decide)) () (damt 4)) ∗ cred (tallyAt (dcell c 5 (by decide)) () (damt 5)) ∗ cred (tallyAt (dcell c 6 (by decide)) () (damt 6)) ∗ cred (tallyAt (dcell c 7 (by decide)) () (damt 7)) ∗ cred (tallyAt (dcell c 8 (by decide)) () (damt 8)) ∗ cred (tallyAt (dcell c 9 (by decide)) () (damt 9)))) := by
  simp only [k0_part3_eq_skeleton]; unfold k0_part3_skel
  simp only [Prog.lift, Prog.bind_op, Prog.bind_ret, Prog.pure_eq_ret, Prog.bind_assoc]
  iintro ⟨#HR, #HL, Hxa3, Hst3, Ht3, Hxa4, Hst4, Ht4, Hxa5, Hst5, Ht5, Hxa6, Hst6, Ht6, Hxa7, Hst7, Ht7, Hxa8, Hst8, Ht8, Hxa9, Hst9, Ht9⟩
  iapply (step_copy' m c XA ST (inOff c 3) (inOff c 3) (inLen 3) (in_inb c 3) (in_inb c 3) 3 (by decide) fullShare (X m c) fd3
      (k0_off4 c) (k0_off4 c) ((off4_eq c).trans (by rfl)) ((off4_eq c).trans (by rfl)) _ rfl (κ := K (c, ⟨3, by omega⟩))
      (credit_in (inOff c 3) 3 (in_inb c 3)) (pay_in m c 3 fd3)) $$ [Hxa3 Hst3 Ht3]
  · isplitr; · iapply (inv_dma m K c 3 _); iexact HR
    isplitl [Hxa3]; · iexact Hxa3
    isplitl [Hst3]; · iexact Hst3
    isplitl [Ht3]; · iexact Ht3
    iapply (reached_dma m K c 3 _); iexact HR
  iintro Hc3
  iapply (step_copy' m c XA ST (inOff c 4) (inOff c 4) (inLen 4) (in_inb c 4) (in_inb c 4) 4 (by decide) fullShare (X m c) fd4
      (k0_off5 c) (k0_off5 c) ((off5_eq c).trans (by rfl)) ((off5_eq c).trans (by rfl)) _ rfl (κ := K (c, ⟨4, by omega⟩))
      (credit_in (inOff c 4) 4 (in_inb c 4)) (pay_in m c 4 fd4)) $$ [Hxa4 Hst4 Ht4]
  · isplitr; · iapply (inv_dma m K c 4 _); iexact HR
    isplitl [Hxa4]; · iexact Hxa4
    isplitl [Hst4]; · iexact Hst4
    isplitl [Ht4]; · iexact Ht4
    iapply (reached_dma m K c 4 _); iexact HR
  iintro Hc4
  iapply (step_copy' m c XA ST (inOff c 5) (inOff c 5) (inLen 5) (in_inb c 5) (in_inb c 5) 5 (by decide) fullShare (X m c) fd5
      (k0_off6 c) (k0_off6 c) ((off6_eq c).trans (by rfl)) ((off6_eq c).trans (by rfl)) _ rfl (κ := K (c, ⟨5, by omega⟩))
      (credit_in (inOff c 5) 5 (in_inb c 5)) (pay_in m c 5 fd5)) $$ [Hxa5 Hst5 Ht5]
  · isplitr; · iapply (inv_dma m K c 5 _); iexact HR
    isplitl [Hxa5]; · iexact Hxa5
    isplitl [Hst5]; · iexact Hst5
    isplitl [Ht5]; · iexact Ht5
    iapply (reached_dma m K c 5 _); iexact HR
  iintro Hc5
  iapply (step_copy' m c XA ST (inOff c 6) (inOff c 6) (inLen 6) (in_inb c 6) (in_inb c 6) 6 (by decide) fullShare (X m c) fd6
      (k0_off7 c) (k0_off7 c) ((off7_eq c).trans (by rfl)) ((off7_eq c).trans (by rfl)) _ rfl (κ := K (c, ⟨6, by omega⟩))
      (credit_in (inOff c 6) 6 (in_inb c 6)) (pay_in m c 6 fd6)) $$ [Hxa6 Hst6 Ht6]
  · isplitr; · iapply (inv_dma m K c 6 _); iexact HR
    isplitl [Hxa6]; · iexact Hxa6
    isplitl [Hst6]; · iexact Hst6
    isplitl [Ht6]; · iexact Ht6
    iapply (reached_dma m K c 6 _); iexact HR
  iintro Hc6
  iapply (step_copy' m c XA ST (inOff c 7) (inOff c 7) (inLen 7) (in_inb c 7) (in_inb c 7) 7 (by decide) fullShare (X m c) fd7
      (k0_off8 c) (k0_off8 c) ((off8_eq c).trans (by rfl)) ((off8_eq c).trans (by rfl)) _ rfl (κ := K (c, ⟨7, by omega⟩))
      (credit_in (inOff c 7) 7 (in_inb c 7)) (pay_in m c 7 fd7)) $$ [Hxa7 Hst7 Ht7]
  · isplitr; · iapply (inv_dma m K c 7 _); iexact HR
    isplitl [Hxa7]; · iexact Hxa7
    isplitl [Hst7]; · iexact Hst7
    isplitl [Ht7]; · iexact Ht7
    iapply (reached_dma m K c 7 _); iexact HR
  iintro Hc7
  iapply (step_copy' m c XA ST (inOff c 8) (inOff c 8) (inLen 8) (in_inb c 8) (in_inb c 8) 8 (by decide) fullShare (X m c) fd8
      (k0_off9 c) (k0_off9 c) ((off9_eq c).trans (by rfl)) ((off9_eq c).trans (by rfl)) _ rfl (κ := K (c, ⟨8, by omega⟩))
      (credit_in (inOff c 8) 8 (in_inb c 8)) (pay_in m c 8 fd8)) $$ [Hxa8 Hst8 Ht8]
  · isplitr; · iapply (inv_dma m K c 8 _); iexact HR
    isplitl [Hxa8]; · iexact Hxa8
    isplitl [Hst8]; · iexact Hst8
    isplitl [Ht8]; · iexact Ht8
    iapply (reached_dma m K c 8 _); iexact HR
  iintro Hc8
  iapply (step_copy' m c XA ST (inOff c 9) (inOff c 9) (inLen 9) (in_inb c 9) (in_inb c 9) 9 (by decide) fullShare (X m c) fd9
      (k0_off10 c) (k0_off10 c) ((off10_eq c).trans (by rfl)) ((off10_eq c).trans (by rfl)) _ rfl (κ := K (c, ⟨9, by omega⟩))
      (credit_in (inOff c 9) 9 (in_inb c 9)) (pay_in m c 9 fd9)) $$ [Hxa9 Hst9 Ht9]
  · isplitr; · iapply (inv_dma m K c 9 _); iexact HR
    isplitl [Hxa9]; · iexact Hxa9
    isplitl [Hst9]; · iexact Hst9
    isplitl [Ht9]; · iexact Ht9
    iapply (reached_dma m K c 9 _); iexact HR
  iintro Hc9
  rw [wp_ret]; imodintro
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  iexact Hc9

set_option maxRecDepth 65536 in
set_option maxHeartbeats 4000000 in
/-- Part 4: the last two input copies; the three signals, each handing a neighbour the rows of the device's own communication
    buffer that the neighbour will write; the wait for the three neighbours' signals, which hands the device theirs. -/
theorem part_4 (c : Dev nD) (K : Dev nD × Fin 86 → ℕ) (v2 v5 v8 v9 v10 v11 v32 v46 : BitVec 32) (W : Waits sig Unit)
    (fd10 : Buf (Elt F) ((sl ST (inOff c 10) (inLen 10) (in_inb c 10)).view.loc (c : Thread nD τ))) (fd11 : Buf (Elt F) ((sl ST (inOff c 11) (inLen 11) (in_inb c 11)).view.loc (c : Thread nD τ)))
    (fz0 : Buf (Elt F) ((sl CM (ownOff c 0) (ownLen 0) (own_inb c 0)).view.loc (c : Thread nD τ))) (fz1 : Buf (Elt F) ((sl CM (ownOff c 1) (ownLen 1) (own_inb c 1)).view.loc (c : Thread nD τ))) (fz2 : Buf (Elt F) ((sl CM (ownOff c 2) (ownLen 2) (own_inb c 2)).view.loc (c : Thread nD τ))) (fz3 : Buf (Elt F) ((sl CM (ownOff c 3) (ownLen 3) (own_inb c 3)).view.loc (c : Thread nD τ))) (fz4 : Buf (Elt F) ((sl CM (ownOff c 4) (ownLen 4) (own_inb c 4)).view.loc (c : Thread nD τ))) (fz5 : Buf (Elt F) ((sl CM (ownOff c 5) (ownLen 5) (own_inb c 5)).view.loc (c : Thread nD τ))) (fz6 : Buf (Elt F) ((sl CM (ownOff c 6) (ownLen 6) (own_inb c 6)).view.loc (c : Thread nD τ))) (fz7 : Buf (Elt F) ((sl CM (ownOff c 7) (ownLen 7) (own_inb c 7)).view.loc (c : Thread nD τ)))
    (fx0 : Buf (Elt F) ((sl CM (xinOff c 0) (xinLen 0) (xin_inb c 0)).view.loc (c : Thread nD τ))) (fx1 : Buf (Elt F) ((sl CM (xinOff c 1) (xinLen 1) (xin_inb c 1)).view.loc (c : Thread nD τ))) (fx2 : Buf (Elt F) ((sl CM (xinOff c 2) (xinLen 2) (xin_inb c 2)).view.loc (c : Thread nD τ))) (fx3 : Buf (Elt F) ((sl CM (xinOff c 3) (xinLen 3) (xin_inb c 3)).view.loc (c : Thread nD τ))) (fx4 : Buf (Elt F) ((sl CM (xinOff c 4) (xinLen 4) (xin_inb c 4)).view.loc (c : Thread nD τ))) (fx5 : Buf (Elt F) ((sl CM (xinOff c 5) (xinLen 5) (xin_inb c 5)).view.loc (c : Thread nD τ))) (fx6 : Buf (Elt F) ((sl CM (xinOff c 6) (xinLen 6) (xin_inb c 6)).view.loc (c : Thread nD τ))) (fx7 : Buf (Elt F) ((sl CM (xinOff c 7) (xinLen 7) (xin_inb c 7)).view.loc (c : Thread nD τ)))
    (fy0 : Buf (Elt F) ((sl CM (yinOff c 0) (yinLen 0) (yin_inb c 0)).view.loc (c : Thread nD τ))) (fy1 : Buf (Elt F) ((sl CM (yinOff c 1) (yinLen 1) (yin_inb c 1)).view.loc (c : Thread nD τ))) (fy2 : Buf (Elt F) ((sl CM (yinOff c 2) (yinLen 2) (yin_inb c 2)).view.loc (c : Thread nD τ))) (fy3 : Buf (Elt F) ((sl CM (yinOff c 3) (yinLen 3) (yin_inb c 3)).view.loc (c : Thread nD τ))) (fy4 : Buf (Elt F) ((sl CM (yinOff c 4) (yinLen 4) (yin_inb c 4)).view.loc (c : Thread nD τ))) (fy5 : Buf (Elt F) ((sl CM (yinOff c 5) (yinLen 5) (yin_inb c 5)).view.loc (c : Thread nD τ))) (fy6 : Buf (Elt F) ((sl CM (yinOff c 6) (yinLen 6) (yin_inb c 6)).view.loc (c : Thread nD τ))) (fy7 : Buf (Elt F) ((sl CM (yinOff c 7) (yinLen 7) (yin_inb c 7)).view.loc (c : Thread nD τ))) :
    iprop(records m K ∗ levAts L lv
        ∗ pts c XA (inOff c 10) (inLen 10) (in_inb c 10) fullShare (X m c) ∗ pts c ST (inOff c 10) (inLen 10) (in_inb c 10) fullShare fd10
        ∗ dutyTok ER (dcell c 10 (by decide)) 0 0
        ∗ pts c XA (inOff c 11) (inLen 11) (in_inb c 11) fullShare (X m c) ∗ pts c ST (inOff c 11) (inLen 11) (in_inb c 11) fullShare fd11
        ∗ dutyTok ER (dcell c 11 (by decide)) 0 0
        ∗ owes (c : Thread nD τ) (owedAfter c 0) W
        ∗ dutyTok ER (barCell (zn c)) 0 0
        ∗ pts c CM (ownOff c 0) (ownLen 0) (own_inb c 0) fullShare fz0 ∗ pts c CM (ownOff c 1) (ownLen 1) (own_inb c 1) fullShare fz1 ∗ pts c CM (ownOff c 2) (ownLen 2) (own_inb c 2) fullShare fz2 ∗ pts c CM (ownOff c 3) (ownLen 3) (own_inb c 3) fullShare fz3 ∗ pts c CM (ownOff c 4) (ownLen 4) (own_inb c 4) fullShare fz4 ∗ pts c CM (ownOff c 5) (ownLen 5) (own_inb c 5) fullShare fz5 ∗ pts c CM (ownOff c 6) (ownLen 6) (own_inb c 6) fullShare fz6 ∗ pts c CM (ownOff c 7) (ownLen 7) (own_inb c 7) fullShare fz7
        ∗ dutyTok ER (barCell (xn c)) 0 1
        ∗ pts c CM (xinOff c 0) (xinLen 0) (xin_inb c 0) fullShare fx0 ∗ pts c CM (xinOff c 1) (xinLen 1) (xin_inb c 1) fullShare fx1 ∗ pts c CM (xinOff c 2) (xinLen 2) (xin_inb c 2) fullShare fx2 ∗ pts c CM (xinOff c 3) (xinLen 3) (xin_inb c 3) fullShare fx3 ∗ pts c CM (xinOff c 4) (xinLen 4) (xin_inb c 4) fullShare fx4 ∗ pts c CM (xinOff c 5) (xinLen 5) (xin_inb c 5) fullShare fx5 ∗ pts c CM (xinOff c 6) (xinLen 6) (xin_inb c 6) fullShare fx6 ∗ pts c CM (xinOff c 7) (xinLen 7) (xin_inb c 7) fullShare fx7
        ∗ dutyTok ER (barCell (yn c)) 0 2
        ∗ pts c CM (yinOff c 0) (yinLen 0) (yin_inb c 0) fullShare fy0 ∗ pts c CM (yinOff c 1) (yinLen 1) (yin_inb c 1) fullShare fy1 ∗ pts c CM (yinOff c 2) (yinLen 2) (yin_inb c 2) fullShare fy2 ∗ pts c CM (yinOff c 3) (yinLen 3) (yin_inb c 3) fullShare fy3 ∗ pts c CM (yinOff c 4) (yinLen 4) (yin_inb c 4) fullShare fy4 ∗ pts c CM (yinOff c 5) (yinLen 5) (yin_inb c 5) fullShare fy5 ∗ pts c CM (yinOff c 6) (yinLen 6) (yin_inb c 6) fullShare fy6 ∗ pts c CM (yinOff c 7) (yinLen 7) (yin_inb c 7) fullShare fy7
        ∗ cred (tallyAt (barCell c) () 3) ∗ atPos ER (barCell c) 0 ∅ 0)
      ⊢ wp frame (wpE (defs₀ (F := F)) 𝒱₀ (c : Thread nD τ) none) Set.univ
          (k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v10 v11 v32 v46)
          (fun r => iprop(cred (tallyAt (dcell c 10 (by decide)) () (damt 10)) ∗ cred (tallyAt (dcell c 11 (by decide)) () (damt 11))
            ∗ (∃ W', owes (c : Thread nD τ) (owedAfter c 3) W') ∗ atPos ER (barCell c) 1 ∅ 0
            ∗ (∃ f, pts (zn c) CM (ownOff c 0) (ownLen 0) (own_inb c 0) fullShare f) ∗ (∃ f, pts (zn c) CM (ownOff c 1) (ownLen 1) (own_inb c 1) fullShare f) ∗ (∃ f, pts (zn c) CM (ownOff c 2) (ownLen 2) (own_inb c 2) fullShare f) ∗ (∃ f, pts (zn c) CM (ownOff c 3) (ownLen 3) (own_inb c 3) fullShare f) ∗ (∃ f, pts (zn c) CM (ownOff c 4) (ownLen 4) (own_inb c 4) fullShare f) ∗ (∃ f, pts (zn c) CM (ownOff c 5) (ownLen 5) (own_inb c 5) fullShare f) ∗ (∃ f, pts (zn c) CM (ownOff c 6) (ownLen 6) (own_inb c 6) fullShare f) ∗ (∃ f, pts (zn c) CM (ownOff c 7) (ownLen 7) (own_inb c 7) fullShare f)
            ∗ (∃ f, pts (xn c) CM (xinOff (xn c) 0) (xinLen 0) (xin_inb (xn c) 0) fullShare f) ∗ (∃ f, pts (xn c) CM (xinOff (xn c) 1) (xinLen 1) (xin_inb (xn c) 1) fullShare f) ∗ (∃ f, pts (xn c) CM (xinOff (xn c) 2) (xinLen 2) (xin_inb (xn c) 2) fullShare f) ∗ (∃ f, pts (xn c) CM (xinOff (xn c) 3) (xinLen 3) (xin_inb (xn c) 3) fullShare f) ∗ (∃ f, pts (xn c) CM (xinOff (xn c) 4) (xinLen 4) (xin_inb (xn c) 4) fullShare f) ∗ (∃ f, pts (xn c) CM (xinOff (xn c) 5) (xinLen 5) (xin_inb (xn c) 5) fullShare f) ∗ (∃ f, pts (xn c) CM (xinOff (xn c) 6) (xinLen 6) (xin_inb (xn c) 6) fullShare f) ∗ (∃ f, pts (xn c) CM (xinOff (xn c) 7) (xinLen 7) (xin_inb (xn c) 7) fullShare f)
            ∗ (∃ f, pts (yn c) CM (yinOff (yn c) 0) (yinLen 0) (yin_inb (yn c) 0) fullShare f) ∗ (∃ f, pts (yn c) CM (yinOff (yn c) 1) (yinLen 1) (yin_inb (yn c) 1) fullShare f) ∗ (∃ f, pts (yn c) CM (yinOff (yn c) 2) (yinLen 2) (yin_inb (yn c) 2) fullShare f) ∗ (∃ f, pts (yn c) CM (yinOff (yn c) 3) (yinLen 3) (yin_inb (yn c) 3) fullShare f) ∗ (∃ f, pts (yn c) CM (yinOff (yn c) 4) (yinLen 4) (yin_inb (yn c) 4) fullShare f) ∗ (∃ f, pts (yn c) CM (yinOff (yn c) 5) (yinLen 5) (yin_inb (yn c) 5) fullShare f) ∗ (∃ f, pts (yn c) CM (yinOff (yn c) 6) (yinLen 6) (yin_inb (yn c) 6) fullShare f) ∗ (∃ f, pts (yn c) CM (yinOff (yn c) 7) (yinLen 7) (yin_inb (yn c) 7) fullShare f))) := by
  simp only [k0_part4_eq_skeleton]; unfold k0_part4_skel
  simp only [Prog.lift, Prog.bind_op, Prog.bind_ret, Prog.pure_eq_ret, Prog.bind_assoc, semSignalWord, semWaitWord, dev1_eq c, dev2_eq c, dev3_eq c]
  iintro ⟨#HR, #HL, Hxa10, Hst10, Ht10, Hxa11, Hst11, Ht11, HO, Htz, Hz0, Hz1, Hz2, Hz3, Hz4, Hz5, Hz6, Hz7, Htx, Hx0, Hx1, Hx2, Hx3, Hx4, Hx5, Hx6, Hx7, Hty, Hy0, Hy1, Hy2, Hy3, Hy4, Hy5, Hy6, Hy7, Hcb, Hab⟩
  iapply (step_copy' m c XA ST (inOff c 10) (inOff c 10) (inLen 10) (in_inb c 10) (in_inb c 10) 10 (by decide) fullShare (X m c) fd10
      (k0_off11 c) (k0_off11 c) ((off11_eq c).trans (by rfl)) ((off11_eq c).trans (by rfl)) _ rfl (κ := K (c, ⟨10, by omega⟩))
      (credit_in (inOff c 10) 10 (in_inb c 10)) (pay_in m c 10 fd10)) $$ [Hxa10 Hst10 Ht10]
  · isplitr; · iapply (inv_dma m K c 10 _); iexact HR
    isplitl [Hxa10]; · iexact Hxa10
    isplitl [Hst10]; · iexact Hst10
    isplitl [Ht10]; · iexact Ht10
    iapply (reached_dma m K c 10 _); iexact HR
  iintro Hc10
  iapply (step_copy' m c XA ST (inOff c 11) (inOff c 11) (inLen 11) (in_inb c 11) (in_inb c 11) 11 (by decide) fullShare (X m c) fd11
      (k0_off12 c) (k0_off12 c) ((off12_eq c).trans (by rfl)) ((off12_eq c).trans (by rfl)) _ rfl (κ := K (c, ⟨11, by omega⟩))
      (credit_in (inOff c 11) 11 (in_inb c 11)) (pay_in m c 11 fd11)) $$ [Hxa11 Hst11 Ht11]
  · isplitr; · iapply (inv_dma m K c 11 _); iexact HR
    isplitl [Hxa11]; · iexact Hxa11
    isplitl [Hst11]; · iexact Hst11
    isplitl [Ht11]; · iexact Ht11
    iapply (reached_dma m K c 11 _); iexact HR
  iintro Hc11
  iapply (step_signal m c (zn c) 0 (owedAfter c 0) (owedAfter c 1) W rfl (Topo.routes_tc _ _) (κ := K (zn c, 85))) $$ [HO Htz Hz0 Hz1 Hz2 Hz3 Hz4 Hz5 Hz6 Hz7]
  · isplitr; · iapply (inv_bar m K (zn c)); iexact HR
    isplitl [HO]; · iexact HO
    isplitl [Htz]; · iexact Htz
    isplitl [Hz0 Hz1 Hz2 Hz3 Hz4 Hz5 Hz6 Hz7]
    · rw [bpay_to_z, bigSep_fin8]
      isplitl [Hz0]
      · isplitl
        · iexists fz0; iexact Hz0
        · iapply (reached_dma m K c _ _); iexact HR
      isplitl [Hz1]
      · isplitl
        · iexists fz1; iexact Hz1
        · iapply (reached_dma m K c _ _); iexact HR
      isplitl [Hz2]
      · isplitl
        · iexists fz2; iexact Hz2
        · iapply (reached_dma m K c _ _); iexact HR
      isplitl [Hz3]
      · isplitl
        · iexists fz3; iexact Hz3
        · iapply (reached_dma m K c _ _); iexact HR
      isplitl [Hz4]
      · isplitl
        · iexists fz4; iexact Hz4
        · iapply (reached_dma m K c _ _); iexact HR
      isplitl [Hz5]
      · isplitl
        · iexists fz5; iexact Hz5
        · iapply (reached_dma m K c _ _); iexact HR
      isplitl [Hz6]
      · isplitl
        · iexists fz6; iexact Hz6
        · iapply (reached_dma m K c _ _); iexact HR
      · isplitl
        · iexists fz7; iexact Hz7
        · iapply (reached_dma m K c _ _); iexact HR
    iapply (reached_bar m K (zn c)); iexact HR
  iintro HO
  iapply (step_signal m c (xn c) 1 (owedAfter c 1) (owedAfter c 2) W rfl (Topo.routes_tc _ _) (κ := K (xn c, 85))) $$ [HO Htx Hx0 Hx1 Hx2 Hx3 Hx4 Hx5 Hx6 Hx7]
  · isplitr; · iapply (inv_bar m K (xn c)); iexact HR
    isplitl [HO]; · iexact HO
    isplitl [Htx]; · iexact Htx
    isplitl [Hx0 Hx1 Hx2 Hx3 Hx4 Hx5 Hx6 Hx7]
    · rw [bpay_to_x, bigSep_fin8]
      isplitl [Hx0]
      · isplitl
        · iexists fx0; iexact Hx0
        · iapply (reached_dma m K c _ _); iexact HR
      isplitl [Hx1]
      · isplitl
        · iexists fx1; iexact Hx1
        · iapply (reached_dma m K c _ _); iexact HR
      isplitl [Hx2]
      · isplitl
        · iexists fx2; iexact Hx2
        · iapply (reached_dma m K c _ _); iexact HR
      isplitl [Hx3]
      · isplitl
        · iexists fx3; iexact Hx3
        · iapply (reached_dma m K c _ _); iexact HR
      isplitl [Hx4]
      · isplitl
        · iexists fx4; iexact Hx4
        · iapply (reached_dma m K c _ _); iexact HR
      isplitl [Hx5]
      · isplitl
        · iexists fx5; iexact Hx5
        · iapply (reached_dma m K c _ _); iexact HR
      isplitl [Hx6]
      · isplitl
        · iexists fx6; iexact Hx6
        · iapply (reached_dma m K c _ _); iexact HR
      · isplitl
        · iexists fx7; iexact Hx7
        · iapply (reached_dma m K c _ _); iexact HR
    iapply (reached_bar m K (xn c)); iexact HR
  iintro HO
  iapply (step_signal m c (yn c) 2 (owedAfter c 2) (owedAfter c 3) W rfl (Topo.routes_tc _ _) (κ := K (yn c, 85))) $$ [HO Hty Hy0 Hy1 Hy2 Hy3 Hy4 Hy5 Hy6 Hy7]
  · isplitr; · iapply (inv_bar m K (yn c)); iexact HR
    isplitl [HO]; · iexact HO
    isplitl [Hty]; · iexact Hty
    isplitl [Hy0 Hy1 Hy2 Hy3 Hy4 Hy5 Hy6 Hy7]
    · rw [bpay_to_y, bigSep_fin8]
      isplitl [Hy0]
      · isplitl
        · iexists fy0; iexact Hy0
        · iapply (reached_dma m K c _ _); iexact HR
      isplitl [Hy1]
      · isplitl
        · iexists fy1; iexact Hy1
        · iapply (reached_dma m K c _ _); iexact HR
      isplitl [Hy2]
      · isplitl
        · iexists fy2; iexact Hy2
        · iapply (reached_dma m K c _ _); iexact HR
      isplitl [Hy3]
      · isplitl
        · iexists fy3; iexact Hy3
        · iapply (reached_dma m K c _ _); iexact HR
      isplitl [Hy4]
      · isplitl
        · iexists fy4; iexact Hy4
        · iapply (reached_dma m K c _ _); iexact HR
      isplitl [Hy5]
      · isplitl
        · iexists fy5; iexact Hy5
        · iapply (reached_dma m K c _ _); iexact HR
      isplitl [Hy6]
      · isplitl
        · iexists fy6; iexact Hy6
        · iapply (reached_dma m K c _ _); iexact HR
      · isplitl
        · iexists fy7; iexact Hy7
        · iapply (reached_dma m K c _ _); iexact HR
    iapply (reached_bar m K (yn c)); iexact HR
  iintro HO
  iapply (step_barwait m c (owedAfter c 3) W (κ := K (c, 85))) $$ [Hcb HO Hab]
  · isplitr; · iapply (inv_bar m K c); iexact HR
    isplitl [Hcb]; · iexact Hcb
    isplitl [HO]; · iexact HO
    isplitr [Hab]; · iapply (mayWait_after c (.reg barS) 3 (pa_lv_bar c)); iexact HL
    iexact Hab
  rw [bpay_from_z, bpay_from_x, bpay_from_y, bigSep_fin8, bigSep_fin8, bigSep_fin8]
  iintro ⟨HO, Hab, -, ⟨⟨Hnz0, -⟩, ⟨Hnz1, -⟩, ⟨Hnz2, -⟩, ⟨Hnz3, -⟩, ⟨Hnz4, -⟩, ⟨Hnz5, -⟩, ⟨Hnz6, -⟩, ⟨Hnz7, -⟩⟩, ⟨⟨Hnx0, -⟩, ⟨Hnx1, -⟩, ⟨Hnx2, -⟩, ⟨Hnx3, -⟩, ⟨Hnx4, -⟩, ⟨Hnx5, -⟩, ⟨Hnx6, -⟩, ⟨Hnx7, -⟩⟩, ⟨⟨Hny0, -⟩, ⟨Hny1, -⟩, ⟨Hny2, -⟩, ⟨Hny3, -⟩, ⟨Hny4, -⟩, ⟨Hny5, -⟩, ⟨Hny6, -⟩, ⟨Hny7, -⟩⟩⟩
  rw [wp_ret]; imodintro
  isplitl [Hc10]; · iexact Hc10
  isplitl [Hc11]; · iexact Hc11
  isplitl [HO]; · iexists _; iexact HO
  isplitl [Hab]; · iexact Hab
  isplitl [Hnz0]; · iexact Hnz0
  isplitl [Hnz1]; · iexact Hnz1
  isplitl [Hnz2]; · iexact Hnz2
  isplitl [Hnz3]; · iexact Hnz3
  isplitl [Hnz4]; · iexact Hnz4
  isplitl [Hnz5]; · iexact Hnz5
  isplitl [Hnz6]; · iexact Hnz6
  isplitl [Hnz7]; · iexact Hnz7
  isplitl [Hnx0]; · iexact Hnx0
  isplitl [Hnx1]; · iexact Hnx1
  isplitl [Hnx2]; · iexact Hnx2
  isplitl [Hnx3]; · iexact Hnx3
  isplitl [Hnx4]; · iexact Hnx4
  isplitl [Hnx5]; · iexact Hnx5
  isplitl [Hnx6]; · iexact Hnx6
  isplitl [Hnx7]; · iexact Hnx7
  isplitl [Hny0]; · iexact Hny0
  isplitl [Hny1]; · iexact Hny1
  isplitl [Hny2]; · iexact Hny2
  isplitl [Hny3]; · iexact Hny3
  isplitl [Hny4]; · iexact Hny4
  isplitl [Hny5]; · iexact Hny5
  isplitl [Hny6]; · iexact Hny6
  iexact Hny7

set_option maxRecDepth 65536 in
set_option maxHeartbeats 4000000 in
/-- Part 5: own chunk 0: the wait for its input copy, its conversion into the conversion buffer, its transfer to the z-neighbour. -/
theorem part_5 (c : Dev nD) (K : Dev nD × Fin 86 → ℕ) (v2 v5 v9 v28 v36 v41 v46 c112_i32_77 : BitVec 32) (W : Waits sig Unit) (fm0 : Buf (Elt F) ((sl MI (ownOff c 0) (ownLen 0) (own_inb c 0)).view.loc (c : Thread nD τ))) (fn0 : Buf (Elt F) ((sl CM (ownOff c 0) (ownLen 0) (own_inb c 0)).view.loc (zn c : Thread nD τ))) :
    iprop(records m K ∗ levAts L lv
        ∗ cred (tallyAt (dcell c 0 (by decide)) () (damt 0))
        ∗ owes (c : Thread nD τ) (owedAfter c 3) W
        ∗ atPos ER (dcell c 0 (by decide)) 0 ∅ 0
        ∗ pts c MI (ownOff c 0) (ownLen 0) (own_inb c 0) fullShare fm0
        ∗ pts (zn c) CM (ownOff c 0) (ownLen 0) (own_inb c 0) fullShare fn0
        ∗ dutyTok ER (dcell c 12 (by decide)) 0 0
        ∗ dutyTok ER (dcell (zn c) 20 (by decide)) 0 0)
      ⊢ wp frame (wpE (defs₀ (F := F)) 𝒱₀ (c : Thread nD τ) none) Set.univ
          (k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v28 v36 v41 v46 c112_i32_77)
          (fun r => iprop((∃ W', owes (c : Thread nD τ) (owedAfter c 4) W')
            ∗ atPos ER (dcell c 0 (by decide)) 1 ∅ 0
            ∗ pts c ST (inOff c 0) (inLen 0) (in_inb c 0) fullShare (X m c)
            ∗ pts c XA (inOff c 0) (inLen 0) (in_inb c 0) fullShare (X m c)
            ∗ pts c MI (ownOff c 0) (ownLen 0) (own_inb c 0) sR (mineV m c)
            ∗ cred (tallyAt (dcell c 12 (by decide)) () (damt 12)))) := by
  simp only [k0_part5_eq_skeleton]; unfold k0_part5_skel
  simp only [Prog.lift, Prog.bind_op, Prog.bind_ret, Prog.pure_eq_ret, Prog.bind_assoc]
  iintro ⟨#HR, #HL, Hc0, HO, Hap0, Hmi0, Hn0, Hts0, Htr0⟩
  iapply (step_wait' m c 0 (by decide) _ rfl (owedAfter c 3) _ ((credit_rect ST 112 _ _ _ 0 (by decide)).trans (credit_in 0 0 (by decide))) (κ := K (c, ⟨0, by omega⟩))) $$ [Hc0 HO Hap0]
  · isplitr; · iapply (inv_dma m K c 0 _); iexact HR
    isplitl [Hc0]; · iexact Hc0
    isplitl [HO]; · iexact HO
    isplitr [Hap0]; · iapply (mayWait_after c (.dma ⟨0, _⟩) 3 (pa_lv_in 0 c)); iexact HL
    iexact Hap0
  iintro ⟨HO, Hap0, -, Hp⟩
  ihave Hp := (pa_wait_in m c 0 0 rfl) $$ Hp
  icases Hp with ⟨Hst0, Hxa0⟩
  iapply (pa_load c ST (inOff c 0) (inLen 0) (in_inb c 0) fullShare (X m c) (k0_off13 c) ((off13_eq c).trans (by rfl))) $$ Hst0
  iintro Hst0
  iapply (pa_load c MI (ownOff c 0) (ownLen 0) (own_inb c 0) fullShare fm0 (k0_off13 c) ((off13_eq c).trans (by rfl))) $$ Hmi0
  iintro Hmi0
  iapply (pa_store c MI (ownOff c 0) (ownLen 0) (own_inb c 0) fm0 (k0_pay1 (fun y => ST.view.read (Elt F) (X m c) (up (inOff c 0) (in_inb c 0) y))) (k0_off13 c) ((off13_eq c).trans (by rfl))) $$ Hmi0
  iintro Hmi0
  ihave Hmi0 := (Entails.of_eq (pa_stored_mine m c (ownOff c 0) (ownLen 0) (own_inb c 0) fm0 (k0_pay1 (fun y => ST.view.read (Elt F) (X m c) (up (inOff c 0) (in_inb c 0) y))) (fun x => by simp only [k0_pay1, shapeCast_self]; rfl))) $$ Hmi0
  ihave Hmi0 := (pa_halves c MI (ownOff c 0) (ownLen 0) (own_inb c 0) fullShare (mineV m c)) $$ Hmi0
  icases Hmi0 with ⟨HmL0, HmR0⟩
  iapply (step_send' m c (zn c) MI CM (ownOff c 0) (ownOff c 0) (ownLen 0) (own_inb c 0) (own_inb c 0) 12 20 (by decide) (by decide) sL (mineV m c) fn0
      (k0_off1 c) (k0_off1 c) ((off1_eq c).trans (by rfl)) ((off1_eq c).trans (by rfl)) _ _ rfl rfl _ (dev4_eq c)
      (owedAfter c 3) (owedAfter c 4) _ rfl (credit_zr (ownOff c 0) 0 (own_inb c 0)) (pa_damt_z 0) (pay_zs m c 0) (pay_zr m c 0 fn0)
      (κ₁ := K (c, ⟨12, by omega⟩)) (κ₂ := K (zn c, ⟨20, by omega⟩))) $$ [HmL0 Hn0 HO Hts0 Htr0]
  · isplitr; · iapply (inv_dma m K c 12 _); iexact HR
    isplitr; · iapply (inv_dma m K (zn c) 20 _); iexact HR
    isplitl [HmL0]; · iexact HmL0
    isplitl [Hn0]; · iexact Hn0
    isplitl [HO]; · iexact HO
    isplitl [Hts0]; · iexact Hts0
    isplitr; · iapply (reached_dma m K c 12 _); iexact HR
    isplitl [Htr0]; · iexact Htr0
    iapply (reached_dma m K (zn c) 20 _); iexact HR
  iintro ⟨Hcs0, HO⟩
  ihave Hcs0 := (pa_cred_z c 0 12 20 rfl rfl _) $$ Hcs0
  rw [wp_ret]; imodintro
  isplitl [HO]; · iexists _; iexact HO
  isplitl [Hap0]; · iexact Hap0
  isplitl [Hst0]; · iexact Hst0
  isplitl [Hxa0]; · iexact Hxa0
  isplitl [HmR0]; · iexact HmR0
  iexact Hcs0

set_option maxRecDepth 65536 in
set_option maxHeartbeats 4000000 in
/-- Part 6: own chunk 1 whole; own chunk 2 up to its conversion. -/
theorem part_6 (c : Dev nD) (K : Dev nD × Fin 86 → ℕ) (v2 v5 v9 v47 v48 : BitVec 32) (W : Waits sig Unit) (fm1 : Buf (Elt F) ((sl MI (ownOff c 1) (ownLen 1) (own_inb c 1)).view.loc (c : Thread nD τ))) (fn1 : Buf (Elt F) ((sl CM (ownOff c 1) (ownLen 1) (own_inb c 1)).view.loc (zn c : Thread nD τ))) (fm2 : Buf (Elt F) ((sl MI (ownOff c 2) (ownLen 2) (own_inb c 2)).view.loc (c : Thread nD τ))) :
    iprop(records m K ∗ levAts L lv
        ∗ cred (tallyAt (dcell c 1 (by decide)) () (damt 1))
        ∗ owes (c : Thread nD τ) (owedAfter c 4) W
        ∗ atPos ER (dcell c 1 (by decide)) 0 ∅ 0
        ∗ pts c MI (ownOff c 1) (ownLen 1) (own_inb c 1) fullShare fm1
        ∗ pts (zn c) CM (ownOff c 1) (ownLen 1) (own_inb c 1) fullShare fn1
        ∗ dutyTok ER (dcell c 13 (by decide)) 0 0
        ∗ dutyTok ER (dcell (zn c) 21 (by decide)) 0 0
        ∗ cred (tallyAt (dcell c 2 (by decide)) () (damt 2))
        ∗ atPos ER (dcell c 2 (by decide)) 0 ∅ 0
        ∗ pts c MI (ownOff c 2) (ownLen 2) (own_inb c 2) fullShare fm2)
      ⊢ wp frame (wpE (defs₀ (F := F)) 𝒱₀ (c : Thread nD τ) none) Set.univ
          (k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v47 v48)
          (fun r => iprop((∃ W', owes (c : Thread nD τ) (owedAfter c 5) W')
            ∗ atPos ER (dcell c 1 (by decide)) 1 ∅ 0
            ∗ pts c ST (inOff c 1) (inLen 1) (in_inb c 1) fullShare (X m c)
            ∗ pts c XA (inOff c 1) (inLen 1) (in_inb c 1) fullShare (X m c)
            ∗ pts c MI (ownOff c 1) (ownLen 1) (own_inb c 1) sR (mineV m c)
            ∗ cred (tallyAt (dcell c 13 (by decide)) () (damt 13))
            ∗ atPos ER (dcell c 2 (by decide)) 1 ∅ 0
            ∗ pts c ST (inOff c 2) (inLen 2) (in_inb c 2) fullShare (X m c)
            ∗ pts c XA (inOff c 2) (inLen 2) (in_inb c 2) fullShare (X m c)
            ∗ pts c MI (ownOff c 2) (ownLen 2) (own_inb c 2) fullShare (mineV m c))) := by
  simp only [k0_part6_eq_skeleton]; unfold k0_part6_skel
  simp only [Prog.lift, Prog.bind_op, Prog.bind_ret, Prog.pure_eq_ret, Prog.bind_assoc]
  iintro ⟨#HR, #HL, Hc1, HO, Hap1, Hmi1, Hn1, Hts1, Htr1, Hc2, Hap2, Hmi2⟩
  iapply (step_wait' m c 1 (by decide) _ rfl (owedAfter c 4) _ ((credit_rect ST 224 _ _ _ 0 (by decide)).trans (credit_in 0 1 (by decide))) (κ := K (c, ⟨1, by omega⟩))) $$ [Hc1 HO Hap1]
  · isplitr; · iapply (inv_dma m K c 1 _); iexact HR
    isplitl [Hc1]; · iexact Hc1
    isplitl [HO]; · iexact HO
    isplitr [Hap1]; · iapply (mayWait_after c (.dma ⟨1, _⟩) 4 (pa_lv_in 1 c)); iexact HL
    iexact Hap1
  iintro ⟨HO, Hap1, -, Hp⟩
  ihave Hp := (pa_wait_in m c 1 1 rfl) $$ Hp
  icases Hp with ⟨Hst1, Hxa1⟩
  iapply (pa_load c ST (inOff c 1) (inLen 1) (in_inb c 1) fullShare (X m c) (k0_off14 c) ((off14_eq c).trans (by rfl))) $$ Hst1
  iintro Hst1
  iapply (pa_load c MI (ownOff c 1) (ownLen 1) (own_inb c 1) fullShare fm1 (k0_off14 c) ((off14_eq c).trans (by rfl))) $$ Hmi1
  iintro Hmi1
  iapply (pa_store c MI (ownOff c 1) (ownLen 1) (own_inb c 1) fm1 (k0_pay2 (fun y => ST.view.read (Elt F) (X m c) (up (inOff c 1) (in_inb c 1) y))) (k0_off14 c) ((off14_eq c).trans (by rfl))) $$ Hmi1
  iintro Hmi1
  ihave Hmi1 := (Entails.of_eq (pa_stored_mine m c (ownOff c 1) (ownLen 1) (own_inb c 1) fm1 (k0_pay2 (fun y => ST.view.read (Elt F) (X m c) (up (inOff c 1) (in_inb c 1) y))) (fun x => by simp only [k0_pay2, shapeCast_self]; rfl))) $$ Hmi1
  ihave Hmi1 := (pa_halves c MI (ownOff c 1) (ownLen 1) (own_inb c 1) fullShare (mineV m c)) $$ Hmi1
  icases Hmi1 with ⟨HmL1, HmR1⟩
  iapply (step_send' m c (zn c) MI CM (ownOff c 1) (ownOff c 1) (ownLen 1) (own_inb c 1) (own_inb c 1) 13 21 (by decide) (by decide) sL (mineV m c) fn1
      (k0_off2 c) (k0_off2 c) ((off2_eq c).trans (by rfl)) ((off2_eq c).trans (by rfl)) _ _ rfl rfl _ (dev5_eq c)
      (owedAfter c 4) (owedAfter c 5) _ rfl (credit_zr (ownOff c 1) 1 (own_inb c 1)) (pa_damt_z 1) (pay_zs m c 1) (pay_zr m c 1 fn1)
      (κ₁ := K (c, ⟨13, by omega⟩)) (κ₂ := K (zn c, ⟨21, by omega⟩))) $$ [HmL1 Hn1 HO Hts1 Htr1]
  · isplitr; · iapply (inv_dma m K c 13 _); iexact HR
    isplitr; · iapply (inv_dma m K (zn c) 21 _); iexact HR
    isplitl [HmL1]; · iexact HmL1
    isplitl [Hn1]; · iexact Hn1
    isplitl [HO]; · iexact HO
    isplitl [Hts1]; · iexact Hts1
    isplitr; · iapply (reached_dma m K c 13 _); iexact HR
    isplitl [Htr1]; · iexact Htr1
    iapply (reached_dma m K (zn c) 21 _); iexact HR
  iintro ⟨Hcs1, HO⟩
  ihave Hcs1 := (pa_cred_z c 1 13 21 rfl rfl _) $$ Hcs1
  iapply (step_wait' m c 2 (by decide) _ rfl (owedAfter c 5) _ ((credit_rect ST 168 _ _ _ 0 (by decide)).trans (credit_in 0 2 (by decide))) (κ := K (c, ⟨2, by omega⟩))) $$ [Hc2 HO Hap2]
  · isplitr; · iapply (inv_dma m K c 2 _); iexact HR
    isplitl [Hc2]; · iexact Hc2
    isplitl [HO]; · iexact HO
    isplitr [Hap2]; · iapply (mayWait_after c (.dma ⟨2, _⟩) 5 (pa_lv_in 2 c)); iexact HL
    iexact Hap2
  iintro ⟨HO, Hap2, -, Hp⟩
  ihave Hp := (pa_wait_in m c 2 2 rfl) $$ Hp
  icases Hp with ⟨Hst2, Hxa2⟩
  iapply (pa_load c ST (inOff c 2) (inLen 2) (in_inb c 2) fullShare (X m c) (k0_off15 c) ((off15_eq c).trans (by rfl))) $$ Hst2
  iintro Hst2
  iapply (pa_load c MI (ownOff c 2) (ownLen 2) (own_inb c 2) fullShare fm2 (k0_off15 c) ((off15_eq c).trans (by rfl))) $$ Hmi2
  iintro Hmi2
  iapply (pa_store c MI (ownOff c 2) (ownLen 2) (own_inb c 2) fm2 (k0_pay3 (fun y => ST.view.read (Elt F) (X m c) (up (inOff c 2) (in_inb c 2) y))) (k0_off15 c) ((off15_eq c).trans (by rfl))) $$ Hmi2
  iintro Hmi2
  ihave Hmi2 := (Entails.of_eq (pa_stored_mine m c (ownOff c 2) (ownLen 2) (own_inb c 2) fm2 (k0_pay3 (fun y => ST.view.read (Elt F) (X m c) (up (inOff c 2) (in_inb c 2) y))) (fun x => by simp only [k0_pay3, shapeCast_self]; rfl))) $$ Hmi2
  rw [wp_ret]; imodintro
  isplitl [HO]; · iexists _; iexact HO
  isplitl [Hap1]; · iexact Hap1
  isplitl [Hst1]; · iexact Hst1
  isplitl [Hxa1]; · iexact Hxa1
  isplitl [HmR1]; · iexact HmR1
  isplitl [Hcs1]; · iexact Hcs1
  isplitl [Hap2]; · iexact Hap2
  isplitl [Hst2]; · iexact Hst2
  isplitl [Hxa2]; · iexact Hxa2
  iexact Hmi2

set_option maxRecDepth 65536 in
set_option maxHeartbeats 4000000 in
/-- Part 7: the transfer of own chunk 2; own chunk 3 whole; the wait for the input copy of own chunk 4. -/
theorem part_7 (c : Dev nD) (K : Dev nD × Fin 86 → ℕ) (v2 v5 v9 v43 v49 v192 : BitVec 32) (W : Waits sig Unit) (fn2 : Buf (Elt F) ((sl CM (ownOff c 2) (ownLen 2) (own_inb c 2)).view.loc (zn c : Thread nD τ))) (fm3 : Buf (Elt F) ((sl MI (ownOff c 3) (ownLen 3) (own_inb c 3)).view.loc (c : Thread nD τ))) (fn3 : Buf (Elt F) ((sl CM (ownOff c 3) (ownLen 3) (own_inb c 3)).view.loc (zn c : Thread nD τ))) :
    iprop(records m K ∗ levAts L lv
        ∗ pts c MI (ownOff c 2) (ownLen 2) (own_inb c 2) fullShare (mineV m c)
        ∗ pts (zn c) CM (ownOff c 2) (ownLen 2) (own_inb c 2) fullShare fn2
        ∗ owes (c : Thread nD τ) (owedAfter c 5) W
        ∗ dutyTok ER (dcell c 14 (by decide)) 0 0
        ∗ dutyTok ER (dcell (zn c) 22 (by decide)) 0 0
        ∗ cred (tallyAt (dcell c 3 (by decide)) () (damt 3))
        ∗ atPos ER (dcell c 3 (by decide)) 0 ∅ 0
        ∗ pts c MI (ownOff c 3) (ownLen 3) (own_inb c 3) fullShare fm3
        ∗ pts (zn c) CM (ownOff c 3) (ownLen 3) (own_inb c 3) fullShare fn3
        ∗ dutyTok ER (dcell c 15 (by decide)) 0 0
        ∗ dutyTok ER (dcell (zn c) 23 (by decide)) 0 0
        ∗ cred (tallyAt (dcell c 4 (by decide)) () (damt 4))
        ∗ atPos ER (dcell c 4 (by decide)) 0 ∅ 0)
      ⊢ wp frame (wpE (defs₀ (F := F)) 𝒱₀ (c : Thread nD τ) none) Set.univ
          (k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v43 v49 v192)
          (fun r => iprop((∃ W', owes (c : Thread nD τ) (owedAfter c 7) W')
            ∗ pts c MI (ownOff c 2) (ownLen 2) (own_inb c 2) sR (mineV m c)
            ∗ cred (tallyAt (dcell c 14 (by decide)) () (damt 14))
            ∗ atPos ER (dcell c 3 (by decide)) 1 ∅ 0
            ∗ pts c ST (inOff c 3) (inLen 3) (in_inb c 3) fullShare (X m c)
            ∗ pts c XA (inOff c 3) (inLen 3) (in_inb c 3) fullShare (X m c)
            ∗ pts c MI (ownOff c 3) (ownLen 3) (own_inb c 3) sR (mineV m c)
            ∗ cred (tallyAt (dcell c 15 (by decide)) () (damt 15))
            ∗ atPos ER (dcell c 4 (by decide)) 1 ∅ 0
            ∗ pts c ST (inOff c 4) (inLen 4) (in_inb c 4) fullShare (X m c)
            ∗ pts c XA (inOff c 4) (inLen 4) (in_inb c 4) fullShare (X m c))) := by
  simp only [k0_part7_eq_skeleton]; unfold k0_part7_skel
  simp only [Prog.lift, Prog.bind_op, Prog.bind_ret, Prog.pure_eq_ret, Prog.bind_assoc]
  iintro ⟨#HR, #HL, Hmi2, Hn2, HO, Hts2, Htr2, Hc3, Hap3, Hmi3, Hn3, Hts3, Htr3, Hc4, Hap4⟩
  ihave Hmi2 := (pa_halves c MI (ownOff c 2) (ownLen 2) (own_inb c 2) fullShare (mineV m c)) $$ Hmi2
  icases Hmi2 with ⟨HmL2, HmR2⟩
  iapply (step_send' m c (zn c) MI CM (ownOff c 2) (ownOff c 2) (ownLen 2) (own_inb c 2) (own_inb c 2) 14 22 (by decide) (by decide) sL (mineV m c) fn2
      (k0_off3 c) (k0_off3 c) ((off3_eq c).trans (by rfl)) ((off3_eq c).trans (by rfl)) _ _ rfl rfl _ (dev6_eq c)
      (owedAfter c 5) (owedAfter c 6) _ rfl (credit_zr (ownOff c 2) 2 (own_inb c 2)) (pa_damt_z 2) (pay_zs m c 2) (pay_zr m c 2 fn2)
      (κ₁ := K (c, ⟨14, by omega⟩)) (κ₂ := K (zn c, ⟨22, by omega⟩))) $$ [HmL2 Hn2 HO Hts2 Htr2]
  · isplitr; · iapply (inv_dma m K c 14 _); iexact HR
    isplitr; · iapply (inv_dma m K (zn c) 22 _); iexact HR
    isplitl [HmL2]; · iexact HmL2
    isplitl [Hn2]; · iexact Hn2
    isplitl [HO]; · iexact HO
    isplitl [Hts2]; · iexact Hts2
    isplitr; · iapply (reached_dma m K c 14 _); iexact HR
    isplitl [Htr2]; · iexact Htr2
    iapply (reached_dma m K (zn c) 22 _); iexact HR
  iintro ⟨Hcs2, HO⟩
  ihave Hcs2 := (pa_cred_z c 2 14 22 rfl rfl _) $$ Hcs2
  iapply (step_wait' m c 3 (by decide) _ rfl (owedAfter c 6) _ ((credit_rect ST 168 _ _ _ 0 (by decide)).trans (credit_in 0 3 (by decide))) (κ := K (c, ⟨3, by omega⟩))) $$ [Hc3 HO Hap3]
  · isplitr; · iapply (inv_dma m K c 3 _); iexact HR
    isplitl [Hc3]; · iexact Hc3
    isplitl [HO]; · iexact HO
    isplitr [Hap3]; · iapply (mayWait_after c (.dma ⟨3, _⟩) 6 (pa_lv_in 3 c)); iexact HL
    iexact Hap3
  iintro ⟨HO, Hap3, -, Hp⟩
  ihave Hp := (pa_wait_in m c 3 3 rfl) $$ Hp
  icases Hp with ⟨Hst3, Hxa3⟩
  iapply (pa_load c ST (inOff c 3) (inLen 3) (in_inb c 3) fullShare (X m c) (k0_off16 c) ((off16_eq c).trans (by rfl))) $$ Hst3
  iintro Hst3
  iapply (pa_load c MI (ownOff c 3) (ownLen 3) (own_inb c 3) fullShare fm3 (k0_off16 c) ((off16_eq c).trans (by rfl))) $$ Hmi3
  iintro Hmi3
  iapply (pa_store c MI (ownOff c 3) (ownLen 3) (own_inb c 3) fm3 (k0_pay4 (fun y => ST.view.read (Elt F) (X m c) (up (inOff c 3) (in_inb c 3) y))) (k0_off16 c) ((off16_eq c).trans (by rfl))) $$ Hmi3
  iintro Hmi3
  ihave Hmi3 := (Entails.of_eq (pa_stored_mine m c (ownOff c 3) (ownLen 3) (own_inb c 3) fm3 (k0_pay4 (fun y => ST.view.read (Elt F) (X m c) (up (inOff c 3) (in_inb c 3) y))) (fun x => by simp only [k0_pay4, shapeCast_self]; rfl))) $$ Hmi3
  ihave Hmi3 := (pa_halves c MI (ownOff c 3) (ownLen 3) (own_inb c 3) fullShare (mineV m c)) $$ Hmi3
  icases Hmi3 with ⟨HmL3, HmR3⟩
  iapply (step_send' m c (zn c) MI CM (ownOff c 3) (ownOff c 3) (ownLen 3) (own_inb c 3) (own_inb c 3) 15 23 (by decide) (by decide) sL (mineV m c) fn3
      (k0_off4 c) (k0_off4 c) ((off4_eq c).trans (by rfl)) ((off4_eq c).trans (by rfl)) _ _ rfl rfl _ (dev7_eq c)
      (owedAfter c 6) (owedAfter c 7) _ rfl (credit_zr (ownOff c 3) 3 (own_inb c 3)) (pa_damt_z 3) (pay_zs m c 3) (pay_zr m c 3 fn3)
      (κ₁ := K (c, ⟨15, by omega⟩)) (κ₂ := K (zn c, ⟨23, by omega⟩))) $$ [HmL3 Hn3 HO Hts3 Htr3]
  · isplitr; · iapply (inv_dma m K c 15 _); iexact HR
    isplitr; · iapply (inv_dma m K (zn c) 23 _); iexact HR
    isplitl [HmL3]; · iexact HmL3
    isplitl [Hn3]; · iexact Hn3
    isplitl [HO]; · iexact HO
    isplitl [Hts3]; · iexact Hts3
    isplitr; · iapply (reached_dma m K c 15 _); iexact HR
    isplitl [Htr3]; · iexact Htr3
    iapply (reached_dma m K (zn c) 23 _); iexact HR
  iintro ⟨Hcs3, HO⟩
  ihave Hcs3 := (pa_cred_z c 3 15 23 rfl rfl _) $$ Hcs3
  iapply (step_wait' m c 4 (by decide) _ rfl (owedAfter c 7) _ ((credit_rect ST 176 _ _ _ 0 (by decide)).trans (credit_in 0 4 (by decide))) (κ := K (c, ⟨4, by omega⟩))) $$ [Hc4 HO Hap4]
  · isplitr; · iapply (inv_dma m K c 4 _); iexact HR
    isplitl [Hc4]; · iexact Hc4
    isplitl [HO]; · iexact HO
    isplitr [Hap4]; · iapply (mayWait_after c (.dma ⟨4, _⟩) 7 (pa_lv_in 4 c)); iexact HL
    iexact Hap4
  iintro ⟨HO, Hap4, -, Hp⟩
  ihave Hp := (pa_wait_in m c 4 4 rfl) $$ Hp
  icases Hp with ⟨Hst4, Hxa4⟩
  rw [wp_ret]; imodintro
  isplitl [HO]; · iexists _; iexact HO
  isplitl [HmR2]; · iexact HmR2
  isplitl [Hcs2]; · iexact Hcs2
  isplitl [Hap3]; · iexact Hap3
  isplitl [Hst3]; · iexact Hst3
  isplitl [Hxa3]; · iexact Hxa3
  isplitl [HmR3]; · iexact HmR3
  isplitl [Hcs3]; · iexact Hcs3
  isplitl [Hap4]; · iexact Hap4
  isplitl [Hst4]; · iexact Hst4
  iexact Hxa4

set_option maxRecDepth 65536 in
set_option maxHeartbeats 4000000 in
/-- Part 8: the conversion and the transfer of own chunk 4; own chunk 5 up to its conversion. -/
theorem part_8 (c : Dev nD) (K : Dev nD × Fin 86 → ℕ) (v2 v5 v9 v43 v50 : BitVec 32) (W : Waits sig Unit) (fm4 : Buf (Elt F) ((sl MI (ownOff c 4) (ownLen 4) (own_inb c 4)).view.loc (c : Thread nD τ))) (fn4 : Buf (Elt F) ((sl CM (ownOff c 4) (ownLen 4) (own_inb c 4)).view.loc (zn c : Thread nD τ))) (fm5 : Buf (Elt F) ((sl MI (ownOff c 5) (ownLen 5) (own_inb c 5)).view.loc (c : Thread nD τ))) :
    iprop(records m K ∗ levAts L lv
        ∗ pts c ST (inOff c 4) (inLen 4) (in_inb c 4) fullShare (X m c)
        ∗ pts c MI (ownOff c 4) (ownLen 4) (own_inb c 4) fullShare fm4
        ∗ pts (zn c) CM (ownOff c 4) (ownLen 4) (own_inb c 4) fullShare fn4
        ∗ owes (c : Thread nD τ) (owedAfter c 7) W
        ∗ dutyTok ER (dcell c 16 (by decide)) 0 0
        ∗ dutyTok ER (dcell (zn c) 24 (by decide)) 0 0
        ∗ cred (tallyAt (dcell c 5 (by decide)) () (damt 5))
        ∗ atPos ER (dcell c 5 (by decide)) 0 ∅ 0
        ∗ pts c MI (ownOff c 5) (ownLen 5) (own_inb c 5) fullShare fm5)
      ⊢ wp frame (wpE (defs₀ (F := F)) 𝒱₀ (c : Thread nD τ) none) Set.univ
          (k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v43 v50)
          (fun r => iprop((∃ W', owes (c : Thread nD τ) (owedAfter c 8) W')
            ∗ pts c ST (inOff c 4) (inLen 4) (in_inb c 4) fullShare (X m c)
            ∗ pts c MI (ownOff c 4) (ownLen 4) (own_inb c 4) sR (mineV m c)
            ∗ cred (tallyAt (dcell c 16 (by decide)) () (damt 16))
            ∗ atPos ER (dcell c 5 (by decide)) 1 ∅ 0
            ∗ pts c ST (inOff c 5) (inLen 5) (in_inb c 5) fullShare (X m c)
            ∗ pts c XA (inOff c 5) (inLen 5) (in_inb c 5) fullShare (X m c)
            ∗ pts c MI (ownOff c 5) (ownLen 5) (own_inb c 5) fullShare (mineV m c))) := by
  simp only [k0_part8_eq_skeleton]; unfold k0_part8_skel
  simp only [Prog.lift, Prog.bind_op, Prog.bind_ret, Prog.pure_eq_ret, Prog.bind_assoc]
  iintro ⟨#HR, #HL, Hst4, Hmi4, Hn4, HO, Hts4, Htr4, Hc5, Hap5, Hmi5⟩
  iapply (pa_load c ST (inOff c 4) (inLen 4) (in_inb c 4) fullShare (X m c) (k0_off17 c) ((off17_eq c).trans (by rfl))) $$ Hst4
  iintro Hst4
  iapply (pa_load c MI (ownOff c 4) (ownLen 4) (own_inb c 4) fullShare fm4 (k0_off17 c) ((off17_eq c).trans (by rfl))) $$ Hmi4
  iintro Hmi4
  iapply (pa_store c MI (ownOff c 4) (ownLen 4) (own_inb c 4) fm4 (k0_pay5 (fun y => ST.view.read (Elt F) (X m c) (up (inOff c 4) (in_inb c 4) y))) (k0_off17 c) ((off17_eq c).trans (by rfl))) $$ Hmi4
  iintro Hmi4
  ihave Hmi4 := (Entails.of_eq (pa_stored_mine m c (ownOff c 4) (ownLen 4) (own_inb c 4) fm4 (k0_pay5 (fun y => ST.view.read (Elt F) (X m c) (up (inOff c 4) (in_inb c 4) y))) (fun x => by simp only [k0_pay5, shapeCast_self]; rfl))) $$ Hmi4
  ihave Hmi4 := (pa_halves c MI (ownOff c 4) (ownLen 4) (own_inb c 4) fullShare (mineV m c)) $$ Hmi4
  icases Hmi4 with ⟨HmL4, HmR4⟩
  iapply (step_send' m c (zn c) MI CM (ownOff c 4) (ownOff c 4) (ownLen 4) (own_inb c 4) (own_inb c 4) 16 24 (by decide) (by decide) sL (mineV m c) fn4
      (k0_off5 c) (k0_off5 c) ((off5_eq c).trans (by rfl)) ((off5_eq c).trans (by rfl)) _ _ rfl rfl _ (dev8_eq c)
      (owedAfter c 7) (owedAfter c 8) _ rfl (credit_zr (ownOff c 4) 4 (own_inb c 4)) (pa_damt_z 4) (pay_zs m c 4) (pay_zr m c 4 fn4)
      (κ₁ := K (c, ⟨16, by omega⟩)) (κ₂ := K (zn c, ⟨24, by omega⟩))) $$ [HmL4 Hn4 HO Hts4 Htr4]
  · isplitr; · iapply (inv_dma m K c 16 _); iexact HR
    isplitr; · iapply (inv_dma m K (zn c) 24 _); iexact HR
    isplitl [HmL4]; · iexact HmL4
    isplitl [Hn4]; · iexact Hn4
    isplitl [HO]; · iexact HO
    isplitl [Hts4]; · iexact Hts4
    isplitr; · iapply (reached_dma m K c 16 _); iexact HR
    isplitl [Htr4]; · iexact Htr4
    iapply (reached_dma m K (zn c) 24 _); iexact HR
  iintro ⟨Hcs4, HO⟩
  ihave Hcs4 := (pa_cred_z c 4 16 24 rfl rfl _) $$ Hcs4
  iapply (step_wait' m c 5 (by decide) _ rfl (owedAfter c 8) _ ((credit_rect ST 176 _ _ _ 0 (by decide)).trans (credit_in 0 5 (by decide))) (κ := K (c, ⟨5, by omega⟩))) $$ [Hc5 HO Hap5]
  · isplitr; · iapply (inv_dma m K c 5 _); iexact HR
    isplitl [Hc5]; · iexact Hc5
    isplitl [HO]; · iexact HO
    isplitr [Hap5]; · iapply (mayWait_after c (.dma ⟨5, _⟩) 8 (pa_lv_in 5 c)); iexact HL
    iexact Hap5
  iintro ⟨HO, Hap5, -, Hp⟩
  ihave Hp := (pa_wait_in m c 5 5 rfl) $$ Hp
  icases Hp with ⟨Hst5, Hxa5⟩
  iapply (pa_load c ST (inOff c 5) (inLen 5) (in_inb c 5) fullShare (X m c) (k0_off18 c) ((off18_eq c).trans (by rfl))) $$ Hst5
  iintro Hst5
  iapply (pa_load c MI (ownOff c 5) (ownLen 5) (own_inb c 5) fullShare fm5 (k0_off18 c) ((off18_eq c).trans (by rfl))) $$ Hmi5
  iintro Hmi5
  iapply (pa_store c MI (ownOff c 5) (ownLen 5) (own_inb c 5) fm5 (k0_pay6 (fun y => ST.view.read (Elt F) (X m c) (up (inOff c 5) (in_inb c 5) y))) (k0_off18 c) ((off18_eq c).trans (by rfl))) $$ Hmi5
  iintro Hmi5
  ihave Hmi5 := (Entails.of_eq (pa_stored_mine m c (ownOff c 5) (ownLen 5) (own_inb c 5) fm5 (k0_pay6 (fun y => ST.view.read (Elt F) (X m c) (up (inOff c 5) (in_inb c 5) y))) (fun x => by simp only [k0_pay6, shapeCast_self]; rfl))) $$ Hmi5
  rw [wp_ret]; imodintro
  isplitl [HO]; · iexists _; iexact HO
  isplitl [Hst4]; · iexact Hst4
  isplitl [HmR4]; · iexact HmR4
  isplitl [Hcs4]; · iexact Hcs4
  isplitl [Hap5]; · iexact Hap5
  isplitl [Hst5]; · iexact Hst5
  isplitl [Hxa5]; · iexact Hxa5
  iexact Hmi5

set_option maxRecDepth 65536 in
set_option maxHeartbeats 4000000 in
/-- Part 9: the transfer of own chunk 5; own chunk 6 whole; own chunk 7 up to the load of its staged rows, whose conversion is handed on. -/
theorem part_9 (c : Dev nD) (K : Dev nD × Fin 86 → ℕ) (v2 v5 v9 v51 v52 : BitVec 32) (W : Waits sig Unit) (fn5 : Buf (Elt F) ((sl CM (ownOff c 5) (ownLen 5) (own_inb c 5)).view.loc (zn c : Thread nD τ))) (fm6 : Buf (Elt F) ((sl MI (ownOff c 6) (ownLen 6) (own_inb c 6)).view.loc (c : Thread nD τ))) (fn6 : Buf (Elt F) ((sl CM (ownOff c 6) (ownLen 6) (own_inb c 6)).view.loc (zn c : Thread nD τ))) :
    iprop(records m K ∗ levAts L lv
        ∗ pts c MI (ownOff c 5) (ownLen 5) (own_inb c 5) fullShare (mineV m c)
        ∗ pts (zn c) CM (ownOff c 5) (ownLen 5) (own_inb c 5) fullShare fn5
        ∗ owes (c : Thread nD τ) (owedAfter c 8) W
        ∗ dutyTok ER (dcell c 17 (by decide)) 0 0
        ∗ dutyTok ER (dcell (zn c) 25 (by decide)) 0 0
        ∗ cred (tallyAt (dcell c 6 (by decide)) () (damt 6))
        ∗ atPos ER (dcell c 6 (by decide)) 0 ∅ 0
        ∗ pts c MI (ownOff c 6) (ownLen 6) (own_inb c 6) fullShare fm6
        ∗ pts (zn c) CM (ownOff c 6) (ownLen 6) (own_inb c 6) fullShare fn6
        ∗ dutyTok ER (dcell c 18 (by decide)) 0 0
        ∗ dutyTok ER (dcell (zn c) 26 (by decide)) 0 0
        ∗ cred (tallyAt (dcell c 7 (by decide)) () (damt 7))
        ∗ atPos ER (dcell c 7 (by decide)) 0 ∅ 0)
      ⊢ wp frame (wpE (defs₀ (F := F)) 𝒱₀ (c : Thread nD τ) none) Set.univ
          (k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v51 v52)
          (fun r => iprop(⌜∀ y, r y = FloatOps.truncf .bf16 (by decide) (X m c (up (ownOff c 7) (own_inb c 7) y))⌝
            ∗ (∃ W', owes (c : Thread nD τ) (owedAfter c 10) W')
            ∗ pts c MI (ownOff c 5) (ownLen 5) (own_inb c 5) sR (mineV m c)
            ∗ cred (tallyAt (dcell c 17 (by decide)) () (damt 17))
            ∗ atPos ER (dcell c 6 (by decide)) 1 ∅ 0
            ∗ pts c ST (inOff c 6) (inLen 6) (in_inb c 6) fullShare (X m c)
            ∗ pts c XA (inOff c 6) (inLen 6) (in_inb c 6) fullShare (X m c)
            ∗ pts c MI (ownOff c 6) (ownLen 6) (own_inb c 6) sR (mineV m c)
            ∗ cred (tallyAt (dcell c 18 (by decide)) () (damt 18))
            ∗ atPos ER (dcell c 7 (by decide)) 1 ∅ 0
            ∗ pts c ST (inOff c 7) (inLen 7) (in_inb c 7) fullShare (X m c)
            ∗ pts c XA (inOff c 7) (inLen 7) (in_inb c 7) fullShare (X m c))) := by
  simp only [k0_part9_eq_skeleton]; unfold k0_part9_skel
  simp only [Prog.lift, Prog.bind_op, Prog.bind_ret, Prog.pure_eq_ret, Prog.bind_assoc]
  iintro ⟨#HR, #HL, Hmi5, Hn5, HO, Hts5, Htr5, Hc6, Hap6, Hmi6, Hn6, Hts6, Htr6, Hc7, Hap7⟩
  ihave Hmi5 := (pa_halves c MI (ownOff c 5) (ownLen 5) (own_inb c 5) fullShare (mineV m c)) $$ Hmi5
  icases Hmi5 with ⟨HmL5, HmR5⟩
  iapply (step_send' m c (zn c) MI CM (ownOff c 5) (ownOff c 5) (ownLen 5) (own_inb c 5) (own_inb c 5) 17 25 (by decide) (by decide) sL (mineV m c) fn5
      (k0_off6 c) (k0_off6 c) ((off6_eq c).trans (by rfl)) ((off6_eq c).trans (by rfl)) _ _ rfl rfl _ (dev9_eq c)
      (owedAfter c 8) (owedAfter c 9) _ rfl (credit_zr (ownOff c 5) 5 (own_inb c 5)) (pa_damt_z 5) (pay_zs m c 5) (pay_zr m c 5 fn5)
      (κ₁ := K (c, ⟨17, by omega⟩)) (κ₂ := K (zn c, ⟨25, by omega⟩))) $$ [HmL5 Hn5 HO Hts5 Htr5]
  · isplitr; · iapply (inv_dma m K c 17 _); iexact HR
    isplitr; · iapply (inv_dma m K (zn c) 25 _); iexact HR
    isplitl [HmL5]; · iexact HmL5
    isplitl [Hn5]; · iexact Hn5
    isplitl [HO]; · iexact HO
    isplitl [Hts5]; · iexact Hts5
    isplitr; · iapply (reached_dma m K c 17 _); iexact HR
    isplitl [Htr5]; · iexact Htr5
    iapply (reached_dma m K (zn c) 25 _); iexact HR
  iintro ⟨Hcs5, HO⟩
  ihave Hcs5 := (pa_cred_z c 5 17 25 rfl rfl _) $$ Hcs5
  iapply (step_wait' m c 6 (by decide) _ rfl (owedAfter c 9) _ ((credit_rect ST 176 _ _ _ 0 (by decide)).trans (credit_in 0 6 (by decide))) (κ := K (c, ⟨6, by omega⟩))) $$ [Hc6 HO Hap6]
  · isplitr; · iapply (inv_dma m K c 6 _); iexact HR
    isplitl [Hc6]; · iexact Hc6
    isplitl [HO]; · iexact HO
    isplitr [Hap6]; · iapply (mayWait_after c (.dma ⟨6, _⟩) 9 (pa_lv_in 6 c)); iexact HL
    iexact Hap6
  iintro ⟨HO, Hap6, -, Hp⟩
  ihave Hp := (pa_wait_in m c 6 6 rfl) $$ Hp
  icases Hp with ⟨Hst6, Hxa6⟩
  iapply (pa_load c ST (inOff c 6) (inLen 6) (in_inb c 6) fullShare (X m c) (k0_off19 c) ((off19_eq c).trans (by rfl))) $$ Hst6
  iintro Hst6
  iapply (pa_load c MI (ownOff c 6) (ownLen 6) (own_inb c 6) fullShare fm6 (k0_off19 c) ((off19_eq c).trans (by rfl))) $$ Hmi6
  iintro Hmi6
  iapply (pa_store c MI (ownOff c 6) (ownLen 6) (own_inb c 6) fm6 (k0_pay7 (fun y => ST.view.read (Elt F) (X m c) (up (inOff c 6) (in_inb c 6) y))) (k0_off19 c) ((off19_eq c).trans (by rfl))) $$ Hmi6
  iintro Hmi6
  ihave Hmi6 := (Entails.of_eq (pa_stored_mine m c (ownOff c 6) (ownLen 6) (own_inb c 6) fm6 (k0_pay7 (fun y => ST.view.read (Elt F) (X m c) (up (inOff c 6) (in_inb c 6) y))) (fun x => by simp only [k0_pay7, shapeCast_self]; rfl))) $$ Hmi6
  ihave Hmi6 := (pa_halves c MI (ownOff c 6) (ownLen 6) (own_inb c 6) fullShare (mineV m c)) $$ Hmi6
  icases Hmi6 with ⟨HmL6, HmR6⟩
  iapply (step_send' m c (zn c) MI CM (ownOff c 6) (ownOff c 6) (ownLen 6) (own_inb c 6) (own_inb c 6) 18 26 (by decide) (by decide) sL (mineV m c) fn6
      (k0_off7 c) (k0_off7 c) ((off7_eq c).trans (by rfl)) ((off7_eq c).trans (by rfl)) _ _ rfl rfl _ (dev10_eq c)
      (owedAfter c 9) (owedAfter c 10) _ rfl (credit_zr (ownOff c 6) 6 (own_inb c 6)) (pa_damt_z 6) (pay_zs m c 6) (pay_zr m c 6 fn6)
      (κ₁ := K (c, ⟨18, by omega⟩)) (κ₂ := K (zn c, ⟨26, by omega⟩))) $$ [HmL6 Hn6 HO Hts6 Htr6]
  · isplitr; · iapply (inv_dma m K c 18 _); iexact HR
    isplitr; · iapply (inv_dma m K (zn c) 26 _); iexact HR
    isplitl [HmL6]; · iexact HmL6
    isplitl [Hn6]; · iexact Hn6
    isplitl [HO]; · iexact HO
    isplitl [Hts6]; · iexact Hts6
    isplitr; · iapply (reached_dma m K c 18 _); iexact HR
    isplitl [Htr6]; · iexact Htr6
    iapply (reached_dma m K (zn c) 26 _); iexact HR
  iintro ⟨Hcs6, HO⟩
  ihave Hcs6 := (pa_cred_z c 6 18 26 rfl rfl _) $$ Hcs6
  iapply (step_wait' m c 7 (by decide) _ rfl (owedAfter c 10) _ ((credit_rect ST 176 _ _ _ 0 (by decide)).trans (credit_in 0 7 (by decide))) (κ := K (c, ⟨7, by omega⟩))) $$ [Hc7 HO Hap7]
  · isplitr; · iapply (inv_dma m K c 7 _); iexact HR
    isplitl [Hc7]; · iexact Hc7
    isplitl [HO]; · iexact HO
    isplitr [Hap7]; · iapply (mayWait_after c (.dma ⟨7, _⟩) 10 (pa_lv_in 7 c)); iexact HL
    iexact Hap7
  iintro ⟨HO, Hap7, -, Hp⟩
  ihave Hp := (pa_wait_in m c 7 7 rfl) $$ Hp
  icases Hp with ⟨Hst7, Hxa7⟩
  iapply (pa_load c ST (inOff c 7) (inLen 7) (in_inb c 7) fullShare (X m c) (k0_off20 c) ((off20_eq c).trans (by rfl))) $$ Hst7
  iintro Hst7
  rw [wp_ret]; imodintro
  isplitl []; · ipureintro; intro y; simp only [k0_pay8, shapeCast_self]; rfl
  isplitl [HO]; · iexists _; iexact HO
  isplitl [HmR5]; · iexact HmR5
  isplitl [Hcs5]; · iexact Hcs5
  isplitl [Hap6]; · iexact Hap6
  isplitl [Hst6]; · iexact Hst6
  isplitl [Hxa6]; · iexact Hxa6
  isplitl [HmR6]; · iexact HmR6
  isplitl [Hcs6]; · iexact Hcs6
  isplitl [Hap7]; · iexact Hap7
  isplitl [Hst7]; · iexact Hst7
  iexact Hxa7

set_option maxRecDepth 65536 in
set_option maxHeartbeats 4000000 in
/-- Part 10: the store and the transfer of own chunk 7; the wait for the z-neighbour's transfer of own chunk 0. -/
theorem part_10 (c : Dev nD) (K : Dev nD × Fin 86 → ℕ) (v2 v5 v8 v9 v10 v52 : BitVec 32) (v299 : FVec F S176x1024 .bf16)
    (hv299 : ∀ y, v299 y = FloatOps.truncf .bf16 (by decide) (X m c (up (ownOff c 7) (own_inb c 7) y)))
    (W : Waits sig Unit) (fm7 : Buf (Elt F) ((sl MI (ownOff c 7) (ownLen 7) (own_inb c 7)).view.loc (c : Thread nD τ))) (fn7 : Buf (Elt F) ((sl CM (ownOff c 7) (ownLen 7) (own_inb c 7)).view.loc (zn c : Thread nD τ))) :
    iprop(records m K ∗ levAts L lv
        ∗ pts c MI (ownOff c 7) (ownLen 7) (own_inb c 7) fullShare fm7
        ∗ pts (zn c) CM (ownOff c 7) (ownLen 7) (own_inb c 7) fullShare fn7
        ∗ owes (c : Thread nD τ) (owedAfter c 10) W
        ∗ dutyTok ER (dcell c 19 (by decide)) 0 0
        ∗ dutyTok ER (dcell (zn c) 27 (by decide)) 0 0
        ∗ cred (tallyAt (dcell c 20 (by decide)) () (damt 20))
        ∗ atPos ER (dcell c 20 (by decide)) 0 ∅ 0)
      ⊢ wp frame (wpE (defs₀ (F := F)) 𝒱₀ (c : Thread nD τ) none) Set.univ
          (k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v10 v52 v299)
          (fun r => iprop((∃ W', owes (c : Thread nD τ) (owedAfter c 11) W')
            ∗ pts c MI (ownOff c 7) (ownLen 7) (own_inb c 7) sR (mineV m c)
            ∗ cred (tallyAt (dcell c 19 (by decide)) () (damt 19))
            ∗ atPos ER (dcell c 20 (by decide)) 1 ∅ 0
            ∗ pts c CM (ownOff c 0) (ownLen 0) (own_inb c 0) fullShare (commV m c))) := by
  simp only [k0_part10_eq_skeleton]; unfold k0_part10_skel
  simp only [Prog.lift, Prog.bind_op, Prog.bind_ret, Prog.pure_eq_ret, Prog.bind_assoc]
  iintro ⟨#HR, #HL, Hmi7, Hn7, HO, Hts7, Htr7, Hcr20, Hap20⟩
  iapply (pa_load c MI (ownOff c 7) (ownLen 7) (own_inb c 7) fullShare fm7 (k0_off20 c) ((off20_eq c).trans (by rfl))) $$ Hmi7
  iintro Hmi7
  iapply (pa_store c MI (ownOff c 7) (ownLen 7) (own_inb c 7) fm7 (k0_pay9 v299) (k0_off20 c) ((off20_eq c).trans (by rfl))) $$ Hmi7
  iintro Hmi7
  ihave Hmi7 := (Entails.of_eq (pa_stored_mine m c (ownOff c 7) (ownLen 7) (own_inb c 7) fm7 (k0_pay9 v299) (fun x => by simp only [k0_pay9, shapeCast_self]; exact hv299 x))) $$ Hmi7
  ihave Hmi7 := (pa_halves c MI (ownOff c 7) (ownLen 7) (own_inb c 7) fullShare (mineV m c)) $$ Hmi7
  icases Hmi7 with ⟨HmL7, HmR7⟩
  iapply (step_send' m c (zn c) MI CM (ownOff c 7) (ownOff c 7) (ownLen 7) (own_inb c 7) (own_inb c 7) 19 27 (by decide) (by decide) sL (mineV m c) fn7
      (k0_off8 c) (k0_off8 c) ((off8_eq c).trans (by rfl)) ((off8_eq c).trans (by rfl)) _ _ rfl rfl _ (dev11_eq c)
      (owedAfter c 10) (owedAfter c 11) _ rfl (credit_zr (ownOff c 7) 7 (own_inb c 7)) (pa_damt_z 7) (pay_zs m c 7) (pay_zr m c 7 fn7)
      (κ₁ := K (c, ⟨19, by omega⟩)) (κ₂ := K (zn c, ⟨27, by omega⟩))) $$ [HmL7 Hn7 HO Hts7 Htr7]
  · isplitr; · iapply (inv_dma m K c 19 _); iexact HR
    isplitr; · iapply (inv_dma m K (zn c) 27 _); iexact HR
    isplitl [HmL7]; · iexact HmL7
    isplitl [Hn7]; · iexact Hn7
    isplitl [HO]; · iexact HO
    isplitl [Hts7]; · iexact Hts7
    isplitr; · iapply (reached_dma m K c 19 _); iexact HR
    isplitl [Htr7]; · iexact Htr7
    iapply (reached_dma m K (zn c) 27 _); iexact HR
  iintro ⟨Hcs7, HO⟩
  ihave Hcs7 := (pa_cred_z c 7 19 27 rfl rfl _) $$ Hcs7
  iapply (step_wait' m c 20 (by decide) _ rfl (owedAfter c 11) _ ((credit_rect CM 112 _ _ _ 0 (by decide)).trans (credit_zr 0 0 (by decide))) (κ := K (c, ⟨20, by omega⟩))) $$ [Hcr20 HO Hap20]
  · isplitr; · iapply (inv_dma m K c 20 _); iexact HR
    isplitl [Hcr20]; · iexact Hcr20
    isplitl [HO]; · iexact HO
    isplitr [Hap20]; · iapply (mayWait_after c (.dma ⟨20, _⟩) 11 (pa_lv_zr0 c)); iexact HL
    iexact Hap20
  rw [pa_wait_zr m c 0 20 rfl]
  iintro ⟨HO, Hap20, -, Hcm0⟩
  rw [wp_ret]; imodintro
  isplitl [HO]; · iexists _; iexact HO
  isplitl [HmR7]; · iexact HmR7
  isplitl [Hcs7]; · iexact Hcs7
  isplitl [Hap20]; · iexact Hap20
  iexact Hcm0

/-- info: 'Cert.Kernel.AG.part_10' depends on axioms: [propext, Classical.choice, Quot.sound] -/
#guard_msgs in #print axioms part_10

end Cert.Kernel.AG

end
-- ==== Proof.K.AGParts_b.lean ====
/- The forwarding phase of the body, part by part.  When an own chunk of the communication buffer has landed the device reads it
  three ways at once: it sends the rows on to its x-neighbour and to its y-neighbour and copies them to the other half of the
  result, each reader with its own part of the share.  Rows that arrive from the y-neighbour are copied and sent on to the
  x-neighbour, rows that arrive from the x-neighbour are copied and sent on to the y-neighbour.  Each transfer pays the next
  payment the device owes; each wait is for a cell below every cell still owed.
-/
import proofs.«900673_g7700000000000674_dist_ag_v7x_xyz2x2x2_z_m4096_n1024_bf16_1_alg».proof.Proof.Gen.Kernel.Skeleton
import proofs.«900673_g7700000000000674_dist_ag_v7x_xyz2x2x2_z_m4096_n1024_bf16_1_alg».proof.Proof.K.AGSteps
import proofs.«900673_g7700000000000674_dist_ag_v7x_xyz2x2x2_z_m4096_n1024_bf16_1_alg».proof.Proof.K.AGPays
import proofs.«900673_g7700000000000674_dist_ag_v7x_xyz2x2x2_z_m4096_n1024_bf16_1_alg».proof.Proof.K.AGSlices
import proofs.«900673_g7700000000000674_dist_ag_v7x_xyz2x2x2_z_m4096_n1024_bf16_1_alg».proof.Proof.K.AGOffs
import proofs.«900673_g7700000000000674_dist_ag_v7x_xyz2x2x2_z_m4096_n1024_bf16_1_alg».proof.Proof.K.AGGlue

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows under their other names -/

/-- The rows the x-forwards read, as rows of the device's own regions and of its y-arrivals. -/
theorem pb_xsrc : ∀ c : Dev nD, xinOff (xn c) 0 = pown c ∧ xinOff (xn c) 1 = pown c + 112 ∧ xinOff (xn c) 2 = pown c + 336
    ∧ xinOff (xn c) 3 = pown c + 504 ∧ xinOff (xn c) 4 = rown c ∧ xinOff (xn c) 5 = rown c + 176 ∧ xinOff (xn c) 6 = pyn c
    ∧ xinOff (xn c) 7 = pyn c + 112 := by decide

/-- The rows the y-forwards read, as rows of the device's own regions and of its x-arrivals. -/
theorem pb_ysrc : ∀ c : Dev nD, yinOff (yn c) 0 = pown c ∧ yinOff (yn c) 1 = pown c + 112 ∧ yinOff (yn c) 2 = pown c + 336
    ∧ yinOff (yn c) 3 = pown c + 504 ∧ yinOff (yn c) 4 = rown c + 352 ∧ yinOff (yn c) 5 = rown c + 528 ∧ yinOff (yn c) 6 = pxn c + 336
    ∧ yinOff (yn c) 7 = pxn c + 504 := by decide

/-- An assertion over rows at a share is the assertions at the share's two halves. -/
theorem pb_pts_halves {sp : Space} {e : EltTy} {R : ℕ} (c : Dev nD) (M : Memref sig .tc sp (Sr R) e) (o r : ℕ) (h : o + r ≤ R)
    (q : PosShare TreeShare) (f : Buf (Elt F) ((sl M o r h).view.loc (c : Thread nD τ))) :
    (pts c M o r h q f : sProp 𝕄) ⊣⊢ iprop(pts c M o r h q.left f ∗ pts c M o r h q.right f) := by
  unfold pts; exact pointsTo_share_split _ q f

/-- The units a send cell is credited are those of its receive cell. -/
theorem pb_damt_xs_xr (k : Fin 8) : damt (28 + k.val) = damt (36 + k.val) := (credit_xs 0 k (by have := (xinLen_pos k).2; omega)).symm.trans (credit_xr 0 k (by have := (xinLen_pos k).2; omega))
theorem pb_damt_ys_yr (k : Fin 8) : damt (44 + k.val) = damt (52 + k.val) := (credit_ys 0 k (by have := (yinLen_pos k).2; omega)).symm.trans (credit_yr 0 k (by have := (yinLen_pos k).2; omega))

/-- The same rows, length and share under other names. -/
theorem pb_pts_re {sp : Space} {e : EltTy} {R : ℕ} (d : Dev nD) (B : Memref sig .tc sp (Sr R) e) {o o' r r' : ℕ} {q q' : PosShare TreeShare}
    (ho : o = o') (hr : r = r') (hq : q = q') (h : o + r ≤ R) (h' : o' + r' ≤ R) (f : Buf (Elt F) (B.view.loc (d : Thread nD τ))) :
    (pts d B o r h q f : sProp 𝕄) ⊢ pts d B o' r' h' q' f := by
  subst ho hr hq; exact .rfl

/-- Credit counted in equal units. -/
theorem pb_cred_amt (g : GSem nD τ sig) {a b : ℕ} (e : a = b) : (cred (tallyAt g () a) : sProp 𝕄) ⊢ cred (tallyAt g () b) := by
  subst e; exact .rfl

/-- A cell number below the number of DMA semaphores, by evaluation. -/
theorem pb_lt85 {n : ℕ} (h : decide (n < 85) = true) : n < 85 := of_decide_eq_true h

/-! ## What a landing hands over, cell by cell, with the cell's number as a literal -/

theorem pb_dpay_zr' (c : Dev nD) (j : Fin 8) (n : ℕ) (hn : n = 20 + j.val) :
    dpay m c n = pts c CM (ownOff c j) (ownLen j) (own_inb c j) fullShare (commV m c) := by subst hn; exact dpay_zr m c j
theorem pb_dpay_xr' (c : Dev nD) (k : Fin 8) (n : ℕ) (hn : n = 36 + k.val) :
    dpay m c n = pts c CM (xinOff c k) (xinLen k) (xin_inb c k) fullShare (commV m c) := by subst hn; exact dpay_xr m c k
theorem pb_dpay_yr' (c : Dev nD) (k : Fin 8) (n : ℕ) (hn : n = 52 + k.val) :
    dpay m c n = pts c CM (yinOff c k) (yinLen k) (yin_inb c k) fullShare (commV m c) := by subst hn; exact dpay_yr m c k

/-! ## Each wait of this phase is for a cell below every cell still owed -/

theorem pb_mw_21_13 (c : Dev nD) : (levAts L lv : sProp 𝕄) ⊢ MayWait (c : Thread nD τ) (.dma ⟨21, pb_lt85 rfl⟩) () (owedAfter c 13) :=
  mayWait_after c (.dma ⟨21, pb_lt85 rfl⟩) 13 (by revert c; decide)

theorem pb_mw_52_15 (c : Dev nD) : (levAts L lv : sProp 𝕄) ⊢ MayWait (c : Thread nD τ) (.dma ⟨52, pb_lt85 rfl⟩) () (owedAfter c 15) :=
  mayWait_after c (.dma ⟨52, pb_lt85 rfl⟩) 15 (by revert c; decide)

theorem pb_mw_22_16 (c : Dev nD) : (levAts L lv : sProp 𝕄) ⊢ MayWait (c : Thread nD τ) (.dma ⟨22, pb_lt85 rfl⟩) () (owedAfter c 16) :=
  mayWait_after c (.dma ⟨22, pb_lt85 rfl⟩) 16 (by revert c; decide)

theorem pb_mw_23_18 (c : Dev nD) : (levAts L lv : sProp 𝕄) ⊢ MayWait (c : Thread nD τ) (.dma ⟨23, pb_lt85 rfl⟩) () (owedAfter c 18) :=
  mayWait_after c (.dma ⟨23, pb_lt85 rfl⟩) 18 (by revert c; decide)

theorem pb_mw_53_20 (c : Dev nD) : (levAts L lv : sProp 𝕄) ⊢ MayWait (c : Thread nD τ) (.dma ⟨53, pb_lt85 rfl⟩) () (owedAfter c 20) :=
  mayWait_after c (.dma ⟨53, pb_lt85 rfl⟩) 20 (by revert c; decide)

theorem pb_mw_38_21 (c : Dev nD) : (levAts L lv : sProp 𝕄) ⊢ MayWait (c : Thread nD τ) (.dma ⟨38, pb_lt85 rfl⟩) () (owedAfter c 21) :=
  mayWait_after c (.dma ⟨38, pb_lt85 rfl⟩) 21 (by revert c; decide)

theorem pb_mw_39_22 (c : Dev nD) : (levAts L lv : sProp 𝕄) ⊢ MayWait (c : Thread nD τ) (.dma ⟨39, pb_lt85 rfl⟩) () (owedAfter c 22) :=
  mayWait_after c (.dma ⟨39, pb_lt85 rfl⟩) 22 (by revert c; decide)

theorem pb_mw_24_23 (c : Dev nD) : (levAts L lv : sProp 𝕄) ⊢ MayWait (c : Thread nD τ) (.dma ⟨24, pb_lt85 rfl⟩) () (owedAfter c 23) :=
  mayWait_after c (.dma ⟨24, pb_lt85 rfl⟩) 23 (by revert c; decide)

/-! ## Part 11: own chunk 0 goes on three ways; own chunk 1 lands -/

set_option maxRecDepth 65536 in
set_option maxHeartbeats 4000000 in
theorem part_11 (c : Dev nD) (K : Dev nD × Fin 86 → ℕ) (v2 v5 v8 v9 v10 v11 v25 v28 : BitVec 32) (W : Waits sig Unit)
    (f1 : Buf (Elt F) ((sl CM (xinOff (xn c) 0) (xinLen 0) (xin_inb (xn c) 0)).view.loc (xn c : Thread nD τ)))
    (f2 : Buf (Elt F) ((sl CM (yinOff (yn c) 0) (yinLen 0) (yin_inb (yn c) 0)).view.loc (yn c : Thread nD τ)))
    (fd3 : Buf (Elt F) ((sl OU (othb c + ownOff c 0) (ownLen 0) (oown_inb c 0)).view.loc (c : Thread nD τ))) :
    iprop(records m K ∗ levAts L lv
        ∗ pts c CM (ownOff c 0) (ownLen 0) (own_inb c 0) fullShare (commV m c)
        ∗ pts (xn c) CM (xinOff (xn c) 0) (xinLen 0) (xin_inb (xn c) 0) fullShare f1
        ∗ owes (c : Thread nD τ) (owedAfter c 11) W
        ∗ dutyTok ER (dcell c 28 (by decide)) 0 0
        ∗ dutyTok ER (dcell (xn c) 36 (by decide)) 0 0
        ∗ pts (yn c) CM (yinOff (yn c) 0) (yinLen 0) (yin_inb (yn c) 0) fullShare f2
        ∗ dutyTok ER (dcell c 44 (by decide)) 0 0
        ∗ dutyTok ER (dcell (yn c) 52 (by decide)) 0 0
        ∗ pts c OU (othb c + ownOff c 0) (ownLen 0) (oown_inb c 0) fullShare fd3
        ∗ dutyTok ER (dcell c 60 (by decide)) 0 0
        ∗ cred (tallyAt (dcell c 21 (by decide)) () (damt 21))
        ∗ atPos ER (dcell c 21 (by decide)) 0 ∅ 0)
      ⊢ wp frame (wpE (defs₀ (F := F)) 𝒱₀ (c : Thread nD τ) none) Set.univ
          (k0_part11 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v11 v25 v28)
          (fun _ => iprop(cred (tallyAt (dcell c 28 (by decide)) () (damt 28))
            ∗ cred (tallyAt (dcell c 44 (by decide)) () (damt 44))
            ∗ cred (tallyAt (dcell c 60 (by decide)) () (damt 60))
            ∗ (∃ W', owes (c : Thread nD τ) (owedAfter c 13) W')
            ∗ atPos ER (dcell c 21 (by decide)) 1 ∅ 0
            ∗ pts c CM (ownOff c 1) (ownLen 1) (own_inb c 1) fullShare (commV m c))) := by
  simp only [k0_part11_eq_skeleton]; unfold k0_part11_skel
  simp only [Prog.lift, Prog.bind_op, Prog.bind_ret, Prog.pure_eq_ret, Prog.bind_assoc]
  iintro ⟨#Hrec, #Hlev, Hown0, Hnx0, HO, Tsx0, Trx0, Hny0, Tsy0, Try0, Hdlz0, Tllz0, Hcr21, Hat21⟩
  ihave Hs := (pb_pts_halves c CM _ _ _ fullShare (commV m c)).1 $$ Hown0
  icases Hs with ⟨Hown0L, Hown0R⟩
  -- the x-forward 0
  ihave Hsrc := (pb_pts_re (F := F) c CM (o := ownOff c 0) (o' := xinOff (xn c) 0) (r := ownLen 0) (r' := xinLen 0) (q := sL) (q' := sL)
    (by rw [(pb_xsrc c).1]; rfl) rfl rfl (own_inb c 0) (xin_inb (xn c) 0) (commV m c)) $$ Hown0L
  iapply (step_send' m c (xn c) CM CM (xinOff (xn c) 0) (xinOff (xn c) 0) (xinLen 0) (xin_inb (xn c) 0) (xin_inb (xn c) 0) 28 36 (pb_lt85 rfl) (pb_lt85 rfl)
    (sL) (commV m c) f1 (k0_off1 c) (k0_off1 c) (by rw [off1_eq, (pb_xsrc c).1]) (by rw [off1_eq, (pb_xsrc c).1]) _ _ rfl rfl _ (dev12_eq c)
    (κ₁ := K (c, ⟨28, by omega⟩)) (κ₂ := K (xn c, ⟨36, by omega⟩))
    (owedAfter c 11) (owedAfter c 12) W rfl (credit_xr _ 0 _) (pb_damt_xs_xr 0) (pay_xs m c 0) (pay_xr m c 0 f1)) $$ [Hsrc Hnx0 HO Tsx0 Trx0]
  · isplitr; · first | (iapply (inv_dma m K c 28 (pb_lt85 rfl)); iexact Hrec) | iapply (inv_dma m K c 28 (pb_lt85 rfl))
    isplitr; · first | (iapply (inv_dma m K (xn c) 36 (pb_lt85 rfl)); iexact Hrec) | iapply (inv_dma m K (xn c) 36 (pb_lt85 rfl))
    isplitl [Hsrc]; · iexact Hsrc
    isplitl [Hnx0]; · iexact Hnx0
    isplitl [HO]; · iexact HO
    isplitl [Tsx0]; · iexact Tsx0
    isplitr; · first | (iapply (reached_dma m K c 28 (pb_lt85 rfl)); iexact Hrec) | iapply (reached_dma m K c 28 (pb_lt85 rfl))
    isplitl [Trx0]; · iexact Trx0
    first | (iapply (reached_dma m K (xn c) 36 (pb_lt85 rfl)); iexact Hrec) | iapply (reached_dma m K (xn c) 36 (pb_lt85 rfl))
  iintro ⟨Hc28, HO⟩
  ihave Hc28 := (pb_cred_amt (F := F) (dcell c 28 (pb_lt85 rfl)) (show damt 36 = damt 28 from (pb_damt_xs_xr 0).symm)) $$ Hc28
  ihave Hs := (pb_pts_halves c CM _ _ _ sR (commV m c)).1 $$ Hown0R
  icases Hs with ⟨Hown0RL, Hown0RR⟩
  -- the y-forward 0
  ihave Hsrc := (pb_pts_re (F := F) c CM (o := ownOff c 0) (o' := yinOff (yn c) 0) (r := ownLen 0) (r' := yinLen 0) (q := sRL) (q' := qys 0)
    (by rw [(pb_ysrc c).1]; rfl) rfl rfl (own_inb c 0) (yin_inb (yn c) 0) (commV m c)) $$ Hown0RL
  iapply (step_send' m c (yn c) CM CM (yinOff (yn c) 0) (yinOff (yn c) 0) (yinLen 0) (yin_inb (yn c) 0) (yin_inb (yn c) 0) 44 52 (pb_lt85 rfl) (pb_lt85 rfl)
    (qys 0) (commV m c) f2 (k0_off1 c) (k0_off1 c) (by rw [off1_eq, (pb_ysrc c).1]) (by rw [off1_eq, (pb_ysrc c).1]) _ _ rfl rfl _ (dev13_eq c)
    (κ₁ := K (c, ⟨44, by omega⟩)) (κ₂ := K (yn c, ⟨52, by omega⟩))
    (owedAfter c 12) (owedAfter c 13) W rfl (credit_yr _ 0 _) (pb_damt_ys_yr 0) (pay_ys m c 0) (pay_yr m c 0 f2)) $$ [Hsrc Hny0 HO Tsy0 Try0]
  · isplitr; · first | (iapply (inv_dma m K c 44 (pb_lt85 rfl)); iexact Hrec) | iapply (inv_dma m K c 44 (pb_lt85 rfl))
    isplitr; · first | (iapply (inv_dma m K (yn c) 52 (pb_lt85 rfl)); iexact Hrec) | iapply (inv_dma m K (yn c) 52 (pb_lt85 rfl))
    isplitl [Hsrc]; · iexact Hsrc
    isplitl [Hny0]; · iexact Hny0
    isplitl [HO]; · iexact HO
    isplitl [Tsy0]; · iexact Tsy0
    isplitr; · first | (iapply (reached_dma m K c 44 (pb_lt85 rfl)); iexact Hrec) | iapply (reached_dma m K c 44 (pb_lt85 rfl))
    isplitl [Try0]; · iexact Try0
    first | (iapply (reached_dma m K (yn c) 52 (pb_lt85 rfl)); iexact Hrec) | iapply (reached_dma m K (yn c) 52 (pb_lt85 rfl))
  iintro ⟨Hc44, HO⟩
  ihave Hc44 := (pb_cred_amt (F := F) (dcell c 44 (pb_lt85 rfl)) (show damt 52 = damt 44 from (pb_damt_ys_yr 0).symm)) $$ Hc44
  -- the copy lz 0 to the result
  ihave Hsrc := (pb_pts_re (F := F) c CM (o := ownOff c 0) (o' := ownOff c 0) (r := ownLen 0) (r' := ownLen 0) (q := sRR) (q' := qlz 0)
    rfl rfl rfl (own_inb c 0) (own_inb c 0) (commV m c)) $$ Hown0RR
  iapply (step_copy' m c CM OU (ownOff c 0) (othb c + ownOff c 0) (ownLen 0) (own_inb c 0) (oown_inb c 0) 60 (pb_lt85 rfl) (qlz 0) (commV m c) fd3
    (k0_off1 c) (k0_off21 c) (by rw [off1_eq]; rfl) (by first | (rw [off21_eq, Nat.add_assoc]; rfl) | (rw [off21_eq]; rfl)) _ rfl
    (κ := K (c, ⟨60, by omega⟩)) (credit_lz _ 0 _) (pay_lz m c 0 fd3)) $$ [Hsrc Hdlz0 Tllz0]
  · isplitr; · first | (iapply (inv_dma m K c 60 (pb_lt85 rfl)); iexact Hrec) | iapply (inv_dma m K c 60 (pb_lt85 rfl))
    isplitl [Hsrc]; · iexact Hsrc
    isplitl [Hdlz0]; · iexact Hdlz0
    isplitl [Tllz0]; · iexact Tllz0
    first | (iapply (reached_dma m K c 60 (pb_lt85 rfl)); iexact Hrec) | iapply (reached_dma m K c 60 (pb_lt85 rfl))
  iintro Hc60
  -- the wait on zr 1
  iapply (step_wait' m c 21 (pb_lt85 rfl) _ rfl (κ := K (c, ⟨21, by omega⟩)) (owedAfter c 13) W
    ((credit_rect CM 224 _ _ _ 0 (by decide)).trans (credit_zr 0 1 (by decide)))) $$ [Hcr21 HO Hat21]
  · isplitr; · first | (iapply (inv_dma m K c 21 (pb_lt85 rfl)); iexact Hrec) | iapply (inv_dma m K c 21 (pb_lt85 rfl))
    isplitl [Hcr21]; · iexact Hcr21
    isplitl [HO]; · iexact HO
    isplitr; · first | (iapply (pb_mw_21_13 (F := F) c); iexact Hlev) | iapply (pb_mw_21_13 (F := F) c)
    iexact Hat21
  rw [pb_dpay_zr' m c 1 21 rfl]
  iintro ⟨HO, Hat21, -, Hown1⟩
  rw [wp_ret]; imodintro
  isplitl [Hc28]; · iexact Hc28
  isplitl [Hc44]; · iexact Hc44
  isplitl [Hc60]; · iexact Hc60
  isplitl [HO]; · (iexists _; iexact HO)
  isplitl [Hat21]; · iexact Hat21
  iexact Hown1

/-! ## Part 12: own chunk 1 goes on three ways -/

set_option maxRecDepth 65536 in
set_option maxHeartbeats 4000000 in
theorem part_12 (c : Dev nD) (K : Dev nD × Fin 86 → ℕ) (v2 v5 v8 v9 v11 v25 v47 v365 : BitVec 32) (W : Waits sig Unit)
    (f1 : Buf (Elt F) ((sl CM (xinOff (xn c) 1) (xinLen 1) (xin_inb (xn c) 1)).view.loc (xn c : Thread nD τ)))
    (f2 : Buf (Elt F) ((sl CM (yinOff (yn c) 1) (yinLen 1) (yin_inb (yn c) 1)).view.loc (yn c : Thread nD τ)))
    (fd3 : Buf (Elt F) ((sl OU (othb c + ownOff c 1) (ownLen 1) (oown_inb c 1)).view.loc (c : Thread nD τ))) :
    iprop(records m K ∗ levAts L lv
        ∗ pts c CM (ownOff c 1) (ownLen 1) (own_inb c 1) fullShare (commV m c)
        ∗ pts (xn c) CM (xinOff (xn c) 1) (xinLen 1) (xin_inb (xn c) 1) fullShare f1
        ∗ owes (c : Thread nD τ) (owedAfter c 13) W
        ∗ dutyTok ER (dcell c 29 (by decide)) 0 0
        ∗ dutyTok ER (dcell (xn c) 37 (by decide)) 0 0
        ∗ pts (yn c) CM (yinOff (yn c) 1) (yinLen 1) (yin_inb (yn c) 1) fullShare f2
        ∗ dutyTok ER (dcell c 45 (by decide)) 0 0
        ∗ dutyTok ER (dcell (yn c) 53 (by decide)) 0 0
        ∗ pts c OU (othb c + ownOff c 1) (ownLen 1) (oown_inb c 1) fullShare fd3
        ∗ dutyTok ER (dcell c 61 (by decide)) 0 0)
      ⊢ wp frame (wpE (defs₀ (F := F)) 𝒱₀ (c : Thread nD τ) none) Set.univ
          (k0_part12 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v11 v25 v47 v365)
          (fun _ => iprop(cred (tallyAt (dcell c 29 (by decide)) () (damt 29))
            ∗ cred (tallyAt (dcell c 45 (by decide)) () (damt 45))
            ∗ cred (tallyAt (dcell c 61 (by decide)) () (damt 61))
            ∗ (∃ W', owes (c : Thread nD τ) (owedAfter c 15) W'))) := by
  simp only [k0_part12_eq_skeleton]; unfold k0_part12_skel
  simp only [Prog.lift, Prog.bind_op, Prog.bind_ret, Prog.pure_eq_ret, Prog.bind_assoc]
  iintro ⟨#Hrec, #Hlev, Hown1, Hnx1, HO, Tsx1, Trx1, Hny1, Tsy1, Try1, Hdlz1, Tllz1⟩
  ihave Hs := (pb_pts_halves c CM _ _ _ fullShare (commV m c)).1 $$ Hown1
  icases Hs with ⟨Hown1L, Hown1R⟩
  -- the x-forward 1
  ihave Hsrc := (pb_pts_re (F := F) c CM (o := ownOff c 1) (o' := xinOff (xn c) 1) (r := ownLen 1) (r' := xinLen 1) (q := sL) (q' := sL)
    (by rw [(pb_xsrc c).2.1]; rfl) rfl rfl (own_inb c 1) (xin_inb (xn c) 1) (commV m c)) $$ Hown1L
  iapply (step_send' m c (xn c) CM CM (xinOff (xn c) 1) (xinOff (xn c) 1) (xinLen 1) (xin_inb (xn c) 1) (xin_inb (xn c) 1) 29 37 (pb_lt85 rfl) (pb_lt85 rfl)
    (sL) (commV m c) f1 (k0_off2 c) (k0_off2 c) (by rw [off2_eq, (pb_xsrc c).2.1]) (by rw [off2_eq, (pb_xsrc c).2.1]) _ _ rfl rfl _ (dev14_eq c)
    (κ₁ := K (c, ⟨29, by omega⟩)) (κ₂ := K (xn c, ⟨37, by omega⟩))
    (owedAfter c 13) (owedAfter c 14) W rfl (credit_xr _ 1 _) (pb_damt_xs_xr 1) (pay_xs m c 1) (pay_xr m c 1 f1)) $$ [Hsrc Hnx1 HO Tsx1 Trx1]
  · isplitr; · first | (iapply (inv_dma m K c 29 (pb_lt85 rfl)); iexact Hrec) | iapply (inv_dma m K c 29 (pb_lt85 rfl))
    isplitr; · first | (iapply (inv_dma m K (xn c) 37 (pb_lt85 rfl)); iexact Hrec) | iapply (inv_dma m K (xn c) 37 (pb_lt85 rfl))
    isplitl [Hsrc]; · iexact Hsrc
    isplitl [Hnx1]; · iexact Hnx1
    isplitl [HO]; · iexact HO
    isplitl [Tsx1]; · iexact Tsx1
    isplitr; · first | (iapply (reached_dma m K c 29 (pb_lt85 rfl)); iexact Hrec) | iapply (reached_dma m K c 29 (pb_lt85 rfl))
    isplitl [Trx1]; · iexact Trx1
    first | (iapply (reached_dma m K (xn c) 37 (pb_lt85 rfl)); iexact Hrec) | iapply (reached_dma m K (xn c) 37 (pb_lt85 rfl))
  iintro ⟨Hc29, HO⟩
  ihave Hc29 := (pb_cred_amt (F := F) (dcell c 29 (pb_lt85 rfl)) (show damt 37 = damt 29 from (pb_damt_xs_xr 1).symm)) $$ Hc29
  ihave Hs := (pb_pts_halves c CM _ _ _ sR (commV m c)).1 $$ Hown1R
  icases Hs with ⟨Hown1RL, Hown1RR⟩
  -- the y-forward 1
  ihave Hsrc := (pb_pts_re (F := F) c CM (o := ownOff c 1) (o' := yinOff (yn c) 1) (r := ownLen 1) (r' := yinLen 1) (q := sRL) (q' := qys 1)
    (by rw [(pb_ysrc c).2.1]; rfl) rfl rfl (own_inb c 1) (yin_inb (yn c) 1) (commV m c)) $$ Hown1RL
  iapply (step_send' m c (yn c) CM CM (yinOff (yn c) 1) (yinOff (yn c) 1) (yinLen 1) (yin_inb (yn c) 1) (yin_inb (yn c) 1) 45 53 (pb_lt85 rfl) (pb_lt85 rfl)
    (qys 1) (commV m c) f2 (k0_off2 c) (k0_off2 c) (by rw [off2_eq, (pb_ysrc c).2.1]) (by rw [off2_eq, (pb_ysrc c).2.1]) _ _ rfl rfl _ (dev15_eq c)
    (κ₁ := K (c, ⟨45, by omega⟩)) (κ₂ := K (yn c, ⟨53, by omega⟩))
    (owedAfter c 14) (owedAfter c 15) W rfl (credit_yr _ 1 _) (pb_damt_ys_yr 1) (pay_ys m c 1) (pay_yr m c 1 f2)) $$ [Hsrc Hny1 HO Tsy1 Try1]
  · isplitr; · first | (iapply (inv_dma m K c 45 (pb_lt85 rfl)); iexact Hrec) | iapply (inv_dma m K c 45 (pb_lt85 rfl))
    isplitr; · first | (iapply (inv_dma m K (yn c) 53 (pb_lt85 rfl)); iexact Hrec) | iapply (inv_dma m K (yn c) 53 (pb_lt85 rfl))
    isplitl [Hsrc]; · iexact Hsrc
    isplitl [Hny1]; · iexact Hny1
    isplitl [HO]; · iexact HO
    isplitl [Tsy1]; · iexact Tsy1
    isplitr; · first | (iapply (reached_dma m K c 45 (pb_lt85 rfl)); iexact Hrec) | iapply (reached_dma m K c 45 (pb_lt85 rfl))
    isplitl [Try1]; · iexact Try1
    first | (iapply (reached_dma m K (yn c) 53 (pb_lt85 rfl)); iexact Hrec) | iapply (reached_dma m K (yn c) 53 (pb_lt85 rfl))
  iintro ⟨Hc45, HO⟩
  ihave Hc45 := (pb_cred_amt (F := F) (dcell c 45 (pb_lt85 rfl)) (show damt 53 = damt 45 from (pb_damt_ys_yr 1).symm)) $$ Hc45
  -- the copy lz 1 to the result
  ihave Hsrc := (pb_pts_re (F := F) c CM (o := ownOff c 1) (o' := ownOff c 1) (r := ownLen 1) (r' := ownLen 1) (q := sRR) (q' := qlz 1)
    rfl rfl rfl (own_inb c 1) (own_inb c 1) (commV m c)) $$ Hown1RR
  iapply (step_copy' m c CM OU (ownOff c 1) (othb c + ownOff c 1) (ownLen 1) (own_inb c 1) (oown_inb c 1) 61 (pb_lt85 rfl) (qlz 1) (commV m c) fd3
    (k0_off2 c) (k0_off22 c) (by rw [off2_eq]; rfl) (by first | (rw [off22_eq, Nat.add_assoc]; rfl) | (rw [off22_eq]; rfl)) _ rfl
    (κ := K (c, ⟨61, by omega⟩)) (credit_lz _ 1 _) (pay_lz m c 1 fd3)) $$ [Hsrc Hdlz1 Tllz1]
  · isplitr; · first | (iapply (inv_dma m K c 61 (pb_lt85 rfl)); iexact Hrec) | iapply (inv_dma m K c 61 (pb_lt85 rfl))
    isplitl [Hsrc]; · iexact Hsrc
    isplitl [Hdlz1]; · iexact Hdlz1
    isplitl [Tllz1]; · iexact Tllz1
    first | (iapply (reached_dma m K c 61 (pb_lt85 rfl)); iexact Hrec) | iapply (reached_dma m K c 61 (pb_lt85 rfl))
  iintro Hc61
  rw [wp_ret]; imodintro
  isplitl [Hc29]; · iexact Hc29
  isplitl [Hc45]; · iexact Hc45
  isplitl [Hc61]; · iexact Hc61
  iexists _; iexact HO

/-! ## Part 13: the y-arrival 0 lands, is copied and sent on to the x-neighbour; own chunk 2 lands -/

set_option maxRecDepth 65536 in
set_option maxHeartbeats 4000000 in
theorem part_13 (c : Dev nD) (K : Dev nD × Fin 86 → ℕ) (v2 v5 v8 v9 v10 v25 v36 : BitVec 32) (W : Waits sig Unit)
    (fd1 : Buf (Elt F) ((sl OU (othb c + yinOff c 0) (yinLen 0) (oyin_inb c 0)).view.loc (c : Thread nD τ)))
    (f2 : Buf (Elt F) ((sl CM (xinOff (xn c) 6) (xinLen 6) (xin_inb (xn c) 6)).view.loc (xn c : Thread nD τ))) :
    iprop(records m K ∗ levAts L lv
        ∗ cred (tallyAt (dcell c 52 (by decide)) () (damt 52))
        ∗ owes (c : Thread nD τ) (owedAfter c 15) W
        ∗ atPos ER (dcell c 52 (by decide)) 0 ∅ 0
        ∗ pts c OU (othb c + yinOff c 0) (yinLen 0) (oyin_inb c 0) fullShare fd1
        ∗ dutyTok ER (dcell c 76 (by decide)) 0 0
        ∗ pts (xn c) CM (xinOff (xn c) 6) (xinLen 6) (xin_inb (xn c) 6) fullShare f2
        ∗ dutyTok ER (dcell c 34 (by decide)) 0 0
        ∗ dutyTok ER (dcell (xn c) 42 (by decide)) 0 0
        ∗ cred (tallyAt (dcell c 22 (by decide)) () (damt 22))
        ∗ atPos ER (dcell c 22 (by decide)) 0 ∅ 0)
      ⊢ wp frame (wpE (defs₀ (F := F)) 𝒱₀ (c : Thread nD τ) none) Set.univ
          (k0_part13 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v25 v36)
          (fun _ => iprop(cred (tallyAt (dcell c 76 (by decide)) () (damt 76))
            ∗ cred (tallyAt (dcell c 34 (by decide)) () (damt 34))
            ∗ (∃ W', owes (c : Thread nD τ) (owedAfter c 16) W')
            ∗ atPos ER (dcell c 52 (by decide)) 1 ∅ 0
            ∗ atPos ER (dcell c 22 (by decide)) 1 ∅ 0
            ∗ pts c CM (ownOff c 2) (ownLen 2) (own_inb c 2) fullShare (commV m c))) := by
  simp only [k0_part13_eq_skeleton]; unfold k0_part13_skel
  simp only [Prog.lift, Prog.bind_op, Prog.bind_ret, Prog.pure_eq_ret, Prog.bind_assoc]
  iintro ⟨#Hrec, #Hlev, Hcr52, HO, Hat52, Hdly0, Tlly0, Hnx6, Tsx6, Trx6, Hcr22, Hat22⟩
  -- the wait on yr 0
  iapply (step_wait' m c 52 (pb_lt85 rfl) _ rfl (κ := K (c, ⟨52, by omega⟩)) (owedAfter c 15) W
    ((credit_rect CM 112 _ _ _ 0 (by decide)).trans (credit_yr 0 0 (by decide)))) $$ [Hcr52 HO Hat52]
  · isplitr; · first | (iapply (inv_dma m K c 52 (pb_lt85 rfl)); iexact Hrec) | iapply (inv_dma m K c 52 (pb_lt85 rfl))
    isplitl [Hcr52]; · iexact Hcr52
    isplitl [HO]; · iexact HO
    isplitr; · first | (iapply (pb_mw_52_15 (F := F) c); iexact Hlev) | iapply (pb_mw_52_15 (F := F) c)
    iexact Hat52
  rw [pb_dpay_yr' m c 0 52 rfl]
  iintro ⟨HO, Hat52, -, Hyin0⟩
  ihave Hs := (pb_pts_halves c CM _ _ _ fullShare (commV m c)).1 $$ Hyin0
  icases Hs with ⟨Hyin0L, Hyin0R⟩
  -- the copy ly 0 to the result
  ihave Hsrc := (pb_pts_re (F := F) c CM (o := yinOff c 0) (o' := yinOff c 0) (r := yinLen 0) (r' := yinLen 0) (q := sR) (q' := qly 0)
    rfl rfl rfl (yin_inb c 0) (yin_inb c 0) (commV m c)) $$ Hyin0R
  iapply (step_copy' m c CM OU (yinOff c 0) (othb c + yinOff c 0) (yinLen 0) (yin_inb c 0) (oyin_inb c 0) 76 (pb_lt85 rfl) (qly 0) (commV m c) fd1
    (k0_off23 c) (k0_off24 c) (by rw [off23_eq]; rfl) (by first | (rw [off24_eq, Nat.add_assoc]; rfl) | (rw [off24_eq]; rfl)) _ rfl
    (κ := K (c, ⟨76, by omega⟩)) (credit_ly _ 0 _) (pay_ly m c 0 fd1)) $$ [Hsrc Hdly0 Tlly0]
  · isplitr; · first | (iapply (inv_dma m K c 76 (pb_lt85 rfl)); iexact Hrec) | iapply (inv_dma m K c 76 (pb_lt85 rfl))
    isplitl [Hsrc]; · iexact Hsrc
    isplitl [Hdly0]; · iexact Hdly0
    isplitl [Tlly0]; · iexact Tlly0
    first | (iapply (reached_dma m K c 76 (pb_lt85 rfl)); iexact Hrec) | iapply (reached_dma m K c 76 (pb_lt85 rfl))
  iintro Hc76
  -- the x-forward 6
  ihave Hsrc := (pb_pts_re (F := F) c CM (o := yinOff c 0) (o' := xinOff (xn c) 6) (r := yinLen 0) (r' := xinLen 6) (q := sL) (q' := sL)
    (by rw [(pb_xsrc c).2.2.2.2.2.2.1]; rfl) rfl rfl (yin_inb c 0) (xin_inb (xn c) 6) (commV m c)) $$ Hyin0L
  iapply (step_send' m c (xn c) CM CM (xinOff (xn c) 6) (xinOff (xn c) 6) (xinLen 6) (xin_inb (xn c) 6) (xin_inb (xn c) 6) 34 42 (pb_lt85 rfl) (pb_lt85 rfl)
    (sL) (commV m c) f2 (k0_off23 c) (k0_off23 c) (by rw [off23_eq, (pb_xsrc c).2.2.2.2.2.2.1]) (by rw [off23_eq, (pb_xsrc c).2.2.2.2.2.2.1]) _ _ rfl rfl _ (dev16_eq c)
    (κ₁ := K (c, ⟨34, by omega⟩)) (κ₂ := K (xn c, ⟨42, by omega⟩))
    (owedAfter c 15) (owedAfter c 16) (insert (SemLoc.dma ⟨52, pb_lt85 rfl⟩, ()) W) rfl (credit_xr _ 6 _) (pb_damt_xs_xr 6) (pay_xs m c 6) (pay_xr m c 6 f2)) $$ [Hsrc Hnx6 HO Tsx6 Trx6]
  · isplitr; · first | (iapply (inv_dma m K c 34 (pb_lt85 rfl)); iexact Hrec) | iapply (inv_dma m K c 34 (pb_lt85 rfl))
    isplitr; · first | (iapply (inv_dma m K (xn c) 42 (pb_lt85 rfl)); iexact Hrec) | iapply (inv_dma m K (xn c) 42 (pb_lt85 rfl))
    isplitl [Hsrc]; · iexact Hsrc
    isplitl [Hnx6]; · iexact Hnx6
    isplitl [HO]; · iexact HO
    isplitl [Tsx6]; · iexact Tsx6
    isplitr; · first | (iapply (reached_dma m K c 34 (pb_lt85 rfl)); iexact Hrec) | iapply (reached_dma m K c 34 (pb_lt85 rfl))
    isplitl [Trx6]; · iexact Trx6
    first | (iapply (reached_dma m K (xn c) 42 (pb_lt85 rfl)); iexact Hrec) | iapply (reached_dma m K (xn c) 42 (pb_lt85 rfl))
  iintro ⟨Hc34, HO⟩
  ihave Hc34 := (pb_cred_amt (F := F) (dcell c 34 (pb_lt85 rfl)) (show damt 42 = damt 34 from (pb_damt_xs_xr 6).symm)) $$ Hc34
  -- the wait on zr 2
  iapply (step_wait' m c 22 (pb_lt85 rfl) _ rfl (κ := K (c, ⟨22, by omega⟩)) (owedAfter c 16) (insert (SemLoc.dma ⟨52, pb_lt85 rfl⟩, ()) W)
    ((credit_rect CM 168 _ _ _ 0 (by decide)).trans (credit_zr 0 2 (by decide)))) $$ [Hcr22 HO Hat22]
  · isplitr; · first | (iapply (inv_dma m K c 22 (pb_lt85 rfl)); iexact Hrec) | iapply (inv_dma m K c 22 (pb_lt85 rfl))
    isplitl [Hcr22]; · iexact Hcr22
    isplitl [HO]; · iexact HO
    isplitr; · first | (iapply (pb_mw_22_16 (F := F) c); iexact Hlev) | iapply (pb_mw_22_16 (F := F) c)
    iexact Hat22
  rw [pb_dpay_zr' m c 2 22 rfl]
  iintro ⟨HO, Hat22, -, Hown2⟩
  rw [wp_ret]; imodintro
  isplitl [Hc76]; · iexact Hc76
  isplitl [Hc34]; · iexact Hc34
  isplitl [HO]; · (iexists _; iexact HO)
  isplitl [Hat52]; · iexact Hat52
  isplitl [Hat22]; · iexact Hat22
  iexact Hown2

/-! ## Part 14: own chunk 2 goes on three ways -/

set_option maxRecDepth 65536 in
set_option maxHeartbeats 4000000 in
theorem part_14 (c : Dev nD) (K : Dev nD × Fin 86 → ℕ) (v2 v5 v8 v9 v11 v25 v48 v431 c0_i32_270 : BitVec 32) (W : Waits sig Unit)
    (f1 : Buf (Elt F) ((sl CM (xinOff (xn c) 2) (xinLen 2) (xin_inb (xn c) 2)).view.loc (xn c : Thread nD τ)))
    (f2 : Buf (Elt F) ((sl CM (yinOff (yn c) 2) (yinLen 2) (yin_inb (yn c) 2)).view.loc (yn c : Thread nD τ)))
    (fd3 : Buf (Elt F) ((sl OU (othb c + ownOff c 2) (ownLen 2) (oown_inb c 2)).view.loc (c : Thread nD τ))) :
    iprop(records m K ∗ levAts L lv
        ∗ pts c CM (ownOff c 2) (ownLen 2) (own_inb c 2) fullShare (commV m c)
        ∗ pts (xn c) CM (xinOff (xn c) 2) (xinLen 2) (xin_inb (xn c) 2) fullShare f1
        ∗ owes (c : Thread nD τ) (owedAfter c 16) W
        ∗ dutyTok ER (dcell c 30 (by decide)) 0 0
        ∗ dutyTok ER (dcell (xn c) 38 (by decide)) 0 0
        ∗ pts (yn c) CM (yinOff (yn c) 2) (yinLen 2) (yin_inb (yn c) 2) fullShare f2
        ∗ dutyTok ER (dcell c 46 (by decide)) 0 0
        ∗ dutyTok ER (dcell (yn c) 54 (by decide)) 0 0
        ∗ pts c OU (othb c + ownOff c 2) (ownLen 2) (oown_inb c 2) fullShare fd3
        ∗ dutyTok ER (dcell c 62 (by decide)) 0 0)
      ⊢ wp frame (wpE (defs₀ (F := F)) 𝒱₀ (c : Thread nD τ) none) Set.univ
          (k0_part14 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v11 v25 v48 v431 c0_i32_270)
          (fun _ => iprop(cred (tallyAt (dcell c 30 (by decide)) () (damt 30))
            ∗ cred (tallyAt (dcell c 46 (by decide)) () (damt 46))
            ∗ cred (tallyAt (dcell c 62 (by decide)) () (damt 62))
            ∗ (∃ W', owes (c : Thread nD τ) (owedAfter c 18) W'))) := by
  simp only [k0_part14_eq_skeleton]; unfold k0_part14_skel
  simp only [Prog.lift, Prog.bind_op, Prog.bind_ret, Prog.pure_eq_ret, Prog.bind_assoc]
  iintro ⟨#Hrec, #Hlev, Hown2, Hnx2, HO, Tsx2, Trx2, Hny2, Tsy2, Try2, Hdlz2, Tllz2⟩
  ihave Hs := (pb_pts_halves c CM _ _ _ fullShare (commV m c)).1 $$ Hown2
  icases Hs with ⟨Hown2L, Hown2R⟩
  -- the x-forward 2
  ihave Hsrc := (pb_pts_re (F := F) c CM (o := ownOff c 2) (o' := xinOff (xn c) 2) (r := ownLen 2) (r' := xinLen 2) (q := sL) (q' := sL)
    (by rw [(pb_xsrc c).2.2.1]; rfl) rfl rfl (own_inb c 2) (xin_inb (xn c) 2) (commV m c)) $$ Hown2L
  iapply (step_send' m c (xn c) CM CM (xinOff (xn c) 2) (xinOff (xn c) 2) (xinLen 2) (xin_inb (xn c) 2) (xin_inb (xn c) 2) 30 38 (pb_lt85 rfl) (pb_lt85 rfl)
    (sL) (commV m c) f1 (k0_off3 c) (k0_off3 c) (by rw [off3_eq, (pb_xsrc c).2.2.1]) (by rw [off3_eq, (pb_xsrc c).2.2.1]) _ _ rfl rfl _ (dev17_eq c)
    (κ₁ := K (c, ⟨30, by omega⟩)) (κ₂ := K (xn c, ⟨38, by omega⟩))
    (owedAfter c 16) (owedAfter c 17) W rfl (credit_xr _ 2 _) (pb_damt_xs_xr 2) (pay_xs m c 2) (pay_xr m c 2 f1)) $$ [Hsrc Hnx2 HO Tsx2 Trx2]
  · isplitr; · first | (iapply (inv_dma m K c 30 (pb_lt85 rfl)); iexact Hrec) | iapply (inv_dma m K c 30 (pb_lt85 rfl))
    isplitr; · first | (iapply (inv_dma m K (xn c) 38 (pb_lt85 rfl)); iexact Hrec) | iapply (inv_dma m K (xn c) 38 (pb_lt85 rfl))
    isplitl [Hsrc]; · iexact Hsrc
    isplitl [Hnx2]; · iexact Hnx2
    isplitl [HO]; · iexact HO
    isplitl [Tsx2]; · iexact Tsx2
    isplitr; · first | (iapply (reached_dma m K c 30 (pb_lt85 rfl)); iexact Hrec) | iapply (reached_dma m K c 30 (pb_lt85 rfl))
    isplitl [Trx2]; · iexact Trx2
    first | (iapply (reached_dma m K (xn c) 38 (pb_lt85 rfl)); iexact Hrec) | iapply (reached_dma m K (xn c) 38 (pb_lt85 rfl))
  iintro ⟨Hc30, HO⟩
  ihave Hc30 := (pb_cred_amt (F := F) (dcell c 30 (pb_lt85 rfl)) (show damt 38 = damt 30 from (pb_damt_xs_xr 2).symm)) $$ Hc30
  ihave Hs := (pb_pts_halves c CM _ _ _ sR (commV m c)).1 $$ Hown2R
  icases Hs with ⟨Hown2RL, Hown2RR⟩
  -- the y-forward 2
  ihave Hsrc := (pb_pts_re (F := F) c CM (o := ownOff c 2) (o' := yinOff (yn c) 2) (r := ownLen 2) (r' := yinLen 2) (q := sRL) (q' := qys 2)
    (by rw [(pb_ysrc c).2.2.1]; rfl) rfl rfl (own_inb c 2) (yin_inb (yn c) 2) (commV m c)) $$ Hown2RL
  iapply (step_send' m c (yn c) CM CM (yinOff (yn c) 2) (yinOff (yn c) 2) (yinLen 2) (yin_inb (yn c) 2) (yin_inb (yn c) 2) 46 54 (pb_lt85 rfl) (pb_lt85 rfl)
    (qys 2) (commV m c) f2 (k0_off3 c) (k0_off3 c) (by rw [off3_eq, (pb_ysrc c).2.2.1]) (by rw [off3_eq, (pb_ysrc c).2.2.1]) _ _ rfl rfl _ (dev18_eq c)
    (κ₁ := K (c, ⟨46, by omega⟩)) (κ₂ := K (yn c, ⟨54, by omega⟩))
    (owedAfter c 17) (owedAfter c 18) W rfl (credit_yr _ 2 _) (pb_damt_ys_yr 2) (pay_ys m c 2) (pay_yr m c 2 f2)) $$ [Hsrc Hny2 HO Tsy2 Try2]
  · isplitr; · first | (iapply (inv_dma m K c 46 (pb_lt85 rfl)); iexact Hrec) | iapply (inv_dma m K c 46 (pb_lt85 rfl))
    isplitr; · first | (iapply (inv_dma m K (yn c) 54 (pb_lt85 rfl)); iexact Hrec) | iapply (inv_dma m K (yn c) 54 (pb_lt85 rfl))
    isplitl [Hsrc]; · iexact Hsrc
    isplitl [Hny2]; · iexact Hny2
    isplitl [HO]; · iexact HO
    isplitl [Tsy2]; · iexact Tsy2
    isplitr; · first | (iapply (reached_dma m K c 46 (pb_lt85 rfl)); iexact Hrec) | iapply (reached_dma m K c 46 (pb_lt85 rfl))
    isplitl [Try2]; · iexact Try2
    first | (iapply (reached_dma m K (yn c) 54 (pb_lt85 rfl)); iexact Hrec) | iapply (reached_dma m K (yn c) 54 (pb_lt85 rfl))
  iintro ⟨Hc46, HO⟩
  ihave Hc46 := (pb_cred_amt (F := F) (dcell c 46 (pb_lt85 rfl)) (show damt 54 = damt 46 from (pb_damt_ys_yr 2).symm)) $$ Hc46
  -- the copy lz 2 to the result
  ihave Hsrc := (pb_pts_re (F := F) c CM (o := ownOff c 2) (o' := ownOff c 2) (r := ownLen 2) (r' := ownLen 2) (q := sRR) (q' := qlz 2)
    rfl rfl rfl (own_inb c 2) (own_inb c 2) (commV m c)) $$ Hown2RR
  iapply (step_copy' m c CM OU (ownOff c 2) (othb c + ownOff c 2) (ownLen 2) (own_inb c 2) (oown_inb c 2) 62 (pb_lt85 rfl) (qlz 2) (commV m c) fd3
    (k0_off3 c) (k0_off25 c) (by rw [off3_eq]; rfl) (by first | (rw [off25_eq, Nat.add_assoc]; rfl) | (rw [off25_eq]; rfl)) _ rfl
    (κ := K (c, ⟨62, by omega⟩)) (credit_lz _ 2 _) (pay_lz m c 2 fd3)) $$ [Hsrc Hdlz2 Tllz2]
  · isplitr; · first | (iapply (inv_dma m K c 62 (pb_lt85 rfl)); iexact Hrec) | iapply (inv_dma m K c 62 (pb_lt85 rfl))
    isplitl [Hsrc]; · iexact Hsrc
    isplitl [Hdlz2]; · iexact Hdlz2
    isplitl [Tllz2]; · iexact Tllz2
    first | (iapply (reached_dma m K c 62 (pb_lt85 rfl)); iexact Hrec) | iapply (reached_dma m K c 62 (pb_lt85 rfl))
  iintro Hc62
  rw [wp_ret]; imodintro
  isplitl [Hc30]; · iexact Hc30
  isplitl [Hc46]; · iexact Hc46
  isplitl [Hc62]; · iexact Hc62
  iexists _; iexact HO

/-! ## Part 15: own chunk 3 lands and goes on three ways -/

set_option maxRecDepth 65536 in
set_option maxHeartbeats 4000000 in
theorem part_15 (c : Dev nD) (K : Dev nD × Fin 86 → ℕ) (v2 v5 v8 v10 v11 v25 v49 : BitVec 32) (W : Waits sig Unit)
    (f1 : Buf (Elt F) ((sl CM (xinOff (xn c) 3) (xinLen 3) (xin_inb (xn c) 3)).view.loc (xn c : Thread nD τ)))
    (f2 : Buf (Elt F) ((sl CM (yinOff (yn c) 3) (yinLen 3) (yin_inb (yn c) 3)).view.loc (yn c : Thread nD τ)))
    (fd3 : Buf (Elt F) ((sl OU (othb c + ownOff c 3) (ownLen 3) (oown_inb c 3)).view.loc (c : Thread nD τ))) :
    iprop(records m K ∗ levAts L lv
        ∗ cred (tallyAt (dcell c 23 (by decide)) () (damt 23))
        ∗ owes (c : Thread nD τ) (owedAfter c 18) W
        ∗ atPos ER (dcell c 23 (by decide)) 0 ∅ 0
        ∗ pts (xn c) CM (xinOff (xn c) 3) (xinLen 3) (xin_inb (xn c) 3) fullShare f1
        ∗ dutyTok ER (dcell c 31 (by decide)) 0 0
        ∗ dutyTok ER (dcell (xn c) 39 (by decide)) 0 0
        ∗ pts (yn c) CM (yinOff (yn c) 3) (yinLen 3) (yin_inb (yn c) 3) fullShare f2
        ∗ dutyTok ER (dcell c 47 (by decide)) 0 0
        ∗ dutyTok ER (dcell (yn c) 55 (by decide)) 0 0
        ∗ pts c OU (othb c + ownOff c 3) (ownLen 3) (oown_inb c 3) fullShare fd3
        ∗ dutyTok ER (dcell c 63 (by decide)) 0 0)
      ⊢ wp frame (wpE (defs₀ (F := F)) 𝒱₀ (c : Thread nD τ) none) Set.univ
          (k0_part15 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v10 v11 v25 v49)
          (fun _ => iprop(cred (tallyAt (dcell c 31 (by decide)) () (damt 31))
            ∗ cred (tallyAt (dcell c 47 (by decide)) () (damt 47))
            ∗ cred (tallyAt (dcell c 63 (by decide)) () (damt 63))
            ∗ (∃ W', owes (c : Thread nD τ) (owedAfter c 20) W')
            ∗ atPos ER (dcell c 23 (by decide)) 1 ∅ 0)) := by
  simp only [k0_part15_eq_skeleton]; unfold k0_part15_skel
  simp only [Prog.lift, Prog.bind_op, Prog.bind_ret, Prog.pure_eq_ret, Prog.bind_assoc]
  iintro ⟨#Hrec, #Hlev, Hcr23, HO, Hat23, Hnx3, Tsx3, Trx3, Hny3, Tsy3, Try3, Hdlz3, Tllz3⟩
  -- the wait on zr 3
  iapply (step_wait' m c 23 (pb_lt85 rfl) _ rfl (κ := K (c, ⟨23, by omega⟩)) (owedAfter c 18) W
    ((credit_rect CM 168 _ _ _ 0 (by decide)).trans (credit_zr 0 3 (by decide)))) $$ [Hcr23 HO Hat23]
  · isplitr; · first | (iapply (inv_dma m K c 23 (pb_lt85 rfl)); iexact Hrec) | iapply (inv_dma m K c 23 (pb_lt85 rfl))
    isplitl [Hcr23]; · iexact Hcr23
    isplitl [HO]; · iexact HO
    isplitr; · first | (iapply (pb_mw_23_18 (F := F) c); iexact Hlev) | iapply (pb_mw_23_18 (F := F) c)
    iexact Hat23
  rw [pb_dpay_zr' m c 3 23 rfl]
  iintro ⟨HO, Hat23, -, Hown3⟩
  ihave Hs := (pb_pts_halves c CM _ _ _ fullShare (commV m c)).1 $$ Hown3
  icases Hs with ⟨Hown3L, Hown3R⟩
  -- the x-forward 3
  ihave Hsrc := (pb_pts_re (F := F) c CM (o := ownOff c 3) (o' := xinOff (xn c) 3) (r := ownLen 3) (r' := xinLen 3) (q := sL) (q' := sL)
    (by rw [(pb_xsrc c).2.2.2.1]; rfl) rfl rfl (own_inb c 3) (xin_inb (xn c) 3) (commV m c)) $$ Hown3L
  iapply (step_send' m c (xn c) CM CM (xinOff (xn c) 3) (xinOff (xn c) 3) (xinLen 3) (xin_inb (xn c) 3) (xin_inb (xn c) 3) 31 39 (pb_lt85 rfl) (pb_lt85 rfl)
    (sL) (commV m c) f1 (k0_off4 c) (k0_off4 c) (by rw [off4_eq, (pb_xsrc c).2.2.2.1]) (by rw [off4_eq, (pb_xsrc c).2.2.2.1]) _ _ rfl rfl _ (dev19_eq c)
    (κ₁ := K (c, ⟨31, by omega⟩)) (κ₂ := K (xn c, ⟨39, by omega⟩))
    (owedAfter c 18) (owedAfter c 19) (insert (SemLoc.dma ⟨23, pb_lt85 rfl⟩, ()) W) rfl (credit_xr _ 3 _) (pb_damt_xs_xr 3) (pay_xs m c 3) (pay_xr m c 3 f1)) $$ [Hsrc Hnx3 HO Tsx3 Trx3]
  · isplitr; · first | (iapply (inv_dma m K c 31 (pb_lt85 rfl)); iexact Hrec) | iapply (inv_dma m K c 31 (pb_lt85 rfl))
    isplitr; · first | (iapply (inv_dma m K (xn c) 39 (pb_lt85 rfl)); iexact Hrec) | iapply (inv_dma m K (xn c) 39 (pb_lt85 rfl))
    isplitl [Hsrc]; · iexact Hsrc
    isplitl [Hnx3]; · iexact Hnx3
    isplitl [HO]; · iexact HO
    isplitl [Tsx3]; · iexact Tsx3
    isplitr; · first | (iapply (reached_dma m K c 31 (pb_lt85 rfl)); iexact Hrec) | iapply (reached_dma m K c 31 (pb_lt85 rfl))
    isplitl [Trx3]; · iexact Trx3
    first | (iapply (reached_dma m K (xn c) 39 (pb_lt85 rfl)); iexact Hrec) | iapply (reached_dma m K (xn c) 39 (pb_lt85 rfl))
  iintro ⟨Hc31, HO⟩
  ihave Hc31 := (pb_cred_amt (F := F) (dcell c 31 (pb_lt85 rfl)) (show damt 39 = damt 31 from (pb_damt_xs_xr 3).symm)) $$ Hc31
  ihave Hs := (pb_pts_halves c CM _ _ _ sR (commV m c)).1 $$ Hown3R
  icases Hs with ⟨Hown3RL, Hown3RR⟩
  -- the y-forward 3
  ihave Hsrc := (pb_pts_re (F := F) c CM (o := ownOff c 3) (o' := yinOff (yn c) 3) (r := ownLen 3) (r' := yinLen 3) (q := sRL) (q' := qys 3)
    (by rw [(pb_ysrc c).2.2.2.1]; rfl) rfl rfl (own_inb c 3) (yin_inb (yn c) 3) (commV m c)) $$ Hown3RL
  iapply (step_send' m c (yn c) CM CM (yinOff (yn c) 3) (yinOff (yn c) 3) (yinLen 3) (yin_inb (yn c) 3) (yin_inb (yn c) 3) 47 55 (pb_lt85 rfl) (pb_lt85 rfl)
    (qys 3) (commV m c) f2 (k0_off4 c) (k0_off4 c) (by rw [off4_eq, (pb_ysrc c).2.2.2.1]) (by rw [off4_eq, (pb_ysrc c).2.2.2.1]) _ _ rfl rfl _ (dev20_eq c)
    (κ₁ := K (c, ⟨47, by omega⟩)) (κ₂ := K (yn c, ⟨55, by omega⟩))
    (owedAfter c 19) (owedAfter c 20) (insert (SemLoc.dma ⟨23, pb_lt85 rfl⟩, ()) W) rfl (credit_yr _ 3 _) (pb_damt_ys_yr 3) (pay_ys m c 3) (pay_yr m c 3 f2)) $$ [Hsrc Hny3 HO Tsy3 Try3]
  · isplitr; · first | (iapply (inv_dma m K c 47 (pb_lt85 rfl)); iexact Hrec) | iapply (inv_dma m K c 47 (pb_lt85 rfl))
    isplitr; · first | (iapply (inv_dma m K (yn c) 55 (pb_lt85 rfl)); iexact Hrec) | iapply (inv_dma m K (yn c) 55 (pb_lt85 rfl))
    isplitl [Hsrc]; · iexact Hsrc
    isplitl [Hny3]; · iexact Hny3
    isplitl [HO]; · iexact HO
    isplitl [Tsy3]; · iexact Tsy3
    isplitr; · first | (iapply (reached_dma m K c 47 (pb_lt85 rfl)); iexact Hrec) | iapply (reached_dma m K c 47 (pb_lt85 rfl))
    isplitl [Try3]; · iexact Try3
    first | (iapply (reached_dma m K (yn c) 55 (pb_lt85 rfl)); iexact Hrec) | iapply (reached_dma m K (yn c) 55 (pb_lt85 rfl))
  iintro ⟨Hc47, HO⟩
  ihave Hc47 := (pb_cred_amt (F := F) (dcell c 47 (pb_lt85 rfl)) (show damt 55 = damt 47 from (pb_damt_ys_yr 3).symm)) $$ Hc47
  -- the copy lz 3 to the result
  ihave Hsrc := (pb_pts_re (F := F) c CM (o := ownOff c 3) (o' := ownOff c 3) (r := ownLen 3) (r' := ownLen 3) (q := sRR) (q' := qlz 3)
    rfl rfl rfl (own_inb c 3) (own_inb c 3) (commV m c)) $$ Hown3RR
  iapply (step_copy' m c CM OU (ownOff c 3) (othb c + ownOff c 3) (ownLen 3) (own_inb c 3) (oown_inb c 3) 63 (pb_lt85 rfl) (qlz 3) (commV m c) fd3
    (k0_off4 c) (k0_off26 c) (by rw [off4_eq]; rfl) (by first | (rw [off26_eq, Nat.add_assoc]; rfl) | (rw [off26_eq]; rfl)) _ rfl
    (κ := K (c, ⟨63, by omega⟩)) (credit_lz _ 3 _) (pay_lz m c 3 fd3)) $$ [Hsrc Hdlz3 Tllz3]
  · isplitr; · first | (iapply (inv_dma m K c 63 (pb_lt85 rfl)); iexact Hrec) | iapply (inv_dma m K c 63 (pb_lt85 rfl))
    isplitl [Hsrc]; · iexact Hsrc
    isplitl [Hdlz3]; · iexact Hdlz3
    isplitl [Tllz3]; · iexact Tllz3
    first | (iapply (reached_dma m K c 63 (pb_lt85 rfl)); iexact Hrec) | iapply (reached_dma m K c 63 (pb_lt85 rfl))
  iintro Hc63
  rw [wp_ret]; imodintro
  isplitl [Hc31]; · iexact Hc31
  isplitl [Hc47]; · iexact Hc47
  isplitl [Hc63]; · iexact Hc63
  isplitl [HO]; · (iexists _; iexact HO)
  iexact Hat23

/-! ## Part 16: the y-arrival 1 lands, is copied and sent on to the x-neighbour -/

set_option maxRecDepth 65536 in
set_option maxHeartbeats 4000000 in
theorem part_16 (c : Dev nD) (K : Dev nD × Fin 86 → ℕ) (v2 v5 v8 v9 v10 v25 v36 v125 v499 : BitVec 32) (W : Waits sig Unit)
    (fd1 : Buf (Elt F) ((sl OU (othb c + yinOff c 1) (yinLen 1) (oyin_inb c 1)).view.loc (c : Thread nD τ)))
    (f2 : Buf (Elt F) ((sl CM (xinOff (xn c) 7) (xinLen 7) (xin_inb (xn c) 7)).view.loc (xn c : Thread nD τ))) :
    iprop(records m K ∗ levAts L lv
        ∗ cred (tallyAt (dcell c 53 (by decide)) () (damt 53))
        ∗ owes (c : Thread nD τ) (owedAfter c 20) W
        ∗ atPos ER (dcell c 53 (by decide)) 0 ∅ 0
        ∗ pts c OU (othb c + yinOff c 1) (yinLen 1) (oyin_inb c 1) fullShare fd1
        ∗ dutyTok ER (dcell c 77 (by decide)) 0 0
        ∗ pts (xn c) CM (xinOff (xn c) 7) (xinLen 7) (xin_inb (xn c) 7) fullShare f2
        ∗ dutyTok ER (dcell c 35 (by decide)) 0 0
        ∗ dutyTok ER (dcell (xn c) 43 (by decide)) 0 0)
      ⊢ wp frame (wpE (defs₀ (F := F)) 𝒱₀ (c : Thread nD τ) none) Set.univ
          (k0_part16 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v25 v36 v125 v499)
          (fun _ => iprop(cred (tallyAt (dcell c 77 (by decide)) () (damt 77))
            ∗ cred (tallyAt (dcell c 35 (by decide)) () (damt 35))
            ∗ (∃ W', owes (c : Thread nD τ) (owedAfter c 21) W')
            ∗ atPos ER (dcell c 53 (by decide)) 1 ∅ 0)) := by
  simp only [k0_part16_eq_skeleton]; unfold k0_part16_skel
  simp only [Prog.lift, Prog.bind_op, Prog.bind_ret, Prog.pure_eq_ret, Prog.bind_assoc]
  iintro ⟨#Hrec, #Hlev, Hcr53, HO, Hat53, Hdly1, Tlly1, Hnx7, Tsx7, Trx7⟩
  -- the wait on yr 1
  iapply (step_wait' m c 53 (pb_lt85 rfl) _ rfl (κ := K (c, ⟨53, by omega⟩)) (owedAfter c 20) W
    ((credit_rect CM 224 _ _ _ 0 (by decide)).trans (credit_yr 0 1 (by decide)))) $$ [Hcr53 HO Hat53]
  · isplitr; · first | (iapply (inv_dma m K c 53 (pb_lt85 rfl)); iexact Hrec) | iapply (inv_dma m K c 53 (pb_lt85 rfl))
    isplitl [Hcr53]; · iexact Hcr53
    isplitl [HO]; · iexact HO
    isplitr; · first | (iapply (pb_mw_53_20 (F := F) c); iexact Hlev) | iapply (pb_mw_53_20 (F := F) c)
    iexact Hat53
  rw [pb_dpay_yr' m c 1 53 rfl]
  iintro ⟨HO, Hat53, -, Hyin1⟩
  ihave Hs := (pb_pts_halves c CM _ _ _ fullShare (commV m c)).1 $$ Hyin1
  icases Hs with ⟨Hyin1L, Hyin1R⟩
  -- the copy ly 1 to the result
  ihave Hsrc := (pb_pts_re (F := F) c CM (o := yinOff c 1) (o' := yinOff c 1) (r := yinLen 1) (r' := yinLen 1) (q := sR) (q' := qly 1)
    rfl rfl rfl (yin_inb c 1) (yin_inb c 1) (commV m c)) $$ Hyin1R
  iapply (step_copy' m c CM OU (yinOff c 1) (othb c + yinOff c 1) (yinLen 1) (yin_inb c 1) (oyin_inb c 1) 77 (pb_lt85 rfl) (qly 1) (commV m c) fd1
    (k0_off27 c) (k0_off28 c) (by rw [off27_eq]; rfl) (by first | (rw [off28_eq, Nat.add_assoc]; rfl) | (rw [off28_eq]; rfl)) _ rfl
    (κ := K (c, ⟨77, by omega⟩)) (credit_ly _ 1 _) (pay_ly m c 1 fd1)) $$ [Hsrc Hdly1 Tlly1]
  · isplitr; · first | (iapply (inv_dma m K c 77 (pb_lt85 rfl)); iexact Hrec) | iapply (inv_dma m K c 77 (pb_lt85 rfl))
    isplitl [Hsrc]; · iexact Hsrc
    isplitl [Hdly1]; · iexact Hdly1
    isplitl [Tlly1]; · iexact Tlly1
    first | (iapply (reached_dma m K c 77 (pb_lt85 rfl)); iexact Hrec) | iapply (reached_dma m K c 77 (pb_lt85 rfl))
  iintro Hc77
  -- the x-forward 7
  ihave Hsrc := (pb_pts_re (F := F) c CM (o := yinOff c 1) (o' := xinOff (xn c) 7) (r := yinLen 1) (r' := xinLen 7) (q := sL) (q' := sL)
    (by rw [(pb_xsrc c).2.2.2.2.2.2.2]; rfl) rfl rfl (yin_inb c 1) (xin_inb (xn c) 7) (commV m c)) $$ Hyin1L
  iapply (step_send' m c (xn c) CM CM (xinOff (xn c) 7) (xinOff (xn c) 7) (xinLen 7) (xin_inb (xn c) 7) (xin_inb (xn c) 7) 35 43 (pb_lt85 rfl) (pb_lt85 rfl)
    (sL) (commV m c) f2 (k0_off27 c) (k0_off27 c) (by rw [off27_eq, (pb_xsrc c).2.2.2.2.2.2.2]) (by rw [off27_eq, (pb_xsrc c).2.2.2.2.2.2.2]) _ _ rfl rfl _ (dev21_eq c)
    (κ₁ := K (c, ⟨35, by omega⟩)) (κ₂ := K (xn c, ⟨43, by omega⟩))
    (owedAfter c 20) (owedAfter c 21) (insert (SemLoc.dma ⟨53, pb_lt85 rfl⟩, ()) W) rfl (credit_xr _ 7 _) (pb_damt_xs_xr 7) (pay_xs m c 7) (pay_xr m c 7 f2)) $$ [Hsrc Hnx7 HO Tsx7 Trx7]
  · isplitr; · first | (iapply (inv_dma m K c 35 (pb_lt85 rfl)); iexact Hrec) | iapply (inv_dma m K c 35 (pb_lt85 rfl))
    isplitr; · first | (iapply (inv_dma m K (xn c) 43 (pb_lt85 rfl)); iexact Hrec) | iapply (inv_dma m K (xn c) 43 (pb_lt85 rfl))
    isplitl [Hsrc]; · iexact Hsrc
    isplitl [Hnx7]; · iexact Hnx7
    isplitl [HO]; · iexact HO
    isplitl [Tsx7]; · iexact Tsx7
    isplitr; · first | (iapply (reached_dma m K c 35 (pb_lt85 rfl)); iexact Hrec) | iapply (reached_dma m K c 35 (pb_lt85 rfl))
    isplitl [Trx7]; · iexact Trx7
    first | (iapply (reached_dma m K (xn c) 43 (pb_lt85 rfl)); iexact Hrec) | iapply (reached_dma m K (xn c) 43 (pb_lt85 rfl))
  iintro ⟨Hc35, HO⟩
  ihave Hc35 := (pb_cred_amt (F := F) (dcell c 35 (pb_lt85 rfl)) (show damt 43 = damt 35 from (pb_damt_xs_xr 7).symm)) $$ Hc35
  rw [wp_ret]; imodintro
  isplitl [Hc77]; · iexact Hc77
  isplitl [Hc35]; · iexact Hc35
  isplitl [HO]; · (iexists _; iexact HO)
  iexact Hat53

/-! ## Part 17: the x-arrival 2 lands, is copied and sent on to the y-neighbour; the x-arrival 3 lands -/

set_option maxRecDepth 65536 in
set_option maxHeartbeats 4000000 in
theorem part_17 (c : Dev nD) (K : Dev nD × Fin 86 → ℕ) (v2 v5 v8 v9 v11 v25 v32 v121 v122 : BitVec 32) (W : Waits sig Unit)
    (fd1 : Buf (Elt F) ((sl OU (othb c + xinOff c 2) (xinLen 2) (oxin_inb c 2)).view.loc (c : Thread nD τ)))
    (f2 : Buf (Elt F) ((sl CM (yinOff (yn c) 6) (yinLen 6) (yin_inb (yn c) 6)).view.loc (yn c : Thread nD τ))) :
    iprop(records m K ∗ levAts L lv
        ∗ cred (tallyAt (dcell c 38 (by decide)) () (damt 38))
        ∗ owes (c : Thread nD τ) (owedAfter c 21) W
        ∗ atPos ER (dcell c 38 (by decide)) 0 ∅ 0
        ∗ pts c OU (othb c + xinOff c 2) (xinLen 2) (oxin_inb c 2) fullShare fd1
        ∗ dutyTok ER (dcell c 70 (by decide)) 0 0
        ∗ pts (yn c) CM (yinOff (yn c) 6) (yinLen 6) (yin_inb (yn c) 6) fullShare f2
        ∗ dutyTok ER (dcell c 50 (by decide)) 0 0
        ∗ dutyTok ER (dcell (yn c) 58 (by decide)) 0 0
        ∗ cred (tallyAt (dcell c 39 (by decide)) () (damt 39))
        ∗ atPos ER (dcell c 39 (by decide)) 0 ∅ 0)
      ⊢ wp frame (wpE (defs₀ (F := F)) 𝒱₀ (c : Thread nD τ) none) Set.univ
          (k0_part17 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v11 v25 v32 v121 v122)
          (fun _ => iprop(cred (tallyAt (dcell c 70 (by decide)) () (damt 70))
            ∗ cred (tallyAt (dcell c 50 (by decide)) () (damt 50))
            ∗ (∃ W', owes (c : Thread nD τ) (owedAfter c 22) W')
            ∗ atPos ER (dcell c 38 (by decide)) 1 ∅ 0
            ∗ atPos ER (dcell c 39 (by decide)) 1 ∅ 0
            ∗ pts c CM (xinOff c 3) (xinLen 3) (xin_inb c 3) fullShare (commV m c))) := by
  simp only [k0_part17_eq_skeleton]; unfold k0_part17_skel
  simp only [Prog.lift, Prog.bind_op, Prog.bind_ret, Prog.pure_eq_ret, Prog.bind_assoc]
  iintro ⟨#Hrec, #Hlev, Hcr38, HO, Hat38, Hdlx2, Tllx2, Hny6, Tsy6, Try6, Hcr39, Hat39⟩
  -- the wait on xr 2
  iapply (step_wait' m c 38 (pb_lt85 rfl) _ rfl (κ := K (c, ⟨38, by omega⟩)) (owedAfter c 21) W
    ((credit_rect CM 168 _ _ _ 0 (by decide)).trans (credit_xr 0 2 (by decide)))) $$ [Hcr38 HO Hat38]
  · isplitr; · first | (iapply (inv_dma m K c 38 (pb_lt85 rfl)); iexact Hrec) | iapply (inv_dma m K c 38 (pb_lt85 rfl))
    isplitl [Hcr38]; · iexact Hcr38
    isplitl [HO]; · iexact HO
    isplitr; · first | (iapply (pb_mw_38_21 (F := F) c); iexact Hlev) | iapply (pb_mw_38_21 (F := F) c)
    iexact Hat38
  rw [pb_dpay_xr' m c 2 38 rfl]
  iintro ⟨HO, Hat38, -, Hxin2⟩
  ihave Hs := (pb_pts_halves c CM _ _ _ fullShare (commV m c)).1 $$ Hxin2
  icases Hs with ⟨Hxin2L, Hxin2R⟩
  -- the copy lx 2 to the result
  ihave Hsrc := (pb_pts_re (F := F) c CM (o := xinOff c 2) (o' := xinOff c 2) (r := xinLen 2) (r' := xinLen 2) (q := sR) (q' := qlx 2)
    rfl rfl rfl (xin_inb c 2) (xin_inb c 2) (commV m c)) $$ Hxin2R
  iapply (step_copy' m c CM OU (xinOff c 2) (othb c + xinOff c 2) (xinLen 2) (xin_inb c 2) (oxin_inb c 2) 70 (pb_lt85 rfl) (qlx 2) (commV m c) fd1
    (k0_off29 c 112#32 224#32) (k0_off30 c) (by rw [off29_1_eq]; rfl) (by first | (rw [off30_eq, Nat.add_assoc]; rfl) | (rw [off30_eq]; rfl)) _ rfl
    (κ := K (c, ⟨70, by omega⟩)) (credit_lx _ 2 _) (pay_lx m c 2 fd1)) $$ [Hsrc Hdlx2 Tllx2]
  · isplitr; · first | (iapply (inv_dma m K c 70 (pb_lt85 rfl)); iexact Hrec) | iapply (inv_dma m K c 70 (pb_lt85 rfl))
    isplitl [Hsrc]; · iexact Hsrc
    isplitl [Hdlx2]; · iexact Hdlx2
    isplitl [Tllx2]; · iexact Tllx2
    first | (iapply (reached_dma m K c 70 (pb_lt85 rfl)); iexact Hrec) | iapply (reached_dma m K c 70 (pb_lt85 rfl))
  iintro Hc70
  -- the y-forward 6
  ihave Hsrc := (pb_pts_re (F := F) c CM (o := xinOff c 2) (o' := yinOff (yn c) 6) (r := xinLen 2) (r' := yinLen 6) (q := sL) (q' := qys 6)
    (by rw [(pb_ysrc c).2.2.2.2.2.2.1]; rfl) rfl rfl (xin_inb c 2) (yin_inb (yn c) 6) (commV m c)) $$ Hxin2L
  iapply (step_send' m c (yn c) CM CM (yinOff (yn c) 6) (yinOff (yn c) 6) (yinLen 6) (yin_inb (yn c) 6) (yin_inb (yn c) 6) 50 58 (pb_lt85 rfl) (pb_lt85 rfl)
    (qys 6) (commV m c) f2 (k0_off31 c) (k0_off31 c) (by rw [off31_eq, (pb_ysrc c).2.2.2.2.2.2.1]) (by rw [off31_eq, (pb_ysrc c).2.2.2.2.2.2.1]) _ _ rfl rfl _ (dev22_eq c)
    (κ₁ := K (c, ⟨50, by omega⟩)) (κ₂ := K (yn c, ⟨58, by omega⟩))
    (owedAfter c 21) (owedAfter c 22) (insert (SemLoc.dma ⟨38, pb_lt85 rfl⟩, ()) W) rfl (credit_yr _ 6 _) (pb_damt_ys_yr 6) (pay_ys m c 6) (pay_yr m c 6 f2)) $$ [Hsrc Hny6 HO Tsy6 Try6]
  · isplitr; · first | (iapply (inv_dma m K c 50 (pb_lt85 rfl)); iexact Hrec) | iapply (inv_dma m K c 50 (pb_lt85 rfl))
    isplitr; · first | (iapply (inv_dma m K (yn c) 58 (pb_lt85 rfl)); iexact Hrec) | iapply (inv_dma m K (yn c) 58 (pb_lt85 rfl))
    isplitl [Hsrc]; · iexact Hsrc
    isplitl [Hny6]; · iexact Hny6
    isplitl [HO]; · iexact HO
    isplitl [Tsy6]; · iexact Tsy6
    isplitr; · first | (iapply (reached_dma m K c 50 (pb_lt85 rfl)); iexact Hrec) | iapply (reached_dma m K c 50 (pb_lt85 rfl))
    isplitl [Try6]; · iexact Try6
    first | (iapply (reached_dma m K (yn c) 58 (pb_lt85 rfl)); iexact Hrec) | iapply (reached_dma m K (yn c) 58 (pb_lt85 rfl))
  iintro ⟨Hc50, HO⟩
  ihave Hc50 := (pb_cred_amt (F := F) (dcell c 50 (pb_lt85 rfl)) (show damt 58 = damt 50 from (pb_damt_ys_yr 6).symm)) $$ Hc50
  -- the wait on xr 3
  iapply (step_wait' m c 39 (pb_lt85 rfl) _ rfl (κ := K (c, ⟨39, by omega⟩)) (owedAfter c 22) (insert (SemLoc.dma ⟨38, pb_lt85 rfl⟩, ()) W)
    ((credit_rect CM 168 _ _ _ 0 (by decide)).trans (credit_xr 0 3 (by decide)))) $$ [Hcr39 HO Hat39]
  · isplitr; · first | (iapply (inv_dma m K c 39 (pb_lt85 rfl)); iexact Hrec) | iapply (inv_dma m K c 39 (pb_lt85 rfl))
    isplitl [Hcr39]; · iexact Hcr39
    isplitl [HO]; · iexact HO
    isplitr; · first | (iapply (pb_mw_39_22 (F := F) c); iexact Hlev) | iapply (pb_mw_39_22 (F := F) c)
    iexact Hat39
  rw [pb_dpay_xr' m c 3 39 rfl]
  iintro ⟨HO, Hat39, -, Hxin3⟩
  rw [wp_ret]; imodintro
  isplitl [Hc70]; · iexact Hc70
  isplitl [Hc50]; · iexact Hc50
  isplitl [HO]; · (iexists _; iexact HO)
  isplitl [Hat38]; · iexact Hat38
  isplitl [Hat39]; · iexact Hat39
  iexact Hxin3

/-! ## Part 18: the x-arrival 3 is copied and sent on to the y-neighbour; own chunk 4 lands -/

set_option maxRecDepth 65536 in
set_option maxHeartbeats 4000000 in
theorem part_18 (c : Dev nD) (K : Dev nD × Fin 86 → ℕ) (v2 v5 v8 v9 v10 v11 v32 : BitVec 32) (W : Waits sig Unit)
    (fd1 : Buf (Elt F) ((sl OU (othb c + xinOff c 3) (xinLen 3) (oxin_inb c 3)).view.loc (c : Thread nD τ)))
    (f2 : Buf (Elt F) ((sl CM (yinOff (yn c) 7) (yinLen 7) (yin_inb (yn c) 7)).view.loc (yn c : Thread nD τ))) :
    iprop(records m K ∗ levAts L lv
        ∗ pts c CM (xinOff c 3) (xinLen 3) (xin_inb c 3) fullShare (commV m c)
        ∗ pts c OU (othb c + xinOff c 3) (xinLen 3) (oxin_inb c 3) fullShare fd1
        ∗ dutyTok ER (dcell c 71 (by decide)) 0 0
        ∗ owes (c : Thread nD τ) (owedAfter c 22) W
        ∗ pts (yn c) CM (yinOff (yn c) 7) (yinLen 7) (yin_inb (yn c) 7) fullShare f2
        ∗ dutyTok ER (dcell c 51 (by decide)) 0 0
        ∗ dutyTok ER (dcell (yn c) 59 (by decide)) 0 0
        ∗ cred (tallyAt (dcell c 24 (by decide)) () (damt 24))
        ∗ atPos ER (dcell c 24 (by decide)) 0 ∅ 0)
      ⊢ wp frame (wpE (defs₀ (F := F)) 𝒱₀ (c : Thread nD τ) none) Set.univ
          (k0_part18 (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8 cc0_scratch9 cc0_scratch10 cc0_scratch11 cc0_scratch12 cc0_scratch13 c v2 v5 v8 v9 v10 v11 v32)
          (fun _ => iprop(cred (tallyAt (dcell c 71 (by decide)) () (damt 71))
            ∗ cred (tallyAt (dcell c 51 (by decide)) () (damt 51))
            ∗ (∃ W', owes (c : Thread nD τ) (owedAfter c 23) W')
            ∗ atPos ER (dcell c 24 (by decide)) 1 ∅ 0
            ∗ pts c CM (ownOff c 4) (ownLen 4) (own_inb c 4) fullShare (commV m c))) := by
  simp only [k0_part18_eq_skeleton]; unfold k0_part18_skel
  simp only [Prog.lift, Prog.bind_op, Prog.bind_ret, Prog.pure_eq_ret, Prog.bind_assoc]
  iintro ⟨#Hrec, #Hlev, Hxin3, Hdlx3, Tllx3, HO, Hny7, Tsy7, Try7, Hcr24, Hat24⟩
  ihave Hs := (pb_pts_halves c CM _ _ _ fullShare (commV m c)).1 $$ Hxin3
  icases Hs with ⟨Hxin3L, Hxin3R⟩
  -- the copy lx 3 to the result
  ihave Hsrc := (pb_pts_re (F := F) c CM (o := xinOff c 3) (o' := xinOff c 3) (r := xinLen 3) (r' := xinLen 3) (q := sR) (q' := qlx 3)
    rfl rfl rfl (xin_inb c 3) (xin_inb c 3) (commV m c)) $$ Hxin3R
  iapply (step_copy' m c CM OU (xinOff c 3) (othb c + xinOff c 3) (xinLen 3) (xin_inb c 3) (oxin_inb c 3) 71 (pb_lt85 rfl) (qlx 3) (commV m c) fd1
    (k0_off32 c) (k0_off33 c) (by rw [off32_eq]; rfl) (by first | (rw [off33_eq, Nat.add_assoc]; rfl) | (rw [off33_eq]; rfl)) _ rfl
    (κ := K (c, ⟨71, by omega⟩)) (credit_lx _ 3 _) (pay_lx m c 3 fd1)) $$ [Hsrc Hdlx3 Tllx3]
  · isplitr; · first | (iapply (inv_dma m K c 71 (pb_lt85 rfl)); iexact Hrec) | iapply (inv_dma m K c 71 (pb_lt85 rfl))
    isplitl [Hsrc]; · iexact Hsrc
    isplitl [Hdlx3]; · iexact Hdlx3
    isplitl [Tllx3]; · iexact Tllx3
    first | (iapply (reached_dma m K c 71 (pb_lt85 rfl)); iexact Hrec) | iapply (reached_dma m K c 71 (pb_lt85 rfl))
  iintro Hc71
  -- the y-forward 7
  ihave Hsrc := (pb_pts_re (F := F) c CM (o := xinOff c 3) (o' := yinOff (yn c) 7) (r := xinLen 3) (r' := yinLen 7) (q := sL) (q' := qys 7)
    (by rw [(pb_ysrc c).2.2.2.2.2.2.2]; rfl) rfl rfl (xin_inb c 3) (yin_inb (yn c) 7) (commV m c)) $$ Hxin3L
  iapply (step_send' m c (yn c) CM CM (yinOff (yn c) 7) (yinOff (yn c) 7) (yinLen 7) (yin_inb (yn c) 7) (yin_inb (yn c) 7) 51 59 (pb_lt85 rfl) (pb_lt85 rfl)
    (qys 7) (commV m c) f2 (k0_off29 c 336#32 168#32) (k0_off29 c 336#32 168#32) (by rw [off29_2_eq, (pb_ysrc c).2.2.2.2.2.2.2]) (by rw [off29_2_eq, (pb_ysrc c).2.2.2.2.2.2.2]) _ _ rfl rfl _ (dev23_eq c)
    (κ₁ := K (c, ⟨51, by omega⟩)) (κ₂ := K (yn c, ⟨59, by omega⟩))
    (owedAfter c 22) (owedAfter c 23) W rfl (credit_yr _ 7 _) (pb_damt_ys_yr 7) (pay_ys m c 7) (pay_yr m c 7 f2)) $$ [Hsrc Hny7 HO Tsy7 Try7]
  · isplitr; · first | (iapply (inv_dma m K c 51 (pb_lt85 rfl)); iexact Hrec) | iapply (inv_dma m K c 51 (pb_lt85 rfl))
    isplitr; · first | (iapply (inv_dma m K (yn c) 59 (pb_lt85 rfl)); iexact Hrec) | iapply (inv_dma m K (yn c) 59 (pb_lt85 rfl))
    isplitl [Hsrc]; · iexact Hsrc
    isplitl [Hny7]; · iexact Hny7
    isplitl [HO]; · iexact HO
    isplitl [Tsy7]; · iexact Tsy7
    isplitr; · first | (iapply (reached_dma m K c 51 (pb_lt85 rfl)); iexact Hrec) | iapply (reached_dma m K c 51 (pb_lt85 rfl))
    isplitl [Try7]; · iexact Try7
    first | (iapply (reached_dma m K (yn c) 59 (pb_lt85 rfl)); iexact Hrec) | iapply (reached_dma m K (yn c) 59 (pb_lt85 rfl))
  iintro ⟨Hc51, HO⟩
  ihave Hc51 := (pb_cred_amt (F := F) (dcell c 51 (pb_lt85 rfl)) (show damt 59 = damt 51 from (pb_damt_ys_yr 7).symm)) $$ Hc51
  -- the wait on zr 4
  iapply (step_wait' m c 24 (pb_lt85 rfl) _ rfl (κ := K (c, ⟨24, by omega⟩)) (owedAfter c 23) W
    ((credit_rect CM 176 _ _ _ 0 (by decide)).trans (credit_zr 0 4 (by decide)))) $$ [Hcr24 HO Hat24]
  · isplitr; · first | (iapply (inv_dma m K c 24 (pb_lt85 rfl)); iexact Hrec) | iapply (inv_dma m K c 24 (pb_lt85 rfl))
    isplitl [Hcr24]; · iexact Hcr24
    isplitl [HO]; · iexact HO
    isplitr; · first | (iapply (pb_mw_24_23 (F := F) c); iexact Hlev) | iapply (pb_mw_24_23 (F := F) c)
    iexact Hat24
  rw [pb_dpay_zr' m c 4 24 rfl]
  iintro ⟨HO, Hat24, -, Hown4⟩
  rw [wp_ret]; imodintro
  isplitl [Hc71]; · iexact Hc71
  isplitl [Hc51]; · iexact Hc51
  isplitl [HO]; · (iexists _; iexact HO)
  isplitl [Hat24]; · iexact Hat24
  iexact Hown4

end Cert.Kernel.AG

end

/-- info: 'Cert.Kernel.AG.part_11' depends on axioms: [propext, Classical.choice, Quot.sound] -/
#guard_msgs in #print axioms Cert.Kernel.AG.part_11

/-- info: 'Cert.Kernel.AG.part_12' depends on axioms: [propext, Classical.choice, Quot.sound] -/
#guard_msgs in #print axioms Cert.Kernel.AG.part_12

/-- info: 'Cert.Kernel.AG.part_13' depends on axioms: [propext, Classical.choice, Quot.sound] -/
#guard_msgs in #print axioms Cert.Kernel.AG.part_13

/-- info: 'Cert.Kernel.AG.part_14' depends on axioms: [propext, Classical.choice, Quot.sound] -/
#guard_msgs in #print axioms Cert.Kernel.AG.part_14

/-- info: 'Cert.Kernel.AG.part_15' depends on axioms: [propext, Classical.choice, Quot.sound] -/
#guard_msgs in #print axioms Cert.Kernel.AG.part_15

/-- info: 'Cert.Kernel.AG.part_16' depends on axioms: [propext, Classical.choice, Quot.sound] -/
#guard_msgs in #print axioms Cert.Kernel.AG.part_16

/-- info: 'Cert.Kernel.AG.part_17' depends on axioms: [propext, Classical.choice, Quot.sound] -/
#guard_msgs in #print axioms Cert.Kernel.AG.part_17

/-- info: 'Cert.Kernel.AG.part_18' depends on axioms: [propext, Classical.choice, Quot.sound] -/
#guard_msgs in #print axioms Cert.Kernel.AG.part_18
-- ==== Proof.K.AGParts_f.lean ====
/-
  The body of one device, part by part: the last three parts of its forwarding.
  Own chunks 4 to 7 of the communication buffer, as they arrive from the z-neighbour, are forwarded: chunks 4 and 5 to the
  x-neighbour, chunks 6 and 7 to the y-neighbour, each read at the left half; the right half of each is copied into the other
  half of the result.  Then the device waits for the input copy of the x-neighbour's 672-region and loads the staged rows,
  whose conversion is handed on.
-/
import proofs.«900673_g7700000000000674_dist_ag_v7x_xyz2x2x2_z_m4096_n1024_bf16_1_alg».proof.Proof.Gen.Kernel.Skeleton
import proofs.«900673_g7700000000000674_dist_ag_v7x_xyz2x2x2_z_m4096_n1024_bf16_1_alg».proof.Proof.K.AGSteps
import proofs.«900673_g7700000000000674_dist_ag_v7x_xyz2x2x2_z_m4096_n1024_bf16_1_alg».proof.Proof.K.AGPays
import proofs.«900673_g7700000000000674_dist_ag_v7x_xyz2x2x2_z_m4096_n1024_bf16_1_alg».proof.Proof.K.AGSlices
import proofs.«900673_g7700000000000674_dist_ag_v7x_xyz2x2x2_z_m4096_n1024_bf16_1_alg».proof.Proof.K.AGOffs
import proofs.«900673_g7700000000000674_dist_ag_v7x_xyz2x2x2_z_m4096_n1024_bf16_1_alg».proof.Proof.K.AGGlue
import proofs.«900673_g7700000000000674_dist_ag_v7x_xyz2x2x2_z_m4096_n1024_bf16_1_alg».proof.Proof.K.AGParts_ah

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows, units and levels of these parts -/

/-- Own chunks 4 and 5 are what the x-neighbour calls its arrivals 4 and 5 from this device; own chunks 6 and 7 what the
    y-neighbour calls its arrivals 4 and 5. -/
theorem pf_rows : ∀ c : Dev nD, ownOff c 4 = xinOff (xn c) 4 ∧ ownOff c 5 = xinOff (xn c) 5
    ∧ ownOff c 6 = yinOff (yn c) 4 ∧ ownOff c 7 = yinOff (yn c) 5 := by decide

/-- An x- and a y-transfer's two cells carry the same units. -/
theorem pf_damt_x (k : Fin 8) : damt (28 + k.val) = damt (36 + k.val) :=
  (credit_xs 0 k (by have := (xinLen_pos k).2; omega)).symm.trans (credit_xr 0 k (by have := (xinLen_pos k).2; omega))
theorem pf_damt_y (k : Fin 8) : damt (44 + k.val) = damt (52 + k.val) :=
  (credit_ys 0 k (by have := (yinLen_pos k).2; omega)).symm.trans (credit_yr 0 k (by have := (yinLen_pos k).2; omega))

/-- A credit in other units that are the same number. -/
theorem pf_cred_eq (c : Dev nD) (n : ℕ) (h : n < 85) (a b : ℕ) (hab : a = b) :
    (cred (tallyAt (dcell c n h) () a) : sProp 𝕄) ⊢ cred (tallyAt (dcell c n h) () b) := by subst hab; exact .rfl

theorem pf_lv_25 : ∀ (c : Dev nD), ∀ t ∈ (fires c).drop 24,
    lv ((c : Thread nD τ), SemLoc.dma ⟨25, by decide⟩) () < lv t.1 () ∧ t.1.1.2 = .tc := by decide
theorem pf_lv_26 : ∀ (c : Dev nD), ∀ t ∈ (fires c).drop 25,
    lv ((c : Thread nD τ), SemLoc.dma ⟨26, by decide⟩) () < lv t.1 () ∧ t.1.1.2 = .tc := by decide
theorem pf_lv_27 : ∀ (c : Dev nD), ∀ t ∈ (fires c).drop 26,
    lv ((c : Thread nD τ), SemLoc.dma ⟨27, by decide⟩) () < lv t.1 () ∧ t.1.1.2 = .tc := by decide
theorem pf_lv_8 : ∀ (c : Dev nD), ∀ t ∈ (fires c).drop 27,
    lv ((c : Thread nD τ), SemLoc.dma ⟨8, by decide⟩) () < lv t.1 () ∧ t.1.1.2 = .tc := by decide

set_option maxRecDepth 65536 in
set_option maxHeartbeats 4000000 in
/-- Part 19: own chunk 4 forwarded to the x-neighbour and copied into the result; the wait for own chunk 5 from the z-neighbour; own chunk 5 forwarded to the x-neighbour. -/
theorem part_19 (c : Dev nD) (K : Dev nD × Fin 86 → ℕ) (v2 v5 v8 v9 v10 v25 v43 v597 c1_i32_387 : BitVec 32) (W : Waits sig Unit) (fnx4 : Buf (Elt F) ((sl CM (xinOff (xn c) 4) (xinLen 4) (xin_inb (xn c) 4)).view.loc (xn c : Thread nD τ))) (fo4 : Buf (Elt F) ((sl OU (othb c + ownOff c 4) (ownLen 4) (oown_inb c 4)).view.loc (c : Thread nD τ))) (fnx5 : Buf (Elt F) ((sl CM (xinOff (xn c) 5) (xinLen 5) (xin_inb (xn c) 5)).view.loc (xn c : Thread nD τ))) :
    iprop(records m K ∗ levAts L lv
        ∗ pts c CM (ownOff c 4) (ownLen 4) (own_inb c 4) fullShare (commV m c)
        ∗ pts (xn c) CM (xinOff (xn c) 4) (xinLen 4) (xin_inb (xn c) 4) fullShare fnx4
        ∗ owes (c : Thread nD τ) (owedAfter c 23) W
        ∗ dutyTok ER (dcell c 32 (by decide)) 0 0
        ∗ dutyTok ER (dcell (xn c) 40 (by decide)) 0 0
        ∗ pts c OU (othb c + ownOff c 4) (ownLen 4) (oown_inb c 4) fullShare fo4
        ∗ dutyTok ER (dcell c 64 (by decide)) 0 0
        ∗ cred (tallyAt (dcell c 25 (by decide)) () (damt 25))
        ∗ atPos ER (dcell c 25 (by decide)) 0 ∅ 0
        ∗ pts (xn c) CM (xinOff (xn c) 5) (xinLen 5) (xin_inb (xn c) 5) fullShare fnx5
        ∗ dutyTok ER (dcell c 33 (by decide)) 0 0
        ∗ dutyTok ER (dcell (xn c) 41 (by decide)) 0 0)
      ⊢ wp frame (wpE (defs₀ (F := F)) 𝒱₀ (c : Thread nD τ) none) Set.univ
          (k0_part19 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v10 v25 v43 v597 c1_i32_387)
          (fun r => iprop((∃ W', owes (c : Thread nD τ) (owedAfter c 25) W')
            ∗ cred (tallyAt (dcell c 32 (by decide)) () (damt 32))
            ∗ cred (tallyAt (dcell c 64 (by decide)) () (damt 64))
            ∗ atPos ER (dcell c 25 (by decide)) 1 ∅ 0
            ∗ pts c CM (ownOff c 5) (ownLen 5) (own_inb c 5) sR (commV m c)
            ∗ cred (tallyAt (dcell c 33 (by decide)) () (damt 33)))) := by
  simp only [k0_part19_eq_skeleton]; unfold k0_part19_skel
  simp only [Prog.lift, Prog.bind_op, Prog.bind_ret, Prog.pure_eq_ret, Prog.bind_assoc]
  iintro ⟨#HR, #HL, Hcm4, Hnx4, HO, Htxs4, Htxr4, Hou4, Htl4, Hcr25, Hap25, Hnx5, Htxs5, Htxr5⟩
  ihave Hcm4 := (pa_halves c CM (ownOff c 4) (ownLen 4) (own_inb c 4) fullShare (commV m c)) $$ Hcm4
  icases Hcm4 with ⟨HcmL4, HcmR4⟩
  ihave HcmL4 := (Entails.of_eq (pts_respell (F := F) c CM (pf_rows c).1 (by decide : ownLen 4 = xinLen 4) (own_inb c 4) (xin_inb (xn c) 4) sL (commV m c))) $$ HcmL4
  iapply (step_send' m c (xn c) CM CM (xinOff (xn c) 4) (xinOff (xn c) 4) (xinLen 4) (xin_inb (xn c) 4) (xin_inb (xn c) 4) 32 40 (by decide) (by decide) sL (commV m c) fnx4
      (k0_off5 c) (k0_off5 c) ((off5_eq c).trans (by rw [← (pf_rows c).1]; rfl)) ((off5_eq c).trans (by rw [← (pf_rows c).1]; rfl)) _ _ rfl rfl _ (dev24_eq c)
      (owedAfter c 23) (owedAfter c 24) _ rfl (credit_xr (xinOff (xn c) 4) 4 (xin_inb (xn c) 4)) (pf_damt_x 4) (pay_xs m c 4) (pay_xr m c 4 fnx4)
      (κ₁ := K (c, ⟨32, by omega⟩)) (κ₂ := K (xn c, ⟨40, by omega⟩))) $$ [HcmL4 Hnx4 HO Htxs4 Htxr4]
  · isplitr; · iapply (inv_dma m K c 32 _); iexact HR
    isplitr; · iapply (inv_dma m K (xn c) 40 _); iexact HR
    isplitl [HcmL4]; · iexact HcmL4
    isplitl [Hnx4]; · iexact Hnx4
    isplitl [HO]; · iexact HO
    isplitl [Htxs4]; · iexact Htxs4
    isplitr; · iapply (reached_dma m K c 32 _); iexact HR
    isplitl [Htxr4]; · iexact Htxr4
    iapply (reached_dma m K (xn c) 40 _); iexact HR
  iintro ⟨Hcxs4, HO⟩
  ihave Hcxs4 := (pf_cred_eq c 32 _ (damt 40) (damt 32) (pf_damt_x 4).symm) $$ Hcxs4
  iapply (step_copy' m c CM OU (ownOff c 4) (othb c + ownOff c 4) (ownLen 4) (own_inb c 4) (oown_inb c 4) 64 (by decide) sR (commV m c) fo4
      (k0_off5 c) (k0_off34 c) ((off5_eq c).trans (by rfl)) ((off34_eq c).trans (by rfl)) _ rfl (κ := K (c, ⟨64, by omega⟩))
      (credit_lz (othb c + ownOff c 4) 4 (oown_inb c 4)) (pay_lz m c 4 fo4)) $$ [HcmR4 Hou4 Htl4]
  · isplitr; · iapply (inv_dma m K c 64 _); iexact HR
    isplitl [HcmR4]; · iexact HcmR4
    isplitl [Hou4]; · iexact Hou4
    isplitl [Htl4]; · iexact Htl4
    iapply (reached_dma m K c 64 _); iexact HR
  iintro Hcl4
  iapply (step_wait' m c 25 (by decide) _ rfl (owedAfter c 24) _ ((credit_rect CM 176 _ _ _ 0 (by decide)).trans (credit_zr 0 5 (by decide))) (κ := K (c, ⟨25, by omega⟩))) $$ [Hcr25 HO Hap25]
  · isplitr; · iapply (inv_dma m K c 25 _); iexact HR
    isplitl [Hcr25]; · iexact Hcr25
    isplitl [HO]; · iexact HO
    isplitr [Hap25]; · iapply (mayWait_after c (.dma ⟨25, _⟩) 24 (pf_lv_25 c)); iexact HL
    iexact Hap25
  rw [pa_wait_zr m c 5 25 rfl]
  iintro ⟨HO, Hap25, -, Hcm5⟩
  ihave Hcm5 := (pa_halves c CM (ownOff c 5) (ownLen 5) (own_inb c 5) fullShare (commV m c)) $$ Hcm5
  icases Hcm5 with ⟨HcmL5, HcmR5⟩
  ihave HcmL5 := (Entails.of_eq (pts_respell (F := F) c CM (pf_rows c).2.1 (by decide : ownLen 5 = xinLen 5) (own_inb c 5) (xin_inb (xn c) 5) sL (commV m c))) $$ HcmL5
  iapply (step_send' m c (xn c) CM CM (xinOff (xn c) 5) (xinOff (xn c) 5) (xinLen 5) (xin_inb (xn c) 5) (xin_inb (xn c) 5) 33 41 (by decide) (by decide) sL (commV m c) fnx5
      (k0_off6 c) (k0_off6 c) ((off6_eq c).trans (by rw [← (pf_rows c).2.1]; rfl)) ((off6_eq c).trans (by rw [← (pf_rows c).2.1]; rfl)) _ _ rfl rfl _ (dev25_eq c)
      (owedAfter c 24) (owedAfter c 25) _ rfl (credit_xr (xinOff (xn c) 5) 5 (xin_inb (xn c) 5)) (pf_damt_x 5) (pay_xs m c 5) (pay_xr m c 5 fnx5)
      (κ₁ := K (c, ⟨33, by omega⟩)) (κ₂ := K (xn c, ⟨41, by omega⟩))) $$ [HcmL5 Hnx5 HO Htxs5 Htxr5]
  · isplitr; · iapply (inv_dma m K c 33 _); iexact HR
    isplitr; · iapply (inv_dma m K (xn c) 41 _); iexact HR
    isplitl [HcmL5]; · iexact HcmL5
    isplitl [Hnx5]; · iexact Hnx5
    isplitl [HO]; · iexact HO
    isplitl [Htxs5]; · iexact Htxs5
    isplitr; · iapply (reached_dma m K c 33 _); iexact HR
    isplitl [Htxr5]; · iexact Htxr5
    iapply (reached_dma m K (xn c) 41 _); iexact HR
  iintro ⟨Hcxs5, HO⟩
  ihave Hcxs5 := (pf_cred_eq c 33 _ (damt 41) (damt 33) (pf_damt_x 5).symm) $$ Hcxs5
  rw [wp_ret]; imodintro
  isplitl [HO]; · iexists _; iexact HO
  isplitl [Hcxs4]; · iexact Hcxs4
  isplitl [Hcl4]; · iexact Hcl4
  isplitl [Hap25]; · iexact Hap25
  isplitl [HcmR5]; · iexact HcmR5
  iexact Hcxs5

set_option maxRecDepth 65536 in
set_option maxHeartbeats 4000000 in
/-- Part 20: own chunk 5 copied into the result; the wait for own chunk 6 from the z-neighbour; own chunk 6 forwarded to the y-neighbour and copied into the result. -/
theorem part_20 (c : Dev nD) (K : Dev nD × Fin 86 → ℕ) (v2 v5 v8 v9 v11 v25 v50 v51 : BitVec 32) (W : Waits sig Unit) (fo5 : Buf (Elt F) ((sl OU (othb c + ownOff c 5) (ownLen 5) (oown_inb c 5)).view.loc (c : Thread nD τ))) (fny4 : Buf (Elt F) ((sl CM (yinOff (yn c) 4) (yinLen 4) (yin_inb (yn c) 4)).view.loc (yn c : Thread nD τ))) (fo6 : Buf (Elt F) ((sl OU (othb c + ownOff c 6) (ownLen 6) (oown_inb c 6)).view.loc (c : Thread nD τ))) :
    iprop(records m K ∗ levAts L lv
        ∗ pts c CM (ownOff c 5) (ownLen 5) (own_inb c 5) sR (commV m c)
        ∗ pts c OU (othb c + ownOff c 5) (ownLen 5) (oown_inb c 5) fullShare fo5
        ∗ dutyTok ER (dcell c 65 (by decide)) 0 0
        ∗ cred (tallyAt (dcell c 26 (by decide)) () (damt 26))
        ∗ owes (c : Thread nD τ) (owedAfter c 25) W
        ∗ atPos ER (dcell c 26 (by decide)) 0 ∅ 0
        ∗ pts (yn c) CM (yinOff (yn c) 4) (yinLen 4) (yin_inb (yn c) 4) fullShare fny4
        ∗ dutyTok ER (dcell c 48 (by decide)) 0 0
        ∗ dutyTok ER (dcell (yn c) 56 (by decide)) 0 0
        ∗ pts c OU (othb c + ownOff c 6) (ownLen 6) (oown_inb c 6) fullShare fo6
        ∗ dutyTok ER (dcell c 66 (by decide)) 0 0)
      ⊢ wp frame (wpE (defs₀ (F := F)) 𝒱₀ (c : Thread nD τ) none) Set.univ
          (k0_part20 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v11 v25 v50 v51)
          (fun r => iprop(cred (tallyAt (dcell c 65 (by decide)) () (damt 65))
            ∗ (∃ W', owes (c : Thread nD τ) (owedAfter c 26) W')
            ∗ atPos ER (dcell c 26 (by decide)) 1 ∅ 0
            ∗ cred (tallyAt (dcell c 48 (by decide)) () (damt 48))
            ∗ cred (tallyAt (dcell c 66 (by decide)) () (damt 66)))) := by
  simp only [k0_part20_eq_skeleton]; unfold k0_part20_skel
  simp only [Prog.lift, Prog.bind_op, Prog.bind_ret, Prog.pure_eq_ret, Prog.bind_assoc]
  iintro ⟨#HR, #HL, HcmR5, Hou5, Htl5, Hcr26, HO, Hap26, Hny4, Htys4, Htyr4, Hou6, Htl6⟩
  iapply (step_copy' m c CM OU (ownOff c 5) (othb c + ownOff c 5) (ownLen 5) (own_inb c 5) (oown_inb c 5) 65 (by decide) sR (commV m c) fo5
      (k0_off6 c) (k0_off35 c) ((off6_eq c).trans (by rfl)) ((off35_eq c).trans (by rw [Nat.add_assoc]; rfl)) _ rfl (κ := K (c, ⟨65, by omega⟩))
      (credit_lz (othb c + ownOff c 5) 5 (oown_inb c 5)) (pay_lz m c 5 fo5)) $$ [HcmR5 Hou5 Htl5]
  · isplitr; · iapply (inv_dma m K c 65 _); iexact HR
    isplitl [HcmR5]; · iexact HcmR5
    isplitl [Hou5]; · iexact Hou5
    isplitl [Htl5]; · iexact Htl5
    iapply (reached_dma m K c 65 _); iexact HR
  iintro Hcl5
  iapply (step_wait' m c 26 (by decide) _ rfl (owedAfter c 25) _ ((credit_rect CM 176 _ _ _ 0 (by decide)).trans (credit_zr 0 6 (by decide))) (κ := K (c, ⟨26, by omega⟩))) $$ [Hcr26 HO Hap26]
  · isplitr; · iapply (inv_dma m K c 26 _); iexact HR
    isplitl [Hcr26]; · iexact Hcr26
    isplitl [HO]; · iexact HO
    isplitr [Hap26]; · iapply (mayWait_after c (.dma ⟨26, _⟩) 25 (pf_lv_26 c)); iexact HL
    iexact Hap26
  rw [pa_wait_zr m c 6 26 rfl]
  iintro ⟨HO, Hap26, -, Hcm6⟩
  ihave Hcm6 := (pa_halves c CM (ownOff c 6) (ownLen 6) (own_inb c 6) fullShare (commV m c)) $$ Hcm6
  icases Hcm6 with ⟨HcmL6, HcmR6⟩
  ihave HcmL6 := (Entails.of_eq (pts_respell (F := F) c CM (pf_rows c).2.2.1 (by decide : ownLen 6 = yinLen 4) (own_inb c 6) (yin_inb (yn c) 4) sL (commV m c))) $$ HcmL6
  iapply (step_send' m c (yn c) CM CM (yinOff (yn c) 4) (yinOff (yn c) 4) (yinLen 4) (yin_inb (yn c) 4) (yin_inb (yn c) 4) 48 56 (by decide) (by decide) sL (commV m c) fny4
      (k0_off7 c) (k0_off7 c) ((off7_eq c).trans (by rw [← (pf_rows c).2.2.1]; rfl)) ((off7_eq c).trans (by rw [← (pf_rows c).2.2.1]; rfl)) _ _ rfl rfl _ (dev26_eq c)
      (owedAfter c 25) (owedAfter c 26) _ rfl (credit_yr (yinOff (yn c) 4) 4 (yin_inb (yn c) 4)) (pf_damt_y 4) (pay_ys m c 4) (pay_yr m c 4 fny4)
      (κ₁ := K (c, ⟨48, by omega⟩)) (κ₂ := K (yn c, ⟨56, by omega⟩))) $$ [HcmL6 Hny4 HO Htys4 Htyr4]
  · isplitr; · iapply (inv_dma m K c 48 _); iexact HR
    isplitr; · iapply (inv_dma m K (yn c) 56 _); iexact HR
    isplitl [HcmL6]; · iexact HcmL6
    isplitl [Hny4]; · iexact Hny4
    isplitl [HO]; · iexact HO
    isplitl [Htys4]; · iexact Htys4
    isplitr; · iapply (reached_dma m K c 48 _); iexact HR
    isplitl [Htyr4]; · iexact Htyr4
    iapply (reached_dma m K (yn c) 56 _); iexact HR
  iintro ⟨Hcys4, HO⟩
  ihave Hcys4 := (pf_cred_eq c 48 _ (damt 56) (damt 48) (pf_damt_y 4).symm) $$ Hcys4
  iapply (step_copy' m c CM OU (ownOff c 6) (othb c + ownOff c 6) (ownLen 6) (own_inb c 6) (oown_inb c 6) 66 (by decide) sR (commV m c) fo6
      (k0_off7 c) (k0_off36 c) ((off7_eq c).trans (by rfl)) ((off36_eq c).trans (by rw [Nat.add_assoc]; rfl)) _ rfl (κ := K (c, ⟨66, by omega⟩))
      (credit_lz (othb c + ownOff c 6) 6 (oown_inb c 6)) (pay_lz m c 6 fo6)) $$ [HcmR6 Hou6 Htl6]
  · isplitr; · iapply (inv_dma m K c 66 _); iexact HR
    isplitl [HcmR6]; · iexact HcmR6
    isplitl [Hou6]; · iexact Hou6
    isplitl [Htl6]; · iexact Htl6
    iapply (reached_dma m K c 66 _); iexact HR
  iintro Hcl6
  rw [wp_ret]; imodintro
  isplitl [Hcl5]; · iexact Hcl5
  isplitl [HO]; · iexists _; iexact HO
  isplitl [Hap26]; · iexact Hap26
  isplitl [Hcys4]; · iexact Hcys4
  iexact Hcl6

set_option maxRecDepth 65536 in
set_option maxHeartbeats 4000000 in
/-- Part 21: the wait for own chunk 7 from the z-neighbour; own chunk 7 forwarded to the y-neighbour and copied into the result; the wait for the input copy of the x-neighbour's 672-region and the load of its staged rows, whose conversion is handed on. -/
theorem part_21 (c : Dev nD) (K : Dev nD × Fin 86 → ℕ) (v2 v5 v8 v9 v11 v25 v32 v52 : BitVec 32) (W : Waits sig Unit) (fny5 : Buf (Elt F) ((sl CM (yinOff (yn c) 5) (yinLen 5) (yin_inb (yn c) 5)).view.loc (yn c : Thread nD τ))) (fo7 : Buf (Elt F) ((sl OU (othb c + ownOff c 7) (ownLen 7) (oown_inb c 7)).view.loc (c : Thread nD τ))) :
    iprop(records m K ∗ levAts L lv
        ∗ cred (tallyAt (dcell c 27 (by decide)) () (damt 27))
        ∗ owes (c : Thread nD τ) (owedAfter c 26) W
        ∗ atPos ER (dcell c 27 (by decide)) 0 ∅ 0
        ∗ pts (yn c) CM (yinOff (yn c) 5) (yinLen 5) (yin_inb (yn c) 5) fullShare fny5
        ∗ dutyTok ER (dcell c 49 (by decide)) 0 0
        ∗ dutyTok ER (dcell (yn c) 57 (by decide)) 0 0
        ∗ pts c OU (othb c + ownOff c 7) (ownLen 7) (oown_inb c 7) fullShare fo7
        ∗ dutyTok ER (dcell c 67 (by decide)) 0 0
        ∗ cred (tallyAt (dcell c 8 (by decide)) () (damt 8))
        ∗ atPos ER (dcell c 8 (by decide)) 0 ∅ 0)
      ⊢ wp frame (wpE (defs₀ (F := F)) 𝒱₀ (c : Thread nD τ) none) Set.univ
          (k0_part21 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v8 v9 v11 v25 v32 v52)
          (fun r => iprop(⌜∀ y : (Sr (inLen 8)).Idx, r y = mineV m c (up (inOff c 8) (in_inb c 8) y)⌝
            ∗ (∃ W', owes (c : Thread nD τ) (owedAfter c 27) W')
            ∗ atPos ER (dcell c 27 (by decide)) 1 ∅ 0
            ∗ cred (tallyAt (dcell c 49 (by decide)) () (damt 49))
            ∗ cred (tallyAt (dcell c 67 (by decide)) () (damt 67))
            ∗ atPos ER (dcell c 8 (by decide)) 1 ∅ 0
            ∗ pts c ST (inOff c 8) (inLen 8) (in_inb c 8) fullShare (X m c)
            ∗ pts c XA (inOff c 8) (inLen 8) (in_inb c 8) fullShare (X m c))) := by
  simp only [k0_part21_eq_skeleton]; unfold k0_part21_skel
  simp only [Prog.lift, Prog.bind_op, Prog.bind_ret, Prog.pure_eq_ret, Prog.bind_assoc]
  iintro ⟨#HR, #HL, Hcr27, HO, Hap27, Hny5, Htys5, Htyr5, Hou7, Htl7, Hc8, Hap8⟩
  iapply (step_wait' m c 27 (by decide) _ rfl (owedAfter c 26) _ ((credit_rect CM 176 _ _ _ 0 (by decide)).trans (credit_zr 0 7 (by decide))) (κ := K (c, ⟨27, by omega⟩))) $$ [Hcr27 HO Hap27]
  · isplitr; · iapply (inv_dma m K c 27 _); iexact HR
    isplitl [Hcr27]; · iexact Hcr27
    isplitl [HO]; · iexact HO
    isplitr [Hap27]; · iapply (mayWait_after c (.dma ⟨27, _⟩) 26 (pf_lv_27 c)); iexact HL
    iexact Hap27
  rw [pa_wait_zr m c 7 27 rfl]
  iintro ⟨HO, Hap27, -, Hcm7⟩
  ihave Hcm7 := (pa_halves c CM (ownOff c 7) (ownLen 7) (own_inb c 7) fullShare (commV m c)) $$ Hcm7
  icases Hcm7 with ⟨HcmL7, HcmR7⟩
  ihave HcmL7 := (Entails.of_eq (pts_respell (F := F) c CM (pf_rows c).2.2.2 (by decide : ownLen 7 = yinLen 5) (own_inb c 7) (yin_inb (yn c) 5) sL (commV m c))) $$ HcmL7
  iapply (step_send' m c (yn c) CM CM (yinOff (yn c) 5) (yinOff (yn c) 5) (yinLen 5) (yin_inb (yn c) 5) (yin_inb (yn c) 5) 49 57 (by decide) (by decide) sL (commV m c) fny5
      (k0_off8 c) (k0_off8 c) ((off8_eq c).trans (by rw [← (pf_rows c).2.2.2]; rfl)) ((off8_eq c).trans (by rw [← (pf_rows c).2.2.2]; rfl)) _ _ rfl rfl _ (dev27_eq c)
      (owedAfter c 26) (owedAfter c 27) _ rfl (credit_yr (yinOff (yn c) 5) 5 (yin_inb (yn c) 5)) (pf_damt_y 5) (pay_ys m c 5) (pay_yr m c 5 fny5)
      (κ₁ := K (c, ⟨49, by omega⟩)) (κ₂ := K (yn c, ⟨57, by omega⟩))) $$ [HcmL7 Hny5 HO Htys5 Htyr5]
  · isplitr; · iapply (inv_dma m K c 49 _); iexact HR
    isplitr; · iapply (inv_dma m K (yn c) 57 _); iexact HR
    isplitl [HcmL7]; · iexact HcmL7
    isplitl [Hny5]; · iexact Hny5
    isplitl [HO]; · iexact HO
    isplitl [Htys5]; · iexact Htys5
    isplitr; · iapply (reached_dma m K c 49 _); iexact HR
    isplitl [Htyr5]; · iexact Htyr5
    iapply (reached_dma m K (yn c) 57 _); iexact HR
  iintro ⟨Hcys5, HO⟩
  ihave Hcys5 := (pf_cred_eq c 49 _ (damt 57) (damt 49) (pf_damt_y 5).symm) $$ Hcys5
  iapply (step_copy' m c CM OU (ownOff c 7) (othb c + ownOff c 7) (ownLen 7) (own_inb c 7) (oown_inb c 7) 67 (by decide) sR (commV m c) fo7
      (k0_off8 c) (k0_off37 c) ((off8_eq c).trans (by rfl)) ((off37_eq c).trans (by rw [Nat.add_assoc]; rfl)) _ rfl (κ := K (c, ⟨67, by omega⟩))
      (credit_lz (othb c + ownOff c 7) 7 (oown_inb c 7)) (pay_lz m c 7 fo7)) $$ [HcmR7 Hou7 Htl7]
  · isplitr; · iapply (inv_dma m K c 67 _); iexact HR
    isplitl [HcmR7]; · iexact HcmR7
    isplitl [Hou7]; · iexact Hou7
    isplitl [Htl7]; · iexact Htl7
    iapply (reached_dma m K c 67 _); iexact HR
  iintro Hcl7
  iapply (step_wait' m c 8 (by decide) _ rfl (owedAfter c 27) _ ((credit_rect ST 672 _ _ _ 0 (by decide)).trans (credit_in 0 8 (by decide))) (κ := K (c, ⟨8, by omega⟩))) $$ [Hc8 HO Hap8]
  · isplitr; · iapply (inv_dma m K c 8 _); iexact HR
    isplitl [Hc8]; · iexact Hc8
    isplitl [HO]; · iexact HO
    isplitr [Hap8]; · iapply (mayWait_after c (.dma ⟨8, _⟩) 27 (pf_lv_8 c)); iexact HL
    iexact Hap8
  iintro ⟨HO, Hap8, -, Hp⟩
  ihave Hp := (pa_wait_in m c 8 8 rfl) $$ Hp
  icases Hp with ⟨Hst8, Hxa8⟩
  iapply (pa_load c ST (inOff c 8) (inLen 8) (in_inb c 8) fullShare (X m c) (k0_off38 c) ((off38_eq c).trans (by rfl))) $$ Hst8
  iintro Hst8
  rw [wp_ret]; imodintro
  isplitl []; · ipureintro; intro y; simp only [k0_pay10, shapeCast_self]; rfl
  isplitl [HO]; · iexists _; iexact HO
  isplitl [Hap27]; · iexact Hap27
  isplitl [Hcys5]; · iexact Hcys5
  isplitl [Hcl7]; · iexact Hcl7
  isplitl [Hap8]; · iexact Hap8
  isplitl [Hst8]; · iexact Hst8
  iexact Hxa8

/-- info: 'Cert.Kernel.AG.part_19' depends on axioms: [propext, Classical.choice, Quot.sound] -/
#guard_msgs in #print axioms part_19
/-- info: 'Cert.Kernel.AG.part_20' depends on axioms: [propext, Classical.choice, Quot.sound] -/
#guard_msgs in #print axioms part_20
/-- info: 'Cert.Kernel.AG.part_21' depends on axioms: [propext, Classical.choice, Quot.sound] -/
#guard_msgs in #print axioms part_21

end Cert.Kernel.AG

end
-- ==== Proof.K.AGParts_c.lean ====
/-
  The body, parts 22 to 28: the last four input copies' rows converted into the conversion buffer; the conversion buffer whole
  copied to the device's own half of the result; then every arrival from the x- and the y-neighbour not yet waited for, each
  waited for and copied to the other half of the result; last the waits for the first two z-transfers' send cells.
  By now the device has made all its 27 payments, so it owes nothing and may wait on any of its cells.  A receive wait hands over
  the rows of the communication buffer holding what their origin converted; the copy to the result reads them whole.
-/
import proofs.«900673_g7700000000000674_dist_ag_v7x_xyz2x2x2_z_m4096_n1024_bf16_1_alg».proof.Proof.Gen.Kernel.Skeleton
import proofs.«900673_g7700000000000674_dist_ag_v7x_xyz2x2x2_z_m4096_n1024_bf16_1_alg».proof.Proof.K.AGSteps
import proofs.«900673_g7700000000000674_dist_ag_v7x_xyz2x2x2_z_m4096_n1024_bf16_1_alg».proof.Proof.K.AGPays
import proofs.«900673_g7700000000000674_dist_ag_v7x_xyz2x2x2_z_m4096_n1024_bf16_1_alg».proof.Proof.K.AGSlices
import proofs.«900673_g7700000000000674_dist_ag_v7x_xyz2x2x2_z_m4096_n1024_bf16_1_alg».proof.Proof.K.AGOffs
import proofs.«900673_g7700000000000674_dist_ag_v7x_xyz2x2x2_z_m4096_n1024_bf16_1_alg».proof.Proof.K.AGGlue

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a landing hands over, by the cell's number -/

theorem pc_dpay_xr' (c : Dev nD) (k : Fin 8) (n : ℕ) (hn : n = 36 + k.val) :
    dpay m c n ⊢ pts c CM (xinOff c k) (xinLen k) (xin_inb c k) fullShare (commV m c) := by
  subst hn; rw [dpay_xr]; exact .rfl

theorem pc_dpay_yr' (c : Dev nD) (k : Fin 8) (n : ℕ) (hn : n = 52 + k.val) :
    dpay m c n ⊢ pts c CM (yinOff c k) (yinLen k) (yin_inb c k) fullShare (commV m c) := by
  subst hn; rw [dpay_yr]; exact .rfl

/-! ## A receive wait followed by the copy of the rows received to the result

  Nothing is owed any more, so the wait is allowed; the landing hands over the rows of the communication buffer whole, and the
  copy to the other half of the result reads them whole. -/

theorem pc_step_recv_copy (c : Dev nD) (K : Dev nD × Fin 86 → ℕ) (o r : ℕ) (h : o + r ≤ 4096) (h' : othb c + o + r ≤ 8192)
    (nr nc : ℕ) (hnr : nr < 85) (hnc : nc < 85)
    (fd : Buf (Elt F) ((sl OU (othb c + o) r h').view.loc (c : Thread nD τ)))
    (off off' : Fin 2 → ℕ) (hoff : off = ![o, 0]) (hoff' : off' = ![othb c + o, 0])
    (qr qc : DmaSem sig) (hqr : qr = ⟨nr, hnr⟩) (hqc : qc = ⟨nc, hnc⟩)
    {inb : ∀ a, off a + (Sr r).size a ≤ (Sr 4096).size a} {inb' : ∀ a, off' a + (Sr r).size a ≤ (Sr 8192).size a}
    {hst : ∀ a, (Rect.unit (s := Sr 4096) off (Sr r).size inb).stride a = 1} {hst' : ∀ a, (Rect.unit (s := Sr 8192) off' (Sr r).size inb').stride a = 1}
    {hw1 hw2 hsrc : (CM.slice (Rect.unit (s := Sr 4096) off (Sr r).size inb) hst).view.WordExact}
    {hdst : (OU.slice (Rect.unit (s := Sr 8192) off' (Sr r).size inb') hst').view.WordExact}
    {hsem : DmaTarget.Typed (nD := nD) (τ := τ) (p := .tc) .vmem (SemLoc.dma qc) (DmaTarget.here (OU.slice (Rect.unit (s := Sr 8192) off' (Sr r).size inb') hst'))}
    {α : Type} {Q : α → sProp 𝕄} {k : PUnit → Prog (TpuEff nD τ sig (Elt F) Λ₀ .tc) α} (W : Waits sig Unit)
    (hkr : (sl CM o r h).view.dmaCredit = damt nr) (hkc : (sl OU (othb c + o) r h').view.dmaCredit = damt nc)
    (hrecv : dpay m c nr ⊢ pts c CM o r h fullShare (commV m c))
    (hpay : iprop(((sl OU (othb c + o) r h').view.loc (c : Thread nD τ) ↦[(sl OU (othb c + o) r h').view.set]{fullShare}
                ((sl OU (othb c + o) r h').view.write (Elt F) fd ((sl CM o r h).view.read (Elt F) (commV m c)) Finset.univ))
              ∗ ((sl CM o r h).view.loc (c : Thread nD τ) ↦[(sl CM o r h).view.set]{fullShare} (commV m c))) ⊢ dpay m c nc) :
    iprop(records m K ∗ cred (tallyAt (dcell c nr hnr) () (damt nr)) ∗ owes (c : Thread nD τ) (owedAfter c 27) W ∗ atPos ER (dcell c nr hnr) 0 ∅ 0
        ∗ pts c OU (othb c + o) r h' fullShare fd ∗ dutyTok ER (dcell c nc hnc) 0 0)
      ⊢ iprop(((owes (c : Thread nD τ) (owedAfter c 27) (insert (SemLoc.dma ⟨nr, hnr⟩, ()) W) ∗ atPos ER (dcell c nr hnr) 1 ∅ 0
              ∗ cred (tallyAt (dcell c nc hnc) () (damt nc)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qr (CM.slice (Rect.unit (s := Sr 4096) off (Sr r).size inb) hst) (CM.slice (Rect.unit (s := Sr 4096) off (Sr r).size inb) hst) hw1 hw2)
                fun _ => .op (.enqueueDma (CM.slice (Rect.unit (s := Sr 4096) off (Sr r).size inb) hst)
                  (.here (OU.slice (Rect.unit (s := Sr 8192) off' (Sr r).size inb') hst')) (.dma qc) hsrc hdst hsem) k) Q) := by
  subst hoff hoff' hqr hqc
  iintro ⟨#Hrec, Hcr, Howes, Hat, Hou, Hdt⟩ Hk
  ihave #Hir := (inv_dma m K c nr hnr) $$ Hrec
  ihave #Hic := (inv_dma m K c nc hnc) $$ Hrec
  ihave #Hrc := (reached_dma m K c nc hnc) $$ Hrec
  iapply (step_wait m c nr hnr (owedAfter c 27) W hkr) $$ [Hcr Howes Hat]
  · isplitr; · iexact Hir
    isplitl [Hcr]; · iexact Hcr
    isplitl [Howes]; · iexact Howes
    isplitr; · rw [owedAfter_all, MayWait_zero]; iempintro
    iexact Hat
  iintro ⟨Howes, Hat, -, Hpay⟩
  ihave Hcm := hrecv $$ Hpay
  iapply (step_copy m c CM OU o (othb c + o) r h h' nc hnc fullShare (commV m c) fd hkc hpay) $$ [Hcm Hou Hdt]
  · isplitr; · iexact Hic
    isplitl [Hcm]; · iexact Hcm
    isplitl [Hou]; · iexact Hou
    isplitl [Hdt]; · iexact Hdt
    iexact Hrc
  iintro Hcr'
  iapply Hk
  isplitl [Howes]; · iexact Howes
  isplitl [Hat]; · iexact Hat
  iexact Hcr'

/-! ## The conversion of rows of the staging buffer into the conversion buffer -/

/-- Rows written with the conversion of the device's half at those rows hold the converted half there. -/
theorem pc_store_mine_eq_on (c : Dev nD) (o r : ℕ) (h : o + r ≤ 4096) (f : Buf (Elt F) (MI.view.loc (c : Thread nD τ)))
    (w : (Sr r).Idx → Elt F .bf16) (hw : ∀ y, w y = mineV m c (up o h y)) :
    ∀ i ∈ (sl MI o r h).view.set, (sl MI o r h).view.write (Elt F) f w Finset.univ i = mineV m c i := by
  intro i hi
  obtain ⟨x, rfl, hx⟩ := (sl_mem_iff_exists MI).mp hi
  refine eq_at_emb_of_read_eq MI ((read_sl_write_of_mem MI h f w x hx).trans ?_)
  rw [hw, up_down]
  rfl

/-- The conversion of the staged rows is the converted half at those rows. -/
theorem pc_truncf_rows (c : Dev nD) (o r : ℕ) (h : o + r ≤ 4096) (y : (Sr r).Idx) :
    truncf .bf16 ((sl ST o r h).view.read (Elt F) (X m c)) (by decide) y = mineV m c (up o h y) := by
  show FloatOps.truncf .bf16 _ ((sl ST o r h).view.read (Elt F) (X m c) y) = FloatOps.truncf .bf16 _ (X m c (up o h y))
  rw [sl_read]
  rfl

/-- A load of rows of the conversion buffer whose value is not used, then the store of w over them: when w is the converted
    half at those rows, the rows hold it. -/
theorem pc_step_load_store (c : Dev nD) (o r : ℕ) (h : o + r ≤ 4096) (fm : Buf (Elt F) ((sl MI o r h).view.loc (c : Thread nD τ)))
    (off : Fin 2 → ℕ) (hoff : off = ![o, 0]) {inb : ∀ a, off a + (Sr r).size a ≤ (Sr 4096).size a}
    {hl : MI.view.LoadsAt (Rect.unit (s := Sr 4096) off (Sr r).size inb).toLoadRect}
    (w : (Sr r).Idx → Elt F .bf16)
    {hx : (MI.access (Rect.unit (s := Sr 4096) off (Sr r).size inb)).Stores Finset.univ}
    {hm : (Finset.univ : Finset (Rect.unit (s := Sr 4096) off (Sr r).size inb).shape.Idx) = Finset.univ ∨ ∀ a, (Rect.unit (s := Sr 4096) off (Sr r).size inb).stride a = 1}
    {α : Type} {Q : α → sProp 𝕄} {k : PUnit → Prog (TpuEff nD τ sig (Elt F) Λ₀ .tc) α}
    (hw : ∀ y, w y = mineV m c (up o h y)) :
    pts c MI o r h fullShare fm
      ⊢ iprop((pts c MI o r h fullShare (mineV m c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load MI (Rect.unit (s := Sr 4096) off (Sr r).size inb).toLoadRect hl) fun _ =>
                .op (.store MI (Rect.unit (s := Sr 4096) off (Sr r).size inb) w Finset.univ hx hm) k) Q) := by
  subst hoff
  unfold pts
  iintro Hm Hk
  iapply (wp_load_rect 𝒱₀ (c : Thread nD τ) none Set.univ (m := MI) (r := Rect.unit (s := Sr 4096) ![o, 0] (Sr r).size inb)
    (S := (sl MI o r h).view.set) (q := fullShare) (f := fm) subset_rfl) $$ Hm
  iintro Hm
  iapply (wp_store 𝒱₀ (c : Thread nD τ) none Set.univ (m := MI) (r := Rect.unit (s := Sr 4096) ![o, 0] (Sr r).size inb)
    (S := (sl MI o r h).view.set) (f := fm) (by rw [View.setOn_univ])) $$ Hm
  iintro Hm
  iapply Hk
  iapply (pointsTo_congr_on (pc_store_mine_eq_on m c o r h fm w hw)).1
  iexact Hm

/-! ## A wait when nothing is owed any more -/

/-- The credit of rows of the conversion buffer is that of as many rows of the communication buffer. -/
theorem pc_credit_mi (o : ℕ) (j : Fin 8) (h : o + ownLen j ≤ 4096) : (sl MI o (ownLen j) h).view.dmaCredit = damt (12 + j.val) :=
  credit_zs o j h

theorem pc_dpay_zs' (c : Dev nD) (j : Fin 8) (n : ℕ) (hn : n = 12 + j.val) :
    dpay m c n ⊢ pts c MI (ownOff c j) (ownLen j) (own_inb c j) sL (mineV m c) := by
  subst hn; rw [dpay_zs]; exact .rfl

theorem pc_dpay_in' (c : Dev nD) (i : Fin 12) (n : ℕ) (hn : n = i.val) :
    dpay m c n ⊢ iprop(pts c ST (inOff c i) (inLen i) (in_inb c i) fullShare (X m c) ∗ pts c XA (inOff c i) (inLen i) (in_inb c i) fullShare (X m c)) := by
  subst hn; rw [dpay_in]; exact .rfl

/-- The wait on DMA cell n of the device, for a transfer whose destination is rows [o, o + r) of M, once all payments are made:
    the cell's payload. -/
theorem pc_step_wait_done {sp sp' : Space} {s' : Shape} {e e' : EltTy} {R : ℕ} (c : Dev nD) (K : Dev nD × Fin 86 → ℕ)
    (M : Memref sig .tc sp (Sr R) e) (o r : ℕ) (h : o + r ≤ R) (n : ℕ) (hn : n < 85)
    (off : Fin 2 → ℕ) (hoff : off = ![o, 0]) (qs : DmaSem sig) (hqs : qs = ⟨n, hn⟩)
    {inb : ∀ a, off a + (Sr r).size a ≤ (Sr R).size a} {hst : ∀ a, (Rect.unit (s := Sr R) off (Sr r).size inb).stride a = 1}
    {src : Memref sig .tc sp' s' e'} {hsrc : src.view.WordExact} {hdst : (M.slice (Rect.unit (s := Sr R) off (Sr r).size inb) hst).view.WordExact}
    {α : Type} {Q : α → sProp 𝕄} {k : PUnit → Prog (TpuEff nD τ sig (Elt F) Λ₀ .tc) α} (W : Waits sig Unit)
    (hk : (sl M o r h).view.dmaCredit = damt n) :
    iprop(records m K ∗ cred (tallyAt (dcell c n hn) () (damt n)) ∗ owes (c : Thread nD τ) (owedAfter c 27) W ∗ atPos ER (dcell c n hn) 0 ∅ 0)
      ⊢ iprop(((owes (c : Thread nD τ) (owedAfter c 27) (insert (SemLoc.dma ⟨n, hn⟩, ()) W) ∗ atPos ER (dcell c n hn) 1 ∅ 0 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs src (M.slice (Rect.unit (s := Sr R) off (Sr r).size inb) hst) hsrc hdst) k) Q) := by
  subst hoff hqs
  iintro ⟨#Hrec, Hcr, Howes, Hat⟩ Hk
  ihave #Hi := (inv_dma m K c n hn) $$ Hrec
  iapply (step_wait m c n hn (owedAfter c 27) W hk) $$ [Hcr Howes Hat]
  · isplitr; · iexact Hi
    isplitl [Hcr]; · iexact Hcr
    isplitl [Howes]; · iexact Howes
    isplitr; · rw [owedAfter_all, MayWait_zero]; iempintro
    iexact Hat
  iintro ⟨Howes, Hat, -, Hpay⟩
  iapply Hk
  isplitl [Howes]; · iexact Howes
  isplitl [Hat]; · iexact Hat
  iexact Hpay

/-! ## The copy of the whole conversion buffer to the device's own half of the result -/

/-- All 4096 rows of a memref read as the memref itself reads. -/
theorem pc_sl_whole_read {Val : EltTy → Type} {sp : Space} {e : EltTy} {R : ℕ} (M : Memref sig .tc sp (Sr R) e) (h : 0 + R ≤ R)
    (f : M.view.ty.Contents Val) : (sl M 0 R h).view.read Val f = M.view.read Val f := by
  funext y
  rw [sl_read]
  congr 1
  funext a
  apply Fin.ext
  match a with
  | ⟨0, _⟩ => show 0 + (y 0).val = (y 0).val; omega
  | ⟨1, _⟩ => rfl

/-- What the copy of the whole conversion buffer lands, the source named whole. -/
theorem pc_pay_lm_whole (c : Dev nD) (fd : Buf (Elt F) ((sl OU (myb c) 4096 (omy_inb c)).view.loc (c : Thread nD τ))) :
    iprop(((sl OU (myb c) 4096 (omy_inb c)).view.loc (c : Thread nD τ) ↦[(sl OU (myb c) 4096 (omy_inb c)).view.set]{fullShare}
              ((sl OU (myb c) 4096 (omy_inb c)).view.write (Elt F) fd (MI.view.read (Elt F) (mineV m c)) Finset.univ))
        ∗ (MI.view.loc (c : Thread nD τ) ↦[MI.view.set]{sR} (mineV m c)))
      ⊢ (dpay m c 84 : sProp 𝕄) := by
  have h := pay_lm m c fd
  rw [pc_sl_whole_read MI (Nat.le_refl _), sl_whole_set MI] at h
  exact h

theorem pc_step_copy_lm (c : Dev nD) (K : Dev nD × Fin 86 → ℕ) (fd : Buf (Elt F) ((sl OU (myb c) 4096 (omy_inb c)).view.loc (c : Thread nD τ)))
    (off' : Fin 2 → ℕ) (hoff' : off' = ![myb c, 0]) (qs : DmaSem sig) (hqs : qs = ⟨84, by decide⟩)
    {inb' : ∀ a, off' a + (Sr 4096).size a ≤ (Sr 8192).size a} {hst' : ∀ a, (Rect.unit (s := Sr 8192) off' (Sr 4096).size inb').stride a = 1}
    {hsrc : MI.view.WordExact} {hdst : (OU.slice (Rect.unit (s := Sr 8192) off' (Sr 4096).size inb') hst').view.WordExact}
    {hsem : DmaTarget.Typed (nD := nD) (τ := τ) (p := .tc) .vmem (SemLoc.dma qs) (DmaTarget.here (OU.slice (Rect.unit (s := Sr 8192) off' (Sr 4096).size inb') hst'))}
    {α : Type} {Q : α → sProp 𝕄} {k : PUnit → Prog (TpuEff nD τ sig (Elt F) Λ₀ .tc) α} :
    iprop(records m K ∗ pts c MI 0 4096 (Nat.le_refl _) sR (mineV m c) ∗ pts c OU (myb c) 4096 (omy_inb c) fullShare fd
        ∗ dutyTok ER (dcell c 84 (by decide)) 0 0)
      ⊢ iprop((cred (tallyAt (dcell c 84 (by decide)) () (damt 84)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma MI (.here (OU.slice (Rect.unit (s := Sr 8192) off' (Sr 4096).size inb') hst')) (.dma qs) hsrc hdst hsem) k) Q) := by
  subst hoff' hqs
  have hc := Rounds.wp_copy_pointsTo (defs := defs₀ (F := F)) 𝒱₀ ER (agRd m) (c : Thread nD τ) none (r := 0) (d := 0) (Q := Q) (k := k)
    (src := MI) (dst := sl OU (myb c) 4096 (omy_inb c)) (q := sR) (fs := mineV m c) (fd := fd) (hsrc := hsrc) (hdst := hdst) (hsem := hsem)
    (κ := K (c, ⟨84, by omega⟩)) (Es := Set.univ) (Γ := PendingWaitsCtx.empty)
    (by rw [duties_dma]; exact Finset.mem_singleton_self _) () (damt 84) ((View.amount_dma _ _).trans (credit_lm (myb c) (omy_inb c)))
    (amount_dma m c 84 (by decide) 0) (by rw [payload_dma]; exact pc_pay_lm_whole m c fd)
  unfold pts
  rw [sl_whole_set MI]
  iintro ⟨#Hrec, Hmi, Hou, Hdt⟩
  ihave #Hi := (inv_dma m K c 84 (by decide)) $$ Hrec
  ihave #Hr := (reached_dma m K c 84 (by decide)) $$ Hrec
  iapply hc
  isplitr; · iexact Hi
  isplitl [Hmi]; · iexact Hmi
  isplitl [Hou]; · iexact Hou
  isplitl [Hdt]; · iexact Hdt
  iexact Hr

/-! ## The printed row chains of these parts, as rows of the arrivals -/

theorem pc_off43_x0 (c : Dev nD) : k0_off43 c = ![xinOff c 0, 0] :=
  (off43_eq c).trans ((by decide : ∀ c : Dev nD, (![pxn c, 0] : Fin 2 → ℕ) = ![xinOff c 0, 0]) c)
theorem pc_off44_x0 (c : Dev nD) : k0_off44 c = ![othb c + xinOff c 0, 0] :=
  (off44_eq c).trans ((by decide : ∀ c : Dev nD, (![othb c + pxn c, 0] : Fin 2 → ℕ) = ![othb c + xinOff c 0, 0]) c)

theorem pc_off45_x1 (c : Dev nD) : k0_off45 c = ![xinOff c 1, 0] :=
  (off45_eq c).trans ((by decide : ∀ c : Dev nD, (![pxn c + 112, 0] : Fin 2 → ℕ) = ![xinOff c 1, 0]) c)
theorem pc_off46_x1 (c : Dev nD) : k0_off46 c = ![othb c + xinOff c 1, 0] :=
  (off46_eq c).trans ((by decide : ∀ c : Dev nD, (![othb c + pxn c + 112, 0] : Fin 2 → ℕ) = ![othb c + xinOff c 1, 0]) c)

theorem pc_off47_x4 (c : Dev nD) : k0_off47 c = ![xinOff c 4, 0] :=
  (off47_eq c).trans ((by decide : ∀ c : Dev nD, (![roth c, 0] : Fin 2 → ℕ) = ![xinOff c 4, 0]) c)
theorem pc_off48_x4 (c : Dev nD) : k0_off48 c = ![othb c + xinOff c 4, 0] :=
  (off48_eq c).trans ((by decide : ∀ c : Dev nD, (![othb c + roth c, 0] : Fin 2 → ℕ) = ![othb c + xinOff c 4, 0]) c)

theorem pc_off49_1_x5 (c : Dev nD) : k0_off49 c 176#32 = ![xinOff c 5, 0] :=
  (off49_1_eq c).trans ((by decide : ∀ c : Dev nD, (![roth c + 176, 0] : Fin 2 → ℕ) = ![xinOff c 5, 0]) c)
theorem pc_off50_1_x5 (c : Dev nD) : k0_off50 c 176#32 = ![othb c + xinOff c 5, 0] :=
  (off50_1_eq c).trans ((by decide : ∀ c : Dev nD, (![othb c + roth c + 176, 0] : Fin 2 → ℕ) = ![othb c + xinOff c 5, 0]) c)

theorem pc_off51_x6 (c : Dev nD) : k0_off51 c = ![xinOff c 6, 0] :=
  (off51_eq c).trans ((by decide : ∀ c : Dev nD, (![pdg c, 0] : Fin 2 → ℕ) = ![xinOff c 6, 0]) c)
theorem pc_off52_x6 (c : Dev nD) : k0_off52 c = ![othb c + xinOff c 6, 0] :=
  (off52_eq c).trans ((by decide : ∀ c : Dev nD, (![othb c + pdg c, 0] : Fin 2 → ℕ) = ![othb c + xinOff c 6, 0]) c)

theorem pc_off53_x7 (c : Dev nD) : k0_off53 c = ![xinOff c 7, 0] :=
  (off53_eq c).trans ((by decide : ∀ c : Dev nD, (![pdg c + 112, 0] : Fin 2 → ℕ) = ![xinOff c 7, 0]) c)
theorem pc_off54_x7 (c : Dev nD) : k0_off54 c = ![othb c + xinOff c 7, 0] :=
  (off54_eq c).trans ((by decide : ∀ c : Dev nD, (![othb c + pdg c + 112, 0] : Fin 2 → ℕ) = ![othb c + xinOff c 7, 0]) c)

theorem pc_off55_y2 (c : Dev nD) : k0_off55 c = ![yinOff c 2, 0] :=
  (off55_eq c).trans ((by decide : ∀ c : Dev nD, (![pyn c + 336, 0] : Fin 2 → ℕ) = ![yinOff c 2, 0]) c)
theorem pc_off56_y2 (c : Dev nD) : k0_off56 c = ![othb c + yinOff c 2, 0] :=
  (off56_eq c).trans ((by decide : ∀ c : Dev nD, (![othb c + pyn c + 336, 0] : Fin 2 → ℕ) = ![othb c + yinOff c 2, 0]) c)

theorem pc_off57_y3 (c : Dev nD) : k0_off57 c = ![yinOff c 3, 0] :=
  (off57_eq c).trans ((by decide : ∀ c : Dev nD, (![pyn c + 504, 0] : Fin 2 → ℕ) = ![yinOff c 3, 0]) c)
theorem pc_off58_y3 (c : Dev nD) : k0_off58 c = ![othb c + yinOff c 3, 0] :=
  (off58_eq c).trans ((by decide : ∀ c : Dev nD, (![othb c + pyn c + 504, 0] : Fin 2 → ℕ) = ![othb c + yinOff c 3, 0]) c)

theorem pc_off49_2_y4 (c : Dev nD) : k0_off49 c 352#32 = ![yinOff c 4, 0] :=
  (off49_2_eq c).trans ((by decide : ∀ c : Dev nD, (![roth c + 352, 0] : Fin 2 → ℕ) = ![yinOff c 4, 0]) c)
theorem pc_off50_2_y4 (c : Dev nD) : k0_off50 c 352#32 = ![othb c + yinOff c 4, 0] :=
  (off50_2_eq c).trans ((by decide : ∀ c : Dev nD, (![othb c + roth c + 352, 0] : Fin 2 → ℕ) = ![othb c + yinOff c 4, 0]) c)

theorem pc_off59_y5 (c : Dev nD) : k0_off59 c = ![yinOff c 5, 0] :=
  (off59_eq c).trans ((by decide : ∀ c : Dev nD, (![roth c + 528, 0] : Fin 2 → ℕ) = ![yinOff c 5, 0]) c)
theorem pc_off60_y5 (c : Dev nD) : k0_off60 c = ![othb c + yinOff c 5, 0] :=
  (off60_eq c).trans ((by decide : ∀ c : Dev nD, (![othb c + roth c + 528, 0] : Fin 2 → ℕ) = ![othb c + yinOff c 5, 0]) c)

theorem pc_off61_y6 (c : Dev nD) : k0_off61 c = ![yinOff c 6, 0] :=
  (off61_eq c).trans ((by decide : ∀ c : Dev nD, (![pdg c + 336, 0] : Fin 2 → ℕ) = ![yinOff c 6, 0]) c)
theorem pc_off62_y6 (c : Dev nD) : k0_off62 c = ![othb c + yinOff c 6, 0] :=
  (off62_eq c).trans ((by decide : ∀ c : Dev nD, (![othb c + pdg c + 336, 0] : Fin 2 → ℕ) = ![othb c + yinOff c 6, 0]) c)

theorem pc_off63_y7 (c : Dev nD) : k0_off63 c = ![yinOff c 7, 0] :=
  (off63_eq c).trans ((by decide : ∀ c : Dev nD, (![pdg c + 504, 0] : Fin 2 → ℕ) = ![yinOff c 7, 0]) c)
theorem pc_off64_y7 (c : Dev nD) : k0_off64 c = ![othb c + yinOff c 7, 0] :=
  (off64_eq c).trans ((by decide : ∀ c : Dev nD, (![othb c + pdg c + 504, 0] : Fin 2 → ℕ) = ![othb c + yinOff c 7, 0]) c)

theorem pc_off1_z0 (c : Dev nD) : k0_off1 c = ![ownOff c 0, 0] :=
  (off1_eq c).trans ((by decide : ∀ c : Dev nD, (![pown c, 0] : Fin 2 → ℕ) = ![ownOff c 0, 0]) c)
theorem pc_off2_z1 (c : Dev nD) : k0_off2 c = ![ownOff c 1, 0] :=
  (off2_eq c).trans ((by decide : ∀ c : Dev nD, (![pown c + 112, 0] : Fin 2 → ℕ) = ![ownOff c 1, 0]) c)
theorem pc_off42_my (c : Dev nD) : k0_off42 c = ![myb c, 0] := off42_eq c

theorem pc_off38_in8 (c : Dev nD) : k0_off38 c = ![inOff c 8, 0] :=
  (off38_eq c).trans ((by decide : ∀ c : Dev nD, (![pxn c, 0] : Fin 2 → ℕ) = ![inOff c 8, 0]) c)
theorem pc_off10_in9 (c : Dev nD) : k0_off10 c = ![inOff c 9, 0] :=
  (off10_eq c).trans ((by decide : ∀ c : Dev nD, (![pyn c, 0] : Fin 2 → ℕ) = ![inOff c 9, 0]) c)
theorem pc_off39_in9 (c : Dev nD) : k0_off39 c = ![inOff c 9, 0] :=
  (off39_eq c).trans ((by decide : ∀ c : Dev nD, (![pyn c, 0] : Fin 2 → ℕ) = ![inOff c 9, 0]) c)
theorem pc_off11_in10 (c : Dev nD) : k0_off11 c = ![inOff c 10, 0] :=
  (off11_eq c).trans ((by decide : ∀ c : Dev nD, (![pdg c, 0] : Fin 2 → ℕ) = ![inOff c 10, 0]) c)
theorem pc_off40_in10 (c : Dev nD) : k0_off40 c = ![inOff c 10, 0] :=
  (off40_eq c).trans ((by decide : ∀ c : Dev nD, (![pdg c, 0] : Fin 2 → ℕ) = ![inOff c 10, 0]) c)
theorem pc_off12_in11 (c : Dev nD) : k0_off12 c = ![inOff c 11, 0] :=
  (off12_eq c).trans ((by decide : ∀ c : Dev nD, (![roth c, 0] : Fin 2 → ℕ) = ![inOff c 11, 0]) c)
theorem pc_off41_in11 (c : Dev nD) : k0_off41 c = ![inOff c 11, 0] :=
  (off41_eq c).trans ((by decide : ∀ c : Dev nD, (![roth c, 0] : Fin 2 → ℕ) = ![inOff c 11, 0]) c)

/-! ## An input wait followed by the conversion of the rows it staged -/

theorem pc_pts_eq {sp : Space} {e : EltTy} {R : ℕ} (c : Dev nD) (M : Memref sig .tc sp (Sr R) e) (o r : ℕ) (h : o + r ≤ R) (q : PosShare TreeShare)
    (f : Buf (Elt F) ((sl M o r h).view.loc (c : Thread nD τ))) :
    pts (F := F) c M o r h q f = ((sl M o r h).view.loc (c : Thread nD τ) ↦[(sl M o r h).view.set]{q} f) := rfl

/-- The wait for input copy i, the load of the rows it staged, the unused load of the same rows of the conversion buffer and
    the store of the staged rows converted: the staging rows and the argument's rows come back, and the rows of the conversion
    buffer hold the device's half converted. -/
theorem pc_step_wait_conv (c : Dev nD) (K : Dev nD × Fin 86 → ℕ) (i : Fin 12) (n : ℕ) (hni : n = i.val) (hn : n < 85)
    (fm : Buf (Elt F) ((sl MI (inOff c i) (inLen i) (in_inb c i)).view.loc (c : Thread nD τ)))
    (offw off : Fin 2 → ℕ) (hoffw : offw = ![inOff c i, 0]) (hoff : off = ![inOff c i, 0]) (qs : DmaSem sig) (hqs : qs = ⟨n, hn⟩)
    {inbw : ∀ a, offw a + (Sr (inLen i)).size a ≤ (Sr 4096).size a} {inb : ∀ a, off a + (Sr (inLen i)).size a ≤ (Sr 4096).size a}
    {hstw : ∀ a, (Rect.unit (s := Sr 4096) offw (Sr (inLen i)).size inbw).stride a = 1}
    {sp' : Space} {s' : Shape} {e' : EltTy} {src : Memref sig .tc sp' s' e'} {hws : src.view.WordExact}
    {hwd : (ST.slice (Rect.unit (s := Sr 4096) offw (Sr (inLen i)).size inbw) hstw).view.WordExact}
    {hl1 : ST.view.LoadsAt (Rect.unit (s := Sr 4096) off (Sr (inLen i)).size inb).toLoadRect}
    {hl2 : MI.view.LoadsAt (Rect.unit (s := Sr 4096) off (Sr (inLen i)).size inb).toLoadRect}
    (pay : ((Sr (inLen i)).Idx → Elt F .f32) → (Sr (inLen i)).Idx → Elt F .bf16)
    {hx : (MI.access (Rect.unit (s := Sr 4096) off (Sr (inLen i)).size inb)).Stores Finset.univ}
    {hm : (Finset.univ : Finset (Rect.unit (s := Sr 4096) off (Sr (inLen i)).size inb).shape.Idx) = Finset.univ ∨ ∀ a, (Rect.unit (s := Sr 4096) off (Sr (inLen i)).size inb).stride a = 1}
    {α : Type} {Q : α → sProp 𝕄} {k : PUnit → Prog (TpuEff nD τ sig (Elt F) Λ₀ .tc) α} (W : Waits sig Unit)
    (hpayv : ∀ v, pay v = truncf .bf16 v (by decide)) :
    iprop(records m K ∗ cred (tallyAt (dcell c n hn) () (damt n)) ∗ owes (c : Thread nD τ) (owedAfter c 27) W ∗ atPos ER (dcell c n hn) 0 ∅ 0
        ∗ pts c MI (inOff c i) (inLen i) (in_inb c i) fullShare fm)
      ⊢ iprop(((owes (c : Thread nD τ) (owedAfter c 27) (insert (SemLoc.dma ⟨n, hn⟩, ()) W) ∗ atPos ER (dcell c n hn) 1 ∅ 0
              ∗ pts c ST (inOff c i) (inLen i) (in_inb c i) fullShare (X m c) ∗ pts c XA (inOff c i) (inLen i) (in_inb c i) fullShare (X m c)
              ∗ pts c MI (inOff c i) (inLen i) (in_inb c i) fullShare (mineV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs src (ST.slice (Rect.unit (s := Sr 4096) offw (Sr (inLen i)).size inbw) hstw) hws hwd) fun _ =>
                .op (.load ST (Rect.unit (s := Sr 4096) off (Sr (inLen i)).size inb).toLoadRect hl1) fun v =>
                  .op (.load MI (Rect.unit (s := Sr 4096) off (Sr (inLen i)).size inb).toLoadRect hl2) fun _ =>
                    .op (.store MI (Rect.unit (s := Sr 4096) off (Sr (inLen i)).size inb) (pay v) Finset.univ hx hm) k) Q) := by
  subst hoffw hoff hqs hni
  iintro ⟨#Hrec, Hcr, Howes, Hat, Hm⟩ Hk
  iapply (pc_step_wait_done m c K ST (inOff c i) (inLen i) (in_inb c i) i.val hn ![inOff c i, 0] rfl _ rfl W
      (credit_in (inOff c i) i (in_inb c i))) $$ [Hcr Howes Hat]
  · isplitr; · iexact Hrec
    isplitl [Hcr]; · iexact Hcr
    isplitl [Howes]; · iexact Howes
    iexact Hat
  iintro ⟨Howes, Hat, Hpay⟩
  ihave Hp := (pc_dpay_in' m c i i.val rfl) $$ Hpay
  icases Hp with ⟨Hst, Hxa⟩
  ihave Hst := (Entails.of_eq (pc_pts_eq c ST (inOff c i) (inLen i) (in_inb c i) fullShare (X m c))) $$ Hst
  iapply (wp_load_rect 𝒱₀ (c : Thread nD τ) none Set.univ (m := ST) (r := Rect.unit (s := Sr 4096) ![inOff c i, 0] (Sr (inLen i)).size inb)
    (S := (sl ST (inOff c i) (inLen i) (in_inb c i)).view.set) (q := fullShare) (f := X m c) subset_rfl) $$ Hst
  iintro Hst
  iapply (pc_step_load_store m c (inOff c i) (inLen i) (in_inb c i) fm ![inOff c i, 0] rfl _
      (fun y => by rw [hpayv]; exact pc_truncf_rows m c _ _ _ y)) $$ Hm
  iintro Hm
  iapply Hk
  isplitl [Howes]; · iexact Howes
  isplitl [Hat]; · iexact Hat
  isplitl [Hst]; · iapply (Entails.of_eq (pc_pts_eq c ST (inOff c i) (inLen i) (in_inb c i) fullShare (X m c)).symm); iexact Hst
  isplitl [Hxa]; · iexact Hxa
  iexact Hm

/-- The conversion of the rows input copy 8 staged is the converted half at those rows: what the vector handed to part 22 is. -/
theorem pc_pay10_rows (c : Dev nD) (y : (Sr (inLen 8)).Idx) :
    k0_pay10 ((sl ST (inOff c 8) (inLen 8) (in_inb c 8)).view.read (Elt F) (X m c)) y = mineV m c (up (inOff c 8) (in_inb c 8) y) :=
  pc_truncf_rows m c _ _ _ y

set_option maxRecDepth 65536 in
set_option maxHeartbeats 1000000 in
/-- Part 22: the store of the converted rows of input copy 8 (the vector v698 is those rows converted); then, for input copies
    9, 10 and 11, the wait, the load of the staged rows and the store of them converted.  After it the conversion buffer holds the
    device's half converted on the rows of all four. -/
theorem part_22 (c : Dev nD) (K : Dev nD × Fin 86 → ℕ) (v36 v41 v46 : BitVec 32) (v698 : FVec F S672x1024 .bf16) (W : Waits sig Unit)
    (hv : ∀ y : (Sr (inLen 8)).Idx, v698 y = mineV m c (up (inOff c 8) (in_inb c 8) y))
    (fm8 : Buf (Elt F) ((sl MI (inOff c 8) (inLen 8) (in_inb c 8)).view.loc (c : Thread nD τ))) (fm9 : Buf (Elt F) ((sl MI (inOff c 9) (inLen 9) (in_inb c 9)).view.loc (c : Thread nD τ)))
    (fm10 : Buf (Elt F) ((sl MI (inOff c 10) (inLen 10) (in_inb c 10)).view.loc (c : Thread nD τ))) (fm11 : Buf (Elt F) ((sl MI (inOff c 11) (inLen 11) (in_inb c 11)).view.loc (c : Thread nD τ))) :
    iprop(records m K ∗ levAts L lv
        ∗ pts c MI (inOff c 8) (inLen 8) (in_inb c 8) fullShare fm8
        ∗ cred (tallyAt (dcell c 9 (by decide)) () (damt 9)) ∗ owes (c : Thread nD τ) (owedAfter c 27) W ∗ atPos ER (dcell c 9 (by decide)) 0 ∅ 0
        ∗ pts c MI (inOff c 9) (inLen 9) (in_inb c 9) fullShare fm9
        ∗ cred (tallyAt (dcell c 10 (by decide)) () (damt 10)) ∗ atPos ER (dcell c 10 (by decide)) 0 ∅ 0
        ∗ pts c MI (inOff c 10) (inLen 10) (in_inb c 10) fullShare fm10
        ∗ cred (tallyAt (dcell c 11 (by decide)) () (damt 11)) ∗ atPos ER (dcell c 11 (by decide)) 0 ∅ 0
        ∗ pts c MI (inOff c 11) (inLen 11) (in_inb c 11) fullShare fm11)
      ⊢ wp frame (wpE (defs₀ (F := F)) 𝒱₀ (c : Thread nD τ) none) Set.univ
          (k0_part22 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v36 v41 v46 v698)
          (fun r => iprop(pts c MI (inOff c 8) (inLen 8) (in_inb c 8) fullShare (mineV m c)
            ∗ (∃ W', owes (c : Thread nD τ) (owedAfter c 27) W')
            ∗ atPos ER (dcell c 9 (by decide)) 1 ∅ 0 ∗ pts c ST (inOff c 9) (inLen 9) (in_inb c 9) fullShare (X m c)
            ∗ pts c XA (inOff c 9) (inLen 9) (in_inb c 9) fullShare (X m c) ∗ pts c MI (inOff c 9) (inLen 9) (in_inb c 9) fullShare (mineV m c)
            ∗ atPos ER (dcell c 10 (by decide)) 1 ∅ 0 ∗ pts c ST (inOff c 10) (inLen 10) (in_inb c 10) fullShare (X m c)
            ∗ pts c XA (inOff c 10) (inLen 10) (in_inb c 10) fullShare (X m c) ∗ pts c MI (inOff c 10) (inLen 10) (in_inb c 10) fullShare (mineV m c)
            ∗ atPos ER (dcell c 11 (by decide)) 1 ∅ 0 ∗ pts c ST (inOff c 11) (inLen 11) (in_inb c 11) fullShare (X m c)
            ∗ pts c XA (inOff c 11) (inLen 11) (in_inb c 11) fullShare (X m c) ∗ pts c MI (inOff c 11) (inLen 11) (in_inb c 11) fullShare (mineV m c))) := by
  simp only [k0_part22_eq_skeleton]; unfold k0_part22_skel
  simp only [Prog.lift, Prog.bind_op, Prog.bind_ret, Prog.pure_eq_ret, Prog.bind_assoc]
  iintro ⟨#Hrec, -, Hm8, Hcr9, Howes, Hat9, Hm9, Hcr10, Hat10, Hm10, Hcr11, Hat11, Hm11⟩
  iapply (pc_step_load_store m c (inOff c 8) (inLen 8) (in_inb c 8) fm8 (k0_off38 c) (pc_off38_in8 c) (k0_pay11 v698)
      (fun y => by rw [show k0_pay11 v698 = v698 from shapeCast_self _ _]; exact hv y)) $$ Hm8
  iintro Hm8
  iapply (pc_step_wait_conv m c K 9 9 rfl (by decide) fm9 (k0_off10 c) (k0_off39 c) (pc_off10_in9 c) (pc_off39_in9 c) _ rfl k0_pay12 W
      (fun v => shapeCast_self _ _)) $$ [Hcr9 Howes Hat9 Hm9]
  · isplitr; · iexact Hrec
    isplitl [Hcr9]; · iexact Hcr9
    isplitl [Howes]; · iexact Howes
    isplitl [Hat9]; · iexact Hat9
    iexact Hm9
  iintro ⟨Howes, Hat9, Hst9, Hxa9, Hm9⟩
  iapply (pc_step_wait_conv m c K 10 10 rfl (by decide) fm10 (k0_off11 c) (k0_off40 c) (pc_off11_in10 c) (pc_off40_in10 c) _ rfl k0_pay13 _
      (fun v => shapeCast_self _ _)) $$ [Hcr10 Howes Hat10 Hm10]
  · isplitr; · iexact Hrec
    isplitl [Hcr10]; · iexact Hcr10
    isplitl [Howes]; · iexact Howes
    isplitl [Hat10]; · iexact Hat10
    iexact Hm10
  iintro ⟨Howes, Hat10, Hst10, Hxa10, Hm10⟩
  iapply (pc_step_wait_conv m c K 11 11 rfl (by decide) fm11 (k0_off12 c) (k0_off41 c) (pc_off12_in11 c) (pc_off41_in11 c) _ rfl k0_pay14 _
      (fun v => shapeCast_self _ _)) $$ [Hcr11 Howes Hat11 Hm11]
  · isplitr; · iexact Hrec
    isplitl [Hcr11]; · iexact Hcr11
    isplitl [Howes]; · iexact Howes
    isplitl [Hat11]; · iexact Hat11
    iexact Hm11
  iintro ⟨Howes, Hat11, Hst11, Hxa11, Hm11⟩
  rw [wp_ret]; imodintro
  isplitl [Hm8]; · iexact Hm8
  isplitl [Howes]; · iexists _; iexact Howes
  isplitl [Hat9]; · iexact Hat9
  isplitl [Hst9]; · iexact Hst9
  isplitl [Hxa9]; · iexact Hxa9
  isplitl [Hm9]; · iexact Hm9
  isplitl [Hat10]; · iexact Hat10
  isplitl [Hst10]; · iexact Hst10
  isplitl [Hxa10]; · iexact Hxa10
  isplitl [Hm10]; · iexact Hm10
  isplitl [Hat11]; · iexact Hat11
  isplitl [Hst11]; · iexact Hst11
  isplitl [Hxa11]; · iexact Hxa11
  iexact Hm11

set_option maxRecDepth 65536 in
set_option maxHeartbeats 1000000 in
/-- Part 23: the conversion buffer, whole and holding the device's half converted, copied (read at the right half) to the
    device's own half of the result; then the x-arrivals 0 and 1, each waited for and copied to the result. -/
theorem part_23 (c : Dev nD) (K : Dev nD × Fin 86 → ℕ) (v2 v5 v9 v25 v32 v120 : BitVec 32) (W : Waits sig Unit)
    (fdm : Buf (Elt F) ((sl OU (myb c) 4096 (omy_inb c)).view.loc (c : Thread nD τ)))
    (fdx0 : Buf (Elt F) ((sl OU (othb c + xinOff c 0) (xinLen 0) (oxin_inb c 0)).view.loc (c : Thread nD τ)))
    (fdx1 : Buf (Elt F) ((sl OU (othb c + xinOff c 1) (xinLen 1) (oxin_inb c 1)).view.loc (c : Thread nD τ))) :
    iprop(records m K ∗ levAts L lv
        ∗ pts c MI 0 4096 (Nat.le_refl _) sR (mineV m c) ∗ pts c OU (myb c) 4096 (omy_inb c) fullShare fdm ∗ dutyTok ER (dcell c 84 (by decide)) 0 0
        ∗ cred (tallyAt (dcell c 36 (by decide)) () (damt 36)) ∗ owes (c : Thread nD τ) (owedAfter c 27) W ∗ atPos ER (dcell c 36 (by decide)) 0 ∅ 0
        ∗ pts c OU (othb c + xinOff c 0) (xinLen 0) (oxin_inb c 0) fullShare fdx0 ∗ dutyTok ER (dcell c 68 (by decide)) 0 0
        ∗ cred (tallyAt (dcell c 37 (by decide)) () (damt 37)) ∗ atPos ER (dcell c 37 (by decide)) 0 ∅ 0
        ∗ pts c OU (othb c + xinOff c 1) (xinLen 1) (oxin_inb c 1) fullShare fdx1 ∗ dutyTok ER (dcell c 69 (by decide)) 0 0)
      ⊢ wp frame (wpE (defs₀ (F := F)) 𝒱₀ (c : Thread nD τ) none) Set.univ
          (k0_part23 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v32 v120)
          (fun r => iprop(cred (tallyAt (dcell c 84 (by decide)) () (damt 84))
            ∗ (∃ W', owes (c : Thread nD τ) (owedAfter c 27) W')
            ∗ atPos ER (dcell c 36 (by decide)) 1 ∅ 0 ∗ cred (tallyAt (dcell c 68 (by decide)) () (damt 68))
            ∗ atPos ER (dcell c 37 (by decide)) 1 ∅ 0 ∗ cred (tallyAt (dcell c 69 (by decide)) () (damt 69)))) := by
  simp only [k0_part23_eq_skeleton]; unfold k0_part23_skel
  simp only [Prog.lift, Prog.bind_op, Prog.bind_ret, Prog.pure_eq_ret, Prog.bind_assoc]
  iintro ⟨#Hrec, -, Hmi, Houm, Hdt84, Hcrx0, Howes, Hatx0, Houx0, Hdtx0, Hcrx1, Hatx1, Houx1, Hdtx1⟩
  iapply (pc_step_copy_lm m c K fdm (k0_off42 c) (pc_off42_my c) _ rfl) $$ [Hmi Houm Hdt84]
  · isplitr; · iexact Hrec
    isplitl [Hmi]; · iexact Hmi
    isplitl [Houm]; · iexact Houm
    iexact Hdt84
  iintro Hcl84
  iapply (pc_step_recv_copy m c K (xinOff c 0) (xinLen 0) (xin_inb c 0) (oxin_inb c 0) 36 68 (by decide) (by decide) fdx0
      (k0_off43 c) (k0_off44 c) (pc_off43_x0 c) (pc_off44_x0 c) _ _ rfl rfl W
      (credit_xr (xinOff c 0) 0 (xin_inb c 0)) (credit_lx (othb c + xinOff c 0) 0 (oxin_inb c 0)) (pc_dpay_xr' m c 0 36 rfl) (pay_lx m c 0 fdx0))
    $$ [Hcrx0 Howes Hatx0 Houx0 Hdtx0]
  · isplitr; · iexact Hrec
    isplitl [Hcrx0]; · iexact Hcrx0
    isplitl [Howes]; · iexact Howes
    isplitl [Hatx0]; · iexact Hatx0
    isplitl [Houx0]; · iexact Houx0
    iexact Hdtx0
  iintro ⟨Howes, Hatx0, Hclx0⟩
  iapply (pc_step_recv_copy m c K (xinOff c 1) (xinLen 1) (xin_inb c 1) (oxin_inb c 1) 37 69 (by decide) (by decide) fdx1
      (k0_off45 c) (k0_off46 c) (pc_off45_x1 c) (pc_off46_x1 c) _ _ rfl rfl _
      (credit_xr (xinOff c 1) 1 (xin_inb c 1)) (credit_lx (othb c + xinOff c 1) 1 (oxin_inb c 1)) (pc_dpay_xr' m c 1 37 rfl) (pay_lx m c 1 fdx1))
    $$ [Hcrx1 Howes Hatx1 Houx1 Hdtx1]
  · isplitr; · iexact Hrec
    isplitl [Hcrx1]; · iexact Hcrx1
    isplitl [Howes]; · iexact Howes
    isplitl [Hatx1]; · iexact Hatx1
    isplitl [Houx1]; · iexact Houx1
    iexact Hdtx1
  iintro ⟨Howes, Hatx1, Hclx1⟩
  rw [wp_ret]; imodintro
  isplitl [Hcl84]; · iexact Hcl84
  isplitl [Howes]; · iexists _; iexact Howes
  isplitl [Hatx0]; · iexact Hatx0
  isplitl [Hclx0]; · iexact Hclx0
  isplitl [Hatx1]; · iexact Hatx1
  iexact Hclx1

set_option maxRecDepth 65536 in
set_option maxHeartbeats 1000000 in
/-- Part 24: the x-arrivals 4 and 5 (the first half of the other 704-region), each waited for and copied to the result. -/
theorem part_24 (c : Dev nD) (K : Dev nD × Fin 86 → ℕ) (v2 v5 v9 v25 v46 v123 : BitVec 32) (W : Waits sig Unit)
    (fdx4 : Buf (Elt F) ((sl OU (othb c + xinOff c 4) (xinLen 4) (oxin_inb c 4)).view.loc (c : Thread nD τ)))
    (fdx5 : Buf (Elt F) ((sl OU (othb c + xinOff c 5) (xinLen 5) (oxin_inb c 5)).view.loc (c : Thread nD τ))) :
    iprop(records m K ∗ levAts L lv
        ∗ cred (tallyAt (dcell c 40 (by decide)) () (damt 40)) ∗ owes (c : Thread nD τ) (owedAfter c 27) W ∗ atPos ER (dcell c 40 (by decide)) 0 ∅ 0
        ∗ pts c OU (othb c + xinOff c 4) (xinLen 4) (oxin_inb c 4) fullShare fdx4 ∗ dutyTok ER (dcell c 72 (by decide)) 0 0
        ∗ cred (tallyAt (dcell c 41 (by decide)) () (damt 41)) ∗ atPos ER (dcell c 41 (by decide)) 0 ∅ 0
        ∗ pts c OU (othb c + xinOff c 5) (xinLen 5) (oxin_inb c 5) fullShare fdx5 ∗ dutyTok ER (dcell c 73 (by decide)) 0 0)
      ⊢ wp frame (wpE (defs₀ (F := F)) 𝒱₀ (c : Thread nD τ) none) Set.univ
          (k0_part24 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v46 v123)
          (fun r => iprop((∃ W', owes (c : Thread nD τ) (owedAfter c 27) W')
            ∗ atPos ER (dcell c 40 (by decide)) 1 ∅ 0 ∗ cred (tallyAt (dcell c 72 (by decide)) () (damt 72))
            ∗ atPos ER (dcell c 41 (by decide)) 1 ∅ 0 ∗ cred (tallyAt (dcell c 73 (by decide)) () (damt 73)))) := by
  simp only [k0_part24_eq_skeleton]; unfold k0_part24_skel
  simp only [Prog.lift, Prog.bind_op, Prog.bind_ret, Prog.pure_eq_ret, Prog.bind_assoc]
  iintro ⟨#Hrec, -, Hcrx4, Howes, Hatx4, Houx4, Hdtx4, Hcrx5, Hatx5, Houx5, Hdtx5⟩
  iapply (pc_step_recv_copy m c K (xinOff c 4) (xinLen 4) (xin_inb c 4) (oxin_inb c 4) 40 72 (by decide) (by decide) fdx4
      (k0_off47 c) (k0_off48 c) (pc_off47_x4 c) (pc_off48_x4 c) _ _ rfl rfl W
      (credit_xr (xinOff c 4) 4 (xin_inb c 4)) (credit_lx (othb c + xinOff c 4) 4 (oxin_inb c 4)) (pc_dpay_xr' m c 4 40 rfl) (pay_lx m c 4 fdx4))
    $$ [Hcrx4 Howes Hatx4 Houx4 Hdtx4]
  · isplitr; · iexact Hrec
    isplitl [Hcrx4]; · iexact Hcrx4
    isplitl [Howes]; · iexact Howes
    isplitl [Hatx4]; · iexact Hatx4
    isplitl [Houx4]; · iexact Houx4
    iexact Hdtx4
  iintro ⟨Howes, Hatx4, Hclx4⟩
  iapply (pc_step_recv_copy m c K (xinOff c 5) (xinLen 5) (xin_inb c 5) (oxin_inb c 5) 41 73 (by decide) (by decide) fdx5
      (k0_off49 c 176#32) (k0_off50 c 176#32) (pc_off49_1_x5 c) (pc_off50_1_x5 c) _ _ rfl rfl _
      (credit_xr (xinOff c 5) 5 (xin_inb c 5)) (credit_lx (othb c + xinOff c 5) 5 (oxin_inb c 5)) (pc_dpay_xr' m c 5 41 rfl) (pay_lx m c 5 fdx5))
    $$ [Hcrx5 Howes Hatx5 Houx5 Hdtx5]
  · isplitr; · iexact Hrec
    isplitl [Hcrx5]; · iexact Hcrx5
    isplitl [Howes]; · iexact Howes
    isplitl [Hatx5]; · iexact Hatx5
    isplitl [Houx5]; · iexact Houx5
    iexact Hdtx5
  iintro ⟨Howes, Hatx5, Hclx5⟩
  rw [wp_ret]; imodintro
  isplitl [Howes]; · iexists _; iexact Howes
  isplitl [Hatx4]; · iexact Hatx4
  isplitl [Hclx4]; · iexact Hclx4
  isplitl [Hatx5]; · iexact Hatx5
  iexact Hclx5

set_option maxRecDepth 65536 in
set_option maxHeartbeats 1000000 in
/-- Part 25: the x-arrivals 6 and 7 (the first two chunks of the diagonal's 672-region), each waited for and copied to the result. -/
theorem part_25 (c : Dev nD) (K : Dev nD × Fin 86 → ℕ) (v2 v5 v9 v25 v41 v124 v798 : BitVec 32) (W : Waits sig Unit)
    (fdx6 : Buf (Elt F) ((sl OU (othb c + xinOff c 6) (xinLen 6) (oxin_inb c 6)).view.loc (c : Thread nD τ)))
    (fdx7 : Buf (Elt F) ((sl OU (othb c + xinOff c 7) (xinLen 7) (oxin_inb c 7)).view.loc (c : Thread nD τ))) :
    iprop(records m K ∗ levAts L lv
        ∗ cred (tallyAt (dcell c 42 (by decide)) () (damt 42)) ∗ owes (c : Thread nD τ) (owedAfter c 27) W ∗ atPos ER (dcell c 42 (by decide)) 0 ∅ 0
        ∗ pts c OU (othb c + xinOff c 6) (xinLen 6) (oxin_inb c 6) fullShare fdx6 ∗ dutyTok ER (dcell c 74 (by decide)) 0 0
        ∗ cred (tallyAt (dcell c 43 (by decide)) () (damt 43)) ∗ atPos ER (dcell c 43 (by decide)) 0 ∅ 0
        ∗ pts c OU (othb c + xinOff c 7) (xinLen 7) (oxin_inb c 7) fullShare fdx7 ∗ dutyTok ER (dcell c 75 (by decide)) 0 0)
      ⊢ wp frame (wpE (defs₀ (F := F)) 𝒱₀ (c : Thread nD τ) none) Set.univ
          (k0_part25 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v41 v124 v798)
          (fun r => iprop((∃ W', owes (c : Thread nD τ) (owedAfter c 27) W')
            ∗ atPos ER (dcell c 42 (by decide)) 1 ∅ 0 ∗ cred (tallyAt (dcell c 74 (by decide)) () (damt 74))
            ∗ atPos ER (dcell c 43 (by decide)) 1 ∅ 0 ∗ cred (tallyAt (dcell c 75 (by decide)) () (damt 75)))) := by
  simp only [k0_part25_eq_skeleton]; unfold k0_part25_skel
  simp only [Prog.lift, Prog.bind_op, Prog.bind_ret, Prog.pure_eq_ret, Prog.bind_assoc]
  iintro ⟨#Hrec, -, Hcrx6, Howes, Hatx6, Houx6, Hdtx6, Hcrx7, Hatx7, Houx7, Hdtx7⟩
  iapply (pc_step_recv_copy m c K (xinOff c 6) (xinLen 6) (xin_inb c 6) (oxin_inb c 6) 42 74 (by decide) (by decide) fdx6
      (k0_off51 c) (k0_off52 c) (pc_off51_x6 c) (pc_off52_x6 c) _ _ rfl rfl W
      (credit_xr (xinOff c 6) 6 (xin_inb c 6)) (credit_lx (othb c + xinOff c 6) 6 (oxin_inb c 6)) (pc_dpay_xr' m c 6 42 rfl) (pay_lx m c 6 fdx6))
    $$ [Hcrx6 Howes Hatx6 Houx6 Hdtx6]
  · isplitr; · iexact Hrec
    isplitl [Hcrx6]; · iexact Hcrx6
    isplitl [Howes]; · iexact Howes
    isplitl [Hatx6]; · iexact Hatx6
    isplitl [Houx6]; · iexact Houx6
    iexact Hdtx6
  iintro ⟨Howes, Hatx6, Hclx6⟩
  iapply (pc_step_recv_copy m c K (xinOff c 7) (xinLen 7) (xin_inb c 7) (oxin_inb c 7) 43 75 (by decide) (by decide) fdx7
      (k0_off53 c) (k0_off54 c) (pc_off53_x7 c) (pc_off54_x7 c) _ _ rfl rfl _
      (credit_xr (xinOff c 7) 7 (xin_inb c 7)) (credit_lx (othb c + xinOff c 7) 7 (oxin_inb c 7)) (pc_dpay_xr' m c 7 43 rfl) (pay_lx m c 7 fdx7))
    $$ [Hcrx7 Howes Hatx7 Houx7 Hdtx7]
  · isplitr; · iexact Hrec
    isplitl [Hcrx7]; · iexact Hcrx7
    isplitl [Howes]; · iexact Howes
    isplitl [Hatx7]; · iexact Hatx7
    isplitl [Houx7]; · iexact Houx7
    iexact Hdtx7
  iintro ⟨Howes, Hatx7, Hclx7⟩
  rw [wp_ret]; imodintro
  isplitl [Howes]; · iexists _; iexact Howes
  isplitl [Hatx6]; · iexact Hatx6
  isplitl [Hclx6]; · iexact Hclx6
  isplitl [Hatx7]; · iexact Hatx7
  iexact Hclx7

set_option maxRecDepth 65536 in
set_option maxHeartbeats 1000000 in
/-- Part 26: the y-arrivals 2 and 3 (the last two chunks of the y-neighbour's 672-region), each waited for and copied to the result. -/
theorem part_26 (c : Dev nD) (K : Dev nD × Fin 86 → ℕ) (v2 v5 v9 v25 v126 v127 v830 c1_i32_542 : BitVec 32) (W : Waits sig Unit)
    (fdy2 : Buf (Elt F) ((sl OU (othb c + yinOff c 2) (yinLen 2) (oyin_inb c 2)).view.loc (c : Thread nD τ)))
    (fdy3 : Buf (Elt F) ((sl OU (othb c + yinOff c 3) (yinLen 3) (oyin_inb c 3)).view.loc (c : Thread nD τ))) :
    iprop(records m K ∗ levAts L lv
        ∗ cred (tallyAt (dcell c 54 (by decide)) () (damt 54)) ∗ owes (c : Thread nD τ) (owedAfter c 27) W ∗ atPos ER (dcell c 54 (by decide)) 0 ∅ 0
        ∗ pts c OU (othb c + yinOff c 2) (yinLen 2) (oyin_inb c 2) fullShare fdy2 ∗ dutyTok ER (dcell c 78 (by decide)) 0 0
        ∗ cred (tallyAt (dcell c 55 (by decide)) () (damt 55)) ∗ atPos ER (dcell c 55 (by decide)) 0 ∅ 0
        ∗ pts c OU (othb c + yinOff c 3) (yinLen 3) (oyin_inb c 3) fullShare fdy3 ∗ dutyTok ER (dcell c 79 (by decide)) 0 0)
      ⊢ wp frame (wpE (defs₀ (F := F)) 𝒱₀ (c : Thread nD τ) none) Set.univ
          (k0_part26 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v126 v127 v830 c1_i32_542)
          (fun r => iprop((∃ W', owes (c : Thread nD τ) (owedAfter c 27) W')
            ∗ atPos ER (dcell c 54 (by decide)) 1 ∅ 0 ∗ cred (tallyAt (dcell c 78 (by decide)) () (damt 78))
            ∗ atPos ER (dcell c 55 (by decide)) 1 ∅ 0 ∗ cred (tallyAt (dcell c 79 (by decide)) () (damt 79)))) := by
  simp only [k0_part26_eq_skeleton]; unfold k0_part26_skel
  simp only [Prog.lift, Prog.bind_op, Prog.bind_ret, Prog.pure_eq_ret, Prog.bind_assoc]
  iintro ⟨#Hrec, -, Hcry2, Howes, Haty2, Houy2, Hdty2, Hcry3, Haty3, Houy3, Hdty3⟩
  iapply (pc_step_recv_copy m c K (yinOff c 2) (yinLen 2) (yin_inb c 2) (oyin_inb c 2) 54 78 (by decide) (by decide) fdy2
      (k0_off55 c) (k0_off56 c) (pc_off55_y2 c) (pc_off56_y2 c) _ _ rfl rfl W
      (credit_yr (yinOff c 2) 2 (yin_inb c 2)) (credit_ly (othb c + yinOff c 2) 2 (oyin_inb c 2)) (pc_dpay_yr' m c 2 54 rfl) (pay_ly m c 2 fdy2))
    $$ [Hcry2 Howes Haty2 Houy2 Hdty2]
  · isplitr; · iexact Hrec
    isplitl [Hcry2]; · iexact Hcry2
    isplitl [Howes]; · iexact Howes
    isplitl [Haty2]; · iexact Haty2
    isplitl [Houy2]; · iexact Houy2
    iexact Hdty2
  iintro ⟨Howes, Haty2, Hcly2⟩
  iapply (pc_step_recv_copy m c K (yinOff c 3) (yinLen 3) (yin_inb c 3) (oyin_inb c 3) 55 79 (by decide) (by decide) fdy3
      (k0_off57 c) (k0_off58 c) (pc_off57_y3 c) (pc_off58_y3 c) _ _ rfl rfl _
      (credit_yr (yinOff c 3) 3 (yin_inb c 3)) (credit_ly (othb c + yinOff c 3) 3 (oyin_inb c 3)) (pc_dpay_yr' m c 3 55 rfl) (pay_ly m c 3 fdy3))
    $$ [Hcry3 Howes Haty3 Houy3 Hdty3]
  · isplitr; · iexact Hrec
    isplitl [Hcry3]; · iexact Hcry3
    isplitl [Howes]; · iexact Howes
    isplitl [Haty3]; · iexact Haty3
    isplitl [Houy3]; · iexact Houy3
    iexact Hdty3
  iintro ⟨Howes, Haty3, Hcly3⟩
  rw [wp_ret]; imodintro
  isplitl [Howes]; · iexists _; iexact Howes
  isplitl [Haty2]; · iexact Haty2
  isplitl [Hcly2]; · iexact Hcly2
  isplitl [Haty3]; · iexact Haty3
  iexact Hcly3

set_option maxRecDepth 65536 in
set_option maxHeartbeats 1000000 in
/-- Part 27: the y-arrivals 4 and 5 (the second half of the other 704-region), each waited for and copied to the result. -/
theorem part_27 (c : Dev nD) (K : Dev nD × Fin 86 → ℕ) (v2 v5 v9 v25 v128 v129 : BitVec 32) (W : Waits sig Unit)
    (fdy4 : Buf (Elt F) ((sl OU (othb c + yinOff c 4) (yinLen 4) (oyin_inb c 4)).view.loc (c : Thread nD τ)))
    (fdy5 : Buf (Elt F) ((sl OU (othb c + yinOff c 5) (yinLen 5) (oyin_inb c 5)).view.loc (c : Thread nD τ))) :
    iprop(records m K ∗ levAts L lv
        ∗ cred (tallyAt (dcell c 56 (by decide)) () (damt 56)) ∗ owes (c : Thread nD τ) (owedAfter c 27) W ∗ atPos ER (dcell c 56 (by decide)) 0 ∅ 0
        ∗ pts c OU (othb c + yinOff c 4) (yinLen 4) (oyin_inb c 4) fullShare fdy4 ∗ dutyTok ER (dcell c 80 (by decide)) 0 0
        ∗ cred (tallyAt (dcell c 57 (by decide)) () (damt 57)) ∗ atPos ER (dcell c 57 (by decide)) 0 ∅ 0
        ∗ pts c OU (othb c + yinOff c 5) (yinLen 5) (oyin_inb c 5) fullShare fdy5 ∗ dutyTok ER (dcell c 81 (by decide)) 0 0)
      ⊢ wp frame (wpE (defs₀ (F := F)) 𝒱₀ (c : Thread nD τ) none) Set.univ
          (k0_part27 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v128 v129)
          (fun r => iprop((∃ W', owes (c : Thread nD τ) (owedAfter c 27) W')
            ∗ atPos ER (dcell c 56 (by decide)) 1 ∅ 0 ∗ cred (tallyAt (dcell c 80 (by decide)) () (damt 80))
            ∗ atPos ER (dcell c 57 (by decide)) 1 ∅ 0 ∗ cred (tallyAt (dcell c 81 (by decide)) () (damt 81)))) := by
  simp only [k0_part27_eq_skeleton]; unfold k0_part27_skel
  simp only [Prog.lift, Prog.bind_op, Prog.bind_ret, Prog.pure_eq_ret, Prog.bind_assoc]
  iintro ⟨#Hrec, -, Hcry4, Howes, Haty4, Houy4, Hdty4, Hcry5, Haty5, Houy5, Hdty5⟩
  iapply (pc_step_recv_copy m c K (yinOff c 4) (yinLen 4) (yin_inb c 4) (oyin_inb c 4) 56 80 (by decide) (by decide) fdy4
      (k0_off49 c 352#32) (k0_off50 c 352#32) (pc_off49_2_y4 c) (pc_off50_2_y4 c) _ _ rfl rfl W
      (credit_yr (yinOff c 4) 4 (yin_inb c 4)) (credit_ly (othb c + yinOff c 4) 4 (oyin_inb c 4)) (pc_dpay_yr' m c 4 56 rfl) (pay_ly m c 4 fdy4))
    $$ [Hcry4 Howes Haty4 Houy4 Hdty4]
  · isplitr; · iexact Hrec
    isplitl [Hcry4]; · iexact Hcry4
    isplitl [Howes]; · iexact Howes
    isplitl [Haty4]; · iexact Haty4
    isplitl [Houy4]; · iexact Houy4
    iexact Hdty4
  iintro ⟨Howes, Haty4, Hcly4⟩
  iapply (pc_step_recv_copy m c K (yinOff c 5) (yinLen 5) (yin_inb c 5) (oyin_inb c 5) 57 81 (by decide) (by decide) fdy5
      (k0_off59 c) (k0_off60 c) (pc_off59_y5 c) (pc_off60_y5 c) _ _ rfl rfl _
      (credit_yr (yinOff c 5) 5 (yin_inb c 5)) (credit_ly (othb c + yinOff c 5) 5 (oyin_inb c 5)) (pc_dpay_yr' m c 5 57 rfl) (pay_ly m c 5 fdy5))
    $$ [Hcry5 Howes Haty5 Houy5 Hdty5]
  · isplitr; · iexact Hrec
    isplitl [Hcry5]; · iexact Hcry5
    isplitl [Howes]; · iexact Howes
    isplitl [Haty5]; · iexact Haty5
    isplitl [Houy5]; · iexact Houy5
    iexact Hdty5
  iintro ⟨Howes, Haty5, Hcly5⟩
  rw [wp_ret]; imodintro
  isplitl [Howes]; · iexists _; iexact Howes
  isplitl [Haty4]; · iexact Haty4
  isplitl [Hcly4]; · iexact Hcly4
  isplitl [Haty5]; · iexact Haty5
  iexact Hcly5

set_option maxRecDepth 65536 in
set_option maxHeartbeats 1000000 in
/-- Part 28: the y-arrivals 6 and 7 (the last two chunks of the diagonal's 672-region), each waited for and copied to the result;
    then the waits for the send cells of the first two z-transfers, which hand back the left half of their rows of the
    conversion buffer. -/
theorem part_28 (c : Dev nD) (K : Dev nD × Fin 86 → ℕ) (v2 v5 v9 v25 v130 v131 : BitVec 32) (W : Waits sig Unit)
    (fdy6 : Buf (Elt F) ((sl OU (othb c + yinOff c 6) (yinLen 6) (oyin_inb c 6)).view.loc (c : Thread nD τ)))
    (fdy7 : Buf (Elt F) ((sl OU (othb c + yinOff c 7) (yinLen 7) (oyin_inb c 7)).view.loc (c : Thread nD τ))) :
    iprop(records m K ∗ levAts L lv
        ∗ cred (tallyAt (dcell c 58 (by decide)) () (damt 58)) ∗ owes (c : Thread nD τ) (owedAfter c 27) W ∗ atPos ER (dcell c 58 (by decide)) 0 ∅ 0
        ∗ pts c OU (othb c + yinOff c 6) (yinLen 6) (oyin_inb c 6) fullShare fdy6 ∗ dutyTok ER (dcell c 82 (by decide)) 0 0
        ∗ cred (tallyAt (dcell c 59 (by decide)) () (damt 59)) ∗ atPos ER (dcell c 59 (by decide)) 0 ∅ 0
        ∗ pts c OU (othb c + yinOff c 7) (yinLen 7) (oyin_inb c 7) fullShare fdy7 ∗ dutyTok ER (dcell c 83 (by decide)) 0 0
        ∗ cred (tallyAt (dcell c 12 (by decide)) () (damt 12)) ∗ atPos ER (dcell c 12 (by decide)) 0 ∅ 0
        ∗ cred (tallyAt (dcell c 13 (by decide)) () (damt 13)) ∗ atPos ER (dcell c 13 (by decide)) 0 ∅ 0)
      ⊢ wp frame (wpE (defs₀ (F := F)) 𝒱₀ (c : Thread nD τ) none) Set.univ
          (k0_part28 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c v2 v5 v9 v25 v130 v131)
          (fun r => iprop((∃ W', owes (c : Thread nD τ) (owedAfter c 27) W')
            ∗ atPos ER (dcell c 58 (by decide)) 1 ∅ 0 ∗ cred (tallyAt (dcell c 82 (by decide)) () (damt 82))
            ∗ atPos ER (dcell c 59 (by decide)) 1 ∅ 0 ∗ cred (tallyAt (dcell c 83 (by decide)) () (damt 83))
            ∗ atPos ER (dcell c 12 (by decide)) 1 ∅ 0 ∗ pts c MI (ownOff c 0) (ownLen 0) (own_inb c 0) sL (mineV m c)
            ∗ atPos ER (dcell c 13 (by decide)) 1 ∅ 0 ∗ pts c MI (ownOff c 1) (ownLen 1) (own_inb c 1) sL (mineV m c))) := by
  simp only [k0_part28_eq_skeleton]; unfold k0_part28_skel
  simp only [Prog.lift, Prog.bind_op, Prog.bind_ret, Prog.pure_eq_ret, Prog.bind_assoc]
  iintro ⟨#Hrec, -, Hcry6, Howes, Haty6, Houy6, Hdty6, Hcry7, Haty7, Houy7, Hdty7, Hcr12, Hat12, Hcr13, Hat13⟩
  iapply (pc_step_recv_copy m c K (yinOff c 6) (yinLen 6) (yin_inb c 6) (oyin_inb c 6) 58 82 (by decide) (by decide) fdy6
      (k0_off61 c) (k0_off62 c) (pc_off61_y6 c) (pc_off62_y6 c) _ _ rfl rfl W
      (credit_yr (yinOff c 6) 6 (yin_inb c 6)) (credit_ly (othb c + yinOff c 6) 6 (oyin_inb c 6)) (pc_dpay_yr' m c 6 58 rfl) (pay_ly m c 6 fdy6))
    $$ [Hcry6 Howes Haty6 Houy6 Hdty6]
  · isplitr; · iexact Hrec
    isplitl [Hcry6]; · iexact Hcry6
    isplitl [Howes]; · iexact Howes
    isplitl [Haty6]; · iexact Haty6
    isplitl [Houy6]; · iexact Houy6
    iexact Hdty6
  iintro ⟨Howes, Haty6, Hcly6⟩
  iapply (pc_step_recv_copy m c K (yinOff c 7) (yinLen 7) (yin_inb c 7) (oyin_inb c 7) 59 83 (by decide) (by decide) fdy7
      (k0_off63 c) (k0_off64 c) (pc_off63_y7 c) (pc_off64_y7 c) _ _ rfl rfl _
      (credit_yr (yinOff c 7) 7 (yin_inb c 7)) (credit_ly (othb c + yinOff c 7) 7 (oyin_inb c 7)) (pc_dpay_yr' m c 7 59 rfl) (pay_ly m c 7 fdy7))
    $$ [Hcry7 Howes Haty7 Houy7 Hdty7]
  · isplitr; · iexact Hrec
    isplitl [Hcry7]; · iexact Hcry7
    isplitl [Howes]; · iexact Howes
    isplitl [Haty7]; · iexact Haty7
    isplitl [Houy7]; · iexact Houy7
    iexact Hdty7
  iintro ⟨Howes, Haty7, Hcly7⟩
  iapply (pc_step_wait_done m c K MI (ownOff c 0) (ownLen 0) (own_inb c 0) 12 (by decide) (k0_off1 c) (pc_off1_z0 c) _ rfl _
      (pc_credit_mi (ownOff c 0) 0 (own_inb c 0))) $$ [Hcr12 Howes Hat12]
  · isplitr; · iexact Hrec
    isplitl [Hcr12]; · iexact Hcr12
    isplitl [Howes]; · iexact Howes
    iexact Hat12
  iintro ⟨Howes, Hat12, Hp12⟩
  ihave Hmi0 := (pc_dpay_zs' m c 0 12 rfl) $$ Hp12
  iapply (pc_step_wait_done m c K MI (ownOff c 1) (ownLen 1) (own_inb c 1) 13 (by decide) (k0_off2 c) (pc_off2_z1 c) _ rfl _
      (pc_credit_mi (ownOff c 1) 1 (own_inb c 1))) $$ [Hcr13 Howes Hat13]
  · isplitr; · iexact Hrec
    isplitl [Hcr13]; · iexact Hcr13
    isplitl [Howes]; · iexact Howes
    iexact Hat13
  iintro ⟨Howes, Hat13, Hp13⟩
  ihave Hmi1 := (pc_dpay_zs' m c 1 13 rfl) $$ Hp13
  rw [wp_ret]; imodintro
  isplitl [Howes]; · iexists _; iexact Howes
  isplitl [Haty6]; · iexact Haty6
  isplitl [Hcly6]; · iexact Hcly6
  isplitl [Haty7]; · iexact Haty7
  isplitl [Hcly7]; · iexact Hcly7
  isplitl [Hat12]; · iexact Hat12
  isplitl [Hmi0]; · iexact Hmi0
  isplitl [Hat13]; · iexact Hat13
  iexact Hmi1

end Cert.Kernel.AG

end

/-- info: 'Cert.Kernel.AG.part_22' depends on axioms: [propext, Classical.choice, Quot.sound] -/
#guard_msgs in #print axioms Cert.Kernel.AG.part_22

/-- info: 'Cert.Kernel.AG.part_23' depends on axioms: [propext, Classical.choice, Quot.sound] -/
#guard_msgs in #print axioms Cert.Kernel.AG.part_23

/-- info: 'Cert.Kernel.AG.part_24' depends on axioms: [propext, Classical.choice, Quot.sound] -/
#guard_msgs in #print axioms Cert.Kernel.AG.part_24

/-- info: 'Cert.Kernel.AG.part_25' depends on axioms: [propext, Classical.choice, Quot.sound] -/
#guard_msgs in #print axioms Cert.Kernel.AG.part_25

/-- info: 'Cert.Kernel.AG.part_26' depends on axioms: [propext, Classical.choice, Quot.sound] -/
#guard_msgs in #print axioms Cert.Kernel.AG.part_26

/-- info: 'Cert.Kernel.AG.part_27' depends on axioms: [propext, Classical.choice, Quot.sound] -/
#guard_msgs in #print axioms Cert.Kernel.AG.part_27

/-- info: 'Cert.Kernel.AG.part_28' depends on axioms: [propext, Classical.choice, Quot.sound] -/
#guard_msgs in #print axioms Cert.Kernel.AG.part_28
-- ==== Proof.K.AGParts_d.lean ====
/-
  The last phase of the body: every payment is made, the device owes nothing, and it waits, one after the other, for each of its
  24 send cells (the source rows come back at the share the transfer read them with) and its 25 result-copy cells (the rows of the
  result written, and the source rows back).
-/
import proofs.«900673_g7700000000000674_dist_ag_v7x_xyz2x2x2_z_m4096_n1024_bf16_1_alg».proof.Proof.Gen.Kernel.Skeleton
import proofs.«900673_g7700000000000674_dist_ag_v7x_xyz2x2x2_z_m4096_n1024_bf16_1_alg».proof.Proof.K.AGGlue
import proofs.«900673_g7700000000000674_dist_ag_v7x_xyz2x2x2_z_m4096_n1024_bf16_1_alg».proof.Proof.K.AGPays
import proofs.«900673_g7700000000000674_dist_ag_v7x_xyz2x2x2_z_m4096_n1024_bf16_1_alg».proof.Proof.K.AGOffs

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A wait on DMA cell n of the device when it owes nothing: the cell's payload. -/
theorem wait0 {sp sp' : Space} {s s' : Shape} {e e' : EltTy} (c : Dev nD) (K : Dev nD × Fin 86 → ℕ) (n : ℕ) (hn : n < 85) (qs : DmaSem sig) (hqs : qs = ⟨n, hn⟩)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α}
    (W : Waits sig Unit) (hk : dst.view.dmaCredit = damt n) :
    iprop(records m K ∗ cred (tallyAt (dcell c n hn) () (damt n)) ∗ atPos ER (dcell c n hn) 0 ∅ 0 ∗ owes (c : Thread nD τ) 0 W)
      ⊢ iprop(((owes (c : Thread nD τ) 0 (insert (SemLoc.dma ⟨n, hn⟩, ()) W) ∗ atPos ER (dcell c n hn) 1 ∅ 0 ∗ dpay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  iintro ⟨#HR, Hc, Ha, HO⟩ Hk
  iapply (step_wait' m c n hn qs hqs 0 W hk (κ := K (c, ⟨n, by omega⟩))) $$ [Hc Ha HO]
  · isplitr; · iapply (inv_dma m K c n hn); iexact HR
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iexact Hp

/-! ## Credits at literal row counts and cell numbers -/

theorem ck_zs (j : Fin 8) (r n : ℕ) (hr : ownLen j = r) (hn : 12 + j.val = n) (off : Fin 2 → ℕ)
    (inb : ∀ a, off a + (Sr r).size a ≤ (Sr 4096).size a) (hst : ∀ a, (Rect.unit (s := Sr 4096) off (Sr r).size inb).stride a = 1) :
    (MI.slice (Rect.unit (s := Sr 4096) off (Sr r).size inb) hst).view.dmaCredit = damt n := by
  subst hr hn; exact (credit_rect MI (ownLen j) off inb hst 0 (by have := (ownLen_pos j).2; omega)).trans (credit_zs 0 j (by have := (ownLen_pos j).2; omega))
theorem ck_xs (k : Fin 8) (r n : ℕ) (hr : xinLen k = r) (hn : 28 + k.val = n) (off : Fin 2 → ℕ)
    (inb : ∀ a, off a + (Sr r).size a ≤ (Sr 4096).size a) (hst : ∀ a, (Rect.unit (s := Sr 4096) off (Sr r).size inb).stride a = 1) :
    (CM.slice (Rect.unit (s := Sr 4096) off (Sr r).size inb) hst).view.dmaCredit = damt n := by
  subst hr hn; exact (credit_rect CM (xinLen k) off inb hst 0 (by have := (xinLen_pos k).2; omega)).trans (credit_xs 0 k (by have := (xinLen_pos k).2; omega))
theorem ck_ys (k : Fin 8) (r n : ℕ) (hr : yinLen k = r) (hn : 44 + k.val = n) (off : Fin 2 → ℕ)
    (inb : ∀ a, off a + (Sr r).size a ≤ (Sr 4096).size a) (hst : ∀ a, (Rect.unit (s := Sr 4096) off (Sr r).size inb).stride a = 1) :
    (CM.slice (Rect.unit (s := Sr 4096) off (Sr r).size inb) hst).view.dmaCredit = damt n := by
  subst hr hn; exact (credit_rect CM (yinLen k) off inb hst 0 (by have := (yinLen_pos k).2; omega)).trans (credit_ys 0 k (by have := (yinLen_pos k).2; omega))
theorem ck_lz (j : Fin 8) (r n : ℕ) (hr : ownLen j = r) (hn : 60 + j.val = n) (off : Fin 2 → ℕ)
    (inb : ∀ a, off a + (Sr r).size a ≤ (Sr 8192).size a) (hst : ∀ a, (Rect.unit (s := Sr 8192) off (Sr r).size inb).stride a = 1) :
    (OU.slice (Rect.unit (s := Sr 8192) off (Sr r).size inb) hst).view.dmaCredit = damt n := by
  subst hr hn; exact (credit_rect OU (ownLen j) off inb hst 0 (by have := (ownLen_pos j).2; omega)).trans (credit_lz 0 j (by have := (ownLen_pos j).2; omega))
theorem ck_lx (k : Fin 8) (r n : ℕ) (hr : xinLen k = r) (hn : 68 + k.val = n) (off : Fin 2 → ℕ)
    (inb : ∀ a, off a + (Sr r).size a ≤ (Sr 8192).size a) (hst : ∀ a, (Rect.unit (s := Sr 8192) off (Sr r).size inb).stride a = 1) :
    (OU.slice (Rect.unit (s := Sr 8192) off (Sr r).size inb) hst).view.dmaCredit = damt n := by
  subst hr hn; exact (credit_rect OU (xinLen k) off inb hst 0 (by have := (xinLen_pos k).2; omega)).trans (credit_lx 0 k (by have := (xinLen_pos k).2; omega))
theorem ck_ly (k : Fin 8) (r n : ℕ) (hr : yinLen k = r) (hn : 76 + k.val = n) (off : Fin 2 → ℕ)
    (inb : ∀ a, off a + (Sr r).size a ≤ (Sr 8192).size a) (hst : ∀ a, (Rect.unit (s := Sr 8192) off (Sr r).size inb).stride a = 1) :
    (OU.slice (Rect.unit (s := Sr 8192) off (Sr r).size inb) hst).view.dmaCredit = damt n := by
  subst hr hn; exact (credit_rect OU (yinLen k) off inb hst 0 (by have := (yinLen_pos k).2; omega)).trans (credit_ly 0 k (by have := (yinLen_pos k).2; omega))
theorem ck_lm (off : Fin 2 → ℕ)
    (inb : ∀ a, off a + (Sr 4096).size a ≤ (Sr 8192).size a) (hst : ∀ a, (Rect.unit (s := Sr 8192) off (Sr 4096).size inb).stride a = 1) :
    (OU.slice (Rect.unit (s := Sr 8192) off (Sr 4096).size inb) hst).view.dmaCredit = damt 84 :=
  (credit_rect OU 4096 off inb hst 0 (by decide)).trans (credit_lm 0 (by decide))

set_option maxRecDepth 65536 in
/-- Part 29: the waits on z-send cells 2 … 7. -/
theorem part_29 (c : Dev nD) (K : Dev nD × Fin 86 → ℕ) (W : Waits sig Unit) :
    iprop(records m K ∗ owes (c : Thread nD τ) 0 W
      ∗ (cred (tallyAt (dcell c 14 (by decide)) () (damt 14)) ∗ atPos ER (dcell c 14 (by decide)) 0 ∅ 0)
      ∗ (cred (tallyAt (dcell c 15 (by decide)) () (damt 15)) ∗ atPos ER (dcell c 15 (by decide)) 0 ∅ 0)
      ∗ (cred (tallyAt (dcell c 16 (by decide)) () (damt 16)) ∗ atPos ER (dcell c 16 (by decide)) 0 ∅ 0)
      ∗ (cred (tallyAt (dcell c 17 (by decide)) () (damt 17)) ∗ atPos ER (dcell c 17 (by decide)) 0 ∅ 0)
      ∗ (cred (tallyAt (dcell c 18 (by decide)) () (damt 18)) ∗ atPos ER (dcell c 18 (by decide)) 0 ∅ 0)
      ∗ (cred (tallyAt (dcell c 19 (by decide)) () (damt 19)) ∗ atPos ER (dcell c 19 (by decide)) 0 ∅ 0))
    ⊢ wp frame (wpE (defs₀ (F := F)) 𝒱₀ (c : Thread nD τ) none) Set.univ
        (k0_part29 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 14 (by decide)) 1 ∅ 0 ∗ payZs m c 2) ∗ (atPos ER (dcell c 15 (by decide)) 1 ∅ 0 ∗ payZs m c 3)
          ∗ (atPos ER (dcell c 16 (by decide)) 1 ∅ 0 ∗ payZs m c 4) ∗ (atPos ER (dcell c 17 (by decide)) 1 ∅ 0 ∗ payZs m c 5)
          ∗ (atPos ER (dcell c 18 (by decide)) 1 ∅ 0 ∗ payZs m c 6) ∗ (atPos ER (dcell c 19 (by decide)) 1 ∅ 0 ∗ payZs m c 7))) := by
  simp only [k0_part29_eq_skeleton]; unfold k0_part29_skel
  simp only [Prog.lift, Prog.bind_op, Prog.bind_ret, Prog.pure_eq_ret, Prog.bind_assoc]
  iintro ⟨#HR, HO, ⟨Hc2, Ha2⟩, ⟨Hc3, Ha3⟩, ⟨Hc4, Ha4⟩, ⟨Hc5, Ha5⟩, ⟨Hc6, Ha6⟩, ⟨Hc7, Ha7⟩⟩
  iapply (wait0 m c K 14 (by decide) _ rfl W (ck_zs 2 168 14 (by decide) (by decide) _ _ _)) $$ [Hc2 Ha2 HO]
  · isplitr; · iexact HR
    isplitl [Hc2]; · iexact Hc2
    isplitl [Ha2]; · iexact Ha2
    iexact HO
  iintro ⟨HO, Ha2, Hp2⟩
  iapply (wait0 m c K 15 (by decide) _ rfl _ (ck_zs 3 168 15 (by decide) (by decide) _ _ _)) $$ [Hc3 Ha3 HO]
  · isplitr; · iexact HR
    isplitl [Hc3]; · iexact Hc3
    isplitl [Ha3]; · iexact Ha3
    iexact HO
  iintro ⟨HO, Ha3, Hp3⟩
  iapply (wait0 m c K 16 (by decide) _ rfl _ (ck_zs 4 176 16 (by decide) (by decide) _ _ _)) $$ [Hc4 Ha4 HO]
  · isplitr; · iexact HR
    isplitl [Hc4]; · iexact Hc4
    isplitl [Ha4]; · iexact Ha4
    iexact HO
  iintro ⟨HO, Ha4, Hp4⟩
  iapply (wait0 m c K 17 (by decide) _ rfl _ (ck_zs 5 176 17 (by decide) (by decide) _ _ _)) $$ [Hc5 Ha5 HO]
  · isplitr; · iexact HR
    isplitl [Hc5]; · iexact Hc5
    isplitl [Ha5]; · iexact Ha5
    iexact HO
  iintro ⟨HO, Ha5, Hp5⟩
  iapply (wait0 m c K 18 (by decide) _ rfl _ (ck_zs 6 176 18 (by decide) (by decide) _ _ _)) $$ [Hc6 Ha6 HO]
  · isplitr; · iexact HR
    isplitl [Hc6]; · iexact Hc6
    isplitl [Ha6]; · iexact Ha6
    iexact HO
  iintro ⟨HO, Ha6, Hp6⟩
  iapply (wait0 m c K 19 (by decide) _ rfl _ (ck_zs 7 176 19 (by decide) (by decide) _ _ _)) $$ [Hc7 Ha7 HO]
  · isplitr; · iexact HR
    isplitl [Hc7]; · iexact Hc7
    isplitl [Ha7]; · iexact Ha7
    iexact HO
  iintro ⟨HO, Ha7, Hp7⟩
  rw [wp_ret]; imodintro
  rw [← dpay_zs m c 2, ← dpay_zs m c 3, ← dpay_zs m c 4, ← dpay_zs m c 5, ← dpay_zs m c 6, ← dpay_zs m c 7]
  isplitl [HO]; · iexists _; iexact HO
  isplitl [Ha2 Hp2]; · isplitl [Ha2]; · iexact Ha2
                       iexact Hp2
  isplitl [Ha3 Hp3]; · isplitl [Ha3]; · iexact Ha3
                       iexact Hp3
  isplitl [Ha4 Hp4]; · isplitl [Ha4]; · iexact Ha4
                       iexact Hp4
  isplitl [Ha5 Hp5]; · isplitl [Ha5]; · iexact Ha5
                       iexact Hp5
  isplitl [Ha6 Hp6]; · isplitl [Ha6]; · iexact Ha6
                       iexact Hp6
  isplitl [Ha7]; · iexact Ha7
  iexact Hp7

end Cert.Kernel.AG

end
-- ==== Proof.K.AGParts_e.lean ====
/-
  The body, parts 30 to 34: the device owes nothing any more and waits, one after the other, for its x- and y-send cells (each
  hands back the source rows of the communication buffer at the share the forward read them with) and for the cells of its
  copies to the result (each hands over the rows of the result written, and the source rows back).
-/
import proofs.«900673_g7700000000000674_dist_ag_v7x_xyz2x2x2_z_m4096_n1024_bf16_1_alg».proof.Proof.Gen.Kernel.Skeleton
import proofs.«900673_g7700000000000674_dist_ag_v7x_xyz2x2x2_z_m4096_n1024_bf16_1_alg».proof.Proof.K.AGParts_d

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A wait on DMA cell n of the device when it owes nothing, the cell's payload named by its family. -/
theorem pe_wait0P {sp sp' : Space} {s s' : Shape} {e e' : EltTy} (c : Dev nD) (K : Dev nD × Fin 86 → ℕ) (n : ℕ) (hn : n < 85) (qs : DmaSem sig) (hqs : qs = ⟨n, hn⟩)
    {src : Memref sig .tc sp' s' e'} {κ' : Kind} {dst : Memref sig κ' sp s e} {hsrc : src.view.WordExact} {hdst : dst.view.WordExact}
    {α : Type} {Q : α → sProp 𝕄} {k : PUnit → Prog (TpuEff nD τ sig (Elt F) Λ₀ .tc) α}
    (W : Waits sig Unit) (P : sProp 𝕄) (hP : dpay m c n = P) (hk : dst.view.dmaCredit = damt n) :
    iprop(records m K ∗ cred (tallyAt (dcell c n hn) () (damt n)) ∗ atPos ER (dcell c n hn) 0 ∅ 0 ∗ owes (c : Thread nD τ) 0 W)
      ⊢ iprop(((owes (c : Thread nD τ) 0 (insert (SemLoc.dma ⟨n, hn⟩, ()) W) ∗ atPos ER (dcell c n hn) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hP
  exact wait0 m c K n hn qs hqs W hk

set_option maxRecDepth 65536 in
set_option maxHeartbeats 1000000 in
/-- Part 30: the waits on the send cells of the forwards x0, y0, x1, y1, x6, x2, in the order they were fired. -/
theorem part_30 (c : Dev nD) (K : Dev nD × Fin 86 → ℕ) (W : Waits sig Unit) :
    iprop(records m K ∗ owes (c : Thread nD τ) 0 W
      ∗ (cred (tallyAt (dcell c 28 (by decide)) () (damt 28)) ∗ atPos ER (dcell c 28 (by decide)) 0 ∅ 0)
      ∗ (cred (tallyAt (dcell c 44 (by decide)) () (damt 44)) ∗ atPos ER (dcell c 44 (by decide)) 0 ∅ 0)
      ∗ (cred (tallyAt (dcell c 29 (by decide)) () (damt 29)) ∗ atPos ER (dcell c 29 (by decide)) 0 ∅ 0)
      ∗ (cred (tallyAt (dcell c 45 (by decide)) () (damt 45)) ∗ atPos ER (dcell c 45 (by decide)) 0 ∅ 0)
      ∗ (cred (tallyAt (dcell c 34 (by decide)) () (damt 34)) ∗ atPos ER (dcell c 34 (by decide)) 0 ∅ 0)
      ∗ (cred (tallyAt (dcell c 30 (by decide)) () (damt 30)) ∗ atPos ER (dcell c 30 (by decide)) 0 ∅ 0))
    ⊢ wp frame (wpE (defs₀ (F := F)) 𝒱₀ (c : Thread nD τ) none) Set.univ
        (k0_part30 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 28 (by decide)) 1 ∅ 0 ∗ payXs m c 0)
          ∗ (atPos ER (dcell c 44 (by decide)) 1 ∅ 0 ∗ payYs m c 0)
          ∗ (atPos ER (dcell c 29 (by decide)) 1 ∅ 0 ∗ payXs m c 1)
          ∗ (atPos ER (dcell c 45 (by decide)) 1 ∅ 0 ∗ payYs m c 1)
          ∗ (atPos ER (dcell c 34 (by decide)) 1 ∅ 0 ∗ payXs m c 6)
          ∗ (atPos ER (dcell c 30 (by decide)) 1 ∅ 0 ∗ payXs m c 2))) := by
  simp only [k0_part30_eq_skeleton]; unfold k0_part30_skel
  simp only [Prog.lift, Prog.bind_op, Prog.bind_ret, Prog.pure_eq_ret, Prog.bind_assoc]
  iintro ⟨#HR, HO, ⟨Hc28, Ha28⟩, ⟨Hc44, Ha44⟩, ⟨Hc29, Ha29⟩, ⟨Hc45, Ha45⟩, ⟨Hc34, Ha34⟩, ⟨Hc30, Ha30⟩⟩
  iapply (pe_wait0P m c K 28 (by decide) _ rfl W (payXs m c 0) (dpay_xs m c 0) (ck_xs 0 112 28 (by decide) (by decide) _ _ _)) $$ [Hc28 Ha28 HO]
  · isplitr; · iexact HR
    isplitl [Hc28]; · iexact Hc28
    isplitl [Ha28]; · iexact Ha28
    iexact HO
  iintro ⟨HO, Ha28, Hp28⟩
  iapply (pe_wait0P m c K 44 (by decide) _ rfl _ (payYs m c 0) (dpay_ys m c 0) (ck_ys 0 112 44 (by decide) (by decide) _ _ _)) $$ [Hc44 Ha44 HO]
  · isplitr; · iexact HR
    isplitl [Hc44]; · iexact Hc44
    isplitl [Ha44]; · iexact Ha44
    iexact HO
  iintro ⟨HO, Ha44, Hp44⟩
  iapply (pe_wait0P m c K 29 (by decide) _ rfl _ (payXs m c 1) (dpay_xs m c 1) (ck_xs 1 224 29 (by decide) (by decide) _ _ _)) $$ [Hc29 Ha29 HO]
  · isplitr; · iexact HR
    isplitl [Hc29]; · iexact Hc29
    isplitl [Ha29]; · iexact Ha29
    iexact HO
  iintro ⟨HO, Ha29, Hp29⟩
  iapply (pe_wait0P m c K 45 (by decide) _ rfl _ (payYs m c 1) (dpay_ys m c 1) (ck_ys 1 224 45 (by decide) (by decide) _ _ _)) $$ [Hc45 Ha45 HO]
  · isplitr; · iexact HR
    isplitl [Hc45]; · iexact Hc45
    isplitl [Ha45]; · iexact Ha45
    iexact HO
  iintro ⟨HO, Ha45, Hp45⟩
  iapply (pe_wait0P m c K 34 (by decide) _ rfl _ (payXs m c 6) (dpay_xs m c 6) (ck_xs 6 112 34 (by decide) (by decide) _ _ _)) $$ [Hc34 Ha34 HO]
  · isplitr; · iexact HR
    isplitl [Hc34]; · iexact Hc34
    isplitl [Ha34]; · iexact Ha34
    iexact HO
  iintro ⟨HO, Ha34, Hp34⟩
  iapply (pe_wait0P m c K 30 (by decide) _ rfl _ (payXs m c 2) (dpay_xs m c 2) (ck_xs 2 168 30 (by decide) (by decide) _ _ _)) $$ [Hc30 Ha30 HO]
  · isplitr; · iexact HR
    isplitl [Hc30]; · iexact Hc30
    isplitl [Ha30]; · iexact Ha30
    iexact HO
  iintro ⟨HO, Ha30, Hp30⟩
  rw [wp_ret]; imodintro
  isplitl [HO]; · iexists _; iexact HO
  isplitl [Ha28 Hp28]
  · isplitl [Ha28]; · iexact Ha28
    iexact Hp28
  isplitl [Ha44 Hp44]
  · isplitl [Ha44]; · iexact Ha44
    iexact Hp44
  isplitl [Ha29 Hp29]
  · isplitl [Ha29]; · iexact Ha29
    iexact Hp29
  isplitl [Ha45 Hp45]
  · isplitl [Ha45]; · iexact Ha45
    iexact Hp45
  isplitl [Ha34 Hp34]
  · isplitl [Ha34]; · iexact Ha34
    iexact Hp34
  isplitl [Ha30]; · iexact Ha30
  iexact Hp30

set_option maxRecDepth 65536 in
set_option maxHeartbeats 1000000 in
/-- Part 31: the waits on the send cells of the forwards y2, x3, y3, x7, y6, y7. -/
theorem part_31 (c : Dev nD) (K : Dev nD × Fin 86 → ℕ) (W : Waits sig Unit) :
    iprop(records m K ∗ owes (c : Thread nD τ) 0 W
      ∗ (cred (tallyAt (dcell c 46 (by decide)) () (damt 46)) ∗ atPos ER (dcell c 46 (by decide)) 0 ∅ 0)
      ∗ (cred (tallyAt (dcell c 31 (by decide)) () (damt 31)) ∗ atPos ER (dcell c 31 (by decide)) 0 ∅ 0)
      ∗ (cred (tallyAt (dcell c 47 (by decide)) () (damt 47)) ∗ atPos ER (dcell c 47 (by decide)) 0 ∅ 0)
      ∗ (cred (tallyAt (dcell c 35 (by decide)) () (damt 35)) ∗ atPos ER (dcell c 35 (by decide)) 0 ∅ 0)
      ∗ (cred (tallyAt (dcell c 50 (by decide)) () (damt 50)) ∗ atPos ER (dcell c 50 (by decide)) 0 ∅ 0)
      ∗ (cred (tallyAt (dcell c 51 (by decide)) () (damt 51)) ∗ atPos ER (dcell c 51 (by decide)) 0 ∅ 0))
    ⊢ wp frame (wpE (defs₀ (F := F)) 𝒱₀ (c : Thread nD τ) none) Set.univ
        (k0_part31 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 46 (by decide)) 1 ∅ 0 ∗ payYs m c 2)
          ∗ (atPos ER (dcell c 31 (by decide)) 1 ∅ 0 ∗ payXs m c 3)
          ∗ (atPos ER (dcell c 47 (by decide)) 1 ∅ 0 ∗ payYs m c 3)
          ∗ (atPos ER (dcell c 35 (by decide)) 1 ∅ 0 ∗ payXs m c 7)
          ∗ (atPos ER (dcell c 50 (by decide)) 1 ∅ 0 ∗ payYs m c 6)
          ∗ (atPos ER (dcell c 51 (by decide)) 1 ∅ 0 ∗ payYs m c 7))) := by
  simp only [k0_part31_eq_skeleton]; unfold k0_part31_skel
  simp only [Prog.lift, Prog.bind_op, Prog.bind_ret, Prog.pure_eq_ret, Prog.bind_assoc]
  iintro ⟨#HR, HO, ⟨Hc46, Ha46⟩, ⟨Hc31, Ha31⟩, ⟨Hc47, Ha47⟩, ⟨Hc35, Ha35⟩, ⟨Hc50, Ha50⟩, ⟨Hc51, Ha51⟩⟩
  iapply (pe_wait0P m c K 46 (by decide) _ rfl W (payYs m c 2) (dpay_ys m c 2) (ck_ys 2 168 46 (by decide) (by decide) _ _ _)) $$ [Hc46 Ha46 HO]
  · isplitr; · iexact HR
    isplitl [Hc46]; · iexact Hc46
    isplitl [Ha46]; · iexact Ha46
    iexact HO
  iintro ⟨HO, Ha46, Hp46⟩
  iapply (pe_wait0P m c K 31 (by decide) _ rfl _ (payXs m c 3) (dpay_xs m c 3) (ck_xs 3 168 31 (by decide) (by decide) _ _ _)) $$ [Hc31 Ha31 HO]
  · isplitr; · iexact HR
    isplitl [Hc31]; · iexact Hc31
    isplitl [Ha31]; · iexact Ha31
    iexact HO
  iintro ⟨HO, Ha31, Hp31⟩
  iapply (pe_wait0P m c K 47 (by decide) _ rfl _ (payYs m c 3) (dpay_ys m c 3) (ck_ys 3 168 47 (by decide) (by decide) _ _ _)) $$ [Hc47 Ha47 HO]
  · isplitr; · iexact HR
    isplitl [Hc47]; · iexact Hc47
    isplitl [Ha47]; · iexact Ha47
    iexact HO
  iintro ⟨HO, Ha47, Hp47⟩
  iapply (pe_wait0P m c K 35 (by decide) _ rfl _ (payXs m c 7) (dpay_xs m c 7) (ck_xs 7 224 35 (by decide) (by decide) _ _ _)) $$ [Hc35 Ha35 HO]
  · isplitr; · iexact HR
    isplitl [Hc35]; · iexact Hc35
    isplitl [Ha35]; · iexact Ha35
    iexact HO
  iintro ⟨HO, Ha35, Hp35⟩
  iapply (pe_wait0P m c K 50 (by decide) _ rfl _ (payYs m c 6) (dpay_ys m c 6) (ck_ys 6 168 50 (by decide) (by decide) _ _ _)) $$ [Hc50 Ha50 HO]
  · isplitr; · iexact HR
    isplitl [Hc50]; · iexact Hc50
    isplitl [Ha50]; · iexact Ha50
    iexact HO
  iintro ⟨HO, Ha50, Hp50⟩
  iapply (pe_wait0P m c K 51 (by decide) _ rfl _ (payYs m c 7) (dpay_ys m c 7) (ck_ys 7 168 51 (by decide) (by decide) _ _ _)) $$ [Hc51 Ha51 HO]
  · isplitr; · iexact HR
    isplitl [Hc51]; · iexact Hc51
    isplitl [Ha51]; · iexact Ha51
    iexact HO
  iintro ⟨HO, Ha51, Hp51⟩
  rw [wp_ret]; imodintro
  isplitl [HO]; · iexists _; iexact HO
  isplitl [Ha46 Hp46]
  · isplitl [Ha46]; · iexact Ha46
    iexact Hp46
  isplitl [Ha31 Hp31]
  · isplitl [Ha31]; · iexact Ha31
    iexact Hp31
  isplitl [Ha47 Hp47]
  · isplitl [Ha47]; · iexact Ha47
    iexact Hp47
  isplitl [Ha35 Hp35]
  · isplitl [Ha35]; · iexact Ha35
    iexact Hp35
  isplitl [Ha50 Hp50]
  · isplitl [Ha50]; · iexact Ha50
    iexact Hp50
  isplitl [Ha51]; · iexact Ha51
  iexact Hp51

set_option maxRecDepth 65536 in
set_option maxHeartbeats 1000000 in
/-- Part 32: the waits on the send cells of the forwards x4, x5, y4, y5, then on the cells of the copies of own chunks 0 and 1 to the result. -/
theorem part_32 (c : Dev nD) (K : Dev nD × Fin 86 → ℕ) (W : Waits sig Unit) :
    iprop(records m K ∗ owes (c : Thread nD τ) 0 W
      ∗ (cred (tallyAt (dcell c 32 (by decide)) () (damt 32)) ∗ atPos ER (dcell c 32 (by decide)) 0 ∅ 0)
      ∗ (cred (tallyAt (dcell c 33 (by decide)) () (damt 33)) ∗ atPos ER (dcell c 33 (by decide)) 0 ∅ 0)
      ∗ (cred (tallyAt (dcell c 48 (by decide)) () (damt 48)) ∗ atPos ER (dcell c 48 (by decide)) 0 ∅ 0)
      ∗ (cred (tallyAt (dcell c 49 (by decide)) () (damt 49)) ∗ atPos ER (dcell c 49 (by decide)) 0 ∅ 0)
      ∗ (cred (tallyAt (dcell c 60 (by decide)) () (damt 60)) ∗ atPos ER (dcell c 60 (by decide)) 0 ∅ 0)
      ∗ (cred (tallyAt (dcell c 61 (by decide)) () (damt 61)) ∗ atPos ER (dcell c 61 (by decide)) 0 ∅ 0))
    ⊢ wp frame (wpE (defs₀ (F := F)) 𝒱₀ (c : Thread nD τ) none) Set.univ
        (k0_part32 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 32 (by decide)) 1 ∅ 0 ∗ payXs m c 4)
          ∗ (atPos ER (dcell c 33 (by decide)) 1 ∅ 0 ∗ payXs m c 5)
          ∗ (atPos ER (dcell c 48 (by decide)) 1 ∅ 0 ∗ payYs m c 4)
          ∗ (atPos ER (dcell c 49 (by decide)) 1 ∅ 0 ∗ payYs m c 5)
          ∗ (atPos ER (dcell c 60 (by decide)) 1 ∅ 0 ∗ payLz m c 0)
          ∗ (atPos ER (dcell c 61 (by decide)) 1 ∅ 0 ∗ payLz m c 1))) := by
  simp only [k0_part32_eq_skeleton]; unfold k0_part32_skel
  simp only [Prog.lift, Prog.bind_op, Prog.bind_ret, Prog.pure_eq_ret, Prog.bind_assoc]
  iintro ⟨#HR, HO, ⟨Hc32, Ha32⟩, ⟨Hc33, Ha33⟩, ⟨Hc48, Ha48⟩, ⟨Hc49, Ha49⟩, ⟨Hc60, Ha60⟩, ⟨Hc61, Ha61⟩⟩
  iapply (pe_wait0P m c K 32 (by decide) _ rfl W (payXs m c 4) (dpay_xs m c 4) (ck_xs 4 176 32 (by decide) (by decide) _ _ _)) $$ [Hc32 Ha32 HO]
  · isplitr; · iexact HR
    isplitl [Hc32]; · iexact Hc32
    isplitl [Ha32]; · iexact Ha32
    iexact HO
  iintro ⟨HO, Ha32, Hp32⟩
  iapply (pe_wait0P m c K 33 (by decide) _ rfl _ (payXs m c 5) (dpay_xs m c 5) (ck_xs 5 176 33 (by decide) (by decide) _ _ _)) $$ [Hc33 Ha33 HO]
  · isplitr; · iexact HR
    isplitl [Hc33]; · iexact Hc33
    isplitl [Ha33]; · iexact Ha33
    iexact HO
  iintro ⟨HO, Ha33, Hp33⟩
  iapply (pe_wait0P m c K 48 (by decide) _ rfl _ (payYs m c 4) (dpay_ys m c 4) (ck_ys 4 176 48 (by decide) (by decide) _ _ _)) $$ [Hc48 Ha48 HO]
  · isplitr; · iexact HR
    isplitl [Hc48]; · iexact Hc48
    isplitl [Ha48]; · iexact Ha48
    iexact HO
  iintro ⟨HO, Ha48, Hp48⟩
  iapply (pe_wait0P m c K 49 (by decide) _ rfl _ (payYs m c 5) (dpay_ys m c 5) (ck_ys 5 176 49 (by decide) (by decide) _ _ _)) $$ [Hc49 Ha49 HO]
  · isplitr; · iexact HR
    isplitl [Hc49]; · iexact Hc49
    isplitl [Ha49]; · iexact Ha49
    iexact HO
  iintro ⟨HO, Ha49, Hp49⟩
  iapply (pe_wait0P m c K 60 (by decide) _ rfl _ (payLz m c 0) (dpay_lz m c 0) (ck_lz 0 112 60 (by decide) (by decide) _ _ _)) $$ [Hc60 Ha60 HO]
  · isplitr; · iexact HR
    isplitl [Hc60]; · iexact Hc60
    isplitl [Ha60]; · iexact Ha60
    iexact HO
  iintro ⟨HO, Ha60, Hp60⟩
  iapply (pe_wait0P m c K 61 (by decide) _ rfl _ (payLz m c 1) (dpay_lz m c 1) (ck_lz 1 224 61 (by decide) (by decide) _ _ _)) $$ [Hc61 Ha61 HO]
  · isplitr; · iexact HR
    isplitl [Hc61]; · iexact Hc61
    isplitl [Ha61]; · iexact Ha61
    iexact HO
  iintro ⟨HO, Ha61, Hp61⟩
  rw [wp_ret]; imodintro
  isplitl [HO]; · iexists _; iexact HO
  isplitl [Ha32 Hp32]
  · isplitl [Ha32]; · iexact Ha32
    iexact Hp32
  isplitl [Ha33 Hp33]
  · isplitl [Ha33]; · iexact Ha33
    iexact Hp33
  isplitl [Ha48 Hp48]
  · isplitl [Ha48]; · iexact Ha48
    iexact Hp48
  isplitl [Ha49 Hp49]
  · isplitl [Ha49]; · iexact Ha49
    iexact Hp49
  isplitl [Ha60 Hp60]
  · isplitl [Ha60]; · iexact Ha60
    iexact Hp60
  isplitl [Ha61]; · iexact Ha61
  iexact Hp61

set_option maxRecDepth 65536 in
set_option maxHeartbeats 1000000 in
/-- Part 33: the waits on the cells of the copies to the result of y-arrival 0, own chunks 2 and 3, y-arrival 1, x-arrivals 2 and 3, own chunks 4 and 5. -/
theorem part_33 (c : Dev nD) (K : Dev nD × Fin 86 → ℕ) (W : Waits sig Unit) :
    iprop(records m K ∗ owes (c : Thread nD τ) 0 W
      ∗ (cred (tallyAt (dcell c 76 (by decide)) () (damt 76)) ∗ atPos ER (dcell c 76 (by decide)) 0 ∅ 0)
      ∗ (cred (tallyAt (dcell c 62 (by decide)) () (damt 62)) ∗ atPos ER (dcell c 62 (by decide)) 0 ∅ 0)
      ∗ (cred (tallyAt (dcell c 63 (by decide)) () (damt 63)) ∗ atPos ER (dcell c 63 (by decide)) 0 ∅ 0)
      ∗ (cred (tallyAt (dcell c 77 (by decide)) () (damt 77)) ∗ atPos ER (dcell c 77 (by decide)) 0 ∅ 0)
      ∗ (cred (tallyAt (dcell c 70 (by decide)) () (damt 70)) ∗ atPos ER (dcell c 70 (by decide)) 0 ∅ 0)
      ∗ (cred (tallyAt (dcell c 71 (by decide)) () (damt 71)) ∗ atPos ER (dcell c 71 (by decide)) 0 ∅ 0)
      ∗ (cred (tallyAt (dcell c 64 (by decide)) () (damt 64)) ∗ atPos ER (dcell c 64 (by decide)) 0 ∅ 0)
      ∗ (cred (tallyAt (dcell c 65 (by decide)) () (damt 65)) ∗ atPos ER (dcell c 65 (by decide)) 0 ∅ 0))
    ⊢ wp frame (wpE (defs₀ (F := F)) 𝒱₀ (c : Thread nD τ) none) Set.univ
        (k0_part33 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 76 (by decide)) 1 ∅ 0 ∗ payLy m c 0)
          ∗ (atPos ER (dcell c 62 (by decide)) 1 ∅ 0 ∗ payLz m c 2)
          ∗ (atPos ER (dcell c 63 (by decide)) 1 ∅ 0 ∗ payLz m c 3)
          ∗ (atPos ER (dcell c 77 (by decide)) 1 ∅ 0 ∗ payLy m c 1)
          ∗ (atPos ER (dcell c 70 (by decide)) 1 ∅ 0 ∗ payLx m c 2)
          ∗ (atPos ER (dcell c 71 (by decide)) 1 ∅ 0 ∗ payLx m c 3)
          ∗ (atPos ER (dcell c 64 (by decide)) 1 ∅ 0 ∗ payLz m c 4)
          ∗ (atPos ER (dcell c 65 (by decide)) 1 ∅ 0 ∗ payLz m c 5))) := by
  simp only [k0_part33_eq_skeleton]; unfold k0_part33_skel
  simp only [Prog.lift, Prog.bind_op, Prog.bind_ret, Prog.pure_eq_ret, Prog.bind_assoc]
  iintro ⟨#HR, HO, ⟨Hc76, Ha76⟩, ⟨Hc62, Ha62⟩, ⟨Hc63, Ha63⟩, ⟨Hc77, Ha77⟩, ⟨Hc70, Ha70⟩, ⟨Hc71, Ha71⟩, ⟨Hc64, Ha64⟩, ⟨Hc65, Ha65⟩⟩
  iapply (pe_wait0P m c K 76 (by decide) _ rfl W (payLy m c 0) (dpay_ly m c 0) (ck_ly 0 112 76 (by decide) (by decide) _ _ _)) $$ [Hc76 Ha76 HO]
  · isplitr; · iexact HR
    isplitl [Hc76]; · iexact Hc76
    isplitl [Ha76]; · iexact Ha76
    iexact HO
  iintro ⟨HO, Ha76, Hp76⟩
  iapply (pe_wait0P m c K 62 (by decide) _ rfl _ (payLz m c 2) (dpay_lz m c 2) (ck_lz 2 168 62 (by decide) (by decide) _ _ _)) $$ [Hc62 Ha62 HO]
  · isplitr; · iexact HR
    isplitl [Hc62]; · iexact Hc62
    isplitl [Ha62]; · iexact Ha62
    iexact HO
  iintro ⟨HO, Ha62, Hp62⟩
  iapply (pe_wait0P m c K 63 (by decide) _ rfl _ (payLz m c 3) (dpay_lz m c 3) (ck_lz 3 168 63 (by decide) (by decide) _ _ _)) $$ [Hc63 Ha63 HO]
  · isplitr; · iexact HR
    isplitl [Hc63]; · iexact Hc63
    isplitl [Ha63]; · iexact Ha63
    iexact HO
  iintro ⟨HO, Ha63, Hp63⟩
  iapply (pe_wait0P m c K 77 (by decide) _ rfl _ (payLy m c 1) (dpay_ly m c 1) (ck_ly 1 224 77 (by decide) (by decide) _ _ _)) $$ [Hc77 Ha77 HO]
  · isplitr; · iexact HR
    isplitl [Hc77]; · iexact Hc77
    isplitl [Ha77]; · iexact Ha77
    iexact HO
  iintro ⟨HO, Ha77, Hp77⟩
  iapply (pe_wait0P m c K 70 (by decide) _ rfl _ (payLx m c 2) (dpay_lx m c 2) (ck_lx 2 168 70 (by decide) (by decide) _ _ _)) $$ [Hc70 Ha70 HO]
  · isplitr; · iexact HR
    isplitl [Hc70]; · iexact Hc70
    isplitl [Ha70]; · iexact Ha70
    iexact HO
  iintro ⟨HO, Ha70, Hp70⟩
  iapply (pe_wait0P m c K 71 (by decide) _ rfl _ (payLx m c 3) (dpay_lx m c 3) (ck_lx 3 168 71 (by decide) (by decide) _ _ _)) $$ [Hc71 Ha71 HO]
  · isplitr; · iexact HR
    isplitl [Hc71]; · iexact Hc71
    isplitl [Ha71]; · iexact Ha71
    iexact HO
  iintro ⟨HO, Ha71, Hp71⟩
  iapply (pe_wait0P m c K 64 (by decide) _ rfl _ (payLz m c 4) (dpay_lz m c 4) (ck_lz 4 176 64 (by decide) (by decide) _ _ _)) $$ [Hc64 Ha64 HO]
  · isplitr; · iexact HR
    isplitl [Hc64]; · iexact Hc64
    isplitl [Ha64]; · iexact Ha64
    iexact HO
  iintro ⟨HO, Ha64, Hp64⟩
  iapply (pe_wait0P m c K 65 (by decide) _ rfl _ (payLz m c 5) (dpay_lz m c 5) (ck_lz 5 176 65 (by decide) (by decide) _ _ _)) $$ [Hc65 Ha65 HO]
  · isplitr; · iexact HR
    isplitl [Hc65]; · iexact Hc65
    isplitl [Ha65]; · iexact Ha65
    iexact HO
  iintro ⟨HO, Ha65, Hp65⟩
  rw [wp_ret]; imodintro
  isplitl [HO]; · iexists _; iexact HO
  isplitl [Ha76 Hp76]
  · isplitl [Ha76]; · iexact Ha76
    iexact Hp76
  isplitl [Ha62 Hp62]
  · isplitl [Ha62]; · iexact Ha62
    iexact Hp62
  isplitl [Ha63 Hp63]
  · isplitl [Ha63]; · iexact Ha63
    iexact Hp63
  isplitl [Ha77 Hp77]
  · isplitl [Ha77]; · iexact Ha77
    iexact Hp77
  isplitl [Ha70 Hp70]
  · isplitl [Ha70]; · iexact Ha70
    iexact Hp70
  isplitl [Ha71 Hp71]
  · isplitl [Ha71]; · iexact Ha71
    iexact Hp71
  isplitl [Ha64 Hp64]
  · isplitl [Ha64]; · iexact Ha64
    iexact Hp64
  isplitl [Ha65]; · iexact Ha65
  iexact Hp65

set_option maxRecDepth 65536 in
set_option maxHeartbeats 1000000 in
/-- Part 34: the waits on the cells of the copies to the result of own chunks 6 and 7, of the whole conversion buffer, and of x-arrivals 0, 1, 4, 5, 6. -/
theorem part_34 (c : Dev nD) (K : Dev nD × Fin 86 → ℕ) (W : Waits sig Unit) :
    iprop(records m K ∗ owes (c : Thread nD τ) 0 W
      ∗ (cred (tallyAt (dcell c 66 (by decide)) () (damt 66)) ∗ atPos ER (dcell c 66 (by decide)) 0 ∅ 0)
      ∗ (cred (tallyAt (dcell c 67 (by decide)) () (damt 67)) ∗ atPos ER (dcell c 67 (by decide)) 0 ∅ 0)
      ∗ (cred (tallyAt (dcell c 84 (by decide)) () (damt 84)) ∗ atPos ER (dcell c 84 (by decide)) 0 ∅ 0)
      ∗ (cred (tallyAt (dcell c 68 (by decide)) () (damt 68)) ∗ atPos ER (dcell c 68 (by decide)) 0 ∅ 0)
      ∗ (cred (tallyAt (dcell c 69 (by decide)) () (damt 69)) ∗ atPos ER (dcell c 69 (by decide)) 0 ∅ 0)
      ∗ (cred (tallyAt (dcell c 72 (by decide)) () (damt 72)) ∗ atPos ER (dcell c 72 (by decide)) 0 ∅ 0)
      ∗ (cred (tallyAt (dcell c 73 (by decide)) () (damt 73)) ∗ atPos ER (dcell c 73 (by decide)) 0 ∅ 0)
      ∗ (cred (tallyAt (dcell c 74 (by decide)) () (damt 74)) ∗ atPos ER (dcell c 74 (by decide)) 0 ∅ 0))
    ⊢ wp frame (wpE (defs₀ (F := F)) 𝒱₀ (c : Thread nD τ) none) Set.univ
        (k0_part34 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 c)
        (fun _ => iprop((∃ W', owes (c : Thread nD τ) 0 W')
          ∗ (atPos ER (dcell c 66 (by decide)) 1 ∅ 0 ∗ payLz m c 6)
          ∗ (atPos ER (dcell c 67 (by decide)) 1 ∅ 0 ∗ payLz m c 7)
          ∗ (atPos ER (dcell c 84 (by decide)) 1 ∅ 0 ∗ payLm m c)
          ∗ (atPos ER (dcell c 68 (by decide)) 1 ∅ 0 ∗ payLx m c 0)
          ∗ (atPos ER (dcell c 69 (by decide)) 1 ∅ 0 ∗ payLx m c 1)
          ∗ (atPos ER (dcell c 72 (by decide)) 1 ∅ 0 ∗ payLx m c 4)
          ∗ (atPos ER (dcell c 73 (by decide)) 1 ∅ 0 ∗ payLx m c 5)
          ∗ (atPos ER (dcell c 74 (by decide)) 1 ∅ 0 ∗ payLx m c 6))) := by
  simp only [k0_part34_eq_skeleton]; unfold k0_part34_skel
  simp only [Prog.lift, Prog.bind_op, Prog.bind_ret, Prog.pure_eq_ret, Prog.bind_assoc]
  iintro ⟨#HR, HO, ⟨Hc66, Ha66⟩, ⟨Hc67, Ha67⟩, ⟨Hc84, Ha84⟩, ⟨Hc68, Ha68⟩, ⟨Hc69, Ha69⟩, ⟨Hc72, Ha72⟩, ⟨Hc73, Ha73⟩, ⟨Hc74, Ha74⟩⟩
  iapply (pe_wait0P m c K 66 (by decide) _ rfl W (payLz m c 6) (dpay_lz m c 6) (ck_lz 6 176 66 (by decide) (by decide) _ _ _)) $$ [Hc66 Ha66 HO]
  · isplitr; · iexact HR
    isplitl [Hc66]; · iexact Hc66
    isplitl [Ha66]; · iexact Ha66
    iexact HO
  iintro ⟨HO, Ha66, Hp66⟩
  iapply (pe_wait0P m c K 67 (by decide) _ rfl _ (payLz m c 7) (dpay_lz m c 7) (ck_lz 7 176 67 (by decide) (by decide) _ _ _)) $$ [Hc67 Ha67 HO]
  · isplitr; · iexact HR
    isplitl [Hc67]; · iexact Hc67
    isplitl [Ha67]; · iexact Ha67
    iexact HO
  iintro ⟨HO, Ha67, Hp67⟩
  iapply (pe_wait0P m c K 84 (by decide) _ rfl _ (payLm m c) (dpay_lm m c) (ck_lm _ _ _)) $$ [Hc84 Ha84 HO]
  · isplitr; · iexact HR
    isplitl [Hc84]; · iexact Hc84
    isplitl [Ha84]; · iexact Ha84
    iexact HO
  iintro ⟨HO, Ha84, Hp84⟩
  iapply (pe_wait0P m c K 68 (by decide) _ rfl _ (payLx m c 0) (dpay_lx m c 0) (ck_lx 0 112 68 (by decide) (by decide) _ _ _)) $$ [Hc68 Ha68 HO]
  · isplitr; · iexact HR
    isplitl [Hc68]; · iexact Hc68
    isplitl [Ha68]; · iexact Ha68
    iexact HO
  iintro ⟨HO, Ha68, Hp68⟩
  iapply (pe_wait0P m c K 69 (by decide) _ rfl _ (payLx m c 1) (dpay_lx m c 1) (ck_lx 1 224 69 (by decide) (by decide) _ _ _)) $$ [Hc69 Ha69 HO]
  · isplitr; · iexact HR
    isplitl [Hc69]; · iexact Hc69
    isplitl [Ha69]; · iexact Ha69
    iexact HO
  iintro ⟨HO, Ha69, Hp69⟩
  iapply (pe_wait0P m c K 72 (by decide) _ rfl _ (payLx m c 4) (dpay_lx m c 4) (ck_lx 4 176 72 (by decide) (by decide) _ _ _)) $$ [Hc72 Ha72 HO]
  · isplitr; · iexact HR
    isplitl [Hc72]; · iexact Hc72
    isplitl [Ha72]; · iexact Ha72
    iexact HO
  iintro ⟨HO, Ha72, Hp72⟩
  iapply (pe_wait0P m c K 73 (by decide) _ rfl _ (payLx m c 5) (dpay_lx m c 5) (ck_lx 5 176 73 (by decide) (by decide) _ _ _)) $$ [Hc73 Ha73 HO]
  · isplitr; · iexact HR
    isplitl [Hc73]; · iexact Hc73
    isplitl [Ha73]; · iexact Ha73
    iexact HO
  iintro ⟨HO, Ha73, Hp73⟩
  iapply (pe_wait0P m c K 74 (by decide) _ rfl _ (payLx m c 6) (dpay_lx m c 6) (ck_lx 6 112 74 (by decide) (by decide) _ _ _)) $$ [Hc74 Ha74 HO]
  · isplitr; · iexact HR
    isplitl [Hc74]; · iexact Hc74
    isplitl [Ha74]; · iexact Ha74
    iexact HO
  iintro ⟨HO, Ha74, Hp74⟩
  rw [wp_ret]; imodintro
  isplitl [HO]; · iexists _; iexact HO
  isplitl [Ha66 Hp66]
  · isplitl [Ha66]; · iexact Ha66
    iexact Hp66
  isplitl [Ha67 Hp67]
  · isplitl [Ha67]; · iexact Ha67
    iexact Hp67
  isplitl [Ha84 Hp84]
  · isplitl [Ha84]; · iexact Ha84
    iexact Hp84
  isplitl [Ha68 Hp68]
  · isplitl [Ha68]; · iexact Ha68
    iexact Hp68
  isplitl [Ha69 Hp69]
  · isplitl [Ha69]; · iexact Ha69
    iexact Hp69
  isplitl [Ha72 Hp72]
  · isplitl [Ha72]; · iexact Ha72
    iexact Hp72
  isplitl [Ha73 Hp73]
  · isplitl [Ha73]; · iexact Ha73
    iexact Hp73
  isplitl [Ha74]; · iexact Ha74
  iexact Hp74

end Cert.Kernel.AG

end

/-- info: 'Cert.Kernel.AG.part_30' depends on axioms: [propext, Classical.choice, Quot.sound] -/
#guard_msgs in #print axioms Cert.Kernel.AG.part_30

/-- info: 'Cert.Kernel.AG.part_31' depends on axioms: [propext, Classical.choice, Quot.sound] -/
#guard_msgs in #print axioms Cert.Kernel.AG.part_31

/-- info: 'Cert.Kernel.AG.part_32' depends on axioms: [propext, Classical.choice, Quot.sound] -/
#guard_msgs in #print axioms Cert.Kernel.AG.part_32

/-- info: 'Cert.Kernel.AG.part_33' depends on axioms: [propext, Classical.choice, Quot.sound] -/
#guard_msgs in #print axioms Cert.Kernel.AG.part_33

/-- info: 'Cert.Kernel.AG.part_34' depends on axioms: [propext, Classical.choice, Quot.sound] -/
#guard_msgs in #print axioms Cert.Kernel.AG.part_34
-- ==== Proof.K.AGEpilogue.lean ====
/-
  The end of the body: the pieces in which a device holds its buffers when its last wait is over make the whole buffers again,
  and every DMA cell of the device closes with its counter at zero.
  The staging buffer and the argument come back as their twelve input ranges, the result as the device's own half and the chunks
  of the other half; each is the whole buffer because the ranges are the buffer's rows, each once.  The conversion buffer comes
  back as its twelve input ranges at the left half of the share and its 4096 rows at the right half; the rows at the right half
  are the same twelve ranges, and a range held at the two halves of the share is the range held whole.
  A DMA cell has duties in round 0 only; its owner, at round 1 with nothing taken, closes it.
-/
import proofs.«900673_g7700000000000674_dist_ag_v7x_xyz2x2x2_z_m4096_n1024_bf16_1_alg».proof.Proof.K.AGCuts
import proofs.«900673_g7700000000000674_dist_ag_v7x_xyz2x2x2_z_m4096_n1024_bf16_1_alg».proof.Proof.K.AGGlue
import proofs.«900673_g7700000000000674_dist_ag_v7x_xyz2x2x2_z_m4096_n1024_bf16_1_alg».proof.Proof.K.AGPays

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- Every DMA cell of a device, its one round over and nothing of a later round taken, closes with its counter at zero. -/
theorem close_cells (K : Dev nD × Fin 86 → ℕ) (c : Dev nD) :
    iprop(records m K ∗ bigSep Finset.univ fun n : Fin 85 => atPos ER (dcell c n.val n.isLt) 1 ∅ 0)
      ⊢ iprop(|={Set.univ}=> bigSep Finset.univ fun n : Fin 85 => semVal (dcell c n.val n.isLt) 0) :=
  (bigSep_with_persistent (R := records m K) (Φ := fun n : Fin 85 => atPos ER (dcell c n.val n.isLt) 1 ∅ 0)
      (Ψ := fun n : Fin 85 => iprop(|={Set.univ}=> semVal (dcell c n.val n.isLt) 0))
      fun n _ => (sep_mono_left (inv_dma m K c n.val n.isLt)).trans
        (Rounds.cell_close ER (agRd m) (Set.mem_univ _) (fun h => h) (R := 1) (duties_later m _))).trans
    (bigSep_fupd _ _)

/-! ## A whole buffer at some contents -/

omit [FloatOps F] in
theorem ep_someBuf_intro (c : Dev nD) (b : Ref sig .tc) (f : Buf (Elt F) ((c : Thread nD τ).loc b)) :
    ((((c : Thread nD τ).loc b) ↦{fullShare} f : sProp 𝕄)) ⊢ someBuf c b := by
  unfold someBuf
  iintro H
  iexists f
  iexact H

/-! ## The result -/

theorem join_ou (c : Dev nD) :
    iprop(pts c OU (myb c) 4096 (omy_inb c) fullShare (outV m c)
      ∗ (bigSep Finset.univ fun j : Fin 8 => pts c OU (othb c + ownOff c j) (ownLen j) (oown_inb c j) fullShare (outV m c))
      ∗ (bigSep Finset.univ fun k : Fin 8 => pts c OU (othb c + xinOff c k) (xinLen k) (oxin_inb c k) fullShare (outV m c))
      ∗ (bigSep Finset.univ fun k : Fin 8 => pts c OU (othb c + yinOff c k) (yinLen k) (oyin_inb c k) fullShare (outV m c)))
      ⊢ (((c : Thread nD τ).loc main_v1) ↦{fullShare} outV m c : sProp 𝕄) :=
  (cut_ou c (outV m c)).2

/-! ## The staging buffer and the argument -/

theorem join_st (c : Dev nD) :
    (bigSep Finset.univ fun i : Fin 12 => pts c ST (inOff c i) (inLen i) (in_inb c i) fullShare (X m c)) ⊢ someBuf (F := F) c cc0_scratch0 :=
  (cut_in_ST c fullShare (X m c)).2.trans (ep_someBuf_intro c cc0_scratch0 (X m c))

theorem join_xa (c : Dev nD) :
    (bigSep Finset.univ fun i : Fin 12 => pts c XA (inOff c i) (inLen i) (in_inb c i) fullShare (X m c))
      ⊢ (((c : Thread nD τ).loc main_arg0) ↦{fullShare} X m c : sProp 𝕄) :=
  (cut_in_XA c fullShare (X m c)).2

/-! ## Shares -/

omit [FloatOps F] in
/-- Rows held at a share are the rows held at its two halves. -/
theorem ep_pts_share {sp : Space} {e : EltTy} {R : ℕ} (c : Dev nD) (B : Memref sig .tc sp (Sr R) e) (o r : ℕ) (h : o + r ≤ R)
    (q : PosShare TreeShare) (f : Buf (Elt F) (B.view.loc (c : Thread nD τ))) :
    pts (F := F) c B o r h q f = iprop(pts c B o r h q.left f ∗ pts c B o r h q.right f) := by
  have hs := pointsTo_share_split (Ix := Unit) (Val := Elt F) (Name := ℕ) (U := UU) (Lvl := ℕ)
    (sl B o r h).view.set q f
  unfold pts
  exact BI.equiv_iff.mp ⟨hs.1, hs.2⟩

/-! ## The conversion buffer -/

theorem ep_own_in_off : ∀ (c : Dev nD) (j : Fin 8), ownOff c j = inOff c ⟨j.val, by omega⟩ := by decide
theorem ep_own_in_len : ∀ j : Fin 8, ownLen j = inLen ⟨j.val, by omega⟩ := by decide

omit [FloatOps F] in
/-- An own chunk is the input range of the same number. -/
theorem mi_own_in (c : Dev nD) (j : Fin 8) (q : PosShare TreeShare) (f : Buf (Elt F) ((c : Thread nD τ).loc cc0_scratch1)) :
    pts (F := F) c MI (ownOff c j) (ownLen j) (own_inb c j) q f
      = pts c MI (inOff c ⟨j.val, by omega⟩) (inLen ⟨j.val, by omega⟩) (in_inb c _) q f :=
  pts_eq c MI q f (ep_own_in_off c j) (ep_own_in_len j) _ _

omit [FloatOps F] in
/-- The twelve input ranges of the conversion buffer at the right half make its 4096 rows at the right half. -/
theorem mi_sR_join (c : Dev nD) (f : Buf (Elt F) ((c : Thread nD τ).loc cc0_scratch1)) :
    (bigSep Finset.univ fun i : Fin 12 => pts c MI (inOff c i) (inLen i) (in_inb c i) sR f) ⊢ pts c MI 0 4096 (Nat.le_refl _) sR f :=
  (join_mi_sR c f).1

omit [FloatOps F] in
/-- The whole conversion buffer is its twelve input ranges at the left half and its 4096 rows at the right half. -/
theorem ep_mi_whole_eq (c : Dev nD) (f : Buf (Elt F) ((c : Thread nD τ).loc cc0_scratch1)) :
    ((((c : Thread nD τ).loc cc0_scratch1) ↦{fullShare} f : sProp 𝕄))
      = iprop((bigSep Finset.univ fun i : Fin 12 => pts c MI (inOff c i) (inLen i) (in_inb c i) sL f) ∗ pts c MI 0 4096 (Nat.le_refl _) sR f) :=
  calc ((((c : Thread nD τ).loc cc0_scratch1) ↦{fullShare} f : sProp 𝕄))
      = pts c MI 0 4096 (Nat.le_refl _) fullShare f := whole_rows c MI (View.set_whole _) fullShare f
    _ = bigSep Finset.univ (fun i : Fin 12 => pts c MI (inOff c i) (inLen i) (in_inb c i) fullShare f) := rows_in c MI fullShare f
    _ = bigSep Finset.univ (fun i : Fin 12 => iprop(pts c MI (inOff c i) (inLen i) (in_inb c i) sL f ∗ pts c MI (inOff c i) (inLen i) (in_inb c i) sR f)) :=
        bigSep_congr fun i _ => ep_pts_share c MI _ _ _ fullShare f
    _ = iprop((bigSep Finset.univ fun i : Fin 12 => pts c MI (inOff c i) (inLen i) (in_inb c i) sL f)
          ∗ (bigSep Finset.univ fun i : Fin 12 => pts c MI (inOff c i) (inLen i) (in_inb c i) sR f)) := bigSep_sep' _ _ _
    _ = _ := by rw [rows_in c MI sR f]

theorem join_mi (c : Dev nD) :
    iprop((bigSep Finset.univ fun i : Fin 12 => pts c MI (inOff c i) (inLen i) (in_inb c i) sL (mineV m c))
      ∗ pts c MI 0 4096 (Nat.le_refl _) sR (mineV m c)) ⊢ someBuf (F := F) c cc0_scratch1 :=
  (Entails.of_eq (ep_mi_whole_eq c (mineV m c)).symm).trans (ep_someBuf_intro c cc0_scratch1 (mineV m c))

end Cert.Kernel.AG

end

/-- info: 'Cert.Kernel.AG.close_cells' depends on axioms: [propext, Classical.choice, Quot.sound] -/
#guard_msgs in #print axioms Cert.Kernel.AG.close_cells

/-- info: 'Cert.Kernel.AG.join_ou' depends on axioms: [propext, Classical.choice, Quot.sound] -/
#guard_msgs in #print axioms Cert.Kernel.AG.join_ou

/-- info: 'Cert.Kernel.AG.join_st' depends on axioms: [propext, Classical.choice, Quot.sound] -/
#guard_msgs in #print axioms Cert.Kernel.AG.join_st

/-- info: 'Cert.Kernel.AG.join_xa' depends on axioms: [propext, Classical.choice, Quot.sound] -/
#guard_msgs in #print axioms Cert.Kernel.AG.join_xa

/-- info: 'Cert.Kernel.AG.mi_own_in' depends on axioms: [propext, Classical.choice, Quot.sound] -/
#guard_msgs in #print axioms Cert.Kernel.AG.mi_own_in

/-- info: 'Cert.Kernel.AG.mi_sR_join' depends on axioms: [propext, Classical.choice, Quot.sound] -/
#guard_msgs in #print axioms Cert.Kernel.AG.mi_sR_join

/-- info: 'Cert.Kernel.AG.join_mi' depends on axioms: [propext, Classical.choice, Quot.sound] -/
#guard_msgs in #print axioms Cert.Kernel.AG.join_mi
-- ==== Proof.K.AGEpiCM.lean ====
/-
  The communication buffer put back together when the body is done.
  Every row range of it comes back in pieces: an own chunk of a 672-region as the left half from the wait on the x-forward
  that read it, the left of the right half from the wait on the y-forward, and the right of the right half from the wait on
  its copy into the result; an own chunk of a 704-region as the left half from its one forward and the right half from its
  copy; the x-arrivals 2, 3 and the y-arrivals 0, 1 as the left half from the forward on and the right half from their
  copy; every other arrival whole from its copy.  Halves joined and equal rows respelt, the pieces are the own chunks, the
  x-arrivals and the y-arrivals whole, which together are the whole buffer.
-/
import proofs.«900673_g7700000000000674_dist_ag_v7x_xyz2x2x2_z_m4096_n1024_bf16_1_alg».proof.Proof.K.AGCuts
import proofs.«900673_g7700000000000674_dist_ag_v7x_xyz2x2x2_z_m4096_n1024_bf16_1_alg».proof.Proof.K.AGGlue
import proofs.«900673_g7700000000000674_dist_ag_v7x_xyz2x2x2_z_m4096_n1024_bf16_1_alg».proof.Proof.K.AGPays

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which rows a forward's source rows are -/

theorem pg_xr0 (c : Dev nD) : xinOff (xn c) 0 = ownOff c 0 := by revert c; decide
theorem pg_xr1 (c : Dev nD) : xinOff (xn c) 1 = ownOff c 1 := by revert c; decide
theorem pg_xr2 (c : Dev nD) : xinOff (xn c) 2 = ownOff c 2 := by revert c; decide
theorem pg_xr3 (c : Dev nD) : xinOff (xn c) 3 = ownOff c 3 := by revert c; decide
theorem pg_xr4 (c : Dev nD) : xinOff (xn c) 4 = ownOff c 4 := by revert c; decide
theorem pg_xr5 (c : Dev nD) : xinOff (xn c) 5 = ownOff c 5 := by revert c; decide
theorem pg_xr6 (c : Dev nD) : xinOff (xn c) 6 = yinOff c 0 := by revert c; decide
theorem pg_xr7 (c : Dev nD) : xinOff (xn c) 7 = yinOff c 1 := by revert c; decide
theorem pg_yr0 (c : Dev nD) : yinOff (yn c) 0 = ownOff c 0 := by revert c; decide
theorem pg_yr1 (c : Dev nD) : yinOff (yn c) 1 = ownOff c 1 := by revert c; decide
theorem pg_yr2 (c : Dev nD) : yinOff (yn c) 2 = ownOff c 2 := by revert c; decide
theorem pg_yr3 (c : Dev nD) : yinOff (yn c) 3 = ownOff c 3 := by revert c; decide
theorem pg_yr4 (c : Dev nD) : yinOff (yn c) 4 = ownOff c 6 := by revert c; decide
theorem pg_yr5 (c : Dev nD) : yinOff (yn c) 5 = ownOff c 7 := by revert c; decide
theorem pg_yr6 (c : Dev nD) : yinOff (yn c) 6 = xinOff c 2 := by revert c; decide
theorem pg_yr7 (c : Dev nD) : yinOff (yn c) 7 = xinOff c 3 := by revert c; decide

/-- An x-forward's source rows, back at the left half, under the name they have among the device's own rows. -/
theorem pg_xs (c : Dev nD) (k : Fin 8) (o r : ℕ) (h : o + r ≤ 4096) (ho : xinOff (xn c) k = o) (hr : xinLen k = r) :
    (payXs m c k : sProp 𝕄) ⊢ pts c CM o r h sL (commV m c) := by
  unfold payXs; exact Entails.of_eq (pts_respell c CM ho hr _ _ _ _)

/-- A y-forward's source rows, back at the share it read them with. -/
theorem pg_ys (c : Dev nD) (k : Fin 8) (o r : ℕ) (h : o + r ≤ 4096) (q : PosShare TreeShare) (ho : yinOff (yn c) k = o) (hr : yinLen k = r)
    (hq : qys k = q) : (payYs m c k : sProp 𝕄) ⊢ pts c CM o r h q (commV m c) := by
  subst hq; unfold payYs; exact Entails.of_eq (pts_respell c CM ho hr _ _ _ _)

/-- The same rows at a share written another way. -/
theorem pg_q (c : Dev nD) (o r : ℕ) (h : o + r ≤ 4096) (q q' : PosShare TreeShare) (f : Buf (Elt F) ((sl CM o r h).view.loc (c : Thread nD τ)))
    (hq : q = q') : (pts c CM o r h q f : sProp 𝕄) ⊢ pts c CM o r h q' f := by subst hq; exact .rfl

/-- Rows held at the two halves of a share are held at the share. -/
theorem pg_join (c : Dev nD) (o r : ℕ) (h : o + r ≤ 4096) (q : PosShare TreeShare) (f : Buf (Elt F) ((sl CM o r h).view.loc (c : Thread nD τ))) :
    (iprop(pts c CM o r h q.left f ∗ pts c CM o r h q.right f) : sProp 𝕄) ⊢ pts c CM o r h q f := by
  unfold pts; exact (pointsTo_share_split _ q f).2

/-! ## The buffer whole -/

set_option maxRecDepth 65536 in
set_option maxHeartbeats 4000000 in
/-- The pieces the body's waits hand back are the whole communication buffer. -/
theorem join_cm (c : Dev nD) :
    iprop((bigSep Finset.univ fun k : Fin 8 => payXs m c k) ∗ (bigSep Finset.univ fun k : Fin 8 => payYs m c k)
        ∗ (bigSep Finset.univ fun j : Fin 8 => pts c CM (ownOff c j) (ownLen j) (own_inb c j) (qlz j) (commV m c))
        ∗ (bigSep Finset.univ fun k : Fin 8 => pts c CM (xinOff c k) (xinLen k) (xin_inb c k) (qlx k) (commV m c))
        ∗ (bigSep Finset.univ fun k : Fin 8 => pts c CM (yinOff c k) (yinLen k) (yin_inb c k) (qly k) (commV m c)))
      ⊢ someBuf (F := F) c cc0_scratch2 := by
  rw [bigSep_fin8, bigSep_fin8, bigSep_fin8, bigSep_fin8, bigSep_fin8]
  iintro ⟨⟨Hxs0, Hxs1, Hxs2, Hxs3, Hxs4, Hxs5, Hxs6, Hxs7⟩, ⟨Hys0, Hys1, Hys2, Hys3, Hys4, Hys5, Hys6, Hys7⟩, ⟨Hz0, Hz1, Hz2, Hz3, Hz4, Hz5, Hz6, Hz7⟩, ⟨Hx0, Hx1, Hx2, Hx3, Hx4, Hx5, Hx6, Hx7⟩, ⟨Hy0, Hy1, Hy2, Hy3, Hy4, Hy5, Hy6, Hy7⟩⟩
  ihave Hxs0 := (pg_xs m c 0 (ownOff c 0) (ownLen 0) (own_inb c 0) (pg_xr0 c) (by decide)) $$ Hxs0
  ihave Hxs1 := (pg_xs m c 1 (ownOff c 1) (ownLen 1) (own_inb c 1) (pg_xr1 c) (by decide)) $$ Hxs1
  ihave Hxs2 := (pg_xs m c 2 (ownOff c 2) (ownLen 2) (own_inb c 2) (pg_xr2 c) (by decide)) $$ Hxs2
  ihave Hxs3 := (pg_xs m c 3 (ownOff c 3) (ownLen 3) (own_inb c 3) (pg_xr3 c) (by decide)) $$ Hxs3
  ihave Hxs4 := (pg_xs m c 4 (ownOff c 4) (ownLen 4) (own_inb c 4) (pg_xr4 c) (by decide)) $$ Hxs4
  ihave Hxs5 := (pg_xs m c 5 (ownOff c 5) (ownLen 5) (own_inb c 5) (pg_xr5 c) (by decide)) $$ Hxs5
  ihave Hxs6 := (pg_xs m c 6 (yinOff c 0) (yinLen 0) (yin_inb c 0) (pg_xr6 c) (by decide)) $$ Hxs6
  ihave Hxs7 := (pg_xs m c 7 (yinOff c 1) (yinLen 1) (yin_inb c 1) (pg_xr7 c) (by decide)) $$ Hxs7
  ihave Hys0 := (pg_ys m c 0 (ownOff c 0) (ownLen 0) (own_inb c 0) sRL (pg_yr0 c) (by decide) rfl) $$ Hys0
  ihave Hys1 := (pg_ys m c 1 (ownOff c 1) (ownLen 1) (own_inb c 1) sRL (pg_yr1 c) (by decide) rfl) $$ Hys1
  ihave Hys2 := (pg_ys m c 2 (ownOff c 2) (ownLen 2) (own_inb c 2) sRL (pg_yr2 c) (by decide) rfl) $$ Hys2
  ihave Hys3 := (pg_ys m c 3 (ownOff c 3) (ownLen 3) (own_inb c 3) sRL (pg_yr3 c) (by decide) rfl) $$ Hys3
  ihave Hys4 := (pg_ys m c 4 (ownOff c 6) (ownLen 6) (own_inb c 6) sL (pg_yr4 c) (by decide) rfl) $$ Hys4
  ihave Hys5 := (pg_ys m c 5 (ownOff c 7) (ownLen 7) (own_inb c 7) sL (pg_yr5 c) (by decide) rfl) $$ Hys5
  ihave Hys6 := (pg_ys m c 6 (xinOff c 2) (xinLen 2) (xin_inb c 2) sL (pg_yr6 c) (by decide) rfl) $$ Hys6
  ihave Hys7 := (pg_ys m c 7 (xinOff c 3) (xinLen 3) (xin_inb c 3) sL (pg_yr7 c) (by decide) rfl) $$ Hys7
  ihave Hz0 := (pg_q c (ownOff c 0) (ownLen 0) (own_inb c 0) (qlz 0) sRR (commV m c) rfl) $$ Hz0
  ihave Hr0 := (pg_join c (ownOff c 0) (ownLen 0) (own_inb c 0) sR (commV m c)) $$ [Hys0 Hz0]
  · isplitl [Hys0] <;> iassumption
  ihave Ho0 := (pg_join c (ownOff c 0) (ownLen 0) (own_inb c 0) fullShare (commV m c)) $$ [Hxs0 Hr0]
  · isplitl [Hxs0] <;> iassumption
  ihave Hz1 := (pg_q c (ownOff c 1) (ownLen 1) (own_inb c 1) (qlz 1) sRR (commV m c) rfl) $$ Hz1
  ihave Hr1 := (pg_join c (ownOff c 1) (ownLen 1) (own_inb c 1) sR (commV m c)) $$ [Hys1 Hz1]
  · isplitl [Hys1] <;> iassumption
  ihave Ho1 := (pg_join c (ownOff c 1) (ownLen 1) (own_inb c 1) fullShare (commV m c)) $$ [Hxs1 Hr1]
  · isplitl [Hxs1] <;> iassumption
  ihave Hz2 := (pg_q c (ownOff c 2) (ownLen 2) (own_inb c 2) (qlz 2) sRR (commV m c) rfl) $$ Hz2
  ihave Hr2 := (pg_join c (ownOff c 2) (ownLen 2) (own_inb c 2) sR (commV m c)) $$ [Hys2 Hz2]
  · isplitl [Hys2] <;> iassumption
  ihave Ho2 := (pg_join c (ownOff c 2) (ownLen 2) (own_inb c 2) fullShare (commV m c)) $$ [Hxs2 Hr2]
  · isplitl [Hxs2] <;> iassumption
  ihave Hz3 := (pg_q c (ownOff c 3) (ownLen 3) (own_inb c 3) (qlz 3) sRR (commV m c) rfl) $$ Hz3
  ihave Hr3 := (pg_join c (ownOff c 3) (ownLen 3) (own_inb c 3) sR (commV m c)) $$ [Hys3 Hz3]
  · isplitl [Hys3] <;> iassumption
  ihave Ho3 := (pg_join c (ownOff c 3) (ownLen 3) (own_inb c 3) fullShare (commV m c)) $$ [Hxs3 Hr3]
  · isplitl [Hxs3] <;> iassumption
  ihave Hz4 := (pg_q c (ownOff c 4) (ownLen 4) (own_inb c 4) (qlz 4) sR (commV m c) rfl) $$ Hz4
  ihave Ho4 := (pg_join c (ownOff c 4) (ownLen 4) (own_inb c 4) fullShare (commV m c)) $$ [Hxs4 Hz4]
  · isplitl [Hxs4] <;> iassumption
  ihave Hz5 := (pg_q c (ownOff c 5) (ownLen 5) (own_inb c 5) (qlz 5) sR (commV m c) rfl) $$ Hz5
  ihave Ho5 := (pg_join c (ownOff c 5) (ownLen 5) (own_inb c 5) fullShare (commV m c)) $$ [Hxs5 Hz5]
  · isplitl [Hxs5] <;> iassumption
  ihave Hz6 := (pg_q c (ownOff c 6) (ownLen 6) (own_inb c 6) (qlz 6) sR (commV m c) rfl) $$ Hz6
  ihave Ho6 := (pg_join c (ownOff c 6) (ownLen 6) (own_inb c 6) fullShare (commV m c)) $$ [Hys4 Hz6]
  · isplitl [Hys4] <;> iassumption
  ihave Hz7 := (pg_q c (ownOff c 7) (ownLen 7) (own_inb c 7) (qlz 7) sR (commV m c) rfl) $$ Hz7
  ihave Ho7 := (pg_join c (ownOff c 7) (ownLen 7) (own_inb c 7) fullShare (commV m c)) $$ [Hys5 Hz7]
  · isplitl [Hys5] <;> iassumption
  ihave Hx0 := (pg_q c (xinOff c 0) (xinLen 0) (xin_inb c 0) (qlx 0) fullShare (commV m c) rfl) $$ Hx0
  ihave Hx1 := (pg_q c (xinOff c 1) (xinLen 1) (xin_inb c 1) (qlx 1) fullShare (commV m c) rfl) $$ Hx1
  ihave Hx2 := (pg_q c (xinOff c 2) (xinLen 2) (xin_inb c 2) (qlx 2) sR (commV m c) rfl) $$ Hx2
  ihave Hx2 := (pg_join c (xinOff c 2) (xinLen 2) (xin_inb c 2) fullShare (commV m c)) $$ [Hys6 Hx2]
  · isplitl [Hys6] <;> iassumption
  ihave Hx3 := (pg_q c (xinOff c 3) (xinLen 3) (xin_inb c 3) (qlx 3) sR (commV m c) rfl) $$ Hx3
  ihave Hx3 := (pg_join c (xinOff c 3) (xinLen 3) (xin_inb c 3) fullShare (commV m c)) $$ [Hys7 Hx3]
  · isplitl [Hys7] <;> iassumption
  ihave Hx4 := (pg_q c (xinOff c 4) (xinLen 4) (xin_inb c 4) (qlx 4) fullShare (commV m c) rfl) $$ Hx4
  ihave Hx5 := (pg_q c (xinOff c 5) (xinLen 5) (xin_inb c 5) (qlx 5) fullShare (commV m c) rfl) $$ Hx5
  ihave Hx6 := (pg_q c (xinOff c 6) (xinLen 6) (xin_inb c 6) (qlx 6) fullShare (commV m c) rfl) $$ Hx6
  ihave Hx7 := (pg_q c (xinOff c 7) (xinLen 7) (xin_inb c 7) (qlx 7) fullShare (commV m c) rfl) $$ Hx7
  ihave Hy0 := (pg_q c (yinOff c 0) (yinLen 0) (yin_inb c 0) (qly 0) sR (commV m c) rfl) $$ Hy0
  ihave Hy0 := (pg_join c (yinOff c 0) (yinLen 0) (yin_inb c 0) fullShare (commV m c)) $$ [Hxs6 Hy0]
  · isplitl [Hxs6] <;> iassumption
  ihave Hy1 := (pg_q c (yinOff c 1) (yinLen 1) (yin_inb c 1) (qly 1) sR (commV m c) rfl) $$ Hy1
  ihave Hy1 := (pg_join c (yinOff c 1) (yinLen 1) (yin_inb c 1) fullShare (commV m c)) $$ [Hxs7 Hy1]
  · isplitl [Hxs7] <;> iassumption
  ihave Hy2 := (pg_q c (yinOff c 2) (yinLen 2) (yin_inb c 2) (qly 2) fullShare (commV m c) rfl) $$ Hy2
  ihave Hy3 := (pg_q c (yinOff c 3) (yinLen 3) (yin_inb c 3) (qly 3) fullShare (commV m c) rfl) $$ Hy3
  ihave Hy4 := (pg_q c (yinOff c 4) (yinLen 4) (yin_inb c 4) (qly 4) fullShare (commV m c) rfl) $$ Hy4
  ihave Hy5 := (pg_q c (yinOff c 5) (yinLen 5) (yin_inb c 5) (qly 5) fullShare (commV m c) rfl) $$ Hy5
  ihave Hy6 := (pg_q c (yinOff c 6) (yinLen 6) (yin_inb c 6) (qly 6) fullShare (commV m c) rfl) $$ Hy6
  ihave Hy7 := (pg_q c (yinOff c 7) (yinLen 7) (yin_inb c 7) (qly 7) fullShare (commV m c) rfl) $$ Hy7
  unfold someBuf
  iexists (commV m c)
  iapply (cut_cm c fullShare (commV m c)).2
  rw [bigSep_fin8, bigSep_fin8, bigSep_fin8]
  isplitl [Ho0 Ho1 Ho2 Ho3 Ho4 Ho5 Ho6 Ho7]
  ·
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hx0 Hx1 Hx2 Hx3 Hx4 Hx5 Hx6 Hx7]
  ·
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hy0]; · iexact Hy0
  isplitl [Hy1]; · iexact Hy1
  isplitl [Hy2]; · iexact Hy2
  isplitl [Hy3]; · iexact Hy3
  isplitl [Hy4]; · iexact Hy4
  isplitl [Hy5]; · iexact Hy5
  isplitl [Hy6]; · iexact Hy6
  iexact Hy7

/-- info: 'Cert.Kernel.AG.join_cm' depends on axioms: [propext, Classical.choice, Quot.sound] -/
#guard_msgs in #print axioms join_cm

end Cert.Kernel.AG

end
-- ==== Proof.K.AGRoot.lean ====
/-
  The body of one device, whole: from the ghost state and the five buffers as the launch hands them over, through the 35 printed
  parts in order, to the five buffers back — the result holding the whole array converted — and every DMA cell closed at zero.
  Each part is a lemma of its own over the resources it touches; here they are composed along the program's sequence: a part runs,
  what it produces joins what was set aside, and the next part takes what it needs.
-/
import proofs.«900673_g7700000000000674_dist_ag_v7x_xyz2x2x2_z_m4096_n1024_bf16_1_alg».proof.Proof.Gen.Kernel.Points
import proofs.«900673_g7700000000000674_dist_ag_v7x_xyz2x2x2_z_m4096_n1024_bf16_1_alg».proof.Proof.K.AGCuts
import proofs.«900673_g7700000000000674_dist_ag_v7x_xyz2x2x2_z_m4096_n1024_bf16_1_alg».proof.Proof.K.AGParts_a
import proofs.«900673_g7700000000000674_dist_ag_v7x_xyz2x2x2_z_m4096_n1024_bf16_1_alg».proof.Proof.K.AGParts_b
import proofs.«900673_g7700000000000674_dist_ag_v7x_xyz2x2x2_z_m4096_n1024_bf16_1_alg».proof.Proof.K.AGParts_f
import proofs.«900673_g7700000000000674_dist_ag_v7x_xyz2x2x2_z_m4096_n1024_bf16_1_alg».proof.Proof.K.AGParts_c
import proofs.«900673_g7700000000000674_dist_ag_v7x_xyz2x2x2_z_m4096_n1024_bf16_1_alg».proof.Proof.K.AGParts_d
import proofs.«900673_g7700000000000674_dist_ag_v7x_xyz2x2x2_z_m4096_n1024_bf16_1_alg».proof.Proof.K.AGParts_e
import proofs.«900673_g7700000000000674_dist_ag_v7x_xyz2x2x2_z_m4096_n1024_bf16_1_alg».proof.Proof.K.AGEpilogue
import proofs.«900673_g7700000000000674_dist_ag_v7x_xyz2x2x2_z_m4096_n1024_bf16_1_alg».proof.Proof.K.AGEpiCM

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The ghost families written out -/

omit [FloatOps F] in
/-- All 86 cells of a device, in order. -/
theorem bigSep_fin86 (Φ : Fin 86 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85] (by decide) (by decide) Φ

omit [FloatOps F] in
/-- The 61 cells a device pays itself. -/
theorem bigSep_ownPaid (Φ : Fin 85 → sProp 𝕄) :
    bigSep ownPaid Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 28 ∗ Φ 29 ∗ Φ 30 ∗ Φ 31 ∗ Φ 32 ∗ Φ 33 ∗ Φ 34 ∗ Φ 35 ∗ Φ 44 ∗ Φ 45 ∗ Φ 46 ∗ Φ 47 ∗ Φ 48 ∗ Φ 49 ∗ Φ 50 ∗ Φ 51 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84) :=
  bigSep_eq_bigSepL_of_eq [0, 1, 2, 3, 4, 5, 6, 7, 8, 9, 10, 11, 12, 13, 14, 15, 16, 17, 18, 19, 28, 29, 30, 31, 32, 33, 34, 35, 44, 45, 46, 47, 48, 49, 50, 51, 60, 61, 62, 63, 64, 65, 66, 67, 68, 69, 70, 71, 72, 73, 74, 75, 76, 77, 78, 79, 80, 81, 82, 83, 84] (by decide) (by decide) Φ

omit [FloatOps F] in
/-- Its 24 receive cells. -/
theorem bigSep_ownRecv (Φ : Fin 85 → sProp 𝕄) :
    bigSep ownRecv Φ = iprop(Φ 20 ∗ Φ 21 ∗ Φ 22 ∗ Φ 23 ∗ Φ 24 ∗ Φ 25 ∗ Φ 26 ∗ Φ 27 ∗ Φ 36 ∗ Φ 37 ∗ Φ 38 ∗ Φ 39 ∗ Φ 40 ∗ Φ 41 ∗ Φ 42 ∗ Φ 43 ∗ Φ 52 ∗ Φ 53 ∗ Φ 54 ∗ Φ 55 ∗ Φ 56 ∗ Φ 57 ∗ Φ 58 ∗ Φ 59) :=
  bigSep_eq_bigSepL_of_eq [20, 21, 22, 23, 24, 25, 26, 27, 36, 37, 38, 39, 40, 41, 42, 43, 52, 53, 54, 55, 56, 57, 58, 59] (by decide) (by decide) Φ

omit [FloatOps F] in
/-- The 85 DMA cells of a device, in order. -/
theorem bigSep_fin85 (Φ : Fin 85 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84] (by decide) (by decide) Φ

/-! ## The body -/

set_option maxRecDepth 65536 in
set_option maxHeartbeats 64000000 in
theorem sound_body (c : Dev nD) (W₀ : Waits sig Unit) :
    iprop(Φ₀ m c ∗ owes (c : Thread nD τ) (owedAfter c 0) W₀)
      ⊢ wp frame (wpE (defs₀ (F := F)) 𝒱₀ (c : Thread nD τ) none) Set.univ (bodyAt0 (F := F) t0_0)
          (fun _ => iprop(Φ₁ m c ∗ ∃ W', owes (c : Thread nD τ) 0 W')) := by
  unfold bodyAt0
  simp only [cc0_body_eq_skeleton]; unfold cc0_body_skel
  simp only [k0_part35_eq_skeleton]; unfold k0_part35_skel
  unfold Φ₀ start someBuf positions payToks creds
  iintro ⟨⟨⟨⟨%K, #HR, Hpos, HtbZ, HtbX, HtbY, HtZ, HtX, HtY, HtOwn⟩, ⟨HcB, HcRecv⟩, #HL⟩, ⟨⟨%fst, Hst⟩, ⟨%fmi, Hmi⟩, ⟨%fcm, Hcm⟩⟩, Hxa, ⟨%fou, Hou⟩⟩, HO⟩
  simp only [bind_assoc, Prog.bind_assoc]
  -- the argument, the staging buffer and the communication buffer by their row ranges; the ghost families by cell
  ihave Hxa := (cut_in_XA c fullShare (X m c)).1 $$ Hxa
  ihave Hxa := (Entails.of_eq (bigSep_fin12 _)) $$ Hxa
  icases Hxa with ⟨Hxa0, Hxa1, Hxa2, Hxa3, Hxa4, Hxa5, Hxa6, Hxa7, Hxa8, Hxa9, Hxa10, Hxa11⟩
  ihave Hst := (cut_in_ST c fullShare fst).1 $$ Hst
  ihave Hst := (Entails.of_eq (bigSep_fin12 _)) $$ Hst
  icases Hst with ⟨Hst0, Hst1, Hst2, Hst3, Hst4, Hst5, Hst6, Hst7, Hst8, Hst9, Hst10, Hst11⟩
  ihave Hcm := (cut_cm c fullShare fcm).1 $$ Hcm
  icases Hcm with ⟨Hcz, Hcx, Hcy⟩
  ihave Hcz := (Entails.of_eq (bigSep_fin8 _)) $$ Hcz
  icases Hcz with ⟨Hcz0, Hcz1, Hcz2, Hcz3, Hcz4, Hcz5, Hcz6, Hcz7⟩
  ihave Hcx := (Entails.of_eq (bigSep_fin8 _)) $$ Hcx
  icases Hcx with ⟨Hcx0, Hcx1, Hcx2, Hcx3, Hcx4, Hcx5, Hcx6, Hcx7⟩
  ihave Hcy := (Entails.of_eq (bigSep_fin8 _)) $$ Hcy
  icases Hcy with ⟨Hcy0, Hcy1, Hcy2, Hcy3, Hcy4, Hcy5, Hcy6, Hcy7⟩
  ihave HtOwn := (Entails.of_eq (bigSep_ownPaid _)) $$ HtOwn
  icases HtOwn with ⟨Ht0, Ht1, Ht2, Ht3, Ht4, Ht5, Ht6, Ht7, Ht8, Ht9, Ht10, Ht11, Ht12, Ht13, Ht14, Ht15, Ht16, Ht17, Ht18, Ht19, Ht28, Ht29, Ht30, Ht31, Ht32, Ht33, Ht34, Ht35, Ht44, Ht45, Ht46, Ht47, Ht48, Ht49, Ht50, Ht51, Ht60, Ht61, Ht62, Ht63, Ht64, Ht65, Ht66, Ht67, Ht68, Ht69, Ht70, Ht71, Ht72, Ht73, Ht74, Ht75, Ht76, Ht77, Ht78, Ht79, Ht80, Ht81, Ht82, Ht83, Ht84⟩
  ihave Hpos := (Entails.of_eq (bigSep_fin86 _)) $$ Hpos
  icases Hpos with ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63, Hp64, Hp65, Hp66, Hp67, Hp68, Hp69, Hp70, Hp71, Hp72, Hp73, Hp74, Hp75, Hp76, Hp77, Hp78, Hp79, Hp80, Hp81, Hp82, Hp83, Hp84, Hp85⟩
  -- part 1: the device reads its id
  rw [wp_bind]
  iapply (wp_wand (Fr := frame) (wpE := wpE (defs₀ (F := F)) 𝒱₀ (c : Thread nD τ) none) (E := Set.univ)) $$ []
  · iapply (part_1 m c K); isplitr; · iexact HR
    iexact HL
  iintro %r %hr
  obtain ⟨d0, v2, v5, v8, v9, v10, v11, v22, v25, v28, v32, v33, c2⟩ := r
  simp only at hr
  have hd : c = d0 := hr.symm
  subst hd
  simp only []
  -- part 2: input copies 0, 1, 2
  rw [wp_bind]
  iapply (wp_wand (Fr := frame) (wpE := wpE (defs₀ (F := F)) 𝒱₀ (c : Thread nD τ) none) (E := Set.univ)) $$ [Hxa0 Hst0 Ht0 Hxa1 Hst1 Ht1 Hxa2 Hst2 Ht2]
  · iapply (part_2 m c K _ _ _ _ _ _ fst fst fst)
    isplitr; · iexact HR
    isplitr; · iexact HL
    isplitl [Hxa0]; · iexact Hxa0
    isplitl [Hst0]; · iexact Hst0
    isplitl [Ht0]; · iexact Ht0
    isplitl [Hxa1]; · iexact Hxa1
    isplitl [Hst1]; · iexact Hst1
    isplitl [Ht1]; · iexact Ht1
    isplitl [Hxa2]; · iexact Hxa2
    isplitl [Hst2]; · iexact Hst2
    iexact Ht2
  iintro %r2 ⟨Hci0, Hci1, Hci2⟩
  -- part 3: input copies 3 … 9
  rw [wp_bind]
  iapply (wp_wand (Fr := frame) (wpE := wpE (defs₀ (F := F)) 𝒱₀ (c : Thread nD τ) none) (E := Set.univ)) $$ [Hxa3 Hst3 Ht3 Hxa4 Hst4 Ht4 Hxa5 Hst5 Ht5 Hxa6 Hst6 Ht6 Hxa7 Hst7 Ht7 Hxa8 Hst8 Ht8 Hxa9 Hst9 Ht9]
  · iapply (part_3 m c K fst fst fst fst fst fst fst)
    isplitr; · iexact HR
    isplitr; · iexact HL
    isplitl [Hxa3]; · iexact Hxa3
    isplitl [Hst3]; · iexact Hst3
    isplitl [Ht3]; · iexact Ht3
    isplitl [Hxa4]; · iexact Hxa4
    isplitl [Hst4]; · iexact Hst4
    isplitl [Ht4]; · iexact Ht4
    isplitl [Hxa5]; · iexact Hxa5
    isplitl [Hst5]; · iexact Hst5
    isplitl [Ht5]; · iexact Ht5
    isplitl [Hxa6]; · iexact Hxa6
    isplitl [Hst6]; · iexact Hst6
    isplitl [Ht6]; · iexact Ht6
    isplitl [Hxa7]; · iexact Hxa7
    isplitl [Hst7]; · iexact Hst7
    isplitl [Ht7]; · iexact Ht7
    isplitl [Hxa8]; · iexact Hxa8
    isplitl [Hst8]; · iexact Hst8
    isplitl [Ht8]; · iexact Ht8
    isplitl [Hxa9]; · iexact Hxa9
    isplitl [Hst9]; · iexact Hst9
    iexact Ht9
  iintro %r3 ⟨Hci3, Hci4, Hci5, Hci6, Hci7, Hci8, Hci9⟩
  -- part 4: input copies 10, 11; the three signals; the barrier wait
  rw [wp_bind]
  iapply (wp_wand (Fr := frame) (wpE := wpE (defs₀ (F := F)) 𝒱₀ (c : Thread nD τ) none) (E := Set.univ)) $$ [Hxa10 Hst10 Ht10 Hxa11 Hst11 Ht11 HO HtbZ Hcz0 Hcz1 Hcz2 Hcz3 Hcz4 Hcz5 Hcz6 Hcz7 HtbX Hcx0 Hcx1 Hcx2 Hcx3 Hcx4 Hcx5 Hcx6 Hcx7 HtbY Hcy0 Hcy1 Hcy2 Hcy3 Hcy4 Hcy5 Hcy6 Hcy7 HcB Hp85]
  · iapply (part_4 m c K _ _ _ _ _ _ _ _ W₀ fst fst fcm fcm fcm fcm fcm fcm fcm fcm fcm fcm fcm fcm fcm fcm fcm fcm fcm fcm fcm fcm fcm fcm fcm fcm)
    isplitr; · iexact HR
    isplitr; · iexact HL
    isplitl [Hxa10]; · iexact Hxa10
    isplitl [Hst10]; · iexact Hst10
    isplitl [Ht10]; · iexact Ht10
    isplitl [Hxa11]; · iexact Hxa11
    isplitl [Hst11]; · iexact Hst11
    isplitl [Ht11]; · iexact Ht11
    isplitl [HO]; · iexact HO
    isplitl [HtbZ]; · iexact HtbZ
    isplitl [Hcz0]; · iexact Hcz0
    isplitl [Hcz1]; · iexact Hcz1
    isplitl [Hcz2]; · iexact Hcz2
    isplitl [Hcz3]; · iexact Hcz3
    isplitl [Hcz4]; · iexact Hcz4
    isplitl [Hcz5]; · iexact Hcz5
    isplitl [Hcz6]; · iexact Hcz6
    isplitl [Hcz7]; · iexact Hcz7
    isplitl [HtbX]; · iexact HtbX
    isplitl [Hcx0]; · iexact Hcx0
    isplitl [Hcx1]; · iexact Hcx1
    isplitl [Hcx2]; · iexact Hcx2
    isplitl [Hcx3]; · iexact Hcx3
    isplitl [Hcx4]; · iexact Hcx4
    isplitl [Hcx5]; · iexact Hcx5
    isplitl [Hcx6]; · iexact Hcx6
    isplitl [Hcx7]; · iexact Hcx7
    isplitl [HtbY]; · iexact HtbY
    isplitl [Hcy0]; · iexact Hcy0
    isplitl [Hcy1]; · iexact Hcy1
    isplitl [Hcy2]; · iexact Hcy2
    isplitl [Hcy3]; · iexact Hcy3
    isplitl [Hcy4]; · iexact Hcy4
    isplitl [Hcy5]; · iexact Hcy5
    isplitl [Hcy6]; · iexact Hcy6
    isplitl [Hcy7]; · iexact Hcy7
    isplitl [HcB]; · iexact HcB
    iexact Hp85
  iintro %r4 ⟨Hci10, Hci11, ⟨%W1, HO⟩, HpB, ⟨%fnz0, Hnz0⟩, ⟨%fnz1, Hnz1⟩, ⟨%fnz2, Hnz2⟩, ⟨%fnz3, Hnz3⟩, ⟨%fnz4, Hnz4⟩, ⟨%fnz5, Hnz5⟩, ⟨%fnz6, Hnz6⟩, ⟨%fnz7, Hnz7⟩, ⟨%fnx0, Hnx0⟩, ⟨%fnx1, Hnx1⟩, ⟨%fnx2, Hnx2⟩, ⟨%fnx3, Hnx3⟩, ⟨%fnx4, Hnx4⟩, ⟨%fnx5, Hnx5⟩, ⟨%fnx6, Hnx6⟩, ⟨%fnx7, Hnx7⟩, ⟨%fny0, Hny0⟩, ⟨%fny1, Hny1⟩, ⟨%fny2, Hny2⟩, ⟨%fny3, Hny3⟩, ⟨%fny4, Hny4⟩, ⟨%fny5, Hny5⟩, ⟨%fny6, Hny6⟩, ⟨%fny7, Hny7⟩⟩
  -- the conversion buffer by its row ranges; the neighbours' receive tokens by cell
  ihave Hmi := (cut_in_MI c fullShare fmi).1 $$ Hmi
  ihave Hmi := (Entails.of_eq (bigSep_fin12 _)) $$ Hmi
  icases Hmi with ⟨Hmi0, Hmi1, Hmi2, Hmi3, Hmi4, Hmi5, Hmi6, Hmi7, Hmi8, Hmi9, Hmi10, Hmi11⟩
  ihave HtZ := (Entails.of_eq (bigSep_fin8 _)) $$ HtZ
  icases HtZ with ⟨HtZ0, HtZ1, HtZ2, HtZ3, HtZ4, HtZ5, HtZ6, HtZ7⟩
  ihave HtX := (Entails.of_eq (bigSep_fin8 _)) $$ HtX
  icases HtX with ⟨HtX0, HtX1, HtX2, HtX3, HtX4, HtX5, HtX6, HtX7⟩
  ihave HtY := (Entails.of_eq (bigSep_fin8 _)) $$ HtY
  icases HtY with ⟨HtY0, HtY1, HtY2, HtY3, HtY4, HtY5, HtY6, HtY7⟩
  -- part 5: own chunk 0 converted and sent to the z-neighbour
  rw [wp_bind]
  iapply (wp_wand (Fr := frame) (wpE := wpE (defs₀ (F := F)) 𝒱₀ (c : Thread nD τ) none) (E := Set.univ)) $$ [Hci0 HO Hp0 Hmi0 Hnz0 Ht12 HtZ0]
  · iapply (part_5 m c K _ _ _ _ _ _ _ _ W1 fmi fnz0)
    isplitr; · iexact HR
    isplitr; · iexact HL
    isplitl [Hci0]; · iexact Hci0
    isplitl [HO]; · iexact HO
    isplitl [Hp0]; · iexact Hp0
    isplitl [Hmi0]; · iexact Hmi0
    isplitl [Hnz0]; · iexact Hnz0
    isplitl [Ht12]; · iexact Ht12
    iexact HtZ0
  iintro %r5 ⟨⟨%W2, HO⟩, Hq0, Hst0, Hxa0, HmiR0, Hcs12⟩
  -- part 6: own chunk 1 converted and sent; own chunk 2 converted
  rw [wp_bind]
  iapply (wp_wand (Fr := frame) (wpE := wpE (defs₀ (F := F)) 𝒱₀ (c : Thread nD τ) none) (E := Set.univ)) $$ [Hci1 HO Hp1 Hmi1 Hnz1 Ht13 HtZ1 Hci2 Hp2 Hmi2]
  · iapply (part_6 m c K _ _ _ _ _ W2 fmi fnz1 fmi)
    isplitr; · iexact HR
    isplitr; · iexact HL
    isplitl [Hci1]; · iexact Hci1
    isplitl [HO]; · iexact HO
    isplitl [Hp1]; · iexact Hp1
    isplitl [Hmi1]; · iexact Hmi1
    isplitl [Hnz1]; · iexact Hnz1
    isplitl [Ht13]; · iexact Ht13
    isplitl [HtZ1]; · iexact HtZ1
    isplitl [Hci2]; · iexact Hci2
    isplitl [Hp2]; · iexact Hp2
    iexact Hmi2
  iintro %r6 ⟨⟨%W3, HO⟩, Hq1, Hst1, Hxa1, HmiR1, Hcs13, Hq2, Hst2, Hxa2, HmiF2⟩
  -- part 7: own chunk 2 sent; own chunk 3 converted and sent; input 4 waited
  rw [wp_bind]
  iapply (wp_wand (Fr := frame) (wpE := wpE (defs₀ (F := F)) 𝒱₀ (c : Thread nD τ) none) (E := Set.univ)) $$ [HmiF2 Hnz2 HO Ht14 HtZ2 Hci3 Hp3 Hmi3 Hnz3 Ht15 HtZ3 Hci4 Hp4]
  · iapply (part_7 m c K _ _ _ _ _ _ W3 fnz2 fmi fnz3)
    isplitr; · iexact HR
    isplitr; · iexact HL
    isplitl [HmiF2]; · iexact HmiF2
    isplitl [Hnz2]; · iexact Hnz2
    isplitl [HO]; · iexact HO
    isplitl [Ht14]; · iexact Ht14
    isplitl [HtZ2]; · iexact HtZ2
    isplitl [Hci3]; · iexact Hci3
    isplitl [Hp3]; · iexact Hp3
    isplitl [Hmi3]; · iexact Hmi3
    isplitl [Hnz3]; · iexact Hnz3
    isplitl [Ht15]; · iexact Ht15
    isplitl [HtZ3]; · iexact HtZ3
    isplitl [Hci4]; · iexact Hci4
    iexact Hp4
  iintro %r7 ⟨⟨%W4, HO⟩, HmiR2, Hcs14, Hq3, Hst3, Hxa3, HmiR3, Hcs15, Hq4, Hst4, Hxa4⟩
  -- the receive credits by cell; the result by its row ranges
  ihave HcRecv := (Entails.of_eq (bigSep_ownRecv _)) $$ HcRecv
  icases HcRecv with ⟨Hcr20, Hcr21, Hcr22, Hcr23, Hcr24, Hcr25, Hcr26, Hcr27, Hcr36, Hcr37, Hcr38, Hcr39, Hcr40, Hcr41, Hcr42, Hcr43, Hcr52, Hcr53, Hcr54, Hcr55, Hcr56, Hcr57, Hcr58, Hcr59⟩
  ihave Hou := (cut_ou c fou).1 $$ Hou
  icases Hou with ⟨HouM, Houz, Houx, Houy⟩
  ihave Houz := (Entails.of_eq (bigSep_fin8 _)) $$ Houz
  icases Houz with ⟨Houz0, Houz1, Houz2, Houz3, Houz4, Houz5, Houz6, Houz7⟩
  ihave Houx := (Entails.of_eq (bigSep_fin8 _)) $$ Houx
  icases Houx with ⟨Houx0, Houx1, Houx2, Houx3, Houx4, Houx5, Houx6, Houx7⟩
  ihave Houy := (Entails.of_eq (bigSep_fin8 _)) $$ Houy
  icases Houy with ⟨Houy0, Houy1, Houy2, Houy3, Houy4, Houy5, Houy6, Houy7⟩
  -- part 8: own chunk 4 converted and sent; own chunk 5 converted
  rw [wp_bind]
  iapply (wp_wand (Fr := frame) (wpE := wpE (defs₀ (F := F)) 𝒱₀ (c : Thread nD τ) none) (E := Set.univ)) $$ [Hst4 Hmi4 Hnz4 HO Ht16 HtZ4 Hci5 Hp5 Hmi5]
  · iapply (part_8 m c K _ _ _ _ _ W4 fmi fnz4 fmi)
    isplitr; · iexact HR
    isplitr; · iexact HL
    isplitl [Hst4]; · iexact Hst4
    isplitl [Hmi4]; · iexact Hmi4
    isplitl [Hnz4]; · iexact Hnz4
    isplitl [HO]; · iexact HO
    isplitl [Ht16]; · iexact Ht16
    isplitl [HtZ4]; · iexact HtZ4
    isplitl [Hci5]; · iexact Hci5
    isplitl [Hp5]; · iexact Hp5
    iexact Hmi5
  iintro %r8 ⟨⟨%W5, HO⟩, Hst4, HmiR4, Hcs16, Hq5, Hst5, Hxa5, HmiF5⟩
  -- part 9: own chunk 5 sent; own chunk 6 converted and sent; input 7 waited and loaded
  rw [wp_bind]
  iapply (wp_wand (Fr := frame) (wpE := wpE (defs₀ (F := F)) 𝒱₀ (c : Thread nD τ) none) (E := Set.univ)) $$ [HmiF5 Hnz5 HO Ht17 HtZ5 Hci6 Hp6 Hmi6 Hnz6 Ht18 HtZ6 Hci7 Hp7]
  · iapply (part_9 m c K _ _ _ _ _ W5 fnz5 fmi fnz6)
    isplitr; · iexact HR
    isplitr; · iexact HL
    isplitl [HmiF5]; · iexact HmiF5
    isplitl [Hnz5]; · iexact Hnz5
    isplitl [HO]; · iexact HO
    isplitl [Ht17]; · iexact Ht17
    isplitl [HtZ5]; · iexact HtZ5
    isplitl [Hci6]; · iexact Hci6
    isplitl [Hp6]; · iexact Hp6
    isplitl [Hmi6]; · iexact Hmi6
    isplitl [Hnz6]; · iexact Hnz6
    isplitl [Ht18]; · iexact Ht18
    isplitl [HtZ6]; · iexact HtZ6
    isplitl [Hci7]; · iexact Hci7
    iexact Hp7
  iintro %r9 ⟨%hv9, ⟨%W6, HO⟩, HmiR5, Hcs17, Hq6, Hst6, Hxa6, HmiR6, Hcs18, Hq7, Hst7, Hxa7⟩
  -- part 10: own chunk 7 stored and sent; the wait for the z-neighbour's chunk 0
  rw [wp_bind]
  iapply (wp_wand (Fr := frame) (wpE := wpE (defs₀ (F := F)) 𝒱₀ (c : Thread nD τ) none) (E := Set.univ)) $$ [Hmi7 Hnz7 HO Ht19 HtZ7 Hcr20 Hp20]
  · iapply (part_10 m c K _ _ _ _ _ _ r9 hv9 W6 fmi fnz7)
    isplitr; · iexact HR
    isplitr; · iexact HL
    isplitl [Hmi7]; · iexact Hmi7
    isplitl [Hnz7]; · iexact Hnz7
    isplitl [HO]; · iexact HO
    isplitl [Ht19]; · iexact Ht19
    isplitl [HtZ7]; · iexact HtZ7
    isplitl [Hcr20]; · iexact Hcr20
    iexact Hp20
  iintro %r10 ⟨⟨%W7, HO⟩, HmiR7, Hcs19, Hq20, HcmO0⟩
  -- part 11: chunk 0 forwarded to x and y and copied to the result; chunk 1 awaited
  rw [wp_bind]
  iapply (wp_wand (Fr := frame) (wpE := wpE (defs₀ (F := F)) 𝒱₀ (c : Thread nD τ) none) (E := Set.univ)) $$ [HcmO0 Hnx0 HO Ht28 HtX0 Hny0 Ht44 HtY0 Houz0 Ht60 Hcr21 Hp21]
  · iapply (part_11 m c K _ _ _ _ _ _ _ _ W7 fnx0 fny0 fou)
    isplitr; · iexact HR
    isplitr; · iexact HL
    isplitl [HcmO0]; · iexact HcmO0
    isplitl [Hnx0]; · iexact Hnx0
    isplitl [HO]; · iexact HO
    isplitl [Ht28]; · iexact Ht28
    isplitl [HtX0]; · iexact HtX0
    isplitl [Hny0]; · iexact Hny0
    isplitl [Ht44]; · iexact Ht44
    isplitl [HtY0]; · iexact HtY0
    isplitl [Houz0]; · iexact Houz0
    isplitl [Ht60]; · iexact Ht60
    isplitl [Hcr21]; · iexact Hcr21
    iexact Hp21
  iintro %r11 ⟨Hcs28, Hcs44, Hcs60, ⟨%W8, HO⟩, Hq21, HcmO1⟩
  -- part 12: chunk 1 forwarded and copied
  rw [wp_bind]
  iapply (wp_wand (Fr := frame) (wpE := wpE (defs₀ (F := F)) 𝒱₀ (c : Thread nD τ) none) (E := Set.univ)) $$ [HcmO1 Hnx1 HO Ht29 HtX1 Hny1 Ht45 HtY1 Houz1 Ht61]
  · iapply (part_12 m c K _ _ _ _ _ _ _ _ W8 fnx1 fny1 fou)
    isplitr; · iexact HR
    isplitr; · iexact HL
    isplitl [HcmO1]; · iexact HcmO1
    isplitl [Hnx1]; · iexact Hnx1
    isplitl [HO]; · iexact HO
    isplitl [Ht29]; · iexact Ht29
    isplitl [HtX1]; · iexact HtX1
    isplitl [Hny1]; · iexact Hny1
    isplitl [Ht45]; · iexact Ht45
    isplitl [HtY1]; · iexact HtY1
    isplitl [Houz1]; · iexact Houz1
    iexact Ht61
  iintro %r12 ⟨Hcs29, Hcs45, Hcs61, ⟨%W9, HO⟩⟩
  -- part 13: the y-neighbour's chunk 0 awaited, copied and forwarded to x; chunk 2 awaited
  rw [wp_bind]
  iapply (wp_wand (Fr := frame) (wpE := wpE (defs₀ (F := F)) 𝒱₀ (c : Thread nD τ) none) (E := Set.univ)) $$ [Hcr52 HO Hp52 Houy0 Ht76 Hnx6 Ht34 HtX6 Hcr22 Hp22]
  · iapply (part_13 m c K _ _ _ _ _ _ _ W9 fou fnx6)
    isplitr; · iexact HR
    isplitr; · iexact HL
    isplitl [Hcr52]; · iexact Hcr52
    isplitl [HO]; · iexact HO
    isplitl [Hp52]; · iexact Hp52
    isplitl [Houy0]; · iexact Houy0
    isplitl [Ht76]; · iexact Ht76
    isplitl [Hnx6]; · iexact Hnx6
    isplitl [Ht34]; · iexact Ht34
    isplitl [HtX6]; · iexact HtX6
    isplitl [Hcr22]; · iexact Hcr22
    iexact Hp22
  iintro %r13 ⟨Hcs76, Hcs34, ⟨%W10, HO⟩, Hq52, Hq22, HcmO2⟩
  -- part 14: chunk 2 forwarded and copied
  rw [wp_bind]
  iapply (wp_wand (Fr := frame) (wpE := wpE (defs₀ (F := F)) 𝒱₀ (c : Thread nD τ) none) (E := Set.univ)) $$ [HcmO2 Hnx2 HO Ht30 HtX2 Hny2 Ht46 HtY2 Houz2 Ht62]
  · iapply (part_14 m c K _ _ _ _ _ _ _ _ _ W10 fnx2 fny2 fou)
    isplitr; · iexact HR
    isplitr; · iexact HL
    isplitl [HcmO2]; · iexact HcmO2
    isplitl [Hnx2]; · iexact Hnx2
    isplitl [HO]; · iexact HO
    isplitl [Ht30]; · iexact Ht30
    isplitl [HtX2]; · iexact HtX2
    isplitl [Hny2]; · iexact Hny2
    isplitl [Ht46]; · iexact Ht46
    isplitl [HtY2]; · iexact HtY2
    isplitl [Houz2]; · iexact Houz2
    iexact Ht62
  iintro %r14 ⟨Hcs30, Hcs46, Hcs62, ⟨%W11, HO⟩⟩
  -- part 15: chunk 3 awaited, forwarded and copied
  rw [wp_bind]
  iapply (wp_wand (Fr := frame) (wpE := wpE (defs₀ (F := F)) 𝒱₀ (c : Thread nD τ) none) (E := Set.univ)) $$ [Hcr23 HO Hp23 Hnx3 Ht31 HtX3 Hny3 Ht47 HtY3 Houz3 Ht63]
  · iapply (part_15 m c K _ _ _ _ _ _ _ W11 fnx3 fny3 fou)
    isplitr; · iexact HR
    isplitr; · iexact HL
    isplitl [Hcr23]; · iexact Hcr23
    isplitl [HO]; · iexact HO
    isplitl [Hp23]; · iexact Hp23
    isplitl [Hnx3]; · iexact Hnx3
    isplitl [Ht31]; · iexact Ht31
    isplitl [HtX3]; · iexact HtX3
    isplitl [Hny3]; · iexact Hny3
    isplitl [Ht47]; · iexact Ht47
    isplitl [HtY3]; · iexact HtY3
    isplitl [Houz3]; · iexact Houz3
    iexact Ht63
  iintro %r15 ⟨Hcs31, Hcs47, Hcs63, ⟨%W12, HO⟩, Hq23⟩
  -- part 16: the y-neighbour's chunk 1 awaited, copied and forwarded to x
  rw [wp_bind]
  iapply (wp_wand (Fr := frame) (wpE := wpE (defs₀ (F := F)) 𝒱₀ (c : Thread nD τ) none) (E := Set.univ)) $$ [Hcr53 HO Hp53 Houy1 Ht77 Hnx7 Ht35 HtX7]
  · iapply (part_16 m c K _ _ _ _ _ _ _ _ _ W12 fou fnx7)
    isplitr; · iexact HR
    isplitr; · iexact HL
    isplitl [Hcr53]; · iexact Hcr53
    isplitl [HO]; · iexact HO
    isplitl [Hp53]; · iexact Hp53
    isplitl [Houy1]; · iexact Houy1
    isplitl [Ht77]; · iexact Ht77
    isplitl [Hnx7]; · iexact Hnx7
    isplitl [Ht35]; · iexact Ht35
    iexact HtX7
  iintro %r16 ⟨Hcs77, Hcs35, ⟨%W13, HO⟩, Hq53⟩
  -- part 17: the x-neighbour's chunk 2 awaited, copied and forwarded to y; its chunk 3 awaited
  rw [wp_bind]
  iapply (wp_wand (Fr := frame) (wpE := wpE (defs₀ (F := F)) 𝒱₀ (c : Thread nD τ) none) (E := Set.univ)) $$ [Hcr38 HO Hp38 Houx2 Ht70 Hny6 Ht50 HtY6 Hcr39 Hp39]
  · iapply (part_17 m c K _ _ _ _ _ _ _ _ _ W13 fou fny6)
    isplitr; · iexact HR
    isplitr; · iexact HL
    isplitl [Hcr38]; · iexact Hcr38
    isplitl [HO]; · iexact HO
    isplitl [Hp38]; · iexact Hp38
    isplitl [Houx2]; · iexact Houx2
    isplitl [Ht70]; · iexact Ht70
    isplitl [Hny6]; · iexact Hny6
    isplitl [Ht50]; · iexact Ht50
    isplitl [HtY6]; · iexact HtY6
    isplitl [Hcr39]; · iexact Hcr39
    iexact Hp39
  iintro %r17 ⟨Hcs70, Hcs50, ⟨%W14, HO⟩, Hq38, Hq39, HcmX3⟩
  -- part 18: the x-neighbour's chunk 3 copied and forwarded to y; chunk 4 awaited
  rw [wp_bind]
  iapply (wp_wand (Fr := frame) (wpE := wpE (defs₀ (F := F)) 𝒱₀ (c : Thread nD τ) none) (E := Set.univ)) $$ [HcmX3 Houx3 Ht71 HO Hny7 Ht51 HtY7 Hcr24 Hp24]
  · iapply (part_18 m c K _ _ _ _ _ _ _ W14 fou fny7)
    isplitr; · iexact HR
    isplitr; · iexact HL
    isplitl [HcmX3]; · iexact HcmX3
    isplitl [Houx3]; · iexact Houx3
    isplitl [Ht71]; · iexact Ht71
    isplitl [HO]; · iexact HO
    isplitl [Hny7]; · iexact Hny7
    isplitl [Ht51]; · iexact Ht51
    isplitl [HtY7]; · iexact HtY7
    isplitl [Hcr24]; · iexact Hcr24
    iexact Hp24
  iintro %r18 ⟨Hcs71, Hcs51, ⟨%W15, HO⟩, Hq24, HcmO4⟩
  -- part 19: chunk 4 forwarded to x and copied; chunk 5 awaited and forwarded to x
  rw [wp_bind]
  iapply (wp_wand (Fr := frame) (wpE := wpE (defs₀ (F := F)) 𝒱₀ (c : Thread nD τ) none) (E := Set.univ)) $$ [HcmO4 Hnx4 HO Ht32 HtX4 Houz4 Ht64 Hcr25 Hp25 Hnx5 Ht33 HtX5]
  · iapply (part_19 m c K _ _ _ _ _ _ _ _ _ W15 fnx4 fou fnx5)
    isplitr; · iexact HR
    isplitr; · iexact HL
    isplitl [HcmO4]; · iexact HcmO4
    isplitl [Hnx4]; · iexact Hnx4
    isplitl [HO]; · iexact HO
    isplitl [Ht32]; · iexact Ht32
    isplitl [HtX4]; · iexact HtX4
    isplitl [Houz4]; · iexact Houz4
    isplitl [Ht64]; · iexact Ht64
    isplitl [Hcr25]; · iexact Hcr25
    isplitl [Hp25]; · iexact Hp25
    isplitl [Hnx5]; · iexact Hnx5
    isplitl [Ht33]; · iexact Ht33
    iexact HtX5
  iintro %r19 ⟨⟨%W16, HO⟩, Hcs32, Hcs64, Hq25, HcmO5R, Hcs33⟩
  -- part 20: chunk 5 copied; chunk 6 awaited, forwarded to y and copied
  rw [wp_bind]
  iapply (wp_wand (Fr := frame) (wpE := wpE (defs₀ (F := F)) 𝒱₀ (c : Thread nD τ) none) (E := Set.univ)) $$ [HcmO5R Houz5 Ht65 Hcr26 HO Hp26 Hny4 Ht48 HtY4 Houz6 Ht66]
  · iapply (part_20 m c K _ _ _ _ _ _ _ _ W16 fou fny4 fou)
    isplitr; · iexact HR
    isplitr; · iexact HL
    isplitl [HcmO5R]; · iexact HcmO5R
    isplitl [Houz5]; · iexact Houz5
    isplitl [Ht65]; · iexact Ht65
    isplitl [Hcr26]; · iexact Hcr26
    isplitl [HO]; · iexact HO
    isplitl [Hp26]; · iexact Hp26
    isplitl [Hny4]; · iexact Hny4
    isplitl [Ht48]; · iexact Ht48
    isplitl [HtY4]; · iexact HtY4
    isplitl [Houz6]; · iexact Houz6
    iexact Ht66
  iintro %r20 ⟨Hcs65, ⟨%W17, HO⟩, Hq26, Hcs48, Hcs66⟩
  -- part 21: chunk 7 awaited, forwarded to y and copied; input 8 waited and loaded
  rw [wp_bind]
  iapply (wp_wand (Fr := frame) (wpE := wpE (defs₀ (F := F)) 𝒱₀ (c : Thread nD τ) none) (E := Set.univ)) $$ [Hcr27 HO Hp27 Hny5 Ht49 HtY5 Houz7 Ht67 Hci8 Hp8]
  · iapply (part_21 m c K _ _ _ _ _ _ _ _ W17 fny5 fou)
    isplitr; · iexact HR
    isplitr; · iexact HL
    isplitl [Hcr27]; · iexact Hcr27
    isplitl [HO]; · iexact HO
    isplitl [Hp27]; · iexact Hp27
    isplitl [Hny5]; · iexact Hny5
    isplitl [Ht49]; · iexact Ht49
    isplitl [HtY5]; · iexact HtY5
    isplitl [Houz7]; · iexact Houz7
    isplitl [Ht67]; · iexact Ht67
    isplitl [Hci8]; · iexact Hci8
    iexact Hp8
  iintro %r21 ⟨%hv21, ⟨%W18, HO⟩, Hq27, Hcs49, Hcs67, Hq8, Hst8, Hxa8⟩
  -- part 22: input 8 stored; inputs 9, 10, 11 waited, loaded and stored
  rw [wp_bind]
  iapply (wp_wand (Fr := frame) (wpE := wpE (defs₀ (F := F)) 𝒱₀ (c : Thread nD τ) none) (E := Set.univ)) $$ [Hmi8 Hci9 HO Hp9 Hmi9 Hci10 Hp10 Hmi10 Hci11 Hp11 Hmi11]
  · iapply (part_22 m c K _ _ _ r21 W18 hv21 fmi fmi fmi fmi)
    isplitr; · iexact HR
    isplitr; · iexact HL
    isplitl [Hmi8]; · iexact Hmi8
    isplitl [Hci9]; · iexact Hci9
    isplitl [HO]; · iexact HO
    isplitl [Hp9]; · iexact Hp9
    isplitl [Hmi9]; · iexact Hmi9
    isplitl [Hci10]; · iexact Hci10
    isplitl [Hp10]; · iexact Hp10
    isplitl [Hmi10]; · iexact Hmi10
    isplitl [Hci11]; · iexact Hci11
    isplitl [Hp11]; · iexact Hp11
    iexact Hmi11
  iintro %r22 ⟨HmiF8, ⟨%W19, HO⟩, Hq9, Hst9, Hxa9, HmiF9, Hq10, Hst10, Hxa10, HmiF10, Hq11, Hst11, Hxa11, HmiF11⟩
  -- the four last ranges of the conversion buffer halved; the twelve right halves joined into the whole buffer's right half
  ihave H8 := (pa_halves c MI (inOff c 8) (inLen 8) (in_inb c 8) fullShare (mineV m c)) $$ HmiF8
  icases H8 with ⟨HmiL8, HmiR8⟩
  ihave H9 := (pa_halves c MI (inOff c 9) (inLen 9) (in_inb c 9) fullShare (mineV m c)) $$ HmiF9
  icases H9 with ⟨HmiL9, HmiR9⟩
  ihave H10 := (pa_halves c MI (inOff c 10) (inLen 10) (in_inb c 10) fullShare (mineV m c)) $$ HmiF10
  icases H10 with ⟨HmiL10, HmiR10⟩
  ihave H11 := (pa_halves c MI (inOff c 11) (inLen 11) (in_inb c 11) fullShare (mineV m c)) $$ HmiF11
  icases H11 with ⟨HmiL11, HmiR11⟩
  -- part 23: the conversion buffer copied to the device's own half of the result; the x-neighbour's chunks 0, 1 awaited and copied
  rw [wp_bind]
  iapply (wp_wand (Fr := frame) (wpE := wpE (defs₀ (F := F)) 𝒱₀ (c : Thread nD τ) none) (E := Set.univ)) $$ [HmiR0 HmiR1 HmiR2 HmiR3 HmiR4 HmiR5 HmiR6 HmiR7 HmiR8 HmiR9 HmiR10 HmiR11 HouM Ht84 Hcr36 HO Hp36 Houx0 Ht68 Hcr37 Hp37 Houx1 Ht69]
  · iapply (part_23 m c K _ _ _ _ _ _ W19 fou fou fou)
    isplitr; · iexact HR
    isplitr; · iexact HL
    isplitl [HmiR0 HmiR1 HmiR2 HmiR3 HmiR4 HmiR5 HmiR6 HmiR7 HmiR8 HmiR9 HmiR10 HmiR11]
    · iapply (join_mi_sR c (mineV m c)).1
      rw [bigSep_fin12]
      isplitl [HmiR0]; · iexact HmiR0
      isplitl [HmiR1]; · iexact HmiR1
      isplitl [HmiR2]; · iexact HmiR2
      isplitl [HmiR3]; · iexact HmiR3
      isplitl [HmiR4]; · iexact HmiR4
      isplitl [HmiR5]; · iexact HmiR5
      isplitl [HmiR6]; · iexact HmiR6
      isplitl [HmiR7]; · iexact HmiR7
      isplitl [HmiR8]; · iexact HmiR8
      isplitl [HmiR9]; · iexact HmiR9
      isplitl [HmiR10]; · iexact HmiR10
      iexact HmiR11
    isplitl [HouM]; · iexact HouM
    isplitl [Ht84]; · iexact Ht84
    isplitl [Hcr36]; · iexact Hcr36
    isplitl [HO]; · iexact HO
    isplitl [Hp36]; · iexact Hp36
    isplitl [Houx0]; · iexact Houx0
    isplitl [Ht68]; · iexact Ht68
    isplitl [Hcr37]; · iexact Hcr37
    isplitl [Hp37]; · iexact Hp37
    isplitl [Houx1]; · iexact Houx1
    iexact Ht69
  iintro %r23 ⟨Hcs84, ⟨%W20, HO⟩, Hq36, Hcs68, Hq37, Hcs69⟩
  -- part 24: the x-neighbour's 704-region chunks awaited and copied
  rw [wp_bind]
  iapply (wp_wand (Fr := frame) (wpE := wpE (defs₀ (F := F)) 𝒱₀ (c : Thread nD τ) none) (E := Set.univ)) $$ [Hcr40 HO Hp40 Houx4 Ht72 Hcr41 Hp41 Houx5 Ht73]
  · iapply (part_24 m c K _ _ _ _ _ _ W20 fou fou)
    isplitr; · iexact HR
    isplitr; · iexact HL
    isplitl [Hcr40]; · iexact Hcr40
    isplitl [HO]; · iexact HO
    isplitl [Hp40]; · iexact Hp40
    isplitl [Houx4]; · iexact Houx4
    isplitl [Ht72]; · iexact Ht72
    isplitl [Hcr41]; · iexact Hcr41
    isplitl [Hp41]; · iexact Hp41
    isplitl [Houx5]; · iexact Houx5
    iexact Ht73
  iintro %r24 ⟨⟨%W21, HO⟩, Hq40, Hcs72, Hq41, Hcs73⟩
  -- part 25: the diagonal's first two chunks awaited and copied
  rw [wp_bind]
  iapply (wp_wand (Fr := frame) (wpE := wpE (defs₀ (F := F)) 𝒱₀ (c : Thread nD τ) none) (E := Set.univ)) $$ [Hcr42 HO Hp42 Houx6 Ht74 Hcr43 Hp43 Houx7 Ht75]
  · iapply (part_25 m c K _ _ _ _ _ _ _ W21 fou fou)
    isplitr; · iexact HR
    isplitr; · iexact HL
    isplitl [Hcr42]; · iexact Hcr42
    isplitl [HO]; · iexact HO
    isplitl [Hp42]; · iexact Hp42
    isplitl [Houx6]; · iexact Houx6
    isplitl [Ht74]; · iexact Ht74
    isplitl [Hcr43]; · iexact Hcr43
    isplitl [Hp43]; · iexact Hp43
    isplitl [Houx7]; · iexact Houx7
    iexact Ht75
  iintro %r25 ⟨⟨%W22, HO⟩, Hq42, Hcs74, Hq43, Hcs75⟩
  -- part 26: the y-neighbour's chunks 2, 3 awaited and copied
  rw [wp_bind]
  iapply (wp_wand (Fr := frame) (wpE := wpE (defs₀ (F := F)) 𝒱₀ (c : Thread nD τ) none) (E := Set.univ)) $$ [Hcr54 HO Hp54 Houy2 Ht78 Hcr55 Hp55 Houy3 Ht79]
  · iapply (part_26 m c K _ _ _ _ _ _ _ _ W22 fou fou)
    isplitr; · iexact HR
    isplitr; · iexact HL
    isplitl [Hcr54]; · iexact Hcr54
    isplitl [HO]; · iexact HO
    isplitl [Hp54]; · iexact Hp54
    isplitl [Houy2]; · iexact Houy2
    isplitl [Ht78]; · iexact Ht78
    isplitl [Hcr55]; · iexact Hcr55
    isplitl [Hp55]; · iexact Hp55
    isplitl [Houy3]; · iexact Houy3
    iexact Ht79
  iintro %r26 ⟨⟨%W23, HO⟩, Hq54, Hcs78, Hq55, Hcs79⟩
  -- part 27: the y-neighbour's 704-region chunks awaited and copied
  rw [wp_bind]
  iapply (wp_wand (Fr := frame) (wpE := wpE (defs₀ (F := F)) 𝒱₀ (c : Thread nD τ) none) (E := Set.univ)) $$ [Hcr56 HO Hp56 Houy4 Ht80 Hcr57 Hp57 Houy5 Ht81]
  · iapply (part_27 m c K _ _ _ _ _ _ W23 fou fou)
    isplitr; · iexact HR
    isplitr; · iexact HL
    isplitl [Hcr56]; · iexact Hcr56
    isplitl [HO]; · iexact HO
    isplitl [Hp56]; · iexact Hp56
    isplitl [Houy4]; · iexact Houy4
    isplitl [Ht80]; · iexact Ht80
    isplitl [Hcr57]; · iexact Hcr57
    isplitl [Hp57]; · iexact Hp57
    isplitl [Houy5]; · iexact Houy5
    iexact Ht81
  iintro %r27 ⟨⟨%W24, HO⟩, Hq56, Hcs80, Hq57, Hcs81⟩
  -- part 28: the diagonal's last two chunks awaited and copied; the first two z-sends waited
  rw [wp_bind]
  iapply (wp_wand (Fr := frame) (wpE := wpE (defs₀ (F := F)) 𝒱₀ (c : Thread nD τ) none) (E := Set.univ)) $$ [Hcr58 HO Hp58 Houy6 Ht82 Hcr59 Hp59 Houy7 Ht83 Hcs12 Hp12 Hcs13 Hp13]
  · iapply (part_28 m c K _ _ _ _ _ _ W24 fou fou)
    isplitr; · iexact HR
    isplitr; · iexact HL
    isplitl [Hcr58]; · iexact Hcr58
    isplitl [HO]; · iexact HO
    isplitl [Hp58]; · iexact Hp58
    isplitl [Houy6]; · iexact Houy6
    isplitl [Ht82]; · iexact Ht82
    isplitl [Hcr59]; · iexact Hcr59
    isplitl [Hp59]; · iexact Hp59
    isplitl [Houy7]; · iexact Houy7
    isplitl [Ht83]; · iexact Ht83
    isplitl [Hcs12]; · iexact Hcs12
    isplitl [Hp12]; · iexact Hp12
    isplitl [Hcs13]; · iexact Hcs13
    iexact Hp13
  iintro %r28 ⟨⟨%W25, HO⟩, Hq58, Hcs82, Hq59, Hcs83, Hq12, HmiL0, Hq13, HmiL1⟩
  -- every payment is made: the device owes nothing
  ihave HO := (Entails.of_eq (congrArg (fun O => (owes (c : Thread nD τ) O W25 : sProp 𝕄)) (owedAfter_all c))) $$ HO
  -- part 29: the z-sends 2 … 7 waited
  rw [wp_bind]
  iapply (wp_wand (Fr := frame) (wpE := wpE (defs₀ (F := F)) 𝒱₀ (c : Thread nD τ) none) (E := Set.univ)) $$ [HO Hcs14 Hp14 Hcs15 Hp15 Hcs16 Hp16 Hcs17 Hp17 Hcs18 Hp18 Hcs19 Hp19]
  · iapply (part_29 m c K _)
    isplitr; · iexact HR
    isplitl [HO]; · iexact HO
    isplitl [Hcs14 Hp14]; · isplitl [Hcs14]; · iexact Hcs14
                            iexact Hp14
    isplitl [Hcs15 Hp15]; · isplitl [Hcs15]; · iexact Hcs15
                            iexact Hp15
    isplitl [Hcs16 Hp16]; · isplitl [Hcs16]; · iexact Hcs16
                            iexact Hp16
    isplitl [Hcs17 Hp17]; · isplitl [Hcs17]; · iexact Hcs17
                            iexact Hp17
    isplitl [Hcs18 Hp18]; · isplitl [Hcs18]; · iexact Hcs18
                            iexact Hp18
    isplitl [Hcs19]; · iexact Hcs19
    iexact Hp19
  iintro %r29 ⟨⟨%Wf29, HO⟩, ⟨Hq14, HpZ2⟩, ⟨Hq15, HpZ3⟩, ⟨Hq16, HpZ4⟩, ⟨Hq17, HpZ5⟩, ⟨Hq18, HpZ6⟩, ⟨Hq19, HpZ7⟩⟩
  -- part 30: the forwards x0 y0 x1 y1 x6 x2 waited
  rw [wp_bind]
  iapply (wp_wand (Fr := frame) (wpE := wpE (defs₀ (F := F)) 𝒱₀ (c : Thread nD τ) none) (E := Set.univ)) $$ [HO Hcs28 Hp28 Hcs44 Hp44 Hcs29 Hp29 Hcs45 Hp45 Hcs34 Hp34 Hcs30 Hp30]
  · iapply (part_30 m c K _)
    isplitr; · iexact HR
    isplitl [HO]; · iexact HO
    isplitl [Hcs28 Hp28]; · isplitl [Hcs28]; · iexact Hcs28
                            iexact Hp28
    isplitl [Hcs44 Hp44]; · isplitl [Hcs44]; · iexact Hcs44
                            iexact Hp44
    isplitl [Hcs29 Hp29]; · isplitl [Hcs29]; · iexact Hcs29
                            iexact Hp29
    isplitl [Hcs45 Hp45]; · isplitl [Hcs45]; · iexact Hcs45
                            iexact Hp45
    isplitl [Hcs34 Hp34]; · isplitl [Hcs34]; · iexact Hcs34
                            iexact Hp34
    isplitl [Hcs30]; · iexact Hcs30
    iexact Hp30
  iintro %r30 ⟨⟨%Wf30, HO⟩, ⟨Hq28, HpX0⟩, ⟨Hq44, HpY0⟩, ⟨Hq29, HpX1⟩, ⟨Hq45, HpY1⟩, ⟨Hq34, HpX6⟩, ⟨Hq30, HpX2⟩⟩
  -- part 31: the forwards y2 x3 y3 x7 y6 y7 waited
  rw [wp_bind]
  iapply (wp_wand (Fr := frame) (wpE := wpE (defs₀ (F := F)) 𝒱₀ (c : Thread nD τ) none) (E := Set.univ)) $$ [HO Hcs46 Hp46 Hcs31 Hp31 Hcs47 Hp47 Hcs35 Hp35 Hcs50 Hp50 Hcs51 Hp51]
  · iapply (part_31 m c K _)
    isplitr; · iexact HR
    isplitl [HO]; · iexact HO
    isplitl [Hcs46 Hp46]; · isplitl [Hcs46]; · iexact Hcs46
                            iexact Hp46
    isplitl [Hcs31 Hp31]; · isplitl [Hcs31]; · iexact Hcs31
                            iexact Hp31
    isplitl [Hcs47 Hp47]; · isplitl [Hcs47]; · iexact Hcs47
                            iexact Hp47
    isplitl [Hcs35 Hp35]; · isplitl [Hcs35]; · iexact Hcs35
                            iexact Hp35
    isplitl [Hcs50 Hp50]; · isplitl [Hcs50]; · iexact Hcs50
                            iexact Hp50
    isplitl [Hcs51]; · iexact Hcs51
    iexact Hp51
  iintro %r31 ⟨⟨%Wf31, HO⟩, ⟨Hq46, HpY2⟩, ⟨Hq31, HpX3⟩, ⟨Hq47, HpY3⟩, ⟨Hq35, HpX7⟩, ⟨Hq50, HpY6⟩, ⟨Hq51, HpY7⟩⟩
  -- part 32: the forwards x4 x5 y4 y5 and the result copies of own chunks 0, 1 waited
  rw [wp_bind]
  iapply (wp_wand (Fr := frame) (wpE := wpE (defs₀ (F := F)) 𝒱₀ (c : Thread nD τ) none) (E := Set.univ)) $$ [HO Hcs32 Hp32 Hcs33 Hp33 Hcs48 Hp48 Hcs49 Hp49 Hcs60 Hp60 Hcs61 Hp61]
  · iapply (part_32 m c K _)
    isplitr; · iexact HR
    isplitl [HO]; · iexact HO
    isplitl [Hcs32 Hp32]; · isplitl [Hcs32]; · iexact Hcs32
                            iexact Hp32
    isplitl [Hcs33 Hp33]; · isplitl [Hcs33]; · iexact Hcs33
                            iexact Hp33
    isplitl [Hcs48 Hp48]; · isplitl [Hcs48]; · iexact Hcs48
                            iexact Hp48
    isplitl [Hcs49 Hp49]; · isplitl [Hcs49]; · iexact Hcs49
                            iexact Hp49
    isplitl [Hcs60 Hp60]; · isplitl [Hcs60]; · iexact Hcs60
                            iexact Hp60
    isplitl [Hcs61]; · iexact Hcs61
    iexact Hp61
  iintro %r32 ⟨⟨%Wf32, HO⟩, ⟨Hq32, HpX4⟩, ⟨Hq33, HpX5⟩, ⟨Hq48, HpY4⟩, ⟨Hq49, HpY5⟩, ⟨Hq60, HpLz0⟩, ⟨Hq61, HpLz1⟩⟩
  -- part 33: result copies waited
  rw [wp_bind]
  iapply (wp_wand (Fr := frame) (wpE := wpE (defs₀ (F := F)) 𝒱₀ (c : Thread nD τ) none) (E := Set.univ)) $$ [HO Hcs76 Hp76 Hcs62 Hp62 Hcs63 Hp63 Hcs77 Hp77 Hcs70 Hp70 Hcs71 Hp71 Hcs64 Hp64 Hcs65 Hp65]
  · iapply (part_33 m c K _)
    isplitr; · iexact HR
    isplitl [HO]; · iexact HO
    isplitl [Hcs76 Hp76]; · isplitl [Hcs76]; · iexact Hcs76
                            iexact Hp76
    isplitl [Hcs62 Hp62]; · isplitl [Hcs62]; · iexact Hcs62
                            iexact Hp62
    isplitl [Hcs63 Hp63]; · isplitl [Hcs63]; · iexact Hcs63
                            iexact Hp63
    isplitl [Hcs77 Hp77]; · isplitl [Hcs77]; · iexact Hcs77
                            iexact Hp77
    isplitl [Hcs70 Hp70]; · isplitl [Hcs70]; · iexact Hcs70
                            iexact Hp70
    isplitl [Hcs71 Hp71]; · isplitl [Hcs71]; · iexact Hcs71
                            iexact Hp71
    isplitl [Hcs64 Hp64]; · isplitl [Hcs64]; · iexact Hcs64
                            iexact Hp64
    isplitl [Hcs65]; · iexact Hcs65
    iexact Hp65
  iintro %r33 ⟨⟨%Wf33, HO⟩, ⟨Hq76, HpLy0⟩, ⟨Hq62, HpLz2⟩, ⟨Hq63, HpLz3⟩, ⟨Hq77, HpLy1⟩, ⟨Hq70, HpLx2⟩, ⟨Hq71, HpLx3⟩, ⟨Hq64, HpLz4⟩, ⟨Hq65, HpLz5⟩⟩
  -- part 34: result copies waited, the copy of the conversion buffer among them
  rw [wp_bind]
  iapply (wp_wand (Fr := frame) (wpE := wpE (defs₀ (F := F)) 𝒱₀ (c : Thread nD τ) none) (E := Set.univ)) $$ [HO Hcs66 Hp66 Hcs67 Hp67 Hcs84 Hp84 Hcs68 Hp68 Hcs69 Hp69 Hcs72 Hp72 Hcs73 Hp73 Hcs74 Hp74]
  · iapply (part_34 m c K _)
    isplitr; · iexact HR
    isplitl [HO]; · iexact HO
    isplitl [Hcs66 Hp66]; · isplitl [Hcs66]; · iexact Hcs66
                            iexact Hp66
    isplitl [Hcs67 Hp67]; · isplitl [Hcs67]; · iexact Hcs67
                            iexact Hp67
    isplitl [Hcs84 Hp84]; · isplitl [Hcs84]; · iexact Hcs84
                            iexact Hp84
    isplitl [Hcs68 Hp68]; · isplitl [Hcs68]; · iexact Hcs68
                            iexact Hp68
    isplitl [Hcs69 Hp69]; · isplitl [Hcs69]; · iexact Hcs69
                            iexact Hp69
    isplitl [Hcs72 Hp72]; · isplitl [Hcs72]; · iexact Hcs72
                            iexact Hp72
    isplitl [Hcs73 Hp73]; · isplitl [Hcs73]; · iexact Hcs73
                            iexact Hp73
    isplitl [Hcs74]; · iexact Hcs74
    iexact Hp74
  iintro %r34 ⟨⟨%Wf34, HO⟩, ⟨Hq66, HpLz6⟩, ⟨Hq67, HpLz7⟩, ⟨Hq84, HpLm⟩, ⟨Hq68, HpLx0⟩, ⟨Hq69, HpLx1⟩, ⟨Hq72, HpLx4⟩, ⟨Hq73, HpLx5⟩, ⟨Hq74, HpLx6⟩⟩
  -- the last seven result copies waited: three at the end of the part sequence, four at the end of the body
  simp only [Prog.lift, Prog.bind_op, Prog.bind_ret, Prog.pure_eq_ret, Prog.bind_assoc]
  iapply (pe_wait0P m c K 75 (by decide) _ rfl Wf34 (payLx m c 7) (dpay_lx m c 7) (ck_lx 7 224 75 (by decide) (by decide) _ _ _)) $$ [Hcs75 Hp75 HO]
  · isplitr; · iexact HR
    isplitl [Hcs75]; · iexact Hcs75
    isplitl [Hp75]; · iexact Hp75
    iexact HO
  iintro ⟨HO, Hq75, HpLx7⟩
  iapply (pe_wait0P m c K 78 (by decide) _ rfl _ (payLy m c 2) (dpay_ly m c 2) (ck_ly 2 168 78 (by decide) (by decide) _ _ _)) $$ [Hcs78 Hp78 HO]
  · isplitr; · iexact HR
    isplitl [Hcs78]; · iexact Hcs78
    isplitl [Hp78]; · iexact Hp78
    iexact HO
  iintro ⟨HO, Hq78, HpLy2⟩
  iapply (pe_wait0P m c K 79 (by decide) _ rfl _ (payLy m c 3) (dpay_ly m c 3) (ck_ly 3 168 79 (by decide) (by decide) _ _ _)) $$ [Hcs79 Hp79 HO]
  · isplitr; · iexact HR
    isplitl [Hcs79]; · iexact Hcs79
    isplitl [Hp79]; · iexact Hp79
    iexact HO
  iintro ⟨HO, Hq79, HpLy3⟩
  iapply (pe_wait0P m c K 80 (by decide) _ rfl _ (payLy m c 4) (dpay_ly m c 4) (ck_ly 4 176 80 (by decide) (by decide) _ _ _)) $$ [Hcs80 Hp80 HO]
  · isplitr; · iexact HR
    isplitl [Hcs80]; · iexact Hcs80
    isplitl [Hp80]; · iexact Hp80
    iexact HO
  iintro ⟨HO, Hq80, HpLy4⟩
  iapply (pe_wait0P m c K 81 (by decide) _ rfl _ (payLy m c 5) (dpay_ly m c 5) (ck_ly 5 176 81 (by decide) (by decide) _ _ _)) $$ [Hcs81 Hp81 HO]
  · isplitr; · iexact HR
    isplitl [Hcs81]; · iexact Hcs81
    isplitl [Hp81]; · iexact Hp81
    iexact HO
  iintro ⟨HO, Hq81, HpLy5⟩
  iapply (pe_wait0P m c K 82 (by decide) _ rfl _ (payLy m c 6) (dpay_ly m c 6) (ck_ly 6 168 82 (by decide) (by decide) _ _ _)) $$ [Hcs82 Hp82 HO]
  · isplitr; · iexact HR
    isplitl [Hcs82]; · iexact Hcs82
    isplitl [Hp82]; · iexact Hp82
    iexact HO
  iintro ⟨HO, Hq82, HpLy6⟩
  iapply (pe_wait0P m c K 83 (by decide) _ rfl _ (payLy m c 7) (dpay_ly m c 7) (ck_ly 7 168 83 (by decide) (by decide) _ _ _)) $$ [Hcs83 Hp83 HO]
  · isplitr; · iexact HR
    isplitl [Hcs83]; · iexact Hcs83
    isplitl [Hp83]; · iexact Hp83
    iexact HO
  iintro ⟨HO, Hq83, HpLy7⟩
  -- the body is over: the result copies' payloads opened, the 85 cells closed, the five buffers rejoined
  rw [wp_ret]
  unfold payZs payLz payLx payLy payLm
  icases HpLz0 with ⟨Hoz0, Hkz0⟩
  icases HpLz1 with ⟨Hoz1, Hkz1⟩
  icases HpLz2 with ⟨Hoz2, Hkz2⟩
  icases HpLz3 with ⟨Hoz3, Hkz3⟩
  icases HpLz4 with ⟨Hoz4, Hkz4⟩
  icases HpLz5 with ⟨Hoz5, Hkz5⟩
  icases HpLz6 with ⟨Hoz6, Hkz6⟩
  icases HpLz7 with ⟨Hoz7, Hkz7⟩
  icases HpLx0 with ⟨Hox0, Hkx0⟩
  icases HpLx1 with ⟨Hox1, Hkx1⟩
  icases HpLx2 with ⟨Hox2, Hkx2⟩
  icases HpLx3 with ⟨Hox3, Hkx3⟩
  icases HpLx4 with ⟨Hox4, Hkx4⟩
  icases HpLx5 with ⟨Hox5, Hkx5⟩
  icases HpLx6 with ⟨Hox6, Hkx6⟩
  icases HpLx7 with ⟨Hox7, Hkx7⟩
  icases HpLy0 with ⟨Hoy0, Hky0⟩
  icases HpLy1 with ⟨Hoy1, Hky1⟩
  icases HpLy2 with ⟨Hoy2, Hky2⟩
  icases HpLy3 with ⟨Hoy3, Hky3⟩
  icases HpLy4 with ⟨Hoy4, Hky4⟩
  icases HpLy5 with ⟨Hoy5, Hky5⟩
  icases HpLy6 with ⟨Hoy6, Hky6⟩
  icases HpLy7 with ⟨Hoy7, Hky7⟩
  icases HpLm with ⟨HoM, HmiRb⟩
  imod (close_cells m K c) $$ [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84] with Hz
  · isplitr; · iexact HR
    rw [bigSep_fin85]
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    isplitl [Hq72]; · iexact Hq72
    isplitl [Hq73]; · iexact Hq73
    isplitl [Hq74]; · iexact Hq74
    isplitl [Hq75]; · iexact Hq75
    isplitl [Hq76]; · iexact Hq76
    isplitl [Hq77]; · iexact Hq77
    isplitl [Hq78]; · iexact Hq78
    isplitl [Hq79]; · iexact Hq79
    isplitl [Hq80]; · iexact Hq80
    isplitl [Hq81]; · iexact Hq81
    isplitl [Hq82]; · iexact Hq82
    isplitl [Hq83]; · iexact Hq83
    iexact Hq84
  imodintro
  unfold Φ₁
  isplitr [HO]
  · isplitl [Hst0 Hst1 Hst2 Hst3 Hst4 Hst5 Hst6 Hst7 Hst8 Hst9 Hst10 Hst11 HmiL0 HmiL1 HpZ2 HpZ3 HpZ4 HpZ5 HpZ6 HpZ7 HmiL8 HmiL9 HmiL10 HmiL11 HmiRb HpX0 HpX1 HpX2 HpX3 HpX4 HpX5 HpX6 HpX7 HpY0 HpY1 HpY2 HpY3 HpY4 HpY5 HpY6 HpY7 Hkz0 Hkz1 Hkz2 Hkz3 Hkz4 Hkz5 Hkz6 Hkz7 Hkx0 Hkx1 Hkx2 Hkx3 Hkx4 Hkx5 Hkx6 Hkx7 Hky0 Hky1 Hky2 Hky3 Hky4 Hky5 Hky6 Hky7]
    · isplitl [Hst0 Hst1 Hst2 Hst3 Hst4 Hst5 Hst6 Hst7 Hst8 Hst9 Hst10 Hst11]
      · iapply (join_st m c)
        rw [bigSep_fin12]
        isplitl [Hst0]; · iexact Hst0
        isplitl [Hst1]; · iexact Hst1
        isplitl [Hst2]; · iexact Hst2
        isplitl [Hst3]; · iexact Hst3
        isplitl [Hst4]; · iexact Hst4
        isplitl [Hst5]; · iexact Hst5
        isplitl [Hst6]; · iexact Hst6
        isplitl [Hst7]; · iexact Hst7
        isplitl [Hst8]; · iexact Hst8
        isplitl [Hst9]; · iexact Hst9
        isplitl [Hst10]; · iexact Hst10
        iexact Hst11
      isplitl [HmiL0 HmiL1 HpZ2 HpZ3 HpZ4 HpZ5 HpZ6 HpZ7 HmiL8 HmiL9 HmiL10 HmiL11 HmiRb]
      · iapply (join_mi m c)
        isplitr [HmiRb]
        · rw [bigSep_fin12]
          isplitl [HmiL0]; · iexact HmiL0
          isplitl [HmiL1]; · iexact HmiL1
          isplitl [HpZ2]; · iexact HpZ2
          isplitl [HpZ3]; · iexact HpZ3
          isplitl [HpZ4]; · iexact HpZ4
          isplitl [HpZ5]; · iexact HpZ5
          isplitl [HpZ6]; · iexact HpZ6
          isplitl [HpZ7]; · iexact HpZ7
          isplitl [HmiL8]; · iexact HmiL8
          isplitl [HmiL9]; · iexact HmiL9
          isplitl [HmiL10]; · iexact HmiL10
          iexact HmiL11
        iexact HmiRb
      iapply (join_cm m c)
      isplitl [HpX0 HpX1 HpX2 HpX3 HpX4 HpX5 HpX6 HpX7]
      · rw [bigSep_fin8]
        isplitl [HpX0]; · iexact HpX0
        isplitl [HpX1]; · iexact HpX1
        isplitl [HpX2]; · iexact HpX2
        isplitl [HpX3]; · iexact HpX3
        isplitl [HpX4]; · iexact HpX4
        isplitl [HpX5]; · iexact HpX5
        isplitl [HpX6]; · iexact HpX6
        iexact HpX7
      isplitl [HpY0 HpY1 HpY2 HpY3 HpY4 HpY5 HpY6 HpY7]
      · rw [bigSep_fin8]
        isplitl [HpY0]; · iexact HpY0
        isplitl [HpY1]; · iexact HpY1
        isplitl [HpY2]; · iexact HpY2
        isplitl [HpY3]; · iexact HpY3
        isplitl [HpY4]; · iexact HpY4
        isplitl [HpY5]; · iexact HpY5
        isplitl [HpY6]; · iexact HpY6
        iexact HpY7
      isplitl [Hkz0 Hkz1 Hkz2 Hkz3 Hkz4 Hkz5 Hkz6 Hkz7]
      · rw [bigSep_fin8]
        isplitl [Hkz0]; · iexact Hkz0
        isplitl [Hkz1]; · iexact Hkz1
        isplitl [Hkz2]; · iexact Hkz2
        isplitl [Hkz3]; · iexact Hkz3
        isplitl [Hkz4]; · iexact Hkz4
        isplitl [Hkz5]; · iexact Hkz5
        isplitl [Hkz6]; · iexact Hkz6
        iexact Hkz7
      isplitl [Hkx0 Hkx1 Hkx2 Hkx3 Hkx4 Hkx5 Hkx6 Hkx7]
      · rw [bigSep_fin8]
        isplitl [Hkx0]; · iexact Hkx0
        isplitl [Hkx1]; · iexact Hkx1
        isplitl [Hkx2]; · iexact Hkx2
        isplitl [Hkx3]; · iexact Hkx3
        isplitl [Hkx4]; · iexact Hkx4
        isplitl [Hkx5]; · iexact Hkx5
        isplitl [Hkx6]; · iexact Hkx6
        iexact Hkx7
      rw [bigSep_fin8]
      isplitl [Hky0]; · iexact Hky0
      isplitl [Hky1]; · iexact Hky1
      isplitl [Hky2]; · iexact Hky2
      isplitl [Hky3]; · iexact Hky3
      isplitl [Hky4]; · iexact Hky4
      isplitl [Hky5]; · iexact Hky5
      isplitl [Hky6]; · iexact Hky6
      iexact Hky7
    isplitl [Hxa0 Hxa1 Hxa2 Hxa3 Hxa4 Hxa5 Hxa6 Hxa7 Hxa8 Hxa9 Hxa10 Hxa11]
    · iapply (join_xa m c)
      rw [bigSep_fin12]
      isplitl [Hxa0]; · iexact Hxa0
      isplitl [Hxa1]; · iexact Hxa1
      isplitl [Hxa2]; · iexact Hxa2
      isplitl [Hxa3]; · iexact Hxa3
      isplitl [Hxa4]; · iexact Hxa4
      isplitl [Hxa5]; · iexact Hxa5
      isplitl [Hxa6]; · iexact Hxa6
      isplitl [Hxa7]; · iexact Hxa7
      isplitl [Hxa8]; · iexact Hxa8
      isplitl [Hxa9]; · iexact Hxa9
      isplitl [Hxa10]; · iexact Hxa10
      iexact Hxa11
    isplitl [HoM Hoz0 Hoz1 Hoz2 Hoz3 Hoz4 Hoz5 Hoz6 Hoz7 Hox0 Hox1 Hox2 Hox3 Hox4 Hox5 Hox6 Hox7 Hoy0 Hoy1 Hoy2 Hoy3 Hoy4 Hoy5 Hoy6 Hoy7]
    · iapply (join_ou m c)
      isplitl [HoM]; · iexact HoM
      isplitl [Hoz0 Hoz1 Hoz2 Hoz3 Hoz4 Hoz5 Hoz6 Hoz7]
      · rw [bigSep_fin8]
        isplitl [Hoz0]; · iexact Hoz0
        isplitl [Hoz1]; · iexact Hoz1
        isplitl [Hoz2]; · iexact Hoz2
        isplitl [Hoz3]; · iexact Hoz3
        isplitl [Hoz4]; · iexact Hoz4
        isplitl [Hoz5]; · iexact Hoz5
        isplitl [Hoz6]; · iexact Hoz6
        iexact Hoz7
      isplitl [Hox0 Hox1 Hox2 Hox3 Hox4 Hox5 Hox6 Hox7]
      · rw [bigSep_fin8]
        isplitl [Hox0]; · iexact Hox0
        isplitl [Hox1]; · iexact Hox1
        isplitl [Hox2]; · iexact Hox2
        isplitl [Hox3]; · iexact Hox3
        isplitl [Hox4]; · iexact Hox4
        isplitl [Hox5]; · iexact Hox5
        isplitl [Hox6]; · iexact Hox6
        iexact Hox7
      rw [bigSep_fin8]
      isplitl [Hoy0]; · iexact Hoy0
      isplitl [Hoy1]; · iexact Hoy1
      isplitl [Hoy2]; · iexact Hoy2
      isplitl [Hoy3]; · iexact Hoy3
      isplitl [Hoy4]; · iexact Hoy4
      isplitl [Hoy5]; · iexact Hoy5
      isplitl [Hoy6]; · iexact Hoy6
      iexact Hoy7
    iexact Hz
  iexists _
  iexact HO

end Cert.Kernel.AG

end
-- ==== Proof.K.AGLaunch.lean ====
/-
  The launch.  Every device's DMA semaphores are the kernel's own; the barrier semaphore is the runtime's, so every cell's
  invariant is allocated for all devices under one update, and the duty tokens are dealt so that each device ends holding
  the tokens of the duties it pays: its signal on each neighbour's barrier cell, the receive duty of the eight transfers
  it sends each neighbour, and the duty of each of its own cells it pays itself.  The credit dealt at launch is, per
  cell, what all devices owe it: three units on a barrier cell (one from each neighbour) and the amount of the one
  transfer that lands on a receive cell.  The result and the argument are not staged: they travel through the launch
  as the unscoped rest, and are read back against the final state.
-/
import proofs.«900673_g7700000000000674_dist_ag_v7x_xyz2x2x2_z_m4096_n1024_bf16_1_alg».proof.Proof.K.AGState
import Idealize.ShloMosaic.Lib.Pipeline.Launch
import Idealize.ShloMosaic.Lib.Pipeline.Kit
import Idealize.ShloMosaic.Lib.Tactic

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

/-- The kernel's own semaphores: all of its DMA semaphores. -/
abbrev osem : Fin 85 → SemLoc sig := fun n => .dma n

theorem ownSemFacts : Pipeline.OwnSemFacts cfg0.spec osem := by decide

theorem ksem_injective : Function.Injective (ksem : Fin 86 → SemLoc sig) := by
  intro k k' h
  by_cases hk : k.val < 85 <;> by_cases hk' : k'.val < 85
  · have h' : (SemLoc.dma ⟨k.val, hk⟩ : SemLoc sig) = .dma ⟨k'.val, hk'⟩ := by
      have := h; simp only [ksem, dif_pos hk, dif_pos hk'] at this; exact this
    exact Fin.ext (Fin.mk.inj (SemLoc.dma.inj h'))
  · exfalso; simp only [ksem, dif_pos hk, dif_neg hk'] at h; cases h
  · exfalso; simp only [ksem, dif_neg hk, dif_pos hk'] at h; cases h
  · exact Fin.ext (by have := k.isLt; have := k'.isLt; omega)

theorem kcell_injective : Function.Injective (kcell : Dev nD × Fin 86 → GSem nD τ sig) := by
  rintro ⟨c, k⟩ ⟨c', k'⟩ h
  have h1 : c = c' := congrArg (fun g : GSem nD τ sig => g.1.1) h
  subst h1
  have h2 : ksem k = ksem k' := congrArg Prod.snd h
  rw [ksem_injective h2]

/-- Every cell of every device. -/
def allCells : Finset (GSem nD τ sig) := Finset.univ.map ⟨kcell, kcell_injective⟩

/-- The duty tokens as minted: per device the one duty of each DMA cell and the three of its barrier cell. -/
def tokOf : Dev nD × (Fin 85 ⊕ Fin 3) → GSem nD τ sig × ℕ × Fin 3
  | (c, .inl n) => (dcell c n.val n.isLt, 0, 0)
  | (c, .inr d) => (barCell c, 0, d)

theorem tokOf_injective : Function.Injective tokOf := by
  rintro ⟨c, a⟩ ⟨c', a'⟩ h
  have h1 : c = c' := by
    cases a <;> cases a' <;> exact congrArg (fun x : GSem nD τ sig × ℕ × Fin 3 => x.1.1.1) h
  subst h1
  cases a with
  | inl n =>
    cases a' with
    | inl n' =>
      have h2 : (SemLoc.dma ⟨n.val, n.isLt⟩ : SemLoc sig) = .dma ⟨n'.val, n'.isLt⟩ := congrArg (fun x : GSem nD τ sig × ℕ × Fin 3 => x.1.2) h
      have h3 : n = n' := Fin.ext (Fin.mk.inj (SemLoc.dma.inj h2))
      subst h3; rfl
    | inr d' => exact absurd (congrArg (fun x : GSem nD τ sig × ℕ × Fin 3 => x.1.2) h) (fun h' => by cases h')
  | inr d =>
    cases a' with
    | inl n' => exact absurd (congrArg (fun x : GSem nD τ sig × ℕ × Fin 3 => x.1.2) h) (fun h' => by cases h')
    | inr d' =>
      have h3 : d = d' := congrArg (fun x : GSem nD τ sig × ℕ × Fin 3 => x.2.2) h
      subst h3; rfl

def allToks : Finset (GSem nD τ sig × ℕ × Fin 3) := Finset.univ.map ⟨tokOf, tokOf_injective⟩

/-- The launch element: the pipeline library's (no staging cell) beside the rounds library's over every cell and token. -/
def u₀ : UU :=
  (initOf (Pipeline.cells cfgs cellOf_inj) (Pipeline.launchToks cfgs cellOf_inj), initOf allCells allToks)

/-- The duty tokens of device c's own cells. -/
def toks (c : Dev nD) : sProp 𝕄 :=
  iprop((bigSep Finset.univ fun n : Fin 85 => dutyTok ER (dcell c n.val n.isLt) 0 0) ∗ (bigSep Finset.univ fun d : Fin 3 => dutyTok ER (barCell c) 0 d))

/-- What the launch element deals device c. -/
def G (c : Dev nD) : sProp 𝕄 :=
  iprop((bigSep Finset.univ fun k : Fin 86 => roundState ER (agRd m) (kcell (c, k)) 0)
    ∗ (bigSep Finset.univ fun k : Fin 86 => iprop(atPos ER (kcell (c, k)) 0 ∅ 0 ∗ reached ER (kcell (c, k)) 0)) ∗ toks c)

/-- What the global step makes of it. -/
def G' (c : Dev nD) : sProp 𝕄 := iprop(∃ K, records m K ∗ positions c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 86 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (agRd m) allCells allToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, and the tokens dealt to their payers -/

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem kcell_dma (c : Dev nD) (n : Fin 85) : kcell (c, ⟨n.val, by omega⟩) = dcell c n.val n.isLt := by
  simp only [kcell, ksem, dif_pos n.isLt]
theorem kcell_bar (c : Dev nD) : kcell (c, ⟨85, by decide⟩) = barCell c := rfl

/-- A device's 86 cells: its 85 DMA cells, then its barrier cell. -/
theorem bigSep_cells (c : Dev nD) (Φ : GSem nD τ sig → sProp 𝕄) :
    (bigSep Finset.univ fun k : Fin 86 => Φ (kcell (c, k)))
      = iprop((bigSep Finset.univ fun n : Fin 85 => Φ (dcell c n.val n.isLt)) ∗ Φ (barCell c)) := by
  rw [bigSep_univ_equiv (finSumFinEquiv (m := 85) (n := 1)) (fun k : Fin 86 => Φ (kcell (c, k))), bigSep_univ_sum,
    bigSep_univ_of_subsingleton (0 : Fin 1)]
  refine congrArg₂ _ (bigSep_congr fun n _ => ?_) ?_
  · exact congrArg Φ (kcell_dma c n)
  · exact congrArg Φ (kcell_bar c)

theorem ownSems0_eq (c : Dev nD) : (Pipeline.ownSems0 (Ix := Unit) (Name := ℕ) (U := UU) (Lvl := ℕ) (Val := Elt F) (τ := τ) osem c : sProp 𝕄)
    = bigSep Finset.univ fun n : Fin 85 => semVal (dcell c n.val n.isLt) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 86 => semVal (kcell (c, k)) 0 : sProp 𝕄) := by
  rw [ownSems0_eq, unscopedSems0_eq, bigSep_cells c (fun g => semVal g 0)]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 86 => iprop(∃ κ : ℕ, cellInv ER (agRd m) κ (kcell (c, k))))
          ∗ (bigSep Finset.univ fun k : Fin 86 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 86 => semVal (kcell (c, k)) 0) ∗ bigSep Finset.univ fun k : Fin 86 => roundState ER (agRd m) (kcell (c, k)) 0)
      ⊢ (|={Set.univ}=> bigSep Finset.univ fun k : Fin 86 => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The three families of receive cells among a device's DMA cells. -/
def e20 : Fin 8 ↪ Fin 85 := ⟨fun j => ⟨20 + j.val, by omega⟩, fun a b h => Fin.ext (by have := congrArg Fin.val h; simp only at this; omega)⟩
def e36 : Fin 8 ↪ Fin 85 := ⟨fun j => ⟨36 + j.val, by omega⟩, fun a b h => Fin.ext (by have := congrArg Fin.val h; simp only at this; omega)⟩
def e52 : Fin 8 ↪ Fin 85 := ⟨fun j => ⟨52 + j.val, by omega⟩, fun a b h => Fin.ext (by have := congrArg Fin.val h; simp only at this; omega)⟩

theorem ownRecv_eq : ownRecv = Finset.univ.map e20 ∪ (Finset.univ.map e36 ∪ Finset.univ.map e52) := by decide
theorem univ85_eq : (Finset.univ : Finset (Fin 85)) = ownPaid ∪ ownRecv := by decide
theorem paid_recv_disj : Disjoint ownPaid ownRecv := by decide
theorem disj20 : Disjoint (Finset.univ.map e20) (Finset.univ.map e36 ∪ Finset.univ.map e52) := by decide
theorem disj36 : Disjoint (Finset.univ.map e36) (Finset.univ.map e52) := by decide

theorem bigSep_recv (Φ : Fin 85 → sProp 𝕄) :
    bigSep ownRecv Φ = iprop((bigSep Finset.univ fun j : Fin 8 => Φ (e20 j)) ∗ (bigSep Finset.univ fun k : Fin 8 => Φ (e36 k))
      ∗ (bigSep Finset.univ fun k : Fin 8 => Φ (e52 k))) := by
  rw [ownRecv_eq, bigSep_union disj20, bigSep_union disj36, bigSep_map, bigSep_map, bigSep_map]
  rfl

theorem bigSep_univ85 (Φ : Fin 85 → sProp 𝕄) : bigSep Finset.univ Φ = iprop(bigSep ownPaid Φ ∗ bigSep ownRecv Φ) := by
  rw [univ85_eq, bigSep_union paid_recv_disj]; rfl

/-- Flipping a coordinate, as a permutation of the devices. -/
def znE : Dev nD ≃ Dev nD := ⟨zn, zn, zn_zn, zn_zn⟩
def xnE : Dev nD ≃ Dev nD := ⟨xn, xn, xn_xn, xn_xn⟩
def ynE : Dev nD ≃ Dev nD := ⟨yn, yn, yn_yn, yn_yn⟩

/-- The tokens dealt to the payers: a barrier cell's three to the three neighbours, a receive cell's to the neighbour that
    transfers into it, the others stay. -/
theorem toks_around : (bigSep Finset.univ fun c : Dev nD => (toks c : sProp 𝕄)) ⊢ bigSep Finset.univ fun c : Dev nD => payToks c := by
  have hc (c : Dev nD) : (toks c : sProp 𝕄) = iprop(
      ((bigSep ownPaid fun n => dutyTok ER (dcell c n.val n.isLt) 0 0)
        ∗ (bigSep Finset.univ fun j : Fin 8 => dutyTok ER (dcell c (20 + j.val) (by omega)) 0 0)
        ∗ (bigSep Finset.univ fun k : Fin 8 => dutyTok ER (dcell c (36 + k.val) (by omega)) 0 0)
        ∗ (bigSep Finset.univ fun k : Fin 8 => dutyTok ER (dcell c (52 + k.val) (by omega)) 0 0))
      ∗ (dutyTok ER (barCell c) 0 0 ∗ dutyTok ER (barCell c) 0 1 ∗ dutyTok ER (barCell c) 0 2)) := by
    unfold toks
    rw [bigSep_univ85, bigSep_recv, bigSep_fin3]
    rfl
  rw [bigSep_congr fun c _ => hc c]
  unfold payToks
  simp only [bigSep_sep']
  rw [bigSep_univ_equiv znE (fun c : Dev nD => (dutyTok ER (barCell c) 0 0 : sProp 𝕄)),
    bigSep_univ_equiv xnE (fun c : Dev nD => (dutyTok ER (barCell c) 0 1 : sProp 𝕄)),
    bigSep_univ_equiv ynE (fun c : Dev nD => (dutyTok ER (barCell c) 0 2 : sProp 𝕄)),
    bigSep_univ_equiv znE (fun c : Dev nD => (bigSep Finset.univ fun j : Fin 8 => dutyTok ER (dcell c (20 + j.val) (by omega)) 0 0 : sProp 𝕄)),
    bigSep_univ_equiv xnE (fun c : Dev nD => (bigSep Finset.univ fun k : Fin 8 => dutyTok ER (dcell c (36 + k.val) (by omega)) 0 0 : sProp 𝕄)),
    bigSep_univ_equiv ynE (fun c : Dev nD => (bigSep Finset.univ fun k : Fin 8 => dutyTok ER (dcell c (52 + k.val) (by omega)) 0 0 : sProp 𝕄))]
  iintro ⟨⟨Hp, Hz, Hx, Hy⟩, Hb0, Hb1, Hb2⟩
  isplitl [Hb0]; · iexact Hb0
  isplitl [Hb1]; · iexact Hb1
  isplitl [Hb2]; · iexact Hb2
  isplitl [Hz]; · iexact Hz
  isplitl [Hx]; · iexact Hx
  isplitl [Hy]; · iexact Hy
  iexact Hp

theorem ghost_intro (K : Dev nD × Fin 86 → ℕ) (c : Dev nD) : iprop(records m K ∗ (positions c ∗ payToks c)) ⊢ G' m c := by
  unfold G'
  iintro ⟨HR, HP⟩
  iexists K
  isplitl [HR] <;> iassumption

theorem regroup :
    (bigSep Finset.univ fun c : Dev nD => iprop((bigSep Finset.univ fun k : Fin 86 => iprop(∃ κ : ℕ, cellInv ER (agRd m) κ (kcell (c, k))))
          ∗ (bigSep Finset.univ fun k : Fin 86 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 86 => iprop(∃ κ : ℕ, cellInv ER (agRd m) κ (kcell ck))),
    bigSep_congr (s := Finset.univ) (fun (c : Dev nD) _ => bigSep_sep' Finset.univ (fun k : Fin 86 => (atPos ER (kcell (c, k)) 0 ∅ 0 : sProp 𝕄)) (fun k => reached ER (kcell (c, k)) 0)),
    bigSep_sep', ← bigSep_univ_prod (fun ck : Dev nD × Fin 86 => (reached ER (kcell ck) 0 : sProp 𝕄))]
  iintro ⟨HI, ⟨Hat, #HR⟩, Htok⟩
  ihave HK := (BI.bigSep_exists_pi Finset.univ (fun (ck : Dev nD × Fin 86) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_zn {M : Type} [AddCommMonoid M] (g : Dev nD → M) : ∑ d, g (zn d) = ∑ d, g d := Equiv.sum_comp znE g
theorem sum_xn {M : Type} [AddCommMonoid M] (g : Dev nD → M) : ∑ d, g (xn d) = ∑ d, g d := Equiv.sum_comp xnE g
theorem sum_yn {M : Type} [AddCommMonoid M] (g : Dev nD → M) : ∑ d, g (yn d) = ∑ d, g d := Equiv.sum_comp ynE g

/-- What device d owes at launch, family by family: a unit to each neighbour's barrier cell, and to each neighbour the
    amounts of the eight transfers it sends it. -/
theorem owed0_eq (d : Dev nD) : owedAfter d 0 =
    tallyAt (barCell (zn d)) () 1 + tallyAt (barCell (xn d)) () 1 + tallyAt (barCell (yn d)) () 1
    + (∑ j : Fin 8, tallyAt (dcell (zn d) (20 + j.val) (by omega)) () (damt (20 + j.val)))
    + (∑ k : Fin 8, tallyAt (dcell (xn d) (36 + k.val) (by omega)) () (damt (36 + k.val)))
    + (∑ k : Fin 8, tallyAt (dcell (yn d) (52 + k.val) (by omega)) () (damt (52 + k.val))) := by
  rw [Fin.sum_univ_eight, Fin.sum_univ_eight, Fin.sum_univ_eight]
  show ((((((((((((((((((((((((((((0 : CellTallies nD τ sig Unit) + tallyAt (dcell (yn d) 57 (by decide)) () (damt 57)) + tallyAt (dcell (yn d) 56 (by decide)) () (damt 56)) + tallyAt (dcell (xn d) 41 (by decide)) () (damt 41)) + tallyAt (dcell (xn d) 40 (by decide)) () (damt 40)) + tallyAt (dcell (yn d) 59 (by decide)) () (damt 59)) + tallyAt (dcell (yn d) 58 (by decide)) () (damt 58)) + tallyAt (dcell (xn d) 43 (by decide)) () (damt 43)) + tallyAt (dcell (yn d) 55 (by decide)) () (damt 55)) + tallyAt (dcell (xn d) 39 (by decide)) () (damt 39)) + tallyAt (dcell (yn d) 54 (by decide)) () (damt 54)) + tallyAt (dcell (xn d) 38 (by decide)) () (damt 38)) + tallyAt (dcell (xn d) 42 (by decide)) () (damt 42)) + tallyAt (dcell (yn d) 53 (by decide)) () (damt 53)) + tallyAt (dcell (xn d) 37 (by decide)) () (damt 37)) + tallyAt (dcell (yn d) 52 (by decide)) () (damt 52)) + tallyAt (dcell (xn d) 36 (by decide)) () (damt 36)) + tallyAt (dcell (zn d) 27 (by decide)) () (damt 27)) + tallyAt (dcell (zn d) 26 (by decide)) () (damt 26)) + tallyAt (dcell (zn d) 25 (by decide)) () (damt 25)) + tallyAt (dcell (zn d) 24 (by decide)) () (damt 24)) + tallyAt (dcell (zn d) 23 (by decide)) () (damt 23)) + tallyAt (dcell (zn d) 22 (by decide)) () (damt 22)) + tallyAt (dcell (zn d) 21 (by decide)) () (damt 21)) + tallyAt (dcell (zn d) 20 (by decide)) () (damt 20)) + tallyAt (barCell (yn d)) () 1) + tallyAt (barCell (xn d)) () 1) + tallyAt (barCell (zn d)) () 1)
    = tallyAt (barCell (zn d)) () 1 + tallyAt (barCell (xn d)) () 1 + tallyAt (barCell (yn d)) () 1 + (tallyAt (dcell (zn d) 20 (by decide)) () (damt 20) + tallyAt (dcell (zn d) 21 (by decide)) () (damt 21) + tallyAt (dcell (zn d) 22 (by decide)) () (damt 22) + tallyAt (dcell (zn d) 23 (by decide)) () (damt 23) + tallyAt (dcell (zn d) 24 (by decide)) () (damt 24) + tallyAt (dcell (zn d) 25 (by decide)) () (damt 25) + tallyAt (dcell (zn d) 26 (by decide)) () (damt 26) + tallyAt (dcell (zn d) 27 (by decide)) () (damt 27)) + (tallyAt (dcell (xn d) 36 (by decide)) () (damt 36) + tallyAt (dcell (xn d) 37 (by decide)) () (damt 37) + tallyAt (dcell (xn d) 38 (by decide)) () (damt 38) + tallyAt (dcell (xn d) 39 (by decide)) () (damt 39) + tallyAt (dcell (xn d) 40 (by decide)) () (damt 40) + tallyAt (dcell (xn d) 41 (by decide)) () (damt 41) + tallyAt (dcell (xn d) 42 (by decide)) () (damt 42) + tallyAt (dcell (xn d) 43 (by decide)) () (damt 43)) + (tallyAt (dcell (yn d) 52 (by decide)) () (damt 52) + tallyAt (dcell (yn d) 53 (by decide)) () (damt 53) + tallyAt (dcell (yn d) 54 (by decide)) () (damt 54) + tallyAt (dcell (yn d) 55 (by decide)) () (damt 55) + tallyAt (dcell (yn d) 56 (by decide)) () (damt 56) + tallyAt (dcell (yn d) 57 (by decide)) () (damt 57) + tallyAt (dcell (yn d) 58 (by decide)) () (damt 58) + tallyAt (dcell (yn d) 59 (by decide)) () (damt 59))
  abel

/-- What all devices owe the cells of device c: three units on its barrier cell, and on each receive cell the amount of
    the one transfer that lands there. -/
def due (c : Dev nD) : CellTallies nD τ sig Unit :=
  tallyAt (barCell c) () 3
    + (∑ j : Fin 8, tallyAt (dcell c (20 + j.val) (by omega)) () (damt (20 + j.val)))
    + (∑ k : Fin 8, tallyAt (dcell c (36 + k.val) (by omega)) () (damt (36 + k.val)))
    + (∑ k : Fin 8, tallyAt (dcell c (52 + k.val) (by omega)) () (damt (52 + k.val)))

theorem owed_sum : (∑ d : Dev nD, owedAfter d 0) = ∑ d : Dev nD, due d := by
  simp only [owed0_eq, due, Finset.sum_add_distrib]
  rw [sum_zn (fun d => (tallyAt (barCell d) () 1 : CellTallies nD τ sig Unit)),
    sum_xn (fun d => (tallyAt (barCell d) () 1 : CellTallies nD τ sig Unit)),
    sum_yn (fun d => (tallyAt (barCell d) () 1 : CellTallies nD τ sig Unit)),
    sum_zn (fun d => ∑ j : Fin 8, (tallyAt (dcell d (20 + j.val) (by omega)) () (damt (20 + j.val)) : CellTallies nD τ sig Unit)),
    sum_xn (fun d => ∑ k : Fin 8, (tallyAt (dcell d (36 + k.val) (by omega)) () (damt (36 + k.val)) : CellTallies nD τ sig Unit)),
    sum_yn (fun d => ∑ k : Fin 8, (tallyAt (dcell d (52 + k.val) (by omega)) () (damt (52 + k.val)) : CellTallies nD τ sig Unit)),
    ← Finset.sum_add_distrib, ← Finset.sum_add_distrib]
  refine congrArg₂ _ (congrArg₂ _ (congrArg₂ _ (Finset.sum_congr rfl fun d _ => ?_) rfl) rfl) rfl
  rw [tallyAt_add, tallyAt_add]

/-- What is due to a device's cells sits on that device's cells. -/
theorem due_own (d : Dev nD) (g : GSem nD τ sig) (h : due d g ≠ 0) : g.1 = (d : Thread nD τ) := by
  by_contra hne
  refine h ?_
  have hz (sm : SemLoc sig) (k : ℕ) : (tallyAt (((d : Thread nD τ), sm) : GSem nD τ sig) () k : CellTallies nD τ sig Unit) g = 0 :=
    tallyAt_ne_cell (fun e => hne (congrArg Prod.fst e)) () k
  unfold due
  simp only [Pi.add_apply, Finset.sum_apply, hz, Finset.sum_const_zero, add_zero]

theorem creds_intro (c : Dev nD) : (Pipeline.launchCred (fun d => owedAfter d 0) c : sProp 𝕄) ⊢ creds c := by
  rw [Pipeline.launchCred_of_sum _ due owed_sum due_own c]
  unfold due creds
  rw [bigSep_recv]
  iintro H
  ihave H := (cred_add _ _).1 $$ H
  icases H with ⟨H, Hy⟩
  ihave H := (cred_add _ _).1 $$ H
  icases H with ⟨H, Hx⟩
  ihave H := (cred_add _ _).1 $$ H
  icases H with ⟨Hb, Hz⟩
  isplitl [Hb]; · iexact Hb
  isplitl [Hz]; · iapply (Entails.of_eq (Pipeline.cred_finsetSum _ _)); iexact Hz
  isplitl [Hx]; · iapply (Entails.of_eq (Pipeline.cred_finsetSum _ _)); iexact Hx
  iapply (Entails.of_eq (Pipeline.cred_finsetSum _ _)); iexact Hy

/-! ## The theorem's side conditions -/

/-- What a device holds when the region is entered: the ghost state, its argument as launched, its result at some contents. -/
def XX (c : Dev nD) : sProp 𝕄 :=
  iprop(start m c ∗ (((c : Thread nD τ).loc main_arg0) ↦{fullShare} X m c) ∗ someBuf c main_v1)

/-- What it holds of its arrays at the end: the argument unchanged, the result the whole array converted. -/
def YY (c : Dev nD) : sProp 𝕄 :=
  iprop((((c : Thread nD τ).loc main_arg0) ↦{fullShare} X m c) ∗ (((c : Thread nD τ).loc main_v1) ↦{fullShare} outV m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owedAfter d 0) c ∗ prngReg c (ρ c) ∗ G' m c)
      ⊢ |={Set.univ}=> iprop(XX m c ∗ emp) := by
  rw [Pipeline.unscopedRestP_none, unscopedRest0_eq]
  iintro ⟨⟨Ha, Hv⟩, Hlev, Hcr, -, HG⟩
  ihave Hc := (creds_intro (F := F) c) $$ Hcr
  imodintro
  unfold XX start G' someBuf
  isplitl
  · isplitl [HG Hc Hlev]
    · isplitl [HG]; · iexact HG
      isplitl [Hc]; · iexact Hc
      iexact Hlev
    isplitl [Ha]; · iexact Ha
    iexists _; iexact Hv
  · iempintro

theorem phi0_intro (c : Dev nD) :
    iprop(XX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ XX someBuf
  iintro ⟨⟨Hs, Ha, Hv⟩, -, Hr⟩
  isplitl [Hs]; · iexact Hs
  isplitl [Hr]; · iexact Hr
  isplitl [Ha]; · iexact Ha
  iexact Hv

theorem phi1_exit (c : Dev nD) :
    (dats m 0 c).Φ (Fin.last cfg0.N) ⊢ iprop(YY m c ∗ Pipeline.ownSems0 osem c ∗ Pipeline.scopedRest cfg0.spec c) := by
  rw [show (dats m 0 c).Φ (Fin.last cfg0.N) = Φ₁ m c from rfl, scopedRest0_eq, ownSems0_eq]
  unfold Φ₁ YY someBuf
  iintro ⟨Hr, Ha, Hv, Hz⟩
  isplitl [Ha Hv]
  · isplitl [Ha] <;> iassumption
  isplitl [Hz]; · iexact Hz
  iexact Hr

/-- No window is staged, so the pipeline itself waits on no cell. -/
theorem waits (c : Dev nD) : (levAts L lv : sProp 𝕄) ⊢ Pipeline.cellsWaits cfgs (dats m) () 0 c :=
  Pipeline.cellsWaits_intro cfgs (dats m) () 0 c fun w s t => w.elim0

/-! ## The run -/

/-- At the compiled mesh of eight devices, for any float values, from any memory with zero counters: given the body of one
    device, every weakly fair execution of @main terminates, and every final state has each device's result holding the
    gathered array and its argument unchanged. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c.tc : Thread nD τ).loc main_v1) = outV m c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun c w => w.elim0)
    (hdistinct := winFacts0.arr_inj)
    (O₀ := fun c => owedAfter c 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := XX m) (Y := YY m) (Z := fun _ => iprop(emp))
    (hX := start_intro m ρ) (hin := phi0_intro m) (hout := phi1_exit m)
    (QY := fun c s => s.mem ((c : Thread nD τ).loc main_v1) = outV m c ∧ s.mem ((c : Thread nD τ).loc main_arg0) = m ((c : Thread nD τ).loc main_arg0))
    (hY := fun c s' => by
      unfold YY
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

/-- info: 'Cert.Kernel.AG.run_main' depends on axioms: [propext, Classical.choice, Quot.sound] -/
#guard_msgs in #print axioms run_main

end Cert.Kernel.AG

end
-- ==== Proof.K.AGBody.lean ====
/-
  The body obligation of the pipeline's one point, from the body theorem; and the run of the whole program with the result named.
-/
import proofs.«900673_g7700000000000674_dist_ag_v7x_xyz2x2x2_z_m4096_n1024_bf16_1_alg».proof.Proof.K.AGRoot
import proofs.«900673_g7700000000000674_dist_ag_v7x_xyz2x2x2_z_m4096_n1024_bf16_1_alg».proof.Proof.K.AGLaunch

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_W0 (Φ : Fin cfg0.W → sProp 𝕄) : bigSep Finset.univ Φ = iprop(emp) := by
  rw [bigSep_univ_eq_bigSepL [] (by decide) (by decide)]; rfl

set_option maxRecDepth 65536 in
set_option maxHeartbeats 4000000 in
/-- The library's body obligation on device c: the one point's body from the invariant before to the invariant after. -/
theorem body_obligation (c : Dev nD) : BodyObligation (dats (F := F) m 0 c) (defs₀ (F := F)) 𝒱₀ () Set.univ := fun t => by
  rw [fin_N0 t, bigSep_W0, bigSep_W0]
  show iprop(Φ₀ m c ∗ (dats m 0 c).owesAt () t0_0.castSucc ∗ emp)
    ⊢ wp frame (wpE (defs₀ (F := F)) 𝒱₀ c none) Set.univ (bodyAt0 (F := F) t0_0)
        (fun _ => iprop(Φ₁ m c ∗ (dats m 0 c).owesAt () t0_0.succ ∗ emp))
  unfold Dat.owesAt Pipeline.owesWithin
  iintro ⟨HΦ, ⟨%W, %hW, HO⟩, -⟩
  iapply (wp_wand (Fr := frame) (wpE := wpE (defs₀ (F := F)) 𝒱₀ (c : Thread nD τ) none) (E := Set.univ)) $$ [HΦ HO]
  · iapply (sound_body m c W)
    isplitl [HΦ]; · iexact HΦ
    iexact HO
  iintro %r ⟨HΦ, ⟨%W', HO⟩⟩
  isplitl [HΦ]; · iexact HΦ
  isplitl [HO]
  · iexists W'
    isplitr; · ipureintro; exact fun _ _ => Or.inl trivial
    iexact HO
  iempintro

/-- Every weakly fair execution of the program on the eight devices terminates without a fault, each device's result holding the
    whole array converted and its argument unchanged. -/
theorem run_body (ρ : Dev nD → PrngReg) :
    θ_run defs (onTc (τ := τ) (main (F := F))) ⟨m, fun _ => 0, ρ⟩ (fun r => ∀ c : Dev nD,
      r.2.mem ((c.tc : Thread nD τ).loc main_v1) = outV m c ∧ r.2.mem ((c.tc : Thread nD τ).loc main_arg0) = m ((c.tc : Thread nD τ).loc main_arg0)) :=
  run_main m (body_obligation m) ρ

end Cert.Kernel.AG

end
-- ==== Proof.lean ====
/-
  The proof of the claim.

  The program is an all-gather along z on a 2 x 2 x 2 mesh.  Device (x, y, z) holds the z-th half of the rows of an array
  and must end holding the whole array converted to bf16.  Each device converts its own half and sends it, chunk by chunk,
  to its z-neighbour; a chunk that arrives from the z-neighbour is forwarded along x and along y, so that every device of a
  plane receives every row of the other half from the device that converted it, whatever road the row took; the device's
  own half and the received half are copied into the two halves of its result.

  Three facts make the claim.
  (1) The run: on the eight devices every weakly fair execution terminates and faults nowhere; each device's argument is
      unchanged, and its result holds, at a row of its own half, that row converted, and at a row of the other half, that
      row as converted by the device of the other plane that holds it.  This is proved once, for any float values, from
      the protocol: each semaphore is used for one round, whose duties are the one signal or the one transfer it counts;
      what a landing hands its waiter is the rows it wrote with their contents named; a device waits only on a cell that
      lies below every cell it still owes.  The word-level program is the same text over words and runs on the same
      protocol.
  (2) The value: at the idealized instance a change of float format is the identity on values, so every device's result is
      the whole array, row by row: a row of its own half is the row it launched with, which is that row of the whole array,
      and a row of the other half is the row a device of the other plane launched with, which is that row again.
  (3) The reference converts the whole array, which at the idealized instance is the whole array itself.

  So both programs run and leave their arguments unchanged, the idealization rewrote nothing, and every device's result
  equals the reference's.
-/
import proofs.«900673_g7700000000000674_dist_ag_v7x_xyz2x2x2_z_m4096_n1024_bf16_1_alg».proof.Proof.AGClaims
import proofs.«900673_g7700000000000674_dist_ag_v7x_xyz2x2x2_z_m4096_n1024_bf16_1_alg».proof.Proof.AGBody
import proofs.«900673_g7700000000000674_dist_ag_v7x_xyz2x2x2_z_m4096_n1024_bf16_1_alg».proof.Proof.K.AGBody

noncomputable section

namespace Cert.Proof

open Idealize.ShloMosaic Idealize.SL.Sem

/-- The claim: from the word-level program's run, with its result's value dropped, and the idealized program's run. -/
theorem claim : Cert.Claim :=
  Cert.AGClaims.claim_of
    (fun m g => (θ_run _ _ _).mono (fun _ h c => (h c).2) (Cert.Kernel.AG.run_body (F := Bits) m g))
    (fun m g => Cert.KernelIdeal.AG.run_body (F := Ideal) m g)

end Cert.Proof

end
